-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x32768 : Shape := ⟨3, ![4, 128, 32768]⟩
abbrev S4x16x32768 : Shape := ⟨3, ![4, 16, 32768]⟩
abbrev S_ : Shape := ⟨0, ![]⟩

class Facts : Prop where
  bcast_S_S4x128x32768 : S_.BroadcastsInDim S4x128x32768 (![] : Fin 0 → Fin S4x128x32768.rank)
  reducesTo_S4x128x32768_S_d0_1_2 : S4x128x32768.ReducesTo [0, 1, 2] S_
  h_S_ : 0 < S_.numel
  bcast_S_S4x16x32768 : S_.BroadcastsInDim S4x16x32768 (![] : Fin 0 → Fin S4x16x32768.rank)
  reducesTo_S4x16x32768_S_d0_1_2 : S4x16x32768.ReducesTo [0, 1, 2] S_

variable [Facts]

def fn {F : FTy → Type} [FloatOps F] (main_arg0 : FVec F S4x128x32768 .f32) (main_arg1 : IVec S4x16x32768 32) : IVec S_ 1 :=
  let main_v0 : FVec F S4x128x32768 .f32 := Host.absf main_arg0
  let main_cst : FVec F S_ .f32 := constant S_ .f32 0x7F800000#32
  let main_v1 : FVec F S4x128x32768 .f32 := broadcastInDim S4x128x32768 ![] bcast_S_S4x128x32768 main_cst
  let main_v2 : IVec S4x128x32768 1 := cmpf .olt main_v0 main_v1
  let main_c : IVec S_ 1 := constantI S_ 1 1#1
  let main_v3 : IVec S_ 1 := (fun x v => Host.reduce IntOp.andi x v reducesTo_S4x128x32768_S_d0_1_2 h_S_) main_v2 main_c
  let main_c_0 : IVec S_ 32 := constantI S_ 32 0#32
  let main_v4 : IVec S4x16x32768 32 := broadcastInDim S4x16x32768 ![] bcast_S_S4x16x32768 main_c_0
  let main_v5 : IVec S4x16x32768 1 := cmpi .sge main_arg1 main_v4
  let main_c_1 : IVec S_ 32 := constantI S_ 32 32768#32
  let main_v6 : IVec S4x16x32768 32 := broadcastInDim S4x16x32768 ![] bcast_S_S4x16x32768 main_c_1
  let main_v7 : IVec S4x16x32768 1 := cmpi .slt main_arg1 main_v6
  let main_v8 : IVec S4x16x32768 1 := andi main_v5 main_v7
  let main_c_2 : IVec S_ 1 := constantI S_ 1 1#1
  let main_v9 : IVec S_ 1 := (fun x v => Host.reduce IntOp.andi x v reducesTo_S4x16x32768_S_d0_1_2 h_S_) main_v8 main_c_2
  let main_v10 : IVec S_ 1 := andi main_v3 main_v9
  main_v10
-- ==== Kernel.lean ====
abbrev S4x128x32768 : Shape := ⟨3, ![4, 128, 32768]⟩
abbrev S4x16x32768 : Shape := ⟨3, ![4, 16, 32768]⟩
abbrev S4x32768x128 : Shape := ⟨3, ![4, 32768, 128]⟩
abbrev S4x32768x1x128 : Shape := ⟨4, ![4, 32768, 1, 128]⟩
abbrev S4x32768x16 : Shape := ⟨3, ![4, 32768, 16]⟩
abbrev S1x8x16 : Shape := ⟨3, ![1, 8, 16]⟩
abbrev S1x8x128 : Shape := ⟨3, ![1, 8, 128]⟩
abbrev S8x128 : Shape := ⟨2, ![8, 128]⟩
abbrev S2x1x128 : Shape := ⟨3, ![2, 1, 128]⟩
abbrev S2 : Shape := ⟨1, ![2]⟩
abbrev S1x1x1 : Shape := ⟨3, ![1, 1, 1]⟩
abbrev S1 : Shape := ⟨1, ![1]⟩
abbrev S_ : Shape := ⟨0, ![]⟩
abbrev S1x1x128 : Shape := ⟨3, ![1, 1, 128]⟩
abbrev S1x128 : Shape := ⟨2, ![1, 128]⟩
abbrev S1x1x1x128 : Shape := ⟨4, ![1, 1, 1, 128]⟩
abbrev S128 : Shape := ⟨1, ![128]⟩

abbrev nBuf : Space → Nat
  | .hbm => 7
  | .vmem => 4
  | .smem => 2
  | _ => 0

abbrev bufTy : (tb : Table) → Fin (tcTables nBuf tb) → BufTy
  | .hbm, ⟨0, _⟩ => ⟨S4x128x32768, .f32⟩
  | .hbm, ⟨1, _⟩ => ⟨S4x16x32768, .i32⟩
  | .hbm, ⟨2, _⟩ => ⟨S4x32768x128, .f32⟩
  | .hbm, ⟨3, _⟩ => ⟨S4x32768x1x128, .f32⟩
  | .hbm, ⟨4, _⟩ => ⟨S4x32768x16, .i32⟩
  | .hbm, ⟨5, _⟩ => ⟨S4x32768x128, .f32⟩
  | .hbm, ⟨6, _⟩ => ⟨S4x128x32768, .f32⟩
  | .local _ .vmem, ⟨0, _⟩ => ⟨S1x8x128, .f32⟩
  | .local _ .vmem, ⟨1, _⟩ => ⟨S1x8x128, .f32⟩
  | .local _ .vmem, ⟨2, _⟩ => ⟨S8x128, .f32⟩
  | .local _ .vmem, ⟨3, _⟩ => ⟨S2x1x128, .f32⟩
  | .local _ .smem, ⟨0, _⟩ => ⟨S1x8x16, .i32⟩
  | .local _ .smem, ⟨1, _⟩ => ⟨S1x8x16, .i32⟩
  | _, _ => ⟨S4x128x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg1_0 : Ref sig .tc := ⟨.vmem, 0, rfl⟩
abbrev cc0_stg1_1 : Ref sig .tc := ⟨.vmem, 1, rfl⟩
abbrev cc0_scratch0 : Ref sig .tc := ⟨.vmem, 2, rfl⟩
abbrev cc0_scratch1 : Ref sig .tc := ⟨.vmem, 3, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4096], ![false, false]⟩

def k0_off1 (i : grid0.Coords) (v4 : BitVec 32) : Fin 4 → Nat :=
  let arg0 : BitVec 32 := BitVec.ofNat 32 (i 0).val
  let c0_i32_7 : BitVec 32 := 0#32
  let c0_i32_8 : BitVec 32 := 0#32
  ![arg0.toNat, v4.toNat, 0, 0]

def k0_chk1 (i : grid0.Coords) (v4 : BitVec 32) : Prop :=
  (∀ a, (k0_off1 i v4) a + S1x1x1x128.size a ≤ S4x32768x1x128.size a)
instance k0_chk1.dec : ∀ (i : grid0.Coords) (v4 : BitVec 32), Decidable (k0_chk1 i v4) := fun i v4 => decidable_of_iff' _ (Iff.of_eq (k0_chk1.eq_1 i v4))
theorem k0_off1_inb : ∀ (i : grid0.Coords) (v4 : BitVec 32) (k0_hw1 : k0_chk1 i v4), ∀ a, (k0_off1 i v4) a + S1x1x1x128.size a ≤ S4x32768x1x128.size a := fun i v4 k0_hw1 => k0_hw1

def k0_off2 (i : grid0.Coords) : Fin 4 → Nat :=
  let arg0 : BitVec 32 := BitVec.ofNat 32 (i 0).val
  let c0_i32_9 : BitVec 32 := 0#32
  let c0_i32_14 : BitVec 32 := 0#32
  let c0_i32_15 : BitVec 32 := 0#32
  ![arg0.toNat, 0, 0, 0]
def k0_off3 (i : grid0.Coords) (v17 : BitVec 32) : Fin 4 → Nat :=
  let arg0 : BitVec 32 := BitVec.ofNat 32 (i 0).val
  let c0_i32_21 : BitVec 32 := 0#32
  let c0_i32_22 : BitVec 32 := 0#32
  ![arg0.toNat, v17.toNat, 0, 0]

def k0_chk2 (i : grid0.Coords) (v17 : BitVec 32) : Prop :=
  (∀ a, (k0_off3 i v17) a + S1x1x1x128.size a ≤ S4x32768x1x128.size a)
instance k0_chk2.dec : ∀ (i : grid0.Coords) (v17 : BitVec 32), Decidable (k0_chk2 i v17) := fun i v17 => decidable_of_iff' _ (Iff.of_eq (k0_chk2.eq_1 i v17))
theorem k0_off3_inb : ∀ (i : grid0.Coords) (v17 : BitVec 32) (k0_hw2 : k0_chk2 i v17), ∀ a, (k0_off3 i v17) a + S1x1x1x128.size a ≤ S4x32768x1x128.size a := fun i v17 k0_hw2 => k0_hw2

def k0_off4 (i : grid0.Coords) : Fin 4 → Nat :=
  let arg0 : BitVec 32 := BitVec.ofNat 32 (i 0).val
  let c0_i32_30 : BitVec 32 := 0#32
  let c0_i32_35 : BitVec 32 := 0#32
  let c0_i32_36 : BitVec 32 := 0#32
  ![arg0.toNat, 0, 0, 0]
def k0_off5 (i : grid0.Coords) (v39 : BitVec 32) : Fin 4 → Nat :=
  let arg0 : BitVec 32 := BitVec.ofNat 32 (i 0).val
  let c0_i32_43 : BitVec 32 := 0#32
  let c0_i32_44 : BitVec 32 := 0#32
  ![arg0.toNat, v39.toNat, 0, 0]

def k0_chk3 (i : grid0.Coords) (v39 : BitVec 32) : Prop :=
  (∀ a, (k0_off5 i v39) a + S1x1x1x128.size a ≤ S4x32768x1x128.size a)
instance k0_chk3.dec : ∀ (i : grid0.Coords) (v39 : BitVec 32), Decidable (k0_chk3 i v39) := fun i v39 => decidable_of_iff' _ (Iff.of_eq (k0_chk3.eq_1 i v39))
theorem k0_off5_inb : ∀ (i : grid0.Coords) (v39 : BitVec 32) (k0_hw3 : k0_chk3 i v39), ∀ a, (k0_off5 i v39) a + S1x1x1x128.size a ≤ S4x32768x1x128.size a := fun i v39 k0_hw3 => k0_hw3

def k0_off6 (i : grid0.Coords) : Fin 4 → Nat :=
  let arg0 : BitVec 32 := BitVec.ofNat 32 (i 0).val
  let c0_i32_52 : BitVec 32 := 0#32
  let c0_i32_57 : BitVec 32 := 0#32
  let c0_i32_58 : BitVec 32 := 0#32
  ![arg0.toNat, 0, 0, 0]
def k0_off7 (i : grid0.Coords) (v61 : BitVec 32) : Fin 4 → Nat :=
  let arg0 : BitVec 32 := BitVec.ofNat 32 (i 0).val
  let c0_i32_65 : BitVec 32 := 0#32
  let c0_i32_66 : BitVec 32 := 0#32
  ![arg0.toNat, v61.toNat, 0, 0]

def k0_chk4 (i : grid0.Coords) (v61 : BitVec 32) : Prop :=
  (∀ a, (k0_off7 i v61) a + S1x1x1x128.size a ≤ S4x32768x1x128.size a)
instance k0_chk4.dec : ∀ (i : grid0.Coords) (v61 : BitVec 32), Decidable (k0_chk4 i v61) := fun i v61 => decidable_of_iff' _ (Iff.of_eq (k0_chk4.eq_1 i v61))
theorem k0_off7_inb : ∀ (i : grid0.Coords) (v61 : BitVec 32) (k0_hw4 : k0_chk4 i v61), ∀ a, (k0_off7 i v61) a + S1x1x1x128.size a ≤ S4x32768x1x128.size a := fun i v61 k0_hw4 => k0_hw4

def k0_off8 (i : grid0.Coords) : Fin 4 → Nat :=
  let arg0 : BitVec 32 := BitVec.ofNat 32 (i 0).val
  let c0_i32_74 : BitVec 32 := 0#32
  let c0_i32_79 : BitVec 32 := 0#32
  let c0_i32_80 : BitVec 32 := 0#32
  ![arg0.toNat, 0, 0, 0]
def k0_off9 (i : grid0.Coords) (v83 : BitVec 32) : Fin 4 → Nat :=
  let arg0 : BitVec 32 := BitVec.ofNat 32 (i 0).val
  let c0_i32_87 : BitVec 32 := 0#32
  let c0_i32_88 : BitVec 32 := 0#32
  ![arg0.toNat, v83.toNat, 0, 0]

def k0_chk5 (i : grid0.Coords) (v83 : BitVec 32) : Prop :=
  (∀ a, (k0_off9 i v83) a + S1x1x1x128.size a ≤ S4x32768x1x128.size a)
instance k0_chk5.dec : ∀ (i : grid0.Coords) (v83 : BitVec 32), Decidable (k0_chk5 i v83) := fun i v83 => decidable_of_iff' _ (Iff.of_eq (k0_chk5.eq_1 i v83))
theorem k0_off9_inb : ∀ (i : grid0.Coords) (v83 : BitVec 32) (k0_hw5 : k0_chk5 i v83), ∀ a, (k0_off9 i v83) a + S1x1x1x128.size a ≤ S4x32768x1x128.size a := fun i v83 k0_hw5 => k0_hw5

def k0_off10 (i : grid0.Coords) : Fin 4 → Nat :=
  let arg0 : BitVec 32 := BitVec.ofNat 32 (i 0).val
  let c0_i32_96 : BitVec 32 := 0#32
  let c0_i32_101 : BitVec 32 := 0#32
  let c0_i32_102 : BitVec 32 := 0#32
  ![arg0.toNat, 0, 0, 0]
def k0_off11 (i : grid0.Coords) (v105 : BitVec 32) : Fin 4 → Nat :=
  let arg0 : BitVec 32 := BitVec.ofNat 32 (i 0).val
  let c0_i32_109 : BitVec 32 := 0#32
  let c0_i32_110 : BitVec 32 := 0#32
  ![arg0.toNat, v105.toNat, 0, 0]

def k0_chk6 (i : grid0.Coords) (v105 : BitVec 32) : Prop :=
  (∀ a, (k0_off11 i v105) a + S1x1x1x128.size a ≤ S4x32768x1x128.size a)
instance k0_chk6.dec : ∀ (i : grid0.Coords) (v105 : BitVec 32), Decidable (k0_chk6 i v105) := fun i v105 => decidable_of_iff' _ (Iff.of_eq (k0_chk6.eq_1 i v105))
theorem k0_off11_inb : ∀ (i : grid0.Coords) (v105 : BitVec 32) (k0_hw6 : k0_chk6 i v105), ∀ a, (k0_off11 i v105) a + S1x1x1x128.size a ≤ S4x32768x1x128.size a := fun i v105 k0_hw6 => k0_hw6

def k0_off12 (i : grid0.Coords) : Fin 4 → Nat :=
  let arg0 : BitVec 32 := BitVec.ofNat 32 (i 0).val
  let c0_i32_118 : BitVec 32 := 0#32
  let c0_i32_123 : BitVec 32 := 0#32
  let c0_i32_124 : BitVec 32 := 0#32
  ![arg0.toNat, 0, 0, 0]
def k0_off13 (i : grid0.Coords) (v127 : BitVec 32) : Fin 4 → Nat :=
  let arg0 : BitVec 32 := BitVec.ofNat 32 (i 0).val
  let c0_i32_131 : BitVec 32 := 0#32
  let c0_i32_132 : BitVec 32 := 0#32
  ![arg0.toNat, v127.toNat, 0, 0]

def k0_chk7 (i : grid0.Coords) (v127 : BitVec 32) : Prop :=
  (∀ a, (k0_off13 i v127) a + S1x1x1x128.size a ≤ S4x32768x1x128.size a)
instance k0_chk7.dec : ∀ (i : grid0.Coords) (v127 : BitVec 32), Decidable (k0_chk7 i v127) := fun i v127 => decidable_of_iff' _ (Iff.of_eq (k0_chk7.eq_1 i v127))
theorem k0_off13_inb : ∀ (i : grid0.Coords) (v127 : BitVec 32) (k0_hw7 : k0_chk7 i v127), ∀ a, (k0_off13 i v127) a + S1x1x1x128.size a ≤ S4x32768x1x128.size a := fun i v127 k0_hw7 => k0_hw7

def k0_off14 (i : grid0.Coords) : Fin 4 → Nat :=
  let arg0 : BitVec 32 := BitVec.ofNat 32 (i 0).val
  let c0_i32_140 : BitVec 32 := 0#32
  let c0_i32_145 : BitVec 32 := 0#32
  let c0_i32_146 : BitVec 32 := 0#32
  ![arg0.toNat, 0, 0, 0]
def k0_off15 (i : grid0.Coords) (v149 : BitVec 32) : Fin 4 → Nat :=
  let arg0 : BitVec 32 := BitVec.ofNat 32 (i 0).val
  let c0_i32_153 : BitVec 32 := 0#32
  let c0_i32_154 : BitVec 32 := 0#32
  ![arg0.toNat, v149.toNat, 0, 0]

def k0_chk8 (i : grid0.Coords) (v149 : BitVec 32) : Prop :=
  (∀ a, (k0_off15 i v149) a + S1x1x1x128.size a ≤ S4x32768x1x128.size a)
instance k0_chk8.dec : ∀ (i : grid0.Coords) (v149 : BitVec 32), Decidable (k0_chk8 i v149) := fun i v149 => decidable_of_iff' _ (Iff.of_eq (k0_chk8.eq_1 i v149))
theorem k0_off15_inb : ∀ (i : grid0.Coords) (v149 : BitVec 32) (k0_hw8 : k0_chk8 i v149), ∀ a, (k0_off15 i v149) a + S1x1x1x128.size a ≤ S4x32768x1x128.size a := fun i v149 k0_hw8 => k0_hw8

def k0_off16 (i : grid0.Coords) : Fin 4 → Nat :=
  let arg0 : BitVec 32 := BitVec.ofNat 32 (i 0).val
  let c0_i32_162 : BitVec 32 := 0#32
  let c0_i32_167 : BitVec 32 := 0#32
  let c0_i32_168 : BitVec 32 := 0#32
  ![arg0.toNat, 0, 0, 0]
def k0_off17 (i : grid0.Coords) (v171 : BitVec 32) : Fin 4 → Nat :=
  let arg0 : BitVec 32 := BitVec.ofNat 32 (i 0).val
  let c0_i32_175 : BitVec 32 := 0#32
  let c0_i32_176 : BitVec 32 := 0#32
  ![arg0.toNat, v171.toNat, 0, 0]

def k0_chk9 (i : grid0.Coords) (v171 : BitVec 32) : Prop :=
  (∀ a, (k0_off17 i v171) a + S1x1x1x128.size a ≤ S4x32768x1x128.size a)
instance k0_chk9.dec : ∀ (i : grid0.Coords) (v171 : BitVec 32), Decidable (k0_chk9 i v171) := fun i v171 => decidable_of_iff' _ (Iff.of_eq (k0_chk9.eq_1 i v171))
theorem k0_off17_inb : ∀ (i : grid0.Coords) (v171 : BitVec 32) (k0_hw9 : k0_chk9 i v171), ∀ a, (k0_off17 i v171) a + S1x1x1x128.size a ≤ S4x32768x1x128.size a := fun i v171 k0_hw9 => k0_hw9

def k0_off18 (i : grid0.Coords) : Fin 4 → Nat :=
  let arg0 : BitVec 32 := BitVec.ofNat 32 (i 0).val
  let c0_i32_184 : BitVec 32 := 0#32
  let c0_i32_189 : BitVec 32 := 0#32
  let c0_i32_190 : BitVec 32 := 0#32
  ![arg0.toNat, 0, 0, 0]
def k0_off19 (i : grid0.Coords) (v193 : BitVec 32) : Fin 4 → Nat :=
  let arg0 : BitVec 32 := BitVec.ofNat 32 (i 0).val
  let c0_i32_197 : BitVec 32 := 0#32
  let c0_i32_198 : BitVec 32 := 0#32
  ![arg0.toNat, v193.toNat, 0, 0]

def k0_chk10 (i : grid0.Coords) (v193 : BitVec 32) : Prop :=
  (∀ a, (k0_off19 i v193) a + S1x1x1x128.size a ≤ S4x32768x1x128.size a)
instance k0_chk10.dec : ∀ (i : grid0.Coords) (v193 : BitVec 32), Decidable (k0_chk10 i v193) := fun i v193 => decidable_of_iff' _ (Iff.of_eq (k0_chk10.eq_1 i v193))
theorem k0_off19_inb : ∀ (i : grid0.Coords) (v193 : BitVec 32) (k0_hw10 : k0_chk10 i v193), ∀ a, (k0_off19 i v193) a + S1x1x1x128.size a ≤ S4x32768x1x128.size a := fun i v193 k0_hw10 => k0_hw10

def k0_off20 (i : grid0.Coords) : Fin 4 → Nat :=
  let arg0 : BitVec 32 := BitVec.ofNat 32 (i 0).val
  let c0_i32_206 : BitVec 32 := 0#32
  let c0_i32_211 : BitVec 32 := 0#32
  let c0_i32_212 : BitVec 32 := 0#32
  ![arg0.toNat, 0, 0, 0]
def k0_off21 (i : grid0.Coords) (v215 : BitVec 32) : Fin 4 → Nat :=
  let arg0 : BitVec 32 := BitVec.ofNat 32 (i 0).val
  let c0_i32_219 : BitVec 32 := 0#32
  let c0_i32_220 : BitVec 32 := 0#32
  ![arg0.toNat, v215.toNat, 0, 0]

def k0_chk11 (i : grid0.Coords) (v215 : BitVec 32) : Prop :=
  (∀ a, (k0_off21 i v215) a + S1x1x1x128.size a ≤ S4x32768x1x128.size a)
instance k0_chk11.dec : ∀ (i : grid0.Coords) (v215 : BitVec 32), Decidable (k0_chk11 i v215) := fun i v215 => decidable_of_iff' _ (Iff.of_eq (k0_chk11.eq_1 i v215))
theorem k0_off21_inb : ∀ (i : grid0.Coords) (v215 : BitVec 32) (k0_hw11 : k0_chk11 i v215), ∀ a, (k0_off21 i v215) a + S1x1x1x128.size a ≤ S4x32768x1x128.size a := fun i v215 k0_hw11 => k0_hw11

def k0_off22 (i : grid0.Coords) : Fin 4 → Nat :=
  let arg0 : BitVec 32 := BitVec.ofNat 32 (i 0).val
  let c0_i32_228 : BitVec 32 := 0#32
  let c0_i32_233 : BitVec 32 := 0#32
  let c0_i32_234 : BitVec 32 := 0#32
  ![arg0.toNat, 0, 0, 0]
def k0_off23 (i : grid0.Coords) (v237 : BitVec 32) : Fin 4 → Nat :=
  let arg0 : BitVec 32 := BitVec.ofNat 32 (i 0).val
  let c0_i32_241 : BitVec 32 := 0#32
  let c0_i32_242 : BitVec 32 := 0#32
  ![arg0.toNat, v237.toNat, 0, 0]

def k0_chk12 (i : grid0.Coords) (v237 : BitVec 32) : Prop :=
  (∀ a, (k0_off23 i v237) a + S1x1x1x128.size a ≤ S4x32768x1x128.size a)
instance k0_chk12.dec : ∀ (i : grid0.Coords) (v237 : BitVec 32), Decidable (k0_chk12 i v237) := fun i v237 => decidable_of_iff' _ (Iff.of_eq (k0_chk12.eq_1 i v237))
theorem k0_off23_inb : ∀ (i : grid0.Coords) (v237 : BitVec 32) (k0_hw12 : k0_chk12 i v237), ∀ a, (k0_off23 i v237) a + S1x1x1x128.size a ≤ S4x32768x1x128.size a := fun i v237 k0_hw12 => k0_hw12

def k0_off24 (i : grid0.Coords) : Fin 4 → Nat :=
  let arg0 : BitVec 32 := BitVec.ofNat 32 (i 0).val
  let c0_i32_250 : BitVec 32 := 0#32
  let c0_i32_255 : BitVec 32 := 0#32
  let c0_i32_256 : BitVec 32 := 0#32
  ![arg0.toNat, 0, 0, 0]
def k0_off25 (i : grid0.Coords) (v259 : BitVec 32) : Fin 4 → Nat :=
  let arg0 : BitVec 32 := BitVec.ofNat 32 (i 0).val
  let c0_i32_263 : BitVec 32 := 0#32
  let c0_i32_264 : BitVec 32 := 0#32
  ![arg0.toNat, v259.toNat, 0, 0]

def k0_chk13 (i : grid0.Coords) (v259 : BitVec 32) : Prop :=
  (∀ a, (k0_off25 i v259) a + S1x1x1x128.size a ≤ S4x32768x1x128.size a)
instance k0_chk13.dec : ∀ (i : grid0.Coords) (v259 : BitVec 32), Decidable (k0_chk13 i v259) := fun i v259 => decidable_of_iff' _ (Iff.of_eq (k0_chk13.eq_1 i v259))
theorem k0_off25_inb : ∀ (i : grid0.Coords) (v259 : BitVec 32) (k0_hw13 : k0_chk13 i v259), ∀ a, (k0_off25 i v259) a + S1x1x1x128.size a ≤ S4x32768x1x128.size a := fun i v259 k0_hw13 => k0_hw13

def k0_off26 (i : grid0.Coords) : Fin 4 → Nat :=
  let arg0 : BitVec 32 := BitVec.ofNat 32 (i 0).val
  let c0_i32_272 : BitVec 32 := 0#32
  let c0_i32_277 : BitVec 32 := 0#32
  let c0_i32_278 : BitVec 32 := 0#32
  ![arg0.toNat, 0, 0, 0]
def k0_off27 (i : grid0.Coords) (v281 : BitVec 32) : Fin 4 → Nat :=
  let arg0 : BitVec 32 := BitVec.ofNat 32 (i 0).val
  let c0_i32_285 : BitVec 32 := 0#32
  let c0_i32_286 : BitVec 32 := 0#32
  ![arg0.toNat, v281.toNat, 0, 0]

def k0_chk14 (i : grid0.Coords) (v281 : BitVec 32) : Prop :=
  (∀ a, (k0_off27 i v281) a + S1x1x1x128.size a ≤ S4x32768x1x128.size a)
instance k0_chk14.dec : ∀ (i : grid0.Coords) (v281 : BitVec 32), Decidable (k0_chk14 i v281) := fun i v281 => decidable_of_iff' _ (Iff.of_eq (k0_chk14.eq_1 i v281))
theorem k0_off27_inb : ∀ (i : grid0.Coords) (v281 : BitVec 32) (k0_hw14 : k0_chk14 i v281), ∀ a, (k0_off27 i v281) a + S1x1x1x128.size a ≤ S4x32768x1x128.size a := fun i v281 k0_hw14 => k0_hw14

def k0_off28 (i : grid0.Coords) : Fin 4 → Nat :=
  let arg0 : BitVec 32 := BitVec.ofNat 32 (i 0).val
  let c0_i32_294 : BitVec 32 := 0#32
  let c0_i32_299 : BitVec 32 := 0#32
  let c0_i32_300 : BitVec 32 := 0#32
  ![arg0.toNat, 0, 0, 0]
def k0_off29 (i : grid0.Coords) (v303 : BitVec 32) : Fin 4 → Nat :=
  let arg0 : BitVec 32 := BitVec.ofNat 32 (i 0).val
  let c0_i32_307 : BitVec 32 := 0#32
  let c0_i32_308 : BitVec 32 := 0#32
  ![arg0.toNat, v303.toNat, 0, 0]

def k0_chk15 (i : grid0.Coords) (v303 : BitVec 32) : Prop :=
  (∀ a, (k0_off29 i v303) a + S1x1x1x128.size a ≤ S4x32768x1x128.size a)
instance k0_chk15.dec : ∀ (i : grid0.Coords) (v303 : BitVec 32), Decidable (k0_chk15 i v303) := fun i v303 => decidable_of_iff' _ (Iff.of_eq (k0_chk15.eq_1 i v303))
theorem k0_off29_inb : ∀ (i : grid0.Coords) (v303 : BitVec 32) (k0_hw15 : k0_chk15 i v303), ∀ a, (k0_off29 i v303) a + S1x1x1x128.size a ≤ S4x32768x1x128.size a := fun i v303 k0_hw15 => k0_hw15

def k0_off30 (i : grid0.Coords) : Fin 4 → Nat :=
  let arg0 : BitVec 32 := BitVec.ofNat 32 (i 0).val
  let c0_i32_316 : BitVec 32 := 0#32
  let c0_i32_321 : BitVec 32 := 0#32
  let c0_i32_322 : BitVec 32 := 0#32
  ![arg0.toNat, 0, 0, 0]
def k0_off31 (i : grid0.Coords) (v325 : BitVec 32) : Fin 4 → Nat :=
  let arg0 : BitVec 32 := BitVec.ofNat 32 (i 0).val
  let c0_i32_329 : BitVec 32 := 0#32
  let c0_i32_330 : BitVec 32 := 0#32
  ![arg0.toNat, v325.toNat, 0, 0]

def k0_chk16 (i : grid0.Coords) (v325 : BitVec 32) : Prop :=
  (∀ a, (k0_off31 i v325) a + S1x1x1x128.size a ≤ S4x32768x1x128.size a)
instance k0_chk16.dec : ∀ (i : grid0.Coords) (v325 : BitVec 32), Decidable (k0_chk16 i v325) := fun i v325 => decidable_of_iff' _ (Iff.of_eq (k0_chk16.eq_1 i v325))
theorem k0_off31_inb : ∀ (i : grid0.Coords) (v325 : BitVec 32) (k0_hw16 : k0_chk16 i v325), ∀ a, (k0_off31 i v325) a + S1x1x1x128.size a ≤ S4x32768x1x128.size a := fun i v325 k0_hw16 => k0_hw16

def k0_off32 (i : grid0.Coords) : Fin 4 → Nat :=
  let arg0 : BitVec 32 := BitVec.ofNat 32 (i 0).val
  let c0_i32_338 : BitVec 32 := 0#32
  let c0_i32_343 : BitVec 32 := 0#32
  let c0_i32_344 : BitVec 32 := 0#32
  ![arg0.toNat, 0, 0, 0]
def k0_off33 (i : grid0.Coords) (v347 : BitVec 32) : Fin 4 → Nat :=
  let arg0 : BitVec 32 := BitVec.ofNat 32 (i 0).val
  let c0_i32_352 : BitVec 32 := 0#32
  let c0_i32_353 : BitVec 32 := 0#32
  ![arg0.toNat, v347.toNat, 0, 0]

def k0_chk17 (i : grid0.Coords) (v347 : BitVec 32) : Prop :=
  (∀ a, (k0_off33 i v347) a + S1x1x1x128.size a ≤ S4x32768x1x128.size a)
instance k0_chk17.dec : ∀ (i : grid0.Coords) (v347 : BitVec 32), Decidable (k0_chk17 i v347) := fun i v347 => decidable_of_iff' _ (Iff.of_eq (k0_chk17.eq_1 i v347))
theorem k0_off33_inb : ∀ (i : grid0.Coords) (v347 : BitVec 32) (k0_hw17 : k0_chk17 i v347), ∀ a, (k0_off33 i v347) a + S1x1x1x128.size a ≤ S4x32768x1x128.size a := fun i v347 k0_hw17 => k0_hw17

def k0_off34 (i : grid0.Coords) : Fin 4 → Nat :=
  let arg0 : BitVec 32 := BitVec.ofNat 32 (i 0).val
  let c0_i32_361 : BitVec 32 := 0#32
  let c0_i32_366 : BitVec 32 := 0#32
  let c0_i32_367 : BitVec 32 := 0#32
  ![arg0.toNat, 0, 0, 0]
def k0_off35 (i : grid0.Coords) (v369 : BitVec 32) : Fin 4 → Nat :=
  let arg0 : BitVec 32 := BitVec.ofNat 32 (i 0).val
  let c0_i32_375 : BitVec 32 := 0#32
  let c0_i32_376 : BitVec 32 := 0#32
  ![arg0.toNat, v369.toNat, 0, 0]

def k0_chk18 (i : grid0.Coords) (v369 : BitVec 32) : Prop :=
  (∀ a, (k0_off35 i v369) a + S1x1x1x128.size a ≤ S4x32768x1x128.size a)
instance k0_chk18.dec : ∀ (i : grid0.Coords) (v369 : BitVec 32), Decidable (k0_chk18 i v369) := fun i v369 => decidable_of_iff' _ (Iff.of_eq (k0_chk18.eq_1 i v369))
theorem k0_off35_inb : ∀ (i : grid0.Coords) (v369 : BitVec 32) (k0_hw18 : k0_chk18 i v369), ∀ a, (k0_off35 i v369) a + S1x1x1x128.size a ≤ S4x32768x1x128.size a := fun i v369 k0_hw18 => k0_hw18

def k0_off36 (i : grid0.Coords) : Fin 4 → Nat :=
  let arg0 : BitVec 32 := BitVec.ofNat 32 (i 0).val
  let c0_i32_384 : BitVec 32 := 0#32
  let c0_i32_389 : BitVec 32 := 0#32
  let c0_i32_390 : BitVec 32 := 0#32
  ![arg0.toNat, 0, 0, 0]
def k0_off37 (i : grid0.Coords) (v391 : BitVec 32) : Fin 4 → Nat :=
  let arg0 : BitVec 32 := BitVec.ofNat 32 (i 0).val
  let c0_i32_398 : BitVec 32 := 0#32
  let c0_i32_399 : BitVec 32 := 0#32
  ![arg0.toNat, v391.toNat, 0, 0]

def k0_chk19 (i : grid0.Coords) (v391 : BitVec 32) : Prop :=
  (∀ a, (k0_off37 i v391) a + S1x1x1x128.size a ≤ S4x32768x1x128.size a)
instance k0_chk19.dec : ∀ (i : grid0.Coords) (v391 : BitVec 32), Decidable (k0_chk19 i v391) := fun i v391 => decidable_of_iff' _ (Iff.of_eq (k0_chk19.eq_1 i v391))
theorem k0_off37_inb : ∀ (i : grid0.Coords) (v391 : BitVec 32) (k0_hw19 : k0_chk19 i v391), ∀ a, (k0_off37 i v391) a + S1x1x1x128.size a ≤ S4x32768x1x128.size a := fun i v391 k0_hw19 => k0_hw19

def k0_off38 (i : grid0.Coords) : Fin 4 → Nat :=
  let arg0 : BitVec 32 := BitVec.ofNat 32 (i 0).val
  let c0_i32_407 : BitVec 32 := 0#32
  let c0_i32_412 : BitVec 32 := 0#32
  let c0_i32_413 : BitVec 32 := 0#32
  ![arg0.toNat, 0, 0, 0]
def k0_off39 (i : grid0.Coords) (v413 : BitVec 32) : Fin 4 → Nat :=
  let arg0 : BitVec 32 := BitVec.ofNat 32 (i 0).val
  let c0_i32_421 : BitVec 32 := 0#32
  let c0_i32_422 : BitVec 32 := 0#32
  ![arg0.toNat, v413.toNat, 0, 0]

def k0_chk20 (i : grid0.Coords) (v413 : BitVec 32) : Prop :=
  (∀ a, (k0_off39 i v413) a + S1x1x1x128.size a ≤ S4x32768x1x128.size a)
instance k0_chk20.dec : ∀ (i : grid0.Coords) (v413 : BitVec 32), Decidable (k0_chk20 i v413) := fun i v413 => decidable_of_iff' _ (Iff.of_eq (k0_chk20.eq_1 i v413))
theorem k0_off39_inb : ∀ (i : grid0.Coords) (v413 : BitVec 32) (k0_hw20 : k0_chk20 i v413), ∀ a, (k0_off39 i v413) a + S1x1x1x128.size a ≤ S4x32768x1x128.size a := fun i v413 k0_hw20 => k0_hw20

def k0_off40 (i : grid0.Coords) : Fin 4 → Nat :=
  let arg0 : BitVec 32 := BitVec.ofNat 32 (i 0).val
  let c0_i32_430 : BitVec 32 := 0#32
  let c0_i32_435 : BitVec 32 := 0#32
  let c0_i32_436 : BitVec 32 := 0#32
  ![arg0.toNat, 0, 0, 0]
def k0_off41 (i : grid0.Coords) (v435 : BitVec 32) : Fin 4 → Nat :=
  let arg0 : BitVec 32 := BitVec.ofNat 32 (i 0).val
  let c0_i32_444 : BitVec 32 := 0#32
  let c0_i32_445 : BitVec 32 := 0#32
  ![arg0.toNat, v435.toNat, 0, 0]

def k0_chk21 (i : grid0.Coords) (v435 : BitVec 32) : Prop :=
  (∀ a, (k0_off41 i v435) a + S1x1x1x128.size a ≤ S4x32768x1x128.size a)
instance k0_chk21.dec : ∀ (i : grid0.Coords) (v435 : BitVec 32), Decidable (k0_chk21 i v435) := fun i v435 => decidable_of_iff' _ (Iff.of_eq (k0_chk21.eq_1 i v435))
theorem k0_off41_inb : ∀ (i : grid0.Coords) (v435 : BitVec 32) (k0_hw21 : k0_chk21 i v435), ∀ a, (k0_off41 i v435) a + S1x1x1x128.size a ≤ S4x32768x1x128.size a := fun i v435 k0_hw21 => k0_hw21

def k0_off42 (i : grid0.Coords) : Fin 4 → Nat :=
  let arg0 : BitVec 32 := BitVec.ofNat 32 (i 0).val
  let c0_i32_453 : BitVec 32 := 0#32
  let c0_i32_458 : BitVec 32 := 0#32
  let c0_i32_459 : BitVec 32 := 0#32
  ![arg0.toNat, 0, 0, 0]
def k0_off43 (i : grid0.Coords) (v457 : BitVec 32) : Fin 4 → Nat :=
  let arg0 : BitVec 32 := BitVec.ofNat 32 (i 0).val
  let c0_i32_467 : BitVec 32 := 0#32
  let c0_i32_468 : BitVec 32 := 0#32
  ![arg0.toNat, v457.toNat, 0, 0]

def k0_chk22 (i : grid0.Coords) (v457 : BitVec 32) : Prop :=
  (∀ a, (k0_off43 i v457) a + S1x1x1x128.size a ≤ S4x32768x1x128.size a)
instance k0_chk22.dec : ∀ (i : grid0.Coords) (v457 : BitVec 32), Decidable (k0_chk22 i v457) := fun i v457 => decidable_of_iff' _ (Iff.of_eq (k0_chk22.eq_1 i v457))
theorem k0_off43_inb : ∀ (i : grid0.Coords) (v457 : BitVec 32) (k0_hw22 : k0_chk22 i v457), ∀ a, (k0_off43 i v457) a + S1x1x1x128.size a ≤ S4x32768x1x128.size a := fun i v457 k0_hw22 => k0_hw22

def k0_off44 (i : grid0.Coords) : Fin 4 → Nat :=
  let arg0 : BitVec 32 := BitVec.ofNat 32 (i 0).val
  let c0_i32_476 : BitVec 32 := 0#32
  let c0_i32_481 : BitVec 32 := 0#32
  let c0_i32_482 : BitVec 32 := 0#32
  ![arg0.toNat, 0, 0, 0]
def k0_off45 (i : grid0.Coords) (v479 : BitVec 32) : Fin 4 → Nat :=
  let arg0 : BitVec 32 := BitVec.ofNat 32 (i 0).val
  let c0_i32_490 : BitVec 32 := 0#32
  let c0_i32_491 : BitVec 32 := 0#32
  ![arg0.toNat, v479.toNat, 0, 0]

def k0_chk23 (i : grid0.Coords) (v479 : BitVec 32) : Prop :=
  (∀ a, (k0_off45 i v479) a + S1x1x1x128.size a ≤ S4x32768x1x128.size a)
instance k0_chk23.dec : ∀ (i : grid0.Coords) (v479 : BitVec 32), Decidable (k0_chk23 i v479) := fun i v479 => decidable_of_iff' _ (Iff.of_eq (k0_chk23.eq_1 i v479))
theorem k0_off45_inb : ∀ (i : grid0.Coords) (v479 : BitVec 32) (k0_hw23 : k0_chk23 i v479), ∀ a, (k0_off45 i v479) a + S1x1x1x128.size a ≤ S4x32768x1x128.size a := fun i v479 k0_hw23 => k0_hw23

def k0_off46 (i : grid0.Coords) : Fin 4 → Nat :=
  let arg0 : BitVec 32 := BitVec.ofNat 32 (i 0).val
  let c0_i32_499 : BitVec 32 := 0#32
  let c0_i32_504 : BitVec 32 := 0#32
  let c0_i32_505 : BitVec 32 := 0#32
  ![arg0.toNat, 0, 0, 0]
def k0_off47 (i : grid0.Coords) (v501 : BitVec 32) : Fin 4 → Nat :=
  let arg0 : BitVec 32 := BitVec.ofNat 32 (i 0).val
  let c0_i32_513 : BitVec 32 := 0#32
  let c0_i32_514 : BitVec 32 := 0#32
  ![arg0.toNat, v501.toNat, 0, 0]

def k0_chk24 (i : grid0.Coords) (v501 : BitVec 32) : Prop :=
  (∀ a, (k0_off47 i v501) a + S1x1x1x128.size a ≤ S4x32768x1x128.size a)
instance k0_chk24.dec : ∀ (i : grid0.Coords) (v501 : BitVec 32), Decidable (k0_chk24 i v501) := fun i v501 => decidable_of_iff' _ (Iff.of_eq (k0_chk24.eq_1 i v501))
theorem k0_off47_inb : ∀ (i : grid0.Coords) (v501 : BitVec 32) (k0_hw24 : k0_chk24 i v501), ∀ a, (k0_off47 i v501) a + S1x1x1x128.size a ≤ S4x32768x1x128.size a := fun i v501 k0_hw24 => k0_hw24

def k0_off48 (i : grid0.Coords) : Fin 4 → Nat :=
  let arg0 : BitVec 32 := BitVec.ofNat 32 (i 0).val
  let c0_i32_522 : BitVec 32 := 0#32
  let c0_i32_527 : BitVec 32 := 0#32
  let c0_i32_528 : BitVec 32 := 0#32
  ![arg0.toNat, 0, 0, 0]
def k0_off49 (i : grid0.Coords) (v523 : BitVec 32) : Fin 4 → Nat :=
  let arg0 : BitVec 32 := BitVec.ofNat 32 (i 0).val
  let c0_i32_536 : BitVec 32 := 0#32
  let c0_i32_537 : BitVec 32 := 0#32
  ![arg0.toNat, v523.toNat, 0, 0]

def k0_chk25 (i : grid0.Coords) (v523 : BitVec 32) : Prop :=
  (∀ a, (k0_off49 i v523) a + S1x1x1x128.size a ≤ S4x32768x1x128.size a)
instance k0_chk25.dec : ∀ (i : grid0.Coords) (v523 : BitVec 32), Decidable (k0_chk25 i v523) := fun i v523 => decidable_of_iff' _ (Iff.of_eq (k0_chk25.eq_1 i v523))
theorem k0_off49_inb : ∀ (i : grid0.Coords) (v523 : BitVec 32) (k0_hw25 : k0_chk25 i v523), ∀ a, (k0_off49 i v523) a + S1x1x1x128.size a ≤ S4x32768x1x128.size a := fun i v523 k0_hw25 => k0_hw25

def k0_off50 (i : grid0.Coords) : Fin 4 → Nat :=
  let arg0 : BitVec 32 := BitVec.ofNat 32 (i 0).val
  let c0_i32_545 : BitVec 32 := 0#32
  let c0_i32_550 : BitVec 32 := 0#32
  let c0_i32_551 : BitVec 32 := 0#32
  ![arg0.toNat, 0, 0, 0]
def k0_off51 (i : grid0.Coords) (v545 : BitVec 32) : Fin 4 → Nat :=
  let arg0 : BitVec 32 := BitVec.ofNat 32 (i 0).val
  let c0_i32_559 : BitVec 32 := 0#32
  let c0_i32_560 : BitVec 32 := 0#32
  ![arg0.toNat, v545.toNat, 0, 0]

def k0_chk26 (i : grid0.Coords) (v545 : BitVec 32) : Prop :=
  (∀ a, (k0_off51 i v545) a + S1x1x1x128.size a ≤ S4x32768x1x128.size a)
instance k0_chk26.dec : ∀ (i : grid0.Coords) (v545 : BitVec 32), Decidable (k0_chk26 i v545) := fun i v545 => decidable_of_iff' _ (Iff.of_eq (k0_chk26.eq_1 i v545))
theorem k0_off51_inb : ∀ (i : grid0.Coords) (v545 : BitVec 32) (k0_hw26 : k0_chk26 i v545), ∀ a, (k0_off51 i v545) a + S1x1x1x128.size a ≤ S4x32768x1x128.size a := fun i v545 k0_hw26 => k0_hw26

def k0_off52 (i : grid0.Coords) : Fin 4 → Nat :=
  let arg0 : BitVec 32 := BitVec.ofNat 32 (i 0).val
  let c0_i32_568 : BitVec 32 := 0#32
  let c0_i32_573 : BitVec 32 := 0#32
  let c0_i32_574 : BitVec 32 := 0#32
  ![arg0.toNat, 0, 0, 0]
def k0_off53 (i : grid0.Coords) (v567 : BitVec 32) : Fin 4 → Nat :=
  let arg0 : BitVec 32 := BitVec.ofNat 32 (i 0).val
  let c0_i32_582 : BitVec 32 := 0#32
  let c0_i32_583 : BitVec 32 := 0#32
  ![arg0.toNat, v567.toNat, 0, 0]

def k0_chk27 (i : grid0.Coords) (v567 : BitVec 32) : Prop :=
  (∀ a, (k0_off53 i v567) a + S1x1x1x128.size a ≤ S4x32768x1x128.size a)
instance k0_chk27.dec : ∀ (i : grid0.Coords) (v567 : BitVec 32), Decidable (k0_chk27 i v567) := fun i v567 => decidable_of_iff' _ (Iff.of_eq (k0_chk27.eq_1 i v567))
theorem k0_off53_inb : ∀ (i : grid0.Coords) (v567 : BitVec 32) (k0_hw27 : k0_chk27 i v567), ∀ a, (k0_off53 i v567) a + S1x1x1x128.size a ≤ S4x32768x1x128.size a := fun i v567 k0_hw27 => k0_hw27

def k0_off54 (i : grid0.Coords) : Fin 4 → Nat :=
  let arg0 : BitVec 32 := BitVec.ofNat 32 (i 0).val
  let c0_i32_591 : BitVec 32 := 0#32
  let c0_i32_596 : BitVec 32 := 0#32
  let c0_i32_597 : BitVec 32 := 0#32
  ![arg0.toNat, 0, 0, 0]
def k0_off55 (i : grid0.Coords) (v589 : BitVec 32) : Fin 4 → Nat :=
  let arg0 : BitVec 32 := BitVec.ofNat 32 (i 0).val
  let c0_i32_605 : BitVec 32 := 0#32
  let c0_i32_606 : BitVec 32 := 0#32
  ![arg0.toNat, v589.toNat, 0, 0]

def k0_chk28 (i : grid0.Coords) (v589 : BitVec 32) : Prop :=
  (∀ a, (k0_off55 i v589) a + S1x1x1x128.size a ≤ S4x32768x1x128.size a)
instance k0_chk28.dec : ∀ (i : grid0.Coords) (v589 : BitVec 32), Decidable (k0_chk28 i v589) := fun i v589 => decidable_of_iff' _ (Iff.of_eq (k0_chk28.eq_1 i v589))
theorem k0_off55_inb : ∀ (i : grid0.Coords) (v589 : BitVec 32) (k0_hw28 : k0_chk28 i v589), ∀ a, (k0_off55 i v589) a + S1x1x1x128.size a ≤ S4x32768x1x128.size a := fun i v589 k0_hw28 => k0_hw28

def k0_off56 (i : grid0.Coords) : Fin 4 → Nat :=
  let arg0 : BitVec 32 := BitVec.ofNat 32 (i 0).val
  let c0_i32_614 : BitVec 32 := 0#32
  let c0_i32_619 : BitVec 32 := 0#32
  let c0_i32_620 : BitVec 32 := 0#32
  ![arg0.toNat, 0, 0, 0]
def k0_off57 (i : grid0.Coords) (v611 : BitVec 32) : Fin 4 → Nat :=
  let arg0 : BitVec 32 := BitVec.ofNat 32 (i 0).val
  let c0_i32_628 : BitVec 32 := 0#32
  let c0_i32_629 : BitVec 32 := 0#32
  ![arg0.toNat, v611.toNat, 0, 0]

def k0_chk29 (i : grid0.Coords) (v611 : BitVec 32) : Prop :=
  (∀ a, (k0_off57 i v611) a + S1x1x1x128.size a ≤ S4x32768x1x128.size a)
instance k0_chk29.dec : ∀ (i : grid0.Coords) (v611 : BitVec 32), Decidable (k0_chk29 i v611) := fun i v611 => decidable_of_iff' _ (Iff.of_eq (k0_chk29.eq_1 i v611))
theorem k0_off57_inb : ∀ (i : grid0.Coords) (v611 : BitVec 32) (k0_hw29 : k0_chk29 i v611), ∀ a, (k0_off57 i v611) a + S1x1x1x128.size a ≤ S4x32768x1x128.size a := fun i v611 k0_hw29 => k0_hw29

def k0_off58 (i : grid0.Coords) : Fin 4 → Nat :=
  let arg0 : BitVec 32 := BitVec.ofNat 32 (i 0).val
  let c0_i32_637 : BitVec 32 := 0#32
  let c0_i32_642 : BitVec 32 := 0#32
  let c0_i32_643 : BitVec 32 := 0#32
  ![arg0.toNat, 0, 0, 0]
def k0_off59 (i : grid0.Coords) (v633 : BitVec 32) : Fin 4 → Nat :=
  let arg0 : BitVec 32 := BitVec.ofNat 32 (i 0).val
  let c0_i32_651 : BitVec 32 := 0#32
  let c0_i32_652 : BitVec 32 := 0#32
  ![arg0.toNat, v633.toNat, 0, 0]

def k0_chk30 (i : grid0.Coords) (v633 : BitVec 32) : Prop :=
  (∀ a, (k0_off59 i v633) a + S1x1x1x128.size a ≤ S4x32768x1x128.size a)
instance k0_chk30.dec : ∀ (i : grid0.Coords) (v633 : BitVec 32), Decidable (k0_chk30 i v633) := fun i v633 => decidable_of_iff' _ (Iff.of_eq (k0_chk30.eq_1 i v633))
theorem k0_off59_inb : ∀ (i : grid0.Coords) (v633 : BitVec 32) (k0_hw30 : k0_chk30 i v633), ∀ a, (k0_off59 i v633) a + S1x1x1x128.size a ≤ S4x32768x1x128.size a := fun i v633 k0_hw30 => k0_hw30

def k0_off60 (i : grid0.Coords) : Fin 4 → Nat :=
  let arg0 : BitVec 32 := BitVec.ofNat 32 (i 0).val
  let c0_i32_660 : BitVec 32 := 0#32
  let c0_i32_665 : BitVec 32 := 0#32
  let c0_i32_666 : BitVec 32 := 0#32
  ![arg0.toNat, 0, 0, 0]
def k0_off61 (i : grid0.Coords) (v655 : BitVec 32) : Fin 4 → Nat :=
  let arg0 : BitVec 32 := BitVec.ofNat 32 (i 0).val
  let c0_i32_674 : BitVec 32 := 0#32
  let c0_i32_675 : BitVec 32 := 0#32
  ![arg0.toNat, v655.toNat, 0, 0]

def k0_chk31 (i : grid0.Coords) (v655 : BitVec 32) : Prop :=
  (∀ a, (k0_off61 i v655) a + S1x1x1x128.size a ≤ S4x32768x1x128.size a)
instance k0_chk31.dec : ∀ (i : grid0.Coords) (v655 : BitVec 32), Decidable (k0_chk31 i v655) := fun i v655 => decidable_of_iff' _ (Iff.of_eq (k0_chk31.eq_1 i v655))
theorem k0_off61_inb : ∀ (i : grid0.Coords) (v655 : BitVec 32) (k0_hw31 : k0_chk31 i v655), ∀ a, (k0_off61 i v655) a + S1x1x1x128.size a ≤ S4x32768x1x128.size a := fun i v655 k0_hw31 => k0_hw31

def k0_off62 (i : grid0.Coords) : Fin 4 → Nat :=
  let arg0 : BitVec 32 := BitVec.ofNat 32 (i 0).val
  let c0_i32_683 : BitVec 32 := 0#32
  let c0_i32_688 : BitVec 32 := 0#32
  let c0_i32_689 : BitVec 32 := 0#32
  ![arg0.toNat, 0, 0, 0]
def k0_off63 (i : grid0.Coords) (v677 : BitVec 32) : Fin 4 → Nat :=
  let arg0 : BitVec 32 := BitVec.ofNat 32 (i 0).val
  let c0_i32_697 : BitVec 32 := 0#32
  let c0_i32_698 : BitVec 32 := 0#32
  ![arg0.toNat, v677.toNat, 0, 0]

def k0_chk32 (i : grid0.Coords) (v677 : BitVec 32) : Prop :=
  (∀ a, (k0_off63 i v677) a + S1x1x1x128.size a ≤ S4x32768x1x128.size a)
instance k0_chk32.dec : ∀ (i : grid0.Coords) (v677 : BitVec 32), Decidable (k0_chk32 i v677) := fun i v677 => decidable_of_iff' _ (Iff.of_eq (k0_chk32.eq_1 i v677))
theorem k0_off63_inb : ∀ (i : grid0.Coords) (v677 : BitVec 32) (k0_hw32 : k0_chk32 i v677), ∀ a, (k0_off63 i v677) a + S1x1x1x128.size a ≤ S4x32768x1x128.size a := fun i v677 k0_hw32 => k0_hw32

def k0_off64 (i : grid0.Coords) : Fin 4 → Nat :=
  let arg0 : BitVec 32 := BitVec.ofNat 32 (i 0).val
  let c0_i32_706 : BitVec 32 := 0#32
  let c0_i32_711 : BitVec 32 := 0#32
  let c0_i32_712 : BitVec 32 := 0#32
  ![arg0.toNat, 0, 0, 0]
def k0_off65 (i : grid0.Coords) (v699 : BitVec 32) : Fin 4 → Nat :=
  let arg0 : BitVec 32 := BitVec.ofNat 32 (i 0).val
  let c0_i32_720 : BitVec 32 := 0#32
  let c0_i32_721 : BitVec 32 := 0#32
  ![arg0.toNat, v699.toNat, 0, 0]

def k0_chk33 (i : grid0.Coords) (v699 : BitVec 32) : Prop :=
  (∀ a, (k0_off65 i v699) a + S1x1x1x128.size a ≤ S4x32768x1x128.size a)
instance k0_chk33.dec : ∀ (i : grid0.Coords) (v699 : BitVec 32), Decidable (k0_chk33 i v699) := fun i v699 => decidable_of_iff' _ (Iff.of_eq (k0_chk33.eq_1 i v699))
theorem k0_off65_inb : ∀ (i : grid0.Coords) (v699 : BitVec 32) (k0_hw33 : k0_chk33 i v699), ∀ a, (k0_off65 i v699) a + S1x1x1x128.size a ≤ S4x32768x1x128.size a := fun i v699 k0_hw33 => k0_hw33

def k0_off66 (i : grid0.Coords) : Fin 4 → Nat :=
  let arg0 : BitVec 32 := BitVec.ofNat 32 (i 0).val
  let c0_i32_729 : BitVec 32 := 0#32
  let c0_i32_734 : BitVec 32 := 0#32
  let c0_i32_735 : BitVec 32 := 0#32
  ![arg0.toNat, 0, 0, 0]
def k0_off67 (i : grid0.Coords) (v721 : BitVec 32) : Fin 4 → Nat :=
  let arg0 : BitVec 32 := BitVec.ofNat 32 (i 0).val
  let c0_i32_743 : BitVec 32 := 0#32
  let c0_i32_744 : BitVec 32 := 0#32
  ![arg0.toNat, v721.toNat, 0, 0]

def k0_chk34 (i : grid0.Coords) (v721 : BitVec 32) : Prop :=
  (∀ a, (k0_off67 i v721) a + S1x1x1x128.size a ≤ S4x32768x1x128.size a)
instance k0_chk34.dec : ∀ (i : grid0.Coords) (v721 : BitVec 32), Decidable (k0_chk34 i v721) := fun i v721 => decidable_of_iff' _ (Iff.of_eq (k0_chk34.eq_1 i v721))
theorem k0_off67_inb : ∀ (i : grid0.Coords) (v721 : BitVec 32) (k0_hw34 : k0_chk34 i v721), ∀ a, (k0_off67 i v721) a + S1x1x1x128.size a ≤ S4x32768x1x128.size a := fun i v721 k0_hw34 => k0_hw34

def k0_off68 (i : grid0.Coords) : Fin 4 → Nat :=
  let arg0 : BitVec 32 := BitVec.ofNat 32 (i 0).val
  let c0_i32_752 : BitVec 32 := 0#32
  let c0_i32_757 : BitVec 32 := 0#32
  let c0_i32_758 : BitVec 32 := 0#32
  ![arg0.toNat, 0, 0, 0]
def k0_off69 (i : grid0.Coords) (v743 : BitVec 32) : Fin 4 → Nat :=
  let arg0 : BitVec 32 := BitVec.ofNat 32 (i 0).val
  let c0_i32_766 : BitVec 32 := 0#32
  let c0_i32_767 : BitVec 32 := 0#32
  ![arg0.toNat, v743.toNat, 0, 0]

def k0_chk35 (i : grid0.Coords) (v743 : BitVec 32) : Prop :=
  (∀ a, (k0_off69 i v743) a + S1x1x1x128.size a ≤ S4x32768x1x128.size a)
instance k0_chk35.dec : ∀ (i : grid0.Coords) (v743 : BitVec 32), Decidable (k0_chk35 i v743) := fun i v743 => decidable_of_iff' _ (Iff.of_eq (k0_chk35.eq_1 i v743))
theorem k0_off69_inb : ∀ (i : grid0.Coords) (v743 : BitVec 32) (k0_hw35 : k0_chk35 i v743), ∀ a, (k0_off69 i v743) a + S1x1x1x128.size a ≤ S4x32768x1x128.size a := fun i v743 k0_hw35 => k0_hw35

def k0_off70 (i : grid0.Coords) : Fin 4 → Nat :=
  let arg0 : BitVec 32 := BitVec.ofNat 32 (i 0).val
  let c0_i32_775 : BitVec 32 := 0#32
  let c0_i32_780 : BitVec 32 := 0#32
  let c0_i32_781 : BitVec 32 := 0#32
  ![arg0.toNat, 0, 0, 0]
def k0_off71 (i : grid0.Coords) (v765 : BitVec 32) : Fin 4 → Nat :=
  let arg0 : BitVec 32 := BitVec.ofNat 32 (i 0).val
  let c0_i32_789 : BitVec 32 := 0#32
  let c0_i32_790 : BitVec 32 := 0#32
  ![arg0.toNat, v765.toNat, 0, 0]

def k0_chk36 (i : grid0.Coords) (v765 : BitVec 32) : Prop :=
  (∀ a, (k0_off71 i v765) a + S1x1x1x128.size a ≤ S4x32768x1x128.size a)
instance k0_chk36.dec : ∀ (i : grid0.Coords) (v765 : BitVec 32), Decidable (k0_chk36 i v765) := fun i v765 => decidable_of_iff' _ (Iff.of_eq (k0_chk36.eq_1 i v765))
theorem k0_off71_inb : ∀ (i : grid0.Coords) (v765 : BitVec 32) (k0_hw36 : k0_chk36 i v765), ∀ a, (k0_off71 i v765) a + S1x1x1x128.size a ≤ S4x32768x1x128.size a := fun i v765 k0_hw36 => k0_hw36

def k0_off72 (i : grid0.Coords) : Fin 4 → Nat :=
  let arg0 : BitVec 32 := BitVec.ofNat 32 (i 0).val
  let c0_i32_798 : BitVec 32 := 0#32
  let c0_i32_803 : BitVec 32 := 0#32
  let c0_i32_804 : BitVec 32 := 0#32
  ![arg0.toNat, 0, 0, 0]
def k0_off73 (i : grid0.Coords) (v787 : BitVec 32) : Fin 4 → Nat :=
  let arg0 : BitVec 32 := BitVec.ofNat 32 (i 0).val
  let c0_i32_812 : BitVec 32 := 0#32
  let c0_i32_813 : BitVec 32 := 0#32
  ![arg0.toNat, v787.toNat, 0, 0]

def k0_chk37 (i : grid0.Coords) (v787 : BitVec 32) : Prop :=
  (∀ a, (k0_off73 i v787) a + S1x1x1x128.size a ≤ S4x32768x1x128.size a)
instance k0_chk37.dec : ∀ (i : grid0.Coords) (v787 : BitVec 32), Decidable (k0_chk37 i v787) := fun i v787 => decidable_of_iff' _ (Iff.of_eq (k0_chk37.eq_1 i v787))
theorem k0_off73_inb : ∀ (i : grid0.Coords) (v787 : BitVec 32) (k0_hw37 : k0_chk37 i v787), ∀ a, (k0_off73 i v787) a + S1x1x1x128.size a ≤ S4x32768x1x128.size a := fun i v787 k0_hw37 => k0_hw37

def k0_off74 (i : grid0.Coords) : Fin 4 → Nat :=
  let arg0 : BitVec 32 := BitVec.ofNat 32 (i 0).val
  let c0_i32_821 : BitVec 32 := 0#32
  let c0_i32_826 : BitVec 32 := 0#32
  let c0_i32_827 : BitVec 32 := 0#32
  ![arg0.toNat, 0, 0, 0]
def k0_off75 (i : grid0.Coords) (v809 : BitVec 32) : Fin 4 → Nat :=
  let arg0 : BitVec 32 := BitVec.ofNat 32 (i 0).val
  let c0_i32_835 : BitVec 32 := 0#32
  let c0_i32_836 : BitVec 32 := 0#32
  ![arg0.toNat, v809.toNat, 0, 0]

def k0_chk38 (i : grid0.Coords) (v809 : BitVec 32) : Prop :=
  (∀ a, (k0_off75 i v809) a + S1x1x1x128.size a ≤ S4x32768x1x128.size a)
instance k0_chk38.dec : ∀ (i : grid0.Coords) (v809 : BitVec 32), Decidable (k0_chk38 i v809) := fun i v809 => decidable_of_iff' _ (Iff.of_eq (k0_chk38.eq_1 i v809))
theorem k0_off75_inb : ∀ (i : grid0.Coords) (v809 : BitVec 32) (k0_hw38 : k0_chk38 i v809), ∀ a, (k0_off75 i v809) a + S1x1x1x128.size a ≤ S4x32768x1x128.size a := fun i v809 k0_hw38 => k0_hw38

def k0_off76 (i : grid0.Coords) : Fin 4 → Nat :=
  let arg0 : BitVec 32 := BitVec.ofNat 32 (i 0).val
  let c0_i32_844 : BitVec 32 := 0#32
  let c0_i32_849 : BitVec 32 := 0#32
  let c0_i32_850 : BitVec 32 := 0#32
  ![arg0.toNat, 0, 0, 0]
def k0_off77 (i : grid0.Coords) (v831 : BitVec 32) : Fin 4 → Nat :=
  let arg0 : BitVec 32 := BitVec.ofNat 32 (i 0).val
  let c0_i32_858 : BitVec 32 := 0#32
  let c0_i32_859 : BitVec 32 := 0#32
  ![arg0.toNat, v831.toNat, 0, 0]

def k0_chk39 (i : grid0.Coords) (v831 : BitVec 32) : Prop :=
  (∀ a, (k0_off77 i v831) a + S1x1x1x128.size a ≤ S4x32768x1x128.size a)
instance k0_chk39.dec : ∀ (i : grid0.Coords) (v831 : BitVec 32), Decidable (k0_chk39 i v831) := fun i v831 => decidable_of_iff' _ (Iff.of_eq (k0_chk39.eq_1 i v831))
theorem k0_off77_inb : ∀ (i : grid0.Coords) (v831 : BitVec 32) (k0_hw39 : k0_chk39 i v831), ∀ a, (k0_off77 i v831) a + S1x1x1x128.size a ≤ S4x32768x1x128.size a := fun i v831 k0_hw39 => k0_hw39

def k0_off78 (i : grid0.Coords) : Fin 4 → Nat :=
  let arg0 : BitVec 32 := BitVec.ofNat 32 (i 0).val
  let c0_i32_867 : BitVec 32 := 0#32
  let c0_i32_872 : BitVec 32 := 0#32
  let c0_i32_873 : BitVec 32 := 0#32
  ![arg0.toNat, 0, 0, 0]
def k0_off79 (i : grid0.Coords) (v853 : BitVec 32) : Fin 4 → Nat :=
  let arg0 : BitVec 32 := BitVec.ofNat 32 (i 0).val
  let c0_i32_881 : BitVec 32 := 0#32
  let c0_i32_882 : BitVec 32 := 0#32
  ![arg0.toNat, v853.toNat, 0, 0]

def k0_chk40 (i : grid0.Coords) (v853 : BitVec 32) : Prop :=
  (∀ a, (k0_off79 i v853) a + S1x1x1x128.size a ≤ S4x32768x1x128.size a)
instance k0_chk40.dec : ∀ (i : grid0.Coords) (v853 : BitVec 32), Decidable (k0_chk40 i v853) := fun i v853 => decidable_of_iff' _ (Iff.of_eq (k0_chk40.eq_1 i v853))
theorem k0_off79_inb : ∀ (i : grid0.Coords) (v853 : BitVec 32) (k0_hw40 : k0_chk40 i v853), ∀ a, (k0_off79 i v853) a + S1x1x1x128.size a ≤ S4x32768x1x128.size a := fun i v853 k0_hw40 => k0_hw40

def k0_off80 (i : grid0.Coords) : Fin 4 → Nat :=
  let arg0 : BitVec 32 := BitVec.ofNat 32 (i 0).val
  let c0_i32_890 : BitVec 32 := 0#32
  let c0_i32_895 : BitVec 32 := 0#32
  let c0_i32_896 : BitVec 32 := 0#32
  ![arg0.toNat, 0, 0, 0]
def k0_off81 (i : grid0.Coords) (v875 : BitVec 32) : Fin 4 → Nat :=
  let arg0 : BitVec 32 := BitVec.ofNat 32 (i 0).val
  let c0_i32_904 : BitVec 32 := 0#32
  let c0_i32_905 : BitVec 32 := 0#32
  ![arg0.toNat, v875.toNat, 0, 0]

def k0_chk41 (i : grid0.Coords) (v875 : BitVec 32) : Prop :=
  (∀ a, (k0_off81 i v875) a + S1x1x1x128.size a ≤ S4x32768x1x128.size a)
instance k0_chk41.dec : ∀ (i : grid0.Coords) (v875 : BitVec 32), Decidable (k0_chk41 i v875) := fun i v875 => decidable_of_iff' _ (Iff.of_eq (k0_chk41.eq_1 i v875))
theorem k0_off81_inb : ∀ (i : grid0.Coords) (v875 : BitVec 32) (k0_hw41 : k0_chk41 i v875), ∀ a, (k0_off81 i v875) a + S1x1x1x128.size a ≤ S4x32768x1x128.size a := fun i v875 k0_hw41 => k0_hw41

def k0_off82 (i : grid0.Coords) : Fin 4 → Nat :=
  let arg0 : BitVec 32 := BitVec.ofNat 32 (i 0).val
  let c0_i32_913 : BitVec 32 := 0#32
  let c0_i32_918 : BitVec 32 := 0#32
  let c0_i32_919 : BitVec 32 := 0#32
  ![arg0.toNat, 0, 0, 0]
def k0_off83 (i : grid0.Coords) (v897 : BitVec 32) : Fin 4 → Nat :=
  let arg0 : BitVec 32 := BitVec.ofNat 32 (i 0).val
  let c0_i32_927 : BitVec 32 := 0#32
  let c0_i32_928 : BitVec 32 := 0#32
  ![arg0.toNat, v897.toNat, 0, 0]

def k0_chk42 (i : grid0.Coords) (v897 : BitVec 32) : Prop :=
  (∀ a, (k0_off83 i v897) a + S1x1x1x128.size a ≤ S4x32768x1x128.size a)
instance k0_chk42.dec : ∀ (i : grid0.Coords) (v897 : BitVec 32), Decidable (k0_chk42 i v897) := fun i v897 => decidable_of_iff' _ (Iff.of_eq (k0_chk42.eq_1 i v897))
theorem k0_off83_inb : ∀ (i : grid0.Coords) (v897 : BitVec 32) (k0_hw42 : k0_chk42 i v897), ∀ a, (k0_off83 i v897) a + S1x1x1x128.size a ≤ S4x32768x1x128.size a := fun i v897 k0_hw42 => k0_hw42

def k0_off84 (i : grid0.Coords) : Fin 4 → Nat :=
  let arg0 : BitVec 32 := BitVec.ofNat 32 (i 0).val
  let c0_i32_936 : BitVec 32 := 0#32
  let c0_i32_941 : BitVec 32 := 0#32
  let c0_i32_942 : BitVec 32 := 0#32
  ![arg0.toNat, 0, 0, 0]
def k0_off85 (i : grid0.Coords) (v919 : BitVec 32) : Fin 4 → Nat :=
  let arg0 : BitVec 32 := BitVec.ofNat 32 (i 0).val
  let c0_i32_950 : BitVec 32 := 0#32
  let c0_i32_951 : BitVec 32 := 0#32
  ![arg0.toNat, v919.toNat, 0, 0]

def k0_chk43 (i : grid0.Coords) (v919 : BitVec 32) : Prop :=
  (∀ a, (k0_off85 i v919) a + S1x1x1x128.size a ≤ S4x32768x1x128.size a)
instance k0_chk43.dec : ∀ (i : grid0.Coords) (v919 : BitVec 32), Decidable (k0_chk43 i v919) := fun i v919 => decidable_of_iff' _ (Iff.of_eq (k0_chk43.eq_1 i v919))
theorem k0_off85_inb : ∀ (i : grid0.Coords) (v919 : BitVec 32) (k0_hw43 : k0_chk43 i v919), ∀ a, (k0_off85 i v919) a + S1x1x1x128.size a ≤ S4x32768x1x128.size a := fun i v919 k0_hw43 => k0_hw43

def k0_off86 (i : grid0.Coords) : Fin 4 → Nat :=
  let arg0 : BitVec 32 := BitVec.ofNat 32 (i 0).val
  let c0_i32_959 : BitVec 32 := 0#32
  let c0_i32_964 : BitVec 32 := 0#32
  let c0_i32_965 : BitVec 32 := 0#32
  ![arg0.toNat, 0, 0, 0]
def k0_off87 (i : grid0.Coords) (v941 : BitVec 32) : Fin 4 → Nat :=
  let arg0 : BitVec 32 := BitVec.ofNat 32 (i 0).val
  let c0_i32_973 : BitVec 32 := 0#32
  let c0_i32_974 : BitVec 32 := 0#32
  ![arg0.toNat, v941.toNat, 0, 0]

def k0_chk44 (i : grid0.Coords) (v941 : BitVec 32) : Prop :=
  (∀ a, (k0_off87 i v941) a + S1x1x1x128.size a ≤ S4x32768x1x128.size a)
instance k0_chk44.dec : ∀ (i : grid0.Coords) (v941 : BitVec 32), Decidable (k0_chk44 i v941) := fun i v941 => decidable_of_iff' _ (Iff.of_eq (k0_chk44.eq_1 i v941))
theorem k0_off87_inb : ∀ (i : grid0.Coords) (v941 : BitVec 32) (k0_hw44 : k0_chk44 i v941), ∀ a, (k0_off87 i v941) a + S1x1x1x128.size a ≤ S4x32768x1x128.size a := fun i v941 k0_hw44 => k0_hw44

def k0_off88 (i : grid0.Coords) : Fin 4 → Nat :=
  let arg0 : BitVec 32 := BitVec.ofNat 32 (i 0).val
  let c0_i32_982 : BitVec 32 := 0#32
  let c0_i32_987 : BitVec 32 := 0#32
  let c0_i32_988 : BitVec 32 := 0#32
  ![arg0.toNat, 0, 0, 0]
def k0_off89 (i : grid0.Coords) (v963 : BitVec 32) : Fin 4 → Nat :=
  let arg0 : BitVec 32 := BitVec.ofNat 32 (i 0).val
  let c0_i32_996 : BitVec 32 := 0#32
  let c0_i32_997 : BitVec 32 := 0#32
  ![arg0.toNat, v963.toNat, 0, 0]

def k0_chk45 (i : grid0.Coords) (v963 : BitVec 32) : Prop :=
  (∀ a, (k0_off89 i v963) a + S1x1x1x128.size a ≤ S4x32768x1x128.size a)
instance k0_chk45.dec : ∀ (i : grid0.Coords) (v963 : BitVec 32), Decidable (k0_chk45 i v963) := fun i v963 => decidable_of_iff' _ (Iff.of_eq (k0_chk45.eq_1 i v963))
theorem k0_off89_inb : ∀ (i : grid0.Coords) (v963 : BitVec 32) (k0_hw45 : k0_chk45 i v963), ∀ a, (k0_off89 i v963) a + S1x1x1x128.size a ≤ S4x32768x1x128.size a := fun i v963 k0_hw45 => k0_hw45

def k0_off90 (i : grid0.Coords) : Fin 4 → Nat :=
  let arg0 : BitVec 32 := BitVec.ofNat 32 (i 0).val
  let c0_i32_1005 : BitVec 32 := 0#32
  let c0_i32_1010 : BitVec 32 := 0#32
  let c0_i32_1011 : BitVec 32 := 0#32
  ![arg0.toNat, 0, 0, 0]
def k0_off91 (i : grid0.Coords) (v985 : BitVec 32) : Fin 4 → Nat :=
  let arg0 : BitVec 32 := BitVec.ofNat 32 (i 0).val
  let c0_i32_1019 : BitVec 32 := 0#32
  let c0_i32_1020 : BitVec 32 := 0#32
  ![arg0.toNat, v985.toNat, 0, 0]

def k0_chk46 (i : grid0.Coords) (v985 : BitVec 32) : Prop :=
  (∀ a, (k0_off91 i v985) a + S1x1x1x128.size a ≤ S4x32768x1x128.size a)
instance k0_chk46.dec : ∀ (i : grid0.Coords) (v985 : BitVec 32), Decidable (k0_chk46 i v985) := fun i v985 => decidable_of_iff' _ (Iff.of_eq (k0_chk46.eq_1 i v985))
theorem k0_off91_inb : ∀ (i : grid0.Coords) (v985 : BitVec 32) (k0_hw46 : k0_chk46 i v985), ∀ a, (k0_off91 i v985) a + S1x1x1x128.size a ≤ S4x32768x1x128.size a := fun i v985 k0_hw46 => k0_hw46

def k0_off92 (i : grid0.Coords) : Fin 4 → Nat :=
  let arg0 : BitVec 32 := BitVec.ofNat 32 (i 0).val
  let c0_i32_1028 : BitVec 32 := 0#32
  let c0_i32_1033 : BitVec 32 := 0#32
  let c0_i32_1034 : BitVec 32 := 0#32
  ![arg0.toNat, 0, 0, 0]
def k0_off93 (i : grid0.Coords) (v1007 : BitVec 32) : Fin 4 → Nat :=
  let arg0 : BitVec 32 := BitVec.ofNat 32 (i 0).val
  let c0_i32_1042 : BitVec 32 := 0#32
  let c0_i32_1043 : BitVec 32 := 0#32
  ![arg0.toNat, v1007.toNat, 0, 0]

def k0_chk47 (i : grid0.Coords) (v1007 : BitVec 32) : Prop :=
  (∀ a, (k0_off93 i v1007) a + S1x1x1x128.size a ≤ S4x32768x1x128.size a)
instance k0_chk47.dec : ∀ (i : grid0.Coords) (v1007 : BitVec 32), Decidable (k0_chk47 i v1007) := fun i v1007 => decidable_of_iff' _ (Iff.of_eq (k0_chk47.eq_1 i v1007))
theorem k0_off93_inb : ∀ (i : grid0.Coords) (v1007 : BitVec 32) (k0_hw47 : k0_chk47 i v1007), ∀ a, (k0_off93 i v1007) a + S1x1x1x128.size a ≤ S4x32768x1x128.size a := fun i v1007 k0_hw47 => k0_hw47

def k0_off94 (i : grid0.Coords) : Fin 4 → Nat :=
  let arg0 : BitVec 32 := BitVec.ofNat 32 (i 0).val
  let c0_i32_1051 : BitVec 32 := 0#32
  let c0_i32_1056 : BitVec 32 := 0#32
  let c0_i32_1057 : BitVec 32 := 0#32
  ![arg0.toNat, 0, 0, 0]
def k0_off95 (i : grid0.Coords) (v1029 : BitVec 32) : Fin 4 → Nat :=
  let arg0 : BitVec 32 := BitVec.ofNat 32 (i 0).val
  let c0_i32_1065 : BitVec 32 := 0#32
  let c0_i32_1066 : BitVec 32 := 0#32
  ![arg0.toNat, v1029.toNat, 0, 0]

def k0_chk48 (i : grid0.Coords) (v1029 : BitVec 32) : Prop :=
  (∀ a, (k0_off95 i v1029) a + S1x1x1x128.size a ≤ S4x32768x1x128.size a)
instance k0_chk48.dec : ∀ (i : grid0.Coords) (v1029 : BitVec 32), Decidable (k0_chk48 i v1029) := fun i v1029 => decidable_of_iff' _ (Iff.of_eq (k0_chk48.eq_1 i v1029))
theorem k0_off95_inb : ∀ (i : grid0.Coords) (v1029 : BitVec 32) (k0_hw48 : k0_chk48 i v1029), ∀ a, (k0_off95 i v1029) a + S1x1x1x128.size a ≤ S4x32768x1x128.size a := fun i v1029 k0_hw48 => k0_hw48

def k0_off96 (i : grid0.Coords) : Fin 4 → Nat :=
  let arg0 : BitVec 32 := BitVec.ofNat 32 (i 0).val
  let c0_i32_1074 : BitVec 32 := 0#32
  let c0_i32_1079 : BitVec 32 := 0#32
  let c0_i32_1080 : BitVec 32 := 0#32
  ![arg0.toNat, 0, 0, 0]
def k0_off97 (i : grid0.Coords) (v1051 : BitVec 32) : Fin 4 → Nat :=
  let arg0 : BitVec 32 := BitVec.ofNat 32 (i 0).val
  let c0_i32_1088 : BitVec 32 := 0#32
  let c0_i32_1089 : BitVec 32 := 0#32
  ![arg0.toNat, v1051.toNat, 0, 0]

def k0_chk49 (i : grid0.Coords) (v1051 : BitVec 32) : Prop :=
  (∀ a, (k0_off97 i v1051) a + S1x1x1x128.size a ≤ S4x32768x1x128.size a)
instance k0_chk49.dec : ∀ (i : grid0.Coords) (v1051 : BitVec 32), Decidable (k0_chk49 i v1051) := fun i v1051 => decidable_of_iff' _ (Iff.of_eq (k0_chk49.eq_1 i v1051))
theorem k0_off97_inb : ∀ (i : grid0.Coords) (v1051 : BitVec 32) (k0_hw49 : k0_chk49 i v1051), ∀ a, (k0_off97 i v1051) a + S1x1x1x128.size a ≤ S4x32768x1x128.size a := fun i v1051 k0_hw49 => k0_hw49

def k0_off98 (i : grid0.Coords) : Fin 4 → Nat :=
  let arg0 : BitVec 32 := BitVec.ofNat 32 (i 0).val
  let c0_i32_1097 : BitVec 32 := 0#32
  let c0_i32_1102 : BitVec 32 := 0#32
  let c0_i32_1103 : BitVec 32 := 0#32
  ![arg0.toNat, 0, 0, 0]
def k0_off99 (i : grid0.Coords) (v1073 : BitVec 32) : Fin 4 → Nat :=
  let arg0 : BitVec 32 := BitVec.ofNat 32 (i 0).val
  let c0_i32_1111 : BitVec 32 := 0#32
  let c0_i32_1112 : BitVec 32 := 0#32
  ![arg0.toNat, v1073.toNat, 0, 0]

def k0_chk50 (i : grid0.Coords) (v1073 : BitVec 32) : Prop :=
  (∀ a, (k0_off99 i v1073) a + S1x1x1x128.size a ≤ S4x32768x1x128.size a)
instance k0_chk50.dec : ∀ (i : grid0.Coords) (v1073 : BitVec 32), Decidable (k0_chk50 i v1073) := fun i v1073 => decidable_of_iff' _ (Iff.of_eq (k0_chk50.eq_1 i v1073))
theorem k0_off99_inb : ∀ (i : grid0.Coords) (v1073 : BitVec 32) (k0_hw50 : k0_chk50 i v1073), ∀ a, (k0_off99 i v1073) a + S1x1x1x128.size a ≤ S4x32768x1x128.size a := fun i v1073 k0_hw50 => k0_hw50

def k0_off100 (i : grid0.Coords) : Fin 4 → Nat :=
  let arg0 : BitVec 32 := BitVec.ofNat 32 (i 0).val
  let c0_i32_1120 : BitVec 32 := 0#32
  let c0_i32_1125 : BitVec 32 := 0#32
  let c0_i32_1126 : BitVec 32 := 0#32
  ![arg0.toNat, 0, 0, 0]
def k0_off101 (i : grid0.Coords) (v1095 : BitVec 32) : Fin 4 → Nat :=
  let arg0 : BitVec 32 := BitVec.ofNat 32 (i 0).val
  let c0_i32_1134 : BitVec 32 := 0#32
  let c0_i32_1135 : BitVec 32 := 0#32
  ![arg0.toNat, v1095.toNat, 0, 0]

def k0_chk51 (i : grid0.Coords) (v1095 : BitVec 32) : Prop :=
  (∀ a, (k0_off101 i v1095) a + S1x1x1x128.size a ≤ S4x32768x1x128.size a)
instance k0_chk51.dec : ∀ (i : grid0.Coords) (v1095 : BitVec 32), Decidable (k0_chk51 i v1095) := fun i v1095 => decidable_of_iff' _ (Iff.of_eq (k0_chk51.eq_1 i v1095))
theorem k0_off101_inb : ∀ (i : grid0.Coords) (v1095 : BitVec 32) (k0_hw51 : k0_chk51 i v1095), ∀ a, (k0_off101 i v1095) a + S1x1x1x128.size a ≤ S4x32768x1x128.size a := fun i v1095 k0_hw51 => k0_hw51

def k0_off102 (i : grid0.Coords) : Fin 4 → Nat :=
  let arg0 : BitVec 32 := BitVec.ofNat 32 (i 0).val
  let c0_i32_1143 : BitVec 32 := 0#32
  let c0_i32_1148 : BitVec 32 := 0#32
  let c0_i32_1149 : BitVec 32 := 0#32
  ![arg0.toNat, 0, 0, 0]
def k0_off103 (i : grid0.Coords) (v1117 : BitVec 32) : Fin 4 → Nat :=
  let arg0 : BitVec 32 := BitVec.ofNat 32 (i 0).val
  let c0_i32_1157 : BitVec 32 := 0#32
  let c0_i32_1158 : BitVec 32 := 0#32
  ![arg0.toNat, v1117.toNat, 0, 0]

def k0_chk52 (i : grid0.Coords) (v1117 : BitVec 32) : Prop :=
  (∀ a, (k0_off103 i v1117) a + S1x1x1x128.size a ≤ S4x32768x1x128.size a)
instance k0_chk52.dec : ∀ (i : grid0.Coords) (v1117 : BitVec 32), Decidable (k0_chk52 i v1117) := fun i v1117 => decidable_of_iff' _ (Iff.of_eq (k0_chk52.eq_1 i v1117))
theorem k0_off103_inb : ∀ (i : grid0.Coords) (v1117 : BitVec 32) (k0_hw52 : k0_chk52 i v1117), ∀ a, (k0_off103 i v1117) a + S1x1x1x128.size a ≤ S4x32768x1x128.size a := fun i v1117 k0_hw52 => k0_hw52

def k0_off104 (i : grid0.Coords) : Fin 4 → Nat :=
  let arg0 : BitVec 32 := BitVec.ofNat 32 (i 0).val
  let c0_i32_1166 : BitVec 32 := 0#32
  let c0_i32_1171 : BitVec 32 := 0#32
  let c0_i32_1172 : BitVec 32 := 0#32
  ![arg0.toNat, 0, 0, 0]
def k0_off105 (i : grid0.Coords) (v1139 : BitVec 32) : Fin 4 → Nat :=
  let arg0 : BitVec 32 := BitVec.ofNat 32 (i 0).val
  let c0_i32_1180 : BitVec 32 := 0#32
  let c0_i32_1181 : BitVec 32 := 0#32
  ![arg0.toNat, v1139.toNat, 0, 0]

def k0_chk53 (i : grid0.Coords) (v1139 : BitVec 32) : Prop :=
  (∀ a, (k0_off105 i v1139) a + S1x1x1x128.size a ≤ S4x32768x1x128.size a)
instance k0_chk53.dec : ∀ (i : grid0.Coords) (v1139 : BitVec 32), Decidable (k0_chk53 i v1139) := fun i v1139 => decidable_of_iff' _ (Iff.of_eq (k0_chk53.eq_1 i v1139))
theorem k0_off105_inb : ∀ (i : grid0.Coords) (v1139 : BitVec 32) (k0_hw53 : k0_chk53 i v1139), ∀ a, (k0_off105 i v1139) a + S1x1x1x128.size a ≤ S4x32768x1x128.size a := fun i v1139 k0_hw53 => k0_hw53

def k0_off106 (i : grid0.Coords) : Fin 4 → Nat :=
  let arg0 : BitVec 32 := BitVec.ofNat 32 (i 0).val
  let c0_i32_1189 : BitVec 32 := 0#32
  let c0_i32_1194 : BitVec 32 := 0#32
  let c0_i32_1195 : BitVec 32 := 0#32
  ![arg0.toNat, 0, 0, 0]
def k0_off107 (i : grid0.Coords) (v1161 : BitVec 32) : Fin 4 → Nat :=
  let arg0 : BitVec 32 := BitVec.ofNat 32 (i 0).val
  let c0_i32_1203 : BitVec 32 := 0#32
  let c0_i32_1204 : BitVec 32 := 0#32
  ![arg0.toNat, v1161.toNat, 0, 0]

def k0_chk54 (i : grid0.Coords) (v1161 : BitVec 32) : Prop :=
  (∀ a, (k0_off107 i v1161) a + S1x1x1x128.size a ≤ S4x32768x1x128.size a)
instance k0_chk54.dec : ∀ (i : grid0.Coords) (v1161 : BitVec 32), Decidable (k0_chk54 i v1161) := fun i v1161 => decidable_of_iff' _ (Iff.of_eq (k0_chk54.eq_1 i v1161))
theorem k0_off107_inb : ∀ (i : grid0.Coords) (v1161 : BitVec 32) (k0_hw54 : k0_chk54 i v1161), ∀ a, (k0_off107 i v1161) a + S1x1x1x128.size a ≤ S4x32768x1x128.size a := fun i v1161 k0_hw54 => k0_hw54

def k0_off108 (i : grid0.Coords) : Fin 4 → Nat :=
  let arg0 : BitVec 32 := BitVec.ofNat 32 (i 0).val
  let c0_i32_1212 : BitVec 32 := 0#32
  let c0_i32_1217 : BitVec 32 := 0#32
  let c0_i32_1218 : BitVec 32 := 0#32
  ![arg0.toNat, 0, 0, 0]
def k0_off109 (i : grid0.Coords) (v1183 : BitVec 32) : Fin 4 → Nat :=
  let arg0 : BitVec 32 := BitVec.ofNat 32 (i 0).val
  let c0_i32_1226 : BitVec 32 := 0#32
  let c0_i32_1227 : BitVec 32 := 0#32
  ![arg0.toNat, v1183.toNat, 0, 0]

def k0_chk55 (i : grid0.Coords) (v1183 : BitVec 32) : Prop :=
  (∀ a, (k0_off109 i v1183) a + S1x1x1x128.size a ≤ S4x32768x1x128.size a)
instance k0_chk55.dec : ∀ (i : grid0.Coords) (v1183 : BitVec 32), Decidable (k0_chk55 i v1183) := fun i v1183 => decidable_of_iff' _ (Iff.of_eq (k0_chk55.eq_1 i v1183))
theorem k0_off109_inb : ∀ (i : grid0.Coords) (v1183 : BitVec 32) (k0_hw55 : k0_chk55 i v1183), ∀ a, (k0_off109 i v1183) a + S1x1x1x128.size a ≤ S4x32768x1x128.size a := fun i v1183 k0_hw55 => k0_hw55

def k0_off110 (i : grid0.Coords) : Fin 4 → Nat :=
  let arg0 : BitVec 32 := BitVec.ofNat 32 (i 0).val
  let c0_i32_1235 : BitVec 32 := 0#32
  let c0_i32_1240 : BitVec 32 := 0#32
  let c0_i32_1241 : BitVec 32 := 0#32
  ![arg0.toNat, 0, 0, 0]
def k0_off111 (i : grid0.Coords) (v1205 : BitVec 32) : Fin 4 → Nat :=
  let arg0 : BitVec 32 := BitVec.ofNat 32 (i 0).val
  let c0_i32_1249 : BitVec 32 := 0#32
  let c0_i32_1250 : BitVec 32 := 0#32
  ![arg0.toNat, v1205.toNat, 0, 0]

def k0_chk56 (i : grid0.Coords) (v1205 : BitVec 32) : Prop :=
  (∀ a, (k0_off111 i v1205) a + S1x1x1x128.size a ≤ S4x32768x1x128.size a)
instance k0_chk56.dec : ∀ (i : grid0.Coords) (v1205 : BitVec 32), Decidable (k0_chk56 i v1205) := fun i v1205 => decidable_of_iff' _ (Iff.of_eq (k0_chk56.eq_1 i v1205))
theorem k0_off111_inb : ∀ (i : grid0.Coords) (v1205 : BitVec 32) (k0_hw56 : k0_chk56 i v1205), ∀ a, (k0_off111 i v1205) a + S1x1x1x128.size a ≤ S4x32768x1x128.size a := fun i v1205 k0_hw56 => k0_hw56

def k0_off112 (i : grid0.Coords) : Fin 4 → Nat :=
  let arg0 : BitVec 32 := BitVec.ofNat 32 (i 0).val
  let c0_i32_1258 : BitVec 32 := 0#32
  let c0_i32_1263 : BitVec 32 := 0#32
  let c0_i32_1264 : BitVec 32 := 0#32
  ![arg0.toNat, 0, 0, 0]
def k0_off113 (i : grid0.Coords) (v1227 : BitVec 32) : Fin 4 → Nat :=
  let arg0 : BitVec 32 := BitVec.ofNat 32 (i 0).val
  let c0_i32_1272 : BitVec 32 := 0#32
  let c0_i32_1273 : BitVec 32 := 0#32
  ![arg0.toNat, v1227.toNat, 0, 0]

def k0_chk57 (i : grid0.Coords) (v1227 : BitVec 32) : Prop :=
  (∀ a, (k0_off113 i v1227) a + S1x1x1x128.size a ≤ S4x32768x1x128.size a)
instance k0_chk57.dec : ∀ (i : grid0.Coords) (v1227 : BitVec 32), Decidable (k0_chk57 i v1227) := fun i v1227 => decidable_of_iff' _ (Iff.of_eq (k0_chk57.eq_1 i v1227))
theorem k0_off113_inb : ∀ (i : grid0.Coords) (v1227 : BitVec 32) (k0_hw57 : k0_chk57 i v1227), ∀ a, (k0_off113 i v1227) a + S1x1x1x128.size a ≤ S4x32768x1x128.size a := fun i v1227 k0_hw57 => k0_hw57

def k0_off114 (i : grid0.Coords) : Fin 4 → Nat :=
  let arg0 : BitVec 32 := BitVec.ofNat 32 (i 0).val
  let c0_i32_1281 : BitVec 32 := 0#32
  let c0_i32_1286 : BitVec 32 := 0#32
  let c0_i32_1287 : BitVec 32 := 0#32
  ![arg0.toNat, 0, 0, 0]
def k0_off115 (i : grid0.Coords) (v1249 : BitVec 32) : Fin 4 → Nat :=
  let arg0 : BitVec 32 := BitVec.ofNat 32 (i 0).val
  let c0_i32_1295 : BitVec 32 := 0#32
  let c0_i32_1296 : BitVec 32 := 0#32
  ![arg0.toNat, v1249.toNat, 0, 0]

def k0_chk58 (i : grid0.Coords) (v1249 : BitVec 32) : Prop :=
  (∀ a, (k0_off115 i v1249) a + S1x1x1x128.size a ≤ S4x32768x1x128.size a)
instance k0_chk58.dec : ∀ (i : grid0.Coords) (v1249 : BitVec 32), Decidable (k0_chk58 i v1249) := fun i v1249 => decidable_of_iff' _ (Iff.of_eq (k0_chk58.eq_1 i v1249))
theorem k0_off115_inb : ∀ (i : grid0.Coords) (v1249 : BitVec 32) (k0_hw58 : k0_chk58 i v1249), ∀ a, (k0_off115 i v1249) a + S1x1x1x128.size a ≤ S4x32768x1x128.size a := fun i v1249 k0_hw58 => k0_hw58

def k0_off116 (i : grid0.Coords) : Fin 4 → Nat :=
  let arg0 : BitVec 32 := BitVec.ofNat 32 (i 0).val
  let c0_i32_1304 : BitVec 32 := 0#32
  let c0_i32_1309 : BitVec 32 := 0#32
  let c0_i32_1310 : BitVec 32 := 0#32
  ![arg0.toNat, 0, 0, 0]
def k0_off117 (i : grid0.Coords) (v1271 : BitVec 32) : Fin 4 → Nat :=
  let arg0 : BitVec 32 := BitVec.ofNat 32 (i 0).val
  let c0_i32_1318 : BitVec 32 := 0#32
  let c0_i32_1319 : BitVec 32 := 0#32
  ![arg0.toNat, v1271.toNat, 0, 0]

def k0_chk59 (i : grid0.Coords) (v1271 : BitVec 32) : Prop :=
  (∀ a, (k0_off117 i v1271) a + S1x1x1x128.size a ≤ S4x32768x1x128.size a)
instance k0_chk59.dec : ∀ (i : grid0.Coords) (v1271 : BitVec 32), Decidable (k0_chk59 i v1271) := fun i v1271 => decidable_of_iff' _ (Iff.of_eq (k0_chk59.eq_1 i v1271))
theorem k0_off117_inb : ∀ (i : grid0.Coords) (v1271 : BitVec 32) (k0_hw59 : k0_chk59 i v1271), ∀ a, (k0_off117 i v1271) a + S1x1x1x128.size a ≤ S4x32768x1x128.size a := fun i v1271 k0_hw59 => k0_hw59

def k0_off118 (i : grid0.Coords) : Fin 4 → Nat :=
  let arg0 : BitVec 32 := BitVec.ofNat 32 (i 0).val
  let c0_i32_1327 : BitVec 32 := 0#32
  let c0_i32_1332 : BitVec 32 := 0#32
  let c0_i32_1333 : BitVec 32 := 0#32
  ![arg0.toNat, 0, 0, 0]
def k0_off119 (i : grid0.Coords) (v1293 : BitVec 32) : Fin 4 → Nat :=
  let arg0 : BitVec 32 := BitVec.ofNat 32 (i 0).val
  let c0_i32_1341 : BitVec 32 := 0#32
  let c0_i32_1342 : BitVec 32 := 0#32
  ![arg0.toNat, v1293.toNat, 0, 0]

def k0_chk60 (i : grid0.Coords) (v1293 : BitVec 32) : Prop :=
  (∀ a, (k0_off119 i v1293) a + S1x1x1x128.size a ≤ S4x32768x1x128.size a)
instance k0_chk60.dec : ∀ (i : grid0.Coords) (v1293 : BitVec 32), Decidable (k0_chk60 i v1293) := fun i v1293 => decidable_of_iff' _ (Iff.of_eq (k0_chk60.eq_1 i v1293))
theorem k0_off119_inb : ∀ (i : grid0.Coords) (v1293 : BitVec 32) (k0_hw60 : k0_chk60 i v1293), ∀ a, (k0_off119 i v1293) a + S1x1x1x128.size a ≤ S4x32768x1x128.size a := fun i v1293 k0_hw60 => k0_hw60

def k0_off120 (i : grid0.Coords) : Fin 4 → Nat :=
  let arg0 : BitVec 32 := BitVec.ofNat 32 (i 0).val
  let c0_i32_1350 : BitVec 32 := 0#32
  let c0_i32_1355 : BitVec 32 := 0#32
  let c0_i32_1356 : BitVec 32 := 0#32
  ![arg0.toNat, 0, 0, 0]
def k0_off121 (i : grid0.Coords) (v1315 : BitVec 32) : Fin 4 → Nat :=
  let arg0 : BitVec 32 := BitVec.ofNat 32 (i 0).val
  let c0_i32_1364 : BitVec 32 := 0#32
  let c0_i32_1365 : BitVec 32 := 0#32
  ![arg0.toNat, v1315.toNat, 0, 0]

def k0_chk61 (i : grid0.Coords) (v1315 : BitVec 32) : Prop :=
  (∀ a, (k0_off121 i v1315) a + S1x1x1x128.size a ≤ S4x32768x1x128.size a)
instance k0_chk61.dec : ∀ (i : grid0.Coords) (v1315 : BitVec 32), Decidable (k0_chk61 i v1315) := fun i v1315 => decidable_of_iff' _ (Iff.of_eq (k0_chk61.eq_1 i v1315))
theorem k0_off121_inb : ∀ (i : grid0.Coords) (v1315 : BitVec 32) (k0_hw61 : k0_chk61 i v1315), ∀ a, (k0_off121 i v1315) a + S1x1x1x128.size a ≤ S4x32768x1x128.size a := fun i v1315 k0_hw61 => k0_hw61

def k0_off122 (i : grid0.Coords) : Fin 4 → Nat :=
  let arg0 : BitVec 32 := BitVec.ofNat 32 (i 0).val
  let c0_i32_1373 : BitVec 32 := 0#32
  let c0_i32_1378 : BitVec 32 := 0#32
  let c0_i32_1379 : BitVec 32 := 0#32
  ![arg0.toNat, 0, 0, 0]
def k0_off123 (i : grid0.Coords) (v1337 : BitVec 32) : Fin 4 → Nat :=
  let arg0 : BitVec 32 := BitVec.ofNat 32 (i 0).val
  let c0_i32_1387 : BitVec 32 := 0#32
  let c0_i32_1388 : BitVec 32 := 0#32
  ![arg0.toNat, v1337.toNat, 0, 0]

def k0_chk62 (i : grid0.Coords) (v1337 : BitVec 32) : Prop :=
  (∀ a, (k0_off123 i v1337) a + S1x1x1x128.size a ≤ S4x32768x1x128.size a)
instance k0_chk62.dec : ∀ (i : grid0.Coords) (v1337 : BitVec 32), Decidable (k0_chk62 i v1337) := fun i v1337 => decidable_of_iff' _ (Iff.of_eq (k0_chk62.eq_1 i v1337))
theorem k0_off123_inb : ∀ (i : grid0.Coords) (v1337 : BitVec 32) (k0_hw62 : k0_chk62 i v1337), ∀ a, (k0_off123 i v1337) a + S1x1x1x128.size a ≤ S4x32768x1x128.size a := fun i v1337 k0_hw62 => k0_hw62

def k0_off124 (i : grid0.Coords) : Fin 4 → Nat :=
  let arg0 : BitVec 32 := BitVec.ofNat 32 (i 0).val
  let c0_i32_1396 : BitVec 32 := 0#32
  let c0_i32_1401 : BitVec 32 := 0#32
  let c0_i32_1402 : BitVec 32 := 0#32
  ![arg0.toNat, 0, 0, 0]
def k0_off125 (i : grid0.Coords) (v1359 : BitVec 32) : Fin 4 → Nat :=
  let arg0 : BitVec 32 := BitVec.ofNat 32 (i 0).val
  let c0_i32_1410 : BitVec 32 := 0#32
  let c0_i32_1411 : BitVec 32 := 0#32
  ![arg0.toNat, v1359.toNat, 0, 0]

def k0_chk63 (i : grid0.Coords) (v1359 : BitVec 32) : Prop :=
  (∀ a, (k0_off125 i v1359) a + S1x1x1x128.size a ≤ S4x32768x1x128.size a)
instance k0_chk63.dec : ∀ (i : grid0.Coords) (v1359 : BitVec 32), Decidable (k0_chk63 i v1359) := fun i v1359 => decidable_of_iff' _ (Iff.of_eq (k0_chk63.eq_1 i v1359))
theorem k0_off125_inb : ∀ (i : grid0.Coords) (v1359 : BitVec 32) (k0_hw63 : k0_chk63 i v1359), ∀ a, (k0_off125 i v1359) a + S1x1x1x128.size a ≤ S4x32768x1x128.size a := fun i v1359 k0_hw63 => k0_hw63

def k0_off126 (i : grid0.Coords) : Fin 4 → Nat :=
  let arg0 : BitVec 32 := BitVec.ofNat 32 (i 0).val
  let c0_i32_1419 : BitVec 32 := 0#32
  let c0_i32_1424 : BitVec 32 := 0#32
  let c0_i32_1425 : BitVec 32 := 0#32
  ![arg0.toNat, 0, 0, 0]
def k0_off127 (i : grid0.Coords) (v1381 : BitVec 32) : Fin 4 → Nat :=
  let arg0 : BitVec 32 := BitVec.ofNat 32 (i 0).val
  let c0_i32_1433 : BitVec 32 := 0#32
  let c0_i32_1434 : BitVec 32 := 0#32
  ![arg0.toNat, v1381.toNat, 0, 0]

def k0_chk64 (i : grid0.Coords) (v1381 : BitVec 32) : Prop :=
  (∀ a, (k0_off127 i v1381) a + S1x1x1x128.size a ≤ S4x32768x1x128.size a)
instance k0_chk64.dec : ∀ (i : grid0.Coords) (v1381 : BitVec 32), Decidable (k0_chk64 i v1381) := fun i v1381 => decidable_of_iff' _ (Iff.of_eq (k0_chk64.eq_1 i v1381))
theorem k0_off127_inb : ∀ (i : grid0.Coords) (v1381 : BitVec 32) (k0_hw64 : k0_chk64 i v1381), ∀ a, (k0_off127 i v1381) a + S1x1x1x128.size a ≤ S4x32768x1x128.size a := fun i v1381 k0_hw64 => k0_hw64

def k0_off128 (i : grid0.Coords) : Fin 4 → Nat :=
  let arg0 : BitVec 32 := BitVec.ofNat 32 (i 0).val
  let c0_i32_1442 : BitVec 32 := 0#32
  let c0_i32_1447 : BitVec 32 := 0#32
  let c0_i32_1448 : BitVec 32 := 0#32
  ![arg0.toNat, 0, 0, 0]
def k0_off129 (i : grid0.Coords) (v1403 : BitVec 32) : Fin 4 → Nat :=
  let arg0 : BitVec 32 := BitVec.ofNat 32 (i 0).val
  let c0_i32_1456 : BitVec 32 := 0#32
  let c0_i32_1457 : BitVec 32 := 0#32
  ![arg0.toNat, v1403.toNat, 0, 0]

def k0_chk65 (i : grid0.Coords) (v1403 : BitVec 32) : Prop :=
  (∀ a, (k0_off129 i v1403) a + S1x1x1x128.size a ≤ S4x32768x1x128.size a)
instance k0_chk65.dec : ∀ (i : grid0.Coords) (v1403 : BitVec 32), Decidable (k0_chk65 i v1403) := fun i v1403 => decidable_of_iff' _ (Iff.of_eq (k0_chk65.eq_1 i v1403))
theorem k0_off129_inb : ∀ (i : grid0.Coords) (v1403 : BitVec 32) (k0_hw65 : k0_chk65 i v1403), ∀ a, (k0_off129 i v1403) a + S1x1x1x128.size a ≤ S4x32768x1x128.size a := fun i v1403 k0_hw65 => k0_hw65

def k0_off130 (i : grid0.Coords) : Fin 4 → Nat :=
  let arg0 : BitVec 32 := BitVec.ofNat 32 (i 0).val
  let c0_i32_1465 : BitVec 32 := 0#32
  let c0_i32_1470 : BitVec 32 := 0#32
  let c0_i32_1471 : BitVec 32 := 0#32
  ![arg0.toNat, 0, 0, 0]
def k0_off131 (i : grid0.Coords) (v1425 : BitVec 32) : Fin 4 → Nat :=
  let arg0 : BitVec 32 := BitVec.ofNat 32 (i 0).val
  let c0_i32_1479 : BitVec 32 := 0#32
  let c0_i32_1480 : BitVec 32 := 0#32
  ![arg0.toNat, v1425.toNat, 0, 0]

def k0_chk66 (i : grid0.Coords) (v1425 : BitVec 32) : Prop :=
  (∀ a, (k0_off131 i v1425) a + S1x1x1x128.size a ≤ S4x32768x1x128.size a)
instance k0_chk66.dec : ∀ (i : grid0.Coords) (v1425 : BitVec 32), Decidable (k0_chk66 i v1425) := fun i v1425 => decidable_of_iff' _ (Iff.of_eq (k0_chk66.eq_1 i v1425))
theorem k0_off131_inb : ∀ (i : grid0.Coords) (v1425 : BitVec 32) (k0_hw66 : k0_chk66 i v1425), ∀ a, (k0_off131 i v1425) a + S1x1x1x128.size a ≤ S4x32768x1x128.size a := fun i v1425 k0_hw66 => k0_hw66

def k0_off132 (i : grid0.Coords) : Fin 4 → Nat :=
  let arg0 : BitVec 32 := BitVec.ofNat 32 (i 0).val
  let c0_i32_1488 : BitVec 32 := 0#32
  let c0_i32_1493 : BitVec 32 := 0#32
  let c0_i32_1494 : BitVec 32 := 0#32
  ![arg0.toNat, 0, 0, 0]
def k0_off133 (i : grid0.Coords) (v1447 : BitVec 32) : Fin 4 → Nat :=
  let arg0 : BitVec 32 := BitVec.ofNat 32 (i 0).val
  let c0_i32_1502 : BitVec 32 := 0#32
  let c0_i32_1503 : BitVec 32 := 0#32
  ![arg0.toNat, v1447.toNat, 0, 0]

def k0_chk67 (i : grid0.Coords) (v1447 : BitVec 32) : Prop :=
  (∀ a, (k0_off133 i v1447) a + S1x1x1x128.size a ≤ S4x32768x1x128.size a)
instance k0_chk67.dec : ∀ (i : grid0.Coords) (v1447 : BitVec 32), Decidable (k0_chk67 i v1447) := fun i v1447 => decidable_of_iff' _ (Iff.of_eq (k0_chk67.eq_1 i v1447))
theorem k0_off133_inb : ∀ (i : grid0.Coords) (v1447 : BitVec 32) (k0_hw67 : k0_chk67 i v1447), ∀ a, (k0_off133 i v1447) a + S1x1x1x128.size a ≤ S4x32768x1x128.size a := fun i v1447 k0_hw67 => k0_hw67

def k0_off134 (i : grid0.Coords) : Fin 4 → Nat :=
  let arg0 : BitVec 32 := BitVec.ofNat 32 (i 0).val
  let c0_i32_1511 : BitVec 32 := 0#32
  let c0_i32_1516 : BitVec 32 := 0#32
  let c0_i32_1517 : BitVec 32 := 0#32
  ![arg0.toNat, 0, 0, 0]
def k0_off135 (i : grid0.Coords) (v1469 : BitVec 32) : Fin 4 → Nat :=
  let arg0 : BitVec 32 := BitVec.ofNat 32 (i 0).val
  let c0_i32_1525 : BitVec 32 := 0#32
  let c0_i32_1526 : BitVec 32 := 0#32
  ![arg0.toNat, v1469.toNat, 0, 0]

def k0_chk68 (i : grid0.Coords) (v1469 : BitVec 32) : Prop :=
  (∀ a, (k0_off135 i v1469) a + S1x1x1x128.size a ≤ S4x32768x1x128.size a)
instance k0_chk68.dec : ∀ (i : grid0.Coords) (v1469 : BitVec 32), Decidable (k0_chk68 i v1469) := fun i v1469 => decidable_of_iff' _ (Iff.of_eq (k0_chk68.eq_1 i v1469))
theorem k0_off135_inb : ∀ (i : grid0.Coords) (v1469 : BitVec 32) (k0_hw68 : k0_chk68 i v1469), ∀ a, (k0_off135 i v1469) a + S1x1x1x128.size a ≤ S4x32768x1x128.size a := fun i v1469 k0_hw68 => k0_hw68

def k0_off136 (i : grid0.Coords) : Fin 4 → Nat :=
  let arg0 : BitVec 32 := BitVec.ofNat 32 (i 0).val
  let c0_i32_1534 : BitVec 32 := 0#32
  let c0_i32_1539 : BitVec 32 := 0#32
  let c0_i32_1540 : BitVec 32 := 0#32
  ![arg0.toNat, 0, 0, 0]
def k0_off137 (i : grid0.Coords) (v1491 : BitVec 32) : Fin 4 → Nat :=
  let arg0 : BitVec 32 := BitVec.ofNat 32 (i 0).val
  let c0_i32_1548 : BitVec 32 := 0#32
  let c0_i32_1549 : BitVec 32 := 0#32
  ![arg0.toNat, v1491.toNat, 0, 0]

def k0_chk69 (i : grid0.Coords) (v1491 : BitVec 32) : Prop :=
  (∀ a, (k0_off137 i v1491) a + S1x1x1x128.size a ≤ S4x32768x1x128.size a)
instance k0_chk69.dec : ∀ (i : grid0.Coords) (v1491 : BitVec 32), Decidable (k0_chk69 i v1491) := fun i v1491 => decidable_of_iff' _ (Iff.of_eq (k0_chk69.eq_1 i v1491))
theorem k0_off137_inb : ∀ (i : grid0.Coords) (v1491 : BitVec 32) (k0_hw69 : k0_chk69 i v1491), ∀ a, (k0_off137 i v1491) a + S1x1x1x128.size a ≤ S4x32768x1x128.size a := fun i v1491 k0_hw69 => k0_hw69

def k0_off138 (i : grid0.Coords) : Fin 4 → Nat :=
  let arg0 : BitVec 32 := BitVec.ofNat 32 (i 0).val
  let c0_i32_1557 : BitVec 32 := 0#32
  let c0_i32_1562 : BitVec 32 := 0#32
  let c0_i32_1563 : BitVec 32 := 0#32
  ![arg0.toNat, 0, 0, 0]
def k0_off139 (i : grid0.Coords) (v1513 : BitVec 32) : Fin 4 → Nat :=
  let arg0 : BitVec 32 := BitVec.ofNat 32 (i 0).val
  let c0_i32_1571 : BitVec 32 := 0#32
  let c0_i32_1572 : BitVec 32 := 0#32
  ![arg0.toNat, v1513.toNat, 0, 0]

def k0_chk70 (i : grid0.Coords) (v1513 : BitVec 32) : Prop :=
  (∀ a, (k0_off139 i v1513) a + S1x1x1x128.size a ≤ S4x32768x1x128.size a)
instance k0_chk70.dec : ∀ (i : grid0.Coords) (v1513 : BitVec 32), Decidable (k0_chk70 i v1513) := fun i v1513 => decidable_of_iff' _ (Iff.of_eq (k0_chk70.eq_1 i v1513))
theorem k0_off139_inb : ∀ (i : grid0.Coords) (v1513 : BitVec 32) (k0_hw70 : k0_chk70 i v1513), ∀ a, (k0_off139 i v1513) a + S1x1x1x128.size a ≤ S4x32768x1x128.size a := fun i v1513 k0_hw70 => k0_hw70

def k0_off140 (i : grid0.Coords) : Fin 4 → Nat :=
  let arg0 : BitVec 32 := BitVec.ofNat 32 (i 0).val
  let c0_i32_1580 : BitVec 32 := 0#32
  let c0_i32_1585 : BitVec 32 := 0#32
  let c0_i32_1586 : BitVec 32 := 0#32
  ![arg0.toNat, 0, 0, 0]
def k0_off141 (i : grid0.Coords) (v1535 : BitVec 32) : Fin 4 → Nat :=
  let arg0 : BitVec 32 := BitVec.ofNat 32 (i 0).val
  let c0_i32_1594 : BitVec 32 := 0#32
  let c0_i32_1595 : BitVec 32 := 0#32
  ![arg0.toNat, v1535.toNat, 0, 0]

def k0_chk71 (i : grid0.Coords) (v1535 : BitVec 32) : Prop :=
  (∀ a, (k0_off141 i v1535) a + S1x1x1x128.size a ≤ S4x32768x1x128.size a)
instance k0_chk71.dec : ∀ (i : grid0.Coords) (v1535 : BitVec 32), Decidable (k0_chk71 i v1535) := fun i v1535 => decidable_of_iff' _ (Iff.of_eq (k0_chk71.eq_1 i v1535))
theorem k0_off141_inb : ∀ (i : grid0.Coords) (v1535 : BitVec 32) (k0_hw71 : k0_chk71 i v1535), ∀ a, (k0_off141 i v1535) a + S1x1x1x128.size a ≤ S4x32768x1x128.size a := fun i v1535 k0_hw71 => k0_hw71

def k0_off142 (i : grid0.Coords) : Fin 4 → Nat :=
  let arg0 : BitVec 32 := BitVec.ofNat 32 (i 0).val
  let c0_i32_1603 : BitVec 32 := 0#32
  let c0_i32_1608 : BitVec 32 := 0#32
  let c0_i32_1609 : BitVec 32 := 0#32
  ![arg0.toNat, 0, 0, 0]
def k0_off143 (i : grid0.Coords) (v1557 : BitVec 32) : Fin 4 → Nat :=
  let arg0 : BitVec 32 := BitVec.ofNat 32 (i 0).val
  let c0_i32_1617 : BitVec 32 := 0#32
  let c0_i32_1618 : BitVec 32 := 0#32
  ![arg0.toNat, v1557.toNat, 0, 0]

def k0_chk72 (i : grid0.Coords) (v1557 : BitVec 32) : Prop :=
  (∀ a, (k0_off143 i v1557) a + S1x1x1x128.size a ≤ S4x32768x1x128.size a)
instance k0_chk72.dec : ∀ (i : grid0.Coords) (v1557 : BitVec 32), Decidable (k0_chk72 i v1557) := fun i v1557 => decidable_of_iff' _ (Iff.of_eq (k0_chk72.eq_1 i v1557))
theorem k0_off143_inb : ∀ (i : grid0.Coords) (v1557 : BitVec 32) (k0_hw72 : k0_chk72 i v1557), ∀ a, (k0_off143 i v1557) a + S1x1x1x128.size a ≤ S4x32768x1x128.size a := fun i v1557 k0_hw72 => k0_hw72

def k0_off144 (i : grid0.Coords) : Fin 4 → Nat :=
  let arg0 : BitVec 32 := BitVec.ofNat 32 (i 0).val
  let c0_i32_1626 : BitVec 32 := 0#32
  let c0_i32_1631 : BitVec 32 := 0#32
  let c0_i32_1632 : BitVec 32 := 0#32
  ![arg0.toNat, 0, 0, 0]
def k0_off145 (i : grid0.Coords) (v1579 : BitVec 32) : Fin 4 → Nat :=
  let arg0 : BitVec 32 := BitVec.ofNat 32 (i 0).val
  let c0_i32_1640 : BitVec 32 := 0#32
  let c0_i32_1641 : BitVec 32 := 0#32
  ![arg0.toNat, v1579.toNat, 0, 0]

def k0_chk73 (i : grid0.Coords) (v1579 : BitVec 32) : Prop :=
  (∀ a, (k0_off145 i v1579) a + S1x1x1x128.size a ≤ S4x32768x1x128.size a)
instance k0_chk73.dec : ∀ (i : grid0.Coords) (v1579 : BitVec 32), Decidable (k0_chk73 i v1579) := fun i v1579 => decidable_of_iff' _ (Iff.of_eq (k0_chk73.eq_1 i v1579))
theorem k0_off145_inb : ∀ (i : grid0.Coords) (v1579 : BitVec 32) (k0_hw73 : k0_chk73 i v1579), ∀ a, (k0_off145 i v1579) a + S1x1x1x128.size a ≤ S4x32768x1x128.size a := fun i v1579 k0_hw73 => k0_hw73

def k0_off146 (i : grid0.Coords) : Fin 4 → Nat :=
  let arg0 : BitVec 32 := BitVec.ofNat 32 (i 0).val
  let c0_i32_1649 : BitVec 32 := 0#32
  let c0_i32_1654 : BitVec 32 := 0#32
  let c0_i32_1655 : BitVec 32 := 0#32
  ![arg0.toNat, 0, 0, 0]
def k0_off147 (i : grid0.Coords) (v1601 : BitVec 32) : Fin 4 → Nat :=
  let arg0 : BitVec 32 := BitVec.ofNat 32 (i 0).val
  let c0_i32_1663 : BitVec 32 := 0#32
  let c0_i32_1664 : BitVec 32 := 0#32
  ![arg0.toNat, v1601.toNat, 0, 0]

def k0_chk74 (i : grid0.Coords) (v1601 : BitVec 32) : Prop :=
  (∀ a, (k0_off147 i v1601) a + S1x1x1x128.size a ≤ S4x32768x1x128.size a)
instance k0_chk74.dec : ∀ (i : grid0.Coords) (v1601 : BitVec 32), Decidable (k0_chk74 i v1601) := fun i v1601 => decidable_of_iff' _ (Iff.of_eq (k0_chk74.eq_1 i v1601))
theorem k0_off147_inb : ∀ (i : grid0.Coords) (v1601 : BitVec 32) (k0_hw74 : k0_chk74 i v1601), ∀ a, (k0_off147 i v1601) a + S1x1x1x128.size a ≤ S4x32768x1x128.size a := fun i v1601 k0_hw74 => k0_hw74

def k0_off148 (i : grid0.Coords) : Fin 4 → Nat :=
  let arg0 : BitVec 32 := BitVec.ofNat 32 (i 0).val
  let c0_i32_1672 : BitVec 32 := 0#32
  let c0_i32_1677 : BitVec 32 := 0#32
  let c0_i32_1678 : BitVec 32 := 0#32
  ![arg0.toNat, 0, 0, 0]
def k0_off149 (i : grid0.Coords) (v1623 : BitVec 32) : Fin 4 → Nat :=
  let arg0 : BitVec 32 := BitVec.ofNat 32 (i 0).val
  let c0_i32_1686 : BitVec 32 := 0#32
  let c0_i32_1687 : BitVec 32 := 0#32
  ![arg0.toNat, v1623.toNat, 0, 0]

def k0_chk75 (i : grid0.Coords) (v1623 : BitVec 32) : Prop :=
  (∀ a, (k0_off149 i v1623) a + S1x1x1x128.size a ≤ S4x32768x1x128.size a)
instance k0_chk75.dec : ∀ (i : grid0.Coords) (v1623 : BitVec 32), Decidable (k0_chk75 i v1623) := fun i v1623 => decidable_of_iff' _ (Iff.of_eq (k0_chk75.eq_1 i v1623))
theorem k0_off149_inb : ∀ (i : grid0.Coords) (v1623 : BitVec 32) (k0_hw75 : k0_chk75 i v1623), ∀ a, (k0_off149 i v1623) a + S1x1x1x128.size a ≤ S4x32768x1x128.size a := fun i v1623 k0_hw75 => k0_hw75

def k0_off150 (i : grid0.Coords) : Fin 4 → Nat :=
  let arg0 : BitVec 32 := BitVec.ofNat 32 (i 0).val
  let c0_i32_1695 : BitVec 32 := 0#32
  let c0_i32_1700 : BitVec 32 := 0#32
  let c0_i32_1701 : BitVec 32 := 0#32
  ![arg0.toNat, 0, 0, 0]
def k0_off151 (i : grid0.Coords) (v1645 : BitVec 32) : Fin 4 → Nat :=
  let arg0 : BitVec 32 := BitVec.ofNat 32 (i 0).val
  let c0_i32_1709 : BitVec 32 := 0#32
  let c0_i32_1710 : BitVec 32 := 0#32
  ![arg0.toNat, v1645.toNat, 0, 0]

def k0_chk76 (i : grid0.Coords) (v1645 : BitVec 32) : Prop :=
  (∀ a, (k0_off151 i v1645) a + S1x1x1x128.size a ≤ S4x32768x1x128.size a)
instance k0_chk76.dec : ∀ (i : grid0.Coords) (v1645 : BitVec 32), Decidable (k0_chk76 i v1645) := fun i v1645 => decidable_of_iff' _ (Iff.of_eq (k0_chk76.eq_1 i v1645))
theorem k0_off151_inb : ∀ (i : grid0.Coords) (v1645 : BitVec 32) (k0_hw76 : k0_chk76 i v1645), ∀ a, (k0_off151 i v1645) a + S1x1x1x128.size a ≤ S4x32768x1x128.size a := fun i v1645 k0_hw76 => k0_hw76

def k0_off152 (i : grid0.Coords) : Fin 4 → Nat :=
  let arg0 : BitVec 32 := BitVec.ofNat 32 (i 0).val
  let c0_i32_1718 : BitVec 32 := 0#32
  let c0_i32_1723 : BitVec 32 := 0#32
  let c0_i32_1724 : BitVec 32 := 0#32
  ![arg0.toNat, 0, 0, 0]
def k0_off153 (i : grid0.Coords) (v1667 : BitVec 32) : Fin 4 → Nat :=
  let arg0 : BitVec 32 := BitVec.ofNat 32 (i 0).val
  let c0_i32_1732 : BitVec 32 := 0#32
  let c0_i32_1733 : BitVec 32 := 0#32
  ![arg0.toNat, v1667.toNat, 0, 0]

def k0_chk77 (i : grid0.Coords) (v1667 : BitVec 32) : Prop :=
  (∀ a, (k0_off153 i v1667) a + S1x1x1x128.size a ≤ S4x32768x1x128.size a)
instance k0_chk77.dec : ∀ (i : grid0.Coords) (v1667 : BitVec 32), Decidable (k0_chk77 i v1667) := fun i v1667 => decidable_of_iff' _ (Iff.of_eq (k0_chk77.eq_1 i v1667))
theorem k0_off153_inb : ∀ (i : grid0.Coords) (v1667 : BitVec 32) (k0_hw77 : k0_chk77 i v1667), ∀ a, (k0_off153 i v1667) a + S1x1x1x128.size a ≤ S4x32768x1x128.size a := fun i v1667 k0_hw77 => k0_hw77

def k0_off154 (i : grid0.Coords) : Fin 4 → Nat :=
  let arg0 : BitVec 32 := BitVec.ofNat 32 (i 0).val
  let c0_i32_1741 : BitVec 32 := 0#32
  let c0_i32_1746 : BitVec 32 := 0#32
  let c0_i32_1747 : BitVec 32 := 0#32
  ![arg0.toNat, 0, 0, 0]
def k0_off155 (i : grid0.Coords) (v1689 : BitVec 32) : Fin 4 → Nat :=
  let arg0 : BitVec 32 := BitVec.ofNat 32 (i 0).val
  let c0_i32_1755 : BitVec 32 := 0#32
  let c0_i32_1756 : BitVec 32 := 0#32
  ![arg0.toNat, v1689.toNat, 0, 0]

def k0_chk78 (i : grid0.Coords) (v1689 : BitVec 32) : Prop :=
  (∀ a, (k0_off155 i v1689) a + S1x1x1x128.size a ≤ S4x32768x1x128.size a)
instance k0_chk78.dec : ∀ (i : grid0.Coords) (v1689 : BitVec 32), Decidable (k0_chk78 i v1689) := fun i v1689 => decidable_of_iff' _ (Iff.of_eq (k0_chk78.eq_1 i v1689))
theorem k0_off155_inb : ∀ (i : grid0.Coords) (v1689 : BitVec 32) (k0_hw78 : k0_chk78 i v1689), ∀ a, (k0_off155 i v1689) a + S1x1x1x128.size a ≤ S4x32768x1x128.size a := fun i v1689 k0_hw78 => k0_hw78

def k0_off156 (i : grid0.Coords) : Fin 4 → Nat :=
  let arg0 : BitVec 32 := BitVec.ofNat 32 (i 0).val
  let c0_i32_1764 : BitVec 32 := 0#32
  let c0_i32_1769 : BitVec 32 := 0#32
  let c0_i32_1770 : BitVec 32 := 0#32
  ![arg0.toNat, 0, 0, 0]
def k0_off157 (i : grid0.Coords) (v1711 : BitVec 32) : Fin 4 → Nat :=
  let arg0 : BitVec 32 := BitVec.ofNat 32 (i 0).val
  let c0_i32_1778 : BitVec 32 := 0#32
  let c0_i32_1779 : BitVec 32 := 0#32
  ![arg0.toNat, v1711.toNat, 0, 0]

def k0_chk79 (i : grid0.Coords) (v1711 : BitVec 32) : Prop :=
  (∀ a, (k0_off157 i v1711) a + S1x1x1x128.size a ≤ S4x32768x1x128.size a)
instance k0_chk79.dec : ∀ (i : grid0.Coords) (v1711 : BitVec 32), Decidable (k0_chk79 i v1711) := fun i v1711 => decidable_of_iff' _ (Iff.of_eq (k0_chk79.eq_1 i v1711))
theorem k0_off157_inb : ∀ (i : grid0.Coords) (v1711 : BitVec 32) (k0_hw79 : k0_chk79 i v1711), ∀ a, (k0_off157 i v1711) a + S1x1x1x128.size a ≤ S4x32768x1x128.size a := fun i v1711 k0_hw79 => k0_hw79

def k0_off158 (i : grid0.Coords) : Fin 4 → Nat :=
  let arg0 : BitVec 32 := BitVec.ofNat 32 (i 0).val
  let c0_i32_1787 : BitVec 32 := 0#32
  let c0_i32_1792 : BitVec 32 := 0#32
  let c0_i32_1793 : BitVec 32 := 0#32
  ![arg0.toNat, 0, 0, 0]
def k0_off159 (i : grid0.Coords) (v1733 : BitVec 32) : Fin 4 → Nat :=
  let arg0 : BitVec 32 := BitVec.ofNat 32 (i 0).val
  let c0_i32_1801 : BitVec 32 := 0#32
  let c0_i32_1802 : BitVec 32 := 0#32
  ![arg0.toNat, v1733.toNat, 0, 0]

def k0_chk80 (i : grid0.Coords) (v1733 : BitVec 32) : Prop :=
  (∀ a, (k0_off159 i v1733) a + S1x1x1x128.size a ≤ S4x32768x1x128.size a)
instance k0_chk80.dec : ∀ (i : grid0.Coords) (v1733 : BitVec 32), Decidable (k0_chk80 i v1733) := fun i v1733 => decidable_of_iff' _ (Iff.of_eq (k0_chk80.eq_1 i v1733))
theorem k0_off159_inb : ∀ (i : grid0.Coords) (v1733 : BitVec 32) (k0_hw80 : k0_chk80 i v1733), ∀ a, (k0_off159 i v1733) a + S1x1x1x128.size a ≤ S4x32768x1x128.size a := fun i v1733 k0_hw80 => k0_hw80

def k0_off160 (i : grid0.Coords) : Fin 4 → Nat :=
  let arg0 : BitVec 32 := BitVec.ofNat 32 (i 0).val
  let c0_i32_1810 : BitVec 32 := 0#32
  let c0_i32_1815 : BitVec 32 := 0#32
  let c0_i32_1816 : BitVec 32 := 0#32
  ![arg0.toNat, 0, 0, 0]
def k0_off161 (i : grid0.Coords) (v1755 : BitVec 32) : Fin 4 → Nat :=
  let arg0 : BitVec 32 := BitVec.ofNat 32 (i 0).val
  let c0_i32_1824 : BitVec 32 := 0#32
  let c0_i32_1825 : BitVec 32 := 0#32
  ![arg0.toNat, v1755.toNat, 0, 0]

def k0_chk81 (i : grid0.Coords) (v1755 : BitVec 32) : Prop :=
  (∀ a, (k0_off161 i v1755) a + S1x1x1x128.size a ≤ S4x32768x1x128.size a)
instance k0_chk81.dec : ∀ (i : grid0.Coords) (v1755 : BitVec 32), Decidable (k0_chk81 i v1755) := fun i v1755 => decidable_of_iff' _ (Iff.of_eq (k0_chk81.eq_1 i v1755))
theorem k0_off161_inb : ∀ (i : grid0.Coords) (v1755 : BitVec 32) (k0_hw81 : k0_chk81 i v1755), ∀ a, (k0_off161 i v1755) a + S1x1x1x128.size a ≤ S4x32768x1x128.size a := fun i v1755 k0_hw81 => k0_hw81

def k0_off162 (i : grid0.Coords) : Fin 4 → Nat :=
  let arg0 : BitVec 32 := BitVec.ofNat 32 (i 0).val
  let c0_i32_1833 : BitVec 32 := 0#32
  let c0_i32_1838 : BitVec 32 := 0#32
  let c0_i32_1839 : BitVec 32 := 0#32
  ![arg0.toNat, 0, 0, 0]
def k0_off163 (i : grid0.Coords) (v1777 : BitVec 32) : Fin 4 → Nat :=
  let arg0 : BitVec 32 := BitVec.ofNat 32 (i 0).val
  let c0_i32_1847 : BitVec 32 := 0#32
  let c0_i32_1848 : BitVec 32 := 0#32
  ![arg0.toNat, v1777.toNat, 0, 0]

def k0_chk82 (i : grid0.Coords) (v1777 : BitVec 32) : Prop :=
  (∀ a, (k0_off163 i v1777) a + S1x1x1x128.size a ≤ S4x32768x1x128.size a)
instance k0_chk82.dec : ∀ (i : grid0.Coords) (v1777 : BitVec 32), Decidable (k0_chk82 i v1777) := fun i v1777 => decidable_of_iff' _ (Iff.of_eq (k0_chk82.eq_1 i v1777))
theorem k0_off163_inb : ∀ (i : grid0.Coords) (v1777 : BitVec 32) (k0_hw82 : k0_chk82 i v1777), ∀ a, (k0_off163 i v1777) a + S1x1x1x128.size a ≤ S4x32768x1x128.size a := fun i v1777 k0_hw82 => k0_hw82

def k0_off164 (i : grid0.Coords) : Fin 4 → Nat :=
  let arg0 : BitVec 32 := BitVec.ofNat 32 (i 0).val
  let c0_i32_1856 : BitVec 32 := 0#32
  let c0_i32_1861 : BitVec 32 := 0#32
  let c0_i32_1862 : BitVec 32 := 0#32
  ![arg0.toNat, 0, 0, 0]
def k0_off165 (i : grid0.Coords) (v1799 : BitVec 32) : Fin 4 → Nat :=
  let arg0 : BitVec 32 := BitVec.ofNat 32 (i 0).val
  let c0_i32_1870 : BitVec 32 := 0#32
  let c0_i32_1871 : BitVec 32 := 0#32
  ![arg0.toNat, v1799.toNat, 0, 0]

def k0_chk83 (i : grid0.Coords) (v1799 : BitVec 32) : Prop :=
  (∀ a, (k0_off165 i v1799) a + S1x1x1x128.size a ≤ S4x32768x1x128.size a)
instance k0_chk83.dec : ∀ (i : grid0.Coords) (v1799 : BitVec 32), Decidable (k0_chk83 i v1799) := fun i v1799 => decidable_of_iff' _ (Iff.of_eq (k0_chk83.eq_1 i v1799))
theorem k0_off165_inb : ∀ (i : grid0.Coords) (v1799 : BitVec 32) (k0_hw83 : k0_chk83 i v1799), ∀ a, (k0_off165 i v1799) a + S1x1x1x128.size a ≤ S4x32768x1x128.size a := fun i v1799 k0_hw83 => k0_hw83

def k0_off166 (i : grid0.Coords) : Fin 4 → Nat :=
  let arg0 : BitVec 32 := BitVec.ofNat 32 (i 0).val
  let c0_i32_1879 : BitVec 32 := 0#32
  let c0_i32_1884 : BitVec 32 := 0#32
  let c0_i32_1885 : BitVec 32 := 0#32
  ![arg0.toNat, 0, 0, 0]
def k0_off167 (i : grid0.Coords) (v1821 : BitVec 32) : Fin 4 → Nat :=
  let arg0 : BitVec 32 := BitVec.ofNat 32 (i 0).val
  let c0_i32_1893 : BitVec 32 := 0#32
  let c0_i32_1894 : BitVec 32 := 0#32
  ![arg0.toNat, v1821.toNat, 0, 0]

def k0_chk84 (i : grid0.Coords) (v1821 : BitVec 32) : Prop :=
  (∀ a, (k0_off167 i v1821) a + S1x1x1x128.size a ≤ S4x32768x1x128.size a)
instance k0_chk84.dec : ∀ (i : grid0.Coords) (v1821 : BitVec 32), Decidable (k0_chk84 i v1821) := fun i v1821 => decidable_of_iff' _ (Iff.of_eq (k0_chk84.eq_1 i v1821))
theorem k0_off167_inb : ∀ (i : grid0.Coords) (v1821 : BitVec 32) (k0_hw84 : k0_chk84 i v1821), ∀ a, (k0_off167 i v1821) a + S1x1x1x128.size a ≤ S4x32768x1x128.size a := fun i v1821 k0_hw84 => k0_hw84

def k0_off168 (i : grid0.Coords) : Fin 4 → Nat :=
  let arg0 : BitVec 32 := BitVec.ofNat 32 (i 0).val
  let c0_i32_1902 : BitVec 32 := 0#32
  let c0_i32_1907 : BitVec 32 := 0#32
  let c0_i32_1908 : BitVec 32 := 0#32
  ![arg0.toNat, 0, 0, 0]
def k0_off169 (i : grid0.Coords) (v1843 : BitVec 32) : Fin 4 → Nat :=
  let arg0 : BitVec 32 := BitVec.ofNat 32 (i 0).val
  let c0_i32_1916 : BitVec 32 := 0#32
  let c0_i32_1917 : BitVec 32 := 0#32
  ![arg0.toNat, v1843.toNat, 0, 0]

def k0_chk85 (i : grid0.Coords) (v1843 : BitVec 32) : Prop :=
  (∀ a, (k0_off169 i v1843) a + S1x1x1x128.size a ≤ S4x32768x1x128.size a)
instance k0_chk85.dec : ∀ (i : grid0.Coords) (v1843 : BitVec 32), Decidable (k0_chk85 i v1843) := fun i v1843 => decidable_of_iff' _ (Iff.of_eq (k0_chk85.eq_1 i v1843))
theorem k0_off169_inb : ∀ (i : grid0.Coords) (v1843 : BitVec 32) (k0_hw85 : k0_chk85 i v1843), ∀ a, (k0_off169 i v1843) a + S1x1x1x128.size a ≤ S4x32768x1x128.size a := fun i v1843 k0_hw85 => k0_hw85

def k0_off170 (i : grid0.Coords) : Fin 4 → Nat :=
  let arg0 : BitVec 32 := BitVec.ofNat 32 (i 0).val
  let c0_i32_1925 : BitVec 32 := 0#32
  let c0_i32_1930 : BitVec 32 := 0#32
  let c0_i32_1931 : BitVec 32 := 0#32
  ![arg0.toNat, 0, 0, 0]
def k0_off171 (i : grid0.Coords) (v1865 : BitVec 32) : Fin 4 → Nat :=
  let arg0 : BitVec 32 := BitVec.ofNat 32 (i 0).val
  let c0_i32_1939 : BitVec 32 := 0#32
  let c0_i32_1940 : BitVec 32 := 0#32
  ![arg0.toNat, v1865.toNat, 0, 0]

def k0_chk86 (i : grid0.Coords) (v1865 : BitVec 32) : Prop :=
  (∀ a, (k0_off171 i v1865) a + S1x1x1x128.size a ≤ S4x32768x1x128.size a)
instance k0_chk86.dec : ∀ (i : grid0.Coords) (v1865 : BitVec 32), Decidable (k0_chk86 i v1865) := fun i v1865 => decidable_of_iff' _ (Iff.of_eq (k0_chk86.eq_1 i v1865))
theorem k0_off171_inb : ∀ (i : grid0.Coords) (v1865 : BitVec 32) (k0_hw86 : k0_chk86 i v1865), ∀ a, (k0_off171 i v1865) a + S1x1x1x128.size a ≤ S4x32768x1x128.size a := fun i v1865 k0_hw86 => k0_hw86

def k0_off172 (i : grid0.Coords) : Fin 4 → Nat :=
  let arg0 : BitVec 32 := BitVec.ofNat 32 (i 0).val
  let c0_i32_1948 : BitVec 32 := 0#32
  let c0_i32_1953 : BitVec 32 := 0#32
  let c0_i32_1954 : BitVec 32 := 0#32
  ![arg0.toNat, 0, 0, 0]
def k0_off173 (i : grid0.Coords) (v1887 : BitVec 32) : Fin 4 → Nat :=
  let arg0 : BitVec 32 := BitVec.ofNat 32 (i 0).val
  let c0_i32_1962 : BitVec 32 := 0#32
  let c0_i32_1963 : BitVec 32 := 0#32
  ![arg0.toNat, v1887.toNat, 0, 0]

def k0_chk87 (i : grid0.Coords) (v1887 : BitVec 32) : Prop :=
  (∀ a, (k0_off173 i v1887) a + S1x1x1x128.size a ≤ S4x32768x1x128.size a)
instance k0_chk87.dec : ∀ (i : grid0.Coords) (v1887 : BitVec 32), Decidable (k0_chk87 i v1887) := fun i v1887 => decidable_of_iff' _ (Iff.of_eq (k0_chk87.eq_1 i v1887))
theorem k0_off173_inb : ∀ (i : grid0.Coords) (v1887 : BitVec 32) (k0_hw87 : k0_chk87 i v1887), ∀ a, (k0_off173 i v1887) a + S1x1x1x128.size a ≤ S4x32768x1x128.size a := fun i v1887 k0_hw87 => k0_hw87

def k0_off174 (i : grid0.Coords) : Fin 4 → Nat :=
  let arg0 : BitVec 32 := BitVec.ofNat 32 (i 0).val
  let c0_i32_1971 : BitVec 32 := 0#32
  let c0_i32_1976 : BitVec 32 := 0#32
  let c0_i32_1977 : BitVec 32 := 0#32
  ![arg0.toNat, 0, 0, 0]
def k0_off175 (i : grid0.Coords) (v1909 : BitVec 32) : Fin 4 → Nat :=
  let arg0 : BitVec 32 := BitVec.ofNat 32 (i 0).val
  let c0_i32_1985 : BitVec 32 := 0#32
  let c0_i32_1986 : BitVec 32 := 0#32
  ![arg0.toNat, v1909.toNat, 0, 0]

def k0_chk88 (i : grid0.Coords) (v1909 : BitVec 32) : Prop :=
  (∀ a, (k0_off175 i v1909) a + S1x1x1x128.size a ≤ S4x32768x1x128.size a)
instance k0_chk88.dec : ∀ (i : grid0.Coords) (v1909 : BitVec 32), Decidable (k0_chk88 i v1909) := fun i v1909 => decidable_of_iff' _ (Iff.of_eq (k0_chk88.eq_1 i v1909))
theorem k0_off175_inb : ∀ (i : grid0.Coords) (v1909 : BitVec 32) (k0_hw88 : k0_chk88 i v1909), ∀ a, (k0_off175 i v1909) a + S1x1x1x128.size a ≤ S4x32768x1x128.size a := fun i v1909 k0_hw88 => k0_hw88

def k0_off176 (i : grid0.Coords) : Fin 4 → Nat :=
  let arg0 : BitVec 32 := BitVec.ofNat 32 (i 0).val
  let c0_i32_1994 : BitVec 32 := 0#32
  let c0_i32_1999 : BitVec 32 := 0#32
  let c0_i32_2000 : BitVec 32 := 0#32
  ![arg0.toNat, 0, 0, 0]
def k0_off177 (i : grid0.Coords) (v1931 : BitVec 32) : Fin 4 → Nat :=
  let arg0 : BitVec 32 := BitVec.ofNat 32 (i 0).val
  let c0_i32_2008 : BitVec 32 := 0#32
  let c0_i32_2009 : BitVec 32 := 0#32
  ![arg0.toNat, v1931.toNat, 0, 0]

def k0_chk89 (i : grid0.Coords) (v1931 : BitVec 32) : Prop :=
  (∀ a, (k0_off177 i v1931) a + S1x1x1x128.size a ≤ S4x32768x1x128.size a)
instance k0_chk89.dec : ∀ (i : grid0.Coords) (v1931 : BitVec 32), Decidable (k0_chk89 i v1931) := fun i v1931 => decidable_of_iff' _ (Iff.of_eq (k0_chk89.eq_1 i v1931))
theorem k0_off177_inb : ∀ (i : grid0.Coords) (v1931 : BitVec 32) (k0_hw89 : k0_chk89 i v1931), ∀ a, (k0_off177 i v1931) a + S1x1x1x128.size a ≤ S4x32768x1x128.size a := fun i v1931 k0_hw89 => k0_hw89

def k0_off178 (i : grid0.Coords) : Fin 4 → Nat :=
  let arg0 : BitVec 32 := BitVec.ofNat 32 (i 0).val
  let c0_i32_2017 : BitVec 32 := 0#32
  let c0_i32_2022 : BitVec 32 := 0#32
  let c0_i32_2023 : BitVec 32 := 0#32
  ![arg0.toNat, 0, 0, 0]
def k0_off179 (i : grid0.Coords) (v1953 : BitVec 32) : Fin 4 → Nat :=
  let arg0 : BitVec 32 := BitVec.ofNat 32 (i 0).val
  let c0_i32_2031 : BitVec 32 := 0#32
  let c0_i32_2032 : BitVec 32 := 0#32
  ![arg0.toNat, v1953.toNat, 0, 0]

def k0_chk90 (i : grid0.Coords) (v1953 : BitVec 32) : Prop :=
  (∀ a, (k0_off179 i v1953) a + S1x1x1x128.size a ≤ S4x32768x1x128.size a)
instance k0_chk90.dec : ∀ (i : grid0.Coords) (v1953 : BitVec 32), Decidable (k0_chk90 i v1953) := fun i v1953 => decidable_of_iff' _ (Iff.of_eq (k0_chk90.eq_1 i v1953))
theorem k0_off179_inb : ∀ (i : grid0.Coords) (v1953 : BitVec 32) (k0_hw90 : k0_chk90 i v1953), ∀ a, (k0_off179 i v1953) a + S1x1x1x128.size a ≤ S4x32768x1x128.size a := fun i v1953 k0_hw90 => k0_hw90

def k0_off180 (i : grid0.Coords) : Fin 4 → Nat :=
  let arg0 : BitVec 32 := BitVec.ofNat 32 (i 0).val
  let c0_i32_2040 : BitVec 32 := 0#32
  let c0_i32_2045 : BitVec 32 := 0#32
  let c0_i32_2046 : BitVec 32 := 0#32
  ![arg0.toNat, 0, 0, 0]
def k0_off181 (i : grid0.Coords) (v1975 : BitVec 32) : Fin 4 → Nat :=
  let arg0 : BitVec 32 := BitVec.ofNat 32 (i 0).val
  let c0_i32_2054 : BitVec 32 := 0#32
  let c0_i32_2055 : BitVec 32 := 0#32
  ![arg0.toNat, v1975.toNat, 0, 0]

def k0_chk91 (i : grid0.Coords) (v1975 : BitVec 32) : Prop :=
  (∀ a, (k0_off181 i v1975) a + S1x1x1x128.size a ≤ S4x32768x1x128.size a)
instance k0_chk91.dec : ∀ (i : grid0.Coords) (v1975 : BitVec 32), Decidable (k0_chk91 i v1975) := fun i v1975 => decidable_of_iff' _ (Iff.of_eq (k0_chk91.eq_1 i v1975))
theorem k0_off181_inb : ∀ (i : grid0.Coords) (v1975 : BitVec 32) (k0_hw91 : k0_chk91 i v1975), ∀ a, (k0_off181 i v1975) a + S1x1x1x128.size a ≤ S4x32768x1x128.size a := fun i v1975 k0_hw91 => k0_hw91

def k0_off182 (i : grid0.Coords) : Fin 4 → Nat :=
  let arg0 : BitVec 32 := BitVec.ofNat 32 (i 0).val
  let c0_i32_2063 : BitVec 32 := 0#32
  let c0_i32_2068 : BitVec 32 := 0#32
  let c0_i32_2069 : BitVec 32 := 0#32
  ![arg0.toNat, 0, 0, 0]
def k0_off183 (i : grid0.Coords) (v1997 : BitVec 32) : Fin 4 → Nat :=
  let arg0 : BitVec 32 := BitVec.ofNat 32 (i 0).val
  let c0_i32_2077 : BitVec 32 := 0#32
  let c0_i32_2078 : BitVec 32 := 0#32
  ![arg0.toNat, v1997.toNat, 0, 0]

def k0_chk92 (i : grid0.Coords) (v1997 : BitVec 32) : Prop :=
  (∀ a, (k0_off183 i v1997) a + S1x1x1x128.size a ≤ S4x32768x1x128.size a)
instance k0_chk92.dec : ∀ (i : grid0.Coords) (v1997 : BitVec 32), Decidable (k0_chk92 i v1997) := fun i v1997 => decidable_of_iff' _ (Iff.of_eq (k0_chk92.eq_1 i v1997))
theorem k0_off183_inb : ∀ (i : grid0.Coords) (v1997 : BitVec 32) (k0_hw92 : k0_chk92 i v1997), ∀ a, (k0_off183 i v1997) a + S1x1x1x128.size a ≤ S4x32768x1x128.size a := fun i v1997 k0_hw92 => k0_hw92

def k0_off184 (i : grid0.Coords) : Fin 4 → Nat :=
  let arg0 : BitVec 32 := BitVec.ofNat 32 (i 0).val
  let c0_i32_2086 : BitVec 32 := 0#32
  let c0_i32_2091 : BitVec 32 := 0#32
  let c0_i32_2092 : BitVec 32 := 0#32
  ![arg0.toNat, 0, 0, 0]
def k0_off185 (i : grid0.Coords) (v2019 : BitVec 32) : Fin 4 → Nat :=
  let arg0 : BitVec 32 := BitVec.ofNat 32 (i 0).val
  let c0_i32_2100 : BitVec 32 := 0#32
  let c0_i32_2101 : BitVec 32 := 0#32
  ![arg0.toNat, v2019.toNat, 0, 0]

def k0_chk93 (i : grid0.Coords) (v2019 : BitVec 32) : Prop :=
  (∀ a, (k0_off185 i v2019) a + S1x1x1x128.size a ≤ S4x32768x1x128.size a)
instance k0_chk93.dec : ∀ (i : grid0.Coords) (v2019 : BitVec 32), Decidable (k0_chk93 i v2019) := fun i v2019 => decidable_of_iff' _ (Iff.of_eq (k0_chk93.eq_1 i v2019))
theorem k0_off185_inb : ∀ (i : grid0.Coords) (v2019 : BitVec 32) (k0_hw93 : k0_chk93 i v2019), ∀ a, (k0_off185 i v2019) a + S1x1x1x128.size a ≤ S4x32768x1x128.size a := fun i v2019 k0_hw93 => k0_hw93

def k0_off186 (i : grid0.Coords) : Fin 4 → Nat :=
  let arg0 : BitVec 32 := BitVec.ofNat 32 (i 0).val
  let c0_i32_2109 : BitVec 32 := 0#32
  let c0_i32_2114 : BitVec 32 := 0#32
  let c0_i32_2115 : BitVec 32 := 0#32
  ![arg0.toNat, 0, 0, 0]
def k0_off187 (i : grid0.Coords) (v2041 : BitVec 32) : Fin 4 → Nat :=
  let arg0 : BitVec 32 := BitVec.ofNat 32 (i 0).val
  let c0_i32_2123 : BitVec 32 := 0#32
  let c0_i32_2124 : BitVec 32 := 0#32
  ![arg0.toNat, v2041.toNat, 0, 0]

def k0_chk94 (i : grid0.Coords) (v2041 : BitVec 32) : Prop :=
  (∀ a, (k0_off187 i v2041) a + S1x1x1x128.size a ≤ S4x32768x1x128.size a)
instance k0_chk94.dec : ∀ (i : grid0.Coords) (v2041 : BitVec 32), Decidable (k0_chk94 i v2041) := fun i v2041 => decidable_of_iff' _ (Iff.of_eq (k0_chk94.eq_1 i v2041))
theorem k0_off187_inb : ∀ (i : grid0.Coords) (v2041 : BitVec 32) (k0_hw94 : k0_chk94 i v2041), ∀ a, (k0_off187 i v2041) a + S1x1x1x128.size a ≤ S4x32768x1x128.size a := fun i v2041 k0_hw94 => k0_hw94

def k0_off188 (i : grid0.Coords) : Fin 4 → Nat :=
  let arg0 : BitVec 32 := BitVec.ofNat 32 (i 0).val
  let c0_i32_2132 : BitVec 32 := 0#32
  let c0_i32_2137 : BitVec 32 := 0#32
  let c0_i32_2138 : BitVec 32 := 0#32
  ![arg0.toNat, 0, 0, 0]
def k0_off189 (i : grid0.Coords) (v2063 : BitVec 32) : Fin 4 → Nat :=
  let arg0 : BitVec 32 := BitVec.ofNat 32 (i 0).val
  let c0_i32_2146 : BitVec 32 := 0#32
  let c0_i32_2147 : BitVec 32 := 0#32
  ![arg0.toNat, v2063.toNat, 0, 0]

def k0_chk95 (i : grid0.Coords) (v2063 : BitVec 32) : Prop :=
  (∀ a, (k0_off189 i v2063) a + S1x1x1x128.size a ≤ S4x32768x1x128.size a)
instance k0_chk95.dec : ∀ (i : grid0.Coords) (v2063 : BitVec 32), Decidable (k0_chk95 i v2063) := fun i v2063 => decidable_of_iff' _ (Iff.of_eq (k0_chk95.eq_1 i v2063))
theorem k0_off189_inb : ∀ (i : grid0.Coords) (v2063 : BitVec 32) (k0_hw95 : k0_chk95 i v2063), ∀ a, (k0_off189 i v2063) a + S1x1x1x128.size a ≤ S4x32768x1x128.size a := fun i v2063 k0_hw95 => k0_hw95

def k0_off190 (i : grid0.Coords) : Fin 4 → Nat :=
  let arg0 : BitVec 32 := BitVec.ofNat 32 (i 0).val
  let c0_i32_2155 : BitVec 32 := 0#32
  let c0_i32_2160 : BitVec 32 := 0#32
  let c0_i32_2161 : BitVec 32 := 0#32
  ![arg0.toNat, 0, 0, 0]
def k0_off191 (i : grid0.Coords) (v2085 : BitVec 32) : Fin 4 → Nat :=
  let arg0 : BitVec 32 := BitVec.ofNat 32 (i 0).val
  let c0_i32_2169 : BitVec 32 := 0#32
  let c0_i32_2170 : BitVec 32 := 0#32
  ![arg0.toNat, v2085.toNat, 0, 0]

def k0_chk96 (i : grid0.Coords) (v2085 : BitVec 32) : Prop :=
  (∀ a, (k0_off191 i v2085) a + S1x1x1x128.size a ≤ S4x32768x1x128.size a)
instance k0_chk96.dec : ∀ (i : grid0.Coords) (v2085 : BitVec 32), Decidable (k0_chk96 i v2085) := fun i v2085 => decidable_of_iff' _ (Iff.of_eq (k0_chk96.eq_1 i v2085))
theorem k0_off191_inb : ∀ (i : grid0.Coords) (v2085 : BitVec 32) (k0_hw96 : k0_chk96 i v2085), ∀ a, (k0_off191 i v2085) a + S1x1x1x128.size a ≤ S4x32768x1x128.size a := fun i v2085 k0_hw96 => k0_hw96

def k0_off192 (i : grid0.Coords) : Fin 4 → Nat :=
  let arg0 : BitVec 32 := BitVec.ofNat 32 (i 0).val
  let c0_i32_2178 : BitVec 32 := 0#32
  let c0_i32_2183 : BitVec 32 := 0#32
  let c0_i32_2184 : BitVec 32 := 0#32
  ![arg0.toNat, 0, 0, 0]
def k0_off193 (i : grid0.Coords) (v2107 : BitVec 32) : Fin 4 → Nat :=
  let arg0 : BitVec 32 := BitVec.ofNat 32 (i 0).val
  let c0_i32_2192 : BitVec 32 := 0#32
  let c0_i32_2193 : BitVec 32 := 0#32
  ![arg0.toNat, v2107.toNat, 0, 0]

def k0_chk97 (i : grid0.Coords) (v2107 : BitVec 32) : Prop :=
  (∀ a, (k0_off193 i v2107) a + S1x1x1x128.size a ≤ S4x32768x1x128.size a)
instance k0_chk97.dec : ∀ (i : grid0.Coords) (v2107 : BitVec 32), Decidable (k0_chk97 i v2107) := fun i v2107 => decidable_of_iff' _ (Iff.of_eq (k0_chk97.eq_1 i v2107))
theorem k0_off193_inb : ∀ (i : grid0.Coords) (v2107 : BitVec 32) (k0_hw97 : k0_chk97 i v2107), ∀ a, (k0_off193 i v2107) a + S1x1x1x128.size a ≤ S4x32768x1x128.size a := fun i v2107 k0_hw97 => k0_hw97

def k0_off194 (i : grid0.Coords) : Fin 4 → Nat :=
  let arg0 : BitVec 32 := BitVec.ofNat 32 (i 0).val
  let c0_i32_2201 : BitVec 32 := 0#32
  let c0_i32_2206 : BitVec 32 := 0#32
  let c0_i32_2207 : BitVec 32 := 0#32
  ![arg0.toNat, 0, 0, 0]
def k0_off195 (i : grid0.Coords) (v2129 : BitVec 32) : Fin 4 → Nat :=
  let arg0 : BitVec 32 := BitVec.ofNat 32 (i 0).val
  let c0_i32_2215 : BitVec 32 := 0#32
  let c0_i32_2216 : BitVec 32 := 0#32
  ![arg0.toNat, v2129.toNat, 0, 0]

def k0_chk98 (i : grid0.Coords) (v2129 : BitVec 32) : Prop :=
  (∀ a, (k0_off195 i v2129) a + S1x1x1x128.size a ≤ S4x32768x1x128.size a)
instance k0_chk98.dec : ∀ (i : grid0.Coords) (v2129 : BitVec 32), Decidable (k0_chk98 i v2129) := fun i v2129 => decidable_of_iff' _ (Iff.of_eq (k0_chk98.eq_1 i v2129))
theorem k0_off195_inb : ∀ (i : grid0.Coords) (v2129 : BitVec 32) (k0_hw98 : k0_chk98 i v2129), ∀ a, (k0_off195 i v2129) a + S1x1x1x128.size a ≤ S4x32768x1x128.size a := fun i v2129 k0_hw98 => k0_hw98

def k0_off196 (i : grid0.Coords) : Fin 4 → Nat :=
  let arg0 : BitVec 32 := BitVec.ofNat 32 (i 0).val
  let c0_i32_2224 : BitVec 32 := 0#32
  let c0_i32_2229 : BitVec 32 := 0#32
  let c0_i32_2230 : BitVec 32 := 0#32
  ![arg0.toNat, 0, 0, 0]
def k0_off197 (i : grid0.Coords) (v2151 : BitVec 32) : Fin 4 → Nat :=
  let arg0 : BitVec 32 := BitVec.ofNat 32 (i 0).val
  let c0_i32_2238 : BitVec 32 := 0#32
  let c0_i32_2239 : BitVec 32 := 0#32
  ![arg0.toNat, v2151.toNat, 0, 0]

def k0_chk99 (i : grid0.Coords) (v2151 : BitVec 32) : Prop :=
  (∀ a, (k0_off197 i v2151) a + S1x1x1x128.size a ≤ S4x32768x1x128.size a)
instance k0_chk99.dec : ∀ (i : grid0.Coords) (v2151 : BitVec 32), Decidable (k0_chk99 i v2151) := fun i v2151 => decidable_of_iff' _ (Iff.of_eq (k0_chk99.eq_1 i v2151))
theorem k0_off197_inb : ∀ (i : grid0.Coords) (v2151 : BitVec 32) (k0_hw99 : k0_chk99 i v2151), ∀ a, (k0_off197 i v2151) a + S1x1x1x128.size a ≤ S4x32768x1x128.size a := fun i v2151 k0_hw99 => k0_hw99

def k0_off198 (i : grid0.Coords) : Fin 4 → Nat :=
  let arg0 : BitVec 32 := BitVec.ofNat 32 (i 0).val
  let c0_i32_2247 : BitVec 32 := 0#32
  let c0_i32_2252 : BitVec 32 := 0#32
  let c0_i32_2253 : BitVec 32 := 0#32
  ![arg0.toNat, 0, 0, 0]
def k0_off199 (i : grid0.Coords) (v2173 : BitVec 32) : Fin 4 → Nat :=
  let arg0 : BitVec 32 := BitVec.ofNat 32 (i 0).val
  let c0_i32_2261 : BitVec 32 := 0#32
  let c0_i32_2262 : BitVec 32 := 0#32
  ![arg0.toNat, v2173.toNat, 0, 0]

def k0_chk100 (i : grid0.Coords) (v2173 : BitVec 32) : Prop :=
  (∀ a, (k0_off199 i v2173) a + S1x1x1x128.size a ≤ S4x32768x1x128.size a)
instance k0_chk100.dec : ∀ (i : grid0.Coords) (v2173 : BitVec 32), Decidable (k0_chk100 i v2173) := fun i v2173 => decidable_of_iff' _ (Iff.of_eq (k0_chk100.eq_1 i v2173))
theorem k0_off199_inb : ∀ (i : grid0.Coords) (v2173 : BitVec 32) (k0_hw100 : k0_chk100 i v2173), ∀ a, (k0_off199 i v2173) a + S1x1x1x128.size a ≤ S4x32768x1x128.size a := fun i v2173 k0_hw100 => k0_hw100

def k0_off200 (i : grid0.Coords) : Fin 4 → Nat :=
  let arg0 : BitVec 32 := BitVec.ofNat 32 (i 0).val
  let c0_i32_2270 : BitVec 32 := 0#32
  let c0_i32_2275 : BitVec 32 := 0#32
  let c0_i32_2276 : BitVec 32 := 0#32
  ![arg0.toNat, 0, 0, 0]
def k0_off201 (i : grid0.Coords) (v2195 : BitVec 32) : Fin 4 → Nat :=
  let arg0 : BitVec 32 := BitVec.ofNat 32 (i 0).val
  let c0_i32_2284 : BitVec 32 := 0#32
  let c0_i32_2285 : BitVec 32 := 0#32
  ![arg0.toNat, v2195.toNat, 0, 0]

def k0_chk101 (i : grid0.Coords) (v2195 : BitVec 32) : Prop :=
  (∀ a, (k0_off201 i v2195) a + S1x1x1x128.size a ≤ S4x32768x1x128.size a)
instance k0_chk101.dec : ∀ (i : grid0.Coords) (v2195 : BitVec 32), Decidable (k0_chk101 i v2195) := fun i v2195 => decidable_of_iff' _ (Iff.of_eq (k0_chk101.eq_1 i v2195))
theorem k0_off201_inb : ∀ (i : grid0.Coords) (v2195 : BitVec 32) (k0_hw101 : k0_chk101 i v2195), ∀ a, (k0_off201 i v2195) a + S1x1x1x128.size a ≤ S4x32768x1x128.size a := fun i v2195 k0_hw101 => k0_hw101

def k0_off202 (i : grid0.Coords) : Fin 4 → Nat :=
  let arg0 : BitVec 32 := BitVec.ofNat 32 (i 0).val
  let c0_i32_2293 : BitVec 32 := 0#32
  let c0_i32_2298 : BitVec 32 := 0#32
  let c0_i32_2299 : BitVec 32 := 0#32
  ![arg0.toNat, 0, 0, 0]
def k0_off203 (i : grid0.Coords) (v2217 : BitVec 32) : Fin 4 → Nat :=
  let arg0 : BitVec 32 := BitVec.ofNat 32 (i 0).val
  let c0_i32_2307 : BitVec 32 := 0#32
  let c0_i32_2308 : BitVec 32 := 0#32
  ![arg0.toNat, v2217.toNat, 0, 0]

def k0_chk102 (i : grid0.Coords) (v2217 : BitVec 32) : Prop :=
  (∀ a, (k0_off203 i v2217) a + S1x1x1x128.size a ≤ S4x32768x1x128.size a)
instance k0_chk102.dec : ∀ (i : grid0.Coords) (v2217 : BitVec 32), Decidable (k0_chk102 i v2217) := fun i v2217 => decidable_of_iff' _ (Iff.of_eq (k0_chk102.eq_1 i v2217))
theorem k0_off203_inb : ∀ (i : grid0.Coords) (v2217 : BitVec 32) (k0_hw102 : k0_chk102 i v2217), ∀ a, (k0_off203 i v2217) a + S1x1x1x128.size a ≤ S4x32768x1x128.size a := fun i v2217 k0_hw102 => k0_hw102

def k0_off204 (i : grid0.Coords) : Fin 4 → Nat :=
  let arg0 : BitVec 32 := BitVec.ofNat 32 (i 0).val
  let c0_i32_2316 : BitVec 32 := 0#32
  let c0_i32_2321 : BitVec 32 := 0#32
  let c0_i32_2322 : BitVec 32 := 0#32
  ![arg0.toNat, 0, 0, 0]
def k0_off205 (i : grid0.Coords) (v2239 : BitVec 32) : Fin 4 → Nat :=
  let arg0 : BitVec 32 := BitVec.ofNat 32 (i 0).val
  let c0_i32_2330 : BitVec 32 := 0#32
  let c0_i32_2331 : BitVec 32 := 0#32
  ![arg0.toNat, v2239.toNat, 0, 0]

def k0_chk103 (i : grid0.Coords) (v2239 : BitVec 32) : Prop :=
  (∀ a, (k0_off205 i v2239) a + S1x1x1x128.size a ≤ S4x32768x1x128.size a)
instance k0_chk103.dec : ∀ (i : grid0.Coords) (v2239 : BitVec 32), Decidable (k0_chk103 i v2239) := fun i v2239 => decidable_of_iff' _ (Iff.of_eq (k0_chk103.eq_1 i v2239))
theorem k0_off205_inb : ∀ (i : grid0.Coords) (v2239 : BitVec 32) (k0_hw103 : k0_chk103 i v2239), ∀ a, (k0_off205 i v2239) a + S1x1x1x128.size a ≤ S4x32768x1x128.size a := fun i v2239 k0_hw103 => k0_hw103

def k0_off206 (i : grid0.Coords) : Fin 4 → Nat :=
  let arg0 : BitVec 32 := BitVec.ofNat 32 (i 0).val
  let c0_i32_2339 : BitVec 32 := 0#32
  let c0_i32_2344 : BitVec 32 := 0#32
  let c0_i32_2345 : BitVec 32 := 0#32
  ![arg0.toNat, 0, 0, 0]
def k0_off207 (i : grid0.Coords) (v2261 : BitVec 32) : Fin 4 → Nat :=
  let arg0 : BitVec 32 := BitVec.ofNat 32 (i 0).val
  let c0_i32_2353 : BitVec 32 := 0#32
  let c0_i32_2354 : BitVec 32 := 0#32
  ![arg0.toNat, v2261.toNat, 0, 0]

def k0_chk104 (i : grid0.Coords) (v2261 : BitVec 32) : Prop :=
  (∀ a, (k0_off207 i v2261) a + S1x1x1x128.size a ≤ S4x32768x1x128.size a)
instance k0_chk104.dec : ∀ (i : grid0.Coords) (v2261 : BitVec 32), Decidable (k0_chk104 i v2261) := fun i v2261 => decidable_of_iff' _ (Iff.of_eq (k0_chk104.eq_1 i v2261))
theorem k0_off207_inb : ∀ (i : grid0.Coords) (v2261 : BitVec 32) (k0_hw104 : k0_chk104 i v2261), ∀ a, (k0_off207 i v2261) a + S1x1x1x128.size a ≤ S4x32768x1x128.size a := fun i v2261 k0_hw104 => k0_hw104

def k0_off208 (i : grid0.Coords) : Fin 4 → Nat :=
  let arg0 : BitVec 32 := BitVec.ofNat 32 (i 0).val
  let c0_i32_2362 : BitVec 32 := 0#32
  let c0_i32_2367 : BitVec 32 := 0#32
  let c0_i32_2368 : BitVec 32 := 0#32
  ![arg0.toNat, 0, 0, 0]
def k0_off209 (i : grid0.Coords) (v2283 : BitVec 32) : Fin 4 → Nat :=
  let arg0 : BitVec 32 := BitVec.ofNat 32 (i 0).val
  let c0_i32_2376 : BitVec 32 := 0#32
  let c0_i32_2377 : BitVec 32 := 0#32
  ![arg0.toNat, v2283.toNat, 0, 0]

def k0_chk105 (i : grid0.Coords) (v2283 : BitVec 32) : Prop :=
  (∀ a, (k0_off209 i v2283) a + S1x1x1x128.size a ≤ S4x32768x1x128.size a)
instance k0_chk105.dec : ∀ (i : grid0.Coords) (v2283 : BitVec 32), Decidable (k0_chk105 i v2283) := fun i v2283 => decidable_of_iff' _ (Iff.of_eq (k0_chk105.eq_1 i v2283))
theorem k0_off209_inb : ∀ (i : grid0.Coords) (v2283 : BitVec 32) (k0_hw105 : k0_chk105 i v2283), ∀ a, (k0_off209 i v2283) a + S1x1x1x128.size a ≤ S4x32768x1x128.size a := fun i v2283 k0_hw105 => k0_hw105

def k0_off210 (i : grid0.Coords) : Fin 4 → Nat :=
  let arg0 : BitVec 32 := BitVec.ofNat 32 (i 0).val
  let c0_i32_2385 : BitVec 32 := 0#32
  let c0_i32_2390 : BitVec 32 := 0#32
  let c0_i32_2391 : BitVec 32 := 0#32
  ![arg0.toNat, 0, 0, 0]
def k0_off211 (i : grid0.Coords) (v2305 : BitVec 32) : Fin 4 → Nat :=
  let arg0 : BitVec 32 := BitVec.ofNat 32 (i 0).val
  let c0_i32_2399 : BitVec 32 := 0#32
  let c0_i32_2400 : BitVec 32 := 0#32
  ![arg0.toNat, v2305.toNat, 0, 0]

def k0_chk106 (i : grid0.Coords) (v2305 : BitVec 32) : Prop :=
  (∀ a, (k0_off211 i v2305) a + S1x1x1x128.size a ≤ S4x32768x1x128.size a)
instance k0_chk106.dec : ∀ (i : grid0.Coords) (v2305 : BitVec 32), Decidable (k0_chk106 i v2305) := fun i v2305 => decidable_of_iff' _ (Iff.of_eq (k0_chk106.eq_1 i v2305))
theorem k0_off211_inb : ∀ (i : grid0.Coords) (v2305 : BitVec 32) (k0_hw106 : k0_chk106 i v2305), ∀ a, (k0_off211 i v2305) a + S1x1x1x128.size a ≤ S4x32768x1x128.size a := fun i v2305 k0_hw106 => k0_hw106

def k0_off212 (i : grid0.Coords) : Fin 4 → Nat :=
  let arg0 : BitVec 32 := BitVec.ofNat 32 (i 0).val
  let c0_i32_2408 : BitVec 32 := 0#32
  let c0_i32_2413 : BitVec 32 := 0#32
  let c0_i32_2414 : BitVec 32 := 0#32
  ![arg0.toNat, 0, 0, 0]
def k0_off213 (i : grid0.Coords) (v2327 : BitVec 32) : Fin 4 → Nat :=
  let arg0 : BitVec 32 := BitVec.ofNat 32 (i 0).val
  let c0_i32_2422 : BitVec 32 := 0#32
  let c0_i32_2423 : BitVec 32 := 0#32
  ![arg0.toNat, v2327.toNat, 0, 0]

def k0_chk107 (i : grid0.Coords) (v2327 : BitVec 32) : Prop :=
  (∀ a, (k0_off213 i v2327) a + S1x1x1x128.size a ≤ S4x32768x1x128.size a)
instance k0_chk107.dec : ∀ (i : grid0.Coords) (v2327 : BitVec 32), Decidable (k0_chk107 i v2327) := fun i v2327 => decidable_of_iff' _ (Iff.of_eq (k0_chk107.eq_1 i v2327))
theorem k0_off213_inb : ∀ (i : grid0.Coords) (v2327 : BitVec 32) (k0_hw107 : k0_chk107 i v2327), ∀ a, (k0_off213 i v2327) a + S1x1x1x128.size a ≤ S4x32768x1x128.size a := fun i v2327 k0_hw107 => k0_hw107

def k0_off214 (i : grid0.Coords) : Fin 4 → Nat :=
  let arg0 : BitVec 32 := BitVec.ofNat 32 (i 0).val
  let c0_i32_2431 : BitVec 32 := 0#32
  let c0_i32_2436 : BitVec 32 := 0#32
  let c0_i32_2437 : BitVec 32 := 0#32
  ![arg0.toNat, 0, 0, 0]
def k0_off215 (i : grid0.Coords) (v2349 : BitVec 32) : Fin 4 → Nat :=
  let arg0 : BitVec 32 := BitVec.ofNat 32 (i 0).val
  let c0_i32_2445 : BitVec 32 := 0#32
  let c0_i32_2446 : BitVec 32 := 0#32
  ![arg0.toNat, v2349.toNat, 0, 0]

def k0_chk108 (i : grid0.Coords) (v2349 : BitVec 32) : Prop :=
  (∀ a, (k0_off215 i v2349) a + S1x1x1x128.size a ≤ S4x32768x1x128.size a)
instance k0_chk108.dec : ∀ (i : grid0.Coords) (v2349 : BitVec 32), Decidable (k0_chk108 i v2349) := fun i v2349 => decidable_of_iff' _ (Iff.of_eq (k0_chk108.eq_1 i v2349))
theorem k0_off215_inb : ∀ (i : grid0.Coords) (v2349 : BitVec 32) (k0_hw108 : k0_chk108 i v2349), ∀ a, (k0_off215 i v2349) a + S1x1x1x128.size a ≤ S4x32768x1x128.size a := fun i v2349 k0_hw108 => k0_hw108

def k0_off216 (i : grid0.Coords) : Fin 4 → Nat :=
  let arg0 : BitVec 32 := BitVec.ofNat 32 (i 0).val
  let c0_i32_2454 : BitVec 32 := 0#32
  let c0_i32_2459 : BitVec 32 := 0#32
  let c0_i32_2460 : BitVec 32 := 0#32
  ![arg0.toNat, 0, 0, 0]
def k0_off217 (i : grid0.Coords) (v2371 : BitVec 32) : Fin 4 → Nat :=
  let arg0 : BitVec 32 := BitVec.ofNat 32 (i 0).val
  let c0_i32_2468 : BitVec 32 := 0#32
  let c0_i32_2469 : BitVec 32 := 0#32
  ![arg0.toNat, v2371.toNat, 0, 0]

def k0_chk109 (i : grid0.Coords) (v2371 : BitVec 32) : Prop :=
  (∀ a, (k0_off217 i v2371) a + S1x1x1x128.size a ≤ S4x32768x1x128.size a)
instance k0_chk109.dec : ∀ (i : grid0.Coords) (v2371 : BitVec 32), Decidable (k0_chk109 i v2371) := fun i v2371 => decidable_of_iff' _ (Iff.of_eq (k0_chk109.eq_1 i v2371))
theorem k0_off217_inb : ∀ (i : grid0.Coords) (v2371 : BitVec 32) (k0_hw109 : k0_chk109 i v2371), ∀ a, (k0_off217 i v2371) a + S1x1x1x128.size a ≤ S4x32768x1x128.size a := fun i v2371 k0_hw109 => k0_hw109

def k0_off218 (i : grid0.Coords) : Fin 4 → Nat :=
  let arg0 : BitVec 32 := BitVec.ofNat 32 (i 0).val
  let c0_i32_2477 : BitVec 32 := 0#32
  let c0_i32_2482 : BitVec 32 := 0#32
  let c0_i32_2483 : BitVec 32 := 0#32
  ![arg0.toNat, 0, 0, 0]
def k0_off219 (i : grid0.Coords) (v2393 : BitVec 32) : Fin 4 → Nat :=
  let arg0 : BitVec 32 := BitVec.ofNat 32 (i 0).val
  let c0_i32_2491 : BitVec 32 := 0#32
  let c0_i32_2492 : BitVec 32 := 0#32
  ![arg0.toNat, v2393.toNat, 0, 0]

def k0_chk110 (i : grid0.Coords) (v2393 : BitVec 32) : Prop :=
  (∀ a, (k0_off219 i v2393) a + S1x1x1x128.size a ≤ S4x32768x1x128.size a)
instance k0_chk110.dec : ∀ (i : grid0.Coords) (v2393 : BitVec 32), Decidable (k0_chk110 i v2393) := fun i v2393 => decidable_of_iff' _ (Iff.of_eq (k0_chk110.eq_1 i v2393))
theorem k0_off219_inb : ∀ (i : grid0.Coords) (v2393 : BitVec 32) (k0_hw110 : k0_chk110 i v2393), ∀ a, (k0_off219 i v2393) a + S1x1x1x128.size a ≤ S4x32768x1x128.size a := fun i v2393 k0_hw110 => k0_hw110

def k0_off220 (i : grid0.Coords) : Fin 4 → Nat :=
  let arg0 : BitVec 32 := BitVec.ofNat 32 (i 0).val
  let c0_i32_2500 : BitVec 32 := 0#32
  let c0_i32_2505 : BitVec 32 := 0#32
  let c0_i32_2506 : BitVec 32 := 0#32
  ![arg0.toNat, 0, 0, 0]
def k0_off221 (i : grid0.Coords) (v2415 : BitVec 32) : Fin 4 → Nat :=
  let arg0 : BitVec 32 := BitVec.ofNat 32 (i 0).val
  let c0_i32_2514 : BitVec 32 := 0#32
  let c0_i32_2515 : BitVec 32 := 0#32
  ![arg0.toNat, v2415.toNat, 0, 0]

def k0_chk111 (i : grid0.Coords) (v2415 : BitVec 32) : Prop :=
  (∀ a, (k0_off221 i v2415) a + S1x1x1x128.size a ≤ S4x32768x1x128.size a)
instance k0_chk111.dec : ∀ (i : grid0.Coords) (v2415 : BitVec 32), Decidable (k0_chk111 i v2415) := fun i v2415 => decidable_of_iff' _ (Iff.of_eq (k0_chk111.eq_1 i v2415))
theorem k0_off221_inb : ∀ (i : grid0.Coords) (v2415 : BitVec 32) (k0_hw111 : k0_chk111 i v2415), ∀ a, (k0_off221 i v2415) a + S1x1x1x128.size a ≤ S4x32768x1x128.size a := fun i v2415 k0_hw111 => k0_hw111

def k0_off222 (i : grid0.Coords) : Fin 4 → Nat :=
  let arg0 : BitVec 32 := BitVec.ofNat 32 (i 0).val
  let c0_i32_2523 : BitVec 32 := 0#32
  let c0_i32_2528 : BitVec 32 := 0#32
  let c0_i32_2529 : BitVec 32 := 0#32
  ![arg0.toNat, 0, 0, 0]
def k0_off223 (i : grid0.Coords) (v2437 : BitVec 32) : Fin 4 → Nat :=
  let arg0 : BitVec 32 := BitVec.ofNat 32 (i 0).val
  let c0_i32_2537 : BitVec 32 := 0#32
  let c0_i32_2538 : BitVec 32 := 0#32
  ![arg0.toNat, v2437.toNat, 0, 0]

def k0_chk112 (i : grid0.Coords) (v2437 : BitVec 32) : Prop :=
  (∀ a, (k0_off223 i v2437) a + S1x1x1x128.size a ≤ S4x32768x1x128.size a)
instance k0_chk112.dec : ∀ (i : grid0.Coords) (v2437 : BitVec 32), Decidable (k0_chk112 i v2437) := fun i v2437 => decidable_of_iff' _ (Iff.of_eq (k0_chk112.eq_1 i v2437))
theorem k0_off223_inb : ∀ (i : grid0.Coords) (v2437 : BitVec 32) (k0_hw112 : k0_chk112 i v2437), ∀ a, (k0_off223 i v2437) a + S1x1x1x128.size a ≤ S4x32768x1x128.size a := fun i v2437 k0_hw112 => k0_hw112

def k0_off224 (i : grid0.Coords) : Fin 4 → Nat :=
  let arg0 : BitVec 32 := BitVec.ofNat 32 (i 0).val
  let c0_i32_2546 : BitVec 32 := 0#32
  let c0_i32_2551 : BitVec 32 := 0#32
  let c0_i32_2552 : BitVec 32 := 0#32
  ![arg0.toNat, 0, 0, 0]
def k0_off225 (i : grid0.Coords) (v2459 : BitVec 32) : Fin 4 → Nat :=
  let arg0 : BitVec 32 := BitVec.ofNat 32 (i 0).val
  let c0_i32_2560 : BitVec 32 := 0#32
  let c0_i32_2561 : BitVec 32 := 0#32
  ![arg0.toNat, v2459.toNat, 0, 0]

def k0_chk113 (i : grid0.Coords) (v2459 : BitVec 32) : Prop :=
  (∀ a, (k0_off225 i v2459) a + S1x1x1x128.size a ≤ S4x32768x1x128.size a)
instance k0_chk113.dec : ∀ (i : grid0.Coords) (v2459 : BitVec 32), Decidable (k0_chk113 i v2459) := fun i v2459 => decidable_of_iff' _ (Iff.of_eq (k0_chk113.eq_1 i v2459))
theorem k0_off225_inb : ∀ (i : grid0.Coords) (v2459 : BitVec 32) (k0_hw113 : k0_chk113 i v2459), ∀ a, (k0_off225 i v2459) a + S1x1x1x128.size a ≤ S4x32768x1x128.size a := fun i v2459 k0_hw113 => k0_hw113

def k0_off226 (i : grid0.Coords) : Fin 4 → Nat :=
  let arg0 : BitVec 32 := BitVec.ofNat 32 (i 0).val
  let c0_i32_2569 : BitVec 32 := 0#32
  let c0_i32_2574 : BitVec 32 := 0#32
  let c0_i32_2575 : BitVec 32 := 0#32
  ![arg0.toNat, 0, 0, 0]
def k0_off227 (i : grid0.Coords) (v2481 : BitVec 32) : Fin 4 → Nat :=
  let arg0 : BitVec 32 := BitVec.ofNat 32 (i 0).val
  let c0_i32_2583 : BitVec 32 := 0#32
  let c0_i32_2584 : BitVec 32 := 0#32
  ![arg0.toNat, v2481.toNat, 0, 0]

def k0_chk114 (i : grid0.Coords) (v2481 : BitVec 32) : Prop :=
  (∀ a, (k0_off227 i v2481) a + S1x1x1x128.size a ≤ S4x32768x1x128.size a)
instance k0_chk114.dec : ∀ (i : grid0.Coords) (v2481 : BitVec 32), Decidable (k0_chk114 i v2481) := fun i v2481 => decidable_of_iff' _ (Iff.of_eq (k0_chk114.eq_1 i v2481))
theorem k0_off227_inb : ∀ (i : grid0.Coords) (v2481 : BitVec 32) (k0_hw114 : k0_chk114 i v2481), ∀ a, (k0_off227 i v2481) a + S1x1x1x128.size a ≤ S4x32768x1x128.size a := fun i v2481 k0_hw114 => k0_hw114

def k0_off228 (i : grid0.Coords) : Fin 4 → Nat :=
  let arg0 : BitVec 32 := BitVec.ofNat 32 (i 0).val
  let c0_i32_2592 : BitVec 32 := 0#32
  let c0_i32_2597 : BitVec 32 := 0#32
  let c0_i32_2598 : BitVec 32 := 0#32
  ![arg0.toNat, 0, 0, 0]
def k0_off229 (i : grid0.Coords) (v2503 : BitVec 32) : Fin 4 → Nat :=
  let arg0 : BitVec 32 := BitVec.ofNat 32 (i 0).val
  let c0_i32_2606 : BitVec 32 := 0#32
  let c0_i32_2607 : BitVec 32 := 0#32
  ![arg0.toNat, v2503.toNat, 0, 0]

def k0_chk115 (i : grid0.Coords) (v2503 : BitVec 32) : Prop :=
  (∀ a, (k0_off229 i v2503) a + S1x1x1x128.size a ≤ S4x32768x1x128.size a)
instance k0_chk115.dec : ∀ (i : grid0.Coords) (v2503 : BitVec 32), Decidable (k0_chk115 i v2503) := fun i v2503 => decidable_of_iff' _ (Iff.of_eq (k0_chk115.eq_1 i v2503))
theorem k0_off229_inb : ∀ (i : grid0.Coords) (v2503 : BitVec 32) (k0_hw115 : k0_chk115 i v2503), ∀ a, (k0_off229 i v2503) a + S1x1x1x128.size a ≤ S4x32768x1x128.size a := fun i v2503 k0_hw115 => k0_hw115

def k0_off230 (i : grid0.Coords) : Fin 4 → Nat :=
  let arg0 : BitVec 32 := BitVec.ofNat 32 (i 0).val
  let c0_i32_2615 : BitVec 32 := 0#32
  let c0_i32_2620 : BitVec 32 := 0#32
  let c0_i32_2621 : BitVec 32 := 0#32
  ![arg0.toNat, 0, 0, 0]
def k0_off231 (i : grid0.Coords) (v2525 : BitVec 32) : Fin 4 → Nat :=
  let arg0 : BitVec 32 := BitVec.ofNat 32 (i 0).val
  let c0_i32_2629 : BitVec 32 := 0#32
  let c0_i32_2630 : BitVec 32 := 0#32
  ![arg0.toNat, v2525.toNat, 0, 0]

def k0_chk116 (i : grid0.Coords) (v2525 : BitVec 32) : Prop :=
  (∀ a, (k0_off231 i v2525) a + S1x1x1x128.size a ≤ S4x32768x1x128.size a)
instance k0_chk116.dec : ∀ (i : grid0.Coords) (v2525 : BitVec 32), Decidable (k0_chk116 i v2525) := fun i v2525 => decidable_of_iff' _ (Iff.of_eq (k0_chk116.eq_1 i v2525))
theorem k0_off231_inb : ∀ (i : grid0.Coords) (v2525 : BitVec 32) (k0_hw116 : k0_chk116 i v2525), ∀ a, (k0_off231 i v2525) a + S1x1x1x128.size a ≤ S4x32768x1x128.size a := fun i v2525 k0_hw116 => k0_hw116

def k0_off232 (i : grid0.Coords) : Fin 4 → Nat :=
  let arg0 : BitVec 32 := BitVec.ofNat 32 (i 0).val
  let c0_i32_2638 : BitVec 32 := 0#32
  let c0_i32_2643 : BitVec 32 := 0#32
  let c0_i32_2644 : BitVec 32 := 0#32
  ![arg0.toNat, 0, 0, 0]
def k0_off233 (i : grid0.Coords) (v2547 : BitVec 32) : Fin 4 → Nat :=
  let arg0 : BitVec 32 := BitVec.ofNat 32 (i 0).val
  let c0_i32_2652 : BitVec 32 := 0#32
  let c0_i32_2653 : BitVec 32 := 0#32
  ![arg0.toNat, v2547.toNat, 0, 0]

def k0_chk117 (i : grid0.Coords) (v2547 : BitVec 32) : Prop :=
  (∀ a, (k0_off233 i v2547) a + S1x1x1x128.size a ≤ S4x32768x1x128.size a)
instance k0_chk117.dec : ∀ (i : grid0.Coords) (v2547 : BitVec 32), Decidable (k0_chk117 i v2547) := fun i v2547 => decidable_of_iff' _ (Iff.of_eq (k0_chk117.eq_1 i v2547))
theorem k0_off233_inb : ∀ (i : grid0.Coords) (v2547 : BitVec 32) (k0_hw117 : k0_chk117 i v2547), ∀ a, (k0_off233 i v2547) a + S1x1x1x128.size a ≤ S4x32768x1x128.size a := fun i v2547 k0_hw117 => k0_hw117

def k0_off234 (i : grid0.Coords) : Fin 4 → Nat :=
  let arg0 : BitVec 32 := BitVec.ofNat 32 (i 0).val
  let c0_i32_2661 : BitVec 32 := 0#32
  let c0_i32_2666 : BitVec 32 := 0#32
  let c0_i32_2667 : BitVec 32 := 0#32
  ![arg0.toNat, 0, 0, 0]
def k0_off235 (i : grid0.Coords) (v2569 : BitVec 32) : Fin 4 → Nat :=
  let arg0 : BitVec 32 := BitVec.ofNat 32 (i 0).val
  let c0_i32_2675 : BitVec 32 := 0#32
  let c0_i32_2676 : BitVec 32 := 0#32
  ![arg0.toNat, v2569.toNat, 0, 0]

def k0_chk118 (i : grid0.Coords) (v2569 : BitVec 32) : Prop :=
  (∀ a, (k0_off235 i v2569) a + S1x1x1x128.size a ≤ S4x32768x1x128.size a)
instance k0_chk118.dec : ∀ (i : grid0.Coords) (v2569 : BitVec 32), Decidable (k0_chk118 i v2569) := fun i v2569 => decidable_of_iff' _ (Iff.of_eq (k0_chk118.eq_1 i v2569))
theorem k0_off235_inb : ∀ (i : grid0.Coords) (v2569 : BitVec 32) (k0_hw118 : k0_chk118 i v2569), ∀ a, (k0_off235 i v2569) a + S1x1x1x128.size a ≤ S4x32768x1x128.size a := fun i v2569 k0_hw118 => k0_hw118

def k0_off236 (i : grid0.Coords) : Fin 4 → Nat :=
  let arg0 : BitVec 32 := BitVec.ofNat 32 (i 0).val
  let c0_i32_2684 : BitVec 32 := 0#32
  let c0_i32_2689 : BitVec 32 := 0#32
  let c0_i32_2690 : BitVec 32 := 0#32
  ![arg0.toNat, 0, 0, 0]
def k0_off237 (i : grid0.Coords) (v2591 : BitVec 32) : Fin 4 → Nat :=
  let arg0 : BitVec 32 := BitVec.ofNat 32 (i 0).val
  let c0_i32_2698 : BitVec 32 := 0#32
  let c0_i32_2699 : BitVec 32 := 0#32
  ![arg0.toNat, v2591.toNat, 0, 0]

def k0_chk119 (i : grid0.Coords) (v2591 : BitVec 32) : Prop :=
  (∀ a, (k0_off237 i v2591) a + S1x1x1x128.size a ≤ S4x32768x1x128.size a)
instance k0_chk119.dec : ∀ (i : grid0.Coords) (v2591 : BitVec 32), Decidable (k0_chk119 i v2591) := fun i v2591 => decidable_of_iff' _ (Iff.of_eq (k0_chk119.eq_1 i v2591))
theorem k0_off237_inb : ∀ (i : grid0.Coords) (v2591 : BitVec 32) (k0_hw119 : k0_chk119 i v2591), ∀ a, (k0_off237 i v2591) a + S1x1x1x128.size a ≤ S4x32768x1x128.size a := fun i v2591 k0_hw119 => k0_hw119

def k0_off238 (i : grid0.Coords) : Fin 4 → Nat :=
  let arg0 : BitVec 32 := BitVec.ofNat 32 (i 0).val
  let c0_i32_2707 : BitVec 32 := 0#32
  let c0_i32_2712 : BitVec 32 := 0#32
  let c0_i32_2713 : BitVec 32 := 0#32
  ![arg0.toNat, 0, 0, 0]
def k0_off239 (i : grid0.Coords) (v2613 : BitVec 32) : Fin 4 → Nat :=
  let arg0 : BitVec 32 := BitVec.ofNat 32 (i 0).val
  let c0_i32_2721 : BitVec 32 := 0#32
  let c0_i32_2722 : BitVec 32 := 0#32
  ![arg0.toNat, v2613.toNat, 0, 0]

def k0_chk120 (i : grid0.Coords) (v2613 : BitVec 32) : Prop :=
  (∀ a, (k0_off239 i v2613) a + S1x1x1x128.size a ≤ S4x32768x1x128.size a)
instance k0_chk120.dec : ∀ (i : grid0.Coords) (v2613 : BitVec 32), Decidable (k0_chk120 i v2613) := fun i v2613 => decidable_of_iff' _ (Iff.of_eq (k0_chk120.eq_1 i v2613))
theorem k0_off239_inb : ∀ (i : grid0.Coords) (v2613 : BitVec 32) (k0_hw120 : k0_chk120 i v2613), ∀ a, (k0_off239 i v2613) a + S1x1x1x128.size a ≤ S4x32768x1x128.size a := fun i v2613 k0_hw120 => k0_hw120

def k0_off240 (i : grid0.Coords) : Fin 4 → Nat :=
  let arg0 : BitVec 32 := BitVec.ofNat 32 (i 0).val
  let c0_i32_2730 : BitVec 32 := 0#32
  let c0_i32_2735 : BitVec 32 := 0#32
  let c0_i32_2736 : BitVec 32 := 0#32
  ![arg0.toNat, 0, 0, 0]
def k0_off241 (i : grid0.Coords) (v2635 : BitVec 32) : Fin 4 → Nat :=
  let arg0 : BitVec 32 := BitVec.ofNat 32 (i 0).val
  let c0_i32_2744 : BitVec 32 := 0#32
  let c0_i32_2745 : BitVec 32 := 0#32
  ![arg0.toNat, v2635.toNat, 0, 0]

def k0_chk121 (i : grid0.Coords) (v2635 : BitVec 32) : Prop :=
  (∀ a, (k0_off241 i v2635) a + S1x1x1x128.size a ≤ S4x32768x1x128.size a)
instance k0_chk121.dec : ∀ (i : grid0.Coords) (v2635 : BitVec 32), Decidable (k0_chk121 i v2635) := fun i v2635 => decidable_of_iff' _ (Iff.of_eq (k0_chk121.eq_1 i v2635))
theorem k0_off241_inb : ∀ (i : grid0.Coords) (v2635 : BitVec 32) (k0_hw121 : k0_chk121 i v2635), ∀ a, (k0_off241 i v2635) a + S1x1x1x128.size a ≤ S4x32768x1x128.size a := fun i v2635 k0_hw121 => k0_hw121

def k0_off242 (i : grid0.Coords) : Fin 4 → Nat :=
  let arg0 : BitVec 32 := BitVec.ofNat 32 (i 0).val
  let c0_i32_2753 : BitVec 32 := 0#32
  let c0_i32_2758 : BitVec 32 := 0#32
  let c0_i32_2759 : BitVec 32 := 0#32
  ![arg0.toNat, 0, 0, 0]
def k0_off243 (i : grid0.Coords) (v2657 : BitVec 32) : Fin 4 → Nat :=
  let arg0 : BitVec 32 := BitVec.ofNat 32 (i 0).val
  let c0_i32_2767 : BitVec 32 := 0#32
  let c0_i32_2768 : BitVec 32 := 0#32
  ![arg0.toNat, v2657.toNat, 0, 0]

def k0_chk122 (i : grid0.Coords) (v2657 : BitVec 32) : Prop :=
  (∀ a, (k0_off243 i v2657) a + S1x1x1x128.size a ≤ S4x32768x1x128.size a)
instance k0_chk122.dec : ∀ (i : grid0.Coords) (v2657 : BitVec 32), Decidable (k0_chk122 i v2657) := fun i v2657 => decidable_of_iff' _ (Iff.of_eq (k0_chk122.eq_1 i v2657))
theorem k0_off243_inb : ∀ (i : grid0.Coords) (v2657 : BitVec 32) (k0_hw122 : k0_chk122 i v2657), ∀ a, (k0_off243 i v2657) a + S1x1x1x128.size a ≤ S4x32768x1x128.size a := fun i v2657 k0_hw122 => k0_hw122

def k0_off244 (i : grid0.Coords) : Fin 4 → Nat :=
  let arg0 : BitVec 32 := BitVec.ofNat 32 (i 0).val
  let c0_i32_2776 : BitVec 32 := 0#32
  let c0_i32_2781 : BitVec 32 := 0#32
  let c0_i32_2782 : BitVec 32 := 0#32
  ![arg0.toNat, 0, 0, 0]
def k0_off245 (i : grid0.Coords) (v2679 : BitVec 32) : Fin 4 → Nat :=
  let arg0 : BitVec 32 := BitVec.ofNat 32 (i 0).val
  let c0_i32_2790 : BitVec 32 := 0#32
  let c0_i32_2791 : BitVec 32 := 0#32
  ![arg0.toNat, v2679.toNat, 0, 0]

def k0_chk123 (i : grid0.Coords) (v2679 : BitVec 32) : Prop :=
  (∀ a, (k0_off245 i v2679) a + S1x1x1x128.size a ≤ S4x32768x1x128.size a)
instance k0_chk123.dec : ∀ (i : grid0.Coords) (v2679 : BitVec 32), Decidable (k0_chk123 i v2679) := fun i v2679 => decidable_of_iff' _ (Iff.of_eq (k0_chk123.eq_1 i v2679))
theorem k0_off245_inb : ∀ (i : grid0.Coords) (v2679 : BitVec 32) (k0_hw123 : k0_chk123 i v2679), ∀ a, (k0_off245 i v2679) a + S1x1x1x128.size a ≤ S4x32768x1x128.size a := fun i v2679 k0_hw123 => k0_hw123

def k0_off246 (i : grid0.Coords) : Fin 4 → Nat :=
  let arg0 : BitVec 32 := BitVec.ofNat 32 (i 0).val
  let c0_i32_2799 : BitVec 32 := 0#32
  let c0_i32_2804 : BitVec 32 := 0#32
  let c0_i32_2805 : BitVec 32 := 0#32
  ![arg0.toNat, 0, 0, 0]
def k0_off247 (i : grid0.Coords) (v2701 : BitVec 32) : Fin 4 → Nat :=
  let arg0 : BitVec 32 := BitVec.ofNat 32 (i 0).val
  let c0_i32_2813 : BitVec 32 := 0#32
  let c0_i32_2814 : BitVec 32 := 0#32
  ![arg0.toNat, v2701.toNat, 0, 0]

def k0_chk124 (i : grid0.Coords) (v2701 : BitVec 32) : Prop :=
  (∀ a, (k0_off247 i v2701) a + S1x1x1x128.size a ≤ S4x32768x1x128.size a)
instance k0_chk124.dec : ∀ (i : grid0.Coords) (v2701 : BitVec 32), Decidable (k0_chk124 i v2701) := fun i v2701 => decidable_of_iff' _ (Iff.of_eq (k0_chk124.eq_1 i v2701))
theorem k0_off247_inb : ∀ (i : grid0.Coords) (v2701 : BitVec 32) (k0_hw124 : k0_chk124 i v2701), ∀ a, (k0_off247 i v2701) a + S1x1x1x128.size a ≤ S4x32768x1x128.size a := fun i v2701 k0_hw124 => k0_hw124

def k0_off248 (i : grid0.Coords) : Fin 4 → Nat :=
  let arg0 : BitVec 32 := BitVec.ofNat 32 (i 0).val
  let c0_i32_2822 : BitVec 32 := 0#32
  let c0_i32_2827 : BitVec 32 := 0#32
  let c0_i32_2828 : BitVec 32 := 0#32
  ![arg0.toNat, 0, 0, 0]
def k0_off249 (i : grid0.Coords) (v2723 : BitVec 32) : Fin 4 → Nat :=
  let arg0 : BitVec 32 := BitVec.ofNat 32 (i 0).val
  let c0_i32_2836 : BitVec 32 := 0#32
  let c0_i32_2837 : BitVec 32 := 0#32
  ![arg0.toNat, v2723.toNat, 0, 0]

def k0_chk125 (i : grid0.Coords) (v2723 : BitVec 32) : Prop :=
  (∀ a, (k0_off249 i v2723) a + S1x1x1x128.size a ≤ S4x32768x1x128.size a)
instance k0_chk125.dec : ∀ (i : grid0.Coords) (v2723 : BitVec 32), Decidable (k0_chk125 i v2723) := fun i v2723 => decidable_of_iff' _ (Iff.of_eq (k0_chk125.eq_1 i v2723))
theorem k0_off249_inb : ∀ (i : grid0.Coords) (v2723 : BitVec 32) (k0_hw125 : k0_chk125 i v2723), ∀ a, (k0_off249 i v2723) a + S1x1x1x128.size a ≤ S4x32768x1x128.size a := fun i v2723 k0_hw125 => k0_hw125

def k0_off250 (i : grid0.Coords) : Fin 4 → Nat :=
  let arg0 : BitVec 32 := BitVec.ofNat 32 (i 0).val
  let c0_i32_2845 : BitVec 32 := 0#32
  let c0_i32_2850 : BitVec 32 := 0#32
  let c0_i32_2851 : BitVec 32 := 0#32
  ![arg0.toNat, 0, 0, 0]
def k0_off251 (i : grid0.Coords) (v2745 : BitVec 32) : Fin 4 → Nat :=
  let arg0 : BitVec 32 := BitVec.ofNat 32 (i 0).val
  let c0_i32_2859 : BitVec 32 := 0#32
  let c0_i32_2860 : BitVec 32 := 0#32
  ![arg0.toNat, v2745.toNat, 0, 0]

def k0_chk126 (i : grid0.Coords) (v2745 : BitVec 32) : Prop :=
  (∀ a, (k0_off251 i v2745) a + S1x1x1x128.size a ≤ S4x32768x1x128.size a)
instance k0_chk126.dec : ∀ (i : grid0.Coords) (v2745 : BitVec 32), Decidable (k0_chk126 i v2745) := fun i v2745 => decidable_of_iff' _ (Iff.of_eq (k0_chk126.eq_1 i v2745))
theorem k0_off251_inb : ∀ (i : grid0.Coords) (v2745 : BitVec 32) (k0_hw126 : k0_chk126 i v2745), ∀ a, (k0_off251 i v2745) a + S1x1x1x128.size a ≤ S4x32768x1x128.size a := fun i v2745 k0_hw126 => k0_hw126

def k0_off252 (i : grid0.Coords) : Fin 4 → Nat :=
  let arg0 : BitVec 32 := BitVec.ofNat 32 (i 0).val
  let c0_i32_2868 : BitVec 32 := 0#32
  let c0_i32_2873 : BitVec 32 := 0#32
  let c0_i32_2874 : BitVec 32 := 0#32
  ![arg0.toNat, 0, 0, 0]
def k0_off253 (i : grid0.Coords) (v2767 : BitVec 32) : Fin 4 → Nat :=
  let arg0 : BitVec 32 := BitVec.ofNat 32 (i 0).val
  let c0_i32_2882 : BitVec 32 := 0#32
  let c0_i32_2883 : BitVec 32 := 0#32
  ![arg0.toNat, v2767.toNat, 0, 0]

def k0_chk127 (i : grid0.Coords) (v2767 : BitVec 32) : Prop :=
  (∀ a, (k0_off253 i v2767) a + S1x1x1x128.size a ≤ S4x32768x1x128.size a)
instance k0_chk127.dec : ∀ (i : grid0.Coords) (v2767 : BitVec 32), Decidable (k0_chk127 i v2767) := fun i v2767 => decidable_of_iff' _ (Iff.of_eq (k0_chk127.eq_1 i v2767))
theorem k0_off253_inb : ∀ (i : grid0.Coords) (v2767 : BitVec 32) (k0_hw127 : k0_chk127 i v2767), ∀ a, (k0_off253 i v2767) a + S1x1x1x128.size a ≤ S4x32768x1x128.size a := fun i v2767 k0_hw127 => k0_hw127

def k0_off254 (i : grid0.Coords) : Fin 4 → Nat :=
  let arg0 : BitVec 32 := BitVec.ofNat 32 (i 0).val
  let c0_i32_2891 : BitVec 32 := 0#32
  let c0_i32_2896 : BitVec 32 := 0#32
  let c0_i32_2897 : BitVec 32 := 0#32
  ![arg0.toNat, 0, 0, 0]
def k0_off255 (i : grid0.Coords) (v2789 : BitVec 32) : Fin 4 → Nat :=
  let arg0 : BitVec 32 := BitVec.ofNat 32 (i 0).val
  let c0_i32_2905 : BitVec 32 := 0#32
  let c0_i32_2906 : BitVec 32 := 0#32
  ![arg0.toNat, v2789.toNat, 0, 0]

def k0_chk128 (i : grid0.Coords) (v2789 : BitVec 32) : Prop :=
  (∀ a, (k0_off255 i v2789) a + S1x1x1x128.size a ≤ S4x32768x1x128.size a)
instance k0_chk128.dec : ∀ (i : grid0.Coords) (v2789 : BitVec 32), Decidable (k0_chk128 i v2789) := fun i v2789 => decidable_of_iff' _ (Iff.of_eq (k0_chk128.eq_1 i v2789))
theorem k0_off255_inb : ∀ (i : grid0.Coords) (v2789 : BitVec 32) (k0_hw128 : k0_chk128 i v2789), ∀ a, (k0_off255 i v2789) a + S1x1x1x128.size a ≤ S4x32768x1x128.size a := fun i v2789 k0_hw128 => k0_hw128

def k0_off256 (i : grid0.Coords) : Fin 4 → Nat :=
  let arg0 : BitVec 32 := BitVec.ofNat 32 (i 0).val
  let c0_i32_2914 : BitVec 32 := 0#32
  let c0_i32_2919 : BitVec 32 := 0#32
  let c0_i32_2920 : BitVec 32 := 0#32
  ![arg0.toNat, 0, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .smem S1x8x16 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  transposes_S4x128x32768_S4x32768x128_0_2_1 : S4x128x32768.Transposes [0, 2, 1] S4x32768x128
  shapeCasts_S4x32768x128_S4x32768x1x128 : S4x32768x128.ShapeCasts S4x32768x1x128
  transposes_S4x16x32768_S4x32768x16_0_2_1 : S4x16x32768.Transposes [0, 2, 1] S4x32768x16
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x8x16_S1x1x1_0_0_0 : ∀ a, (![0, 0, 0] : Fin 3 → Nat) a + S1x1x1.size a ≤ S1x8x16.size a
  numel1_S1x1x1 : S1x1x1.numel = 1
  inb_S2_S1_0 : ∀ a, (![0] : Fin 1 → Nat) a + S1.size a ≤ S2.size a
  squeezes_S1_S_ : S1.Squeezes S_
  inb_S2x1x128_S1x1x128_0_0_0 : ∀ a, (![0, 0, 0] : Fin 3 → Nat) a + S1x1x128.size a ≤ S2x1x128.size a
  squeezes_S1x1x128_S1x128 : S1x1x128.Squeezes S1x128
  squeezes_S1x1x1x128_S1x128 : S1x1x1x128.Squeezes S1x128
  inb_S1x8x16_S1x1x1_0_0_1 : ∀ a, (![0, 0, 1] : Fin 3 → Nat) a + S1x1x1.size a ≤ S1x8x16.size a
  inb_S2_S1_1 : ∀ a, (![1] : Fin 1 → Nat) a + S1.size a ≤ S2.size a
  inb_S2x1x128_S1x1x128_1_0_0 : ∀ a, (![1, 0, 0] : Fin 3 → Nat) a + S1x1x128.size a ≤ S2x1x128.size a
  h_S1x1x128 : 0 < S1x1x128.numel
  shapeCasts_S1x1x128_S1x128 : S1x1x128.ShapeCasts S1x128
  shapeCasts_S1x128_S128 : S1x128.ShapeCasts S128
  inb_S8x128_S1x128_0_0 : ∀ a, (![0, 0] : Fin 2 → Nat) a + S1x128.size a ≤ S8x128.size a
  h_S1x128 : 0 < S1x128.numel
  shapeCasts_S128_S1x128 : S128.ShapeCasts S1x128
  inb_S1x8x16_S1x1x1_0_0_2 : ∀ a, (![0, 0, 2] : Fin 3 → Nat) a + S1x1x1.size a ≤ S1x8x16.size a
  inb_S1x8x16_S1x1x1_0_0_3 : ∀ a, (![0, 0, 3] : Fin 3 → Nat) a + S1x1x1.size a ≤ S1x8x16.size a
  inb_S1x8x16_S1x1x1_0_0_4 : ∀ a, (![0, 0, 4] : Fin 3 → Nat) a + S1x1x1.size a ≤ S1x8x16.size a
  inb_S1x8x16_S1x1x1_0_0_5 : ∀ a, (![0, 0, 5] : Fin 3 → Nat) a + S1x1x1.size a ≤ S1x8x16.size a
  inb_S1x8x16_S1x1x1_0_0_6 : ∀ a, (![0, 0, 6] : Fin 3 → Nat) a + S1x1x1.size a ≤ S1x8x16.size a
  inb_S1x8x16_S1x1x1_0_0_7 : ∀ a, (![0, 0, 7] : Fin 3 → Nat) a + S1x1x1.size a ≤ S1x8x16.size a
  inb_S1x8x16_S1x1x1_0_0_8 : ∀ a, (![0, 0, 8] : Fin 3 → Nat) a + S1x1x1.size a ≤ S1x8x16.size a
  inb_S1x8x16_S1x1x1_0_0_9 : ∀ a, (![0, 0, 9] : Fin 3 → Nat) a + S1x1x1.size a ≤ S1x8x16.size a
  inb_S1x8x16_S1x1x1_0_0_10 : ∀ a, (![0, 0, 10] : Fin 3 → Nat) a + S1x1x1.size a ≤ S1x8x16.size a
  inb_S1x8x16_S1x1x1_0_0_11 : ∀ a, (![0, 0, 11] : Fin 3 → Nat) a + S1x1x1.size a ≤ S1x8x16.size a
  inb_S1x8x16_S1x1x1_0_0_12 : ∀ a, (![0, 0, 12] : Fin 3 → Nat) a + S1x1x1.size a ≤ S1x8x16.size a
  inb_S1x8x16_S1x1x1_0_0_13 : ∀ a, (![0, 0, 13] : Fin 3 → Nat) a + S1x1x1.size a ≤ S1x8x16.size a
  inb_S1x8x16_S1x1x1_0_0_14 : ∀ a, (![0, 0, 14] : Fin 3 → Nat) a + S1x1x1.size a ≤ S1x8x16.size a
  inb_S1x8x16_S1x1x1_0_0_15 : ∀ a, (![0, 0, 15] : Fin 3 → Nat) a + S1x1x1.size a ≤ S1x8x16.size a
  inb_S1x8x16_S1x1x1_0_1_0 : ∀ a, (![0, 1, 0] : Fin 3 → Nat) a + S1x1x1.size a ≤ S1x8x16.size a
  inb_S1x8x16_S1x1x1_0_1_1 : ∀ a, (![0, 1, 1] : Fin 3 → Nat) a + S1x1x1.size a ≤ S1x8x16.size a
  inb_S8x128_S1x128_1_0 : ∀ a, (![1, 0] : Fin 2 → Nat) a + S1x128.size a ≤ S8x128.size a
  inb_S1x8x16_S1x1x1_0_1_2 : ∀ a, (![0, 1, 2] : Fin 3 → Nat) a + S1x1x1.size a ≤ S1x8x16.size a
  inb_S1x8x16_S1x1x1_0_1_3 : ∀ a, (![0, 1, 3] : Fin 3 → Nat) a + S1x1x1.size a ≤ S1x8x16.size a
  inb_S1x8x16_S1x1x1_0_1_4 : ∀ a, (![0, 1, 4] : Fin 3 → Nat) a + S1x1x1.size a ≤ S1x8x16.size a
  inb_S1x8x16_S1x1x1_0_1_5 : ∀ a, (![0, 1, 5] : Fin 3 → Nat) a + S1x1x1.size a ≤ S1x8x16.size a
  inb_S1x8x16_S1x1x1_0_1_6 : ∀ a, (![0, 1, 6] : Fin 3 → Nat) a + S1x1x1.size a ≤ S1x8x16.size a
  inb_S1x8x16_S1x1x1_0_1_7 : ∀ a, (![0, 1, 7] : Fin 3 → Nat) a + S1x1x1.size a ≤ S1x8x16.size a
  inb_S1x8x16_S1x1x1_0_1_8 : ∀ a, (![0, 1, 8] : Fin 3 → Nat) a + S1x1x1.size a ≤ S1x8x16.size a
  inb_S1x8x16_S1x1x1_0_1_9 : ∀ a, (![0, 1, 9] : Fin 3 → Nat) a + S1x1x1.size a ≤ S1x8x16.size a
  inb_S1x8x16_S1x1x1_0_1_10 : ∀ a, (![0, 1, 10] : Fin 3 → Nat) a + S1x1x1.size a ≤ S1x8x16.size a
  inb_S1x8x16_S1x1x1_0_1_11 : ∀ a, (![0, 1, 11] : Fin 3 → Nat) a + S1x1x1.size a ≤ S1x8x16.size a
  inb_S1x8x16_S1x1x1_0_1_12 : ∀ a, (![0, 1, 12] : Fin 3 → Nat) a + S1x1x1.size a ≤ S1x8x16.size a
  inb_S1x8x16_S1x1x1_0_1_13 : ∀ a, (![0, 1, 13] : Fin 3 → Nat) a + S1x1x1.size a ≤ S1x8x16.size a
  inb_S1x8x16_S1x1x1_0_1_14 : ∀ a, (![0, 1, 14] : Fin 3 → Nat) a + S1x1x1.size a ≤ S1x8x16.size a
  inb_S1x8x16_S1x1x1_0_1_15 : ∀ a, (![0, 1, 15] : Fin 3 → Nat) a + S1x1x1.size a ≤ S1x8x16.size a
  inb_S1x8x16_S1x1x1_0_2_0 : ∀ a, (![0, 2, 0] : Fin 3 → Nat) a + S1x1x1.size a ≤ S1x8x16.size a
  inb_S1x8x16_S1x1x1_0_2_1 : ∀ a, (![0, 2, 1] : Fin 3 → Nat) a + S1x1x1.size a ≤ S1x8x16.size a
  inb_S8x128_S1x128_2_0 : ∀ a, (![2, 0] : Fin 2 → Nat) a + S1x128.size a ≤ S8x128.size a
  inb_S1x8x16_S1x1x1_0_2_2 : ∀ a, (![0, 2, 2] : Fin 3 → Nat) a + S1x1x1.size a ≤ S1x8x16.size a
  inb_S1x8x16_S1x1x1_0_2_3 : ∀ a, (![0, 2, 3] : Fin 3 → Nat) a + S1x1x1.size a ≤ S1x8x16.size a
  inb_S1x8x16_S1x1x1_0_2_4 : ∀ a, (![0, 2, 4] : Fin 3 → Nat) a + S1x1x1.size a ≤ S1x8x16.size a
  inb_S1x8x16_S1x1x1_0_2_5 : ∀ a, (![0, 2, 5] : Fin 3 → Nat) a + S1x1x1.size a ≤ S1x8x16.size a
  inb_S1x8x16_S1x1x1_0_2_6 : ∀ a, (![0, 2, 6] : Fin 3 → Nat) a + S1x1x1.size a ≤ S1x8x16.size a
  inb_S1x8x16_S1x1x1_0_2_7 : ∀ a, (![0, 2, 7] : Fin 3 → Nat) a + S1x1x1.size a ≤ S1x8x16.size a
  inb_S1x8x16_S1x1x1_0_2_8 : ∀ a, (![0, 2, 8] : Fin 3 → Nat) a + S1x1x1.size a ≤ S1x8x16.size a
  inb_S1x8x16_S1x1x1_0_2_9 : ∀ a, (![0, 2, 9] : Fin 3 → Nat) a + S1x1x1.size a ≤ S1x8x16.size a
  inb_S1x8x16_S1x1x1_0_2_10 : ∀ a, (![0, 2, 10] : Fin 3 → Nat) a + S1x1x1.size a ≤ S1x8x16.size a
  inb_S1x8x16_S1x1x1_0_2_11 : ∀ a, (![0, 2, 11] : Fin 3 → Nat) a + S1x1x1.size a ≤ S1x8x16.size a
  inb_S1x8x16_S1x1x1_0_2_12 : ∀ a, (![0, 2, 12] : Fin 3 → Nat) a + S1x1x1.size a ≤ S1x8x16.size a
  inb_S1x8x16_S1x1x1_0_2_13 : ∀ a, (![0, 2, 13] : Fin 3 → Nat) a + S1x1x1.size a ≤ S1x8x16.size a
  inb_S1x8x16_S1x1x1_0_2_14 : ∀ a, (![0, 2, 14] : Fin 3 → Nat) a + S1x1x1.size a ≤ S1x8x16.size a
  inb_S1x8x16_S1x1x1_0_2_15 : ∀ a, (![0, 2, 15] : Fin 3 → Nat) a + S1x1x1.size a ≤ S1x8x16.size a
  inb_S1x8x16_S1x1x1_0_3_0 : ∀ a, (![0, 3, 0] : Fin 3 → Nat) a + S1x1x1.size a ≤ S1x8x16.size a
  inb_S1x8x16_S1x1x1_0_3_1 : ∀ a, (![0, 3, 1] : Fin 3 → Nat) a + S1x1x1.size a ≤ S1x8x16.size a
  inb_S8x128_S1x128_3_0 : ∀ a, (![3, 0] : Fin 2 → Nat) a + S1x128.size a ≤ S8x128.size a
  inb_S1x8x16_S1x1x1_0_3_2 : ∀ a, (![0, 3, 2] : Fin 3 → Nat) a + S1x1x1.size a ≤ S1x8x16.size a
  inb_S1x8x16_S1x1x1_0_3_3 : ∀ a, (![0, 3, 3] : Fin 3 → Nat) a + S1x1x1.size a ≤ S1x8x16.size a
  inb_S1x8x16_S1x1x1_0_3_4 : ∀ a, (![0, 3, 4] : Fin 3 → Nat) a + S1x1x1.size a ≤ S1x8x16.size a
  inb_S1x8x16_S1x1x1_0_3_5 : ∀ a, (![0, 3, 5] : Fin 3 → Nat) a + S1x1x1.size a ≤ S1x8x16.size a
  inb_S1x8x16_S1x1x1_0_3_6 : ∀ a, (![0, 3, 6] : Fin 3 → Nat) a + S1x1x1.size a ≤ S1x8x16.size a
  inb_S1x8x16_S1x1x1_0_3_7 : ∀ a, (![0, 3, 7] : Fin 3 → Nat) a + S1x1x1.size a ≤ S1x8x16.size a
  inb_S1x8x16_S1x1x1_0_3_8 : ∀ a, (![0, 3, 8] : Fin 3 → Nat) a + S1x1x1.size a ≤ S1x8x16.size a
  inb_S1x8x16_S1x1x1_0_3_9 : ∀ a, (![0, 3, 9] : Fin 3 → Nat) a + S1x1x1.size a ≤ S1x8x16.size a
  inb_S1x8x16_S1x1x1_0_3_10 : ∀ a, (![0, 3, 10] : Fin 3 → Nat) a + S1x1x1.size a ≤ S1x8x16.size a
  inb_S1x8x16_S1x1x1_0_3_11 : ∀ a, (![0, 3, 11] : Fin 3 → Nat) a + S1x1x1.size a ≤ S1x8x16.size a
  inb_S1x8x16_S1x1x1_0_3_12 : ∀ a, (![0, 3, 12] : Fin 3 → Nat) a + S1x1x1.size a ≤ S1x8x16.size a
  inb_S1x8x16_S1x1x1_0_3_13 : ∀ a, (![0, 3, 13] : Fin 3 → Nat) a + S1x1x1.size a ≤ S1x8x16.size a
  inb_S1x8x16_S1x1x1_0_3_14 : ∀ a, (![0, 3, 14] : Fin 3 → Nat) a + S1x1x1.size a ≤ S1x8x16.size a
  inb_S1x8x16_S1x1x1_0_3_15 : ∀ a, (![0, 3, 15] : Fin 3 → Nat) a + S1x1x1.size a ≤ S1x8x16.size a
  inb_S1x8x16_S1x1x1_0_4_0 : ∀ a, (![0, 4, 0] : Fin 3 → Nat) a + S1x1x1.size a ≤ S1x8x16.size a
  inb_S1x8x16_S1x1x1_0_4_1 : ∀ a, (![0, 4, 1] : Fin 3 → Nat) a + S1x1x1.size a ≤ S1x8x16.size a
  inb_S8x128_S1x128_4_0 : ∀ a, (![4, 0] : Fin 2 → Nat) a + S1x128.size a ≤ S8x128.size a
  inb_S1x8x16_S1x1x1_0_4_2 : ∀ a, (![0, 4, 2] : Fin 3 → Nat) a + S1x1x1.size a ≤ S1x8x16.size a
  inb_S1x8x16_S1x1x1_0_4_3 : ∀ a, (![0, 4, 3] : Fin 3 → Nat) a + S1x1x1.size a ≤ S1x8x16.size a
  inb_S1x8x16_S1x1x1_0_4_4 : ∀ a, (![0, 4, 4] : Fin 3 → Nat) a + S1x1x1.size a ≤ S1x8x16.size a
  inb_S1x8x16_S1x1x1_0_4_5 : ∀ a, (![0, 4, 5] : Fin 3 → Nat) a + S1x1x1.size a ≤ S1x8x16.size a
  inb_S1x8x16_S1x1x1_0_4_6 : ∀ a, (![0, 4, 6] : Fin 3 → Nat) a + S1x1x1.size a ≤ S1x8x16.size a
  inb_S1x8x16_S1x1x1_0_4_7 : ∀ a, (![0, 4, 7] : Fin 3 → Nat) a + S1x1x1.size a ≤ S1x8x16.size a
  inb_S1x8x16_S1x1x1_0_4_8 : ∀ a, (![0, 4, 8] : Fin 3 → Nat) a + S1x1x1.size a ≤ S1x8x16.size a
  inb_S1x8x16_S1x1x1_0_4_9 : ∀ a, (![0, 4, 9] : Fin 3 → Nat) a + S1x1x1.size a ≤ S1x8x16.size a
  inb_S1x8x16_S1x1x1_0_4_10 : ∀ a, (![0, 4, 10] : Fin 3 → Nat) a + S1x1x1.size a ≤ S1x8x16.size a
  inb_S1x8x16_S1x1x1_0_4_11 : ∀ a, (![0, 4, 11] : Fin 3 → Nat) a + S1x1x1.size a ≤ S1x8x16.size a
  inb_S1x8x16_S1x1x1_0_4_12 : ∀ a, (![0, 4, 12] : Fin 3 → Nat) a + S1x1x1.size a ≤ S1x8x16.size a
  inb_S1x8x16_S1x1x1_0_4_13 : ∀ a, (![0, 4, 13] : Fin 3 → Nat) a + S1x1x1.size a ≤ S1x8x16.size a
  inb_S1x8x16_S1x1x1_0_4_14 : ∀ a, (![0, 4, 14] : Fin 3 → Nat) a + S1x1x1.size a ≤ S1x8x16.size a
  inb_S1x8x16_S1x1x1_0_4_15 : ∀ a, (![0, 4, 15] : Fin 3 → Nat) a + S1x1x1.size a ≤ S1x8x16.size a
  inb_S1x8x16_S1x1x1_0_5_0 : ∀ a, (![0, 5, 0] : Fin 3 → Nat) a + S1x1x1.size a ≤ S1x8x16.size a
  inb_S1x8x16_S1x1x1_0_5_1 : ∀ a, (![0, 5, 1] : Fin 3 → Nat) a + S1x1x1.size a ≤ S1x8x16.size a
  inb_S8x128_S1x128_5_0 : ∀ a, (![5, 0] : Fin 2 → Nat) a + S1x128.size a ≤ S8x128.size a
  inb_S1x8x16_S1x1x1_0_5_2 : ∀ a, (![0, 5, 2] : Fin 3 → Nat) a + S1x1x1.size a ≤ S1x8x16.size a
  inb_S1x8x16_S1x1x1_0_5_3 : ∀ a, (![0, 5, 3] : Fin 3 → Nat) a + S1x1x1.size a ≤ S1x8x16.size a
  inb_S1x8x16_S1x1x1_0_5_4 : ∀ a, (![0, 5, 4] : Fin 3 → Nat) a + S1x1x1.size a ≤ S1x8x16.size a
  inb_S1x8x16_S1x1x1_0_5_5 : ∀ a, (![0, 5, 5] : Fin 3 → Nat) a + S1x1x1.size a ≤ S1x8x16.size a
  inb_S1x8x16_S1x1x1_0_5_6 : ∀ a, (![0, 5, 6] : Fin 3 → Nat) a + S1x1x1.size a ≤ S1x8x16.size a
  inb_S1x8x16_S1x1x1_0_5_7 : ∀ a, (![0, 5, 7] : Fin 3 → Nat) a + S1x1x1.size a ≤ S1x8x16.size a
  inb_S1x8x16_S1x1x1_0_5_8 : ∀ a, (![0, 5, 8] : Fin 3 → Nat) a + S1x1x1.size a ≤ S1x8x16.size a
  inb_S1x8x16_S1x1x1_0_5_9 : ∀ a, (![0, 5, 9] : Fin 3 → Nat) a + S1x1x1.size a ≤ S1x8x16.size a
  inb_S1x8x16_S1x1x1_0_5_10 : ∀ a, (![0, 5, 10] : Fin 3 → Nat) a + S1x1x1.size a ≤ S1x8x16.size a
  inb_S1x8x16_S1x1x1_0_5_11 : ∀ a, (![0, 5, 11] : Fin 3 → Nat) a + S1x1x1.size a ≤ S1x8x16.size a
  inb_S1x8x16_S1x1x1_0_5_12 : ∀ a, (![0, 5, 12] : Fin 3 → Nat) a + S1x1x1.size a ≤ S1x8x16.size a
  inb_S1x8x16_S1x1x1_0_5_13 : ∀ a, (![0, 5, 13] : Fin 3 → Nat) a + S1x1x1.size a ≤ S1x8x16.size a
  inb_S1x8x16_S1x1x1_0_5_14 : ∀ a, (![0, 5, 14] : Fin 3 → Nat) a + S1x1x1.size a ≤ S1x8x16.size a
  inb_S1x8x16_S1x1x1_0_5_15 : ∀ a, (![0, 5, 15] : Fin 3 → Nat) a + S1x1x1.size a ≤ S1x8x16.size a
  inb_S1x8x16_S1x1x1_0_6_0 : ∀ a, (![0, 6, 0] : Fin 3 → Nat) a + S1x1x1.size a ≤ S1x8x16.size a
  inb_S1x8x16_S1x1x1_0_6_1 : ∀ a, (![0, 6, 1] : Fin 3 → Nat) a + S1x1x1.size a ≤ S1x8x16.size a
  inb_S8x128_S1x128_6_0 : ∀ a, (![6, 0] : Fin 2 → Nat) a + S1x128.size a ≤ S8x128.size a
  inb_S1x8x16_S1x1x1_0_6_2 : ∀ a, (![0, 6, 2] : Fin 3 → Nat) a + S1x1x1.size a ≤ S1x8x16.size a
  inb_S1x8x16_S1x1x1_0_6_3 : ∀ a, (![0, 6, 3] : Fin 3 → Nat) a + S1x1x1.size a ≤ S1x8x16.size a
  inb_S1x8x16_S1x1x1_0_6_4 : ∀ a, (![0, 6, 4] : Fin 3 → Nat) a + S1x1x1.size a ≤ S1x8x16.size a
  inb_S1x8x16_S1x1x1_0_6_5 : ∀ a, (![0, 6, 5] : Fin 3 → Nat) a + S1x1x1.size a ≤ S1x8x16.size a
  inb_S1x8x16_S1x1x1_0_6_6 : ∀ a, (![0, 6, 6] : Fin 3 → Nat) a + S1x1x1.size a ≤ S1x8x16.size a
  inb_S1x8x16_S1x1x1_0_6_7 : ∀ a, (![0, 6, 7] : Fin 3 → Nat) a + S1x1x1.size a ≤ S1x8x16.size a
  inb_S1x8x16_S1x1x1_0_6_8 : ∀ a, (![0, 6, 8] : Fin 3 → Nat) a + S1x1x1.size a ≤ S1x8x16.size a
  inb_S1x8x16_S1x1x1_0_6_9 : ∀ a, (![0, 6, 9] : Fin 3 → Nat) a + S1x1x1.size a ≤ S1x8x16.size a
  inb_S1x8x16_S1x1x1_0_6_10 : ∀ a, (![0, 6, 10] : Fin 3 → Nat) a + S1x1x1.size a ≤ S1x8x16.size a
  inb_S1x8x16_S1x1x1_0_6_11 : ∀ a, (![0, 6, 11] : Fin 3 → Nat) a + S1x1x1.size a ≤ S1x8x16.size a
  inb_S1x8x16_S1x1x1_0_6_12 : ∀ a, (![0, 6, 12] : Fin 3 → Nat) a + S1x1x1.size a ≤ S1x8x16.size a
  inb_S1x8x16_S1x1x1_0_6_13 : ∀ a, (![0, 6, 13] : Fin 3 → Nat) a + S1x1x1.size a ≤ S1x8x16.size a
  inb_S1x8x16_S1x1x1_0_6_14 : ∀ a, (![0, 6, 14] : Fin 3 → Nat) a + S1x1x1.size a ≤ S1x8x16.size a
  inb_S1x8x16_S1x1x1_0_6_15 : ∀ a, (![0, 6, 15] : Fin 3 → Nat) a + S1x1x1.size a ≤ S1x8x16.size a
  inb_S1x8x16_S1x1x1_0_7_0 : ∀ a, (![0, 7, 0] : Fin 3 → Nat) a + S1x1x1.size a ≤ S1x8x16.size a
  inb_S1x8x16_S1x1x1_0_7_1 : ∀ a, (![0, 7, 1] : Fin 3 → Nat) a + S1x1x1.size a ≤ S1x8x16.size a
  inb_S8x128_S1x128_7_0 : ∀ a, (![7, 0] : Fin 2 → Nat) a + S1x128.size a ≤ S8x128.size a
  inb_S1x8x16_S1x1x1_0_7_2 : ∀ a, (![0, 7, 2] : Fin 3 → Nat) a + S1x1x1.size a ≤ S1x8x16.size a
  inb_S1x8x16_S1x1x1_0_7_3 : ∀ a, (![0, 7, 3] : Fin 3 → Nat) a + S1x1x1.size a ≤ S1x8x16.size a
  inb_S1x8x16_S1x1x1_0_7_4 : ∀ a, (![0, 7, 4] : Fin 3 → Nat) a + S1x1x1.size a ≤ S1x8x16.size a
  inb_S1x8x16_S1x1x1_0_7_5 : ∀ a, (![0, 7, 5] : Fin 3 → Nat) a + S1x1x1.size a ≤ S1x8x16.size a
  inb_S1x8x16_S1x1x1_0_7_6 : ∀ a, (![0, 7, 6] : Fin 3 → Nat) a + S1x1x1.size a ≤ S1x8x16.size a
  inb_S1x8x16_S1x1x1_0_7_7 : ∀ a, (![0, 7, 7] : Fin 3 → Nat) a + S1x1x1.size a ≤ S1x8x16.size a
  inb_S1x8x16_S1x1x1_0_7_8 : ∀ a, (![0, 7, 8] : Fin 3 → Nat) a + S1x1x1.size a ≤ S1x8x16.size a
  inb_S1x8x16_S1x1x1_0_7_9 : ∀ a, (![0, 7, 9] : Fin 3 → Nat) a + S1x1x1.size a ≤ S1x8x16.size a
  inb_S1x8x16_S1x1x1_0_7_10 : ∀ a, (![0, 7, 10] : Fin 3 → Nat) a + S1x1x1.size a ≤ S1x8x16.size a
  inb_S1x8x16_S1x1x1_0_7_11 : ∀ a, (![0, 7, 11] : Fin 3 → Nat) a + S1x1x1.size a ≤ S1x8x16.size a
  inb_S1x8x16_S1x1x1_0_7_12 : ∀ a, (![0, 7, 12] : Fin 3 → Nat) a + S1x1x1.size a ≤ S1x8x16.size a
  inb_S1x8x16_S1x1x1_0_7_13 : ∀ a, (![0, 7, 13] : Fin 3 → Nat) a + S1x1x1.size a ≤ S1x8x16.size a
  inb_S1x8x16_S1x1x1_0_7_14 : ∀ a, (![0, 7, 14] : Fin 3 → Nat) a + S1x1x1.size a ≤ S1x8x16.size a
  inb_S1x8x16_S1x1x1_0_7_15 : ∀ a, (![0, 7, 15] : Fin 3 → Nat) a + S1x1x1.size a ≤ S1x8x16.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  transposes_S4x32768x128_S4x128x32768_0_2_1 : S4x32768x128.Transposes [0, 2, 1] S4x128x32768
  hcc0_scratch2 : 4 + S2.numel ≤ 6
  hrank0 : 0 < grid0.rank
  k0_off2_inb : ∀ i : grid0.Coords, ∀ a, (k0_off2 i) a + S1x1x1x128.size a ≤ S4x32768x1x128.size a
  k0_off4_inb : ∀ i : grid0.Coords, ∀ a, (k0_off4 i) a + S1x1x1x128.size a ≤ S4x32768x1x128.size a
  k0_off6_inb : ∀ i : grid0.Coords, ∀ a, (k0_off6 i) a + S1x1x1x128.size a ≤ S4x32768x1x128.size a
  k0_off8_inb : ∀ i : grid0.Coords, ∀ a, (k0_off8 i) a + S1x1x1x128.size a ≤ S4x32768x1x128.size a
  k0_off10_inb : ∀ i : grid0.Coords, ∀ a, (k0_off10 i) a + S1x1x1x128.size a ≤ S4x32768x1x128.size a
  k0_off12_inb : ∀ i : grid0.Coords, ∀ a, (k0_off12 i) a + S1x1x1x128.size a ≤ S4x32768x1x128.size a
  k0_off14_inb : ∀ i : grid0.Coords, ∀ a, (k0_off14 i) a + S1x1x1x128.size a ≤ S4x32768x1x128.size a
  k0_off16_inb : ∀ i : grid0.Coords, ∀ a, (k0_off16 i) a + S1x1x1x128.size a ≤ S4x32768x1x128.size a
  k0_off18_inb : ∀ i : grid0.Coords, ∀ a, (k0_off18 i) a + S1x1x1x128.size a ≤ S4x32768x1x128.size a
  k0_off20_inb : ∀ i : grid0.Coords, ∀ a, (k0_off20 i) a + S1x1x1x128.size a ≤ S4x32768x1x128.size a
  k0_off22_inb : ∀ i : grid0.Coords, ∀ a, (k0_off22 i) a + S1x1x1x128.size a ≤ S4x32768x1x128.size a
  k0_off24_inb : ∀ i : grid0.Coords, ∀ a, (k0_off24 i) a + S1x1x1x128.size a ≤ S4x32768x1x128.size a
  k0_off26_inb : ∀ i : grid0.Coords, ∀ a, (k0_off26 i) a + S1x1x1x128.size a ≤ S4x32768x1x128.size a
  k0_off28_inb : ∀ i : grid0.Coords, ∀ a, (k0_off28 i) a + S1x1x1x128.size a ≤ S4x32768x1x128.size a
  k0_off30_inb : ∀ i : grid0.Coords, ∀ a, (k0_off30 i) a + S1x1x1x128.size a ≤ S4x32768x1x128.size a
  k0_off32_inb : ∀ i : grid0.Coords, ∀ a, (k0_off32 i) a + S1x1x1x128.size a ≤ S4x32768x1x128.size a
  k0_off34_inb : ∀ i : grid0.Coords, ∀ a, (k0_off34 i) a + S1x1x1x128.size a ≤ S4x32768x1x128.size a
  k0_off36_inb : ∀ i : grid0.Coords, ∀ a, (k0_off36 i) a + S1x1x1x128.size a ≤ S4x32768x1x128.size a
  k0_off38_inb : ∀ i : grid0.Coords, ∀ a, (k0_off38 i) a + S1x1x1x128.size a ≤ S4x32768x1x128.size a
  k0_off40_inb : ∀ i : grid0.Coords, ∀ a, (k0_off40 i) a + S1x1x1x128.size a ≤ S4x32768x1x128.size a
  k0_off42_inb : ∀ i : grid0.Coords, ∀ a, (k0_off42 i) a + S1x1x1x128.size a ≤ S4x32768x1x128.size a
  k0_off44_inb : ∀ i : grid0.Coords, ∀ a, (k0_off44 i) a + S1x1x1x128.size a ≤ S4x32768x1x128.size a
  k0_off46_inb : ∀ i : grid0.Coords, ∀ a, (k0_off46 i) a + S1x1x1x128.size a ≤ S4x32768x1x128.size a
  k0_off48_inb : ∀ i : grid0.Coords, ∀ a, (k0_off48 i) a + S1x1x1x128.size a ≤ S4x32768x1x128.size a
  k0_off50_inb : ∀ i : grid0.Coords, ∀ a, (k0_off50 i) a + S1x1x1x128.size a ≤ S4x32768x1x128.size a
  k0_off52_inb : ∀ i : grid0.Coords, ∀ a, (k0_off52 i) a + S1x1x1x128.size a ≤ S4x32768x1x128.size a
  k0_off54_inb : ∀ i : grid0.Coords, ∀ a, (k0_off54 i) a + S1x1x1x128.size a ≤ S4x32768x1x128.size a
  k0_off56_inb : ∀ i : grid0.Coords, ∀ a, (k0_off56 i) a + S1x1x1x128.size a ≤ S4x32768x1x128.size a
  k0_off58_inb : ∀ i : grid0.Coords, ∀ a, (k0_off58 i) a + S1x1x1x128.size a ≤ S4x32768x1x128.size a
  k0_off60_inb : ∀ i : grid0.Coords, ∀ a, (k0_off60 i) a + S1x1x1x128.size a ≤ S4x32768x1x128.size a
  k0_off62_inb : ∀ i : grid0.Coords, ∀ a, (k0_off62 i) a + S1x1x1x128.size a ≤ S4x32768x1x128.size a
  k0_off64_inb : ∀ i : grid0.Coords, ∀ a, (k0_off64 i) a + S1x1x1x128.size a ≤ S4x32768x1x128.size a
  k0_off66_inb : ∀ i : grid0.Coords, ∀ a, (k0_off66 i) a + S1x1x1x128.size a ≤ S4x32768x1x128.size a
  k0_off68_inb : ∀ i : grid0.Coords, ∀ a, (k0_off68 i) a + S1x1x1x128.size a ≤ S4x32768x1x128.size a
  k0_off70_inb : ∀ i : grid0.Coords, ∀ a, (k0_off70 i) a + S1x1x1x128.size a ≤ S4x32768x1x128.size a
  k0_off72_inb : ∀ i : grid0.Coords, ∀ a, (k0_off72 i) a + S1x1x1x128.size a ≤ S4x32768x1x128.size a
  k0_off74_inb : ∀ i : grid0.Coords, ∀ a, (k0_off74 i) a + S1x1x1x128.size a ≤ S4x32768x1x128.size a
  k0_off76_inb : ∀ i : grid0.Coords, ∀ a, (k0_off76 i) a + S1x1x1x128.size a ≤ S4x32768x1x128.size a
  k0_off78_inb : ∀ i : grid0.Coords, ∀ a, (k0_off78 i) a + S1x1x1x128.size a ≤ S4x32768x1x128.size a
  k0_off80_inb : ∀ i : grid0.Coords, ∀ a, (k0_off80 i) a + S1x1x1x128.size a ≤ S4x32768x1x128.size a
  k0_off82_inb : ∀ i : grid0.Coords, ∀ a, (k0_off82 i) a + S1x1x1x128.size a ≤ S4x32768x1x128.size a
  k0_off84_inb : ∀ i : grid0.Coords, ∀ a, (k0_off84 i) a + S1x1x1x128.size a ≤ S4x32768x1x128.size a
  k0_off86_inb : ∀ i : grid0.Coords, ∀ a, (k0_off86 i) a + S1x1x1x128.size a ≤ S4x32768x1x128.size a
  k0_off88_inb : ∀ i : grid0.Coords, ∀ a, (k0_off88 i) a + S1x1x1x128.size a ≤ S4x32768x1x128.size a
  k0_off90_inb : ∀ i : grid0.Coords, ∀ a, (k0_off90 i) a + S1x1x1x128.size a ≤ S4x32768x1x128.size a
  k0_off92_inb : ∀ i : grid0.Coords, ∀ a, (k0_off92 i) a + S1x1x1x128.size a ≤ S4x32768x1x128.size a
  k0_off94_inb : ∀ i : grid0.Coords, ∀ a, (k0_off94 i) a + S1x1x1x128.size a ≤ S4x32768x1x128.size a
  k0_off96_inb : ∀ i : grid0.Coords, ∀ a, (k0_off96 i) a + S1x1x1x128.size a ≤ S4x32768x1x128.size a
  k0_off98_inb : ∀ i : grid0.Coords, ∀ a, (k0_off98 i) a + S1x1x1x128.size a ≤ S4x32768x1x128.size a
  k0_off100_inb : ∀ i : grid0.Coords, ∀ a, (k0_off100 i) a + S1x1x1x128.size a ≤ S4x32768x1x128.size a
  k0_off102_inb : ∀ i : grid0.Coords, ∀ a, (k0_off102 i) a + S1x1x1x128.size a ≤ S4x32768x1x128.size a
  k0_off104_inb : ∀ i : grid0.Coords, ∀ a, (k0_off104 i) a + S1x1x1x128.size a ≤ S4x32768x1x128.size a
  k0_off106_inb : ∀ i : grid0.Coords, ∀ a, (k0_off106 i) a + S1x1x1x128.size a ≤ S4x32768x1x128.size a
  k0_off108_inb : ∀ i : grid0.Coords, ∀ a, (k0_off108 i) a + S1x1x1x128.size a ≤ S4x32768x1x128.size a
  k0_off110_inb : ∀ i : grid0.Coords, ∀ a, (k0_off110 i) a + S1x1x1x128.size a ≤ S4x32768x1x128.size a
  k0_off112_inb : ∀ i : grid0.Coords, ∀ a, (k0_off112 i) a + S1x1x1x128.size a ≤ S4x32768x1x128.size a
  k0_off114_inb : ∀ i : grid0.Coords, ∀ a, (k0_off114 i) a + S1x1x1x128.size a ≤ S4x32768x1x128.size a
  k0_off116_inb : ∀ i : grid0.Coords, ∀ a, (k0_off116 i) a + S1x1x1x128.size a ≤ S4x32768x1x128.size a
  k0_off118_inb : ∀ i : grid0.Coords, ∀ a, (k0_off118 i) a + S1x1x1x128.size a ≤ S4x32768x1x128.size a
  k0_off120_inb : ∀ i : grid0.Coords, ∀ a, (k0_off120 i) a + S1x1x1x128.size a ≤ S4x32768x1x128.size a
  k0_off122_inb : ∀ i : grid0.Coords, ∀ a, (k0_off122 i) a + S1x1x1x128.size a ≤ S4x32768x1x128.size a
  k0_off124_inb : ∀ i : grid0.Coords, ∀ a, (k0_off124 i) a + S1x1x1x128.size a ≤ S4x32768x1x128.size a
  k0_off126_inb : ∀ i : grid0.Coords, ∀ a, (k0_off126 i) a + S1x1x1x128.size a ≤ S4x32768x1x128.size a
  k0_off128_inb : ∀ i : grid0.Coords, ∀ a, (k0_off128 i) a + S1x1x1x128.size a ≤ S4x32768x1x128.size a
  k0_off130_inb : ∀ i : grid0.Coords, ∀ a, (k0_off130 i) a + S1x1x1x128.size a ≤ S4x32768x1x128.size a
  k0_off132_inb : ∀ i : grid0.Coords, ∀ a, (k0_off132 i) a + S1x1x1x128.size a ≤ S4x32768x1x128.size a
  k0_off134_inb : ∀ i : grid0.Coords, ∀ a, (k0_off134 i) a + S1x1x1x128.size a ≤ S4x32768x1x128.size a
  k0_off136_inb : ∀ i : grid0.Coords, ∀ a, (k0_off136 i) a + S1x1x1x128.size a ≤ S4x32768x1x128.size a
  k0_off138_inb : ∀ i : grid0.Coords, ∀ a, (k0_off138 i) a + S1x1x1x128.size a ≤ S4x32768x1x128.size a
  k0_off140_inb : ∀ i : grid0.Coords, ∀ a, (k0_off140 i) a + S1x1x1x128.size a ≤ S4x32768x1x128.size a
  k0_off142_inb : ∀ i : grid0.Coords, ∀ a, (k0_off142 i) a + S1x1x1x128.size a ≤ S4x32768x1x128.size a
  k0_off144_inb : ∀ i : grid0.Coords, ∀ a, (k0_off144 i) a + S1x1x1x128.size a ≤ S4x32768x1x128.size a
  k0_off146_inb : ∀ i : grid0.Coords, ∀ a, (k0_off146 i) a + S1x1x1x128.size a ≤ S4x32768x1x128.size a
  k0_off148_inb : ∀ i : grid0.Coords, ∀ a, (k0_off148 i) a + S1x1x1x128.size a ≤ S4x32768x1x128.size a
  k0_off150_inb : ∀ i : grid0.Coords, ∀ a, (k0_off150 i) a + S1x1x1x128.size a ≤ S4x32768x1x128.size a
  k0_off152_inb : ∀ i : grid0.Coords, ∀ a, (k0_off152 i) a + S1x1x1x128.size a ≤ S4x32768x1x128.size a
  k0_off154_inb : ∀ i : grid0.Coords, ∀ a, (k0_off154 i) a + S1x1x1x128.size a ≤ S4x32768x1x128.size a
  k0_off156_inb : ∀ i : grid0.Coords, ∀ a, (k0_off156 i) a + S1x1x1x128.size a ≤ S4x32768x1x128.size a
  k0_off158_inb : ∀ i : grid0.Coords, ∀ a, (k0_off158 i) a + S1x1x1x128.size a ≤ S4x32768x1x128.size a
  k0_off160_inb : ∀ i : grid0.Coords, ∀ a, (k0_off160 i) a + S1x1x1x128.size a ≤ S4x32768x1x128.size a
  k0_off162_inb : ∀ i : grid0.Coords, ∀ a, (k0_off162 i) a + S1x1x1x128.size a ≤ S4x32768x1x128.size a
  k0_off164_inb : ∀ i : grid0.Coords, ∀ a, (k0_off164 i) a + S1x1x1x128.size a ≤ S4x32768x1x128.size a
  k0_off166_inb : ∀ i : grid0.Coords, ∀ a, (k0_off166 i) a + S1x1x1x128.size a ≤ S4x32768x1x128.size a
  k0_off168_inb : ∀ i : grid0.Coords, ∀ a, (k0_off168 i) a + S1x1x1x128.size a ≤ S4x32768x1x128.size a
  k0_off170_inb : ∀ i : grid0.Coords, ∀ a, (k0_off170 i) a + S1x1x1x128.size a ≤ S4x32768x1x128.size a
  k0_off172_inb : ∀ i : grid0.Coords, ∀ a, (k0_off172 i) a + S1x1x1x128.size a ≤ S4x32768x1x128.size a
  k0_off174_inb : ∀ i : grid0.Coords, ∀ a, (k0_off174 i) a + S1x1x1x128.size a ≤ S4x32768x1x128.size a
  k0_off176_inb : ∀ i : grid0.Coords, ∀ a, (k0_off176 i) a + S1x1x1x128.size a ≤ S4x32768x1x128.size a
  k0_off178_inb : ∀ i : grid0.Coords, ∀ a, (k0_off178 i) a + S1x1x1x128.size a ≤ S4x32768x1x128.size a
  k0_off180_inb : ∀ i : grid0.Coords, ∀ a, (k0_off180 i) a + S1x1x1x128.size a ≤ S4x32768x1x128.size a
  k0_off182_inb : ∀ i : grid0.Coords, ∀ a, (k0_off182 i) a + S1x1x1x128.size a ≤ S4x32768x1x128.size a
  k0_off184_inb : ∀ i : grid0.Coords, ∀ a, (k0_off184 i) a + S1x1x1x128.size a ≤ S4x32768x1x128.size a
  k0_off186_inb : ∀ i : grid0.Coords, ∀ a, (k0_off186 i) a + S1x1x1x128.size a ≤ S4x32768x1x128.size a
  k0_off188_inb : ∀ i : grid0.Coords, ∀ a, (k0_off188 i) a + S1x1x1x128.size a ≤ S4x32768x1x128.size a
  k0_off190_inb : ∀ i : grid0.Coords, ∀ a, (k0_off190 i) a + S1x1x1x128.size a ≤ S4x32768x1x128.size a
  k0_off192_inb : ∀ i : grid0.Coords, ∀ a, (k0_off192 i) a + S1x1x1x128.size a ≤ S4x32768x1x128.size a
  k0_off194_inb : ∀ i : grid0.Coords, ∀ a, (k0_off194 i) a + S1x1x1x128.size a ≤ S4x32768x1x128.size a
  k0_off196_inb : ∀ i : grid0.Coords, ∀ a, (k0_off196 i) a + S1x1x1x128.size a ≤ S4x32768x1x128.size a
  k0_off198_inb : ∀ i : grid0.Coords, ∀ a, (k0_off198 i) a + S1x1x1x128.size a ≤ S4x32768x1x128.size a
  k0_off200_inb : ∀ i : grid0.Coords, ∀ a, (k0_off200 i) a + S1x1x1x128.size a ≤ S4x32768x1x128.size a
  k0_off202_inb : ∀ i : grid0.Coords, ∀ a, (k0_off202 i) a + S1x1x1x128.size a ≤ S4x32768x1x128.size a
  k0_off204_inb : ∀ i : grid0.Coords, ∀ a, (k0_off204 i) a + S1x1x1x128.size a ≤ S4x32768x1x128.size a
  k0_off206_inb : ∀ i : grid0.Coords, ∀ a, (k0_off206 i) a + S1x1x1x128.size a ≤ S4x32768x1x128.size a
  k0_off208_inb : ∀ i : grid0.Coords, ∀ a, (k0_off208 i) a + S1x1x1x128.size a ≤ S4x32768x1x128.size a
  k0_off210_inb : ∀ i : grid0.Coords, ∀ a, (k0_off210 i) a + S1x1x1x128.size a ≤ S4x32768x1x128.size a
  k0_off212_inb : ∀ i : grid0.Coords, ∀ a, (k0_off212 i) a + S1x1x1x128.size a ≤ S4x32768x1x128.size a
  k0_off214_inb : ∀ i : grid0.Coords, ∀ a, (k0_off214 i) a + S1x1x1x128.size a ≤ S4x32768x1x128.size a
  k0_off216_inb : ∀ i : grid0.Coords, ∀ a, (k0_off216 i) a + S1x1x1x128.size a ≤ S4x32768x1x128.size a
  k0_off218_inb : ∀ i : grid0.Coords, ∀ a, (k0_off218 i) a + S1x1x1x128.size a ≤ S4x32768x1x128.size a
  k0_off220_inb : ∀ i : grid0.Coords, ∀ a, (k0_off220 i) a + S1x1x1x128.size a ≤ S4x32768x1x128.size a
  k0_off222_inb : ∀ i : grid0.Coords, ∀ a, (k0_off222 i) a + S1x1x1x128.size a ≤ S4x32768x1x128.size a
  k0_off224_inb : ∀ i : grid0.Coords, ∀ a, (k0_off224 i) a + S1x1x1x128.size a ≤ S4x32768x1x128.size a
  k0_off226_inb : ∀ i : grid0.Coords, ∀ a, (k0_off226 i) a + S1x1x1x128.size a ≤ S4x32768x1x128.size a
  k0_off228_inb : ∀ i : grid0.Coords, ∀ a, (k0_off228 i) a + S1x1x1x128.size a ≤ S4x32768x1x128.size a
  k0_off230_inb : ∀ i : grid0.Coords, ∀ a, (k0_off230 i) a + S1x1x1x128.size a ≤ S4x32768x1x128.size a
  k0_off232_inb : ∀ i : grid0.Coords, ∀ a, (k0_off232 i) a + S1x1x1x128.size a ≤ S4x32768x1x128.size a
  k0_off234_inb : ∀ i : grid0.Coords, ∀ a, (k0_off234 i) a + S1x1x1x128.size a ≤ S4x32768x1x128.size a
  k0_off236_inb : ∀ i : grid0.Coords, ∀ a, (k0_off236 i) a + S1x1x1x128.size a ≤ S4x32768x1x128.size a
  k0_off238_inb : ∀ i : grid0.Coords, ∀ a, (k0_off238 i) a + S1x1x1x128.size a ≤ S4x32768x1x128.size a
  k0_off240_inb : ∀ i : grid0.Coords, ∀ a, (k0_off240 i) a + S1x1x1x128.size a ≤ S4x32768x1x128.size a
  k0_off242_inb : ∀ i : grid0.Coords, ∀ a, (k0_off242 i) a + S1x1x1x128.size a ≤ S4x32768x1x128.size a
  k0_off244_inb : ∀ i : grid0.Coords, ∀ a, (k0_off244 i) a + S1x1x1x128.size a ≤ S4x32768x1x128.size a
  k0_off246_inb : ∀ i : grid0.Coords, ∀ a, (k0_off246 i) a + S1x1x1x128.size a ≤ S4x32768x1x128.size a
  k0_off248_inb : ∀ i : grid0.Coords, ∀ a, (k0_off248 i) a + S1x1x1x128.size a ≤ S4x32768x1x128.size a
  k0_off250_inb : ∀ i : grid0.Coords, ∀ a, (k0_off250 i) a + S1x1x1x128.size a ≤ S4x32768x1x128.size a
  k0_off252_inb : ∀ i : grid0.Coords, ∀ a, (k0_off252 i) a + S1x1x1x128.size a ≤ S4x32768x1x128.size a
  k0_off254_inb : ∀ i : grid0.Coords, ∀ a, (k0_off254 i) a + S1x1x1x128.size a ≤ S4x32768x1x128.size a
  k0_off256_inb : ∀ i : grid0.Coords, ∀ a, (k0_off256 i) a + S1x1x1x128.size a ≤ S4x32768x1x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x16.size a ≤ S4x32768x16.size a
  hwx0_0 : ∀ i : grid0.Coords, EltTy.bits .i32 = 32 ∨ (Rect.block (s := S4x32768x16) S1x8x16.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S1x8x128.size a ≤ S4x32768x128.size a
  hwx0_1 : ∀ i : grid0.Coords, EltTy.bits .f32 = 32 ∨ (Rect.block (s := S4x32768x128) S1x8x128.size (cc0_transform_2 i) (hinb0_1 i)).WholeWords (EltTy.packing .f32)

variable [Facts₀]

abbrev cc0_scratch2 : DmaSems sig S2 := SemArray.consecutive 4 S2 hcc0_scratch2

abbrev win0_0 : Pipeline.Window sig grid0 :=
  Pipeline.Window.ofSpec (Memref.whole main_v2) S1x8x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x8x128.size cc0_transform_2 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x128x32768 : Shape := ⟨3, ![4, 128, 32768]⟩
abbrev S4x16x32768 : Shape := ⟨3, ![4, 16, 32768]⟩
abbrev S_ : Shape := ⟨0, ![]⟩
abbrev S4x16x32768x1 : Shape := ⟨4, ![4, 16, 32768, 1]⟩
abbrev S4x128x16x32768 : Shape := ⟨4, ![4, 128, 16, 32768]⟩

abbrev nBuf : Space → Nat
  | .hbm => 13
  | .vmem => 0
  | .smem => 0
  | _ => 0

abbrev bufTy : (tb : Table) → Fin (tcTables nBuf tb) → BufTy
  | .hbm, ⟨0, _⟩ => ⟨S4x128x32768, .f32⟩
  | .hbm, ⟨1, _⟩ => ⟨S4x16x32768, .i32⟩
  | .hbm, ⟨2, _⟩ => ⟨S_, .i32⟩
  | .hbm, ⟨3, _⟩ => ⟨S4x16x32768, .i32⟩
  | .hbm, ⟨4, _⟩ => ⟨S4x16x32768, .i1⟩
  | .hbm, ⟨5, _⟩ => ⟨S_, .i32⟩
  | .hbm, ⟨6, _⟩ => ⟨S4x16x32768, .i32⟩
  | .hbm, ⟨7, _⟩ => ⟨S4x16x32768, .i32⟩
  | .hbm, ⟨8, _⟩ => ⟨S4x16x32768, .i32⟩
  | .hbm, ⟨9, _⟩ => ⟨S4x16x32768x1, .i32⟩
  | .hbm, ⟨10, _⟩ => ⟨S4x128x16x32768, .f32⟩
  | .hbm, ⟨11, _⟩ => ⟨S_, .f32⟩
  | .hbm, ⟨12, _⟩ => ⟨S4x128x32768, .f32⟩
  | _, _ => ⟨S4x128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S4x16x32768 : S_.BroadcastsInDim S4x16x32768 (![] : Fin 0 → Fin S4x16x32768.rank)
  bcast_S4x16x32768_S4x16x32768x1_0_1_2 : S4x16x32768.BroadcastsInDim S4x16x32768x1 (![0, 1, 2] : Fin 3 → Fin S4x16x32768x1.rank)
  reducesTo_S4x128x16x32768_S4x128x32768_d2 : S4x128x16x32768.ReducesTo [2] S4x128x32768
  h_S_ : 0 < S_.numel
  gather_S4x128x32768_S4x16x32768x1_S4x128x16x32768_1_2_0_0_2_3_11281_wf : GatherDims.WF S4x128x32768 S4x16x32768x1 S4x128x16x32768 [1] [2] [0] [2] [0] 3 ![1, 128, 1]

variable [Facts₀]

def gather_S4x128x32768_S4x16x32768x1_S4x128x16x32768_1_2_0_0_2_3_11281 : GatherDims S4x128x32768 S4x16x32768x1 S4x128x16x32768 where
  offsetDims := [1]
  collapsedSliceDims := [2]
  operandBatchingDims := [0]
  startIndicesBatchingDims := [0]
  startIndexMap := [2]
  indexVectorDim := 3
  sliceSizes := ![1, 128, 1]
  wf := gather_S4x128x32768_S4x16x32768x1_S4x128x16x32768_1_2_0_0_2_3_11281_wf

class Facts : Prop extends Facts₀ where

variable [Facts]
-- ==== Proof.LandBuf.lean ====
/-
  The landing buffer: two one-row slots, [2, 1, 128].

  A copy lands through the view of one slot read as a [1, 128] row; a load reads a slot as a [1, 1, 128] block.
  Two facts about what a load of slot s reads after a copy has landed: if the copy landed in the other slot, what
  was there before; if it landed in slot s, the copied row.  So a load of slot s after "copy into s, then copy into
  the other slot" reads the first copy's row, whatever the buffer held at the start.
-/
import Idealize.ShloMosaic.Lib.Pipeline.Value
import Idealize.ShloMosaic.Lib.ValueIdx
import Idealize.ShloMosaic.Lib.ValueLayout

noncomputable section

namespace Cert.Pool.LandBuf

open Idealize.ShloMosaic Idealize.ShloMosaic.ValueIdx Idealize.ShloMosaic.View

abbrev SBuf : Shape := ⟨3, ![2, 1, 128]⟩
abbrev SBlk : Shape := ⟨3, ![1, 1, 128]⟩
abbrev SRow : Shape := ⟨2, ![1, 128]⟩

variable {sig : RefSig} {κ : Kind} {sp : Space} {Val : EltTy → Type}

/-- The rectangle of slot s. -/
abbrev slot (s : Nat) (inb : ∀ a, (![s, 0, 0] : Fin 3 → Nat) a + SBlk.size a ≤ SBuf.size a) : Rect SBuf :=
  Rect.unit (s := SBuf) ![s, 0, 0] SBlk.size inb

/-- The view a copy lands through: slot s as one [1, 128] row. -/
abbrev landView (M : Memref sig κ sp SBuf .f32) (s : Nat) (inb) (hr : ∀ a, (slot s inb).stride a = 1)
    (hq : (slot s inb).shape.Squeezes SRow) : View sig κ sp SRow .f32 :=
  ((M.slice (slot s inb) hr).squeeze SRow hq).view

/-- Lane d of the row view of slot s is element (s, 0, d) of the buffer. -/
theorem land_emb (M : Memref sig κ sp SBuf .f32) (s : Nat) (inb) (hr) (hq) (d : Fin 128) :
    (landView M s inb hr hq).emb (ix2 (0 : Fin 1) d) = M.view.emb ((slot s inb).emb (ix3 (0 : Fin 1) (0 : Fin 1) d)) := by
  show M.view.emb ((slot s inb).emb (Shape.reshapeEquiv _ (ix2 (0 : Fin 1) d))) = _
  congr 2
  refine Shape.reshapeEquiv_eq_of_rowMajor _ ?_
  rw [Shape.rowMajor_val_two, Shape.rowMajor_val_three]
  show (0 * 1 + 0) * 128 + d.val = 0 * 128 + d.val
  omega

/-- After a copy into slot s, a load of slot s reads the copied row. -/
theorem read_hit (M : Memref sig κ sp SBuf .f32) (s : Nat) (inb) (hr) (hq) (f : M.view.ty.Contents Val)
    (w : SRow.Idx → Val .f32) (d : Fin 128) :
    M.view.readAt Val (slot s inb).toLoadRect ((landView M s inb hr hq).write Val f w Finset.univ) (ix3 (0 : Fin 1) (0 : Fin 1) d)
      = w (ix2 (0 : Fin 1) d) := by
  rw [View.readAt_apply, View.read_apply]
  show _root_.cast _ ((landView M s inb hr hq).write Val f w Finset.univ (M.view.emb ((slot s inb).emb (ix3 (0 : Fin 1) (0 : Fin 1) d)))) = _
  rw [← land_emb M s inb hr hq d, View.write_emb_of_mem _ _ (Finset.mem_univ _), cast_cast, cast_eq]

/-- After a copy into the other slot, a load of slot s reads what was there before. -/
theorem read_miss (M : Memref sig κ sp SBuf .f32) (s s' : Nat) (hne : s ≠ s') (inb) (inb') (hr') (hq') (f : M.view.ty.Contents Val)
    (w : SRow.Idx → Val .f32) (x : (slot s inb).toLoadRect.shape.Idx) :
    M.view.readAt Val (slot s inb).toLoadRect ((landView M s' inb' hr' hq').write Val f w Finset.univ) x
      = M.view.readAt Val (slot s inb).toLoadRect f x := by
  rw [View.readAt_apply, View.readAt_apply, View.read_apply, View.read_apply]
  congr 1
  refine View.write_of_not_mem _ _ _ ?_
  intro hm
  rw [View.setOn_univ] at hm
  have hm' : M.view.emb ((slot s inb).toLoadRect.idx x) ∈ ((M.view.slice (slot s' inb')).reshape SRow hq'.numel_eq).set := hm
  rw [View.set_reshape] at hm'
  obtain ⟨y, -, hy⟩ := Finset.mem_map.mp hm'
  have hy' : (slot s' inb').emb y = (slot s inb).toLoadRect.idx x := M.view.emb.injective hy
  have h0 := congrArg (fun z : SBuf.Idx => (z 0).val) hy'
  have e1 : ((slot s' inb').emb y (0 : Fin 3)).val = s' + 1 * (y (0 : Fin 3)).val := rfl
  have e2 : ((slot s inb).toLoadRect.idx x (0 : Fin 3)).val = s + 1 * (x (0 : Fin 3)).val := rfl
  have hy0 : (y (0 : Fin 3)).val < 1 := (y (0 : Fin 3)).isLt
  have hx0 : (x (0 : Fin 3)).val < 1 := (x (0 : Fin 3)).isLt
  simp only at h0
  rw [e1, e2] at h0
  omega

end Cert.Pool.LandBuf

end
-- ==== Proof.PoolSpec.lean ====
/-
  Neighbourhood max-pooling, as one function of the two argument arrays.

  features  : [4, 128, 32768]  extended reals
  neighbours: [4, 16, 32768]   words, each naming a position along the last axis of the features

      pooled b d n = max over k < 16 of features b d (neighbours b k n)

  The maximum over the sixteen neighbours is written as the fold of `max` from the bottom element, the form a
  reduction with a maximum body takes when read at one result index.  A chain of sixteen running maxima that
  starts from the bottom element is the same number (`runmax_eq_fold`): the order in which the sixteen
  values are met does not matter, and the bottom element is neutral.
-/
import Idealize.ShloMosaic.Lib.ValueIdx

noncomputable section

namespace Cert.Pool

open Idealize.ShloMosaic Idealize.ShloMosaic.ValueIdx

/-- The features' shape and the neighbour table's. -/
abbrev SF : Shape := ⟨3, ![4, 128, 32768]⟩
abbrev SN : Shape := ⟨3, ![4, 16, 32768]⟩

/-- The position a neighbour word names, read unsigned and held inside the axis (a word in range is its own
    position: `pos_val`). -/
def pos (w : BitVec 32) : Fin 32768 := ⟨min w.toNat 32767, by omega⟩

theorem pos_val (w : BitVec 32) (h : w.toNat < 32768) : (pos w).val = w.toNat := by
  show min w.toNat 32767 = w.toNat
  omega

/-- The sixteen gathered values of output entry (b, d, n). -/
def nbrVal (feat : SF.Idx → EReal) (nbr : SN.Idx → BitVec 32) (b : Fin 4) (d : Fin 128) (n : Fin 32768) (k : Fin 16) : EReal :=
  feat (ix3 b d (pos (nbr (ix3 b k n))))

/-- The pooled value at (b, d, n): the maximum of the sixteen gathered values. -/
def pooledAt (feat : SF.Idx → EReal) (nbr : SN.Idx → BitVec 32) (b : Fin 4) (d : Fin 128) (n : Fin 32768) : EReal :=
  (Finset.univ : Finset (Fin 16)).fold max ⊥ (nbrVal feat nbr b d n)

/-- Max-pooling over the neighbourhood, as a whole array. -/
def pooled (feat : SF.Idx → EReal) (nbr : SN.Idx → BitVec 32) : SF.Idx → EReal :=
  fun j => pooledAt feat nbr (j 0) (j 1) (j 2)

/-- Sixteen running maxima from the bottom element, in the order 0, 1, …, 15. -/
def runmax (x : Fin 16 → EReal) : EReal :=
  max (max (max (max (max (max (max (max (max (max (max (max (max (max (max (max ⊥
    (x 0)) (x 1)) (x 2)) (x 3)) (x 4)) (x 5)) (x 6)) (x 7)) (x 8)) (x 9)) (x 10)) (x 11)) (x 12)) (x 13)) (x 14)) (x 15)

/-- The fold of `max` from the bottom element over a finite set is the set's supremum. -/
theorem fold_max_eq_sup {ι : Type} (s : Finset ι) (x : ι → EReal) : s.fold max ⊥ x = s.sup x := by
  classical
  induction s using Finset.induction_on with
  | empty => simp
  | insert a s ha ih => rw [Finset.fold_insert ha, Finset.sup_insert, ih]

/-- The chain of running maxima is the maximum of the sixteen values. -/
theorem runmax_eq_fold (x : Fin 16 → EReal) : runmax x = (Finset.univ : Finset (Fin 16)).fold max ⊥ x := by
  rw [fold_max_eq_sup]
  apply le_antisymm
  · unfold runmax
    simp only [max_le_iff, bot_le, true_and]
    refine ⟨⟨⟨⟨⟨⟨⟨⟨⟨⟨⟨⟨⟨⟨⟨?_, ?_⟩, ?_⟩, ?_⟩, ?_⟩, ?_⟩, ?_⟩, ?_⟩, ?_⟩, ?_⟩, ?_⟩, ?_⟩, ?_⟩, ?_⟩, ?_⟩, ?_⟩ <;>
      exact Finset.le_sup (f := x) (Finset.mem_univ _)
  · apply Finset.sup_le
    intro k _
    unfold runmax
    fin_cases k <;> repeat (first | exact le_max_right _ _ | apply le_max_of_le_left)

end Cert.Pool

end
-- ==== Proof.PoolSteps.lean ====
/-
  The accumulator of the running maximum, step by step.

  The body keeps an [8, 128] accumulator.  It starts at the bottom element everywhere.  Step j (j = 0, …, 127)
  belongs to row j / 16: it replaces that row by the entrywise maximum of the row and a 128-vector `v j` (the
  feature row the j-th neighbour names); the other rows are left alone.  After all 128 steps entry (r, d) holds
  the maximum of `v (16 r + k) d` over k < 16, because exactly the steps 16 r, …, 16 r + 15 touch row r.
-/
import proofs.«412756_j23708219474789_1_alg».proof.Proof.PoolSpec

noncomputable section

namespace Cert.Pool

open Idealize.ShloMosaic Idealize.ShloMosaic.ValueIdx

/-- The accumulator's shape. -/
abbrev SA : Shape := ⟨2, ![8, 128]⟩

/-- One step: row `r` takes the entrywise maximum with `v`. -/
def step (r : Nat) (v : Fin 128 → EReal) (A : SA.Idx → EReal) : SA.Idx → EReal :=
  fun y => if (y 0).val = r then max (A y) (v (y 1)) else A y

/-- The accumulator after the first `n` steps. -/
def accAfter (v : Nat → Fin 128 → EReal) : Nat → SA.Idx → EReal
  | 0 => fun _ => ⊥
  | n + 1 => step (n / 16) (v n) (accAfter v n)

theorem accAfter_zero (v : Nat → Fin 128 → EReal) : accAfter v 0 = fun _ => ⊥ := rfl
theorem accAfter_succ (v : Nat → Fin 128 → EReal) (n : Nat) :
    accAfter v (n + 1) = step (n / 16) (v n) (accAfter v n) := rfl

/-- After `n` steps an entry of row r holds the supremum over the steps j < n that belong to row r. -/
theorem accAfter_eq_sup (v : Nat → Fin 128 → EReal) (n : Nat) (y : SA.Idx) :
    accAfter v n y = ((Finset.range n).filter fun j => j / 16 = (y 0).val).sup fun j => v j (y 1) := by
  induction n with
  | zero => simp [accAfter]
  | succ n ih =>
    rw [accAfter_succ, Finset.range_add_one, Finset.filter_insert]
    unfold step
    by_cases h : (y 0).val = n / 16
    · rw [if_pos h, if_pos h.symm, Finset.sup_insert, ih, sup_comm]
    · rw [if_neg h, if_neg (fun e => h e.symm), ih]

/-- The steps of row r among the first 128 are 16 r + k, k < 16. -/
theorem row_steps (r : Fin 8) :
    ((Finset.range 128).filter fun j => j / 16 = r.val)
      = (Finset.univ : Finset (Fin 16)).image fun k => 16 * r.val + k.val := by
  ext j
  simp only [Finset.mem_filter, Finset.mem_range, Finset.mem_image, Finset.mem_univ, true_and]
  constructor
  · rintro ⟨hj, hr⟩
    refine ⟨⟨j % 16, Nat.mod_lt _ (by omega)⟩, ?_⟩
    show 16 * r.val + j % 16 = j
    omega
  · rintro ⟨k, rfl⟩
    have := k.isLt
    have := r.isLt
    constructor <;> omega

/-- After all 128 steps entry (r, d) is the maximum over the sixteen steps of row r. -/
theorem accAfter_all (v : Nat → Fin 128 → EReal) (r : Fin 8) (d : Fin 128) :
    accAfter v 128 (ix2 r d) = (Finset.univ : Finset (Fin 16)).fold max ⊥ fun k => v (16 * r.val + k.val) d := by
  rw [accAfter_eq_sup, fold_max_eq_sup]
  show ((Finset.range 128).filter fun j => j / 16 = r.val).sup (fun j => v j d) = _
  rw [row_steps, Finset.sup_image]
  rfl

end Cert.Pool

end
-- ==== Proof.PoolPeel.lean ====
/-
  One step of the body on the accumulator, as the contents its stores leave — for any float instance.

  A buffer's contents after a list of stores is the newest store's payload where its rectangle holds the index
  and the earlier stores' contents elsewhere.  Step j stores, through row ρ of the [8, 128] accumulator, the
  entrywise maximum of what a load of that row reads after the earlier stores and of the landed feature row;
  so the contents after step j are `step ρ` of the landed row applied to the contents before it, and after n
  steps they are `accAfter init vv n`: the start value `init` everywhere, then row j / 16 folded with `vv j` for
  j = 0, …, n − 1 in this order.  Nothing here uses a law of the maximum: it is the order the body itself takes.
  At the ideal instance, from the bottom element, this is `Cert.Pool.accAfter`.
-/
import Idealize.ShloMosaic.Lib.Pipeline.Value
import Idealize.ShloMosaic.Lib.ValueIdx
import Idealize.ShloMosaic.Lib.ValueLayout
import proofs.«412756_j23708219474789_1_alg».proof.Proof.PoolSteps

noncomputable section

namespace Cert.Pool.Peel

open Idealize.ShloMosaic Idealize.ShloMosaic.ValueIdx Idealize.ShloMosaic.View

abbrev SA : Shape := ⟨2, ![8, 128]⟩
abbrev SRow : Shape := ⟨2, ![1, 128]⟩
abbrev SLane : Shape := ⟨1, ![128]⟩
abbrev SLand : Shape := ⟨3, ![1, 1, 128]⟩

variable {F : FTy → Type} [FloatOps F]

/-- The step's payload: the row just loaded and the landed feature row, both flattened to 128 lanes, their
    entrywise maximum, as a one-row block again. -/
def stepPay (land : SLand.Idx → F .f32) (row : SRow.Idx → F .f32)
    (h1 : SRow.ShapeCasts SLane) (h2 : SLand.ShapeCasts SRow) (h3 : SRow.ShapeCasts SLane) (h4 : SLane.ShapeCasts SRow) :
    SRow.Idx → F .f32 :=
  shapeCast SRow (maximumf (F := F) (φ := .f32) (shapeCast SLane row h1) (shapeCast SLane (shapeCast SRow land h2) h3)) h4

/-- The payload at lane d. -/
theorem stepPay_apply (land : SLand.Idx → F .f32) (row : SRow.Idx → F .f32) (h1 h2 h3 h4) (d : Fin 128) :
    stepPay land row h1 h2 h3 h4 (ix2 (0 : Fin 1) d)
      = FloatOps.maximumf (row (ix2 (0 : Fin 1) d)) (land (ix3 (0 : Fin 1) (0 : Fin 1) d)) := by
  unfold stepPay
  refine (shapeCast_apply _ h4 (ix2 (0 : Fin 1) d) (ix1 d) ?_).trans ?_
  · rw [Shape.rowMajor_val_one, Shape.rowMajor_val_two]; show d.val = 0 * 128 + d.val; omega
  show FloatOps.maximumf (shapeCast SLane row h1 (ix1 d)) (shapeCast SLane (shapeCast SRow land h2) h3 (ix1 d)) = _
  congr 1
  · refine shapeCast_apply _ h1 (ix1 d) (ix2 (0 : Fin 1) d) ?_
    rw [Shape.rowMajor_val_one, Shape.rowMajor_val_two]; show 0 * 128 + d.val = d.val; omega
  · refine (shapeCast_apply _ h3 (ix1 d) (ix2 (0 : Fin 1) d) ?_).trans ?_
    · rw [Shape.rowMajor_val_one, Shape.rowMajor_val_two]; show 0 * 128 + d.val = d.val; omega
    · refine shapeCast_apply _ h2 (ix2 (0 : Fin 1) d) (ix3 (0 : Fin 1) (0 : Fin 1) d) ?_
      rw [Shape.rowMajor_val_two, Shape.rowMajor_val_three]; show (0 * 1 + 0) * 128 + d.val = 0 * 128 + d.val; omega

/-- One step: row `r` takes the entrywise maximum with `v`. -/
def step (r : Nat) (v : Fin 128 → F .f32) (A : SA.Idx → F .f32) : SA.Idx → F .f32 :=
  fun y => if (y 0).val = r then FloatOps.maximumf (A y) (v (y 1)) else A y

/-- The accumulator after the first `n` steps, from the start value `init`. -/
def accAfter (init : F .f32) (vv : Nat → Fin 128 → F .f32) : Nat → SA.Idx → F .f32
  | 0 => fun _ => init
  | n + 1 => step (n / 16) (vv n) (accAfter init vv n)

theorem accAfter_succ (init : F .f32) (vv : Nat → Fin 128 → F .f32) (n : Nat) :
    accAfter init vv (n + 1) = step (n / 16) (vv n) (accAfter init vv n) := rfl

/-- Entry (ρ, d) of the accumulator is entry (0, d) of row ρ's rectangle. -/
theorem row_emb (ρ : Nat) (inb : ∀ a, (![ρ, 0] : Fin 2 → Nat) a + SRow.size a ≤ SA.size a) (y : SA.Idx) (h : (y 0).val = ρ) :
    (Rect.unit (s := SA) ![ρ, 0] SRow.size inb).emb (ix2 (0 : Fin 1) (y 1)) = y := by
  funext a
  apply Fin.ext
  match a with
  | ⟨0, _⟩ => show ρ + 1 * 0 = (y 0).val; omega
  | ⟨1, _⟩ => show 0 + 1 * (y 1).val = (y 1).val; omega

/-- The contents after a step: row ρ takes the maximum with the landed row, the other rows keep what the
    earlier stores left. -/
theorem canon_row_step {sig : RefSig} {κ : Kind} {sp : Space} (v : View sig κ sp SA .f32) (ρ : Nat)
    (inb : ∀ a, (![ρ, 0] : Fin 2 → Nat) a + SRow.size a ≤ SA.size a)
    (T : List (Piece (Elt F) SA .f32)) (land : SLand.Idx → F .f32) (h1 h2 h3 h4) :
    View.canon ((⟨Rect.unit (s := SA) ![ρ, 0] SRow.size inb,
        stepPay land (v.readCov T (Rect.unit (s := SA) ![ρ, 0] SRow.size inb).toLoadRect) h1 h2 h3 h4⟩ : Piece (Elt F) SA .f32) :: T)
      = step ρ (fun d => land (ix3 (0 : Fin 1) (0 : Fin 1) d)) (View.canon T) := by
  funext y
  unfold step
  by_cases h : (y 0).val = ρ
  · rw [if_pos h]
    have hy := row_emb ρ inb y h
    calc View.canon (_ :: T) y
        = View.canon ((⟨Rect.unit (s := SA) ![ρ, 0] SRow.size inb,
            stepPay land (v.readCov T (Rect.unit (s := SA) ![ρ, 0] SRow.size inb).toLoadRect) h1 h2 h3 h4⟩ : Piece (Elt F) SA .f32) :: T)
            ((Rect.unit (s := SA) ![ρ, 0] SRow.size inb).emb (ix2 (0 : Fin 1) (y 1))) := by rw [hy]
      _ = stepPay land (v.readCov T (Rect.unit (s := SA) ![ρ, 0] SRow.size inb).toLoadRect) h1 h2 h3 h4 (ix2 (0 : Fin 1) (y 1)) :=
          View.canon_cons_emb _ _ T _
      _ = FloatOps.maximumf (v.readCov T (Rect.unit (s := SA) ![ρ, 0] SRow.size inb).toLoadRect (ix2 (0 : Fin 1) (y 1)))
            (land (ix3 (0 : Fin 1) (0 : Fin 1) (y 1))) :=
          stepPay_apply _ _ _ _ _ _ _
      _ = FloatOps.maximumf (View.canon T y) (land (ix3 (0 : Fin 1) (0 : Fin 1) (y 1))) := by
          rw [View.readCov_eq_canon']
          show FloatOps.maximumf (View.canon T ((Rect.unit (s := SA) ![ρ, 0] SRow.size inb).emb (ix2 (0 : Fin 1) (y 1)))) _ = _
          rw [hy]
  · rw [if_neg h]
    refine View.canon_cons_of_not_mem _ T ?_
    rw [Rect.mem_set_unit]
    intro hm
    have h0 := hm (0 : Fin 2)
    have e1 : (![ρ, 0] : Fin 2 → Nat) (0 : Fin 2) = ρ := rfl
    have e2 : SRow.size (0 : Fin 2) = 1 := rfl
    rw [e1, e2] at h0
    omega

/-- One step down the list of stores: if the stores before step n leave `accAfter init vv n`, the stores up to
    and including it leave `accAfter init vv (n + 1)`.  `W` is the step's payload (the maximum of the row as
    loaded, `A`, and the landed row, `land`), `A` what a load of row ρ reads after the earlier stores `T`, and the
    landed row is `vv n`. -/
theorem descend {sig : RefSig} {κ : Kind} {sp : Space} (v : View sig κ sp SA .f32) (init : F .f32)
    (vv : Nat → Fin 128 → F .f32) (n ρ : Nat)
    (inb : ∀ a, (![ρ, 0] : Fin 2 → Nat) a + SRow.size a ≤ SA.size a)
    (T : List (Piece (Elt F) SA .f32)) (W A : SRow.Idx → F .f32) (land : SLand.Idx → F .f32) (h1 h2 h3 h4)
    (hW : W = stepPay land A h1 h2 h3 h4)
    (hA : A = v.readCov T (Rect.unit (s := SA) ![ρ, 0] SRow.size inb).toLoadRect)
    (hρ : n / 16 = ρ)
    (hB : ∀ d, land (ix3 (0 : Fin 1) (0 : Fin 1) d) = vv n d)
    (ih : View.canon T = accAfter init vv n) :
    View.canon ((⟨Rect.unit (s := SA) ![ρ, 0] SRow.size inb, W⟩ : Piece (Elt F) SA .f32) :: T)
      = accAfter init vv (n + 1) := by
  subst hW hA
  rw [canon_row_step, accAfter_succ, hρ, ih]
  congr 1
  funext d
  exact hB d

/-- At the ideal instance, from the bottom element, this is the accumulator of `Cert.Pool.accAfter`. -/
theorem accAfter_ideal (vv : Nat → Fin 128 → EReal) (n : Nat) :
    accAfter (F := Ideal) (⊥ : EReal) vv n = Cert.Pool.accAfter vv n := by
  induction n with
  | zero => rfl
  | succ n ih => rw [accAfter_succ, Cert.Pool.accAfter_succ, ih]; rfl

end Cert.Pool.Peel

end
-- ==== Proof.BodyFactsK.lean ====
/-
  The body's reads, as values of the point's inputs.

  * A word the body loads from its [1, 8, 16] block `x0` at (0, r, k) is `x0 (0, r, k)`.
  * The row a copy moves — the one-row slice at (b, w, 0, 0) of the [4, 32768, 1, 128] feature array `fh`, read as a
    [1, 128] row — is, at lane d, `fh (b, w, 0, d)`; b is the point's first grid coordinate and w the neighbour word,
    both in range because the slice lies inside the array.
  * So the row that step j folds into the accumulator is `landedRow i x0 fh j`: the feature row named by word
    (j / 16, j % 16) of the block.
-/
import proofs.«412756_j23708219474789_1_alg».proof.Proof.Gen.Kernel.Frame.Runs
import proofs.«412756_j23708219474789_1_alg».proof.Proof.LandBuf
import proofs.«412756_j23708219474789_1_alg».proof.Proof.PoolPeel

set_option maxRecDepth 16384

noncomputable section

namespace Cert.Kernel.BodyFacts

open Cert.Kernel Cert.Kernel.Gen
open Idealize.ShloMosaic Idealize.ShloMosaic.TcCoe Idealize.SL.Sem Idealize.ShloMosaic.ValueIdx

variable {F : FTy → Type} [FloatOps F]

/-- One feature row as a copy reads it. -/
theorem row_read (c : Dev nD) (off : Fin 4 → Nat) (b w : Nat) (hb : b < 4) (hw : w < 32768) (hoff : off = ![b, w, 0, 0])
    (inb : ∀ a, off a + S1x1x1x128.size a ≤ S4x32768x1x128.size a) (hsl)
    (f : HbBuf0 (F := F) c hbM0_0) (d : Fin 128) :
    (((hbM0_0.slice (Rect.unit (s := S4x32768x1x128) off S1x1x1x128.size inb) hsl).squeeze S1x128
        squeezes_S1x1x1x128_S1x128).view.read (Elt F) f : S1x128.Idx → Elt F .f32) (ix2 (0 : Fin 1) d)
      = (f : S4x32768x1x128.Idx → Elt F .f32) (ix4 (⟨b, hb⟩ : Fin 4) (⟨w, hw⟩ : Fin 32768) (0 : Fin 1) d) := by
  subst hoff
  have hc : (Rect.unit (s := S4x32768x1x128) ![b, w, 0, 0] S1x1x1x128.size inb).shape.ShapeCasts S1x128 :=
    (by decide : S1x1x1x128.ShapeCasts S1x128)
  rw [Memref.read_squeeze_slice hbM0_0 _ hsl squeezes_S1x1x1x128_S1x128 hc f]
  refine (shapeCast_apply _ hc (ix2 (0 : Fin 1) d) (ix4 (0 : Fin 1) (0 : Fin 1) (0 : Fin 1) d) ?_).trans ?_
  · rw [Shape.rowMajor_val_two, Shape.rowMajor_val_four]
    show ((0 * 1 + 0) * 1 + 0) * 128 + d.val = 0 * 128 + d.val
    omega
  · show (f : S4x32768x1x128.Idx → Elt F .f32) _ = _
    congr 1
    funext a
    apply Fin.ext
    match a with
    | ⟨0, _⟩ => show b + 1 * 0 = b; omega
    | ⟨1, _⟩ => show w + 1 * 0 = w; omega
    | ⟨2, _⟩ => show 0 + 1 * 0 = 0; omega
    | ⟨3, _⟩ => show 0 + 1 * d.val = d.val; omega

/-- The row a copy moves, when the slice it reads sits at (b, w, 0, 0) for the point's batch b and a word w. -/
theorem copied_row (c : Dev nD) (i : grid0.Coords) (w : BitVec 32) (off : Fin 4 → Nat)
    (hoff : off = ![(BitVec.ofNat 32 (i 0).val).toNat, w.toNat, 0, 0])
    (inb : ∀ a, off a + S1x1x1x128.size a ≤ S4x32768x1x128.size a) (hsl)
    (f : HbBuf0 (F := F) c hbM0_0) (d : Fin 128) :
    ReadAs.same.apply (View.read (Elt F) ((hbM0_0.slice (Rect.unit (s := S4x32768x1x128) off S1x1x1x128.size inb) hsl).squeeze S1x128
        squeezes_S1x1x1x128_S1x128).view f) (ix2 (0 : Fin 1) d)
      = (f : S4x32768x1x128.Idx → Elt F .f32) (ix4 (⟨(i 0).val, (i 0).isLt⟩ : Fin 4) (Cert.Pool.pos w) (0 : Fin 1) d) := by
  have hi : (i 0).val < 4 := (i 0).isLt
  have hb : (BitVec.ofNat 32 (i 0).val).toNat = (i 0).val := by
    rw [BitVec.toNat_ofNat]; exact Nat.mod_eq_of_lt (by omega)
  have h1 := inb (1 : Fin 4)
  have e1 : off (1 : Fin 4) = w.toNat := by rw [hoff]; rfl
  have e2 : S1x1x1x128.size (1 : Fin 4) = 1 := rfl
  have e3 : S4x32768x1x128.size (1 : Fin 4) = 32768 := rfl
  rw [e1, e2, e3] at h1
  have hw : w.toNat < 32768 := by omega
  show (((hbM0_0.slice _ hsl).squeeze S1x128 squeezes_S1x1x1x128_S1x128).view.read (Elt F) f : S1x128.Idx → Elt F .f32) (ix2 (0 : Fin 1) d) = _
  rw [row_read c off (BitVec.ofNat 32 (i 0).val).toNat w.toNat (by omega) hw hoff inb hsl f d]
  congr 1
  funext a
  apply Fin.ext
  match a with
  | ⟨0, _⟩ => exact hb
  | ⟨1, _⟩ => exact (Cert.Pool.pos_val w hw).symm
  | ⟨2, _⟩ => rfl
  | ⟨3, _⟩ => rfl

/-- A word the body loads from its block. -/
theorem word_read (arg2 : Memref sig .tc .smem S1x8x16 .i32) (harg2 : arg2.IsWhole) (x0 : Vec F S1x8x16 .i32)
    (r k : Nat) (hr : r < 8) (hk : k < 16) (inb : ∀ a, (![0, r, k] : Fin 3 → Nat) a + S1x1x1.size a ≤ S1x8x16.size a)
    (h1 : 0 < S1x1x1.numel) :
    arg2.view.readAt (Elt F) (Rect.unit (s := S1x8x16) ![0, r, k] S1x1x1.size inb).toLoadRect (harg2.unread x0) (Shape.Idx.first h1)
      = (x0 : S1x8x16.Idx → BitVec 32) (ix3 (0 : Fin 1) (⟨r, hr⟩ : Fin 8) (⟨k, hk⟩ : Fin 16)) := by
  rw [View.readAt_apply, Memref.IsWhole.read_unread]
  congr 1
  funext a
  apply Fin.ext
  have hz : ∀ b : Fin 3, (Shape.Idx.first h1 b).val = 0 := fun b => by
    have := (Shape.Idx.first h1 b).isLt
    have e : S1x1x1.size b = 1 := by fin_cases b <;> rfl
    omega
  match a with
  | ⟨0, _⟩ => show 0 + 1 * (Shape.Idx.first h1 (0 : Fin 3)).val = 0; rw [hz]
  | ⟨1, _⟩ => show r + 1 * (Shape.Idx.first h1 (1 : Fin 3)).val = r; rw [hz]; omega
  | ⟨2, _⟩ => show k + 1 * (Shape.Idx.first h1 (2 : Fin 3)).val = k; rw [hz]; omega

/-- The feature row step j folds in: the row named by word (j / 16, j % 16) of the point's block. -/
def landedRow (c : Dev nD) (i : grid0.Coords) (x0 : Vec F S1x8x16 .i32) (f : HbBuf0 (F := F) c hbM0_0) (j : Nat) (d : Fin 128) : F .f32 :=
  (f : S4x32768x1x128.Idx → Elt F .f32)
    (ix4 (⟨(i 0).val, (i 0).isLt⟩ : Fin 4)
      (Cert.Pool.pos ((x0 : S1x8x16.Idx → BitVec 32) (ix3 (0 : Fin 1) (⟨j / 16 % 8, Nat.mod_lt _ (by decide)⟩ : Fin 8) (⟨j % 16, Nat.mod_lt _ (by decide)⟩ : Fin 16))))
      (0 : Fin 1) d)

end Cert.Kernel.BodyFacts

end
-- ==== Proof.BodyValueK.lean ====
/-
  What the body's 128 steps leave in the accumulator, and with it in the output block — free of what the
  buffers held before.

  The run's pieces are spelled over the landing buffer's initial contents, because no store ever overwrites that
  buffer whole.  But every load of a slot comes after a copy into that slot, so each landed row is the copied
  feature row (`landedRow`), and the accumulator after the stores of steps 0, …, j − 1 is `accAfter startVal
  landedRow j` — by one application of `Peel.descend` per step, from the last store down to the first, the
  whole-buffer store of the start value.  The output block is the accumulator after all 128 steps.
-/
import proofs.«412756_j23708219474789_1_alg».proof.Proof.RunRawK
import proofs.«412756_j23708219474789_1_alg».proof.Proof.BodyFactsK

set_option maxRecDepth 100000

noncomputable section

namespace Cert.Kernel.Gen

open Idealize.ShloMosaic Idealize.ShloMosaic.TcCoe Idealize.SL.Sem Idealize.ShloMosaic.ValueIdx
open Cert.Kernel.BodyFacts Cert.Pool.Peel Cert.Pool.LandBuf

variable {F : FTy → Type} [FloatOps F]

theorem hz2 : (![0, 0] : Fin 2 → Nat) = fun _ => 0 := funext fun a => by fin_cases a <;> rfl

/-- The value the accumulator starts from. -/
def startVal : F .f32 := Scalar.ofBits .f32 0xF149F2CA#32

open Lean Meta Elab Tactic in
/-- Open the payload on the left of `W = _`: the printed payload functions and the values the run names for a
    payload computed across two parts, so that the store's payload stands as the shape casts and the one maximum. -/
elab "open_pay" : tactic => do
  let g ← getMainGoal
  g.withContext do
    let t ← instantiateMVars (← g.getType)
    let isPay : Name → Bool := fun n =>
      match n with
      | .str p s => s.startsWith "k0_pay" || (s.startsWith "r_" && p.getString! == "sl")
      | _ => false
    let mut t' := t
    for _ in [0:4] do
      t' ← Meta.deltaExpand t' isPay
      t' ← Core.betaReduce t'
    let g' ← g.replaceTargetDefEq t'
    replaceMainGoal [g']

/- One step down the list of the accumulator's stores (`peel_step`); the landed row's side goal is closed on the
   spot (`land_close`): a load of a slot after "copy into it, then (except at the last step) copy into the other
   slot" reads the copied row, which is the feature row the step's neighbour word names. -/
set_option hygiene false in
macro "land_close" : tactic => `(tactic|
  (refine Eq.trans (copied_row c i _ _ rfl _ _ fh0 d) ?_
   unfold landedRow
   congr 3
   exact word_read arg2 harg2 x0 _ _ (by decide) (by decide) _ _))

set_option hygiene false in
macro "peel_step" : tactic => `(tactic|
  (refine descend _ _ _ _ _ _ _ _ _ _ _ _ _ _ (by open_pay; dsimp only; exact rfl) (by exact rfl) (by rfl) (fun d => ?_) ?_
   · first
     | (refine Eq.trans (read_miss arg6 _ _ (by decide) _ _ _ _ _ _ _) ?_
        refine Eq.trans (read_hit arg6 _ _ _ _ _ _ d) ?_
        land_close)
     | (refine Eq.trans (read_hit arg6 _ _ _ _ _ _ d) ?_
        land_close)))

set_option maxHeartbeats 40000000 in
/-- The accumulator as the last load reads it: after all 128 steps. -/
theorem acc_final (c : Dev nD) (i : grid0.Coords) (arg2 : Memref sig .tc .smem S1x8x16 .i32) (harg2 : arg2.IsWhole) (arg5 : Memref sig .tc .vmem S8x128 .f32) (arg6 : Memref sig .tc .vmem S2x1x128 .f32)
    (x0 : Vec F S1x8x16 .i32) (fh0 : HbBuf0 (F := F) c hbM0_0) (k0_hw1 : k0_chk1 i (arg2.view.readAt (Elt F) (Rect.unit (s := S1x8x16) ![0, 0, 0] S1x1x1.size inb_S1x8x16_S1x1x1_0_0_0).toLoadRect (harg2.unread x0) (Shape.Idx.first (numel1_S1x1x1.symm ▸ Nat.one_pos)))) (k0_hw2 : k0_chk2 i (arg2.view.readAt (Elt F) (Rect.unit (s := S1x8x16) ![0, 0, 1] S1x1x1.size inb_S1x8x16_S1x1x1_0_0_1).toLoadRect (harg2.unread x0) (Shape.Idx.first (numel1_S1x1x1.symm ▸ Nat.one_pos)))) (k0_hw3 : k0_chk3 i (arg2.view.readAt (Elt F) (Rect.unit (s := S1x8x16) ![0, 0, 2] S1x1x1.size inb_S1x8x16_S1x1x1_0_0_2).toLoadRect (harg2.unread x0) (Shape.Idx.first (numel1_S1x1x1.symm ▸ Nat.one_pos)))) (k0_hw4 : k0_chk4 i (arg2.view.readAt (Elt F) (Rect.unit (s := S1x8x16) ![0, 0, 3] S1x1x1.size inb_S1x8x16_S1x1x1_0_0_3).toLoadRect (harg2.unread x0) (Shape.Idx.first (numel1_S1x1x1.symm ▸ Nat.one_pos)))) (k0_hw5 : k0_chk5 i (arg2.view.readAt (Elt F) (Rect.unit (s := S1x8x16) ![0, 0, 4] S1x1x1.size inb_S1x8x16_S1x1x1_0_0_4).toLoadRect (harg2.unread x0) (Shape.Idx.first (numel1_S1x1x1.symm ▸ Nat.one_pos)))) (k0_hw6 : k0_chk6 i (arg2.view.readAt (Elt F) (Rect.unit (s := S1x8x16) ![0, 0, 5] S1x1x1.size inb_S1x8x16_S1x1x1_0_0_5).toLoadRect (harg2.unread x0) (Shape.Idx.first (numel1_S1x1x1.symm ▸ Nat.one_pos)))) (k0_hw7 : k0_chk7 i (arg2.view.readAt (Elt F) (Rect.unit (s := S1x8x16) ![0, 0, 6] S1x1x1.size inb_S1x8x16_S1x1x1_0_0_6).toLoadRect (harg2.unread x0) (Shape.Idx.first (numel1_S1x1x1.symm ▸ Nat.one_pos)))) (k0_hw8 : k0_chk8 i (arg2.view.readAt (Elt F) (Rect.unit (s := S1x8x16) ![0, 0, 7] S1x1x1.size inb_S1x8x16_S1x1x1_0_0_7).toLoadRect (harg2.unread x0) (Shape.Idx.first (numel1_S1x1x1.symm ▸ Nat.one_pos)))) (k0_hw9 : k0_chk9 i (arg2.view.readAt (Elt F) (Rect.unit (s := S1x8x16) ![0, 0, 8] S1x1x1.size inb_S1x8x16_S1x1x1_0_0_8).toLoadRect (harg2.unread x0) (Shape.Idx.first (numel1_S1x1x1.symm ▸ Nat.one_pos)))) (k0_hw10 : k0_chk10 i (arg2.view.readAt (Elt F) (Rect.unit (s := S1x8x16) ![0, 0, 9] S1x1x1.size inb_S1x8x16_S1x1x1_0_0_9).toLoadRect (harg2.unread x0) (Shape.Idx.first (numel1_S1x1x1.symm ▸ Nat.one_pos)))) (k0_hw11 : k0_chk11 i (arg2.view.readAt (Elt F) (Rect.unit (s := S1x8x16) ![0, 0, 10] S1x1x1.size inb_S1x8x16_S1x1x1_0_0_10).toLoadRect (harg2.unread x0) (Shape.Idx.first (numel1_S1x1x1.symm ▸ Nat.one_pos)))) (k0_hw12 : k0_chk12 i (arg2.view.readAt (Elt F) (Rect.unit (s := S1x8x16) ![0, 0, 11] S1x1x1.size inb_S1x8x16_S1x1x1_0_0_11).toLoadRect (harg2.unread x0) (Shape.Idx.first (numel1_S1x1x1.symm ▸ Nat.one_pos)))) (k0_hw13 : k0_chk13 i (arg2.view.readAt (Elt F) (Rect.unit (s := S1x8x16) ![0, 0, 12] S1x1x1.size inb_S1x8x16_S1x1x1_0_0_12).toLoadRect (harg2.unread x0) (Shape.Idx.first (numel1_S1x1x1.symm ▸ Nat.one_pos)))) (k0_hw14 : k0_chk14 i (arg2.view.readAt (Elt F) (Rect.unit (s := S1x8x16) ![0, 0, 13] S1x1x1.size inb_S1x8x16_S1x1x1_0_0_13).toLoadRect (harg2.unread x0) (Shape.Idx.first (numel1_S1x1x1.symm ▸ Nat.one_pos)))) (k0_hw15 : k0_chk15 i (arg2.view.readAt (Elt F) (Rect.unit (s := S1x8x16) ![0, 0, 14] S1x1x1.size inb_S1x8x16_S1x1x1_0_0_14).toLoadRect (harg2.unread x0) (Shape.Idx.first (numel1_S1x1x1.symm ▸ Nat.one_pos)))) (k0_hw16 : k0_chk16 i (arg2.view.readAt (Elt F) (Rect.unit (s := S1x8x16) ![0, 0, 15] S1x1x1.size inb_S1x8x16_S1x1x1_0_0_15).toLoadRect (harg2.unread x0) (Shape.Idx.first (numel1_S1x1x1.symm ▸ Nat.one_pos)))) (k0_hw17 : k0_chk17 i (arg2.view.readAt (Elt F) (Rect.unit (s := S1x8x16) ![0, 1, 0] S1x1x1.size inb_S1x8x16_S1x1x1_0_1_0).toLoadRect (harg2.unread x0) (Shape.Idx.first (numel1_S1x1x1.symm ▸ Nat.one_pos)))) (k0_hw18 : k0_chk18 i (arg2.view.readAt (Elt F) (Rect.unit (s := S1x8x16) ![0, 1, 1] S1x1x1.size inb_S1x8x16_S1x1x1_0_1_1).toLoadRect (harg2.unread x0) (Shape.Idx.first (numel1_S1x1x1.symm ▸ Nat.one_pos)))) (k0_hw19 : k0_chk19 i (arg2.view.readAt (Elt F) (Rect.unit (s := S1x8x16) ![0, 1, 2] S1x1x1.size inb_S1x8x16_S1x1x1_0_1_2).toLoadRect (harg2.unread x0) (Shape.Idx.first (numel1_S1x1x1.symm ▸ Nat.one_pos)))) (k0_hw20 : k0_chk20 i (arg2.view.readAt (Elt F) (Rect.unit (s := S1x8x16) ![0, 1, 3] S1x1x1.size inb_S1x8x16_S1x1x1_0_1_3).toLoadRect (harg2.unread x0) (Shape.Idx.first (numel1_S1x1x1.symm ▸ Nat.one_pos)))) (k0_hw21 : k0_chk21 i (arg2.view.readAt (Elt F) (Rect.unit (s := S1x8x16) ![0, 1, 4] S1x1x1.size inb_S1x8x16_S1x1x1_0_1_4).toLoadRect (harg2.unread x0) (Shape.Idx.first (numel1_S1x1x1.symm ▸ Nat.one_pos)))) (k0_hw22 : k0_chk22 i (arg2.view.readAt (Elt F) (Rect.unit (s := S1x8x16) ![0, 1, 5] S1x1x1.size inb_S1x8x16_S1x1x1_0_1_5).toLoadRect (harg2.unread x0) (Shape.Idx.first (numel1_S1x1x1.symm ▸ Nat.one_pos)))) (k0_hw23 : k0_chk23 i (arg2.view.readAt (Elt F) (Rect.unit (s := S1x8x16) ![0, 1, 6] S1x1x1.size inb_S1x8x16_S1x1x1_0_1_6).toLoadRect (harg2.unread x0) (Shape.Idx.first (numel1_S1x1x1.symm ▸ Nat.one_pos)))) (k0_hw24 : k0_chk24 i (arg2.view.readAt (Elt F) (Rect.unit (s := S1x8x16) ![0, 1, 7] S1x1x1.size inb_S1x8x16_S1x1x1_0_1_7).toLoadRect (harg2.unread x0) (Shape.Idx.first (numel1_S1x1x1.symm ▸ Nat.one_pos)))) (k0_hw25 : k0_chk25 i (arg2.view.readAt (Elt F) (Rect.unit (s := S1x8x16) ![0, 1, 8] S1x1x1.size inb_S1x8x16_S1x1x1_0_1_8).toLoadRect (harg2.unread x0) (Shape.Idx.first (numel1_S1x1x1.symm ▸ Nat.one_pos)))) (k0_hw26 : k0_chk26 i (arg2.view.readAt (Elt F) (Rect.unit (s := S1x8x16) ![0, 1, 9] S1x1x1.size inb_S1x8x16_S1x1x1_0_1_9).toLoadRect (harg2.unread x0) (Shape.Idx.first (numel1_S1x1x1.symm ▸ Nat.one_pos)))) (k0_hw27 : k0_chk27 i (arg2.view.readAt (Elt F) (Rect.unit (s := S1x8x16) ![0, 1, 10] S1x1x1.size inb_S1x8x16_S1x1x1_0_1_10).toLoadRect (harg2.unread x0) (Shape.Idx.first (numel1_S1x1x1.symm ▸ Nat.one_pos)))) (k0_hw28 : k0_chk28 i (arg2.view.readAt (Elt F) (Rect.unit (s := S1x8x16) ![0, 1, 11] S1x1x1.size inb_S1x8x16_S1x1x1_0_1_11).toLoadRect (harg2.unread x0) (Shape.Idx.first (numel1_S1x1x1.symm ▸ Nat.one_pos)))) (k0_hw29 : k0_chk29 i (arg2.view.readAt (Elt F) (Rect.unit (s := S1x8x16) ![0, 1, 12] S1x1x1.size inb_S1x8x16_S1x1x1_0_1_12).toLoadRect (harg2.unread x0) (Shape.Idx.first (numel1_S1x1x1.symm ▸ Nat.one_pos)))) (k0_hw30 : k0_chk30 i (arg2.view.readAt (Elt F) (Rect.unit (s := S1x8x16) ![0, 1, 13] S1x1x1.size inb_S1x8x16_S1x1x1_0_1_13).toLoadRect (harg2.unread x0) (Shape.Idx.first (numel1_S1x1x1.symm ▸ Nat.one_pos)))) (k0_hw31 : k0_chk31 i (arg2.view.readAt (Elt F) (Rect.unit (s := S1x8x16) ![0, 1, 14] S1x1x1.size inb_S1x8x16_S1x1x1_0_1_14).toLoadRect (harg2.unread x0) (Shape.Idx.first (numel1_S1x1x1.symm ▸ Nat.one_pos)))) (k0_hw32 : k0_chk32 i (arg2.view.readAt (Elt F) (Rect.unit (s := S1x8x16) ![0, 1, 15] S1x1x1.size inb_S1x8x16_S1x1x1_0_1_15).toLoadRect (harg2.unread x0) (Shape.Idx.first (numel1_S1x1x1.symm ▸ Nat.one_pos)))) (k0_hw33 : k0_chk33 i (arg2.view.readAt (Elt F) (Rect.unit (s := S1x8x16) ![0, 2, 0] S1x1x1.size inb_S1x8x16_S1x1x1_0_2_0).toLoadRect (harg2.unread x0) (Shape.Idx.first (numel1_S1x1x1.symm ▸ Nat.one_pos)))) (k0_hw34 : k0_chk34 i (arg2.view.readAt (Elt F) (Rect.unit (s := S1x8x16) ![0, 2, 1] S1x1x1.size inb_S1x8x16_S1x1x1_0_2_1).toLoadRect (harg2.unread x0) (Shape.Idx.first (numel1_S1x1x1.symm ▸ Nat.one_pos)))) (k0_hw35 : k0_chk35 i (arg2.view.readAt (Elt F) (Rect.unit (s := S1x8x16) ![0, 2, 2] S1x1x1.size inb_S1x8x16_S1x1x1_0_2_2).toLoadRect (harg2.unread x0) (Shape.Idx.first (numel1_S1x1x1.symm ▸ Nat.one_pos)))) (k0_hw36 : k0_chk36 i (arg2.view.readAt (Elt F) (Rect.unit (s := S1x8x16) ![0, 2, 3] S1x1x1.size inb_S1x8x16_S1x1x1_0_2_3).toLoadRect (harg2.unread x0) (Shape.Idx.first (numel1_S1x1x1.symm ▸ Nat.one_pos)))) (k0_hw37 : k0_chk37 i (arg2.view.readAt (Elt F) (Rect.unit (s := S1x8x16) ![0, 2, 4] S1x1x1.size inb_S1x8x16_S1x1x1_0_2_4).toLoadRect (harg2.unread x0) (Shape.Idx.first (numel1_S1x1x1.symm ▸ Nat.one_pos)))) (k0_hw38 : k0_chk38 i (arg2.view.readAt (Elt F) (Rect.unit (s := S1x8x16) ![0, 2, 5] S1x1x1.size inb_S1x8x16_S1x1x1_0_2_5).toLoadRect (harg2.unread x0) (Shape.Idx.first (numel1_S1x1x1.symm ▸ Nat.one_pos)))) (k0_hw39 : k0_chk39 i (arg2.view.readAt (Elt F) (Rect.unit (s := S1x8x16) ![0, 2, 6] S1x1x1.size inb_S1x8x16_S1x1x1_0_2_6).toLoadRect (harg2.unread x0) (Shape.Idx.first (numel1_S1x1x1.symm ▸ Nat.one_pos)))) (k0_hw40 : k0_chk40 i (arg2.view.readAt (Elt F) (Rect.unit (s := S1x8x16) ![0, 2, 7] S1x1x1.size inb_S1x8x16_S1x1x1_0_2_7).toLoadRect (harg2.unread x0) (Shape.Idx.first (numel1_S1x1x1.symm ▸ Nat.one_pos)))) (k0_hw41 : k0_chk41 i (arg2.view.readAt (Elt F) (Rect.unit (s := S1x8x16) ![0, 2, 8] S1x1x1.size inb_S1x8x16_S1x1x1_0_2_8).toLoadRect (harg2.unread x0) (Shape.Idx.first (numel1_S1x1x1.symm ▸ Nat.one_pos)))) (k0_hw42 : k0_chk42 i (arg2.view.readAt (Elt F) (Rect.unit (s := S1x8x16) ![0, 2, 9] S1x1x1.size inb_S1x8x16_S1x1x1_0_2_9).toLoadRect (harg2.unread x0) (Shape.Idx.first (numel1_S1x1x1.symm ▸ Nat.one_pos)))) (k0_hw43 : k0_chk43 i (arg2.view.readAt (Elt F) (Rect.unit (s := S1x8x16) ![0, 2, 10] S1x1x1.size inb_S1x8x16_S1x1x1_0_2_10).toLoadRect (harg2.unread x0) (Shape.Idx.first (numel1_S1x1x1.symm ▸ Nat.one_pos)))) (k0_hw44 : k0_chk44 i (arg2.view.readAt (Elt F) (Rect.unit (s := S1x8x16) ![0, 2, 11] S1x1x1.size inb_S1x8x16_S1x1x1_0_2_11).toLoadRect (harg2.unread x0) (Shape.Idx.first (numel1_S1x1x1.symm ▸ Nat.one_pos)))) (k0_hw45 : k0_chk45 i (arg2.view.readAt (Elt F) (Rect.unit (s := S1x8x16) ![0, 2, 12] S1x1x1.size inb_S1x8x16_S1x1x1_0_2_12).toLoadRect (harg2.unread x0) (Shape.Idx.first (numel1_S1x1x1.symm ▸ Nat.one_pos)))) (k0_hw46 : k0_chk46 i (arg2.view.readAt (Elt F) (Rect.unit (s := S1x8x16) ![0, 2, 13] S1x1x1.size inb_S1x8x16_S1x1x1_0_2_13).toLoadRect (harg2.unread x0) (Shape.Idx.first (numel1_S1x1x1.symm ▸ Nat.one_pos)))) (k0_hw47 : k0_chk47 i (arg2.view.readAt (Elt F) (Rect.unit (s := S1x8x16) ![0, 2, 14] S1x1x1.size inb_S1x8x16_S1x1x1_0_2_14).toLoadRect (harg2.unread x0) (Shape.Idx.first (numel1_S1x1x1.symm ▸ Nat.one_pos)))) (k0_hw48 : k0_chk48 i (arg2.view.readAt (Elt F) (Rect.unit (s := S1x8x16) ![0, 2, 15] S1x1x1.size inb_S1x8x16_S1x1x1_0_2_15).toLoadRect (harg2.unread x0) (Shape.Idx.first (numel1_S1x1x1.symm ▸ Nat.one_pos)))) (k0_hw49 : k0_chk49 i (arg2.view.readAt (Elt F) (Rect.unit (s := S1x8x16) ![0, 3, 0] S1x1x1.size inb_S1x8x16_S1x1x1_0_3_0).toLoadRect (harg2.unread x0) (Shape.Idx.first (numel1_S1x1x1.symm ▸ Nat.one_pos)))) (k0_hw50 : k0_chk50 i (arg2.view.readAt (Elt F) (Rect.unit (s := S1x8x16) ![0, 3, 1] S1x1x1.size inb_S1x8x16_S1x1x1_0_3_1).toLoadRect (harg2.unread x0) (Shape.Idx.first (numel1_S1x1x1.symm ▸ Nat.one_pos)))) (k0_hw51 : k0_chk51 i (arg2.view.readAt (Elt F) (Rect.unit (s := S1x8x16) ![0, 3, 2] S1x1x1.size inb_S1x8x16_S1x1x1_0_3_2).toLoadRect (harg2.unread x0) (Shape.Idx.first (numel1_S1x1x1.symm ▸ Nat.one_pos)))) (k0_hw52 : k0_chk52 i (arg2.view.readAt (Elt F) (Rect.unit (s := S1x8x16) ![0, 3, 3] S1x1x1.size inb_S1x8x16_S1x1x1_0_3_3).toLoadRect (harg2.unread x0) (Shape.Idx.first (numel1_S1x1x1.symm ▸ Nat.one_pos)))) (k0_hw53 : k0_chk53 i (arg2.view.readAt (Elt F) (Rect.unit (s := S1x8x16) ![0, 3, 4] S1x1x1.size inb_S1x8x16_S1x1x1_0_3_4).toLoadRect (harg2.unread x0) (Shape.Idx.first (numel1_S1x1x1.symm ▸ Nat.one_pos)))) (k0_hw54 : k0_chk54 i (arg2.view.readAt (Elt F) (Rect.unit (s := S1x8x16) ![0, 3, 5] S1x1x1.size inb_S1x8x16_S1x1x1_0_3_5).toLoadRect (harg2.unread x0) (Shape.Idx.first (numel1_S1x1x1.symm ▸ Nat.one_pos)))) (k0_hw55 : k0_chk55 i (arg2.view.readAt (Elt F) (Rect.unit (s := S1x8x16) ![0, 3, 6] S1x1x1.size inb_S1x8x16_S1x1x1_0_3_6).toLoadRect (harg2.unread x0) (Shape.Idx.first (numel1_S1x1x1.symm ▸ Nat.one_pos)))) (k0_hw56 : k0_chk56 i (arg2.view.readAt (Elt F) (Rect.unit (s := S1x8x16) ![0, 3, 7] S1x1x1.size inb_S1x8x16_S1x1x1_0_3_7).toLoadRect (harg2.unread x0) (Shape.Idx.first (numel1_S1x1x1.symm ▸ Nat.one_pos)))) (k0_hw57 : k0_chk57 i (arg2.view.readAt (Elt F) (Rect.unit (s := S1x8x16) ![0, 3, 8] S1x1x1.size inb_S1x8x16_S1x1x1_0_3_8).toLoadRect (harg2.unread x0) (Shape.Idx.first (numel1_S1x1x1.symm ▸ Nat.one_pos)))) (k0_hw58 : k0_chk58 i (arg2.view.readAt (Elt F) (Rect.unit (s := S1x8x16) ![0, 3, 9] S1x1x1.size inb_S1x8x16_S1x1x1_0_3_9).toLoadRect (harg2.unread x0) (Shape.Idx.first (numel1_S1x1x1.symm ▸ Nat.one_pos)))) (k0_hw59 : k0_chk59 i (arg2.view.readAt (Elt F) (Rect.unit (s := S1x8x16) ![0, 3, 10] S1x1x1.size inb_S1x8x16_S1x1x1_0_3_10).toLoadRect (harg2.unread x0) (Shape.Idx.first (numel1_S1x1x1.symm ▸ Nat.one_pos)))) (k0_hw60 : k0_chk60 i (arg2.view.readAt (Elt F) (Rect.unit (s := S1x8x16) ![0, 3, 11] S1x1x1.size inb_S1x8x16_S1x1x1_0_3_11).toLoadRect (harg2.unread x0) (Shape.Idx.first (numel1_S1x1x1.symm ▸ Nat.one_pos)))) (k0_hw61 : k0_chk61 i (arg2.view.readAt (Elt F) (Rect.unit (s := S1x8x16) ![0, 3, 12] S1x1x1.size inb_S1x8x16_S1x1x1_0_3_12).toLoadRect (harg2.unread x0) (Shape.Idx.first (numel1_S1x1x1.symm ▸ Nat.one_pos)))) (k0_hw62 : k0_chk62 i (arg2.view.readAt (Elt F) (Rect.unit (s := S1x8x16) ![0, 3, 13] S1x1x1.size inb_S1x8x16_S1x1x1_0_3_13).toLoadRect (harg2.unread x0) (Shape.Idx.first (numel1_S1x1x1.symm ▸ Nat.one_pos)))) (k0_hw63 : k0_chk63 i (arg2.view.readAt (Elt F) (Rect.unit (s := S1x8x16) ![0, 3, 14] S1x1x1.size inb_S1x8x16_S1x1x1_0_3_14).toLoadRect (harg2.unread x0) (Shape.Idx.first (numel1_S1x1x1.symm ▸ Nat.one_pos)))) (k0_hw64 : k0_chk64 i (arg2.view.readAt (Elt F) (Rect.unit (s := S1x8x16) ![0, 3, 15] S1x1x1.size inb_S1x8x16_S1x1x1_0_3_15).toLoadRect (harg2.unread x0) (Shape.Idx.first (numel1_S1x1x1.symm ▸ Nat.one_pos)))) (k0_hw65 : k0_chk65 i (arg2.view.readAt (Elt F) (Rect.unit (s := S1x8x16) ![0, 4, 0] S1x1x1.size inb_S1x8x16_S1x1x1_0_4_0).toLoadRect (harg2.unread x0) (Shape.Idx.first (numel1_S1x1x1.symm ▸ Nat.one_pos)))) (k0_hw66 : k0_chk66 i (arg2.view.readAt (Elt F) (Rect.unit (s := S1x8x16) ![0, 4, 1] S1x1x1.size inb_S1x8x16_S1x1x1_0_4_1).toLoadRect (harg2.unread x0) (Shape.Idx.first (numel1_S1x1x1.symm ▸ Nat.one_pos)))) (k0_hw67 : k0_chk67 i (arg2.view.readAt (Elt F) (Rect.unit (s := S1x8x16) ![0, 4, 2] S1x1x1.size inb_S1x8x16_S1x1x1_0_4_2).toLoadRect (harg2.unread x0) (Shape.Idx.first (numel1_S1x1x1.symm ▸ Nat.one_pos)))) (k0_hw68 : k0_chk68 i (arg2.view.readAt (Elt F) (Rect.unit (s := S1x8x16) ![0, 4, 3] S1x1x1.size inb_S1x8x16_S1x1x1_0_4_3).toLoadRect (harg2.unread x0) (Shape.Idx.first (numel1_S1x1x1.symm ▸ Nat.one_pos)))) (k0_hw69 : k0_chk69 i (arg2.view.readAt (Elt F) (Rect.unit (s := S1x8x16) ![0, 4, 4] S1x1x1.size inb_S1x8x16_S1x1x1_0_4_4).toLoadRect (harg2.unread x0) (Shape.Idx.first (numel1_S1x1x1.symm ▸ Nat.one_pos)))) (k0_hw70 : k0_chk70 i (arg2.view.readAt (Elt F) (Rect.unit (s := S1x8x16) ![0, 4, 5] S1x1x1.size inb_S1x8x16_S1x1x1_0_4_5).toLoadRect (harg2.unread x0) (Shape.Idx.first (numel1_S1x1x1.symm ▸ Nat.one_pos)))) (k0_hw71 : k0_chk71 i (arg2.view.readAt (Elt F) (Rect.unit (s := S1x8x16) ![0, 4, 6] S1x1x1.size inb_S1x8x16_S1x1x1_0_4_6).toLoadRect (harg2.unread x0) (Shape.Idx.first (numel1_S1x1x1.symm ▸ Nat.one_pos)))) (k0_hw72 : k0_chk72 i (arg2.view.readAt (Elt F) (Rect.unit (s := S1x8x16) ![0, 4, 7] S1x1x1.size inb_S1x8x16_S1x1x1_0_4_7).toLoadRect (harg2.unread x0) (Shape.Idx.first (numel1_S1x1x1.symm ▸ Nat.one_pos)))) (k0_hw73 : k0_chk73 i (arg2.view.readAt (Elt F) (Rect.unit (s := S1x8x16) ![0, 4, 8] S1x1x1.size inb_S1x8x16_S1x1x1_0_4_8).toLoadRect (harg2.unread x0) (Shape.Idx.first (numel1_S1x1x1.symm ▸ Nat.one_pos)))) (k0_hw74 : k0_chk74 i (arg2.view.readAt (Elt F) (Rect.unit (s := S1x8x16) ![0, 4, 9] S1x1x1.size inb_S1x8x16_S1x1x1_0_4_9).toLoadRect (harg2.unread x0) (Shape.Idx.first (numel1_S1x1x1.symm ▸ Nat.one_pos)))) (k0_hw75 : k0_chk75 i (arg2.view.readAt (Elt F) (Rect.unit (s := S1x8x16) ![0, 4, 10] S1x1x1.size inb_S1x8x16_S1x1x1_0_4_10).toLoadRect (harg2.unread x0) (Shape.Idx.first (numel1_S1x1x1.symm ▸ Nat.one_pos)))) (k0_hw76 : k0_chk76 i (arg2.view.readAt (Elt F) (Rect.unit (s := S1x8x16) ![0, 4, 11] S1x1x1.size inb_S1x8x16_S1x1x1_0_4_11).toLoadRect (harg2.unread x0) (Shape.Idx.first (numel1_S1x1x1.symm ▸ Nat.one_pos)))) (k0_hw77 : k0_chk77 i (arg2.view.readAt (Elt F) (Rect.unit (s := S1x8x16) ![0, 4, 12] S1x1x1.size inb_S1x8x16_S1x1x1_0_4_12).toLoadRect (harg2.unread x0) (Shape.Idx.first (numel1_S1x1x1.symm ▸ Nat.one_pos)))) (k0_hw78 : k0_chk78 i (arg2.view.readAt (Elt F) (Rect.unit (s := S1x8x16) ![0, 4, 13] S1x1x1.size inb_S1x8x16_S1x1x1_0_4_13).toLoadRect (harg2.unread x0) (Shape.Idx.first (numel1_S1x1x1.symm ▸ Nat.one_pos)))) (k0_hw79 : k0_chk79 i (arg2.view.readAt (Elt F) (Rect.unit (s := S1x8x16) ![0, 4, 14] S1x1x1.size inb_S1x8x16_S1x1x1_0_4_14).toLoadRect (harg2.unread x0) (Shape.Idx.first (numel1_S1x1x1.symm ▸ Nat.one_pos)))) (k0_hw80 : k0_chk80 i (arg2.view.readAt (Elt F) (Rect.unit (s := S1x8x16) ![0, 4, 15] S1x1x1.size inb_S1x8x16_S1x1x1_0_4_15).toLoadRect (harg2.unread x0) (Shape.Idx.first (numel1_S1x1x1.symm ▸ Nat.one_pos)))) (k0_hw81 : k0_chk81 i (arg2.view.readAt (Elt F) (Rect.unit (s := S1x8x16) ![0, 5, 0] S1x1x1.size inb_S1x8x16_S1x1x1_0_5_0).toLoadRect (harg2.unread x0) (Shape.Idx.first (numel1_S1x1x1.symm ▸ Nat.one_pos)))) (k0_hw82 : k0_chk82 i (arg2.view.readAt (Elt F) (Rect.unit (s := S1x8x16) ![0, 5, 1] S1x1x1.size inb_S1x8x16_S1x1x1_0_5_1).toLoadRect (harg2.unread x0) (Shape.Idx.first (numel1_S1x1x1.symm ▸ Nat.one_pos)))) (k0_hw83 : k0_chk83 i (arg2.view.readAt (Elt F) (Rect.unit (s := S1x8x16) ![0, 5, 2] S1x1x1.size inb_S1x8x16_S1x1x1_0_5_2).toLoadRect (harg2.unread x0) (Shape.Idx.first (numel1_S1x1x1.symm ▸ Nat.one_pos)))) (k0_hw84 : k0_chk84 i (arg2.view.readAt (Elt F) (Rect.unit (s := S1x8x16) ![0, 5, 3] S1x1x1.size inb_S1x8x16_S1x1x1_0_5_3).toLoadRect (harg2.unread x0) (Shape.Idx.first (numel1_S1x1x1.symm ▸ Nat.one_pos)))) (k0_hw85 : k0_chk85 i (arg2.view.readAt (Elt F) (Rect.unit (s := S1x8x16) ![0, 5, 4] S1x1x1.size inb_S1x8x16_S1x1x1_0_5_4).toLoadRect (harg2.unread x0) (Shape.Idx.first (numel1_S1x1x1.symm ▸ Nat.one_pos)))) (k0_hw86 : k0_chk86 i (arg2.view.readAt (Elt F) (Rect.unit (s := S1x8x16) ![0, 5, 5] S1x1x1.size inb_S1x8x16_S1x1x1_0_5_5).toLoadRect (harg2.unread x0) (Shape.Idx.first (numel1_S1x1x1.symm ▸ Nat.one_pos)))) (k0_hw87 : k0_chk87 i (arg2.view.readAt (Elt F) (Rect.unit (s := S1x8x16) ![0, 5, 6] S1x1x1.size inb_S1x8x16_S1x1x1_0_5_6).toLoadRect (harg2.unread x0) (Shape.Idx.first (numel1_S1x1x1.symm ▸ Nat.one_pos)))) (k0_hw88 : k0_chk88 i (arg2.view.readAt (Elt F) (Rect.unit (s := S1x8x16) ![0, 5, 7] S1x1x1.size inb_S1x8x16_S1x1x1_0_5_7).toLoadRect (harg2.unread x0) (Shape.Idx.first (numel1_S1x1x1.symm ▸ Nat.one_pos)))) (k0_hw89 : k0_chk89 i (arg2.view.readAt (Elt F) (Rect.unit (s := S1x8x16) ![0, 5, 8] S1x1x1.size inb_S1x8x16_S1x1x1_0_5_8).toLoadRect (harg2.unread x0) (Shape.Idx.first (numel1_S1x1x1.symm ▸ Nat.one_pos)))) (k0_hw90 : k0_chk90 i (arg2.view.readAt (Elt F) (Rect.unit (s := S1x8x16) ![0, 5, 9] S1x1x1.size inb_S1x8x16_S1x1x1_0_5_9).toLoadRect (harg2.unread x0) (Shape.Idx.first (numel1_S1x1x1.symm ▸ Nat.one_pos)))) (k0_hw91 : k0_chk91 i (arg2.view.readAt (Elt F) (Rect.unit (s := S1x8x16) ![0, 5, 10] S1x1x1.size inb_S1x8x16_S1x1x1_0_5_10).toLoadRect (harg2.unread x0) (Shape.Idx.first (numel1_S1x1x1.symm ▸ Nat.one_pos)))) (k0_hw92 : k0_chk92 i (arg2.view.readAt (Elt F) (Rect.unit (s := S1x8x16) ![0, 5, 11] S1x1x1.size inb_S1x8x16_S1x1x1_0_5_11).toLoadRect (harg2.unread x0) (Shape.Idx.first (numel1_S1x1x1.symm ▸ Nat.one_pos)))) (k0_hw93 : k0_chk93 i (arg2.view.readAt (Elt F) (Rect.unit (s := S1x8x16) ![0, 5, 12] S1x1x1.size inb_S1x8x16_S1x1x1_0_5_12).toLoadRect (harg2.unread x0) (Shape.Idx.first (numel1_S1x1x1.symm ▸ Nat.one_pos)))) (k0_hw94 : k0_chk94 i (arg2.view.readAt (Elt F) (Rect.unit (s := S1x8x16) ![0, 5, 13] S1x1x1.size inb_S1x8x16_S1x1x1_0_5_13).toLoadRect (harg2.unread x0) (Shape.Idx.first (numel1_S1x1x1.symm ▸ Nat.one_pos)))) (k0_hw95 : k0_chk95 i (arg2.view.readAt (Elt F) (Rect.unit (s := S1x8x16) ![0, 5, 14] S1x1x1.size inb_S1x8x16_S1x1x1_0_5_14).toLoadRect (harg2.unread x0) (Shape.Idx.first (numel1_S1x1x1.symm ▸ Nat.one_pos)))) (k0_hw96 : k0_chk96 i (arg2.view.readAt (Elt F) (Rect.unit (s := S1x8x16) ![0, 5, 15] S1x1x1.size inb_S1x8x16_S1x1x1_0_5_15).toLoadRect (harg2.unread x0) (Shape.Idx.first (numel1_S1x1x1.symm ▸ Nat.one_pos)))) (k0_hw97 : k0_chk97 i (arg2.view.readAt (Elt F) (Rect.unit (s := S1x8x16) ![0, 6, 0] S1x1x1.size inb_S1x8x16_S1x1x1_0_6_0).toLoadRect (harg2.unread x0) (Shape.Idx.first (numel1_S1x1x1.symm ▸ Nat.one_pos)))) (k0_hw98 : k0_chk98 i (arg2.view.readAt (Elt F) (Rect.unit (s := S1x8x16) ![0, 6, 1] S1x1x1.size inb_S1x8x16_S1x1x1_0_6_1).toLoadRect (harg2.unread x0) (Shape.Idx.first (numel1_S1x1x1.symm ▸ Nat.one_pos)))) (k0_hw99 : k0_chk99 i (arg2.view.readAt (Elt F) (Rect.unit (s := S1x8x16) ![0, 6, 2] S1x1x1.size inb_S1x8x16_S1x1x1_0_6_2).toLoadRect (harg2.unread x0) (Shape.Idx.first (numel1_S1x1x1.symm ▸ Nat.one_pos)))) (k0_hw100 : k0_chk100 i (arg2.view.readAt (Elt F) (Rect.unit (s := S1x8x16) ![0, 6, 3] S1x1x1.size inb_S1x8x16_S1x1x1_0_6_3).toLoadRect (harg2.unread x0) (Shape.Idx.first (numel1_S1x1x1.symm ▸ Nat.one_pos)))) (k0_hw101 : k0_chk101 i (arg2.view.readAt (Elt F) (Rect.unit (s := S1x8x16) ![0, 6, 4] S1x1x1.size inb_S1x8x16_S1x1x1_0_6_4).toLoadRect (harg2.unread x0) (Shape.Idx.first (numel1_S1x1x1.symm ▸ Nat.one_pos)))) (k0_hw102 : k0_chk102 i (arg2.view.readAt (Elt F) (Rect.unit (s := S1x8x16) ![0, 6, 5] S1x1x1.size inb_S1x8x16_S1x1x1_0_6_5).toLoadRect (harg2.unread x0) (Shape.Idx.first (numel1_S1x1x1.symm ▸ Nat.one_pos)))) (k0_hw103 : k0_chk103 i (arg2.view.readAt (Elt F) (Rect.unit (s := S1x8x16) ![0, 6, 6] S1x1x1.size inb_S1x8x16_S1x1x1_0_6_6).toLoadRect (harg2.unread x0) (Shape.Idx.first (numel1_S1x1x1.symm ▸ Nat.one_pos)))) (k0_hw104 : k0_chk104 i (arg2.view.readAt (Elt F) (Rect.unit (s := S1x8x16) ![0, 6, 7] S1x1x1.size inb_S1x8x16_S1x1x1_0_6_7).toLoadRect (harg2.unread x0) (Shape.Idx.first (numel1_S1x1x1.symm ▸ Nat.one_pos)))) (k0_hw105 : k0_chk105 i (arg2.view.readAt (Elt F) (Rect.unit (s := S1x8x16) ![0, 6, 8] S1x1x1.size inb_S1x8x16_S1x1x1_0_6_8).toLoadRect (harg2.unread x0) (Shape.Idx.first (numel1_S1x1x1.symm ▸ Nat.one_pos)))) (k0_hw106 : k0_chk106 i (arg2.view.readAt (Elt F) (Rect.unit (s := S1x8x16) ![0, 6, 9] S1x1x1.size inb_S1x8x16_S1x1x1_0_6_9).toLoadRect (harg2.unread x0) (Shape.Idx.first (numel1_S1x1x1.symm ▸ Nat.one_pos)))) (k0_hw107 : k0_chk107 i (arg2.view.readAt (Elt F) (Rect.unit (s := S1x8x16) ![0, 6, 10] S1x1x1.size inb_S1x8x16_S1x1x1_0_6_10).toLoadRect (harg2.unread x0) (Shape.Idx.first (numel1_S1x1x1.symm ▸ Nat.one_pos)))) (k0_hw108 : k0_chk108 i (arg2.view.readAt (Elt F) (Rect.unit (s := S1x8x16) ![0, 6, 11] S1x1x1.size inb_S1x8x16_S1x1x1_0_6_11).toLoadRect (harg2.unread x0) (Shape.Idx.first (numel1_S1x1x1.symm ▸ Nat.one_pos)))) (k0_hw109 : k0_chk109 i (arg2.view.readAt (Elt F) (Rect.unit (s := S1x8x16) ![0, 6, 12] S1x1x1.size inb_S1x8x16_S1x1x1_0_6_12).toLoadRect (harg2.unread x0) (Shape.Idx.first (numel1_S1x1x1.symm ▸ Nat.one_pos)))) (k0_hw110 : k0_chk110 i (arg2.view.readAt (Elt F) (Rect.unit (s := S1x8x16) ![0, 6, 13] S1x1x1.size inb_S1x8x16_S1x1x1_0_6_13).toLoadRect (harg2.unread x0) (Shape.Idx.first (numel1_S1x1x1.symm ▸ Nat.one_pos)))) (k0_hw111 : k0_chk111 i (arg2.view.readAt (Elt F) (Rect.unit (s := S1x8x16) ![0, 6, 14] S1x1x1.size inb_S1x8x16_S1x1x1_0_6_14).toLoadRect (harg2.unread x0) (Shape.Idx.first (numel1_S1x1x1.symm ▸ Nat.one_pos)))) (k0_hw112 : k0_chk112 i (arg2.view.readAt (Elt F) (Rect.unit (s := S1x8x16) ![0, 6, 15] S1x1x1.size inb_S1x8x16_S1x1x1_0_6_15).toLoadRect (harg2.unread x0) (Shape.Idx.first (numel1_S1x1x1.symm ▸ Nat.one_pos)))) (k0_hw113 : k0_chk113 i (arg2.view.readAt (Elt F) (Rect.unit (s := S1x8x16) ![0, 7, 0] S1x1x1.size inb_S1x8x16_S1x1x1_0_7_0).toLoadRect (harg2.unread x0) (Shape.Idx.first (numel1_S1x1x1.symm ▸ Nat.one_pos)))) (k0_hw114 : k0_chk114 i (arg2.view.readAt (Elt F) (Rect.unit (s := S1x8x16) ![0, 7, 1] S1x1x1.size inb_S1x8x16_S1x1x1_0_7_1).toLoadRect (harg2.unread x0) (Shape.Idx.first (numel1_S1x1x1.symm ▸ Nat.one_pos)))) (k0_hw115 : k0_chk115 i (arg2.view.readAt (Elt F) (Rect.unit (s := S1x8x16) ![0, 7, 2] S1x1x1.size inb_S1x8x16_S1x1x1_0_7_2).toLoadRect (harg2.unread x0) (Shape.Idx.first (numel1_S1x1x1.symm ▸ Nat.one_pos)))) (k0_hw116 : k0_chk116 i (arg2.view.readAt (Elt F) (Rect.unit (s := S1x8x16) ![0, 7, 3] S1x1x1.size inb_S1x8x16_S1x1x1_0_7_3).toLoadRect (harg2.unread x0) (Shape.Idx.first (numel1_S1x1x1.symm ▸ Nat.one_pos)))) (k0_hw117 : k0_chk117 i (arg2.view.readAt (Elt F) (Rect.unit (s := S1x8x16) ![0, 7, 4] S1x1x1.size inb_S1x8x16_S1x1x1_0_7_4).toLoadRect (harg2.unread x0) (Shape.Idx.first (numel1_S1x1x1.symm ▸ Nat.one_pos)))) (k0_hw118 : k0_chk118 i (arg2.view.readAt (Elt F) (Rect.unit (s := S1x8x16) ![0, 7, 5] S1x1x1.size inb_S1x8x16_S1x1x1_0_7_5).toLoadRect (harg2.unread x0) (Shape.Idx.first (numel1_S1x1x1.symm ▸ Nat.one_pos)))) (k0_hw119 : k0_chk119 i (arg2.view.readAt (Elt F) (Rect.unit (s := S1x8x16) ![0, 7, 6] S1x1x1.size inb_S1x8x16_S1x1x1_0_7_6).toLoadRect (harg2.unread x0) (Shape.Idx.first (numel1_S1x1x1.symm ▸ Nat.one_pos)))) (k0_hw120 : k0_chk120 i (arg2.view.readAt (Elt F) (Rect.unit (s := S1x8x16) ![0, 7, 7] S1x1x1.size inb_S1x8x16_S1x1x1_0_7_7).toLoadRect (harg2.unread x0) (Shape.Idx.first (numel1_S1x1x1.symm ▸ Nat.one_pos)))) (k0_hw121 : k0_chk121 i (arg2.view.readAt (Elt F) (Rect.unit (s := S1x8x16) ![0, 7, 8] S1x1x1.size inb_S1x8x16_S1x1x1_0_7_8).toLoadRect (harg2.unread x0) (Shape.Idx.first (numel1_S1x1x1.symm ▸ Nat.one_pos)))) (k0_hw122 : k0_chk122 i (arg2.view.readAt (Elt F) (Rect.unit (s := S1x8x16) ![0, 7, 9] S1x1x1.size inb_S1x8x16_S1x1x1_0_7_9).toLoadRect (harg2.unread x0) (Shape.Idx.first (numel1_S1x1x1.symm ▸ Nat.one_pos)))) (k0_hw123 : k0_chk123 i (arg2.view.readAt (Elt F) (Rect.unit (s := S1x8x16) ![0, 7, 10] S1x1x1.size inb_S1x8x16_S1x1x1_0_7_10).toLoadRect (harg2.unread x0) (Shape.Idx.first (numel1_S1x1x1.symm ▸ Nat.one_pos)))) (k0_hw124 : k0_chk124 i (arg2.view.readAt (Elt F) (Rect.unit (s := S1x8x16) ![0, 7, 11] S1x1x1.size inb_S1x8x16_S1x1x1_0_7_11).toLoadRect (harg2.unread x0) (Shape.Idx.first (numel1_S1x1x1.symm ▸ Nat.one_pos)))) (k0_hw125 : k0_chk125 i (arg2.view.readAt (Elt F) (Rect.unit (s := S1x8x16) ![0, 7, 12] S1x1x1.size inb_S1x8x16_S1x1x1_0_7_12).toLoadRect (harg2.unread x0) (Shape.Idx.first (numel1_S1x1x1.symm ▸ Nat.one_pos)))) (k0_hw126 : k0_chk126 i (arg2.view.readAt (Elt F) (Rect.unit (s := S1x8x16) ![0, 7, 13] S1x1x1.size inb_S1x8x16_S1x1x1_0_7_13).toLoadRect (harg2.unread x0) (Shape.Idx.first (numel1_S1x1x1.symm ▸ Nat.one_pos)))) (k0_hw127 : k0_chk127 i (arg2.view.readAt (Elt F) (Rect.unit (s := S1x8x16) ![0, 7, 14] S1x1x1.size inb_S1x8x16_S1x1x1_0_7_14).toLoadRect (harg2.unread x0) (Shape.Idx.first (numel1_S1x1x1.symm ▸ Nat.one_pos)))) (k0_hw128 : k0_chk128 i (arg2.view.readAt (Elt F) (Rect.unit (s := S1x8x16) ![0, 7, 15] S1x1x1.size inb_S1x8x16_S1x1x1_0_7_15).toLoadRect (harg2.unread x0) (Shape.Idx.first (numel1_S1x1x1.symm ▸ Nat.one_pos))))
    (fs1 : BufTy.Contents (Elt F) arg6.view.ty) :
    kernelRunRaw0_A.sl.v2820 c i arg2 harg2 arg5 arg6 x0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64 k0_hw65 k0_hw66 k0_hw67 k0_hw68 k0_hw69 k0_hw70 k0_hw71 k0_hw72 k0_hw73 k0_hw74 k0_hw75 k0_hw76 k0_hw77 k0_hw78 k0_hw79 k0_hw80 k0_hw81 k0_hw82 k0_hw83 k0_hw84 k0_hw85 k0_hw86 k0_hw87 k0_hw88 k0_hw89 k0_hw90 k0_hw91 k0_hw92 k0_hw93 k0_hw94 k0_hw95 k0_hw96 k0_hw97 k0_hw98 k0_hw99 k0_hw100 k0_hw101 k0_hw102 k0_hw103 k0_hw104 k0_hw105 k0_hw106 k0_hw107 k0_hw108 k0_hw109 k0_hw110 k0_hw111 k0_hw112 k0_hw113 k0_hw114 k0_hw115 k0_hw116 k0_hw117 k0_hw118 k0_hw119 k0_hw120 k0_hw121 k0_hw122 k0_hw123 k0_hw124 k0_hw125 k0_hw126 k0_hw127 k0_hw128 fs1 = accAfter (startVal (F := F)) (landedRow c i x0 fh0) 128 := by
  refine (View.readCov_eq_canon' _ _ _).trans ?_
  funext j
  have hj : (Rect.unit (s := S8x128) ![0, 0] ![8, 128] inb_S8x128_S8x128_0_0).idx j = j := by
    funext a
    apply Fin.ext
    match a with
    | ⟨0, _⟩ => show 0 + 1 * (j 0).val = (j 0).val; omega
    | ⟨1, _⟩ => show 0 + 1 * (j 1).val = (j 1).val; omega
  refine (congrArg (View.canon _) hj).trans (congrFun ?_ j)
  iterate 128 peel_step
  -- the first store: the start value through the whole buffer
  refine (View.canon_unit_zero (S := S8x128) hz2 _ _).trans ?_
  funext y
  show shapeCast S8x128 (broadcast S8x128 (startVal (F := F))) shapeCasts_S8x128_S8x128 y = startVal
  rw [shapeCast_self]
  rfl

/-- The output block a point leaves: the accumulator after all 128 steps, as a [1, 8, 128] block. -/
def outBlock (c : Dev nD) (i : grid0.Coords) (x0 : Vec F S1x8x16 .i32) (fh0 : HbBuf0 (F := F) c hbM0_0) : S1x8x128.Idx → F .f32 :=
  fun y => accAfter (startVal (F := F)) (landedRow c i x0 fh0) 128 (ix2 (y 1) (y 2))

/-- The last store's payload — the accumulator as loaded, given a unit axis — is `outBlock`. -/
theorem out_eq (c : Dev nD) (i : grid0.Coords) (arg2 : Memref sig .tc .smem S1x8x16 .i32) (harg2 : arg2.IsWhole) (arg5 : Memref sig .tc .vmem S8x128 .f32) (arg6 : Memref sig .tc .vmem S2x1x128 .f32)
    (x0 : Vec F S1x8x16 .i32) (fh0 : HbBuf0 (F := F) c hbM0_0) (k0_hw1 : k0_chk1 i (arg2.view.readAt (Elt F) (Rect.unit (s := S1x8x16) ![0, 0, 0] S1x1x1.size inb_S1x8x16_S1x1x1_0_0_0).toLoadRect (harg2.unread x0) (Shape.Idx.first (numel1_S1x1x1.symm ▸ Nat.one_pos)))) (k0_hw2 : k0_chk2 i (arg2.view.readAt (Elt F) (Rect.unit (s := S1x8x16) ![0, 0, 1] S1x1x1.size inb_S1x8x16_S1x1x1_0_0_1).toLoadRect (harg2.unread x0) (Shape.Idx.first (numel1_S1x1x1.symm ▸ Nat.one_pos)))) (k0_hw3 : k0_chk3 i (arg2.view.readAt (Elt F) (Rect.unit (s := S1x8x16) ![0, 0, 2] S1x1x1.size inb_S1x8x16_S1x1x1_0_0_2).toLoadRect (harg2.unread x0) (Shape.Idx.first (numel1_S1x1x1.symm ▸ Nat.one_pos)))) (k0_hw4 : k0_chk4 i (arg2.view.readAt (Elt F) (Rect.unit (s := S1x8x16) ![0, 0, 3] S1x1x1.size inb_S1x8x16_S1x1x1_0_0_3).toLoadRect (harg2.unread x0) (Shape.Idx.first (numel1_S1x1x1.symm ▸ Nat.one_pos)))) (k0_hw5 : k0_chk5 i (arg2.view.readAt (Elt F) (Rect.unit (s := S1x8x16) ![0, 0, 4] S1x1x1.size inb_S1x8x16_S1x1x1_0_0_4).toLoadRect (harg2.unread x0) (Shape.Idx.first (numel1_S1x1x1.symm ▸ Nat.one_pos)))) (k0_hw6 : k0_chk6 i (arg2.view.readAt (Elt F) (Rect.unit (s := S1x8x16) ![0, 0, 5] S1x1x1.size inb_S1x8x16_S1x1x1_0_0_5).toLoadRect (harg2.unread x0) (Shape.Idx.first (numel1_S1x1x1.symm ▸ Nat.one_pos)))) (k0_hw7 : k0_chk7 i (arg2.view.readAt (Elt F) (Rect.unit (s := S1x8x16) ![0, 0, 6] S1x1x1.size inb_S1x8x16_S1x1x1_0_0_6).toLoadRect (harg2.unread x0) (Shape.Idx.first (numel1_S1x1x1.symm ▸ Nat.one_pos)))) (k0_hw8 : k0_chk8 i (arg2.view.readAt (Elt F) (Rect.unit (s := S1x8x16) ![0, 0, 7] S1x1x1.size inb_S1x8x16_S1x1x1_0_0_7).toLoadRect (harg2.unread x0) (Shape.Idx.first (numel1_S1x1x1.symm ▸ Nat.one_pos)))) (k0_hw9 : k0_chk9 i (arg2.view.readAt (Elt F) (Rect.unit (s := S1x8x16) ![0, 0, 8] S1x1x1.size inb_S1x8x16_S1x1x1_0_0_8).toLoadRect (harg2.unread x0) (Shape.Idx.first (numel1_S1x1x1.symm ▸ Nat.one_pos)))) (k0_hw10 : k0_chk10 i (arg2.view.readAt (Elt F) (Rect.unit (s := S1x8x16) ![0, 0, 9] S1x1x1.size inb_S1x8x16_S1x1x1_0_0_9).toLoadRect (harg2.unread x0) (Shape.Idx.first (numel1_S1x1x1.symm ▸ Nat.one_pos)))) (k0_hw11 : k0_chk11 i (arg2.view.readAt (Elt F) (Rect.unit (s := S1x8x16) ![0, 0, 10] S1x1x1.size inb_S1x8x16_S1x1x1_0_0_10).toLoadRect (harg2.unread x0) (Shape.Idx.first (numel1_S1x1x1.symm ▸ Nat.one_pos)))) (k0_hw12 : k0_chk12 i (arg2.view.readAt (Elt F) (Rect.unit (s := S1x8x16) ![0, 0, 11] S1x1x1.size inb_S1x8x16_S1x1x1_0_0_11).toLoadRect (harg2.unread x0) (Shape.Idx.first (numel1_S1x1x1.symm ▸ Nat.one_pos)))) (k0_hw13 : k0_chk13 i (arg2.view.readAt (Elt F) (Rect.unit (s := S1x8x16) ![0, 0, 12] S1x1x1.size inb_S1x8x16_S1x1x1_0_0_12).toLoadRect (harg2.unread x0) (Shape.Idx.first (numel1_S1x1x1.symm ▸ Nat.one_pos)))) (k0_hw14 : k0_chk14 i (arg2.view.readAt (Elt F) (Rect.unit (s := S1x8x16) ![0, 0, 13] S1x1x1.size inb_S1x8x16_S1x1x1_0_0_13).toLoadRect (harg2.unread x0) (Shape.Idx.first (numel1_S1x1x1.symm ▸ Nat.one_pos)))) (k0_hw15 : k0_chk15 i (arg2.view.readAt (Elt F) (Rect.unit (s := S1x8x16) ![0, 0, 14] S1x1x1.size inb_S1x8x16_S1x1x1_0_0_14).toLoadRect (harg2.unread x0) (Shape.Idx.first (numel1_S1x1x1.symm ▸ Nat.one_pos)))) (k0_hw16 : k0_chk16 i (arg2.view.readAt (Elt F) (Rect.unit (s := S1x8x16) ![0, 0, 15] S1x1x1.size inb_S1x8x16_S1x1x1_0_0_15).toLoadRect (harg2.unread x0) (Shape.Idx.first (numel1_S1x1x1.symm ▸ Nat.one_pos)))) (k0_hw17 : k0_chk17 i (arg2.view.readAt (Elt F) (Rect.unit (s := S1x8x16) ![0, 1, 0] S1x1x1.size inb_S1x8x16_S1x1x1_0_1_0).toLoadRect (harg2.unread x0) (Shape.Idx.first (numel1_S1x1x1.symm ▸ Nat.one_pos)))) (k0_hw18 : k0_chk18 i (arg2.view.readAt (Elt F) (Rect.unit (s := S1x8x16) ![0, 1, 1] S1x1x1.size inb_S1x8x16_S1x1x1_0_1_1).toLoadRect (harg2.unread x0) (Shape.Idx.first (numel1_S1x1x1.symm ▸ Nat.one_pos)))) (k0_hw19 : k0_chk19 i (arg2.view.readAt (Elt F) (Rect.unit (s := S1x8x16) ![0, 1, 2] S1x1x1.size inb_S1x8x16_S1x1x1_0_1_2).toLoadRect (harg2.unread x0) (Shape.Idx.first (numel1_S1x1x1.symm ▸ Nat.one_pos)))) (k0_hw20 : k0_chk20 i (arg2.view.readAt (Elt F) (Rect.unit (s := S1x8x16) ![0, 1, 3] S1x1x1.size inb_S1x8x16_S1x1x1_0_1_3).toLoadRect (harg2.unread x0) (Shape.Idx.first (numel1_S1x1x1.symm ▸ Nat.one_pos)))) (k0_hw21 : k0_chk21 i (arg2.view.readAt (Elt F) (Rect.unit (s := S1x8x16) ![0, 1, 4] S1x1x1.size inb_S1x8x16_S1x1x1_0_1_4).toLoadRect (harg2.unread x0) (Shape.Idx.first (numel1_S1x1x1.symm ▸ Nat.one_pos)))) (k0_hw22 : k0_chk22 i (arg2.view.readAt (Elt F) (Rect.unit (s := S1x8x16) ![0, 1, 5] S1x1x1.size inb_S1x8x16_S1x1x1_0_1_5).toLoadRect (harg2.unread x0) (Shape.Idx.first (numel1_S1x1x1.symm ▸ Nat.one_pos)))) (k0_hw23 : k0_chk23 i (arg2.view.readAt (Elt F) (Rect.unit (s := S1x8x16) ![0, 1, 6] S1x1x1.size inb_S1x8x16_S1x1x1_0_1_6).toLoadRect (harg2.unread x0) (Shape.Idx.first (numel1_S1x1x1.symm ▸ Nat.one_pos)))) (k0_hw24 : k0_chk24 i (arg2.view.readAt (Elt F) (Rect.unit (s := S1x8x16) ![0, 1, 7] S1x1x1.size inb_S1x8x16_S1x1x1_0_1_7).toLoadRect (harg2.unread x0) (Shape.Idx.first (numel1_S1x1x1.symm ▸ Nat.one_pos)))) (k0_hw25 : k0_chk25 i (arg2.view.readAt (Elt F) (Rect.unit (s := S1x8x16) ![0, 1, 8] S1x1x1.size inb_S1x8x16_S1x1x1_0_1_8).toLoadRect (harg2.unread x0) (Shape.Idx.first (numel1_S1x1x1.symm ▸ Nat.one_pos)))) (k0_hw26 : k0_chk26 i (arg2.view.readAt (Elt F) (Rect.unit (s := S1x8x16) ![0, 1, 9] S1x1x1.size inb_S1x8x16_S1x1x1_0_1_9).toLoadRect (harg2.unread x0) (Shape.Idx.first (numel1_S1x1x1.symm ▸ Nat.one_pos)))) (k0_hw27 : k0_chk27 i (arg2.view.readAt (Elt F) (Rect.unit (s := S1x8x16) ![0, 1, 10] S1x1x1.size inb_S1x8x16_S1x1x1_0_1_10).toLoadRect (harg2.unread x0) (Shape.Idx.first (numel1_S1x1x1.symm ▸ Nat.one_pos)))) (k0_hw28 : k0_chk28 i (arg2.view.readAt (Elt F) (Rect.unit (s := S1x8x16) ![0, 1, 11] S1x1x1.size inb_S1x8x16_S1x1x1_0_1_11).toLoadRect (harg2.unread x0) (Shape.Idx.first (numel1_S1x1x1.symm ▸ Nat.one_pos)))) (k0_hw29 : k0_chk29 i (arg2.view.readAt (Elt F) (Rect.unit (s := S1x8x16) ![0, 1, 12] S1x1x1.size inb_S1x8x16_S1x1x1_0_1_12).toLoadRect (harg2.unread x0) (Shape.Idx.first (numel1_S1x1x1.symm ▸ Nat.one_pos)))) (k0_hw30 : k0_chk30 i (arg2.view.readAt (Elt F) (Rect.unit (s := S1x8x16) ![0, 1, 13] S1x1x1.size inb_S1x8x16_S1x1x1_0_1_13).toLoadRect (harg2.unread x0) (Shape.Idx.first (numel1_S1x1x1.symm ▸ Nat.one_pos)))) (k0_hw31 : k0_chk31 i (arg2.view.readAt (Elt F) (Rect.unit (s := S1x8x16) ![0, 1, 14] S1x1x1.size inb_S1x8x16_S1x1x1_0_1_14).toLoadRect (harg2.unread x0) (Shape.Idx.first (numel1_S1x1x1.symm ▸ Nat.one_pos)))) (k0_hw32 : k0_chk32 i (arg2.view.readAt (Elt F) (Rect.unit (s := S1x8x16) ![0, 1, 15] S1x1x1.size inb_S1x8x16_S1x1x1_0_1_15).toLoadRect (harg2.unread x0) (Shape.Idx.first (numel1_S1x1x1.symm ▸ Nat.one_pos)))) (k0_hw33 : k0_chk33 i (arg2.view.readAt (Elt F) (Rect.unit (s := S1x8x16) ![0, 2, 0] S1x1x1.size inb_S1x8x16_S1x1x1_0_2_0).toLoadRect (harg2.unread x0) (Shape.Idx.first (numel1_S1x1x1.symm ▸ Nat.one_pos)))) (k0_hw34 : k0_chk34 i (arg2.view.readAt (Elt F) (Rect.unit (s := S1x8x16) ![0, 2, 1] S1x1x1.size inb_S1x8x16_S1x1x1_0_2_1).toLoadRect (harg2.unread x0) (Shape.Idx.first (numel1_S1x1x1.symm ▸ Nat.one_pos)))) (k0_hw35 : k0_chk35 i (arg2.view.readAt (Elt F) (Rect.unit (s := S1x8x16) ![0, 2, 2] S1x1x1.size inb_S1x8x16_S1x1x1_0_2_2).toLoadRect (harg2.unread x0) (Shape.Idx.first (numel1_S1x1x1.symm ▸ Nat.one_pos)))) (k0_hw36 : k0_chk36 i (arg2.view.readAt (Elt F) (Rect.unit (s := S1x8x16) ![0, 2, 3] S1x1x1.size inb_S1x8x16_S1x1x1_0_2_3).toLoadRect (harg2.unread x0) (Shape.Idx.first (numel1_S1x1x1.symm ▸ Nat.one_pos)))) (k0_hw37 : k0_chk37 i (arg2.view.readAt (Elt F) (Rect.unit (s := S1x8x16) ![0, 2, 4] S1x1x1.size inb_S1x8x16_S1x1x1_0_2_4).toLoadRect (harg2.unread x0) (Shape.Idx.first (numel1_S1x1x1.symm ▸ Nat.one_pos)))) (k0_hw38 : k0_chk38 i (arg2.view.readAt (Elt F) (Rect.unit (s := S1x8x16) ![0, 2, 5] S1x1x1.size inb_S1x8x16_S1x1x1_0_2_5).toLoadRect (harg2.unread x0) (Shape.Idx.first (numel1_S1x1x1.symm ▸ Nat.one_pos)))) (k0_hw39 : k0_chk39 i (arg2.view.readAt (Elt F) (Rect.unit (s := S1x8x16) ![0, 2, 6] S1x1x1.size inb_S1x8x16_S1x1x1_0_2_6).toLoadRect (harg2.unread x0) (Shape.Idx.first (numel1_S1x1x1.symm ▸ Nat.one_pos)))) (k0_hw40 : k0_chk40 i (arg2.view.readAt (Elt F) (Rect.unit (s := S1x8x16) ![0, 2, 7] S1x1x1.size inb_S1x8x16_S1x1x1_0_2_7).toLoadRect (harg2.unread x0) (Shape.Idx.first (numel1_S1x1x1.symm ▸ Nat.one_pos)))) (k0_hw41 : k0_chk41 i (arg2.view.readAt (Elt F) (Rect.unit (s := S1x8x16) ![0, 2, 8] S1x1x1.size inb_S1x8x16_S1x1x1_0_2_8).toLoadRect (harg2.unread x0) (Shape.Idx.first (numel1_S1x1x1.symm ▸ Nat.one_pos)))) (k0_hw42 : k0_chk42 i (arg2.view.readAt (Elt F) (Rect.unit (s := S1x8x16) ![0, 2, 9] S1x1x1.size inb_S1x8x16_S1x1x1_0_2_9).toLoadRect (harg2.unread x0) (Shape.Idx.first (numel1_S1x1x1.symm ▸ Nat.one_pos)))) (k0_hw43 : k0_chk43 i (arg2.view.readAt (Elt F) (Rect.unit (s := S1x8x16) ![0, 2, 10] S1x1x1.size inb_S1x8x16_S1x1x1_0_2_10).toLoadRect (harg2.unread x0) (Shape.Idx.first (numel1_S1x1x1.symm ▸ Nat.one_pos)))) (k0_hw44 : k0_chk44 i (arg2.view.readAt (Elt F) (Rect.unit (s := S1x8x16) ![0, 2, 11] S1x1x1.size inb_S1x8x16_S1x1x1_0_2_11).toLoadRect (harg2.unread x0) (Shape.Idx.first (numel1_S1x1x1.symm ▸ Nat.one_pos)))) (k0_hw45 : k0_chk45 i (arg2.view.readAt (Elt F) (Rect.unit (s := S1x8x16) ![0, 2, 12] S1x1x1.size inb_S1x8x16_S1x1x1_0_2_12).toLoadRect (harg2.unread x0) (Shape.Idx.first (numel1_S1x1x1.symm ▸ Nat.one_pos)))) (k0_hw46 : k0_chk46 i (arg2.view.readAt (Elt F) (Rect.unit (s := S1x8x16) ![0, 2, 13] S1x1x1.size inb_S1x8x16_S1x1x1_0_2_13).toLoadRect (harg2.unread x0) (Shape.Idx.first (numel1_S1x1x1.symm ▸ Nat.one_pos)))) (k0_hw47 : k0_chk47 i (arg2.view.readAt (Elt F) (Rect.unit (s := S1x8x16) ![0, 2, 14] S1x1x1.size inb_S1x8x16_S1x1x1_0_2_14).toLoadRect (harg2.unread x0) (Shape.Idx.first (numel1_S1x1x1.symm ▸ Nat.one_pos)))) (k0_hw48 : k0_chk48 i (arg2.view.readAt (Elt F) (Rect.unit (s := S1x8x16) ![0, 2, 15] S1x1x1.size inb_S1x8x16_S1x1x1_0_2_15).toLoadRect (harg2.unread x0) (Shape.Idx.first (numel1_S1x1x1.symm ▸ Nat.one_pos)))) (k0_hw49 : k0_chk49 i (arg2.view.readAt (Elt F) (Rect.unit (s := S1x8x16) ![0, 3, 0] S1x1x1.size inb_S1x8x16_S1x1x1_0_3_0).toLoadRect (harg2.unread x0) (Shape.Idx.first (numel1_S1x1x1.symm ▸ Nat.one_pos)))) (k0_hw50 : k0_chk50 i (arg2.view.readAt (Elt F) (Rect.unit (s := S1x8x16) ![0, 3, 1] S1x1x1.size inb_S1x8x16_S1x1x1_0_3_1).toLoadRect (harg2.unread x0) (Shape.Idx.first (numel1_S1x1x1.symm ▸ Nat.one_pos)))) (k0_hw51 : k0_chk51 i (arg2.view.readAt (Elt F) (Rect.unit (s := S1x8x16) ![0, 3, 2] S1x1x1.size inb_S1x8x16_S1x1x1_0_3_2).toLoadRect (harg2.unread x0) (Shape.Idx.first (numel1_S1x1x1.symm ▸ Nat.one_pos)))) (k0_hw52 : k0_chk52 i (arg2.view.readAt (Elt F) (Rect.unit (s := S1x8x16) ![0, 3, 3] S1x1x1.size inb_S1x8x16_S1x1x1_0_3_3).toLoadRect (harg2.unread x0) (Shape.Idx.first (numel1_S1x1x1.symm ▸ Nat.one_pos)))) (k0_hw53 : k0_chk53 i (arg2.view.readAt (Elt F) (Rect.unit (s := S1x8x16) ![0, 3, 4] S1x1x1.size inb_S1x8x16_S1x1x1_0_3_4).toLoadRect (harg2.unread x0) (Shape.Idx.first (numel1_S1x1x1.symm ▸ Nat.one_pos)))) (k0_hw54 : k0_chk54 i (arg2.view.readAt (Elt F) (Rect.unit (s := S1x8x16) ![0, 3, 5] S1x1x1.size inb_S1x8x16_S1x1x1_0_3_5).toLoadRect (harg2.unread x0) (Shape.Idx.first (numel1_S1x1x1.symm ▸ Nat.one_pos)))) (k0_hw55 : k0_chk55 i (arg2.view.readAt (Elt F) (Rect.unit (s := S1x8x16) ![0, 3, 6] S1x1x1.size inb_S1x8x16_S1x1x1_0_3_6).toLoadRect (harg2.unread x0) (Shape.Idx.first (numel1_S1x1x1.symm ▸ Nat.one_pos)))) (k0_hw56 : k0_chk56 i (arg2.view.readAt (Elt F) (Rect.unit (s := S1x8x16) ![0, 3, 7] S1x1x1.size inb_S1x8x16_S1x1x1_0_3_7).toLoadRect (harg2.unread x0) (Shape.Idx.first (numel1_S1x1x1.symm ▸ Nat.one_pos)))) (k0_hw57 : k0_chk57 i (arg2.view.readAt (Elt F) (Rect.unit (s := S1x8x16) ![0, 3, 8] S1x1x1.size inb_S1x8x16_S1x1x1_0_3_8).toLoadRect (harg2.unread x0) (Shape.Idx.first (numel1_S1x1x1.symm ▸ Nat.one_pos)))) (k0_hw58 : k0_chk58 i (arg2.view.readAt (Elt F) (Rect.unit (s := S1x8x16) ![0, 3, 9] S1x1x1.size inb_S1x8x16_S1x1x1_0_3_9).toLoadRect (harg2.unread x0) (Shape.Idx.first (numel1_S1x1x1.symm ▸ Nat.one_pos)))) (k0_hw59 : k0_chk59 i (arg2.view.readAt (Elt F) (Rect.unit (s := S1x8x16) ![0, 3, 10] S1x1x1.size inb_S1x8x16_S1x1x1_0_3_10).toLoadRect (harg2.unread x0) (Shape.Idx.first (numel1_S1x1x1.symm ▸ Nat.one_pos)))) (k0_hw60 : k0_chk60 i (arg2.view.readAt (Elt F) (Rect.unit (s := S1x8x16) ![0, 3, 11] S1x1x1.size inb_S1x8x16_S1x1x1_0_3_11).toLoadRect (harg2.unread x0) (Shape.Idx.first (numel1_S1x1x1.symm ▸ Nat.one_pos)))) (k0_hw61 : k0_chk61 i (arg2.view.readAt (Elt F) (Rect.unit (s := S1x8x16) ![0, 3, 12] S1x1x1.size inb_S1x8x16_S1x1x1_0_3_12).toLoadRect (harg2.unread x0) (Shape.Idx.first (numel1_S1x1x1.symm ▸ Nat.one_pos)))) (k0_hw62 : k0_chk62 i (arg2.view.readAt (Elt F) (Rect.unit (s := S1x8x16) ![0, 3, 13] S1x1x1.size inb_S1x8x16_S1x1x1_0_3_13).toLoadRect (harg2.unread x0) (Shape.Idx.first (numel1_S1x1x1.symm ▸ Nat.one_pos)))) (k0_hw63 : k0_chk63 i (arg2.view.readAt (Elt F) (Rect.unit (s := S1x8x16) ![0, 3, 14] S1x1x1.size inb_S1x8x16_S1x1x1_0_3_14).toLoadRect (harg2.unread x0) (Shape.Idx.first (numel1_S1x1x1.symm ▸ Nat.one_pos)))) (k0_hw64 : k0_chk64 i (arg2.view.readAt (Elt F) (Rect.unit (s := S1x8x16) ![0, 3, 15] S1x1x1.size inb_S1x8x16_S1x1x1_0_3_15).toLoadRect (harg2.unread x0) (Shape.Idx.first (numel1_S1x1x1.symm ▸ Nat.one_pos)))) (k0_hw65 : k0_chk65 i (arg2.view.readAt (Elt F) (Rect.unit (s := S1x8x16) ![0, 4, 0] S1x1x1.size inb_S1x8x16_S1x1x1_0_4_0).toLoadRect (harg2.unread x0) (Shape.Idx.first (numel1_S1x1x1.symm ▸ Nat.one_pos)))) (k0_hw66 : k0_chk66 i (arg2.view.readAt (Elt F) (Rect.unit (s := S1x8x16) ![0, 4, 1] S1x1x1.size inb_S1x8x16_S1x1x1_0_4_1).toLoadRect (harg2.unread x0) (Shape.Idx.first (numel1_S1x1x1.symm ▸ Nat.one_pos)))) (k0_hw67 : k0_chk67 i (arg2.view.readAt (Elt F) (Rect.unit (s := S1x8x16) ![0, 4, 2] S1x1x1.size inb_S1x8x16_S1x1x1_0_4_2).toLoadRect (harg2.unread x0) (Shape.Idx.first (numel1_S1x1x1.symm ▸ Nat.one_pos)))) (k0_hw68 : k0_chk68 i (arg2.view.readAt (Elt F) (Rect.unit (s := S1x8x16) ![0, 4, 3] S1x1x1.size inb_S1x8x16_S1x1x1_0_4_3).toLoadRect (harg2.unread x0) (Shape.Idx.first (numel1_S1x1x1.symm ▸ Nat.one_pos)))) (k0_hw69 : k0_chk69 i (arg2.view.readAt (Elt F) (Rect.unit (s := S1x8x16) ![0, 4, 4] S1x1x1.size inb_S1x8x16_S1x1x1_0_4_4).toLoadRect (harg2.unread x0) (Shape.Idx.first (numel1_S1x1x1.symm ▸ Nat.one_pos)))) (k0_hw70 : k0_chk70 i (arg2.view.readAt (Elt F) (Rect.unit (s := S1x8x16) ![0, 4, 5] S1x1x1.size inb_S1x8x16_S1x1x1_0_4_5).toLoadRect (harg2.unread x0) (Shape.Idx.first (numel1_S1x1x1.symm ▸ Nat.one_pos)))) (k0_hw71 : k0_chk71 i (arg2.view.readAt (Elt F) (Rect.unit (s := S1x8x16) ![0, 4, 6] S1x1x1.size inb_S1x8x16_S1x1x1_0_4_6).toLoadRect (harg2.unread x0) (Shape.Idx.first (numel1_S1x1x1.symm ▸ Nat.one_pos)))) (k0_hw72 : k0_chk72 i (arg2.view.readAt (Elt F) (Rect.unit (s := S1x8x16) ![0, 4, 7] S1x1x1.size inb_S1x8x16_S1x1x1_0_4_7).toLoadRect (harg2.unread x0) (Shape.Idx.first (numel1_S1x1x1.symm ▸ Nat.one_pos)))) (k0_hw73 : k0_chk73 i (arg2.view.readAt (Elt F) (Rect.unit (s := S1x8x16) ![0, 4, 8] S1x1x1.size inb_S1x8x16_S1x1x1_0_4_8).toLoadRect (harg2.unread x0) (Shape.Idx.first (numel1_S1x1x1.symm ▸ Nat.one_pos)))) (k0_hw74 : k0_chk74 i (arg2.view.readAt (Elt F) (Rect.unit (s := S1x8x16) ![0, 4, 9] S1x1x1.size inb_S1x8x16_S1x1x1_0_4_9).toLoadRect (harg2.unread x0) (Shape.Idx.first (numel1_S1x1x1.symm ▸ Nat.one_pos)))) (k0_hw75 : k0_chk75 i (arg2.view.readAt (Elt F) (Rect.unit (s := S1x8x16) ![0, 4, 10] S1x1x1.size inb_S1x8x16_S1x1x1_0_4_10).toLoadRect (harg2.unread x0) (Shape.Idx.first (numel1_S1x1x1.symm ▸ Nat.one_pos)))) (k0_hw76 : k0_chk76 i (arg2.view.readAt (Elt F) (Rect.unit (s := S1x8x16) ![0, 4, 11] S1x1x1.size inb_S1x8x16_S1x1x1_0_4_11).toLoadRect (harg2.unread x0) (Shape.Idx.first (numel1_S1x1x1.symm ▸ Nat.one_pos)))) (k0_hw77 : k0_chk77 i (arg2.view.readAt (Elt F) (Rect.unit (s := S1x8x16) ![0, 4, 12] S1x1x1.size inb_S1x8x16_S1x1x1_0_4_12).toLoadRect (harg2.unread x0) (Shape.Idx.first (numel1_S1x1x1.symm ▸ Nat.one_pos)))) (k0_hw78 : k0_chk78 i (arg2.view.readAt (Elt F) (Rect.unit (s := S1x8x16) ![0, 4, 13] S1x1x1.size inb_S1x8x16_S1x1x1_0_4_13).toLoadRect (harg2.unread x0) (Shape.Idx.first (numel1_S1x1x1.symm ▸ Nat.one_pos)))) (k0_hw79 : k0_chk79 i (arg2.view.readAt (Elt F) (Rect.unit (s := S1x8x16) ![0, 4, 14] S1x1x1.size inb_S1x8x16_S1x1x1_0_4_14).toLoadRect (harg2.unread x0) (Shape.Idx.first (numel1_S1x1x1.symm ▸ Nat.one_pos)))) (k0_hw80 : k0_chk80 i (arg2.view.readAt (Elt F) (Rect.unit (s := S1x8x16) ![0, 4, 15] S1x1x1.size inb_S1x8x16_S1x1x1_0_4_15).toLoadRect (harg2.unread x0) (Shape.Idx.first (numel1_S1x1x1.symm ▸ Nat.one_pos)))) (k0_hw81 : k0_chk81 i (arg2.view.readAt (Elt F) (Rect.unit (s := S1x8x16) ![0, 5, 0] S1x1x1.size inb_S1x8x16_S1x1x1_0_5_0).toLoadRect (harg2.unread x0) (Shape.Idx.first (numel1_S1x1x1.symm ▸ Nat.one_pos)))) (k0_hw82 : k0_chk82 i (arg2.view.readAt (Elt F) (Rect.unit (s := S1x8x16) ![0, 5, 1] S1x1x1.size inb_S1x8x16_S1x1x1_0_5_1).toLoadRect (harg2.unread x0) (Shape.Idx.first (numel1_S1x1x1.symm ▸ Nat.one_pos)))) (k0_hw83 : k0_chk83 i (arg2.view.readAt (Elt F) (Rect.unit (s := S1x8x16) ![0, 5, 2] S1x1x1.size inb_S1x8x16_S1x1x1_0_5_2).toLoadRect (harg2.unread x0) (Shape.Idx.first (numel1_S1x1x1.symm ▸ Nat.one_pos)))) (k0_hw84 : k0_chk84 i (arg2.view.readAt (Elt F) (Rect.unit (s := S1x8x16) ![0, 5, 3] S1x1x1.size inb_S1x8x16_S1x1x1_0_5_3).toLoadRect (harg2.unread x0) (Shape.Idx.first (numel1_S1x1x1.symm ▸ Nat.one_pos)))) (k0_hw85 : k0_chk85 i (arg2.view.readAt (Elt F) (Rect.unit (s := S1x8x16) ![0, 5, 4] S1x1x1.size inb_S1x8x16_S1x1x1_0_5_4).toLoadRect (harg2.unread x0) (Shape.Idx.first (numel1_S1x1x1.symm ▸ Nat.one_pos)))) (k0_hw86 : k0_chk86 i (arg2.view.readAt (Elt F) (Rect.unit (s := S1x8x16) ![0, 5, 5] S1x1x1.size inb_S1x8x16_S1x1x1_0_5_5).toLoadRect (harg2.unread x0) (Shape.Idx.first (numel1_S1x1x1.symm ▸ Nat.one_pos)))) (k0_hw87 : k0_chk87 i (arg2.view.readAt (Elt F) (Rect.unit (s := S1x8x16) ![0, 5, 6] S1x1x1.size inb_S1x8x16_S1x1x1_0_5_6).toLoadRect (harg2.unread x0) (Shape.Idx.first (numel1_S1x1x1.symm ▸ Nat.one_pos)))) (k0_hw88 : k0_chk88 i (arg2.view.readAt (Elt F) (Rect.unit (s := S1x8x16) ![0, 5, 7] S1x1x1.size inb_S1x8x16_S1x1x1_0_5_7).toLoadRect (harg2.unread x0) (Shape.Idx.first (numel1_S1x1x1.symm ▸ Nat.one_pos)))) (k0_hw89 : k0_chk89 i (arg2.view.readAt (Elt F) (Rect.unit (s := S1x8x16) ![0, 5, 8] S1x1x1.size inb_S1x8x16_S1x1x1_0_5_8).toLoadRect (harg2.unread x0) (Shape.Idx.first (numel1_S1x1x1.symm ▸ Nat.one_pos)))) (k0_hw90 : k0_chk90 i (arg2.view.readAt (Elt F) (Rect.unit (s := S1x8x16) ![0, 5, 9] S1x1x1.size inb_S1x8x16_S1x1x1_0_5_9).toLoadRect (harg2.unread x0) (Shape.Idx.first (numel1_S1x1x1.symm ▸ Nat.one_pos)))) (k0_hw91 : k0_chk91 i (arg2.view.readAt (Elt F) (Rect.unit (s := S1x8x16) ![0, 5, 10] S1x1x1.size inb_S1x8x16_S1x1x1_0_5_10).toLoadRect (harg2.unread x0) (Shape.Idx.first (numel1_S1x1x1.symm ▸ Nat.one_pos)))) (k0_hw92 : k0_chk92 i (arg2.view.readAt (Elt F) (Rect.unit (s := S1x8x16) ![0, 5, 11] S1x1x1.size inb_S1x8x16_S1x1x1_0_5_11).toLoadRect (harg2.unread x0) (Shape.Idx.first (numel1_S1x1x1.symm ▸ Nat.one_pos)))) (k0_hw93 : k0_chk93 i (arg2.view.readAt (Elt F) (Rect.unit (s := S1x8x16) ![0, 5, 12] S1x1x1.size inb_S1x8x16_S1x1x1_0_5_12).toLoadRect (harg2.unread x0) (Shape.Idx.first (numel1_S1x1x1.symm ▸ Nat.one_pos)))) (k0_hw94 : k0_chk94 i (arg2.view.readAt (Elt F) (Rect.unit (s := S1x8x16) ![0, 5, 13] S1x1x1.size inb_S1x8x16_S1x1x1_0_5_13).toLoadRect (harg2.unread x0) (Shape.Idx.first (numel1_S1x1x1.symm ▸ Nat.one_pos)))) (k0_hw95 : k0_chk95 i (arg2.view.readAt (Elt F) (Rect.unit (s := S1x8x16) ![0, 5, 14] S1x1x1.size inb_S1x8x16_S1x1x1_0_5_14).toLoadRect (harg2.unread x0) (Shape.Idx.first (numel1_S1x1x1.symm ▸ Nat.one_pos)))) (k0_hw96 : k0_chk96 i (arg2.view.readAt (Elt F) (Rect.unit (s := S1x8x16) ![0, 5, 15] S1x1x1.size inb_S1x8x16_S1x1x1_0_5_15).toLoadRect (harg2.unread x0) (Shape.Idx.first (numel1_S1x1x1.symm ▸ Nat.one_pos)))) (k0_hw97 : k0_chk97 i (arg2.view.readAt (Elt F) (Rect.unit (s := S1x8x16) ![0, 6, 0] S1x1x1.size inb_S1x8x16_S1x1x1_0_6_0).toLoadRect (harg2.unread x0) (Shape.Idx.first (numel1_S1x1x1.symm ▸ Nat.one_pos)))) (k0_hw98 : k0_chk98 i (arg2.view.readAt (Elt F) (Rect.unit (s := S1x8x16) ![0, 6, 1] S1x1x1.size inb_S1x8x16_S1x1x1_0_6_1).toLoadRect (harg2.unread x0) (Shape.Idx.first (numel1_S1x1x1.symm ▸ Nat.one_pos)))) (k0_hw99 : k0_chk99 i (arg2.view.readAt (Elt F) (Rect.unit (s := S1x8x16) ![0, 6, 2] S1x1x1.size inb_S1x8x16_S1x1x1_0_6_2).toLoadRect (harg2.unread x0) (Shape.Idx.first (numel1_S1x1x1.symm ▸ Nat.one_pos)))) (k0_hw100 : k0_chk100 i (arg2.view.readAt (Elt F) (Rect.unit (s := S1x8x16) ![0, 6, 3] S1x1x1.size inb_S1x8x16_S1x1x1_0_6_3).toLoadRect (harg2.unread x0) (Shape.Idx.first (numel1_S1x1x1.symm ▸ Nat.one_pos)))) (k0_hw101 : k0_chk101 i (arg2.view.readAt (Elt F) (Rect.unit (s := S1x8x16) ![0, 6, 4] S1x1x1.size inb_S1x8x16_S1x1x1_0_6_4).toLoadRect (harg2.unread x0) (Shape.Idx.first (numel1_S1x1x1.symm ▸ Nat.one_pos)))) (k0_hw102 : k0_chk102 i (arg2.view.readAt (Elt F) (Rect.unit (s := S1x8x16) ![0, 6, 5] S1x1x1.size inb_S1x8x16_S1x1x1_0_6_5).toLoadRect (harg2.unread x0) (Shape.Idx.first (numel1_S1x1x1.symm ▸ Nat.one_pos)))) (k0_hw103 : k0_chk103 i (arg2.view.readAt (Elt F) (Rect.unit (s := S1x8x16) ![0, 6, 6] S1x1x1.size inb_S1x8x16_S1x1x1_0_6_6).toLoadRect (harg2.unread x0) (Shape.Idx.first (numel1_S1x1x1.symm ▸ Nat.one_pos)))) (k0_hw104 : k0_chk104 i (arg2.view.readAt (Elt F) (Rect.unit (s := S1x8x16) ![0, 6, 7] S1x1x1.size inb_S1x8x16_S1x1x1_0_6_7).toLoadRect (harg2.unread x0) (Shape.Idx.first (numel1_S1x1x1.symm ▸ Nat.one_pos)))) (k0_hw105 : k0_chk105 i (arg2.view.readAt (Elt F) (Rect.unit (s := S1x8x16) ![0, 6, 8] S1x1x1.size inb_S1x8x16_S1x1x1_0_6_8).toLoadRect (harg2.unread x0) (Shape.Idx.first (numel1_S1x1x1.symm ▸ Nat.one_pos)))) (k0_hw106 : k0_chk106 i (arg2.view.readAt (Elt F) (Rect.unit (s := S1x8x16) ![0, 6, 9] S1x1x1.size inb_S1x8x16_S1x1x1_0_6_9).toLoadRect (harg2.unread x0) (Shape.Idx.first (numel1_S1x1x1.symm ▸ Nat.one_pos)))) (k0_hw107 : k0_chk107 i (arg2.view.readAt (Elt F) (Rect.unit (s := S1x8x16) ![0, 6, 10] S1x1x1.size inb_S1x8x16_S1x1x1_0_6_10).toLoadRect (harg2.unread x0) (Shape.Idx.first (numel1_S1x1x1.symm ▸ Nat.one_pos)))) (k0_hw108 : k0_chk108 i (arg2.view.readAt (Elt F) (Rect.unit (s := S1x8x16) ![0, 6, 11] S1x1x1.size inb_S1x8x16_S1x1x1_0_6_11).toLoadRect (harg2.unread x0) (Shape.Idx.first (numel1_S1x1x1.symm ▸ Nat.one_pos)))) (k0_hw109 : k0_chk109 i (arg2.view.readAt (Elt F) (Rect.unit (s := S1x8x16) ![0, 6, 12] S1x1x1.size inb_S1x8x16_S1x1x1_0_6_12).toLoadRect (harg2.unread x0) (Shape.Idx.first (numel1_S1x1x1.symm ▸ Nat.one_pos)))) (k0_hw110 : k0_chk110 i (arg2.view.readAt (Elt F) (Rect.unit (s := S1x8x16) ![0, 6, 13] S1x1x1.size inb_S1x8x16_S1x1x1_0_6_13).toLoadRect (harg2.unread x0) (Shape.Idx.first (numel1_S1x1x1.symm ▸ Nat.one_pos)))) (k0_hw111 : k0_chk111 i (arg2.view.readAt (Elt F) (Rect.unit (s := S1x8x16) ![0, 6, 14] S1x1x1.size inb_S1x8x16_S1x1x1_0_6_14).toLoadRect (harg2.unread x0) (Shape.Idx.first (numel1_S1x1x1.symm ▸ Nat.one_pos)))) (k0_hw112 : k0_chk112 i (arg2.view.readAt (Elt F) (Rect.unit (s := S1x8x16) ![0, 6, 15] S1x1x1.size inb_S1x8x16_S1x1x1_0_6_15).toLoadRect (harg2.unread x0) (Shape.Idx.first (numel1_S1x1x1.symm ▸ Nat.one_pos)))) (k0_hw113 : k0_chk113 i (arg2.view.readAt (Elt F) (Rect.unit (s := S1x8x16) ![0, 7, 0] S1x1x1.size inb_S1x8x16_S1x1x1_0_7_0).toLoadRect (harg2.unread x0) (Shape.Idx.first (numel1_S1x1x1.symm ▸ Nat.one_pos)))) (k0_hw114 : k0_chk114 i (arg2.view.readAt (Elt F) (Rect.unit (s := S1x8x16) ![0, 7, 1] S1x1x1.size inb_S1x8x16_S1x1x1_0_7_1).toLoadRect (harg2.unread x0) (Shape.Idx.first (numel1_S1x1x1.symm ▸ Nat.one_pos)))) (k0_hw115 : k0_chk115 i (arg2.view.readAt (Elt F) (Rect.unit (s := S1x8x16) ![0, 7, 2] S1x1x1.size inb_S1x8x16_S1x1x1_0_7_2).toLoadRect (harg2.unread x0) (Shape.Idx.first (numel1_S1x1x1.symm ▸ Nat.one_pos)))) (k0_hw116 : k0_chk116 i (arg2.view.readAt (Elt F) (Rect.unit (s := S1x8x16) ![0, 7, 3] S1x1x1.size inb_S1x8x16_S1x1x1_0_7_3).toLoadRect (harg2.unread x0) (Shape.Idx.first (numel1_S1x1x1.symm ▸ Nat.one_pos)))) (k0_hw117 : k0_chk117 i (arg2.view.readAt (Elt F) (Rect.unit (s := S1x8x16) ![0, 7, 4] S1x1x1.size inb_S1x8x16_S1x1x1_0_7_4).toLoadRect (harg2.unread x0) (Shape.Idx.first (numel1_S1x1x1.symm ▸ Nat.one_pos)))) (k0_hw118 : k0_chk118 i (arg2.view.readAt (Elt F) (Rect.unit (s := S1x8x16) ![0, 7, 5] S1x1x1.size inb_S1x8x16_S1x1x1_0_7_5).toLoadRect (harg2.unread x0) (Shape.Idx.first (numel1_S1x1x1.symm ▸ Nat.one_pos)))) (k0_hw119 : k0_chk119 i (arg2.view.readAt (Elt F) (Rect.unit (s := S1x8x16) ![0, 7, 6] S1x1x1.size inb_S1x8x16_S1x1x1_0_7_6).toLoadRect (harg2.unread x0) (Shape.Idx.first (numel1_S1x1x1.symm ▸ Nat.one_pos)))) (k0_hw120 : k0_chk120 i (arg2.view.readAt (Elt F) (Rect.unit (s := S1x8x16) ![0, 7, 7] S1x1x1.size inb_S1x8x16_S1x1x1_0_7_7).toLoadRect (harg2.unread x0) (Shape.Idx.first (numel1_S1x1x1.symm ▸ Nat.one_pos)))) (k0_hw121 : k0_chk121 i (arg2.view.readAt (Elt F) (Rect.unit (s := S1x8x16) ![0, 7, 8] S1x1x1.size inb_S1x8x16_S1x1x1_0_7_8).toLoadRect (harg2.unread x0) (Shape.Idx.first (numel1_S1x1x1.symm ▸ Nat.one_pos)))) (k0_hw122 : k0_chk122 i (arg2.view.readAt (Elt F) (Rect.unit (s := S1x8x16) ![0, 7, 9] S1x1x1.size inb_S1x8x16_S1x1x1_0_7_9).toLoadRect (harg2.unread x0) (Shape.Idx.first (numel1_S1x1x1.symm ▸ Nat.one_pos)))) (k0_hw123 : k0_chk123 i (arg2.view.readAt (Elt F) (Rect.unit (s := S1x8x16) ![0, 7, 10] S1x1x1.size inb_S1x8x16_S1x1x1_0_7_10).toLoadRect (harg2.unread x0) (Shape.Idx.first (numel1_S1x1x1.symm ▸ Nat.one_pos)))) (k0_hw124 : k0_chk124 i (arg2.view.readAt (Elt F) (Rect.unit (s := S1x8x16) ![0, 7, 11] S1x1x1.size inb_S1x8x16_S1x1x1_0_7_11).toLoadRect (harg2.unread x0) (Shape.Idx.first (numel1_S1x1x1.symm ▸ Nat.one_pos)))) (k0_hw125 : k0_chk125 i (arg2.view.readAt (Elt F) (Rect.unit (s := S1x8x16) ![0, 7, 12] S1x1x1.size inb_S1x8x16_S1x1x1_0_7_12).toLoadRect (harg2.unread x0) (Shape.Idx.first (numel1_S1x1x1.symm ▸ Nat.one_pos)))) (k0_hw126 : k0_chk126 i (arg2.view.readAt (Elt F) (Rect.unit (s := S1x8x16) ![0, 7, 13] S1x1x1.size inb_S1x8x16_S1x1x1_0_7_13).toLoadRect (harg2.unread x0) (Shape.Idx.first (numel1_S1x1x1.symm ▸ Nat.one_pos)))) (k0_hw127 : k0_chk127 i (arg2.view.readAt (Elt F) (Rect.unit (s := S1x8x16) ![0, 7, 14] S1x1x1.size inb_S1x8x16_S1x1x1_0_7_14).toLoadRect (harg2.unread x0) (Shape.Idx.first (numel1_S1x1x1.symm ▸ Nat.one_pos)))) (k0_hw128 : k0_chk128 i (arg2.view.readAt (Elt F) (Rect.unit (s := S1x8x16) ![0, 7, 15] S1x1x1.size inb_S1x8x16_S1x1x1_0_7_15).toLoadRect (harg2.unread x0) (Shape.Idx.first (numel1_S1x1x1.symm ▸ Nat.one_pos))))
    (fs1 : BufTy.Contents (Elt F) arg6.view.ty) :
    k0_pay2 (kernelRunRaw0_A.sl.v2820 c i arg2 harg2 arg5 arg6 x0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64 k0_hw65 k0_hw66 k0_hw67 k0_hw68 k0_hw69 k0_hw70 k0_hw71 k0_hw72 k0_hw73 k0_hw74 k0_hw75 k0_hw76 k0_hw77 k0_hw78 k0_hw79 k0_hw80 k0_hw81 k0_hw82 k0_hw83 k0_hw84 k0_hw85 k0_hw86 k0_hw87 k0_hw88 k0_hw89 k0_hw90 k0_hw91 k0_hw92 k0_hw93 k0_hw94 k0_hw95 k0_hw96 k0_hw97 k0_hw98 k0_hw99 k0_hw100 k0_hw101 k0_hw102 k0_hw103 k0_hw104 k0_hw105 k0_hw106 k0_hw107 k0_hw108 k0_hw109 k0_hw110 k0_hw111 k0_hw112 k0_hw113 k0_hw114 k0_hw115 k0_hw116 k0_hw117 k0_hw118 k0_hw119 k0_hw120 k0_hw121 k0_hw122 k0_hw123 k0_hw124 k0_hw125 k0_hw126 k0_hw127 k0_hw128 fs1) = outBlock c i x0 fh0 := by
  rw [acc_final]
  funext y
  obtain ⟨z, r, d, rfl⟩ : ∃ (z : Fin 1) (r : Fin 8) (d : Fin 128), y = ix3 z r d := ⟨y 0, y 1, y 2, eq_ix3 y⟩
  obtain rfl : z = 0 := Subsingleton.elim _ _
  unfold k0_pay2
  refine (shapeCast_apply _ _ (ix3 (0 : Fin 1) r d) (ix2 r d) ?_).trans rfl
  rw [Shape.rowMajor_val_two, Shape.rowMajor_val_three]
  show r.val * 128 + d.val = (0 * 8 + r.val) * 128 + d.val
  omega

end Cert.Kernel.Gen

end
-- ==== Proof.KernelRunK.lean ====
/-
  The body's triple with a list of pieces that does not mention what the buffers held before.

  The run (RunRawK) proves the body's triple for any initial contents of the output's staging buffer and of the
  two scratch buffers, with a list of pieces spelled over the landing buffer's contents; BodyValueK shows that the
  one piece's payload is `outBlock`, a function of the point's neighbour block and of the feature array alone.  So the
  triple holds with that closed list, whatever the three buffers hold — which is the form the frame takes it in.
-/
import proofs.«412756_j23708219474789_1_alg».proof.Proof.BodyValueK

set_option maxRecDepth 100000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Kernel.BodyFacts Cert.Pool.Peel

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 40000000 in
/-- The list of pieces the run finds is the one whole-block piece with payload `outBlock`. -/
theorem raw_val (c : Dev nD) (i : grid0.Coords) (arg2 : Memref sig .tc .smem S1x8x16 .i32) (harg2 : arg2.IsWhole) (arg4 : Memref sig .tc .vmem S1x8x128 .f32) (harg4 : arg4.IsWhole) (arg5 : Memref sig .tc .vmem S8x128 .f32) (harg5 : arg5.IsWhole) (arg6 : Memref sig .tc .vmem S2x1x128 .f32) (harg6 : arg6.IsWhole)
    (x0 : Vec F S1x8x16 .i32) (fh0 : HbBuf0 (F := F) c hbM0_0) (k0_hw1 : k0_chk1 i (arg2.view.readAt (Elt F) (Rect.unit (s := S1x8x16) ![0, 0, 0] S1x1x1.size inb_S1x8x16_S1x1x1_0_0_0).toLoadRect (harg2.unread x0) (Shape.Idx.first (numel1_S1x1x1.symm ▸ Nat.one_pos)))) (k0_hw2 : k0_chk2 i (arg2.view.readAt (Elt F) (Rect.unit (s := S1x8x16) ![0, 0, 1] S1x1x1.size inb_S1x8x16_S1x1x1_0_0_1).toLoadRect (harg2.unread x0) (Shape.Idx.first (numel1_S1x1x1.symm ▸ Nat.one_pos)))) (k0_hw3 : k0_chk3 i (arg2.view.readAt (Elt F) (Rect.unit (s := S1x8x16) ![0, 0, 2] S1x1x1.size inb_S1x8x16_S1x1x1_0_0_2).toLoadRect (harg2.unread x0) (Shape.Idx.first (numel1_S1x1x1.symm ▸ Nat.one_pos)))) (k0_hw4 : k0_chk4 i (arg2.view.readAt (Elt F) (Rect.unit (s := S1x8x16) ![0, 0, 3] S1x1x1.size inb_S1x8x16_S1x1x1_0_0_3).toLoadRect (harg2.unread x0) (Shape.Idx.first (numel1_S1x1x1.symm ▸ Nat.one_pos)))) (k0_hw5 : k0_chk5 i (arg2.view.readAt (Elt F) (Rect.unit (s := S1x8x16) ![0, 0, 4] S1x1x1.size inb_S1x8x16_S1x1x1_0_0_4).toLoadRect (harg2.unread x0) (Shape.Idx.first (numel1_S1x1x1.symm ▸ Nat.one_pos)))) (k0_hw6 : k0_chk6 i (arg2.view.readAt (Elt F) (Rect.unit (s := S1x8x16) ![0, 0, 5] S1x1x1.size inb_S1x8x16_S1x1x1_0_0_5).toLoadRect (harg2.unread x0) (Shape.Idx.first (numel1_S1x1x1.symm ▸ Nat.one_pos)))) (k0_hw7 : k0_chk7 i (arg2.view.readAt (Elt F) (Rect.unit (s := S1x8x16) ![0, 0, 6] S1x1x1.size inb_S1x8x16_S1x1x1_0_0_6).toLoadRect (harg2.unread x0) (Shape.Idx.first (numel1_S1x1x1.symm ▸ Nat.one_pos)))) (k0_hw8 : k0_chk8 i (arg2.view.readAt (Elt F) (Rect.unit (s := S1x8x16) ![0, 0, 7] S1x1x1.size inb_S1x8x16_S1x1x1_0_0_7).toLoadRect (harg2.unread x0) (Shape.Idx.first (numel1_S1x1x1.symm ▸ Nat.one_pos)))) (k0_hw9 : k0_chk9 i (arg2.view.readAt (Elt F) (Rect.unit (s := S1x8x16) ![0, 0, 8] S1x1x1.size inb_S1x8x16_S1x1x1_0_0_8).toLoadRect (harg2.unread x0) (Shape.Idx.first (numel1_S1x1x1.symm ▸ Nat.one_pos)))) (k0_hw10 : k0_chk10 i (arg2.view.readAt (Elt F) (Rect.unit (s := S1x8x16) ![0, 0, 9] S1x1x1.size inb_S1x8x16_S1x1x1_0_0_9).toLoadRect (harg2.unread x0) (Shape.Idx.first (numel1_S1x1x1.symm ▸ Nat.one_pos)))) (k0_hw11 : k0_chk11 i (arg2.view.readAt (Elt F) (Rect.unit (s := S1x8x16) ![0, 0, 10] S1x1x1.size inb_S1x8x16_S1x1x1_0_0_10).toLoadRect (harg2.unread x0) (Shape.Idx.first (numel1_S1x1x1.symm ▸ Nat.one_pos)))) (k0_hw12 : k0_chk12 i (arg2.view.readAt (Elt F) (Rect.unit (s := S1x8x16) ![0, 0, 11] S1x1x1.size inb_S1x8x16_S1x1x1_0_0_11).toLoadRect (harg2.unread x0) (Shape.Idx.first (numel1_S1x1x1.symm ▸ Nat.one_pos)))) (k0_hw13 : k0_chk13 i (arg2.view.readAt (Elt F) (Rect.unit (s := S1x8x16) ![0, 0, 12] S1x1x1.size inb_S1x8x16_S1x1x1_0_0_12).toLoadRect (harg2.unread x0) (Shape.Idx.first (numel1_S1x1x1.symm ▸ Nat.one_pos)))) (k0_hw14 : k0_chk14 i (arg2.view.readAt (Elt F) (Rect.unit (s := S1x8x16) ![0, 0, 13] S1x1x1.size inb_S1x8x16_S1x1x1_0_0_13).toLoadRect (harg2.unread x0) (Shape.Idx.first (numel1_S1x1x1.symm ▸ Nat.one_pos)))) (k0_hw15 : k0_chk15 i (arg2.view.readAt (Elt F) (Rect.unit (s := S1x8x16) ![0, 0, 14] S1x1x1.size inb_S1x8x16_S1x1x1_0_0_14).toLoadRect (harg2.unread x0) (Shape.Idx.first (numel1_S1x1x1.symm ▸ Nat.one_pos)))) (k0_hw16 : k0_chk16 i (arg2.view.readAt (Elt F) (Rect.unit (s := S1x8x16) ![0, 0, 15] S1x1x1.size inb_S1x8x16_S1x1x1_0_0_15).toLoadRect (harg2.unread x0) (Shape.Idx.first (numel1_S1x1x1.symm ▸ Nat.one_pos)))) (k0_hw17 : k0_chk17 i (arg2.view.readAt (Elt F) (Rect.unit (s := S1x8x16) ![0, 1, 0] S1x1x1.size inb_S1x8x16_S1x1x1_0_1_0).toLoadRect (harg2.unread x0) (Shape.Idx.first (numel1_S1x1x1.symm ▸ Nat.one_pos)))) (k0_hw18 : k0_chk18 i (arg2.view.readAt (Elt F) (Rect.unit (s := S1x8x16) ![0, 1, 1] S1x1x1.size inb_S1x8x16_S1x1x1_0_1_1).toLoadRect (harg2.unread x0) (Shape.Idx.first (numel1_S1x1x1.symm ▸ Nat.one_pos)))) (k0_hw19 : k0_chk19 i (arg2.view.readAt (Elt F) (Rect.unit (s := S1x8x16) ![0, 1, 2] S1x1x1.size inb_S1x8x16_S1x1x1_0_1_2).toLoadRect (harg2.unread x0) (Shape.Idx.first (numel1_S1x1x1.symm ▸ Nat.one_pos)))) (k0_hw20 : k0_chk20 i (arg2.view.readAt (Elt F) (Rect.unit (s := S1x8x16) ![0, 1, 3] S1x1x1.size inb_S1x8x16_S1x1x1_0_1_3).toLoadRect (harg2.unread x0) (Shape.Idx.first (numel1_S1x1x1.symm ▸ Nat.one_pos)))) (k0_hw21 : k0_chk21 i (arg2.view.readAt (Elt F) (Rect.unit (s := S1x8x16) ![0, 1, 4] S1x1x1.size inb_S1x8x16_S1x1x1_0_1_4).toLoadRect (harg2.unread x0) (Shape.Idx.first (numel1_S1x1x1.symm ▸ Nat.one_pos)))) (k0_hw22 : k0_chk22 i (arg2.view.readAt (Elt F) (Rect.unit (s := S1x8x16) ![0, 1, 5] S1x1x1.size inb_S1x8x16_S1x1x1_0_1_5).toLoadRect (harg2.unread x0) (Shape.Idx.first (numel1_S1x1x1.symm ▸ Nat.one_pos)))) (k0_hw23 : k0_chk23 i (arg2.view.readAt (Elt F) (Rect.unit (s := S1x8x16) ![0, 1, 6] S1x1x1.size inb_S1x8x16_S1x1x1_0_1_6).toLoadRect (harg2.unread x0) (Shape.Idx.first (numel1_S1x1x1.symm ▸ Nat.one_pos)))) (k0_hw24 : k0_chk24 i (arg2.view.readAt (Elt F) (Rect.unit (s := S1x8x16) ![0, 1, 7] S1x1x1.size inb_S1x8x16_S1x1x1_0_1_7).toLoadRect (harg2.unread x0) (Shape.Idx.first (numel1_S1x1x1.symm ▸ Nat.one_pos)))) (k0_hw25 : k0_chk25 i (arg2.view.readAt (Elt F) (Rect.unit (s := S1x8x16) ![0, 1, 8] S1x1x1.size inb_S1x8x16_S1x1x1_0_1_8).toLoadRect (harg2.unread x0) (Shape.Idx.first (numel1_S1x1x1.symm ▸ Nat.one_pos)))) (k0_hw26 : k0_chk26 i (arg2.view.readAt (Elt F) (Rect.unit (s := S1x8x16) ![0, 1, 9] S1x1x1.size inb_S1x8x16_S1x1x1_0_1_9).toLoadRect (harg2.unread x0) (Shape.Idx.first (numel1_S1x1x1.symm ▸ Nat.one_pos)))) (k0_hw27 : k0_chk27 i (arg2.view.readAt (Elt F) (Rect.unit (s := S1x8x16) ![0, 1, 10] S1x1x1.size inb_S1x8x16_S1x1x1_0_1_10).toLoadRect (harg2.unread x0) (Shape.Idx.first (numel1_S1x1x1.symm ▸ Nat.one_pos)))) (k0_hw28 : k0_chk28 i (arg2.view.readAt (Elt F) (Rect.unit (s := S1x8x16) ![0, 1, 11] S1x1x1.size inb_S1x8x16_S1x1x1_0_1_11).toLoadRect (harg2.unread x0) (Shape.Idx.first (numel1_S1x1x1.symm ▸ Nat.one_pos)))) (k0_hw29 : k0_chk29 i (arg2.view.readAt (Elt F) (Rect.unit (s := S1x8x16) ![0, 1, 12] S1x1x1.size inb_S1x8x16_S1x1x1_0_1_12).toLoadRect (harg2.unread x0) (Shape.Idx.first (numel1_S1x1x1.symm ▸ Nat.one_pos)))) (k0_hw30 : k0_chk30 i (arg2.view.readAt (Elt F) (Rect.unit (s := S1x8x16) ![0, 1, 13] S1x1x1.size inb_S1x8x16_S1x1x1_0_1_13).toLoadRect (harg2.unread x0) (Shape.Idx.first (numel1_S1x1x1.symm ▸ Nat.one_pos)))) (k0_hw31 : k0_chk31 i (arg2.view.readAt (Elt F) (Rect.unit (s := S1x8x16) ![0, 1, 14] S1x1x1.size inb_S1x8x16_S1x1x1_0_1_14).toLoadRect (harg2.unread x0) (Shape.Idx.first (numel1_S1x1x1.symm ▸ Nat.one_pos)))) (k0_hw32 : k0_chk32 i (arg2.view.readAt (Elt F) (Rect.unit (s := S1x8x16) ![0, 1, 15] S1x1x1.size inb_S1x8x16_S1x1x1_0_1_15).toLoadRect (harg2.unread x0) (Shape.Idx.first (numel1_S1x1x1.symm ▸ Nat.one_pos)))) (k0_hw33 : k0_chk33 i (arg2.view.readAt (Elt F) (Rect.unit (s := S1x8x16) ![0, 2, 0] S1x1x1.size inb_S1x8x16_S1x1x1_0_2_0).toLoadRect (harg2.unread x0) (Shape.Idx.first (numel1_S1x1x1.symm ▸ Nat.one_pos)))) (k0_hw34 : k0_chk34 i (arg2.view.readAt (Elt F) (Rect.unit (s := S1x8x16) ![0, 2, 1] S1x1x1.size inb_S1x8x16_S1x1x1_0_2_1).toLoadRect (harg2.unread x0) (Shape.Idx.first (numel1_S1x1x1.symm ▸ Nat.one_pos)))) (k0_hw35 : k0_chk35 i (arg2.view.readAt (Elt F) (Rect.unit (s := S1x8x16) ![0, 2, 2] S1x1x1.size inb_S1x8x16_S1x1x1_0_2_2).toLoadRect (harg2.unread x0) (Shape.Idx.first (numel1_S1x1x1.symm ▸ Nat.one_pos)))) (k0_hw36 : k0_chk36 i (arg2.view.readAt (Elt F) (Rect.unit (s := S1x8x16) ![0, 2, 3] S1x1x1.size inb_S1x8x16_S1x1x1_0_2_3).toLoadRect (harg2.unread x0) (Shape.Idx.first (numel1_S1x1x1.symm ▸ Nat.one_pos)))) (k0_hw37 : k0_chk37 i (arg2.view.readAt (Elt F) (Rect.unit (s := S1x8x16) ![0, 2, 4] S1x1x1.size inb_S1x8x16_S1x1x1_0_2_4).toLoadRect (harg2.unread x0) (Shape.Idx.first (numel1_S1x1x1.symm ▸ Nat.one_pos)))) (k0_hw38 : k0_chk38 i (arg2.view.readAt (Elt F) (Rect.unit (s := S1x8x16) ![0, 2, 5] S1x1x1.size inb_S1x8x16_S1x1x1_0_2_5).toLoadRect (harg2.unread x0) (Shape.Idx.first (numel1_S1x1x1.symm ▸ Nat.one_pos)))) (k0_hw39 : k0_chk39 i (arg2.view.readAt (Elt F) (Rect.unit (s := S1x8x16) ![0, 2, 6] S1x1x1.size inb_S1x8x16_S1x1x1_0_2_6).toLoadRect (harg2.unread x0) (Shape.Idx.first (numel1_S1x1x1.symm ▸ Nat.one_pos)))) (k0_hw40 : k0_chk40 i (arg2.view.readAt (Elt F) (Rect.unit (s := S1x8x16) ![0, 2, 7] S1x1x1.size inb_S1x8x16_S1x1x1_0_2_7).toLoadRect (harg2.unread x0) (Shape.Idx.first (numel1_S1x1x1.symm ▸ Nat.one_pos)))) (k0_hw41 : k0_chk41 i (arg2.view.readAt (Elt F) (Rect.unit (s := S1x8x16) ![0, 2, 8] S1x1x1.size inb_S1x8x16_S1x1x1_0_2_8).toLoadRect (harg2.unread x0) (Shape.Idx.first (numel1_S1x1x1.symm ▸ Nat.one_pos)))) (k0_hw42 : k0_chk42 i (arg2.view.readAt (Elt F) (Rect.unit (s := S1x8x16) ![0, 2, 9] S1x1x1.size inb_S1x8x16_S1x1x1_0_2_9).toLoadRect (harg2.unread x0) (Shape.Idx.first (numel1_S1x1x1.symm ▸ Nat.one_pos)))) (k0_hw43 : k0_chk43 i (arg2.view.readAt (Elt F) (Rect.unit (s := S1x8x16) ![0, 2, 10] S1x1x1.size inb_S1x8x16_S1x1x1_0_2_10).toLoadRect (harg2.unread x0) (Shape.Idx.first (numel1_S1x1x1.symm ▸ Nat.one_pos)))) (k0_hw44 : k0_chk44 i (arg2.view.readAt (Elt F) (Rect.unit (s := S1x8x16) ![0, 2, 11] S1x1x1.size inb_S1x8x16_S1x1x1_0_2_11).toLoadRect (harg2.unread x0) (Shape.Idx.first (numel1_S1x1x1.symm ▸ Nat.one_pos)))) (k0_hw45 : k0_chk45 i (arg2.view.readAt (Elt F) (Rect.unit (s := S1x8x16) ![0, 2, 12] S1x1x1.size inb_S1x8x16_S1x1x1_0_2_12).toLoadRect (harg2.unread x0) (Shape.Idx.first (numel1_S1x1x1.symm ▸ Nat.one_pos)))) (k0_hw46 : k0_chk46 i (arg2.view.readAt (Elt F) (Rect.unit (s := S1x8x16) ![0, 2, 13] S1x1x1.size inb_S1x8x16_S1x1x1_0_2_13).toLoadRect (harg2.unread x0) (Shape.Idx.first (numel1_S1x1x1.symm ▸ Nat.one_pos)))) (k0_hw47 : k0_chk47 i (arg2.view.readAt (Elt F) (Rect.unit (s := S1x8x16) ![0, 2, 14] S1x1x1.size inb_S1x8x16_S1x1x1_0_2_14).toLoadRect (harg2.unread x0) (Shape.Idx.first (numel1_S1x1x1.symm ▸ Nat.one_pos)))) (k0_hw48 : k0_chk48 i (arg2.view.readAt (Elt F) (Rect.unit (s := S1x8x16) ![0, 2, 15] S1x1x1.size inb_S1x8x16_S1x1x1_0_2_15).toLoadRect (harg2.unread x0) (Shape.Idx.first (numel1_S1x1x1.symm ▸ Nat.one_pos)))) (k0_hw49 : k0_chk49 i (arg2.view.readAt (Elt F) (Rect.unit (s := S1x8x16) ![0, 3, 0] S1x1x1.size inb_S1x8x16_S1x1x1_0_3_0).toLoadRect (harg2.unread x0) (Shape.Idx.first (numel1_S1x1x1.symm ▸ Nat.one_pos)))) (k0_hw50 : k0_chk50 i (arg2.view.readAt (Elt F) (Rect.unit (s := S1x8x16) ![0, 3, 1] S1x1x1.size inb_S1x8x16_S1x1x1_0_3_1).toLoadRect (harg2.unread x0) (Shape.Idx.first (numel1_S1x1x1.symm ▸ Nat.one_pos)))) (k0_hw51 : k0_chk51 i (arg2.view.readAt (Elt F) (Rect.unit (s := S1x8x16) ![0, 3, 2] S1x1x1.size inb_S1x8x16_S1x1x1_0_3_2).toLoadRect (harg2.unread x0) (Shape.Idx.first (numel1_S1x1x1.symm ▸ Nat.one_pos)))) (k0_hw52 : k0_chk52 i (arg2.view.readAt (Elt F) (Rect.unit (s := S1x8x16) ![0, 3, 3] S1x1x1.size inb_S1x8x16_S1x1x1_0_3_3).toLoadRect (harg2.unread x0) (Shape.Idx.first (numel1_S1x1x1.symm ▸ Nat.one_pos)))) (k0_hw53 : k0_chk53 i (arg2.view.readAt (Elt F) (Rect.unit (s := S1x8x16) ![0, 3, 4] S1x1x1.size inb_S1x8x16_S1x1x1_0_3_4).toLoadRect (harg2.unread x0) (Shape.Idx.first (numel1_S1x1x1.symm ▸ Nat.one_pos)))) (k0_hw54 : k0_chk54 i (arg2.view.readAt (Elt F) (Rect.unit (s := S1x8x16) ![0, 3, 5] S1x1x1.size inb_S1x8x16_S1x1x1_0_3_5).toLoadRect (harg2.unread x0) (Shape.Idx.first (numel1_S1x1x1.symm ▸ Nat.one_pos)))) (k0_hw55 : k0_chk55 i (arg2.view.readAt (Elt F) (Rect.unit (s := S1x8x16) ![0, 3, 6] S1x1x1.size inb_S1x8x16_S1x1x1_0_3_6).toLoadRect (harg2.unread x0) (Shape.Idx.first (numel1_S1x1x1.symm ▸ Nat.one_pos)))) (k0_hw56 : k0_chk56 i (arg2.view.readAt (Elt F) (Rect.unit (s := S1x8x16) ![0, 3, 7] S1x1x1.size inb_S1x8x16_S1x1x1_0_3_7).toLoadRect (harg2.unread x0) (Shape.Idx.first (numel1_S1x1x1.symm ▸ Nat.one_pos)))) (k0_hw57 : k0_chk57 i (arg2.view.readAt (Elt F) (Rect.unit (s := S1x8x16) ![0, 3, 8] S1x1x1.size inb_S1x8x16_S1x1x1_0_3_8).toLoadRect (harg2.unread x0) (Shape.Idx.first (numel1_S1x1x1.symm ▸ Nat.one_pos)))) (k0_hw58 : k0_chk58 i (arg2.view.readAt (Elt F) (Rect.unit (s := S1x8x16) ![0, 3, 9] S1x1x1.size inb_S1x8x16_S1x1x1_0_3_9).toLoadRect (harg2.unread x0) (Shape.Idx.first (numel1_S1x1x1.symm ▸ Nat.one_pos)))) (k0_hw59 : k0_chk59 i (arg2.view.readAt (Elt F) (Rect.unit (s := S1x8x16) ![0, 3, 10] S1x1x1.size inb_S1x8x16_S1x1x1_0_3_10).toLoadRect (harg2.unread x0) (Shape.Idx.first (numel1_S1x1x1.symm ▸ Nat.one_pos)))) (k0_hw60 : k0_chk60 i (arg2.view.readAt (Elt F) (Rect.unit (s := S1x8x16) ![0, 3, 11] S1x1x1.size inb_S1x8x16_S1x1x1_0_3_11).toLoadRect (harg2.unread x0) (Shape.Idx.first (numel1_S1x1x1.symm ▸ Nat.one_pos)))) (k0_hw61 : k0_chk61 i (arg2.view.readAt (Elt F) (Rect.unit (s := S1x8x16) ![0, 3, 12] S1x1x1.size inb_S1x8x16_S1x1x1_0_3_12).toLoadRect (harg2.unread x0) (Shape.Idx.first (numel1_S1x1x1.symm ▸ Nat.one_pos)))) (k0_hw62 : k0_chk62 i (arg2.view.readAt (Elt F) (Rect.unit (s := S1x8x16) ![0, 3, 13] S1x1x1.size inb_S1x8x16_S1x1x1_0_3_13).toLoadRect (harg2.unread x0) (Shape.Idx.first (numel1_S1x1x1.symm ▸ Nat.one_pos)))) (k0_hw63 : k0_chk63 i (arg2.view.readAt (Elt F) (Rect.unit (s := S1x8x16) ![0, 3, 14] S1x1x1.size inb_S1x8x16_S1x1x1_0_3_14).toLoadRect (harg2.unread x0) (Shape.Idx.first (numel1_S1x1x1.symm ▸ Nat.one_pos)))) (k0_hw64 : k0_chk64 i (arg2.view.readAt (Elt F) (Rect.unit (s := S1x8x16) ![0, 3, 15] S1x1x1.size inb_S1x8x16_S1x1x1_0_3_15).toLoadRect (harg2.unread x0) (Shape.Idx.first (numel1_S1x1x1.symm ▸ Nat.one_pos)))) (k0_hw65 : k0_chk65 i (arg2.view.readAt (Elt F) (Rect.unit (s := S1x8x16) ![0, 4, 0] S1x1x1.size inb_S1x8x16_S1x1x1_0_4_0).toLoadRect (harg2.unread x0) (Shape.Idx.first (numel1_S1x1x1.symm ▸ Nat.one_pos)))) (k0_hw66 : k0_chk66 i (arg2.view.readAt (Elt F) (Rect.unit (s := S1x8x16) ![0, 4, 1] S1x1x1.size inb_S1x8x16_S1x1x1_0_4_1).toLoadRect (harg2.unread x0) (Shape.Idx.first (numel1_S1x1x1.symm ▸ Nat.one_pos)))) (k0_hw67 : k0_chk67 i (arg2.view.readAt (Elt F) (Rect.unit (s := S1x8x16) ![0, 4, 2] S1x1x1.size inb_S1x8x16_S1x1x1_0_4_2).toLoadRect (harg2.unread x0) (Shape.Idx.first (numel1_S1x1x1.symm ▸ Nat.one_pos)))) (k0_hw68 : k0_chk68 i (arg2.view.readAt (Elt F) (Rect.unit (s := S1x8x16) ![0, 4, 3] S1x1x1.size inb_S1x8x16_S1x1x1_0_4_3).toLoadRect (harg2.unread x0) (Shape.Idx.first (numel1_S1x1x1.symm ▸ Nat.one_pos)))) (k0_hw69 : k0_chk69 i (arg2.view.readAt (Elt F) (Rect.unit (s := S1x8x16) ![0, 4, 4] S1x1x1.size inb_S1x8x16_S1x1x1_0_4_4).toLoadRect (harg2.unread x0) (Shape.Idx.first (numel1_S1x1x1.symm ▸ Nat.one_pos)))) (k0_hw70 : k0_chk70 i (arg2.view.readAt (Elt F) (Rect.unit (s := S1x8x16) ![0, 4, 5] S1x1x1.size inb_S1x8x16_S1x1x1_0_4_5).toLoadRect (harg2.unread x0) (Shape.Idx.first (numel1_S1x1x1.symm ▸ Nat.one_pos)))) (k0_hw71 : k0_chk71 i (arg2.view.readAt (Elt F) (Rect.unit (s := S1x8x16) ![0, 4, 6] S1x1x1.size inb_S1x8x16_S1x1x1_0_4_6).toLoadRect (harg2.unread x0) (Shape.Idx.first (numel1_S1x1x1.symm ▸ Nat.one_pos)))) (k0_hw72 : k0_chk72 i (arg2.view.readAt (Elt F) (Rect.unit (s := S1x8x16) ![0, 4, 7] S1x1x1.size inb_S1x8x16_S1x1x1_0_4_7).toLoadRect (harg2.unread x0) (Shape.Idx.first (numel1_S1x1x1.symm ▸ Nat.one_pos)))) (k0_hw73 : k0_chk73 i (arg2.view.readAt (Elt F) (Rect.unit (s := S1x8x16) ![0, 4, 8] S1x1x1.size inb_S1x8x16_S1x1x1_0_4_8).toLoadRect (harg2.unread x0) (Shape.Idx.first (numel1_S1x1x1.symm ▸ Nat.one_pos)))) (k0_hw74 : k0_chk74 i (arg2.view.readAt (Elt F) (Rect.unit (s := S1x8x16) ![0, 4, 9] S1x1x1.size inb_S1x8x16_S1x1x1_0_4_9).toLoadRect (harg2.unread x0) (Shape.Idx.first (numel1_S1x1x1.symm ▸ Nat.one_pos)))) (k0_hw75 : k0_chk75 i (arg2.view.readAt (Elt F) (Rect.unit (s := S1x8x16) ![0, 4, 10] S1x1x1.size inb_S1x8x16_S1x1x1_0_4_10).toLoadRect (harg2.unread x0) (Shape.Idx.first (numel1_S1x1x1.symm ▸ Nat.one_pos)))) (k0_hw76 : k0_chk76 i (arg2.view.readAt (Elt F) (Rect.unit (s := S1x8x16) ![0, 4, 11] S1x1x1.size inb_S1x8x16_S1x1x1_0_4_11).toLoadRect (harg2.unread x0) (Shape.Idx.first (numel1_S1x1x1.symm ▸ Nat.one_pos)))) (k0_hw77 : k0_chk77 i (arg2.view.readAt (Elt F) (Rect.unit (s := S1x8x16) ![0, 4, 12] S1x1x1.size inb_S1x8x16_S1x1x1_0_4_12).toLoadRect (harg2.unread x0) (Shape.Idx.first (numel1_S1x1x1.symm ▸ Nat.one_pos)))) (k0_hw78 : k0_chk78 i (arg2.view.readAt (Elt F) (Rect.unit (s := S1x8x16) ![0, 4, 13] S1x1x1.size inb_S1x8x16_S1x1x1_0_4_13).toLoadRect (harg2.unread x0) (Shape.Idx.first (numel1_S1x1x1.symm ▸ Nat.one_pos)))) (k0_hw79 : k0_chk79 i (arg2.view.readAt (Elt F) (Rect.unit (s := S1x8x16) ![0, 4, 14] S1x1x1.size inb_S1x8x16_S1x1x1_0_4_14).toLoadRect (harg2.unread x0) (Shape.Idx.first (numel1_S1x1x1.symm ▸ Nat.one_pos)))) (k0_hw80 : k0_chk80 i (arg2.view.readAt (Elt F) (Rect.unit (s := S1x8x16) ![0, 4, 15] S1x1x1.size inb_S1x8x16_S1x1x1_0_4_15).toLoadRect (harg2.unread x0) (Shape.Idx.first (numel1_S1x1x1.symm ▸ Nat.one_pos)))) (k0_hw81 : k0_chk81 i (arg2.view.readAt (Elt F) (Rect.unit (s := S1x8x16) ![0, 5, 0] S1x1x1.size inb_S1x8x16_S1x1x1_0_5_0).toLoadRect (harg2.unread x0) (Shape.Idx.first (numel1_S1x1x1.symm ▸ Nat.one_pos)))) (k0_hw82 : k0_chk82 i (arg2.view.readAt (Elt F) (Rect.unit (s := S1x8x16) ![0, 5, 1] S1x1x1.size inb_S1x8x16_S1x1x1_0_5_1).toLoadRect (harg2.unread x0) (Shape.Idx.first (numel1_S1x1x1.symm ▸ Nat.one_pos)))) (k0_hw83 : k0_chk83 i (arg2.view.readAt (Elt F) (Rect.unit (s := S1x8x16) ![0, 5, 2] S1x1x1.size inb_S1x8x16_S1x1x1_0_5_2).toLoadRect (harg2.unread x0) (Shape.Idx.first (numel1_S1x1x1.symm ▸ Nat.one_pos)))) (k0_hw84 : k0_chk84 i (arg2.view.readAt (Elt F) (Rect.unit (s := S1x8x16) ![0, 5, 3] S1x1x1.size inb_S1x8x16_S1x1x1_0_5_3).toLoadRect (harg2.unread x0) (Shape.Idx.first (numel1_S1x1x1.symm ▸ Nat.one_pos)))) (k0_hw85 : k0_chk85 i (arg2.view.readAt (Elt F) (Rect.unit (s := S1x8x16) ![0, 5, 4] S1x1x1.size inb_S1x8x16_S1x1x1_0_5_4).toLoadRect (harg2.unread x0) (Shape.Idx.first (numel1_S1x1x1.symm ▸ Nat.one_pos)))) (k0_hw86 : k0_chk86 i (arg2.view.readAt (Elt F) (Rect.unit (s := S1x8x16) ![0, 5, 5] S1x1x1.size inb_S1x8x16_S1x1x1_0_5_5).toLoadRect (harg2.unread x0) (Shape.Idx.first (numel1_S1x1x1.symm ▸ Nat.one_pos)))) (k0_hw87 : k0_chk87 i (arg2.view.readAt (Elt F) (Rect.unit (s := S1x8x16) ![0, 5, 6] S1x1x1.size inb_S1x8x16_S1x1x1_0_5_6).toLoadRect (harg2.unread x0) (Shape.Idx.first (numel1_S1x1x1.symm ▸ Nat.one_pos)))) (k0_hw88 : k0_chk88 i (arg2.view.readAt (Elt F) (Rect.unit (s := S1x8x16) ![0, 5, 7] S1x1x1.size inb_S1x8x16_S1x1x1_0_5_7).toLoadRect (harg2.unread x0) (Shape.Idx.first (numel1_S1x1x1.symm ▸ Nat.one_pos)))) (k0_hw89 : k0_chk89 i (arg2.view.readAt (Elt F) (Rect.unit (s := S1x8x16) ![0, 5, 8] S1x1x1.size inb_S1x8x16_S1x1x1_0_5_8).toLoadRect (harg2.unread x0) (Shape.Idx.first (numel1_S1x1x1.symm ▸ Nat.one_pos)))) (k0_hw90 : k0_chk90 i (arg2.view.readAt (Elt F) (Rect.unit (s := S1x8x16) ![0, 5, 9] S1x1x1.size inb_S1x8x16_S1x1x1_0_5_9).toLoadRect (harg2.unread x0) (Shape.Idx.first (numel1_S1x1x1.symm ▸ Nat.one_pos)))) (k0_hw91 : k0_chk91 i (arg2.view.readAt (Elt F) (Rect.unit (s := S1x8x16) ![0, 5, 10] S1x1x1.size inb_S1x8x16_S1x1x1_0_5_10).toLoadRect (harg2.unread x0) (Shape.Idx.first (numel1_S1x1x1.symm ▸ Nat.one_pos)))) (k0_hw92 : k0_chk92 i (arg2.view.readAt (Elt F) (Rect.unit (s := S1x8x16) ![0, 5, 11] S1x1x1.size inb_S1x8x16_S1x1x1_0_5_11).toLoadRect (harg2.unread x0) (Shape.Idx.first (numel1_S1x1x1.symm ▸ Nat.one_pos)))) (k0_hw93 : k0_chk93 i (arg2.view.readAt (Elt F) (Rect.unit (s := S1x8x16) ![0, 5, 12] S1x1x1.size inb_S1x8x16_S1x1x1_0_5_12).toLoadRect (harg2.unread x0) (Shape.Idx.first (numel1_S1x1x1.symm ▸ Nat.one_pos)))) (k0_hw94 : k0_chk94 i (arg2.view.readAt (Elt F) (Rect.unit (s := S1x8x16) ![0, 5, 13] S1x1x1.size inb_S1x8x16_S1x1x1_0_5_13).toLoadRect (harg2.unread x0) (Shape.Idx.first (numel1_S1x1x1.symm ▸ Nat.one_pos)))) (k0_hw95 : k0_chk95 i (arg2.view.readAt (Elt F) (Rect.unit (s := S1x8x16) ![0, 5, 14] S1x1x1.size inb_S1x8x16_S1x1x1_0_5_14).toLoadRect (harg2.unread x0) (Shape.Idx.first (numel1_S1x1x1.symm ▸ Nat.one_pos)))) (k0_hw96 : k0_chk96 i (arg2.view.readAt (Elt F) (Rect.unit (s := S1x8x16) ![0, 5, 15] S1x1x1.size inb_S1x8x16_S1x1x1_0_5_15).toLoadRect (harg2.unread x0) (Shape.Idx.first (numel1_S1x1x1.symm ▸ Nat.one_pos)))) (k0_hw97 : k0_chk97 i (arg2.view.readAt (Elt F) (Rect.unit (s := S1x8x16) ![0, 6, 0] S1x1x1.size inb_S1x8x16_S1x1x1_0_6_0).toLoadRect (harg2.unread x0) (Shape.Idx.first (numel1_S1x1x1.symm ▸ Nat.one_pos)))) (k0_hw98 : k0_chk98 i (arg2.view.readAt (Elt F) (Rect.unit (s := S1x8x16) ![0, 6, 1] S1x1x1.size inb_S1x8x16_S1x1x1_0_6_1).toLoadRect (harg2.unread x0) (Shape.Idx.first (numel1_S1x1x1.symm ▸ Nat.one_pos)))) (k0_hw99 : k0_chk99 i (arg2.view.readAt (Elt F) (Rect.unit (s := S1x8x16) ![0, 6, 2] S1x1x1.size inb_S1x8x16_S1x1x1_0_6_2).toLoadRect (harg2.unread x0) (Shape.Idx.first (numel1_S1x1x1.symm ▸ Nat.one_pos)))) (k0_hw100 : k0_chk100 i (arg2.view.readAt (Elt F) (Rect.unit (s := S1x8x16) ![0, 6, 3] S1x1x1.size inb_S1x8x16_S1x1x1_0_6_3).toLoadRect (harg2.unread x0) (Shape.Idx.first (numel1_S1x1x1.symm ▸ Nat.one_pos)))) (k0_hw101 : k0_chk101 i (arg2.view.readAt (Elt F) (Rect.unit (s := S1x8x16) ![0, 6, 4] S1x1x1.size inb_S1x8x16_S1x1x1_0_6_4).toLoadRect (harg2.unread x0) (Shape.Idx.first (numel1_S1x1x1.symm ▸ Nat.one_pos)))) (k0_hw102 : k0_chk102 i (arg2.view.readAt (Elt F) (Rect.unit (s := S1x8x16) ![0, 6, 5] S1x1x1.size inb_S1x8x16_S1x1x1_0_6_5).toLoadRect (harg2.unread x0) (Shape.Idx.first (numel1_S1x1x1.symm ▸ Nat.one_pos)))) (k0_hw103 : k0_chk103 i (arg2.view.readAt (Elt F) (Rect.unit (s := S1x8x16) ![0, 6, 6] S1x1x1.size inb_S1x8x16_S1x1x1_0_6_6).toLoadRect (harg2.unread x0) (Shape.Idx.first (numel1_S1x1x1.symm ▸ Nat.one_pos)))) (k0_hw104 : k0_chk104 i (arg2.view.readAt (Elt F) (Rect.unit (s := S1x8x16) ![0, 6, 7] S1x1x1.size inb_S1x8x16_S1x1x1_0_6_7).toLoadRect (harg2.unread x0) (Shape.Idx.first (numel1_S1x1x1.symm ▸ Nat.one_pos)))) (k0_hw105 : k0_chk105 i (arg2.view.readAt (Elt F) (Rect.unit (s := S1x8x16) ![0, 6, 8] S1x1x1.size inb_S1x8x16_S1x1x1_0_6_8).toLoadRect (harg2.unread x0) (Shape.Idx.first (numel1_S1x1x1.symm ▸ Nat.one_pos)))) (k0_hw106 : k0_chk106 i (arg2.view.readAt (Elt F) (Rect.unit (s := S1x8x16) ![0, 6, 9] S1x1x1.size inb_S1x8x16_S1x1x1_0_6_9).toLoadRect (harg2.unread x0) (Shape.Idx.first (numel1_S1x1x1.symm ▸ Nat.one_pos)))) (k0_hw107 : k0_chk107 i (arg2.view.readAt (Elt F) (Rect.unit (s := S1x8x16) ![0, 6, 10] S1x1x1.size inb_S1x8x16_S1x1x1_0_6_10).toLoadRect (harg2.unread x0) (Shape.Idx.first (numel1_S1x1x1.symm ▸ Nat.one_pos)))) (k0_hw108 : k0_chk108 i (arg2.view.readAt (Elt F) (Rect.unit (s := S1x8x16) ![0, 6, 11] S1x1x1.size inb_S1x8x16_S1x1x1_0_6_11).toLoadRect (harg2.unread x0) (Shape.Idx.first (numel1_S1x1x1.symm ▸ Nat.one_pos)))) (k0_hw109 : k0_chk109 i (arg2.view.readAt (Elt F) (Rect.unit (s := S1x8x16) ![0, 6, 12] S1x1x1.size inb_S1x8x16_S1x1x1_0_6_12).toLoadRect (harg2.unread x0) (Shape.Idx.first (numel1_S1x1x1.symm ▸ Nat.one_pos)))) (k0_hw110 : k0_chk110 i (arg2.view.readAt (Elt F) (Rect.unit (s := S1x8x16) ![0, 6, 13] S1x1x1.size inb_S1x8x16_S1x1x1_0_6_13).toLoadRect (harg2.unread x0) (Shape.Idx.first (numel1_S1x1x1.symm ▸ Nat.one_pos)))) (k0_hw111 : k0_chk111 i (arg2.view.readAt (Elt F) (Rect.unit (s := S1x8x16) ![0, 6, 14] S1x1x1.size inb_S1x8x16_S1x1x1_0_6_14).toLoadRect (harg2.unread x0) (Shape.Idx.first (numel1_S1x1x1.symm ▸ Nat.one_pos)))) (k0_hw112 : k0_chk112 i (arg2.view.readAt (Elt F) (Rect.unit (s := S1x8x16) ![0, 6, 15] S1x1x1.size inb_S1x8x16_S1x1x1_0_6_15).toLoadRect (harg2.unread x0) (Shape.Idx.first (numel1_S1x1x1.symm ▸ Nat.one_pos)))) (k0_hw113 : k0_chk113 i (arg2.view.readAt (Elt F) (Rect.unit (s := S1x8x16) ![0, 7, 0] S1x1x1.size inb_S1x8x16_S1x1x1_0_7_0).toLoadRect (harg2.unread x0) (Shape.Idx.first (numel1_S1x1x1.symm ▸ Nat.one_pos)))) (k0_hw114 : k0_chk114 i (arg2.view.readAt (Elt F) (Rect.unit (s := S1x8x16) ![0, 7, 1] S1x1x1.size inb_S1x8x16_S1x1x1_0_7_1).toLoadRect (harg2.unread x0) (Shape.Idx.first (numel1_S1x1x1.symm ▸ Nat.one_pos)))) (k0_hw115 : k0_chk115 i (arg2.view.readAt (Elt F) (Rect.unit (s := S1x8x16) ![0, 7, 2] S1x1x1.size inb_S1x8x16_S1x1x1_0_7_2).toLoadRect (harg2.unread x0) (Shape.Idx.first (numel1_S1x1x1.symm ▸ Nat.one_pos)))) (k0_hw116 : k0_chk116 i (arg2.view.readAt (Elt F) (Rect.unit (s := S1x8x16) ![0, 7, 3] S1x1x1.size inb_S1x8x16_S1x1x1_0_7_3).toLoadRect (harg2.unread x0) (Shape.Idx.first (numel1_S1x1x1.symm ▸ Nat.one_pos)))) (k0_hw117 : k0_chk117 i (arg2.view.readAt (Elt F) (Rect.unit (s := S1x8x16) ![0, 7, 4] S1x1x1.size inb_S1x8x16_S1x1x1_0_7_4).toLoadRect (harg2.unread x0) (Shape.Idx.first (numel1_S1x1x1.symm ▸ Nat.one_pos)))) (k0_hw118 : k0_chk118 i (arg2.view.readAt (Elt F) (Rect.unit (s := S1x8x16) ![0, 7, 5] S1x1x1.size inb_S1x8x16_S1x1x1_0_7_5).toLoadRect (harg2.unread x0) (Shape.Idx.first (numel1_S1x1x1.symm ▸ Nat.one_pos)))) (k0_hw119 : k0_chk119 i (arg2.view.readAt (Elt F) (Rect.unit (s := S1x8x16) ![0, 7, 6] S1x1x1.size inb_S1x8x16_S1x1x1_0_7_6).toLoadRect (harg2.unread x0) (Shape.Idx.first (numel1_S1x1x1.symm ▸ Nat.one_pos)))) (k0_hw120 : k0_chk120 i (arg2.view.readAt (Elt F) (Rect.unit (s := S1x8x16) ![0, 7, 7] S1x1x1.size inb_S1x8x16_S1x1x1_0_7_7).toLoadRect (harg2.unread x0) (Shape.Idx.first (numel1_S1x1x1.symm ▸ Nat.one_pos)))) (k0_hw121 : k0_chk121 i (arg2.view.readAt (Elt F) (Rect.unit (s := S1x8x16) ![0, 7, 8] S1x1x1.size inb_S1x8x16_S1x1x1_0_7_8).toLoadRect (harg2.unread x0) (Shape.Idx.first (numel1_S1x1x1.symm ▸ Nat.one_pos)))) (k0_hw122 : k0_chk122 i (arg2.view.readAt (Elt F) (Rect.unit (s := S1x8x16) ![0, 7, 9] S1x1x1.size inb_S1x8x16_S1x1x1_0_7_9).toLoadRect (harg2.unread x0) (Shape.Idx.first (numel1_S1x1x1.symm ▸ Nat.one_pos)))) (k0_hw123 : k0_chk123 i (arg2.view.readAt (Elt F) (Rect.unit (s := S1x8x16) ![0, 7, 10] S1x1x1.size inb_S1x8x16_S1x1x1_0_7_10).toLoadRect (harg2.unread x0) (Shape.Idx.first (numel1_S1x1x1.symm ▸ Nat.one_pos)))) (k0_hw124 : k0_chk124 i (arg2.view.readAt (Elt F) (Rect.unit (s := S1x8x16) ![0, 7, 11] S1x1x1.size inb_S1x8x16_S1x1x1_0_7_11).toLoadRect (harg2.unread x0) (Shape.Idx.first (numel1_S1x1x1.symm ▸ Nat.one_pos)))) (k0_hw125 : k0_chk125 i (arg2.view.readAt (Elt F) (Rect.unit (s := S1x8x16) ![0, 7, 12] S1x1x1.size inb_S1x8x16_S1x1x1_0_7_12).toLoadRect (harg2.unread x0) (Shape.Idx.first (numel1_S1x1x1.symm ▸ Nat.one_pos)))) (k0_hw126 : k0_chk126 i (arg2.view.readAt (Elt F) (Rect.unit (s := S1x8x16) ![0, 7, 13] S1x1x1.size inb_S1x8x16_S1x1x1_0_7_13).toLoadRect (harg2.unread x0) (Shape.Idx.first (numel1_S1x1x1.symm ▸ Nat.one_pos)))) (k0_hw127 : k0_chk127 i (arg2.view.readAt (Elt F) (Rect.unit (s := S1x8x16) ![0, 7, 14] S1x1x1.size inb_S1x8x16_S1x1x1_0_7_14).toLoadRect (harg2.unread x0) (Shape.Idx.first (numel1_S1x1x1.symm ▸ Nat.one_pos)))) (k0_hw128 : k0_chk128 i (arg2.view.readAt (Elt F) (Rect.unit (s := S1x8x16) ![0, 7, 15] S1x1x1.size inb_S1x8x16_S1x1x1_0_7_15).toLoadRect (harg2.unread x0) (Shape.Idx.first (numel1_S1x1x1.symm ▸ Nat.one_pos))))
    (f1 : BufTy.Contents (Elt F) arg4.view.ty) (fs0 : BufTy.Contents (Elt F) arg5.view.ty) (fs1 : BufTy.Contents (Elt F) arg6.view.ty) :
    (kernelRunRaw0_A c i arg2 harg2 arg4 harg4 arg5 harg5 arg6 harg6 x0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64 k0_hw65 k0_hw66 k0_hw67 k0_hw68 k0_hw69 k0_hw70 k0_hw71 k0_hw72 k0_hw73 k0_hw74 k0_hw75 k0_hw76 k0_hw77 k0_hw78 k0_hw79 k0_hw80 k0_hw81 k0_hw82 k0_hw83 k0_hw84 k0_hw85 k0_hw86 k0_hw87 k0_hw88 k0_hw89 k0_hw90 k0_hw91 k0_hw92 k0_hw93 k0_hw94 k0_hw95 k0_hw96 k0_hw97 k0_hw98 k0_hw99 k0_hw100 k0_hw101 k0_hw102 k0_hw103 k0_hw104 k0_hw105 k0_hw106 k0_hw107 k0_hw108 k0_hw109 k0_hw110 k0_hw111 k0_hw112 k0_hw113 k0_hw114 k0_hw115 k0_hw116 k0_hw117 k0_hw118 k0_hw119 k0_hw120 k0_hw121 k0_hw122 k0_hw123 k0_hw124 k0_hw125 k0_hw126 k0_hw127 k0_hw128 f1 fs0 fs1).val
      = [(⟨Rect.unit (s := S1x8x128) ![0, 0, 0] ![1, 8, 128] inb_S1x8x128_S1x8x128_0_0_0, outBlock c i x0 fh0⟩ : View.Piece (Elt F) S1x8x128 .f32)] := by
  unfold kernelRunRaw0_A
  dsimp only
  rw [out_eq c i arg2 harg2 arg5 arg6 x0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64 k0_hw65 k0_hw66 k0_hw67 k0_hw68 k0_hw69 k0_hw70 k0_hw71 k0_hw72 k0_hw73 k0_hw74 k0_hw75 k0_hw76 k0_hw77 k0_hw78 k0_hw79 k0_hw80 k0_hw81 k0_hw82 k0_hw83 k0_hw84 k0_hw85 k0_hw86 k0_hw87 k0_hw88 k0_hw89 k0_hw90 k0_hw91 k0_hw92 k0_hw93 k0_hw94 k0_hw95 k0_hw96 k0_hw97 k0_hw98 k0_hw99 k0_hw100 k0_hw101 k0_hw102 k0_hw103 k0_hw104 k0_hw105 k0_hw106 k0_hw107 k0_hw108 k0_hw109 k0_hw110 k0_hw111 k0_hw112 k0_hw113 k0_hw114 k0_hw115 k0_hw116 k0_hw117 k0_hw118 k0_hw119 k0_hw120 k0_hw121 k0_hw122 k0_hw123 k0_hw124 k0_hw125 k0_hw126 k0_hw127 k0_hw128 fs1]

set_option maxHeartbeats 40000000 in
/-- The body's triple, as the frame takes it: the output's staging buffer and the two scratch buffers at any
    contents, the pieces written a closed list. -/
noncomputable def kernelRun0_A (c : Dev nD) (i : grid0.Coords) (arg2 : Memref sig .tc .smem S1x8x16 .i32) (harg2 : arg2.IsWhole) (arg4 : Memref sig .tc .vmem S1x8x128 .f32) (harg4 : arg4.IsWhole) (arg5 : Memref sig .tc .vmem S8x128 .f32) (harg5 : arg5.IsWhole) (arg6 : Memref sig .tc .vmem S2x1x128 .f32) (harg6 : arg6.IsWhole)
    (x0 : Vec F S1x8x16 .i32) (fh0 : HbBuf0 (F := F) c hbM0_0) (k0_hw1 : k0_chk1 i (arg2.view.readAt (Elt F) (Rect.unit (s := S1x8x16) ![0, 0, 0] S1x1x1.size inb_S1x8x16_S1x1x1_0_0_0).toLoadRect (harg2.unread x0) (Shape.Idx.first (numel1_S1x1x1.symm ▸ Nat.one_pos)))) (k0_hw2 : k0_chk2 i (arg2.view.readAt (Elt F) (Rect.unit (s := S1x8x16) ![0, 0, 1] S1x1x1.size inb_S1x8x16_S1x1x1_0_0_1).toLoadRect (harg2.unread x0) (Shape.Idx.first (numel1_S1x1x1.symm ▸ Nat.one_pos)))) (k0_hw3 : k0_chk3 i (arg2.view.readAt (Elt F) (Rect.unit (s := S1x8x16) ![0, 0, 2] S1x1x1.size inb_S1x8x16_S1x1x1_0_0_2).toLoadRect (harg2.unread x0) (Shape.Idx.first (numel1_S1x1x1.symm ▸ Nat.one_pos)))) (k0_hw4 : k0_chk4 i (arg2.view.readAt (Elt F) (Rect.unit (s := S1x8x16) ![0, 0, 3] S1x1x1.size inb_S1x8x16_S1x1x1_0_0_3).toLoadRect (harg2.unread x0) (Shape.Idx.first (numel1_S1x1x1.symm ▸ Nat.one_pos)))) (k0_hw5 : k0_chk5 i (arg2.view.readAt (Elt F) (Rect.unit (s := S1x8x16) ![0, 0, 4] S1x1x1.size inb_S1x8x16_S1x1x1_0_0_4).toLoadRect (harg2.unread x0) (Shape.Idx.first (numel1_S1x1x1.symm ▸ Nat.one_pos)))) (k0_hw6 : k0_chk6 i (arg2.view.readAt (Elt F) (Rect.unit (s := S1x8x16) ![0, 0, 5] S1x1x1.size inb_S1x8x16_S1x1x1_0_0_5).toLoadRect (harg2.unread x0) (Shape.Idx.first (numel1_S1x1x1.symm ▸ Nat.one_pos)))) (k0_hw7 : k0_chk7 i (arg2.view.readAt (Elt F) (Rect.unit (s := S1x8x16) ![0, 0, 6] S1x1x1.size inb_S1x8x16_S1x1x1_0_0_6).toLoadRect (harg2.unread x0) (Shape.Idx.first (numel1_S1x1x1.symm ▸ Nat.one_pos)))) (k0_hw8 : k0_chk8 i (arg2.view.readAt (Elt F) (Rect.unit (s := S1x8x16) ![0, 0, 7] S1x1x1.size inb_S1x8x16_S1x1x1_0_0_7).toLoadRect (harg2.unread x0) (Shape.Idx.first (numel1_S1x1x1.symm ▸ Nat.one_pos)))) (k0_hw9 : k0_chk9 i (arg2.view.readAt (Elt F) (Rect.unit (s := S1x8x16) ![0, 0, 8] S1x1x1.size inb_S1x8x16_S1x1x1_0_0_8).toLoadRect (harg2.unread x0) (Shape.Idx.first (numel1_S1x1x1.symm ▸ Nat.one_pos)))) (k0_hw10 : k0_chk10 i (arg2.view.readAt (Elt F) (Rect.unit (s := S1x8x16) ![0, 0, 9] S1x1x1.size inb_S1x8x16_S1x1x1_0_0_9).toLoadRect (harg2.unread x0) (Shape.Idx.first (numel1_S1x1x1.symm ▸ Nat.one_pos)))) (k0_hw11 : k0_chk11 i (arg2.view.readAt (Elt F) (Rect.unit (s := S1x8x16) ![0, 0, 10] S1x1x1.size inb_S1x8x16_S1x1x1_0_0_10).toLoadRect (harg2.unread x0) (Shape.Idx.first (numel1_S1x1x1.symm ▸ Nat.one_pos)))) (k0_hw12 : k0_chk12 i (arg2.view.readAt (Elt F) (Rect.unit (s := S1x8x16) ![0, 0, 11] S1x1x1.size inb_S1x8x16_S1x1x1_0_0_11).toLoadRect (harg2.unread x0) (Shape.Idx.first (numel1_S1x1x1.symm ▸ Nat.one_pos)))) (k0_hw13 : k0_chk13 i (arg2.view.readAt (Elt F) (Rect.unit (s := S1x8x16) ![0, 0, 12] S1x1x1.size inb_S1x8x16_S1x1x1_0_0_12).toLoadRect (harg2.unread x0) (Shape.Idx.first (numel1_S1x1x1.symm ▸ Nat.one_pos)))) (k0_hw14 : k0_chk14 i (arg2.view.readAt (Elt F) (Rect.unit (s := S1x8x16) ![0, 0, 13] S1x1x1.size inb_S1x8x16_S1x1x1_0_0_13).toLoadRect (harg2.unread x0) (Shape.Idx.first (numel1_S1x1x1.symm ▸ Nat.one_pos)))) (k0_hw15 : k0_chk15 i (arg2.view.readAt (Elt F) (Rect.unit (s := S1x8x16) ![0, 0, 14] S1x1x1.size inb_S1x8x16_S1x1x1_0_0_14).toLoadRect (harg2.unread x0) (Shape.Idx.first (numel1_S1x1x1.symm ▸ Nat.one_pos)))) (k0_hw16 : k0_chk16 i (arg2.view.readAt (Elt F) (Rect.unit (s := S1x8x16) ![0, 0, 15] S1x1x1.size inb_S1x8x16_S1x1x1_0_0_15).toLoadRect (harg2.unread x0) (Shape.Idx.first (numel1_S1x1x1.symm ▸ Nat.one_pos)))) (k0_hw17 : k0_chk17 i (arg2.view.readAt (Elt F) (Rect.unit (s := S1x8x16) ![0, 1, 0] S1x1x1.size inb_S1x8x16_S1x1x1_0_1_0).toLoadRect (harg2.unread x0) (Shape.Idx.first (numel1_S1x1x1.symm ▸ Nat.one_pos)))) (k0_hw18 : k0_chk18 i (arg2.view.readAt (Elt F) (Rect.unit (s := S1x8x16) ![0, 1, 1] S1x1x1.size inb_S1x8x16_S1x1x1_0_1_1).toLoadRect (harg2.unread x0) (Shape.Idx.first (numel1_S1x1x1.symm ▸ Nat.one_pos)))) (k0_hw19 : k0_chk19 i (arg2.view.readAt (Elt F) (Rect.unit (s := S1x8x16) ![0, 1, 2] S1x1x1.size inb_S1x8x16_S1x1x1_0_1_2).toLoadRect (harg2.unread x0) (Shape.Idx.first (numel1_S1x1x1.symm ▸ Nat.one_pos)))) (k0_hw20 : k0_chk20 i (arg2.view.readAt (Elt F) (Rect.unit (s := S1x8x16) ![0, 1, 3] S1x1x1.size inb_S1x8x16_S1x1x1_0_1_3).toLoadRect (harg2.unread x0) (Shape.Idx.first (numel1_S1x1x1.symm ▸ Nat.one_pos)))) (k0_hw21 : k0_chk21 i (arg2.view.readAt (Elt F) (Rect.unit (s := S1x8x16) ![0, 1, 4] S1x1x1.size inb_S1x8x16_S1x1x1_0_1_4).toLoadRect (harg2.unread x0) (Shape.Idx.first (numel1_S1x1x1.symm ▸ Nat.one_pos)))) (k0_hw22 : k0_chk22 i (arg2.view.readAt (Elt F) (Rect.unit (s := S1x8x16) ![0, 1, 5] S1x1x1.size inb_S1x8x16_S1x1x1_0_1_5).toLoadRect (harg2.unread x0) (Shape.Idx.first (numel1_S1x1x1.symm ▸ Nat.one_pos)))) (k0_hw23 : k0_chk23 i (arg2.view.readAt (Elt F) (Rect.unit (s := S1x8x16) ![0, 1, 6] S1x1x1.size inb_S1x8x16_S1x1x1_0_1_6).toLoadRect (harg2.unread x0) (Shape.Idx.first (numel1_S1x1x1.symm ▸ Nat.one_pos)))) (k0_hw24 : k0_chk24 i (arg2.view.readAt (Elt F) (Rect.unit (s := S1x8x16) ![0, 1, 7] S1x1x1.size inb_S1x8x16_S1x1x1_0_1_7).toLoadRect (harg2.unread x0) (Shape.Idx.first (numel1_S1x1x1.symm ▸ Nat.one_pos)))) (k0_hw25 : k0_chk25 i (arg2.view.readAt (Elt F) (Rect.unit (s := S1x8x16) ![0, 1, 8] S1x1x1.size inb_S1x8x16_S1x1x1_0_1_8).toLoadRect (harg2.unread x0) (Shape.Idx.first (numel1_S1x1x1.symm ▸ Nat.one_pos)))) (k0_hw26 : k0_chk26 i (arg2.view.readAt (Elt F) (Rect.unit (s := S1x8x16) ![0, 1, 9] S1x1x1.size inb_S1x8x16_S1x1x1_0_1_9).toLoadRect (harg2.unread x0) (Shape.Idx.first (numel1_S1x1x1.symm ▸ Nat.one_pos)))) (k0_hw27 : k0_chk27 i (arg2.view.readAt (Elt F) (Rect.unit (s := S1x8x16) ![0, 1, 10] S1x1x1.size inb_S1x8x16_S1x1x1_0_1_10).toLoadRect (harg2.unread x0) (Shape.Idx.first (numel1_S1x1x1.symm ▸ Nat.one_pos)))) (k0_hw28 : k0_chk28 i (arg2.view.readAt (Elt F) (Rect.unit (s := S1x8x16) ![0, 1, 11] S1x1x1.size inb_S1x8x16_S1x1x1_0_1_11).toLoadRect (harg2.unread x0) (Shape.Idx.first (numel1_S1x1x1.symm ▸ Nat.one_pos)))) (k0_hw29 : k0_chk29 i (arg2.view.readAt (Elt F) (Rect.unit (s := S1x8x16) ![0, 1, 12] S1x1x1.size inb_S1x8x16_S1x1x1_0_1_12).toLoadRect (harg2.unread x0) (Shape.Idx.first (numel1_S1x1x1.symm ▸ Nat.one_pos)))) (k0_hw30 : k0_chk30 i (arg2.view.readAt (Elt F) (Rect.unit (s := S1x8x16) ![0, 1, 13] S1x1x1.size inb_S1x8x16_S1x1x1_0_1_13).toLoadRect (harg2.unread x0) (Shape.Idx.first (numel1_S1x1x1.symm ▸ Nat.one_pos)))) (k0_hw31 : k0_chk31 i (arg2.view.readAt (Elt F) (Rect.unit (s := S1x8x16) ![0, 1, 14] S1x1x1.size inb_S1x8x16_S1x1x1_0_1_14).toLoadRect (harg2.unread x0) (Shape.Idx.first (numel1_S1x1x1.symm ▸ Nat.one_pos)))) (k0_hw32 : k0_chk32 i (arg2.view.readAt (Elt F) (Rect.unit (s := S1x8x16) ![0, 1, 15] S1x1x1.size inb_S1x8x16_S1x1x1_0_1_15).toLoadRect (harg2.unread x0) (Shape.Idx.first (numel1_S1x1x1.symm ▸ Nat.one_pos)))) (k0_hw33 : k0_chk33 i (arg2.view.readAt (Elt F) (Rect.unit (s := S1x8x16) ![0, 2, 0] S1x1x1.size inb_S1x8x16_S1x1x1_0_2_0).toLoadRect (harg2.unread x0) (Shape.Idx.first (numel1_S1x1x1.symm ▸ Nat.one_pos)))) (k0_hw34 : k0_chk34 i (arg2.view.readAt (Elt F) (Rect.unit (s := S1x8x16) ![0, 2, 1] S1x1x1.size inb_S1x8x16_S1x1x1_0_2_1).toLoadRect (harg2.unread x0) (Shape.Idx.first (numel1_S1x1x1.symm ▸ Nat.one_pos)))) (k0_hw35 : k0_chk35 i (arg2.view.readAt (Elt F) (Rect.unit (s := S1x8x16) ![0, 2, 2] S1x1x1.size inb_S1x8x16_S1x1x1_0_2_2).toLoadRect (harg2.unread x0) (Shape.Idx.first (numel1_S1x1x1.symm ▸ Nat.one_pos)))) (k0_hw36 : k0_chk36 i (arg2.view.readAt (Elt F) (Rect.unit (s := S1x8x16) ![0, 2, 3] S1x1x1.size inb_S1x8x16_S1x1x1_0_2_3).toLoadRect (harg2.unread x0) (Shape.Idx.first (numel1_S1x1x1.symm ▸ Nat.one_pos)))) (k0_hw37 : k0_chk37 i (arg2.view.readAt (Elt F) (Rect.unit (s := S1x8x16) ![0, 2, 4] S1x1x1.size inb_S1x8x16_S1x1x1_0_2_4).toLoadRect (harg2.unread x0) (Shape.Idx.first (numel1_S1x1x1.symm ▸ Nat.one_pos)))) (k0_hw38 : k0_chk38 i (arg2.view.readAt (Elt F) (Rect.unit (s := S1x8x16) ![0, 2, 5] S1x1x1.size inb_S1x8x16_S1x1x1_0_2_5).toLoadRect (harg2.unread x0) (Shape.Idx.first (numel1_S1x1x1.symm ▸ Nat.one_pos)))) (k0_hw39 : k0_chk39 i (arg2.view.readAt (Elt F) (Rect.unit (s := S1x8x16) ![0, 2, 6] S1x1x1.size inb_S1x8x16_S1x1x1_0_2_6).toLoadRect (harg2.unread x0) (Shape.Idx.first (numel1_S1x1x1.symm ▸ Nat.one_pos)))) (k0_hw40 : k0_chk40 i (arg2.view.readAt (Elt F) (Rect.unit (s := S1x8x16) ![0, 2, 7] S1x1x1.size inb_S1x8x16_S1x1x1_0_2_7).toLoadRect (harg2.unread x0) (Shape.Idx.first (numel1_S1x1x1.symm ▸ Nat.one_pos)))) (k0_hw41 : k0_chk41 i (arg2.view.readAt (Elt F) (Rect.unit (s := S1x8x16) ![0, 2, 8] S1x1x1.size inb_S1x8x16_S1x1x1_0_2_8).toLoadRect (harg2.unread x0) (Shape.Idx.first (numel1_S1x1x1.symm ▸ Nat.one_pos)))) (k0_hw42 : k0_chk42 i (arg2.view.readAt (Elt F) (Rect.unit (s := S1x8x16) ![0, 2, 9] S1x1x1.size inb_S1x8x16_S1x1x1_0_2_9).toLoadRect (harg2.unread x0) (Shape.Idx.first (numel1_S1x1x1.symm ▸ Nat.one_pos)))) (k0_hw43 : k0_chk43 i (arg2.view.readAt (Elt F) (Rect.unit (s := S1x8x16) ![0, 2, 10] S1x1x1.size inb_S1x8x16_S1x1x1_0_2_10).toLoadRect (harg2.unread x0) (Shape.Idx.first (numel1_S1x1x1.symm ▸ Nat.one_pos)))) (k0_hw44 : k0_chk44 i (arg2.view.readAt (Elt F) (Rect.unit (s := S1x8x16) ![0, 2, 11] S1x1x1.size inb_S1x8x16_S1x1x1_0_2_11).toLoadRect (harg2.unread x0) (Shape.Idx.first (numel1_S1x1x1.symm ▸ Nat.one_pos)))) (k0_hw45 : k0_chk45 i (arg2.view.readAt (Elt F) (Rect.unit (s := S1x8x16) ![0, 2, 12] S1x1x1.size inb_S1x8x16_S1x1x1_0_2_12).toLoadRect (harg2.unread x0) (Shape.Idx.first (numel1_S1x1x1.symm ▸ Nat.one_pos)))) (k0_hw46 : k0_chk46 i (arg2.view.readAt (Elt F) (Rect.unit (s := S1x8x16) ![0, 2, 13] S1x1x1.size inb_S1x8x16_S1x1x1_0_2_13).toLoadRect (harg2.unread x0) (Shape.Idx.first (numel1_S1x1x1.symm ▸ Nat.one_pos)))) (k0_hw47 : k0_chk47 i (arg2.view.readAt (Elt F) (Rect.unit (s := S1x8x16) ![0, 2, 14] S1x1x1.size inb_S1x8x16_S1x1x1_0_2_14).toLoadRect (harg2.unread x0) (Shape.Idx.first (numel1_S1x1x1.symm ▸ Nat.one_pos)))) (k0_hw48 : k0_chk48 i (arg2.view.readAt (Elt F) (Rect.unit (s := S1x8x16) ![0, 2, 15] S1x1x1.size inb_S1x8x16_S1x1x1_0_2_15).toLoadRect (harg2.unread x0) (Shape.Idx.first (numel1_S1x1x1.symm ▸ Nat.one_pos)))) (k0_hw49 : k0_chk49 i (arg2.view.readAt (Elt F) (Rect.unit (s := S1x8x16) ![0, 3, 0] S1x1x1.size inb_S1x8x16_S1x1x1_0_3_0).toLoadRect (harg2.unread x0) (Shape.Idx.first (numel1_S1x1x1.symm ▸ Nat.one_pos)))) (k0_hw50 : k0_chk50 i (arg2.view.readAt (Elt F) (Rect.unit (s := S1x8x16) ![0, 3, 1] S1x1x1.size inb_S1x8x16_S1x1x1_0_3_1).toLoadRect (harg2.unread x0) (Shape.Idx.first (numel1_S1x1x1.symm ▸ Nat.one_pos)))) (k0_hw51 : k0_chk51 i (arg2.view.readAt (Elt F) (Rect.unit (s := S1x8x16) ![0, 3, 2] S1x1x1.size inb_S1x8x16_S1x1x1_0_3_2).toLoadRect (harg2.unread x0) (Shape.Idx.first (numel1_S1x1x1.symm ▸ Nat.one_pos)))) (k0_hw52 : k0_chk52 i (arg2.view.readAt (Elt F) (Rect.unit (s := S1x8x16) ![0, 3, 3] S1x1x1.size inb_S1x8x16_S1x1x1_0_3_3).toLoadRect (harg2.unread x0) (Shape.Idx.first (numel1_S1x1x1.symm ▸ Nat.one_pos)))) (k0_hw53 : k0_chk53 i (arg2.view.readAt (Elt F) (Rect.unit (s := S1x8x16) ![0, 3, 4] S1x1x1.size inb_S1x8x16_S1x1x1_0_3_4).toLoadRect (harg2.unread x0) (Shape.Idx.first (numel1_S1x1x1.symm ▸ Nat.one_pos)))) (k0_hw54 : k0_chk54 i (arg2.view.readAt (Elt F) (Rect.unit (s := S1x8x16) ![0, 3, 5] S1x1x1.size inb_S1x8x16_S1x1x1_0_3_5).toLoadRect (harg2.unread x0) (Shape.Idx.first (numel1_S1x1x1.symm ▸ Nat.one_pos)))) (k0_hw55 : k0_chk55 i (arg2.view.readAt (Elt F) (Rect.unit (s := S1x8x16) ![0, 3, 6] S1x1x1.size inb_S1x8x16_S1x1x1_0_3_6).toLoadRect (harg2.unread x0) (Shape.Idx.first (numel1_S1x1x1.symm ▸ Nat.one_pos)))) (k0_hw56 : k0_chk56 i (arg2.view.readAt (Elt F) (Rect.unit (s := S1x8x16) ![0, 3, 7] S1x1x1.size inb_S1x8x16_S1x1x1_0_3_7).toLoadRect (harg2.unread x0) (Shape.Idx.first (numel1_S1x1x1.symm ▸ Nat.one_pos)))) (k0_hw57 : k0_chk57 i (arg2.view.readAt (Elt F) (Rect.unit (s := S1x8x16) ![0, 3, 8] S1x1x1.size inb_S1x8x16_S1x1x1_0_3_8).toLoadRect (harg2.unread x0) (Shape.Idx.first (numel1_S1x1x1.symm ▸ Nat.one_pos)))) (k0_hw58 : k0_chk58 i (arg2.view.readAt (Elt F) (Rect.unit (s := S1x8x16) ![0, 3, 9] S1x1x1.size inb_S1x8x16_S1x1x1_0_3_9).toLoadRect (harg2.unread x0) (Shape.Idx.first (numel1_S1x1x1.symm ▸ Nat.one_pos)))) (k0_hw59 : k0_chk59 i (arg2.view.readAt (Elt F) (Rect.unit (s := S1x8x16) ![0, 3, 10] S1x1x1.size inb_S1x8x16_S1x1x1_0_3_10).toLoadRect (harg2.unread x0) (Shape.Idx.first (numel1_S1x1x1.symm ▸ Nat.one_pos)))) (k0_hw60 : k0_chk60 i (arg2.view.readAt (Elt F) (Rect.unit (s := S1x8x16) ![0, 3, 11] S1x1x1.size inb_S1x8x16_S1x1x1_0_3_11).toLoadRect (harg2.unread x0) (Shape.Idx.first (numel1_S1x1x1.symm ▸ Nat.one_pos)))) (k0_hw61 : k0_chk61 i (arg2.view.readAt (Elt F) (Rect.unit (s := S1x8x16) ![0, 3, 12] S1x1x1.size inb_S1x8x16_S1x1x1_0_3_12).toLoadRect (harg2.unread x0) (Shape.Idx.first (numel1_S1x1x1.symm ▸ Nat.one_pos)))) (k0_hw62 : k0_chk62 i (arg2.view.readAt (Elt F) (Rect.unit (s := S1x8x16) ![0, 3, 13] S1x1x1.size inb_S1x8x16_S1x1x1_0_3_13).toLoadRect (harg2.unread x0) (Shape.Idx.first (numel1_S1x1x1.symm ▸ Nat.one_pos)))) (k0_hw63 : k0_chk63 i (arg2.view.readAt (Elt F) (Rect.unit (s := S1x8x16) ![0, 3, 14] S1x1x1.size inb_S1x8x16_S1x1x1_0_3_14).toLoadRect (harg2.unread x0) (Shape.Idx.first (numel1_S1x1x1.symm ▸ Nat.one_pos)))) (k0_hw64 : k0_chk64 i (arg2.view.readAt (Elt F) (Rect.unit (s := S1x8x16) ![0, 3, 15] S1x1x1.size inb_S1x8x16_S1x1x1_0_3_15).toLoadRect (harg2.unread x0) (Shape.Idx.first (numel1_S1x1x1.symm ▸ Nat.one_pos)))) (k0_hw65 : k0_chk65 i (arg2.view.readAt (Elt F) (Rect.unit (s := S1x8x16) ![0, 4, 0] S1x1x1.size inb_S1x8x16_S1x1x1_0_4_0).toLoadRect (harg2.unread x0) (Shape.Idx.first (numel1_S1x1x1.symm ▸ Nat.one_pos)))) (k0_hw66 : k0_chk66 i (arg2.view.readAt (Elt F) (Rect.unit (s := S1x8x16) ![0, 4, 1] S1x1x1.size inb_S1x8x16_S1x1x1_0_4_1).toLoadRect (harg2.unread x0) (Shape.Idx.first (numel1_S1x1x1.symm ▸ Nat.one_pos)))) (k0_hw67 : k0_chk67 i (arg2.view.readAt (Elt F) (Rect.unit (s := S1x8x16) ![0, 4, 2] S1x1x1.size inb_S1x8x16_S1x1x1_0_4_2).toLoadRect (harg2.unread x0) (Shape.Idx.first (numel1_S1x1x1.symm ▸ Nat.one_pos)))) (k0_hw68 : k0_chk68 i (arg2.view.readAt (Elt F) (Rect.unit (s := S1x8x16) ![0, 4, 3] S1x1x1.size inb_S1x8x16_S1x1x1_0_4_3).toLoadRect (harg2.unread x0) (Shape.Idx.first (numel1_S1x1x1.symm ▸ Nat.one_pos)))) (k0_hw69 : k0_chk69 i (arg2.view.readAt (Elt F) (Rect.unit (s := S1x8x16) ![0, 4, 4] S1x1x1.size inb_S1x8x16_S1x1x1_0_4_4).toLoadRect (harg2.unread x0) (Shape.Idx.first (numel1_S1x1x1.symm ▸ Nat.one_pos)))) (k0_hw70 : k0_chk70 i (arg2.view.readAt (Elt F) (Rect.unit (s := S1x8x16) ![0, 4, 5] S1x1x1.size inb_S1x8x16_S1x1x1_0_4_5).toLoadRect (harg2.unread x0) (Shape.Idx.first (numel1_S1x1x1.symm ▸ Nat.one_pos)))) (k0_hw71 : k0_chk71 i (arg2.view.readAt (Elt F) (Rect.unit (s := S1x8x16) ![0, 4, 6] S1x1x1.size inb_S1x8x16_S1x1x1_0_4_6).toLoadRect (harg2.unread x0) (Shape.Idx.first (numel1_S1x1x1.symm ▸ Nat.one_pos)))) (k0_hw72 : k0_chk72 i (arg2.view.readAt (Elt F) (Rect.unit (s := S1x8x16) ![0, 4, 7] S1x1x1.size inb_S1x8x16_S1x1x1_0_4_7).toLoadRect (harg2.unread x0) (Shape.Idx.first (numel1_S1x1x1.symm ▸ Nat.one_pos)))) (k0_hw73 : k0_chk73 i (arg2.view.readAt (Elt F) (Rect.unit (s := S1x8x16) ![0, 4, 8] S1x1x1.size inb_S1x8x16_S1x1x1_0_4_8).toLoadRect (harg2.unread x0) (Shape.Idx.first (numel1_S1x1x1.symm ▸ Nat.one_pos)))) (k0_hw74 : k0_chk74 i (arg2.view.readAt (Elt F) (Rect.unit (s := S1x8x16) ![0, 4, 9] S1x1x1.size inb_S1x8x16_S1x1x1_0_4_9).toLoadRect (harg2.unread x0) (Shape.Idx.first (numel1_S1x1x1.symm ▸ Nat.one_pos)))) (k0_hw75 : k0_chk75 i (arg2.view.readAt (Elt F) (Rect.unit (s := S1x8x16) ![0, 4, 10] S1x1x1.size inb_S1x8x16_S1x1x1_0_4_10).toLoadRect (harg2.unread x0) (Shape.Idx.first (numel1_S1x1x1.symm ▸ Nat.one_pos)))) (k0_hw76 : k0_chk76 i (arg2.view.readAt (Elt F) (Rect.unit (s := S1x8x16) ![0, 4, 11] S1x1x1.size inb_S1x8x16_S1x1x1_0_4_11).toLoadRect (harg2.unread x0) (Shape.Idx.first (numel1_S1x1x1.symm ▸ Nat.one_pos)))) (k0_hw77 : k0_chk77 i (arg2.view.readAt (Elt F) (Rect.unit (s := S1x8x16) ![0, 4, 12] S1x1x1.size inb_S1x8x16_S1x1x1_0_4_12).toLoadRect (harg2.unread x0) (Shape.Idx.first (numel1_S1x1x1.symm ▸ Nat.one_pos)))) (k0_hw78 : k0_chk78 i (arg2.view.readAt (Elt F) (Rect.unit (s := S1x8x16) ![0, 4, 13] S1x1x1.size inb_S1x8x16_S1x1x1_0_4_13).toLoadRect (harg2.unread x0) (Shape.Idx.first (numel1_S1x1x1.symm ▸ Nat.one_pos)))) (k0_hw79 : k0_chk79 i (arg2.view.readAt (Elt F) (Rect.unit (s := S1x8x16) ![0, 4, 14] S1x1x1.size inb_S1x8x16_S1x1x1_0_4_14).toLoadRect (harg2.unread x0) (Shape.Idx.first (numel1_S1x1x1.symm ▸ Nat.one_pos)))) (k0_hw80 : k0_chk80 i (arg2.view.readAt (Elt F) (Rect.unit (s := S1x8x16) ![0, 4, 15] S1x1x1.size inb_S1x8x16_S1x1x1_0_4_15).toLoadRect (harg2.unread x0) (Shape.Idx.first (numel1_S1x1x1.symm ▸ Nat.one_pos)))) (k0_hw81 : k0_chk81 i (arg2.view.readAt (Elt F) (Rect.unit (s := S1x8x16) ![0, 5, 0] S1x1x1.size inb_S1x8x16_S1x1x1_0_5_0).toLoadRect (harg2.unread x0) (Shape.Idx.first (numel1_S1x1x1.symm ▸ Nat.one_pos)))) (k0_hw82 : k0_chk82 i (arg2.view.readAt (Elt F) (Rect.unit (s := S1x8x16) ![0, 5, 1] S1x1x1.size inb_S1x8x16_S1x1x1_0_5_1).toLoadRect (harg2.unread x0) (Shape.Idx.first (numel1_S1x1x1.symm ▸ Nat.one_pos)))) (k0_hw83 : k0_chk83 i (arg2.view.readAt (Elt F) (Rect.unit (s := S1x8x16) ![0, 5, 2] S1x1x1.size inb_S1x8x16_S1x1x1_0_5_2).toLoadRect (harg2.unread x0) (Shape.Idx.first (numel1_S1x1x1.symm ▸ Nat.one_pos)))) (k0_hw84 : k0_chk84 i (arg2.view.readAt (Elt F) (Rect.unit (s := S1x8x16) ![0, 5, 3] S1x1x1.size inb_S1x8x16_S1x1x1_0_5_3).toLoadRect (harg2.unread x0) (Shape.Idx.first (numel1_S1x1x1.symm ▸ Nat.one_pos)))) (k0_hw85 : k0_chk85 i (arg2.view.readAt (Elt F) (Rect.unit (s := S1x8x16) ![0, 5, 4] S1x1x1.size inb_S1x8x16_S1x1x1_0_5_4).toLoadRect (harg2.unread x0) (Shape.Idx.first (numel1_S1x1x1.symm ▸ Nat.one_pos)))) (k0_hw86 : k0_chk86 i (arg2.view.readAt (Elt F) (Rect.unit (s := S1x8x16) ![0, 5, 5] S1x1x1.size inb_S1x8x16_S1x1x1_0_5_5).toLoadRect (harg2.unread x0) (Shape.Idx.first (numel1_S1x1x1.symm ▸ Nat.one_pos)))) (k0_hw87 : k0_chk87 i (arg2.view.readAt (Elt F) (Rect.unit (s := S1x8x16) ![0, 5, 6] S1x1x1.size inb_S1x8x16_S1x1x1_0_5_6).toLoadRect (harg2.unread x0) (Shape.Idx.first (numel1_S1x1x1.symm ▸ Nat.one_pos)))) (k0_hw88 : k0_chk88 i (arg2.view.readAt (Elt F) (Rect.unit (s := S1x8x16) ![0, 5, 7] S1x1x1.size inb_S1x8x16_S1x1x1_0_5_7).toLoadRect (harg2.unread x0) (Shape.Idx.first (numel1_S1x1x1.symm ▸ Nat.one_pos)))) (k0_hw89 : k0_chk89 i (arg2.view.readAt (Elt F) (Rect.unit (s := S1x8x16) ![0, 5, 8] S1x1x1.size inb_S1x8x16_S1x1x1_0_5_8).toLoadRect (harg2.unread x0) (Shape.Idx.first (numel1_S1x1x1.symm ▸ Nat.one_pos)))) (k0_hw90 : k0_chk90 i (arg2.view.readAt (Elt F) (Rect.unit (s := S1x8x16) ![0, 5, 9] S1x1x1.size inb_S1x8x16_S1x1x1_0_5_9).toLoadRect (harg2.unread x0) (Shape.Idx.first (numel1_S1x1x1.symm ▸ Nat.one_pos)))) (k0_hw91 : k0_chk91 i (arg2.view.readAt (Elt F) (Rect.unit (s := S1x8x16) ![0, 5, 10] S1x1x1.size inb_S1x8x16_S1x1x1_0_5_10).toLoadRect (harg2.unread x0) (Shape.Idx.first (numel1_S1x1x1.symm ▸ Nat.one_pos)))) (k0_hw92 : k0_chk92 i (arg2.view.readAt (Elt F) (Rect.unit (s := S1x8x16) ![0, 5, 11] S1x1x1.size inb_S1x8x16_S1x1x1_0_5_11).toLoadRect (harg2.unread x0) (Shape.Idx.first (numel1_S1x1x1.symm ▸ Nat.one_pos)))) (k0_hw93 : k0_chk93 i (arg2.view.readAt (Elt F) (Rect.unit (s := S1x8x16) ![0, 5, 12] S1x1x1.size inb_S1x8x16_S1x1x1_0_5_12).toLoadRect (harg2.unread x0) (Shape.Idx.first (numel1_S1x1x1.symm ▸ Nat.one_pos)))) (k0_hw94 : k0_chk94 i (arg2.view.readAt (Elt F) (Rect.unit (s := S1x8x16) ![0, 5, 13] S1x1x1.size inb_S1x8x16_S1x1x1_0_5_13).toLoadRect (harg2.unread x0) (Shape.Idx.first (numel1_S1x1x1.symm ▸ Nat.one_pos)))) (k0_hw95 : k0_chk95 i (arg2.view.readAt (Elt F) (Rect.unit (s := S1x8x16) ![0, 5, 14] S1x1x1.size inb_S1x8x16_S1x1x1_0_5_14).toLoadRect (harg2.unread x0) (Shape.Idx.first (numel1_S1x1x1.symm ▸ Nat.one_pos)))) (k0_hw96 : k0_chk96 i (arg2.view.readAt (Elt F) (Rect.unit (s := S1x8x16) ![0, 5, 15] S1x1x1.size inb_S1x8x16_S1x1x1_0_5_15).toLoadRect (harg2.unread x0) (Shape.Idx.first (numel1_S1x1x1.symm ▸ Nat.one_pos)))) (k0_hw97 : k0_chk97 i (arg2.view.readAt (Elt F) (Rect.unit (s := S1x8x16) ![0, 6, 0] S1x1x1.size inb_S1x8x16_S1x1x1_0_6_0).toLoadRect (harg2.unread x0) (Shape.Idx.first (numel1_S1x1x1.symm ▸ Nat.one_pos)))) (k0_hw98 : k0_chk98 i (arg2.view.readAt (Elt F) (Rect.unit (s := S1x8x16) ![0, 6, 1] S1x1x1.size inb_S1x8x16_S1x1x1_0_6_1).toLoadRect (harg2.unread x0) (Shape.Idx.first (numel1_S1x1x1.symm ▸ Nat.one_pos)))) (k0_hw99 : k0_chk99 i (arg2.view.readAt (Elt F) (Rect.unit (s := S1x8x16) ![0, 6, 2] S1x1x1.size inb_S1x8x16_S1x1x1_0_6_2).toLoadRect (harg2.unread x0) (Shape.Idx.first (numel1_S1x1x1.symm ▸ Nat.one_pos)))) (k0_hw100 : k0_chk100 i (arg2.view.readAt (Elt F) (Rect.unit (s := S1x8x16) ![0, 6, 3] S1x1x1.size inb_S1x8x16_S1x1x1_0_6_3).toLoadRect (harg2.unread x0) (Shape.Idx.first (numel1_S1x1x1.symm ▸ Nat.one_pos)))) (k0_hw101 : k0_chk101 i (arg2.view.readAt (Elt F) (Rect.unit (s := S1x8x16) ![0, 6, 4] S1x1x1.size inb_S1x8x16_S1x1x1_0_6_4).toLoadRect (harg2.unread x0) (Shape.Idx.first (numel1_S1x1x1.symm ▸ Nat.one_pos)))) (k0_hw102 : k0_chk102 i (arg2.view.readAt (Elt F) (Rect.unit (s := S1x8x16) ![0, 6, 5] S1x1x1.size inb_S1x8x16_S1x1x1_0_6_5).toLoadRect (harg2.unread x0) (Shape.Idx.first (numel1_S1x1x1.symm ▸ Nat.one_pos)))) (k0_hw103 : k0_chk103 i (arg2.view.readAt (Elt F) (Rect.unit (s := S1x8x16) ![0, 6, 6] S1x1x1.size inb_S1x8x16_S1x1x1_0_6_6).toLoadRect (harg2.unread x0) (Shape.Idx.first (numel1_S1x1x1.symm ▸ Nat.one_pos)))) (k0_hw104 : k0_chk104 i (arg2.view.readAt (Elt F) (Rect.unit (s := S1x8x16) ![0, 6, 7] S1x1x1.size inb_S1x8x16_S1x1x1_0_6_7).toLoadRect (harg2.unread x0) (Shape.Idx.first (numel1_S1x1x1.symm ▸ Nat.one_pos)))) (k0_hw105 : k0_chk105 i (arg2.view.readAt (Elt F) (Rect.unit (s := S1x8x16) ![0, 6, 8] S1x1x1.size inb_S1x8x16_S1x1x1_0_6_8).toLoadRect (harg2.unread x0) (Shape.Idx.first (numel1_S1x1x1.symm ▸ Nat.one_pos)))) (k0_hw106 : k0_chk106 i (arg2.view.readAt (Elt F) (Rect.unit (s := S1x8x16) ![0, 6, 9] S1x1x1.size inb_S1x8x16_S1x1x1_0_6_9).toLoadRect (harg2.unread x0) (Shape.Idx.first (numel1_S1x1x1.symm ▸ Nat.one_pos)))) (k0_hw107 : k0_chk107 i (arg2.view.readAt (Elt F) (Rect.unit (s := S1x8x16) ![0, 6, 10] S1x1x1.size inb_S1x8x16_S1x1x1_0_6_10).toLoadRect (harg2.unread x0) (Shape.Idx.first (numel1_S1x1x1.symm ▸ Nat.one_pos)))) (k0_hw108 : k0_chk108 i (arg2.view.readAt (Elt F) (Rect.unit (s := S1x8x16) ![0, 6, 11] S1x1x1.size inb_S1x8x16_S1x1x1_0_6_11).toLoadRect (harg2.unread x0) (Shape.Idx.first (numel1_S1x1x1.symm ▸ Nat.one_pos)))) (k0_hw109 : k0_chk109 i (arg2.view.readAt (Elt F) (Rect.unit (s := S1x8x16) ![0, 6, 12] S1x1x1.size inb_S1x8x16_S1x1x1_0_6_12).toLoadRect (harg2.unread x0) (Shape.Idx.first (numel1_S1x1x1.symm ▸ Nat.one_pos)))) (k0_hw110 : k0_chk110 i (arg2.view.readAt (Elt F) (Rect.unit (s := S1x8x16) ![0, 6, 13] S1x1x1.size inb_S1x8x16_S1x1x1_0_6_13).toLoadRect (harg2.unread x0) (Shape.Idx.first (numel1_S1x1x1.symm ▸ Nat.one_pos)))) (k0_hw111 : k0_chk111 i (arg2.view.readAt (Elt F) (Rect.unit (s := S1x8x16) ![0, 6, 14] S1x1x1.size inb_S1x8x16_S1x1x1_0_6_14).toLoadRect (harg2.unread x0) (Shape.Idx.first (numel1_S1x1x1.symm ▸ Nat.one_pos)))) (k0_hw112 : k0_chk112 i (arg2.view.readAt (Elt F) (Rect.unit (s := S1x8x16) ![0, 6, 15] S1x1x1.size inb_S1x8x16_S1x1x1_0_6_15).toLoadRect (harg2.unread x0) (Shape.Idx.first (numel1_S1x1x1.symm ▸ Nat.one_pos)))) (k0_hw113 : k0_chk113 i (arg2.view.readAt (Elt F) (Rect.unit (s := S1x8x16) ![0, 7, 0] S1x1x1.size inb_S1x8x16_S1x1x1_0_7_0).toLoadRect (harg2.unread x0) (Shape.Idx.first (numel1_S1x1x1.symm ▸ Nat.one_pos)))) (k0_hw114 : k0_chk114 i (arg2.view.readAt (Elt F) (Rect.unit (s := S1x8x16) ![0, 7, 1] S1x1x1.size inb_S1x8x16_S1x1x1_0_7_1).toLoadRect (harg2.unread x0) (Shape.Idx.first (numel1_S1x1x1.symm ▸ Nat.one_pos)))) (k0_hw115 : k0_chk115 i (arg2.view.readAt (Elt F) (Rect.unit (s := S1x8x16) ![0, 7, 2] S1x1x1.size inb_S1x8x16_S1x1x1_0_7_2).toLoadRect (harg2.unread x0) (Shape.Idx.first (numel1_S1x1x1.symm ▸ Nat.one_pos)))) (k0_hw116 : k0_chk116 i (arg2.view.readAt (Elt F) (Rect.unit (s := S1x8x16) ![0, 7, 3] S1x1x1.size inb_S1x8x16_S1x1x1_0_7_3).toLoadRect (harg2.unread x0) (Shape.Idx.first (numel1_S1x1x1.symm ▸ Nat.one_pos)))) (k0_hw117 : k0_chk117 i (arg2.view.readAt (Elt F) (Rect.unit (s := S1x8x16) ![0, 7, 4] S1x1x1.size inb_S1x8x16_S1x1x1_0_7_4).toLoadRect (harg2.unread x0) (Shape.Idx.first (numel1_S1x1x1.symm ▸ Nat.one_pos)))) (k0_hw118 : k0_chk118 i (arg2.view.readAt (Elt F) (Rect.unit (s := S1x8x16) ![0, 7, 5] S1x1x1.size inb_S1x8x16_S1x1x1_0_7_5).toLoadRect (harg2.unread x0) (Shape.Idx.first (numel1_S1x1x1.symm ▸ Nat.one_pos)))) (k0_hw119 : k0_chk119 i (arg2.view.readAt (Elt F) (Rect.unit (s := S1x8x16) ![0, 7, 6] S1x1x1.size inb_S1x8x16_S1x1x1_0_7_6).toLoadRect (harg2.unread x0) (Shape.Idx.first (numel1_S1x1x1.symm ▸ Nat.one_pos)))) (k0_hw120 : k0_chk120 i (arg2.view.readAt (Elt F) (Rect.unit (s := S1x8x16) ![0, 7, 7] S1x1x1.size inb_S1x8x16_S1x1x1_0_7_7).toLoadRect (harg2.unread x0) (Shape.Idx.first (numel1_S1x1x1.symm ▸ Nat.one_pos)))) (k0_hw121 : k0_chk121 i (arg2.view.readAt (Elt F) (Rect.unit (s := S1x8x16) ![0, 7, 8] S1x1x1.size inb_S1x8x16_S1x1x1_0_7_8).toLoadRect (harg2.unread x0) (Shape.Idx.first (numel1_S1x1x1.symm ▸ Nat.one_pos)))) (k0_hw122 : k0_chk122 i (arg2.view.readAt (Elt F) (Rect.unit (s := S1x8x16) ![0, 7, 9] S1x1x1.size inb_S1x8x16_S1x1x1_0_7_9).toLoadRect (harg2.unread x0) (Shape.Idx.first (numel1_S1x1x1.symm ▸ Nat.one_pos)))) (k0_hw123 : k0_chk123 i (arg2.view.readAt (Elt F) (Rect.unit (s := S1x8x16) ![0, 7, 10] S1x1x1.size inb_S1x8x16_S1x1x1_0_7_10).toLoadRect (harg2.unread x0) (Shape.Idx.first (numel1_S1x1x1.symm ▸ Nat.one_pos)))) (k0_hw124 : k0_chk124 i (arg2.view.readAt (Elt F) (Rect.unit (s := S1x8x16) ![0, 7, 11] S1x1x1.size inb_S1x8x16_S1x1x1_0_7_11).toLoadRect (harg2.unread x0) (Shape.Idx.first (numel1_S1x1x1.symm ▸ Nat.one_pos)))) (k0_hw125 : k0_chk125 i (arg2.view.readAt (Elt F) (Rect.unit (s := S1x8x16) ![0, 7, 12] S1x1x1.size inb_S1x8x16_S1x1x1_0_7_12).toLoadRect (harg2.unread x0) (Shape.Idx.first (numel1_S1x1x1.symm ▸ Nat.one_pos)))) (k0_hw126 : k0_chk126 i (arg2.view.readAt (Elt F) (Rect.unit (s := S1x8x16) ![0, 7, 13] S1x1x1.size inb_S1x8x16_S1x1x1_0_7_13).toLoadRect (harg2.unread x0) (Shape.Idx.first (numel1_S1x1x1.symm ▸ Nat.one_pos)))) (k0_hw127 : k0_chk127 i (arg2.view.readAt (Elt F) (Rect.unit (s := S1x8x16) ![0, 7, 14] S1x1x1.size inb_S1x8x16_S1x1x1_0_7_14).toLoadRect (harg2.unread x0) (Shape.Idx.first (numel1_S1x1x1.symm ▸ Nat.one_pos)))) (k0_hw128 : k0_chk128 i (arg2.view.readAt (Elt F) (Rect.unit (s := S1x8x16) ![0, 7, 15] S1x1x1.size inb_S1x8x16_S1x1x1_0_7_15).toLoadRect (harg2.unread x0) (Shape.Idx.first (numel1_S1x1x1.symm ▸ Nat.one_pos)))) :
    { L1 : List (View.Piece (Elt F) S1x8x128 .f32) //
      ∀ (W : Waits sig Unit) (K : PUnit → sProp 𝕄),
        iprop(owns (c : Thread nD τ) arg2 fullShare x0 ∗ (∃ d, owns (c : Thread nD τ) arg4 fullShare d) ∗ (∃ d, owns (c : Thread nD τ) arg5 fullShare d) ∗ (∃ d, owns (c : Thread nD τ) arg6 fullShare d) ∗ semVal ((c : Thread nD τ), SemLoc.dma 4) 0 ∗ semVal ((c : Thread nD τ), SemLoc.dma 5) 0 ∗ hbPt0 c hbM0_0 fh0 ∗ owes (c : Thread nD τ) 0 W
            ∗ (iprop(owns (c : Thread nD τ) arg2 fullShare x0 ∗ (∃ f, arg4.view.loc (c : Thread nD τ) ↦[arg4.view.set]{fullShare} arg4.view.writes (Elt F) f L1) ∗ (∃ d, owns (c : Thread nD τ) arg5 fullShare d) ∗ (∃ d, owns (c : Thread nD τ) arg6 fullShare d) ∗ semVal ((c : Thread nD τ), SemLoc.dma 4) 0 ∗ semVal ((c : Thread nD τ), SemLoc.dma 5) 0 ∗ hbPt0 c hbM0_0 fh0 ∗ (∃ W', owes (c : Thread nD τ) 0 W')) -∗ K ⟨⟩))
          ⊢ wp frame (wpE (defs₀ (F := F)) Variants.none c none) Set.univ (cc0__gather_max_kernel i arg2 harg2 (Memref.whole main_v1) (Memref.isWhole_whole _) arg4 harg4 arg5 harg5 arg6 harg6 cc0_scratch2) K } :=
  ⟨[(⟨Rect.unit (s := S1x8x128) ![0, 0, 0] ![1, 8, 128] inb_S1x8x128_S1x8x128_0_0_0, outBlock c i x0 fh0⟩ : View.Piece (Elt F) S1x8x128 .f32)],
    fun W K => by
      unfold owns
      iintro ⟨H0, ⟨%d1, %f1, -, H1⟩, ⟨%ds0, %fs0, -, HS0⟩, ⟨%ds1, %fs1, -, HS1⟩, Hq0, Hq1, Hh0, HW, Hk⟩
      have h := (kernelRunRaw0_A c i arg2 harg2 arg4 harg4 arg5 harg5 arg6 harg6 x0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64 k0_hw65 k0_hw66 k0_hw67 k0_hw68 k0_hw69 k0_hw70 k0_hw71 k0_hw72 k0_hw73 k0_hw74 k0_hw75 k0_hw76 k0_hw77 k0_hw78 k0_hw79 k0_hw80 k0_hw81 k0_hw82 k0_hw83 k0_hw84 k0_hw85 k0_hw86 k0_hw87 k0_hw88 k0_hw89 k0_hw90 k0_hw91 k0_hw92 k0_hw93 k0_hw94 k0_hw95 k0_hw96 k0_hw97 k0_hw98 k0_hw99 k0_hw100 k0_hw101 k0_hw102 k0_hw103 k0_hw104 k0_hw105 k0_hw106 k0_hw107 k0_hw108 k0_hw109 k0_hw110 k0_hw111 k0_hw112 k0_hw113 k0_hw114 k0_hw115 k0_hw116 k0_hw117 k0_hw118 k0_hw119 k0_hw120 k0_hw121 k0_hw122 k0_hw123 k0_hw124 k0_hw125 k0_hw126 k0_hw127 k0_hw128 f1 fs0 fs1).property W K
      rw [raw_val c i arg2 harg2 arg4 harg4 arg5 harg5 arg6 harg6 x0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64 k0_hw65 k0_hw66 k0_hw67 k0_hw68 k0_hw69 k0_hw70 k0_hw71 k0_hw72 k0_hw73 k0_hw74 k0_hw75 k0_hw76 k0_hw77 k0_hw78 k0_hw79 k0_hw80 k0_hw81 k0_hw82 k0_hw83 k0_hw84 k0_hw85 k0_hw86 k0_hw87 k0_hw88 k0_hw89 k0_hw90 k0_hw91 k0_hw92 k0_hw93 k0_hw94 k0_hw95 k0_hw96 k0_hw97 k0_hw98 k0_hw99 k0_hw100 k0_hw101 k0_hw102 k0_hw103 k0_hw104 k0_hw105 k0_hw106 k0_hw107 k0_hw108 k0_hw109 k0_hw110 k0_hw111 k0_hw112 k0_hw113 k0_hw114 k0_hw115 k0_hw116 k0_hw117 k0_hw118 k0_hw119 k0_hw120 k0_hw121 k0_hw122 k0_hw123 k0_hw124 k0_hw125 k0_hw126 k0_hw127 k0_hw128 f1 fs0 fs1] at h
      unfold owns at h
      iapply h
      isplitl [H0]; · iexact H0
      isplitl [H1]; · iexact H1
      isplitl [HS0]; · iexact HS0
      isplitl [HS1]; · iexact HS1
      isplitl [Hq0]; · iexact Hq0
      isplitl [Hq1]; · iexact Hq1
      isplitl [Hh0]; · iexact Hh0
      isplitl [HW]; · iexact HW
      iexact Hk⟩

/-- The closed list of pieces, by unfolding. -/
theorem run_val (c : Dev nD) (i : grid0.Coords) (arg2 : Memref sig .tc .smem S1x8x16 .i32) (harg2 : arg2.IsWhole) (arg4 : Memref sig .tc .vmem S1x8x128 .f32) (harg4 : arg4.IsWhole) (arg5 : Memref sig .tc .vmem S8x128 .f32) (harg5 : arg5.IsWhole) (arg6 : Memref sig .tc .vmem S2x1x128 .f32) (harg6 : arg6.IsWhole)
    (x0 : Vec F S1x8x16 .i32) (fh0 : HbBuf0 (F := F) c hbM0_0) (k0_hw1 : k0_chk1 i (arg2.view.readAt (Elt F) (Rect.unit (s := S1x8x16) ![0, 0, 0] S1x1x1.size inb_S1x8x16_S1x1x1_0_0_0).toLoadRect (harg2.unread x0) (Shape.Idx.first (numel1_S1x1x1.symm ▸ Nat.one_pos)))) (k0_hw2 : k0_chk2 i (arg2.view.readAt (Elt F) (Rect.unit (s := S1x8x16) ![0, 0, 1] S1x1x1.size inb_S1x8x16_S1x1x1_0_0_1).toLoadRect (harg2.unread x0) (Shape.Idx.first (numel1_S1x1x1.symm ▸ Nat.one_pos)))) (k0_hw3 : k0_chk3 i (arg2.view.readAt (Elt F) (Rect.unit (s := S1x8x16) ![0, 0, 2] S1x1x1.size inb_S1x8x16_S1x1x1_0_0_2).toLoadRect (harg2.unread x0) (Shape.Idx.first (numel1_S1x1x1.symm ▸ Nat.one_pos)))) (k0_hw4 : k0_chk4 i (arg2.view.readAt (Elt F) (Rect.unit (s := S1x8x16) ![0, 0, 3] S1x1x1.size inb_S1x8x16_S1x1x1_0_0_3).toLoadRect (harg2.unread x0) (Shape.Idx.first (numel1_S1x1x1.symm ▸ Nat.one_pos)))) (k0_hw5 : k0_chk5 i (arg2.view.readAt (Elt F) (Rect.unit (s := S1x8x16) ![0, 0, 4] S1x1x1.size inb_S1x8x16_S1x1x1_0_0_4).toLoadRect (harg2.unread x0) (Shape.Idx.first (numel1_S1x1x1.symm ▸ Nat.one_pos)))) (k0_hw6 : k0_chk6 i (arg2.view.readAt (Elt F) (Rect.unit (s := S1x8x16) ![0, 0, 5] S1x1x1.size inb_S1x8x16_S1x1x1_0_0_5).toLoadRect (harg2.unread x0) (Shape.Idx.first (numel1_S1x1x1.symm ▸ Nat.one_pos)))) (k0_hw7 : k0_chk7 i (arg2.view.readAt (Elt F) (Rect.unit (s := S1x8x16) ![0, 0, 6] S1x1x1.size inb_S1x8x16_S1x1x1_0_0_6).toLoadRect (harg2.unread x0) (Shape.Idx.first (numel1_S1x1x1.symm ▸ Nat.one_pos)))) (k0_hw8 : k0_chk8 i (arg2.view.readAt (Elt F) (Rect.unit (s := S1x8x16) ![0, 0, 7] S1x1x1.size inb_S1x8x16_S1x1x1_0_0_7).toLoadRect (harg2.unread x0) (Shape.Idx.first (numel1_S1x1x1.symm ▸ Nat.one_pos)))) (k0_hw9 : k0_chk9 i (arg2.view.readAt (Elt F) (Rect.unit (s := S1x8x16) ![0, 0, 8] S1x1x1.size inb_S1x8x16_S1x1x1_0_0_8).toLoadRect (harg2.unread x0) (Shape.Idx.first (numel1_S1x1x1.symm ▸ Nat.one_pos)))) (k0_hw10 : k0_chk10 i (arg2.view.readAt (Elt F) (Rect.unit (s := S1x8x16) ![0, 0, 9] S1x1x1.size inb_S1x8x16_S1x1x1_0_0_9).toLoadRect (harg2.unread x0) (Shape.Idx.first (numel1_S1x1x1.symm ▸ Nat.one_pos)))) (k0_hw11 : k0_chk11 i (arg2.view.readAt (Elt F) (Rect.unit (s := S1x8x16) ![0, 0, 10] S1x1x1.size inb_S1x8x16_S1x1x1_0_0_10).toLoadRect (harg2.unread x0) (Shape.Idx.first (numel1_S1x1x1.symm ▸ Nat.one_pos)))) (k0_hw12 : k0_chk12 i (arg2.view.readAt (Elt F) (Rect.unit (s := S1x8x16) ![0, 0, 11] S1x1x1.size inb_S1x8x16_S1x1x1_0_0_11).toLoadRect (harg2.unread x0) (Shape.Idx.first (numel1_S1x1x1.symm ▸ Nat.one_pos)))) (k0_hw13 : k0_chk13 i (arg2.view.readAt (Elt F) (Rect.unit (s := S1x8x16) ![0, 0, 12] S1x1x1.size inb_S1x8x16_S1x1x1_0_0_12).toLoadRect (harg2.unread x0) (Shape.Idx.first (numel1_S1x1x1.symm ▸ Nat.one_pos)))) (k0_hw14 : k0_chk14 i (arg2.view.readAt (Elt F) (Rect.unit (s := S1x8x16) ![0, 0, 13] S1x1x1.size inb_S1x8x16_S1x1x1_0_0_13).toLoadRect (harg2.unread x0) (Shape.Idx.first (numel1_S1x1x1.symm ▸ Nat.one_pos)))) (k0_hw15 : k0_chk15 i (arg2.view.readAt (Elt F) (Rect.unit (s := S1x8x16) ![0, 0, 14] S1x1x1.size inb_S1x8x16_S1x1x1_0_0_14).toLoadRect (harg2.unread x0) (Shape.Idx.first (numel1_S1x1x1.symm ▸ Nat.one_pos)))) (k0_hw16 : k0_chk16 i (arg2.view.readAt (Elt F) (Rect.unit (s := S1x8x16) ![0, 0, 15] S1x1x1.size inb_S1x8x16_S1x1x1_0_0_15).toLoadRect (harg2.unread x0) (Shape.Idx.first (numel1_S1x1x1.symm ▸ Nat.one_pos)))) (k0_hw17 : k0_chk17 i (arg2.view.readAt (Elt F) (Rect.unit (s := S1x8x16) ![0, 1, 0] S1x1x1.size inb_S1x8x16_S1x1x1_0_1_0).toLoadRect (harg2.unread x0) (Shape.Idx.first (numel1_S1x1x1.symm ▸ Nat.one_pos)))) (k0_hw18 : k0_chk18 i (arg2.view.readAt (Elt F) (Rect.unit (s := S1x8x16) ![0, 1, 1] S1x1x1.size inb_S1x8x16_S1x1x1_0_1_1).toLoadRect (harg2.unread x0) (Shape.Idx.first (numel1_S1x1x1.symm ▸ Nat.one_pos)))) (k0_hw19 : k0_chk19 i (arg2.view.readAt (Elt F) (Rect.unit (s := S1x8x16) ![0, 1, 2] S1x1x1.size inb_S1x8x16_S1x1x1_0_1_2).toLoadRect (harg2.unread x0) (Shape.Idx.first (numel1_S1x1x1.symm ▸ Nat.one_pos)))) (k0_hw20 : k0_chk20 i (arg2.view.readAt (Elt F) (Rect.unit (s := S1x8x16) ![0, 1, 3] S1x1x1.size inb_S1x8x16_S1x1x1_0_1_3).toLoadRect (harg2.unread x0) (Shape.Idx.first (numel1_S1x1x1.symm ▸ Nat.one_pos)))) (k0_hw21 : k0_chk21 i (arg2.view.readAt (Elt F) (Rect.unit (s := S1x8x16) ![0, 1, 4] S1x1x1.size inb_S1x8x16_S1x1x1_0_1_4).toLoadRect (harg2.unread x0) (Shape.Idx.first (numel1_S1x1x1.symm ▸ Nat.one_pos)))) (k0_hw22 : k0_chk22 i (arg2.view.readAt (Elt F) (Rect.unit (s := S1x8x16) ![0, 1, 5] S1x1x1.size inb_S1x8x16_S1x1x1_0_1_5).toLoadRect (harg2.unread x0) (Shape.Idx.first (numel1_S1x1x1.symm ▸ Nat.one_pos)))) (k0_hw23 : k0_chk23 i (arg2.view.readAt (Elt F) (Rect.unit (s := S1x8x16) ![0, 1, 6] S1x1x1.size inb_S1x8x16_S1x1x1_0_1_6).toLoadRect (harg2.unread x0) (Shape.Idx.first (numel1_S1x1x1.symm ▸ Nat.one_pos)))) (k0_hw24 : k0_chk24 i (arg2.view.readAt (Elt F) (Rect.unit (s := S1x8x16) ![0, 1, 7] S1x1x1.size inb_S1x8x16_S1x1x1_0_1_7).toLoadRect (harg2.unread x0) (Shape.Idx.first (numel1_S1x1x1.symm ▸ Nat.one_pos)))) (k0_hw25 : k0_chk25 i (arg2.view.readAt (Elt F) (Rect.unit (s := S1x8x16) ![0, 1, 8] S1x1x1.size inb_S1x8x16_S1x1x1_0_1_8).toLoadRect (harg2.unread x0) (Shape.Idx.first (numel1_S1x1x1.symm ▸ Nat.one_pos)))) (k0_hw26 : k0_chk26 i (arg2.view.readAt (Elt F) (Rect.unit (s := S1x8x16) ![0, 1, 9] S1x1x1.size inb_S1x8x16_S1x1x1_0_1_9).toLoadRect (harg2.unread x0) (Shape.Idx.first (numel1_S1x1x1.symm ▸ Nat.one_pos)))) (k0_hw27 : k0_chk27 i (arg2.view.readAt (Elt F) (Rect.unit (s := S1x8x16) ![0, 1, 10] S1x1x1.size inb_S1x8x16_S1x1x1_0_1_10).toLoadRect (harg2.unread x0) (Shape.Idx.first (numel1_S1x1x1.symm ▸ Nat.one_pos)))) (k0_hw28 : k0_chk28 i (arg2.view.readAt (Elt F) (Rect.unit (s := S1x8x16) ![0, 1, 11] S1x1x1.size inb_S1x8x16_S1x1x1_0_1_11).toLoadRect (harg2.unread x0) (Shape.Idx.first (numel1_S1x1x1.symm ▸ Nat.one_pos)))) (k0_hw29 : k0_chk29 i (arg2.view.readAt (Elt F) (Rect.unit (s := S1x8x16) ![0, 1, 12] S1x1x1.size inb_S1x8x16_S1x1x1_0_1_12).toLoadRect (harg2.unread x0) (Shape.Idx.first (numel1_S1x1x1.symm ▸ Nat.one_pos)))) (k0_hw30 : k0_chk30 i (arg2.view.readAt (Elt F) (Rect.unit (s := S1x8x16) ![0, 1, 13] S1x1x1.size inb_S1x8x16_S1x1x1_0_1_13).toLoadRect (harg2.unread x0) (Shape.Idx.first (numel1_S1x1x1.symm ▸ Nat.one_pos)))) (k0_hw31 : k0_chk31 i (arg2.view.readAt (Elt F) (Rect.unit (s := S1x8x16) ![0, 1, 14] S1x1x1.size inb_S1x8x16_S1x1x1_0_1_14).toLoadRect (harg2.unread x0) (Shape.Idx.first (numel1_S1x1x1.symm ▸ Nat.one_pos)))) (k0_hw32 : k0_chk32 i (arg2.view.readAt (Elt F) (Rect.unit (s := S1x8x16) ![0, 1, 15] S1x1x1.size inb_S1x8x16_S1x1x1_0_1_15).toLoadRect (harg2.unread x0) (Shape.Idx.first (numel1_S1x1x1.symm ▸ Nat.one_pos)))) (k0_hw33 : k0_chk33 i (arg2.view.readAt (Elt F) (Rect.unit (s := S1x8x16) ![0, 2, 0] S1x1x1.size inb_S1x8x16_S1x1x1_0_2_0).toLoadRect (harg2.unread x0) (Shape.Idx.first (numel1_S1x1x1.symm ▸ Nat.one_pos)))) (k0_hw34 : k0_chk34 i (arg2.view.readAt (Elt F) (Rect.unit (s := S1x8x16) ![0, 2, 1] S1x1x1.size inb_S1x8x16_S1x1x1_0_2_1).toLoadRect (harg2.unread x0) (Shape.Idx.first (numel1_S1x1x1.symm ▸ Nat.one_pos)))) (k0_hw35 : k0_chk35 i (arg2.view.readAt (Elt F) (Rect.unit (s := S1x8x16) ![0, 2, 2] S1x1x1.size inb_S1x8x16_S1x1x1_0_2_2).toLoadRect (harg2.unread x0) (Shape.Idx.first (numel1_S1x1x1.symm ▸ Nat.one_pos)))) (k0_hw36 : k0_chk36 i (arg2.view.readAt (Elt F) (Rect.unit (s := S1x8x16) ![0, 2, 3] S1x1x1.size inb_S1x8x16_S1x1x1_0_2_3).toLoadRect (harg2.unread x0) (Shape.Idx.first (numel1_S1x1x1.symm ▸ Nat.one_pos)))) (k0_hw37 : k0_chk37 i (arg2.view.readAt (Elt F) (Rect.unit (s := S1x8x16) ![0, 2, 4] S1x1x1.size inb_S1x8x16_S1x1x1_0_2_4).toLoadRect (harg2.unread x0) (Shape.Idx.first (numel1_S1x1x1.symm ▸ Nat.one_pos)))) (k0_hw38 : k0_chk38 i (arg2.view.readAt (Elt F) (Rect.unit (s := S1x8x16) ![0, 2, 5] S1x1x1.size inb_S1x8x16_S1x1x1_0_2_5).toLoadRect (harg2.unread x0) (Shape.Idx.first (numel1_S1x1x1.symm ▸ Nat.one_pos)))) (k0_hw39 : k0_chk39 i (arg2.view.readAt (Elt F) (Rect.unit (s := S1x8x16) ![0, 2, 6] S1x1x1.size inb_S1x8x16_S1x1x1_0_2_6).toLoadRect (harg2.unread x0) (Shape.Idx.first (numel1_S1x1x1.symm ▸ Nat.one_pos)))) (k0_hw40 : k0_chk40 i (arg2.view.readAt (Elt F) (Rect.unit (s := S1x8x16) ![0, 2, 7] S1x1x1.size inb_S1x8x16_S1x1x1_0_2_7).toLoadRect (harg2.unread x0) (Shape.Idx.first (numel1_S1x1x1.symm ▸ Nat.one_pos)))) (k0_hw41 : k0_chk41 i (arg2.view.readAt (Elt F) (Rect.unit (s := S1x8x16) ![0, 2, 8] S1x1x1.size inb_S1x8x16_S1x1x1_0_2_8).toLoadRect (harg2.unread x0) (Shape.Idx.first (numel1_S1x1x1.symm ▸ Nat.one_pos)))) (k0_hw42 : k0_chk42 i (arg2.view.readAt (Elt F) (Rect.unit (s := S1x8x16) ![0, 2, 9] S1x1x1.size inb_S1x8x16_S1x1x1_0_2_9).toLoadRect (harg2.unread x0) (Shape.Idx.first (numel1_S1x1x1.symm ▸ Nat.one_pos)))) (k0_hw43 : k0_chk43 i (arg2.view.readAt (Elt F) (Rect.unit (s := S1x8x16) ![0, 2, 10] S1x1x1.size inb_S1x8x16_S1x1x1_0_2_10).toLoadRect (harg2.unread x0) (Shape.Idx.first (numel1_S1x1x1.symm ▸ Nat.one_pos)))) (k0_hw44 : k0_chk44 i (arg2.view.readAt (Elt F) (Rect.unit (s := S1x8x16) ![0, 2, 11] S1x1x1.size inb_S1x8x16_S1x1x1_0_2_11).toLoadRect (harg2.unread x0) (Shape.Idx.first (numel1_S1x1x1.symm ▸ Nat.one_pos)))) (k0_hw45 : k0_chk45 i (arg2.view.readAt (Elt F) (Rect.unit (s := S1x8x16) ![0, 2, 12] S1x1x1.size inb_S1x8x16_S1x1x1_0_2_12).toLoadRect (harg2.unread x0) (Shape.Idx.first (numel1_S1x1x1.symm ▸ Nat.one_pos)))) (k0_hw46 : k0_chk46 i (arg2.view.readAt (Elt F) (Rect.unit (s := S1x8x16) ![0, 2, 13] S1x1x1.size inb_S1x8x16_S1x1x1_0_2_13).toLoadRect (harg2.unread x0) (Shape.Idx.first (numel1_S1x1x1.symm ▸ Nat.one_pos)))) (k0_hw47 : k0_chk47 i (arg2.view.readAt (Elt F) (Rect.unit (s := S1x8x16) ![0, 2, 14] S1x1x1.size inb_S1x8x16_S1x1x1_0_2_14).toLoadRect (harg2.unread x0) (Shape.Idx.first (numel1_S1x1x1.symm ▸ Nat.one_pos)))) (k0_hw48 : k0_chk48 i (arg2.view.readAt (Elt F) (Rect.unit (s := S1x8x16) ![0, 2, 15] S1x1x1.size inb_S1x8x16_S1x1x1_0_2_15).toLoadRect (harg2.unread x0) (Shape.Idx.first (numel1_S1x1x1.symm ▸ Nat.one_pos)))) (k0_hw49 : k0_chk49 i (arg2.view.readAt (Elt F) (Rect.unit (s := S1x8x16) ![0, 3, 0] S1x1x1.size inb_S1x8x16_S1x1x1_0_3_0).toLoadRect (harg2.unread x0) (Shape.Idx.first (numel1_S1x1x1.symm ▸ Nat.one_pos)))) (k0_hw50 : k0_chk50 i (arg2.view.readAt (Elt F) (Rect.unit (s := S1x8x16) ![0, 3, 1] S1x1x1.size inb_S1x8x16_S1x1x1_0_3_1).toLoadRect (harg2.unread x0) (Shape.Idx.first (numel1_S1x1x1.symm ▸ Nat.one_pos)))) (k0_hw51 : k0_chk51 i (arg2.view.readAt (Elt F) (Rect.unit (s := S1x8x16) ![0, 3, 2] S1x1x1.size inb_S1x8x16_S1x1x1_0_3_2).toLoadRect (harg2.unread x0) (Shape.Idx.first (numel1_S1x1x1.symm ▸ Nat.one_pos)))) (k0_hw52 : k0_chk52 i (arg2.view.readAt (Elt F) (Rect.unit (s := S1x8x16) ![0, 3, 3] S1x1x1.size inb_S1x8x16_S1x1x1_0_3_3).toLoadRect (harg2.unread x0) (Shape.Idx.first (numel1_S1x1x1.symm ▸ Nat.one_pos)))) (k0_hw53 : k0_chk53 i (arg2.view.readAt (Elt F) (Rect.unit (s := S1x8x16) ![0, 3, 4] S1x1x1.size inb_S1x8x16_S1x1x1_0_3_4).toLoadRect (harg2.unread x0) (Shape.Idx.first (numel1_S1x1x1.symm ▸ Nat.one_pos)))) (k0_hw54 : k0_chk54 i (arg2.view.readAt (Elt F) (Rect.unit (s := S1x8x16) ![0, 3, 5] S1x1x1.size inb_S1x8x16_S1x1x1_0_3_5).toLoadRect (harg2.unread x0) (Shape.Idx.first (numel1_S1x1x1.symm ▸ Nat.one_pos)))) (k0_hw55 : k0_chk55 i (arg2.view.readAt (Elt F) (Rect.unit (s := S1x8x16) ![0, 3, 6] S1x1x1.size inb_S1x8x16_S1x1x1_0_3_6).toLoadRect (harg2.unread x0) (Shape.Idx.first (numel1_S1x1x1.symm ▸ Nat.one_pos)))) (k0_hw56 : k0_chk56 i (arg2.view.readAt (Elt F) (Rect.unit (s := S1x8x16) ![0, 3, 7] S1x1x1.size inb_S1x8x16_S1x1x1_0_3_7).toLoadRect (harg2.unread x0) (Shape.Idx.first (numel1_S1x1x1.symm ▸ Nat.one_pos)))) (k0_hw57 : k0_chk57 i (arg2.view.readAt (Elt F) (Rect.unit (s := S1x8x16) ![0, 3, 8] S1x1x1.size inb_S1x8x16_S1x1x1_0_3_8).toLoadRect (harg2.unread x0) (Shape.Idx.first (numel1_S1x1x1.symm ▸ Nat.one_pos)))) (k0_hw58 : k0_chk58 i (arg2.view.readAt (Elt F) (Rect.unit (s := S1x8x16) ![0, 3, 9] S1x1x1.size inb_S1x8x16_S1x1x1_0_3_9).toLoadRect (harg2.unread x0) (Shape.Idx.first (numel1_S1x1x1.symm ▸ Nat.one_pos)))) (k0_hw59 : k0_chk59 i (arg2.view.readAt (Elt F) (Rect.unit (s := S1x8x16) ![0, 3, 10] S1x1x1.size inb_S1x8x16_S1x1x1_0_3_10).toLoadRect (harg2.unread x0) (Shape.Idx.first (numel1_S1x1x1.symm ▸ Nat.one_pos)))) (k0_hw60 : k0_chk60 i (arg2.view.readAt (Elt F) (Rect.unit (s := S1x8x16) ![0, 3, 11] S1x1x1.size inb_S1x8x16_S1x1x1_0_3_11).toLoadRect (harg2.unread x0) (Shape.Idx.first (numel1_S1x1x1.symm ▸ Nat.one_pos)))) (k0_hw61 : k0_chk61 i (arg2.view.readAt (Elt F) (Rect.unit (s := S1x8x16) ![0, 3, 12] S1x1x1.size inb_S1x8x16_S1x1x1_0_3_12).toLoadRect (harg2.unread x0) (Shape.Idx.first (numel1_S1x1x1.symm ▸ Nat.one_pos)))) (k0_hw62 : k0_chk62 i (arg2.view.readAt (Elt F) (Rect.unit (s := S1x8x16) ![0, 3, 13] S1x1x1.size inb_S1x8x16_S1x1x1_0_3_13).toLoadRect (harg2.unread x0) (Shape.Idx.first (numel1_S1x1x1.symm ▸ Nat.one_pos)))) (k0_hw63 : k0_chk63 i (arg2.view.readAt (Elt F) (Rect.unit (s := S1x8x16) ![0, 3, 14] S1x1x1.size inb_S1x8x16_S1x1x1_0_3_14).toLoadRect (harg2.unread x0) (Shape.Idx.first (numel1_S1x1x1.symm ▸ Nat.one_pos)))) (k0_hw64 : k0_chk64 i (arg2.view.readAt (Elt F) (Rect.unit (s := S1x8x16) ![0, 3, 15] S1x1x1.size inb_S1x8x16_S1x1x1_0_3_15).toLoadRect (harg2.unread x0) (Shape.Idx.first (numel1_S1x1x1.symm ▸ Nat.one_pos)))) (k0_hw65 : k0_chk65 i (arg2.view.readAt (Elt F) (Rect.unit (s := S1x8x16) ![0, 4, 0] S1x1x1.size inb_S1x8x16_S1x1x1_0_4_0).toLoadRect (harg2.unread x0) (Shape.Idx.first (numel1_S1x1x1.symm ▸ Nat.one_pos)))) (k0_hw66 : k0_chk66 i (arg2.view.readAt (Elt F) (Rect.unit (s := S1x8x16) ![0, 4, 1] S1x1x1.size inb_S1x8x16_S1x1x1_0_4_1).toLoadRect (harg2.unread x0) (Shape.Idx.first (numel1_S1x1x1.symm ▸ Nat.one_pos)))) (k0_hw67 : k0_chk67 i (arg2.view.readAt (Elt F) (Rect.unit (s := S1x8x16) ![0, 4, 2] S1x1x1.size inb_S1x8x16_S1x1x1_0_4_2).toLoadRect (harg2.unread x0) (Shape.Idx.first (numel1_S1x1x1.symm ▸ Nat.one_pos)))) (k0_hw68 : k0_chk68 i (arg2.view.readAt (Elt F) (Rect.unit (s := S1x8x16) ![0, 4, 3] S1x1x1.size inb_S1x8x16_S1x1x1_0_4_3).toLoadRect (harg2.unread x0) (Shape.Idx.first (numel1_S1x1x1.symm ▸ Nat.one_pos)))) (k0_hw69 : k0_chk69 i (arg2.view.readAt (Elt F) (Rect.unit (s := S1x8x16) ![0, 4, 4] S1x1x1.size inb_S1x8x16_S1x1x1_0_4_4).toLoadRect (harg2.unread x0) (Shape.Idx.first (numel1_S1x1x1.symm ▸ Nat.one_pos)))) (k0_hw70 : k0_chk70 i (arg2.view.readAt (Elt F) (Rect.unit (s := S1x8x16) ![0, 4, 5] S1x1x1.size inb_S1x8x16_S1x1x1_0_4_5).toLoadRect (harg2.unread x0) (Shape.Idx.first (numel1_S1x1x1.symm ▸ Nat.one_pos)))) (k0_hw71 : k0_chk71 i (arg2.view.readAt (Elt F) (Rect.unit (s := S1x8x16) ![0, 4, 6] S1x1x1.size inb_S1x8x16_S1x1x1_0_4_6).toLoadRect (harg2.unread x0) (Shape.Idx.first (numel1_S1x1x1.symm ▸ Nat.one_pos)))) (k0_hw72 : k0_chk72 i (arg2.view.readAt (Elt F) (Rect.unit (s := S1x8x16) ![0, 4, 7] S1x1x1.size inb_S1x8x16_S1x1x1_0_4_7).toLoadRect (harg2.unread x0) (Shape.Idx.first (numel1_S1x1x1.symm ▸ Nat.one_pos)))) (k0_hw73 : k0_chk73 i (arg2.view.readAt (Elt F) (Rect.unit (s := S1x8x16) ![0, 4, 8] S1x1x1.size inb_S1x8x16_S1x1x1_0_4_8).toLoadRect (harg2.unread x0) (Shape.Idx.first (numel1_S1x1x1.symm ▸ Nat.one_pos)))) (k0_hw74 : k0_chk74 i (arg2.view.readAt (Elt F) (Rect.unit (s := S1x8x16) ![0, 4, 9] S1x1x1.size inb_S1x8x16_S1x1x1_0_4_9).toLoadRect (harg2.unread x0) (Shape.Idx.first (numel1_S1x1x1.symm ▸ Nat.one_pos)))) (k0_hw75 : k0_chk75 i (arg2.view.readAt (Elt F) (Rect.unit (s := S1x8x16) ![0, 4, 10] S1x1x1.size inb_S1x8x16_S1x1x1_0_4_10).toLoadRect (harg2.unread x0) (Shape.Idx.first (numel1_S1x1x1.symm ▸ Nat.one_pos)))) (k0_hw76 : k0_chk76 i (arg2.view.readAt (Elt F) (Rect.unit (s := S1x8x16) ![0, 4, 11] S1x1x1.size inb_S1x8x16_S1x1x1_0_4_11).toLoadRect (harg2.unread x0) (Shape.Idx.first (numel1_S1x1x1.symm ▸ Nat.one_pos)))) (k0_hw77 : k0_chk77 i (arg2.view.readAt (Elt F) (Rect.unit (s := S1x8x16) ![0, 4, 12] S1x1x1.size inb_S1x8x16_S1x1x1_0_4_12).toLoadRect (harg2.unread x0) (Shape.Idx.first (numel1_S1x1x1.symm ▸ Nat.one_pos)))) (k0_hw78 : k0_chk78 i (arg2.view.readAt (Elt F) (Rect.unit (s := S1x8x16) ![0, 4, 13] S1x1x1.size inb_S1x8x16_S1x1x1_0_4_13).toLoadRect (harg2.unread x0) (Shape.Idx.first (numel1_S1x1x1.symm ▸ Nat.one_pos)))) (k0_hw79 : k0_chk79 i (arg2.view.readAt (Elt F) (Rect.unit (s := S1x8x16) ![0, 4, 14] S1x1x1.size inb_S1x8x16_S1x1x1_0_4_14).toLoadRect (harg2.unread x0) (Shape.Idx.first (numel1_S1x1x1.symm ▸ Nat.one_pos)))) (k0_hw80 : k0_chk80 i (arg2.view.readAt (Elt F) (Rect.unit (s := S1x8x16) ![0, 4, 15] S1x1x1.size inb_S1x8x16_S1x1x1_0_4_15).toLoadRect (harg2.unread x0) (Shape.Idx.first (numel1_S1x1x1.symm ▸ Nat.one_pos)))) (k0_hw81 : k0_chk81 i (arg2.view.readAt (Elt F) (Rect.unit (s := S1x8x16) ![0, 5, 0] S1x1x1.size inb_S1x8x16_S1x1x1_0_5_0).toLoadRect (harg2.unread x0) (Shape.Idx.first (numel1_S1x1x1.symm ▸ Nat.one_pos)))) (k0_hw82 : k0_chk82 i (arg2.view.readAt (Elt F) (Rect.unit (s := S1x8x16) ![0, 5, 1] S1x1x1.size inb_S1x8x16_S1x1x1_0_5_1).toLoadRect (harg2.unread x0) (Shape.Idx.first (numel1_S1x1x1.symm ▸ Nat.one_pos)))) (k0_hw83 : k0_chk83 i (arg2.view.readAt (Elt F) (Rect.unit (s := S1x8x16) ![0, 5, 2] S1x1x1.size inb_S1x8x16_S1x1x1_0_5_2).toLoadRect (harg2.unread x0) (Shape.Idx.first (numel1_S1x1x1.symm ▸ Nat.one_pos)))) (k0_hw84 : k0_chk84 i (arg2.view.readAt (Elt F) (Rect.unit (s := S1x8x16) ![0, 5, 3] S1x1x1.size inb_S1x8x16_S1x1x1_0_5_3).toLoadRect (harg2.unread x0) (Shape.Idx.first (numel1_S1x1x1.symm ▸ Nat.one_pos)))) (k0_hw85 : k0_chk85 i (arg2.view.readAt (Elt F) (Rect.unit (s := S1x8x16) ![0, 5, 4] S1x1x1.size inb_S1x8x16_S1x1x1_0_5_4).toLoadRect (harg2.unread x0) (Shape.Idx.first (numel1_S1x1x1.symm ▸ Nat.one_pos)))) (k0_hw86 : k0_chk86 i (arg2.view.readAt (Elt F) (Rect.unit (s := S1x8x16) ![0, 5, 5] S1x1x1.size inb_S1x8x16_S1x1x1_0_5_5).toLoadRect (harg2.unread x0) (Shape.Idx.first (numel1_S1x1x1.symm ▸ Nat.one_pos)))) (k0_hw87 : k0_chk87 i (arg2.view.readAt (Elt F) (Rect.unit (s := S1x8x16) ![0, 5, 6] S1x1x1.size inb_S1x8x16_S1x1x1_0_5_6).toLoadRect (harg2.unread x0) (Shape.Idx.first (numel1_S1x1x1.symm ▸ Nat.one_pos)))) (k0_hw88 : k0_chk88 i (arg2.view.readAt (Elt F) (Rect.unit (s := S1x8x16) ![0, 5, 7] S1x1x1.size inb_S1x8x16_S1x1x1_0_5_7).toLoadRect (harg2.unread x0) (Shape.Idx.first (numel1_S1x1x1.symm ▸ Nat.one_pos)))) (k0_hw89 : k0_chk89 i (arg2.view.readAt (Elt F) (Rect.unit (s := S1x8x16) ![0, 5, 8] S1x1x1.size inb_S1x8x16_S1x1x1_0_5_8).toLoadRect (harg2.unread x0) (Shape.Idx.first (numel1_S1x1x1.symm ▸ Nat.one_pos)))) (k0_hw90 : k0_chk90 i (arg2.view.readAt (Elt F) (Rect.unit (s := S1x8x16) ![0, 5, 9] S1x1x1.size inb_S1x8x16_S1x1x1_0_5_9).toLoadRect (harg2.unread x0) (Shape.Idx.first (numel1_S1x1x1.symm ▸ Nat.one_pos)))) (k0_hw91 : k0_chk91 i (arg2.view.readAt (Elt F) (Rect.unit (s := S1x8x16) ![0, 5, 10] S1x1x1.size inb_S1x8x16_S1x1x1_0_5_10).toLoadRect (harg2.unread x0) (Shape.Idx.first (numel1_S1x1x1.symm ▸ Nat.one_pos)))) (k0_hw92 : k0_chk92 i (arg2.view.readAt (Elt F) (Rect.unit (s := S1x8x16) ![0, 5, 11] S1x1x1.size inb_S1x8x16_S1x1x1_0_5_11).toLoadRect (harg2.unread x0) (Shape.Idx.first (numel1_S1x1x1.symm ▸ Nat.one_pos)))) (k0_hw93 : k0_chk93 i (arg2.view.readAt (Elt F) (Rect.unit (s := S1x8x16) ![0, 5, 12] S1x1x1.size inb_S1x8x16_S1x1x1_0_5_12).toLoadRect (harg2.unread x0) (Shape.Idx.first (numel1_S1x1x1.symm ▸ Nat.one_pos)))) (k0_hw94 : k0_chk94 i (arg2.view.readAt (Elt F) (Rect.unit (s := S1x8x16) ![0, 5, 13] S1x1x1.size inb_S1x8x16_S1x1x1_0_5_13).toLoadRect (harg2.unread x0) (Shape.Idx.first (numel1_S1x1x1.symm ▸ Nat.one_pos)))) (k0_hw95 : k0_chk95 i (arg2.view.readAt (Elt F) (Rect.unit (s := S1x8x16) ![0, 5, 14] S1x1x1.size inb_S1x8x16_S1x1x1_0_5_14).toLoadRect (harg2.unread x0) (Shape.Idx.first (numel1_S1x1x1.symm ▸ Nat.one_pos)))) (k0_hw96 : k0_chk96 i (arg2.view.readAt (Elt F) (Rect.unit (s := S1x8x16) ![0, 5, 15] S1x1x1.size inb_S1x8x16_S1x1x1_0_5_15).toLoadRect (harg2.unread x0) (Shape.Idx.first (numel1_S1x1x1.symm ▸ Nat.one_pos)))) (k0_hw97 : k0_chk97 i (arg2.view.readAt (Elt F) (Rect.unit (s := S1x8x16) ![0, 6, 0] S1x1x1.size inb_S1x8x16_S1x1x1_0_6_0).toLoadRect (harg2.unread x0) (Shape.Idx.first (numel1_S1x1x1.symm ▸ Nat.one_pos)))) (k0_hw98 : k0_chk98 i (arg2.view.readAt (Elt F) (Rect.unit (s := S1x8x16) ![0, 6, 1] S1x1x1.size inb_S1x8x16_S1x1x1_0_6_1).toLoadRect (harg2.unread x0) (Shape.Idx.first (numel1_S1x1x1.symm ▸ Nat.one_pos)))) (k0_hw99 : k0_chk99 i (arg2.view.readAt (Elt F) (Rect.unit (s := S1x8x16) ![0, 6, 2] S1x1x1.size inb_S1x8x16_S1x1x1_0_6_2).toLoadRect (harg2.unread x0) (Shape.Idx.first (numel1_S1x1x1.symm ▸ Nat.one_pos)))) (k0_hw100 : k0_chk100 i (arg2.view.readAt (Elt F) (Rect.unit (s := S1x8x16) ![0, 6, 3] S1x1x1.size inb_S1x8x16_S1x1x1_0_6_3).toLoadRect (harg2.unread x0) (Shape.Idx.first (numel1_S1x1x1.symm ▸ Nat.one_pos)))) (k0_hw101 : k0_chk101 i (arg2.view.readAt (Elt F) (Rect.unit (s := S1x8x16) ![0, 6, 4] S1x1x1.size inb_S1x8x16_S1x1x1_0_6_4).toLoadRect (harg2.unread x0) (Shape.Idx.first (numel1_S1x1x1.symm ▸ Nat.one_pos)))) (k0_hw102 : k0_chk102 i (arg2.view.readAt (Elt F) (Rect.unit (s := S1x8x16) ![0, 6, 5] S1x1x1.size inb_S1x8x16_S1x1x1_0_6_5).toLoadRect (harg2.unread x0) (Shape.Idx.first (numel1_S1x1x1.symm ▸ Nat.one_pos)))) (k0_hw103 : k0_chk103 i (arg2.view.readAt (Elt F) (Rect.unit (s := S1x8x16) ![0, 6, 6] S1x1x1.size inb_S1x8x16_S1x1x1_0_6_6).toLoadRect (harg2.unread x0) (Shape.Idx.first (numel1_S1x1x1.symm ▸ Nat.one_pos)))) (k0_hw104 : k0_chk104 i (arg2.view.readAt (Elt F) (Rect.unit (s := S1x8x16) ![0, 6, 7] S1x1x1.size inb_S1x8x16_S1x1x1_0_6_7).toLoadRect (harg2.unread x0) (Shape.Idx.first (numel1_S1x1x1.symm ▸ Nat.one_pos)))) (k0_hw105 : k0_chk105 i (arg2.view.readAt (Elt F) (Rect.unit (s := S1x8x16) ![0, 6, 8] S1x1x1.size inb_S1x8x16_S1x1x1_0_6_8).toLoadRect (harg2.unread x0) (Shape.Idx.first (numel1_S1x1x1.symm ▸ Nat.one_pos)))) (k0_hw106 : k0_chk106 i (arg2.view.readAt (Elt F) (Rect.unit (s := S1x8x16) ![0, 6, 9] S1x1x1.size inb_S1x8x16_S1x1x1_0_6_9).toLoadRect (harg2.unread x0) (Shape.Idx.first (numel1_S1x1x1.symm ▸ Nat.one_pos)))) (k0_hw107 : k0_chk107 i (arg2.view.readAt (Elt F) (Rect.unit (s := S1x8x16) ![0, 6, 10] S1x1x1.size inb_S1x8x16_S1x1x1_0_6_10).toLoadRect (harg2.unread x0) (Shape.Idx.first (numel1_S1x1x1.symm ▸ Nat.one_pos)))) (k0_hw108 : k0_chk108 i (arg2.view.readAt (Elt F) (Rect.unit (s := S1x8x16) ![0, 6, 11] S1x1x1.size inb_S1x8x16_S1x1x1_0_6_11).toLoadRect (harg2.unread x0) (Shape.Idx.first (numel1_S1x1x1.symm ▸ Nat.one_pos)))) (k0_hw109 : k0_chk109 i (arg2.view.readAt (Elt F) (Rect.unit (s := S1x8x16) ![0, 6, 12] S1x1x1.size inb_S1x8x16_S1x1x1_0_6_12).toLoadRect (harg2.unread x0) (Shape.Idx.first (numel1_S1x1x1.symm ▸ Nat.one_pos)))) (k0_hw110 : k0_chk110 i (arg2.view.readAt (Elt F) (Rect.unit (s := S1x8x16) ![0, 6, 13] S1x1x1.size inb_S1x8x16_S1x1x1_0_6_13).toLoadRect (harg2.unread x0) (Shape.Idx.first (numel1_S1x1x1.symm ▸ Nat.one_pos)))) (k0_hw111 : k0_chk111 i (arg2.view.readAt (Elt F) (Rect.unit (s := S1x8x16) ![0, 6, 14] S1x1x1.size inb_S1x8x16_S1x1x1_0_6_14).toLoadRect (harg2.unread x0) (Shape.Idx.first (numel1_S1x1x1.symm ▸ Nat.one_pos)))) (k0_hw112 : k0_chk112 i (arg2.view.readAt (Elt F) (Rect.unit (s := S1x8x16) ![0, 6, 15] S1x1x1.size inb_S1x8x16_S1x1x1_0_6_15).toLoadRect (harg2.unread x0) (Shape.Idx.first (numel1_S1x1x1.symm ▸ Nat.one_pos)))) (k0_hw113 : k0_chk113 i (arg2.view.readAt (Elt F) (Rect.unit (s := S1x8x16) ![0, 7, 0] S1x1x1.size inb_S1x8x16_S1x1x1_0_7_0).toLoadRect (harg2.unread x0) (Shape.Idx.first (numel1_S1x1x1.symm ▸ Nat.one_pos)))) (k0_hw114 : k0_chk114 i (arg2.view.readAt (Elt F) (Rect.unit (s := S1x8x16) ![0, 7, 1] S1x1x1.size inb_S1x8x16_S1x1x1_0_7_1).toLoadRect (harg2.unread x0) (Shape.Idx.first (numel1_S1x1x1.symm ▸ Nat.one_pos)))) (k0_hw115 : k0_chk115 i (arg2.view.readAt (Elt F) (Rect.unit (s := S1x8x16) ![0, 7, 2] S1x1x1.size inb_S1x8x16_S1x1x1_0_7_2).toLoadRect (harg2.unread x0) (Shape.Idx.first (numel1_S1x1x1.symm ▸ Nat.one_pos)))) (k0_hw116 : k0_chk116 i (arg2.view.readAt (Elt F) (Rect.unit (s := S1x8x16) ![0, 7, 3] S1x1x1.size inb_S1x8x16_S1x1x1_0_7_3).toLoadRect (harg2.unread x0) (Shape.Idx.first (numel1_S1x1x1.symm ▸ Nat.one_pos)))) (k0_hw117 : k0_chk117 i (arg2.view.readAt (Elt F) (Rect.unit (s := S1x8x16) ![0, 7, 4] S1x1x1.size inb_S1x8x16_S1x1x1_0_7_4).toLoadRect (harg2.unread x0) (Shape.Idx.first (numel1_S1x1x1.symm ▸ Nat.one_pos)))) (k0_hw118 : k0_chk118 i (arg2.view.readAt (Elt F) (Rect.unit (s := S1x8x16) ![0, 7, 5] S1x1x1.size inb_S1x8x16_S1x1x1_0_7_5).toLoadRect (harg2.unread x0) (Shape.Idx.first (numel1_S1x1x1.symm ▸ Nat.one_pos)))) (k0_hw119 : k0_chk119 i (arg2.view.readAt (Elt F) (Rect.unit (s := S1x8x16) ![0, 7, 6] S1x1x1.size inb_S1x8x16_S1x1x1_0_7_6).toLoadRect (harg2.unread x0) (Shape.Idx.first (numel1_S1x1x1.symm ▸ Nat.one_pos)))) (k0_hw120 : k0_chk120 i (arg2.view.readAt (Elt F) (Rect.unit (s := S1x8x16) ![0, 7, 7] S1x1x1.size inb_S1x8x16_S1x1x1_0_7_7).toLoadRect (harg2.unread x0) (Shape.Idx.first (numel1_S1x1x1.symm ▸ Nat.one_pos)))) (k0_hw121 : k0_chk121 i (arg2.view.readAt (Elt F) (Rect.unit (s := S1x8x16) ![0, 7, 8] S1x1x1.size inb_S1x8x16_S1x1x1_0_7_8).toLoadRect (harg2.unread x0) (Shape.Idx.first (numel1_S1x1x1.symm ▸ Nat.one_pos)))) (k0_hw122 : k0_chk122 i (arg2.view.readAt (Elt F) (Rect.unit (s := S1x8x16) ![0, 7, 9] S1x1x1.size inb_S1x8x16_S1x1x1_0_7_9).toLoadRect (harg2.unread x0) (Shape.Idx.first (numel1_S1x1x1.symm ▸ Nat.one_pos)))) (k0_hw123 : k0_chk123 i (arg2.view.readAt (Elt F) (Rect.unit (s := S1x8x16) ![0, 7, 10] S1x1x1.size inb_S1x8x16_S1x1x1_0_7_10).toLoadRect (harg2.unread x0) (Shape.Idx.first (numel1_S1x1x1.symm ▸ Nat.one_pos)))) (k0_hw124 : k0_chk124 i (arg2.view.readAt (Elt F) (Rect.unit (s := S1x8x16) ![0, 7, 11] S1x1x1.size inb_S1x8x16_S1x1x1_0_7_11).toLoadRect (harg2.unread x0) (Shape.Idx.first (numel1_S1x1x1.symm ▸ Nat.one_pos)))) (k0_hw125 : k0_chk125 i (arg2.view.readAt (Elt F) (Rect.unit (s := S1x8x16) ![0, 7, 12] S1x1x1.size inb_S1x8x16_S1x1x1_0_7_12).toLoadRect (harg2.unread x0) (Shape.Idx.first (numel1_S1x1x1.symm ▸ Nat.one_pos)))) (k0_hw126 : k0_chk126 i (arg2.view.readAt (Elt F) (Rect.unit (s := S1x8x16) ![0, 7, 13] S1x1x1.size inb_S1x8x16_S1x1x1_0_7_13).toLoadRect (harg2.unread x0) (Shape.Idx.first (numel1_S1x1x1.symm ▸ Nat.one_pos)))) (k0_hw127 : k0_chk127 i (arg2.view.readAt (Elt F) (Rect.unit (s := S1x8x16) ![0, 7, 14] S1x1x1.size inb_S1x8x16_S1x1x1_0_7_14).toLoadRect (harg2.unread x0) (Shape.Idx.first (numel1_S1x1x1.symm ▸ Nat.one_pos)))) (k0_hw128 : k0_chk128 i (arg2.view.readAt (Elt F) (Rect.unit (s := S1x8x16) ![0, 7, 15] S1x1x1.size inb_S1x8x16_S1x1x1_0_7_15).toLoadRect (harg2.unread x0) (Shape.Idx.first (numel1_S1x1x1.symm ▸ Nat.one_pos)))) :
    (kernelRun0_A c i arg2 harg2 arg4 harg4 arg5 harg5 arg6 harg6 x0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64 k0_hw65 k0_hw66 k0_hw67 k0_hw68 k0_hw69 k0_hw70 k0_hw71 k0_hw72 k0_hw73 k0_hw74 k0_hw75 k0_hw76 k0_hw77 k0_hw78 k0_hw79 k0_hw80 k0_hw81 k0_hw82 k0_hw83 k0_hw84 k0_hw85 k0_hw86 k0_hw87 k0_hw88 k0_hw89 k0_hw90 k0_hw91 k0_hw92 k0_hw93 k0_hw94 k0_hw95 k0_hw96 k0_hw97 k0_hw98 k0_hw99 k0_hw100 k0_hw101 k0_hw102 k0_hw103 k0_hw104 k0_hw105 k0_hw106 k0_hw107 k0_hw108 k0_hw109 k0_hw110 k0_hw111 k0_hw112 k0_hw113 k0_hw114 k0_hw115 k0_hw116 k0_hw117 k0_hw118 k0_hw119 k0_hw120 k0_hw121 k0_hw122 k0_hw123 k0_hw124 k0_hw125 k0_hw126 k0_hw127 k0_hw128).val
      = [(⟨Rect.unit (s := S1x8x128) ![0, 0, 0] ![1, 8, 128] inb_S1x8x128_S1x8x128_0_0_0, outBlock c i x0 fh0⟩ : View.Piece (Elt F) S1x8x128 .f32)] := rfl

end Cert.Kernel.Gen

end
-- ==== Proof.BodyFactsKI.lean ====
/-
  The body's reads, as values of the point's inputs.

  * A word the body loads from its [1, 8, 16] block `x0` at (0, r, k) is `x0 (0, r, k)`.
  * The row a copy moves — the one-row slice at (b, w, 0, 0) of the [4, 32768, 1, 128] feature array `fh`, read as a
    [1, 128] row — is, at lane d, `fh (b, w, 0, d)`; b is the point's first grid coordinate and w the neighbour word,
    both in range because the slice lies inside the array.
  * So the row that step j folds into the accumulator is `landedRow i x0 fh j`: the feature row named by word
    (j / 16, j % 16) of the block.
-/
import proofs.«412756_j23708219474789_1_alg».proof.Proof.Gen.KernelIdeal.Frame.Runs
import proofs.«412756_j23708219474789_1_alg».proof.Proof.LandBuf
import proofs.«412756_j23708219474789_1_alg».proof.Proof.PoolPeel

set_option maxRecDepth 16384

noncomputable section

namespace Cert.KernelIdeal.BodyFacts

open Cert.KernelIdeal Cert.KernelIdeal.Gen
open Idealize.ShloMosaic Idealize.ShloMosaic.TcCoe Idealize.SL.Sem Idealize.ShloMosaic.ValueIdx

variable {F : FTy → Type} [FloatOps F] [Named F]

/-- One feature row as a copy reads it. -/
theorem row_read (c : Dev nD) (off : Fin 4 → Nat) (b w : Nat) (hb : b < 4) (hw : w < 32768) (hoff : off = ![b, w, 0, 0])
    (inb : ∀ a, off a + S1x1x1x128.size a ≤ S4x32768x1x128.size a) (hsl)
    (f : HbBuf0 (F := F) c hbM0_0) (d : Fin 128) :
    (((hbM0_0.slice (Rect.unit (s := S4x32768x1x128) off S1x1x1x128.size inb) hsl).squeeze S1x128
        squeezes_S1x1x1x128_S1x128).view.read (Elt F) f : S1x128.Idx → Elt F .f32) (ix2 (0 : Fin 1) d)
      = (f : S4x32768x1x128.Idx → Elt F .f32) (ix4 (⟨b, hb⟩ : Fin 4) (⟨w, hw⟩ : Fin 32768) (0 : Fin 1) d) := by
  subst hoff
  have hc : (Rect.unit (s := S4x32768x1x128) ![b, w, 0, 0] S1x1x1x128.size inb).shape.ShapeCasts S1x128 :=
    (by decide : S1x1x1x128.ShapeCasts S1x128)
  rw [Memref.read_squeeze_slice hbM0_0 _ hsl squeezes_S1x1x1x128_S1x128 hc f]
  refine (shapeCast_apply _ hc (ix2 (0 : Fin 1) d) (ix4 (0 : Fin 1) (0 : Fin 1) (0 : Fin 1) d) ?_).trans ?_
  · rw [Shape.rowMajor_val_two, Shape.rowMajor_val_four]
    show ((0 * 1 + 0) * 1 + 0) * 128 + d.val = 0 * 128 + d.val
    omega
  · show (f : S4x32768x1x128.Idx → Elt F .f32) _ = _
    congr 1
    funext a
    apply Fin.ext
    match a with
    | ⟨0, _⟩ => show b + 1 * 0 = b; omega
    | ⟨1, _⟩ => show w + 1 * 0 = w; omega
    | ⟨2, _⟩ => show 0 + 1 * 0 = 0; omega
    | ⟨3, _⟩ => show 0 + 1 * d.val = d.val; omega

/-- The row a copy moves, when the slice it reads sits at (b, w, 0, 0) for the point's batch b and a word w. -/
theorem copied_row (c : Dev nD) (i : grid0.Coords) (w : BitVec 32) (off : Fin 4 → Nat)
    (hoff : off = ![(BitVec.ofNat 32 (i 0).val).toNat, w.toNat, 0, 0])
    (inb : ∀ a, off a + S1x1x1x128.size a ≤ S4x32768x1x128.size a) (hsl)
    (f : HbBuf0 (F := F) c hbM0_0) (d : Fin 128) :
    ReadAs.same.apply (View.read (Elt F) ((hbM0_0.slice (Rect.unit (s := S4x32768x1x128) off S1x1x1x128.size inb) hsl).squeeze S1x128
        squeezes_S1x1x1x128_S1x128).view f) (ix2 (0 : Fin 1) d)
      = (f : S4x32768x1x128.Idx → Elt F .f32) (ix4 (⟨(i 0).val, (i 0).isLt⟩ : Fin 4) (Cert.Pool.pos w) (0 : Fin 1) d) := by
  have hi : (i 0).val < 4 := (i 0).isLt
  have hb : (BitVec.ofNat 32 (i 0).val).toNat = (i 0).val := by
    rw [BitVec.toNat_ofNat]; exact Nat.mod_eq_of_lt (by omega)
  have h1 := inb (1 : Fin 4)
  have e1 : off (1 : Fin 4) = w.toNat := by rw [hoff]; rfl
  have e2 : S1x1x1x128.size (1 : Fin 4) = 1 := rfl
  have e3 : S4x32768x1x128.size (1 : Fin 4) = 32768 := rfl
  rw [e1, e2, e3] at h1
  have hw : w.toNat < 32768 := by omega
  show (((hbM0_0.slice _ hsl).squeeze S1x128 squeezes_S1x1x1x128_S1x128).view.read (Elt F) f : S1x128.Idx → Elt F .f32) (ix2 (0 : Fin 1) d) = _
  rw [row_read c off (BitVec.ofNat 32 (i 0).val).toNat w.toNat (by omega) hw hoff inb hsl f d]
  congr 1
  funext a
  apply Fin.ext
  match a with
  | ⟨0, _⟩ => exact hb
  | ⟨1, _⟩ => exact (Cert.Pool.pos_val w hw).symm
  | ⟨2, _⟩ => rfl
  | ⟨3, _⟩ => rfl

/-- A word the body loads from its block. -/
theorem word_read (arg2 : Memref sig .tc .smem S1x8x16 .i32) (harg2 : arg2.IsWhole) (x0 : Vec F S1x8x16 .i32)
    (r k : Nat) (hr : r < 8) (hk : k < 16) (inb : ∀ a, (![0, r, k] : Fin 3 → Nat) a + S1x1x1.size a ≤ S1x8x16.size a)
    (h1 : 0 < S1x1x1.numel) :
    arg2.view.readAt (Elt F) (Rect.unit (s := S1x8x16) ![0, r, k] S1x1x1.size inb).toLoadRect (harg2.unread x0) (Shape.Idx.first h1)
      = (x0 : S1x8x16.Idx → BitVec 32) (ix3 (0 : Fin 1) (⟨r, hr⟩ : Fin 8) (⟨k, hk⟩ : Fin 16)) := by
  rw [View.readAt_apply, Memref.IsWhole.read_unread]
  congr 1
  funext a
  apply Fin.ext
  have hz : ∀ b : Fin 3, (Shape.Idx.first h1 b).val = 0 := fun b => by
    have := (Shape.Idx.first h1 b).isLt
    have e : S1x1x1.size b = 1 := by fin_cases b <;> rfl
    omega
  match a with
  | ⟨0, _⟩ => show 0 + 1 * (Shape.Idx.first h1 (0 : Fin 3)).val = 0; rw [hz]
  | ⟨1, _⟩ => show r + 1 * (Shape.Idx.first h1 (1 : Fin 3)).val = r; rw [hz]; omega
  | ⟨2, _⟩ => show k + 1 * (Shape.Idx.first h1 (2 : Fin 3)).val = k; rw [hz]; omega

/-- The feature row step j folds in: the row named by word (j / 16, j % 16) of the point's block. -/
def landedRow (c : Dev nD) (i : grid0.Coords) (x0 : Vec F S1x8x16 .i32) (f : HbBuf0 (F := F) c hbM0_0) (j : Nat) (d : Fin 128) : F .f32 :=
  (f : S4x32768x1x128.Idx → Elt F .f32)
    (ix4 (⟨(i 0).val, (i 0).isLt⟩ : Fin 4)
      (Cert.Pool.pos ((x0 : S1x8x16.Idx → BitVec 32) (ix3 (0 : Fin 1) (⟨j / 16 % 8, Nat.mod_lt _ (by decide)⟩ : Fin 8) (⟨j % 16, Nat.mod_lt _ (by decide)⟩ : Fin 16))))
      (0 : Fin 1) d)

end Cert.KernelIdeal.BodyFacts

end
-- ==== Proof.BodyValueKI.lean ====
/-
  What the body's 128 steps leave in the accumulator, and with it in the output block — free of what the
  buffers held before.

  The run's pieces are spelled over the landing buffer's initial contents, because no store ever overwrites that
  buffer whole.  But every load of a slot comes after a copy into that slot, so each landed row is the copied
  feature row (`landedRow`), and the accumulator after the stores of steps 0, …, j − 1 is `accAfter startVal
  landedRow j` — by one application of `Peel.descend` per step, from the last store down to the first, the
  whole-buffer store of the start value.  The output block is the accumulator after all 128 steps.
-/
import proofs.«412756_j23708219474789_1_alg».proof.Proof.RunRawKI
import proofs.«412756_j23708219474789_1_alg».proof.Proof.BodyFactsKI

set_option maxRecDepth 100000

noncomputable section

namespace Cert.KernelIdeal.Gen

open Idealize.ShloMosaic Idealize.ShloMosaic.TcCoe Idealize.SL.Sem Idealize.ShloMosaic.ValueIdx
open Cert.KernelIdeal.BodyFacts Cert.Pool.Peel Cert.Pool.LandBuf

variable {F : FTy → Type} [FloatOps F] [Named F]

theorem hz2 : (![0, 0] : Fin 2 → Nat) = fun _ => 0 := funext fun a => by fin_cases a <;> rfl

/-- The value the accumulator starts from. -/
def startVal : F .f32 := Named.named κ "neg_big" 0xF149F2CA#32

/- One step down the list of the accumulator's stores (`peel_step`); the landed row's side goal is closed on the
   spot (`land_close`): a load of a slot after "copy into it, then (except at the last step) copy into the other
   slot" reads the copied row, which is the feature row the step's neighbour word names. -/
set_option hygiene false in
macro "land_close" : tactic => `(tactic|
  (refine Eq.trans (copied_row c i _ _ rfl _ _ fh0 d) ?_
   unfold landedRow
   congr 3
   exact word_read arg2 harg2 x0 _ _ (by decide) (by decide) _ _))

set_option hygiene false in
macro "peel_step" : tactic => `(tactic|
  (refine descend _ _ _ _ _ _ _ _ _ _ _ _ _ _ (by exact rfl) (by exact rfl) (by rfl) (fun d => ?_) ?_
   · first
     | (refine Eq.trans (read_miss arg6 _ _ (by decide) _ _ _ _ _ _ _) ?_
        refine Eq.trans (read_hit arg6 _ _ _ _ _ _ d) ?_
        land_close)
     | (refine Eq.trans (read_hit arg6 _ _ _ _ _ _ d) ?_
        land_close)))

set_option maxHeartbeats 40000000 in
/-- The accumulator as the last load reads it: after all 128 steps. -/
theorem acc_final (c : Dev nD) (i : grid0.Coords) (arg2 : Memref sig .tc .smem S1x8x16 .i32) (harg2 : arg2.IsWhole) (arg5 : Memref sig .tc .vmem S8x128 .f32) (arg6 : Memref sig .tc .vmem S2x1x128 .f32)
    (x0 : Vec F S1x8x16 .i32) (fh0 : HbBuf0 (F := F) c hbM0_0) (k0_hw1 : k0_chk1 i (arg2.view.readAt (Elt F) (Rect.unit (s := S1x8x16) ![0, 0, 0] S1x1x1.size inb_S1x8x16_S1x1x1_0_0_0).toLoadRect (harg2.unread x0) (Shape.Idx.first (numel1_S1x1x1.symm ▸ Nat.one_pos)))) (k0_hw2 : k0_chk2 i (arg2.view.readAt (Elt F) (Rect.unit (s := S1x8x16) ![0, 0, 1] S1x1x1.size inb_S1x8x16_S1x1x1_0_0_1).toLoadRect (harg2.unread x0) (Shape.Idx.first (numel1_S1x1x1.symm ▸ Nat.one_pos)))) (k0_hw3 : k0_chk3 i (arg2.view.readAt (Elt F) (Rect.unit (s := S1x8x16) ![0, 0, 2] S1x1x1.size inb_S1x8x16_S1x1x1_0_0_2).toLoadRect (harg2.unread x0) (Shape.Idx.first (numel1_S1x1x1.symm ▸ Nat.one_pos)))) (k0_hw4 : k0_chk4 i (arg2.view.readAt (Elt F) (Rect.unit (s := S1x8x16) ![0, 0, 3] S1x1x1.size inb_S1x8x16_S1x1x1_0_0_3).toLoadRect (harg2.unread x0) (Shape.Idx.first (numel1_S1x1x1.symm ▸ Nat.one_pos)))) (k0_hw5 : k0_chk5 i (arg2.view.readAt (Elt F) (Rect.unit (s := S1x8x16) ![0, 0, 4] S1x1x1.size inb_S1x8x16_S1x1x1_0_0_4).toLoadRect (harg2.unread x0) (Shape.Idx.first (numel1_S1x1x1.symm ▸ Nat.one_pos)))) (k0_hw6 : k0_chk6 i (arg2.view.readAt (Elt F) (Rect.unit (s := S1x8x16) ![0, 0, 5] S1x1x1.size inb_S1x8x16_S1x1x1_0_0_5).toLoadRect (harg2.unread x0) (Shape.Idx.first (numel1_S1x1x1.symm ▸ Nat.one_pos)))) (k0_hw7 : k0_chk7 i (arg2.view.readAt (Elt F) (Rect.unit (s := S1x8x16) ![0, 0, 6] S1x1x1.size inb_S1x8x16_S1x1x1_0_0_6).toLoadRect (harg2.unread x0) (Shape.Idx.first (numel1_S1x1x1.symm ▸ Nat.one_pos)))) (k0_hw8 : k0_chk8 i (arg2.view.readAt (Elt F) (Rect.unit (s := S1x8x16) ![0, 0, 7] S1x1x1.size inb_S1x8x16_S1x1x1_0_0_7).toLoadRect (harg2.unread x0) (Shape.Idx.first (numel1_S1x1x1.symm ▸ Nat.one_pos)))) (k0_hw9 : k0_chk9 i (arg2.view.readAt (Elt F) (Rect.unit (s := S1x8x16) ![0, 0, 8] S1x1x1.size inb_S1x8x16_S1x1x1_0_0_8).toLoadRect (harg2.unread x0) (Shape.Idx.first (numel1_S1x1x1.symm ▸ Nat.one_pos)))) (k0_hw10 : k0_chk10 i (arg2.view.readAt (Elt F) (Rect.unit (s := S1x8x16) ![0, 0, 9] S1x1x1.size inb_S1x8x16_S1x1x1_0_0_9).toLoadRect (harg2.unread x0) (Shape.Idx.first (numel1_S1x1x1.symm ▸ Nat.one_pos)))) (k0_hw11 : k0_chk11 i (arg2.view.readAt (Elt F) (Rect.unit (s := S1x8x16) ![0, 0, 10] S1x1x1.size inb_S1x8x16_S1x1x1_0_0_10).toLoadRect (harg2.unread x0) (Shape.Idx.first (numel1_S1x1x1.symm ▸ Nat.one_pos)))) (k0_hw12 : k0_chk12 i (arg2.view.readAt (Elt F) (Rect.unit (s := S1x8x16) ![0, 0, 11] S1x1x1.size inb_S1x8x16_S1x1x1_0_0_11).toLoadRect (harg2.unread x0) (Shape.Idx.first (numel1_S1x1x1.symm ▸ Nat.one_pos)))) (k0_hw13 : k0_chk13 i (arg2.view.readAt (Elt F) (Rect.unit (s := S1x8x16) ![0, 0, 12] S1x1x1.size inb_S1x8x16_S1x1x1_0_0_12).toLoadRect (harg2.unread x0) (Shape.Idx.first (numel1_S1x1x1.symm ▸ Nat.one_pos)))) (k0_hw14 : k0_chk14 i (arg2.view.readAt (Elt F) (Rect.unit (s := S1x8x16) ![0, 0, 13] S1x1x1.size inb_S1x8x16_S1x1x1_0_0_13).toLoadRect (harg2.unread x0) (Shape.Idx.first (numel1_S1x1x1.symm ▸ Nat.one_pos)))) (k0_hw15 : k0_chk15 i (arg2.view.readAt (Elt F) (Rect.unit (s := S1x8x16) ![0, 0, 14] S1x1x1.size inb_S1x8x16_S1x1x1_0_0_14).toLoadRect (harg2.unread x0) (Shape.Idx.first (numel1_S1x1x1.symm ▸ Nat.one_pos)))) (k0_hw16 : k0_chk16 i (arg2.view.readAt (Elt F) (Rect.unit (s := S1x8x16) ![0, 0, 15] S1x1x1.size inb_S1x8x16_S1x1x1_0_0_15).toLoadRect (harg2.unread x0) (Shape.Idx.first (numel1_S1x1x1.symm ▸ Nat.one_pos)))) (k0_hw17 : k0_chk17 i (arg2.view.readAt (Elt F) (Rect.unit (s := S1x8x16) ![0, 1, 0] S1x1x1.size inb_S1x8x16_S1x1x1_0_1_0).toLoadRect (harg2.unread x0) (Shape.Idx.first (numel1_S1x1x1.symm ▸ Nat.one_pos)))) (k0_hw18 : k0_chk18 i (arg2.view.readAt (Elt F) (Rect.unit (s := S1x8x16) ![0, 1, 1] S1x1x1.size inb_S1x8x16_S1x1x1_0_1_1).toLoadRect (harg2.unread x0) (Shape.Idx.first (numel1_S1x1x1.symm ▸ Nat.one_pos)))) (k0_hw19 : k0_chk19 i (arg2.view.readAt (Elt F) (Rect.unit (s := S1x8x16) ![0, 1, 2] S1x1x1.size inb_S1x8x16_S1x1x1_0_1_2).toLoadRect (harg2.unread x0) (Shape.Idx.first (numel1_S1x1x1.symm ▸ Nat.one_pos)))) (k0_hw20 : k0_chk20 i (arg2.view.readAt (Elt F) (Rect.unit (s := S1x8x16) ![0, 1, 3] S1x1x1.size inb_S1x8x16_S1x1x1_0_1_3).toLoadRect (harg2.unread x0) (Shape.Idx.first (numel1_S1x1x1.symm ▸ Nat.one_pos)))) (k0_hw21 : k0_chk21 i (arg2.view.readAt (Elt F) (Rect.unit (s := S1x8x16) ![0, 1, 4] S1x1x1.size inb_S1x8x16_S1x1x1_0_1_4).toLoadRect (harg2.unread x0) (Shape.Idx.first (numel1_S1x1x1.symm ▸ Nat.one_pos)))) (k0_hw22 : k0_chk22 i (arg2.view.readAt (Elt F) (Rect.unit (s := S1x8x16) ![0, 1, 5] S1x1x1.size inb_S1x8x16_S1x1x1_0_1_5).toLoadRect (harg2.unread x0) (Shape.Idx.first (numel1_S1x1x1.symm ▸ Nat.one_pos)))) (k0_hw23 : k0_chk23 i (arg2.view.readAt (Elt F) (Rect.unit (s := S1x8x16) ![0, 1, 6] S1x1x1.size inb_S1x8x16_S1x1x1_0_1_6).toLoadRect (harg2.unread x0) (Shape.Idx.first (numel1_S1x1x1.symm ▸ Nat.one_pos)))) (k0_hw24 : k0_chk24 i (arg2.view.readAt (Elt F) (Rect.unit (s := S1x8x16) ![0, 1, 7] S1x1x1.size inb_S1x8x16_S1x1x1_0_1_7).toLoadRect (harg2.unread x0) (Shape.Idx.first (numel1_S1x1x1.symm ▸ Nat.one_pos)))) (k0_hw25 : k0_chk25 i (arg2.view.readAt (Elt F) (Rect.unit (s := S1x8x16) ![0, 1, 8] S1x1x1.size inb_S1x8x16_S1x1x1_0_1_8).toLoadRect (harg2.unread x0) (Shape.Idx.first (numel1_S1x1x1.symm ▸ Nat.one_pos)))) (k0_hw26 : k0_chk26 i (arg2.view.readAt (Elt F) (Rect.unit (s := S1x8x16) ![0, 1, 9] S1x1x1.size inb_S1x8x16_S1x1x1_0_1_9).toLoadRect (harg2.unread x0) (Shape.Idx.first (numel1_S1x1x1.symm ▸ Nat.one_pos)))) (k0_hw27 : k0_chk27 i (arg2.view.readAt (Elt F) (Rect.unit (s := S1x8x16) ![0, 1, 10] S1x1x1.size inb_S1x8x16_S1x1x1_0_1_10).toLoadRect (harg2.unread x0) (Shape.Idx.first (numel1_S1x1x1.symm ▸ Nat.one_pos)))) (k0_hw28 : k0_chk28 i (arg2.view.readAt (Elt F) (Rect.unit (s := S1x8x16) ![0, 1, 11] S1x1x1.size inb_S1x8x16_S1x1x1_0_1_11).toLoadRect (harg2.unread x0) (Shape.Idx.first (numel1_S1x1x1.symm ▸ Nat.one_pos)))) (k0_hw29 : k0_chk29 i (arg2.view.readAt (Elt F) (Rect.unit (s := S1x8x16) ![0, 1, 12] S1x1x1.size inb_S1x8x16_S1x1x1_0_1_12).toLoadRect (harg2.unread x0) (Shape.Idx.first (numel1_S1x1x1.symm ▸ Nat.one_pos)))) (k0_hw30 : k0_chk30 i (arg2.view.readAt (Elt F) (Rect.unit (s := S1x8x16) ![0, 1, 13] S1x1x1.size inb_S1x8x16_S1x1x1_0_1_13).toLoadRect (harg2.unread x0) (Shape.Idx.first (numel1_S1x1x1.symm ▸ Nat.one_pos)))) (k0_hw31 : k0_chk31 i (arg2.view.readAt (Elt F) (Rect.unit (s := S1x8x16) ![0, 1, 14] S1x1x1.size inb_S1x8x16_S1x1x1_0_1_14).toLoadRect (harg2.unread x0) (Shape.Idx.first (numel1_S1x1x1.symm ▸ Nat.one_pos)))) (k0_hw32 : k0_chk32 i (arg2.view.readAt (Elt F) (Rect.unit (s := S1x8x16) ![0, 1, 15] S1x1x1.size inb_S1x8x16_S1x1x1_0_1_15).toLoadRect (harg2.unread x0) (Shape.Idx.first (numel1_S1x1x1.symm ▸ Nat.one_pos)))) (k0_hw33 : k0_chk33 i (arg2.view.readAt (Elt F) (Rect.unit (s := S1x8x16) ![0, 2, 0] S1x1x1.size inb_S1x8x16_S1x1x1_0_2_0).toLoadRect (harg2.unread x0) (Shape.Idx.first (numel1_S1x1x1.symm ▸ Nat.one_pos)))) (k0_hw34 : k0_chk34 i (arg2.view.readAt (Elt F) (Rect.unit (s := S1x8x16) ![0, 2, 1] S1x1x1.size inb_S1x8x16_S1x1x1_0_2_1).toLoadRect (harg2.unread x0) (Shape.Idx.first (numel1_S1x1x1.symm ▸ Nat.one_pos)))) (k0_hw35 : k0_chk35 i (arg2.view.readAt (Elt F) (Rect.unit (s := S1x8x16) ![0, 2, 2] S1x1x1.size inb_S1x8x16_S1x1x1_0_2_2).toLoadRect (harg2.unread x0) (Shape.Idx.first (numel1_S1x1x1.symm ▸ Nat.one_pos)))) (k0_hw36 : k0_chk36 i (arg2.view.readAt (Elt F) (Rect.unit (s := S1x8x16) ![0, 2, 3] S1x1x1.size inb_S1x8x16_S1x1x1_0_2_3).toLoadRect (harg2.unread x0) (Shape.Idx.first (numel1_S1x1x1.symm ▸ Nat.one_pos)))) (k0_hw37 : k0_chk37 i (arg2.view.readAt (Elt F) (Rect.unit (s := S1x8x16) ![0, 2, 4] S1x1x1.size inb_S1x8x16_S1x1x1_0_2_4).toLoadRect (harg2.unread x0) (Shape.Idx.first (numel1_S1x1x1.symm ▸ Nat.one_pos)))) (k0_hw38 : k0_chk38 i (arg2.view.readAt (Elt F) (Rect.unit (s := S1x8x16) ![0, 2, 5] S1x1x1.size inb_S1x8x16_S1x1x1_0_2_5).toLoadRect (harg2.unread x0) (Shape.Idx.first (numel1_S1x1x1.symm ▸ Nat.one_pos)))) (k0_hw39 : k0_chk39 i (arg2.view.readAt (Elt F) (Rect.unit (s := S1x8x16) ![0, 2, 6] S1x1x1.size inb_S1x8x16_S1x1x1_0_2_6).toLoadRect (harg2.unread x0) (Shape.Idx.first (numel1_S1x1x1.symm ▸ Nat.one_pos)))) (k0_hw40 : k0_chk40 i (arg2.view.readAt (Elt F) (Rect.unit (s := S1x8x16) ![0, 2, 7] S1x1x1.size inb_S1x8x16_S1x1x1_0_2_7).toLoadRect (harg2.unread x0) (Shape.Idx.first (numel1_S1x1x1.symm ▸ Nat.one_pos)))) (k0_hw41 : k0_chk41 i (arg2.view.readAt (Elt F) (Rect.unit (s := S1x8x16) ![0, 2, 8] S1x1x1.size inb_S1x8x16_S1x1x1_0_2_8).toLoadRect (harg2.unread x0) (Shape.Idx.first (numel1_S1x1x1.symm ▸ Nat.one_pos)))) (k0_hw42 : k0_chk42 i (arg2.view.readAt (Elt F) (Rect.unit (s := S1x8x16) ![0, 2, 9] S1x1x1.size inb_S1x8x16_S1x1x1_0_2_9).toLoadRect (harg2.unread x0) (Shape.Idx.first (numel1_S1x1x1.symm ▸ Nat.one_pos)))) (k0_hw43 : k0_chk43 i (arg2.view.readAt (Elt F) (Rect.unit (s := S1x8x16) ![0, 2, 10] S1x1x1.size inb_S1x8x16_S1x1x1_0_2_10).toLoadRect (harg2.unread x0) (Shape.Idx.first (numel1_S1x1x1.symm ▸ Nat.one_pos)))) (k0_hw44 : k0_chk44 i (arg2.view.readAt (Elt F) (Rect.unit (s := S1x8x16) ![0, 2, 11] S1x1x1.size inb_S1x8x16_S1x1x1_0_2_11).toLoadRect (harg2.unread x0) (Shape.Idx.first (numel1_S1x1x1.symm ▸ Nat.one_pos)))) (k0_hw45 : k0_chk45 i (arg2.view.readAt (Elt F) (Rect.unit (s := S1x8x16) ![0, 2, 12] S1x1x1.size inb_S1x8x16_S1x1x1_0_2_12).toLoadRect (harg2.unread x0) (Shape.Idx.first (numel1_S1x1x1.symm ▸ Nat.one_pos)))) (k0_hw46 : k0_chk46 i (arg2.view.readAt (Elt F) (Rect.unit (s := S1x8x16) ![0, 2, 13] S1x1x1.size inb_S1x8x16_S1x1x1_0_2_13).toLoadRect (harg2.unread x0) (Shape.Idx.first (numel1_S1x1x1.symm ▸ Nat.one_pos)))) (k0_hw47 : k0_chk47 i (arg2.view.readAt (Elt F) (Rect.unit (s := S1x8x16) ![0, 2, 14] S1x1x1.size inb_S1x8x16_S1x1x1_0_2_14).toLoadRect (harg2.unread x0) (Shape.Idx.first (numel1_S1x1x1.symm ▸ Nat.one_pos)))) (k0_hw48 : k0_chk48 i (arg2.view.readAt (Elt F) (Rect.unit (s := S1x8x16) ![0, 2, 15] S1x1x1.size inb_S1x8x16_S1x1x1_0_2_15).toLoadRect (harg2.unread x0) (Shape.Idx.first (numel1_S1x1x1.symm ▸ Nat.one_pos)))) (k0_hw49 : k0_chk49 i (arg2.view.readAt (Elt F) (Rect.unit (s := S1x8x16) ![0, 3, 0] S1x1x1.size inb_S1x8x16_S1x1x1_0_3_0).toLoadRect (harg2.unread x0) (Shape.Idx.first (numel1_S1x1x1.symm ▸ Nat.one_pos)))) (k0_hw50 : k0_chk50 i (arg2.view.readAt (Elt F) (Rect.unit (s := S1x8x16) ![0, 3, 1] S1x1x1.size inb_S1x8x16_S1x1x1_0_3_1).toLoadRect (harg2.unread x0) (Shape.Idx.first (numel1_S1x1x1.symm ▸ Nat.one_pos)))) (k0_hw51 : k0_chk51 i (arg2.view.readAt (Elt F) (Rect.unit (s := S1x8x16) ![0, 3, 2] S1x1x1.size inb_S1x8x16_S1x1x1_0_3_2).toLoadRect (harg2.unread x0) (Shape.Idx.first (numel1_S1x1x1.symm ▸ Nat.one_pos)))) (k0_hw52 : k0_chk52 i (arg2.view.readAt (Elt F) (Rect.unit (s := S1x8x16) ![0, 3, 3] S1x1x1.size inb_S1x8x16_S1x1x1_0_3_3).toLoadRect (harg2.unread x0) (Shape.Idx.first (numel1_S1x1x1.symm ▸ Nat.one_pos)))) (k0_hw53 : k0_chk53 i (arg2.view.readAt (Elt F) (Rect.unit (s := S1x8x16) ![0, 3, 4] S1x1x1.size inb_S1x8x16_S1x1x1_0_3_4).toLoadRect (harg2.unread x0) (Shape.Idx.first (numel1_S1x1x1.symm ▸ Nat.one_pos)))) (k0_hw54 : k0_chk54 i (arg2.view.readAt (Elt F) (Rect.unit (s := S1x8x16) ![0, 3, 5] S1x1x1.size inb_S1x8x16_S1x1x1_0_3_5).toLoadRect (harg2.unread x0) (Shape.Idx.first (numel1_S1x1x1.symm ▸ Nat.one_pos)))) (k0_hw55 : k0_chk55 i (arg2.view.readAt (Elt F) (Rect.unit (s := S1x8x16) ![0, 3, 6] S1x1x1.size inb_S1x8x16_S1x1x1_0_3_6).toLoadRect (harg2.unread x0) (Shape.Idx.first (numel1_S1x1x1.symm ▸ Nat.one_pos)))) (k0_hw56 : k0_chk56 i (arg2.view.readAt (Elt F) (Rect.unit (s := S1x8x16) ![0, 3, 7] S1x1x1.size inb_S1x8x16_S1x1x1_0_3_7).toLoadRect (harg2.unread x0) (Shape.Idx.first (numel1_S1x1x1.symm ▸ Nat.one_pos)))) (k0_hw57 : k0_chk57 i (arg2.view.readAt (Elt F) (Rect.unit (s := S1x8x16) ![0, 3, 8] S1x1x1.size inb_S1x8x16_S1x1x1_0_3_8).toLoadRect (harg2.unread x0) (Shape.Idx.first (numel1_S1x1x1.symm ▸ Nat.one_pos)))) (k0_hw58 : k0_chk58 i (arg2.view.readAt (Elt F) (Rect.unit (s := S1x8x16) ![0, 3, 9] S1x1x1.size inb_S1x8x16_S1x1x1_0_3_9).toLoadRect (harg2.unread x0) (Shape.Idx.first (numel1_S1x1x1.symm ▸ Nat.one_pos)))) (k0_hw59 : k0_chk59 i (arg2.view.readAt (Elt F) (Rect.unit (s := S1x8x16) ![0, 3, 10] S1x1x1.size inb_S1x8x16_S1x1x1_0_3_10).toLoadRect (harg2.unread x0) (Shape.Idx.first (numel1_S1x1x1.symm ▸ Nat.one_pos)))) (k0_hw60 : k0_chk60 i (arg2.view.readAt (Elt F) (Rect.unit (s := S1x8x16) ![0, 3, 11] S1x1x1.size inb_S1x8x16_S1x1x1_0_3_11).toLoadRect (harg2.unread x0) (Shape.Idx.first (numel1_S1x1x1.symm ▸ Nat.one_pos)))) (k0_hw61 : k0_chk61 i (arg2.view.readAt (Elt F) (Rect.unit (s := S1x8x16) ![0, 3, 12] S1x1x1.size inb_S1x8x16_S1x1x1_0_3_12).toLoadRect (harg2.unread x0) (Shape.Idx.first (numel1_S1x1x1.symm ▸ Nat.one_pos)))) (k0_hw62 : k0_chk62 i (arg2.view.readAt (Elt F) (Rect.unit (s := S1x8x16) ![0, 3, 13] S1x1x1.size inb_S1x8x16_S1x1x1_0_3_13).toLoadRect (harg2.unread x0) (Shape.Idx.first (numel1_S1x1x1.symm ▸ Nat.one_pos)))) (k0_hw63 : k0_chk63 i (arg2.view.readAt (Elt F) (Rect.unit (s := S1x8x16) ![0, 3, 14] S1x1x1.size inb_S1x8x16_S1x1x1_0_3_14).toLoadRect (harg2.unread x0) (Shape.Idx.first (numel1_S1x1x1.symm ▸ Nat.one_pos)))) (k0_hw64 : k0_chk64 i (arg2.view.readAt (Elt F) (Rect.unit (s := S1x8x16) ![0, 3, 15] S1x1x1.size inb_S1x8x16_S1x1x1_0_3_15).toLoadRect (harg2.unread x0) (Shape.Idx.first (numel1_S1x1x1.symm ▸ Nat.one_pos)))) (k0_hw65 : k0_chk65 i (arg2.view.readAt (Elt F) (Rect.unit (s := S1x8x16) ![0, 4, 0] S1x1x1.size inb_S1x8x16_S1x1x1_0_4_0).toLoadRect (harg2.unread x0) (Shape.Idx.first (numel1_S1x1x1.symm ▸ Nat.one_pos)))) (k0_hw66 : k0_chk66 i (arg2.view.readAt (Elt F) (Rect.unit (s := S1x8x16) ![0, 4, 1] S1x1x1.size inb_S1x8x16_S1x1x1_0_4_1).toLoadRect (harg2.unread x0) (Shape.Idx.first (numel1_S1x1x1.symm ▸ Nat.one_pos)))) (k0_hw67 : k0_chk67 i (arg2.view.readAt (Elt F) (Rect.unit (s := S1x8x16) ![0, 4, 2] S1x1x1.size inb_S1x8x16_S1x1x1_0_4_2).toLoadRect (harg2.unread x0) (Shape.Idx.first (numel1_S1x1x1.symm ▸ Nat.one_pos)))) (k0_hw68 : k0_chk68 i (arg2.view.readAt (Elt F) (Rect.unit (s := S1x8x16) ![0, 4, 3] S1x1x1.size inb_S1x8x16_S1x1x1_0_4_3).toLoadRect (harg2.unread x0) (Shape.Idx.first (numel1_S1x1x1.symm ▸ Nat.one_pos)))) (k0_hw69 : k0_chk69 i (arg2.view.readAt (Elt F) (Rect.unit (s := S1x8x16) ![0, 4, 4] S1x1x1.size inb_S1x8x16_S1x1x1_0_4_4).toLoadRect (harg2.unread x0) (Shape.Idx.first (numel1_S1x1x1.symm ▸ Nat.one_pos)))) (k0_hw70 : k0_chk70 i (arg2.view.readAt (Elt F) (Rect.unit (s := S1x8x16) ![0, 4, 5] S1x1x1.size inb_S1x8x16_S1x1x1_0_4_5).toLoadRect (harg2.unread x0) (Shape.Idx.first (numel1_S1x1x1.symm ▸ Nat.one_pos)))) (k0_hw71 : k0_chk71 i (arg2.view.readAt (Elt F) (Rect.unit (s := S1x8x16) ![0, 4, 6] S1x1x1.size inb_S1x8x16_S1x1x1_0_4_6).toLoadRect (harg2.unread x0) (Shape.Idx.first (numel1_S1x1x1.symm ▸ Nat.one_pos)))) (k0_hw72 : k0_chk72 i (arg2.view.readAt (Elt F) (Rect.unit (s := S1x8x16) ![0, 4, 7] S1x1x1.size inb_S1x8x16_S1x1x1_0_4_7).toLoadRect (harg2.unread x0) (Shape.Idx.first (numel1_S1x1x1.symm ▸ Nat.one_pos)))) (k0_hw73 : k0_chk73 i (arg2.view.readAt (Elt F) (Rect.unit (s := S1x8x16) ![0, 4, 8] S1x1x1.size inb_S1x8x16_S1x1x1_0_4_8).toLoadRect (harg2.unread x0) (Shape.Idx.first (numel1_S1x1x1.symm ▸ Nat.one_pos)))) (k0_hw74 : k0_chk74 i (arg2.view.readAt (Elt F) (Rect.unit (s := S1x8x16) ![0, 4, 9] S1x1x1.size inb_S1x8x16_S1x1x1_0_4_9).toLoadRect (harg2.unread x0) (Shape.Idx.first (numel1_S1x1x1.symm ▸ Nat.one_pos)))) (k0_hw75 : k0_chk75 i (arg2.view.readAt (Elt F) (Rect.unit (s := S1x8x16) ![0, 4, 10] S1x1x1.size inb_S1x8x16_S1x1x1_0_4_10).toLoadRect (harg2.unread x0) (Shape.Idx.first (numel1_S1x1x1.symm ▸ Nat.one_pos)))) (k0_hw76 : k0_chk76 i (arg2.view.readAt (Elt F) (Rect.unit (s := S1x8x16) ![0, 4, 11] S1x1x1.size inb_S1x8x16_S1x1x1_0_4_11).toLoadRect (harg2.unread x0) (Shape.Idx.first (numel1_S1x1x1.symm ▸ Nat.one_pos)))) (k0_hw77 : k0_chk77 i (arg2.view.readAt (Elt F) (Rect.unit (s := S1x8x16) ![0, 4, 12] S1x1x1.size inb_S1x8x16_S1x1x1_0_4_12).toLoadRect (harg2.unread x0) (Shape.Idx.first (numel1_S1x1x1.symm ▸ Nat.one_pos)))) (k0_hw78 : k0_chk78 i (arg2.view.readAt (Elt F) (Rect.unit (s := S1x8x16) ![0, 4, 13] S1x1x1.size inb_S1x8x16_S1x1x1_0_4_13).toLoadRect (harg2.unread x0) (Shape.Idx.first (numel1_S1x1x1.symm ▸ Nat.one_pos)))) (k0_hw79 : k0_chk79 i (arg2.view.readAt (Elt F) (Rect.unit (s := S1x8x16) ![0, 4, 14] S1x1x1.size inb_S1x8x16_S1x1x1_0_4_14).toLoadRect (harg2.unread x0) (Shape.Idx.first (numel1_S1x1x1.symm ▸ Nat.one_pos)))) (k0_hw80 : k0_chk80 i (arg2.view.readAt (Elt F) (Rect.unit (s := S1x8x16) ![0, 4, 15] S1x1x1.size inb_S1x8x16_S1x1x1_0_4_15).toLoadRect (harg2.unread x0) (Shape.Idx.first (numel1_S1x1x1.symm ▸ Nat.one_pos)))) (k0_hw81 : k0_chk81 i (arg2.view.readAt (Elt F) (Rect.unit (s := S1x8x16) ![0, 5, 0] S1x1x1.size inb_S1x8x16_S1x1x1_0_5_0).toLoadRect (harg2.unread x0) (Shape.Idx.first (numel1_S1x1x1.symm ▸ Nat.one_pos)))) (k0_hw82 : k0_chk82 i (arg2.view.readAt (Elt F) (Rect.unit (s := S1x8x16) ![0, 5, 1] S1x1x1.size inb_S1x8x16_S1x1x1_0_5_1).toLoadRect (harg2.unread x0) (Shape.Idx.first (numel1_S1x1x1.symm ▸ Nat.one_pos)))) (k0_hw83 : k0_chk83 i (arg2.view.readAt (Elt F) (Rect.unit (s := S1x8x16) ![0, 5, 2] S1x1x1.size inb_S1x8x16_S1x1x1_0_5_2).toLoadRect (harg2.unread x0) (Shape.Idx.first (numel1_S1x1x1.symm ▸ Nat.one_pos)))) (k0_hw84 : k0_chk84 i (arg2.view.readAt (Elt F) (Rect.unit (s := S1x8x16) ![0, 5, 3] S1x1x1.size inb_S1x8x16_S1x1x1_0_5_3).toLoadRect (harg2.unread x0) (Shape.Idx.first (numel1_S1x1x1.symm ▸ Nat.one_pos)))) (k0_hw85 : k0_chk85 i (arg2.view.readAt (Elt F) (Rect.unit (s := S1x8x16) ![0, 5, 4] S1x1x1.size inb_S1x8x16_S1x1x1_0_5_4).toLoadRect (harg2.unread x0) (Shape.Idx.first (numel1_S1x1x1.symm ▸ Nat.one_pos)))) (k0_hw86 : k0_chk86 i (arg2.view.readAt (Elt F) (Rect.unit (s := S1x8x16) ![0, 5, 5] S1x1x1.size inb_S1x8x16_S1x1x1_0_5_5).toLoadRect (harg2.unread x0) (Shape.Idx.first (numel1_S1x1x1.symm ▸ Nat.one_pos)))) (k0_hw87 : k0_chk87 i (arg2.view.readAt (Elt F) (Rect.unit (s := S1x8x16) ![0, 5, 6] S1x1x1.size inb_S1x8x16_S1x1x1_0_5_6).toLoadRect (harg2.unread x0) (Shape.Idx.first (numel1_S1x1x1.symm ▸ Nat.one_pos)))) (k0_hw88 : k0_chk88 i (arg2.view.readAt (Elt F) (Rect.unit (s := S1x8x16) ![0, 5, 7] S1x1x1.size inb_S1x8x16_S1x1x1_0_5_7).toLoadRect (harg2.unread x0) (Shape.Idx.first (numel1_S1x1x1.symm ▸ Nat.one_pos)))) (k0_hw89 : k0_chk89 i (arg2.view.readAt (Elt F) (Rect.unit (s := S1x8x16) ![0, 5, 8] S1x1x1.size inb_S1x8x16_S1x1x1_0_5_8).toLoadRect (harg2.unread x0) (Shape.Idx.first (numel1_S1x1x1.symm ▸ Nat.one_pos)))) (k0_hw90 : k0_chk90 i (arg2.view.readAt (Elt F) (Rect.unit (s := S1x8x16) ![0, 5, 9] S1x1x1.size inb_S1x8x16_S1x1x1_0_5_9).toLoadRect (harg2.unread x0) (Shape.Idx.first (numel1_S1x1x1.symm ▸ Nat.one_pos)))) (k0_hw91 : k0_chk91 i (arg2.view.readAt (Elt F) (Rect.unit (s := S1x8x16) ![0, 5, 10] S1x1x1.size inb_S1x8x16_S1x1x1_0_5_10).toLoadRect (harg2.unread x0) (Shape.Idx.first (numel1_S1x1x1.symm ▸ Nat.one_pos)))) (k0_hw92 : k0_chk92 i (arg2.view.readAt (Elt F) (Rect.unit (s := S1x8x16) ![0, 5, 11] S1x1x1.size inb_S1x8x16_S1x1x1_0_5_11).toLoadRect (harg2.unread x0) (Shape.Idx.first (numel1_S1x1x1.symm ▸ Nat.one_pos)))) (k0_hw93 : k0_chk93 i (arg2.view.readAt (Elt F) (Rect.unit (s := S1x8x16) ![0, 5, 12] S1x1x1.size inb_S1x8x16_S1x1x1_0_5_12).toLoadRect (harg2.unread x0) (Shape.Idx.first (numel1_S1x1x1.symm ▸ Nat.one_pos)))) (k0_hw94 : k0_chk94 i (arg2.view.readAt (Elt F) (Rect.unit (s := S1x8x16) ![0, 5, 13] S1x1x1.size inb_S1x8x16_S1x1x1_0_5_13).toLoadRect (harg2.unread x0) (Shape.Idx.first (numel1_S1x1x1.symm ▸ Nat.one_pos)))) (k0_hw95 : k0_chk95 i (arg2.view.readAt (Elt F) (Rect.unit (s := S1x8x16) ![0, 5, 14] S1x1x1.size inb_S1x8x16_S1x1x1_0_5_14).toLoadRect (harg2.unread x0) (Shape.Idx.first (numel1_S1x1x1.symm ▸ Nat.one_pos)))) (k0_hw96 : k0_chk96 i (arg2.view.readAt (Elt F) (Rect.unit (s := S1x8x16) ![0, 5, 15] S1x1x1.size inb_S1x8x16_S1x1x1_0_5_15).toLoadRect (harg2.unread x0) (Shape.Idx.first (numel1_S1x1x1.symm ▸ Nat.one_pos)))) (k0_hw97 : k0_chk97 i (arg2.view.readAt (Elt F) (Rect.unit (s := S1x8x16) ![0, 6, 0] S1x1x1.size inb_S1x8x16_S1x1x1_0_6_0).toLoadRect (harg2.unread x0) (Shape.Idx.first (numel1_S1x1x1.symm ▸ Nat.one_pos)))) (k0_hw98 : k0_chk98 i (arg2.view.readAt (Elt F) (Rect.unit (s := S1x8x16) ![0, 6, 1] S1x1x1.size inb_S1x8x16_S1x1x1_0_6_1).toLoadRect (harg2.unread x0) (Shape.Idx.first (numel1_S1x1x1.symm ▸ Nat.one_pos)))) (k0_hw99 : k0_chk99 i (arg2.view.readAt (Elt F) (Rect.unit (s := S1x8x16) ![0, 6, 2] S1x1x1.size inb_S1x8x16_S1x1x1_0_6_2).toLoadRect (harg2.unread x0) (Shape.Idx.first (numel1_S1x1x1.symm ▸ Nat.one_pos)))) (k0_hw100 : k0_chk100 i (arg2.view.readAt (Elt F) (Rect.unit (s := S1x8x16) ![0, 6, 3] S1x1x1.size inb_S1x8x16_S1x1x1_0_6_3).toLoadRect (harg2.unread x0) (Shape.Idx.first (numel1_S1x1x1.symm ▸ Nat.one_pos)))) (k0_hw101 : k0_chk101 i (arg2.view.readAt (Elt F) (Rect.unit (s := S1x8x16) ![0, 6, 4] S1x1x1.size inb_S1x8x16_S1x1x1_0_6_4).toLoadRect (harg2.unread x0) (Shape.Idx.first (numel1_S1x1x1.symm ▸ Nat.one_pos)))) (k0_hw102 : k0_chk102 i (arg2.view.readAt (Elt F) (Rect.unit (s := S1x8x16) ![0, 6, 5] S1x1x1.size inb_S1x8x16_S1x1x1_0_6_5).toLoadRect (harg2.unread x0) (Shape.Idx.first (numel1_S1x1x1.symm ▸ Nat.one_pos)))) (k0_hw103 : k0_chk103 i (arg2.view.readAt (Elt F) (Rect.unit (s := S1x8x16) ![0, 6, 6] S1x1x1.size inb_S1x8x16_S1x1x1_0_6_6).toLoadRect (harg2.unread x0) (Shape.Idx.first (numel1_S1x1x1.symm ▸ Nat.one_pos)))) (k0_hw104 : k0_chk104 i (arg2.view.readAt (Elt F) (Rect.unit (s := S1x8x16) ![0, 6, 7] S1x1x1.size inb_S1x8x16_S1x1x1_0_6_7).toLoadRect (harg2.unread x0) (Shape.Idx.first (numel1_S1x1x1.symm ▸ Nat.one_pos)))) (k0_hw105 : k0_chk105 i (arg2.view.readAt (Elt F) (Rect.unit (s := S1x8x16) ![0, 6, 8] S1x1x1.size inb_S1x8x16_S1x1x1_0_6_8).toLoadRect (harg2.unread x0) (Shape.Idx.first (numel1_S1x1x1.symm ▸ Nat.one_pos)))) (k0_hw106 : k0_chk106 i (arg2.view.readAt (Elt F) (Rect.unit (s := S1x8x16) ![0, 6, 9] S1x1x1.size inb_S1x8x16_S1x1x1_0_6_9).toLoadRect (harg2.unread x0) (Shape.Idx.first (numel1_S1x1x1.symm ▸ Nat.one_pos)))) (k0_hw107 : k0_chk107 i (arg2.view.readAt (Elt F) (Rect.unit (s := S1x8x16) ![0, 6, 10] S1x1x1.size inb_S1x8x16_S1x1x1_0_6_10).toLoadRect (harg2.unread x0) (Shape.Idx.first (numel1_S1x1x1.symm ▸ Nat.one_pos)))) (k0_hw108 : k0_chk108 i (arg2.view.readAt (Elt F) (Rect.unit (s := S1x8x16) ![0, 6, 11] S1x1x1.size inb_S1x8x16_S1x1x1_0_6_11).toLoadRect (harg2.unread x0) (Shape.Idx.first (numel1_S1x1x1.symm ▸ Nat.one_pos)))) (k0_hw109 : k0_chk109 i (arg2.view.readAt (Elt F) (Rect.unit (s := S1x8x16) ![0, 6, 12] S1x1x1.size inb_S1x8x16_S1x1x1_0_6_12).toLoadRect (harg2.unread x0) (Shape.Idx.first (numel1_S1x1x1.symm ▸ Nat.one_pos)))) (k0_hw110 : k0_chk110 i (arg2.view.readAt (Elt F) (Rect.unit (s := S1x8x16) ![0, 6, 13] S1x1x1.size inb_S1x8x16_S1x1x1_0_6_13).toLoadRect (harg2.unread x0) (Shape.Idx.first (numel1_S1x1x1.symm ▸ Nat.one_pos)))) (k0_hw111 : k0_chk111 i (arg2.view.readAt (Elt F) (Rect.unit (s := S1x8x16) ![0, 6, 14] S1x1x1.size inb_S1x8x16_S1x1x1_0_6_14).toLoadRect (harg2.unread x0) (Shape.Idx.first (numel1_S1x1x1.symm ▸ Nat.one_pos)))) (k0_hw112 : k0_chk112 i (arg2.view.readAt (Elt F) (Rect.unit (s := S1x8x16) ![0, 6, 15] S1x1x1.size inb_S1x8x16_S1x1x1_0_6_15).toLoadRect (harg2.unread x0) (Shape.Idx.first (numel1_S1x1x1.symm ▸ Nat.one_pos)))) (k0_hw113 : k0_chk113 i (arg2.view.readAt (Elt F) (Rect.unit (s := S1x8x16) ![0, 7, 0] S1x1x1.size inb_S1x8x16_S1x1x1_0_7_0).toLoadRect (harg2.unread x0) (Shape.Idx.first (numel1_S1x1x1.symm ▸ Nat.one_pos)))) (k0_hw114 : k0_chk114 i (arg2.view.readAt (Elt F) (Rect.unit (s := S1x8x16) ![0, 7, 1] S1x1x1.size inb_S1x8x16_S1x1x1_0_7_1).toLoadRect (harg2.unread x0) (Shape.Idx.first (numel1_S1x1x1.symm ▸ Nat.one_pos)))) (k0_hw115 : k0_chk115 i (arg2.view.readAt (Elt F) (Rect.unit (s := S1x8x16) ![0, 7, 2] S1x1x1.size inb_S1x8x16_S1x1x1_0_7_2).toLoadRect (harg2.unread x0) (Shape.Idx.first (numel1_S1x1x1.symm ▸ Nat.one_pos)))) (k0_hw116 : k0_chk116 i (arg2.view.readAt (Elt F) (Rect.unit (s := S1x8x16) ![0, 7, 3] S1x1x1.size inb_S1x8x16_S1x1x1_0_7_3).toLoadRect (harg2.unread x0) (Shape.Idx.first (numel1_S1x1x1.symm ▸ Nat.one_pos)))) (k0_hw117 : k0_chk117 i (arg2.view.readAt (Elt F) (Rect.unit (s := S1x8x16) ![0, 7, 4] S1x1x1.size inb_S1x8x16_S1x1x1_0_7_4).toLoadRect (harg2.unread x0) (Shape.Idx.first (numel1_S1x1x1.symm ▸ Nat.one_pos)))) (k0_hw118 : k0_chk118 i (arg2.view.readAt (Elt F) (Rect.unit (s := S1x8x16) ![0, 7, 5] S1x1x1.size inb_S1x8x16_S1x1x1_0_7_5).toLoadRect (harg2.unread x0) (Shape.Idx.first (numel1_S1x1x1.symm ▸ Nat.one_pos)))) (k0_hw119 : k0_chk119 i (arg2.view.readAt (Elt F) (Rect.unit (s := S1x8x16) ![0, 7, 6] S1x1x1.size inb_S1x8x16_S1x1x1_0_7_6).toLoadRect (harg2.unread x0) (Shape.Idx.first (numel1_S1x1x1.symm ▸ Nat.one_pos)))) (k0_hw120 : k0_chk120 i (arg2.view.readAt (Elt F) (Rect.unit (s := S1x8x16) ![0, 7, 7] S1x1x1.size inb_S1x8x16_S1x1x1_0_7_7).toLoadRect (harg2.unread x0) (Shape.Idx.first (numel1_S1x1x1.symm ▸ Nat.one_pos)))) (k0_hw121 : k0_chk121 i (arg2.view.readAt (Elt F) (Rect.unit (s := S1x8x16) ![0, 7, 8] S1x1x1.size inb_S1x8x16_S1x1x1_0_7_8).toLoadRect (harg2.unread x0) (Shape.Idx.first (numel1_S1x1x1.symm ▸ Nat.one_pos)))) (k0_hw122 : k0_chk122 i (arg2.view.readAt (Elt F) (Rect.unit (s := S1x8x16) ![0, 7, 9] S1x1x1.size inb_S1x8x16_S1x1x1_0_7_9).toLoadRect (harg2.unread x0) (Shape.Idx.first (numel1_S1x1x1.symm ▸ Nat.one_pos)))) (k0_hw123 : k0_chk123 i (arg2.view.readAt (Elt F) (Rect.unit (s := S1x8x16) ![0, 7, 10] S1x1x1.size inb_S1x8x16_S1x1x1_0_7_10).toLoadRect (harg2.unread x0) (Shape.Idx.first (numel1_S1x1x1.symm ▸ Nat.one_pos)))) (k0_hw124 : k0_chk124 i (arg2.view.readAt (Elt F) (Rect.unit (s := S1x8x16) ![0, 7, 11] S1x1x1.size inb_S1x8x16_S1x1x1_0_7_11).toLoadRect (harg2.unread x0) (Shape.Idx.first (numel1_S1x1x1.symm ▸ Nat.one_pos)))) (k0_hw125 : k0_chk125 i (arg2.view.readAt (Elt F) (Rect.unit (s := S1x8x16) ![0, 7, 12] S1x1x1.size inb_S1x8x16_S1x1x1_0_7_12).toLoadRect (harg2.unread x0) (Shape.Idx.first (numel1_S1x1x1.symm ▸ Nat.one_pos)))) (k0_hw126 : k0_chk126 i (arg2.view.readAt (Elt F) (Rect.unit (s := S1x8x16) ![0, 7, 13] S1x1x1.size inb_S1x8x16_S1x1x1_0_7_13).toLoadRect (harg2.unread x0) (Shape.Idx.first (numel1_S1x1x1.symm ▸ Nat.one_pos)))) (k0_hw127 : k0_chk127 i (arg2.view.readAt (Elt F) (Rect.unit (s := S1x8x16) ![0, 7, 14] S1x1x1.size inb_S1x8x16_S1x1x1_0_7_14).toLoadRect (harg2.unread x0) (Shape.Idx.first (numel1_S1x1x1.symm ▸ Nat.one_pos)))) (k0_hw128 : k0_chk128 i (arg2.view.readAt (Elt F) (Rect.unit (s := S1x8x16) ![0, 7, 15] S1x1x1.size inb_S1x8x16_S1x1x1_0_7_15).toLoadRect (harg2.unread x0) (Shape.Idx.first (numel1_S1x1x1.symm ▸ Nat.one_pos))))
    (fs1 : BufTy.Contents (Elt F) arg6.view.ty) :
    kernelRunRaw0_A.sl.v2820 c i arg2 harg2 arg5 arg6 x0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64 k0_hw65 k0_hw66 k0_hw67 k0_hw68 k0_hw69 k0_hw70 k0_hw71 k0_hw72 k0_hw73 k0_hw74 k0_hw75 k0_hw76 k0_hw77 k0_hw78 k0_hw79 k0_hw80 k0_hw81 k0_hw82 k0_hw83 k0_hw84 k0_hw85 k0_hw86 k0_hw87 k0_hw88 k0_hw89 k0_hw90 k0_hw91 k0_hw92 k0_hw93 k0_hw94 k0_hw95 k0_hw96 k0_hw97 k0_hw98 k0_hw99 k0_hw100 k0_hw101 k0_hw102 k0_hw103 k0_hw104 k0_hw105 k0_hw106 k0_hw107 k0_hw108 k0_hw109 k0_hw110 k0_hw111 k0_hw112 k0_hw113 k0_hw114 k0_hw115 k0_hw116 k0_hw117 k0_hw118 k0_hw119 k0_hw120 k0_hw121 k0_hw122 k0_hw123 k0_hw124 k0_hw125 k0_hw126 k0_hw127 k0_hw128 fs1 = accAfter (startVal (F := F)) (landedRow c i x0 fh0) 128 := by
  refine (View.readCov_eq_canon' _ _ _).trans ?_
  funext j
  have hj : (Rect.unit (s := S8x128) ![0, 0] ![8, 128] inb_S8x128_S8x128_0_0).idx j = j := by
    funext a
    apply Fin.ext
    match a with
    | ⟨0, _⟩ => show 0 + 1 * (j 0).val = (j 0).val; omega
    | ⟨1, _⟩ => show 0 + 1 * (j 1).val = (j 1).val; omega
  refine (congrArg (View.canon _) hj).trans (congrFun ?_ j)
  iterate 128 peel_step
  -- the first store: the start value through the whole buffer
  refine (View.canon_unit_zero (S := S8x128) hz2 _ _).trans ?_
  funext y
  show shapeCast S8x128 (broadcast S8x128 (startVal (F := F))) shapeCasts_S8x128_S8x128 y = startVal
  rw [shapeCast_self]
  rfl

/-- The output block a point leaves: the accumulator after all 128 steps, as a [1, 8, 128] block. -/
def outBlock (c : Dev nD) (i : grid0.Coords) (x0 : Vec F S1x8x16 .i32) (fh0 : HbBuf0 (F := F) c hbM0_0) : S1x8x128.Idx → F .f32 :=
  fun y => accAfter (startVal (F := F)) (landedRow c i x0 fh0) 128 (ix2 (y 1) (y 2))

/-- The last store's payload — the accumulator as loaded, given a unit axis — is `outBlock`. -/
theorem out_eq (c : Dev nD) (i : grid0.Coords) (arg2 : Memref sig .tc .smem S1x8x16 .i32) (harg2 : arg2.IsWhole) (arg5 : Memref sig .tc .vmem S8x128 .f32) (arg6 : Memref sig .tc .vmem S2x1x128 .f32)
    (x0 : Vec F S1x8x16 .i32) (fh0 : HbBuf0 (F := F) c hbM0_0) (k0_hw1 : k0_chk1 i (arg2.view.readAt (Elt F) (Rect.unit (s := S1x8x16) ![0, 0, 0] S1x1x1.size inb_S1x8x16_S1x1x1_0_0_0).toLoadRect (harg2.unread x0) (Shape.Idx.first (numel1_S1x1x1.symm ▸ Nat.one_pos)))) (k0_hw2 : k0_chk2 i (arg2.view.readAt (Elt F) (Rect.unit (s := S1x8x16) ![0, 0, 1] S1x1x1.size inb_S1x8x16_S1x1x1_0_0_1).toLoadRect (harg2.unread x0) (Shape.Idx.first (numel1_S1x1x1.symm ▸ Nat.one_pos)))) (k0_hw3 : k0_chk3 i (arg2.view.readAt (Elt F) (Rect.unit (s := S1x8x16) ![0, 0, 2] S1x1x1.size inb_S1x8x16_S1x1x1_0_0_2).toLoadRect (harg2.unread x0) (Shape.Idx.first (numel1_S1x1x1.symm ▸ Nat.one_pos)))) (k0_hw4 : k0_chk4 i (arg2.view.readAt (Elt F) (Rect.unit (s := S1x8x16) ![0, 0, 3] S1x1x1.size inb_S1x8x16_S1x1x1_0_0_3).toLoadRect (harg2.unread x0) (Shape.Idx.first (numel1_S1x1x1.symm ▸ Nat.one_pos)))) (k0_hw5 : k0_chk5 i (arg2.view.readAt (Elt F) (Rect.unit (s := S1x8x16) ![0, 0, 4] S1x1x1.size inb_S1x8x16_S1x1x1_0_0_4).toLoadRect (harg2.unread x0) (Shape.Idx.first (numel1_S1x1x1.symm ▸ Nat.one_pos)))) (k0_hw6 : k0_chk6 i (arg2.view.readAt (Elt F) (Rect.unit (s := S1x8x16) ![0, 0, 5] S1x1x1.size inb_S1x8x16_S1x1x1_0_0_5).toLoadRect (harg2.unread x0) (Shape.Idx.first (numel1_S1x1x1.symm ▸ Nat.one_pos)))) (k0_hw7 : k0_chk7 i (arg2.view.readAt (Elt F) (Rect.unit (s := S1x8x16) ![0, 0, 6] S1x1x1.size inb_S1x8x16_S1x1x1_0_0_6).toLoadRect (harg2.unread x0) (Shape.Idx.first (numel1_S1x1x1.symm ▸ Nat.one_pos)))) (k0_hw8 : k0_chk8 i (arg2.view.readAt (Elt F) (Rect.unit (s := S1x8x16) ![0, 0, 7] S1x1x1.size inb_S1x8x16_S1x1x1_0_0_7).toLoadRect (harg2.unread x0) (Shape.Idx.first (numel1_S1x1x1.symm ▸ Nat.one_pos)))) (k0_hw9 : k0_chk9 i (arg2.view.readAt (Elt F) (Rect.unit (s := S1x8x16) ![0, 0, 8] S1x1x1.size inb_S1x8x16_S1x1x1_0_0_8).toLoadRect (harg2.unread x0) (Shape.Idx.first (numel1_S1x1x1.symm ▸ Nat.one_pos)))) (k0_hw10 : k0_chk10 i (arg2.view.readAt (Elt F) (Rect.unit (s := S1x8x16) ![0, 0, 9] S1x1x1.size inb_S1x8x16_S1x1x1_0_0_9).toLoadRect (harg2.unread x0) (Shape.Idx.first (numel1_S1x1x1.symm ▸ Nat.one_pos)))) (k0_hw11 : k0_chk11 i (arg2.view.readAt (Elt F) (Rect.unit (s := S1x8x16) ![0, 0, 10] S1x1x1.size inb_S1x8x16_S1x1x1_0_0_10).toLoadRect (harg2.unread x0) (Shape.Idx.first (numel1_S1x1x1.symm ▸ Nat.one_pos)))) (k0_hw12 : k0_chk12 i (arg2.view.readAt (Elt F) (Rect.unit (s := S1x8x16) ![0, 0, 11] S1x1x1.size inb_S1x8x16_S1x1x1_0_0_11).toLoadRect (harg2.unread x0) (Shape.Idx.first (numel1_S1x1x1.symm ▸ Nat.one_pos)))) (k0_hw13 : k0_chk13 i (arg2.view.readAt (Elt F) (Rect.unit (s := S1x8x16) ![0, 0, 12] S1x1x1.size inb_S1x8x16_S1x1x1_0_0_12).toLoadRect (harg2.unread x0) (Shape.Idx.first (numel1_S1x1x1.symm ▸ Nat.one_pos)))) (k0_hw14 : k0_chk14 i (arg2.view.readAt (Elt F) (Rect.unit (s := S1x8x16) ![0, 0, 13] S1x1x1.size inb_S1x8x16_S1x1x1_0_0_13).toLoadRect (harg2.unread x0) (Shape.Idx.first (numel1_S1x1x1.symm ▸ Nat.one_pos)))) (k0_hw15 : k0_chk15 i (arg2.view.readAt (Elt F) (Rect.unit (s := S1x8x16) ![0, 0, 14] S1x1x1.size inb_S1x8x16_S1x1x1_0_0_14).toLoadRect (harg2.unread x0) (Shape.Idx.first (numel1_S1x1x1.symm ▸ Nat.one_pos)))) (k0_hw16 : k0_chk16 i (arg2.view.readAt (Elt F) (Rect.unit (s := S1x8x16) ![0, 0, 15] S1x1x1.size inb_S1x8x16_S1x1x1_0_0_15).toLoadRect (harg2.unread x0) (Shape.Idx.first (numel1_S1x1x1.symm ▸ Nat.one_pos)))) (k0_hw17 : k0_chk17 i (arg2.view.readAt (Elt F) (Rect.unit (s := S1x8x16) ![0, 1, 0] S1x1x1.size inb_S1x8x16_S1x1x1_0_1_0).toLoadRect (harg2.unread x0) (Shape.Idx.first (numel1_S1x1x1.symm ▸ Nat.one_pos)))) (k0_hw18 : k0_chk18 i (arg2.view.readAt (Elt F) (Rect.unit (s := S1x8x16) ![0, 1, 1] S1x1x1.size inb_S1x8x16_S1x1x1_0_1_1).toLoadRect (harg2.unread x0) (Shape.Idx.first (numel1_S1x1x1.symm ▸ Nat.one_pos)))) (k0_hw19 : k0_chk19 i (arg2.view.readAt (Elt F) (Rect.unit (s := S1x8x16) ![0, 1, 2] S1x1x1.size inb_S1x8x16_S1x1x1_0_1_2).toLoadRect (harg2.unread x0) (Shape.Idx.first (numel1_S1x1x1.symm ▸ Nat.one_pos)))) (k0_hw20 : k0_chk20 i (arg2.view.readAt (Elt F) (Rect.unit (s := S1x8x16) ![0, 1, 3] S1x1x1.size inb_S1x8x16_S1x1x1_0_1_3).toLoadRect (harg2.unread x0) (Shape.Idx.first (numel1_S1x1x1.symm ▸ Nat.one_pos)))) (k0_hw21 : k0_chk21 i (arg2.view.readAt (Elt F) (Rect.unit (s := S1x8x16) ![0, 1, 4] S1x1x1.size inb_S1x8x16_S1x1x1_0_1_4).toLoadRect (harg2.unread x0) (Shape.Idx.first (numel1_S1x1x1.symm ▸ Nat.one_pos)))) (k0_hw22 : k0_chk22 i (arg2.view.readAt (Elt F) (Rect.unit (s := S1x8x16) ![0, 1, 5] S1x1x1.size inb_S1x8x16_S1x1x1_0_1_5).toLoadRect (harg2.unread x0) (Shape.Idx.first (numel1_S1x1x1.symm ▸ Nat.one_pos)))) (k0_hw23 : k0_chk23 i (arg2.view.readAt (Elt F) (Rect.unit (s := S1x8x16) ![0, 1, 6] S1x1x1.size inb_S1x8x16_S1x1x1_0_1_6).toLoadRect (harg2.unread x0) (Shape.Idx.first (numel1_S1x1x1.symm ▸ Nat.one_pos)))) (k0_hw24 : k0_chk24 i (arg2.view.readAt (Elt F) (Rect.unit (s := S1x8x16) ![0, 1, 7] S1x1x1.size inb_S1x8x16_S1x1x1_0_1_7).toLoadRect (harg2.unread x0) (Shape.Idx.first (numel1_S1x1x1.symm ▸ Nat.one_pos)))) (k0_hw25 : k0_chk25 i (arg2.view.readAt (Elt F) (Rect.unit (s := S1x8x16) ![0, 1, 8] S1x1x1.size inb_S1x8x16_S1x1x1_0_1_8).toLoadRect (harg2.unread x0) (Shape.Idx.first (numel1_S1x1x1.symm ▸ Nat.one_pos)))) (k0_hw26 : k0_chk26 i (arg2.view.readAt (Elt F) (Rect.unit (s := S1x8x16) ![0, 1, 9] S1x1x1.size inb_S1x8x16_S1x1x1_0_1_9).toLoadRect (harg2.unread x0) (Shape.Idx.first (numel1_S1x1x1.symm ▸ Nat.one_pos)))) (k0_hw27 : k0_chk27 i (arg2.view.readAt (Elt F) (Rect.unit (s := S1x8x16) ![0, 1, 10] S1x1x1.size inb_S1x8x16_S1x1x1_0_1_10).toLoadRect (harg2.unread x0) (Shape.Idx.first (numel1_S1x1x1.symm ▸ Nat.one_pos)))) (k0_hw28 : k0_chk28 i (arg2.view.readAt (Elt F) (Rect.unit (s := S1x8x16) ![0, 1, 11] S1x1x1.size inb_S1x8x16_S1x1x1_0_1_11).toLoadRect (harg2.unread x0) (Shape.Idx.first (numel1_S1x1x1.symm ▸ Nat.one_pos)))) (k0_hw29 : k0_chk29 i (arg2.view.readAt (Elt F) (Rect.unit (s := S1x8x16) ![0, 1, 12] S1x1x1.size inb_S1x8x16_S1x1x1_0_1_12).toLoadRect (harg2.unread x0) (Shape.Idx.first (numel1_S1x1x1.symm ▸ Nat.one_pos)))) (k0_hw30 : k0_chk30 i (arg2.view.readAt (Elt F) (Rect.unit (s := S1x8x16) ![0, 1, 13] S1x1x1.size inb_S1x8x16_S1x1x1_0_1_13).toLoadRect (harg2.unread x0) (Shape.Idx.first (numel1_S1x1x1.symm ▸ Nat.one_pos)))) (k0_hw31 : k0_chk31 i (arg2.view.readAt (Elt F) (Rect.unit (s := S1x8x16) ![0, 1, 14] S1x1x1.size inb_S1x8x16_S1x1x1_0_1_14).toLoadRect (harg2.unread x0) (Shape.Idx.first (numel1_S1x1x1.symm ▸ Nat.one_pos)))) (k0_hw32 : k0_chk32 i (arg2.view.readAt (Elt F) (Rect.unit (s := S1x8x16) ![0, 1, 15] S1x1x1.size inb_S1x8x16_S1x1x1_0_1_15).toLoadRect (harg2.unread x0) (Shape.Idx.first (numel1_S1x1x1.symm ▸ Nat.one_pos)))) (k0_hw33 : k0_chk33 i (arg2.view.readAt (Elt F) (Rect.unit (s := S1x8x16) ![0, 2, 0] S1x1x1.size inb_S1x8x16_S1x1x1_0_2_0).toLoadRect (harg2.unread x0) (Shape.Idx.first (numel1_S1x1x1.symm ▸ Nat.one_pos)))) (k0_hw34 : k0_chk34 i (arg2.view.readAt (Elt F) (Rect.unit (s := S1x8x16) ![0, 2, 1] S1x1x1.size inb_S1x8x16_S1x1x1_0_2_1).toLoadRect (harg2.unread x0) (Shape.Idx.first (numel1_S1x1x1.symm ▸ Nat.one_pos)))) (k0_hw35 : k0_chk35 i (arg2.view.readAt (Elt F) (Rect.unit (s := S1x8x16) ![0, 2, 2] S1x1x1.size inb_S1x8x16_S1x1x1_0_2_2).toLoadRect (harg2.unread x0) (Shape.Idx.first (numel1_S1x1x1.symm ▸ Nat.one_pos)))) (k0_hw36 : k0_chk36 i (arg2.view.readAt (Elt F) (Rect.unit (s := S1x8x16) ![0, 2, 3] S1x1x1.size inb_S1x8x16_S1x1x1_0_2_3).toLoadRect (harg2.unread x0) (Shape.Idx.first (numel1_S1x1x1.symm ▸ Nat.one_pos)))) (k0_hw37 : k0_chk37 i (arg2.view.readAt (Elt F) (Rect.unit (s := S1x8x16) ![0, 2, 4] S1x1x1.size inb_S1x8x16_S1x1x1_0_2_4).toLoadRect (harg2.unread x0) (Shape.Idx.first (numel1_S1x1x1.symm ▸ Nat.one_pos)))) (k0_hw38 : k0_chk38 i (arg2.view.readAt (Elt F) (Rect.unit (s := S1x8x16) ![0, 2, 5] S1x1x1.size inb_S1x8x16_S1x1x1_0_2_5).toLoadRect (harg2.unread x0) (Shape.Idx.first (numel1_S1x1x1.symm ▸ Nat.one_pos)))) (k0_hw39 : k0_chk39 i (arg2.view.readAt (Elt F) (Rect.unit (s := S1x8x16) ![0, 2, 6] S1x1x1.size inb_S1x8x16_S1x1x1_0_2_6).toLoadRect (harg2.unread x0) (Shape.Idx.first (numel1_S1x1x1.symm ▸ Nat.one_pos)))) (k0_hw40 : k0_chk40 i (arg2.view.readAt (Elt F) (Rect.unit (s := S1x8x16) ![0, 2, 7] S1x1x1.size inb_S1x8x16_S1x1x1_0_2_7).toLoadRect (harg2.unread x0) (Shape.Idx.first (numel1_S1x1x1.symm ▸ Nat.one_pos)))) (k0_hw41 : k0_chk41 i (arg2.view.readAt (Elt F) (Rect.unit (s := S1x8x16) ![0, 2, 8] S1x1x1.size inb_S1x8x16_S1x1x1_0_2_8).toLoadRect (harg2.unread x0) (Shape.Idx.first (numel1_S1x1x1.symm ▸ Nat.one_pos)))) (k0_hw42 : k0_chk42 i (arg2.view.readAt (Elt F) (Rect.unit (s := S1x8x16) ![0, 2, 9] S1x1x1.size inb_S1x8x16_S1x1x1_0_2_9).toLoadRect (harg2.unread x0) (Shape.Idx.first (numel1_S1x1x1.symm ▸ Nat.one_pos)))) (k0_hw43 : k0_chk43 i (arg2.view.readAt (Elt F) (Rect.unit (s := S1x8x16) ![0, 2, 10] S1x1x1.size inb_S1x8x16_S1x1x1_0_2_10).toLoadRect (harg2.unread x0) (Shape.Idx.first (numel1_S1x1x1.symm ▸ Nat.one_pos)))) (k0_hw44 : k0_chk44 i (arg2.view.readAt (Elt F) (Rect.unit (s := S1x8x16) ![0, 2, 11] S1x1x1.size inb_S1x8x16_S1x1x1_0_2_11).toLoadRect (harg2.unread x0) (Shape.Idx.first (numel1_S1x1x1.symm ▸ Nat.one_pos)))) (k0_hw45 : k0_chk45 i (arg2.view.readAt (Elt F) (Rect.unit (s := S1x8x16) ![0, 2, 12] S1x1x1.size inb_S1x8x16_S1x1x1_0_2_12).toLoadRect (harg2.unread x0) (Shape.Idx.first (numel1_S1x1x1.symm ▸ Nat.one_pos)))) (k0_hw46 : k0_chk46 i (arg2.view.readAt (Elt F) (Rect.unit (s := S1x8x16) ![0, 2, 13] S1x1x1.size inb_S1x8x16_S1x1x1_0_2_13).toLoadRect (harg2.unread x0) (Shape.Idx.first (numel1_S1x1x1.symm ▸ Nat.one_pos)))) (k0_hw47 : k0_chk47 i (arg2.view.readAt (Elt F) (Rect.unit (s := S1x8x16) ![0, 2, 14] S1x1x1.size inb_S1x8x16_S1x1x1_0_2_14).toLoadRect (harg2.unread x0) (Shape.Idx.first (numel1_S1x1x1.symm ▸ Nat.one_pos)))) (k0_hw48 : k0_chk48 i (arg2.view.readAt (Elt F) (Rect.unit (s := S1x8x16) ![0, 2, 15] S1x1x1.size inb_S1x8x16_S1x1x1_0_2_15).toLoadRect (harg2.unread x0) (Shape.Idx.first (numel1_S1x1x1.symm ▸ Nat.one_pos)))) (k0_hw49 : k0_chk49 i (arg2.view.readAt (Elt F) (Rect.unit (s := S1x8x16) ![0, 3, 0] S1x1x1.size inb_S1x8x16_S1x1x1_0_3_0).toLoadRect (harg2.unread x0) (Shape.Idx.first (numel1_S1x1x1.symm ▸ Nat.one_pos)))) (k0_hw50 : k0_chk50 i (arg2.view.readAt (Elt F) (Rect.unit (s := S1x8x16) ![0, 3, 1] S1x1x1.size inb_S1x8x16_S1x1x1_0_3_1).toLoadRect (harg2.unread x0) (Shape.Idx.first (numel1_S1x1x1.symm ▸ Nat.one_pos)))) (k0_hw51 : k0_chk51 i (arg2.view.readAt (Elt F) (Rect.unit (s := S1x8x16) ![0, 3, 2] S1x1x1.size inb_S1x8x16_S1x1x1_0_3_2).toLoadRect (harg2.unread x0) (Shape.Idx.first (numel1_S1x1x1.symm ▸ Nat.one_pos)))) (k0_hw52 : k0_chk52 i (arg2.view.readAt (Elt F) (Rect.unit (s := S1x8x16) ![0, 3, 3] S1x1x1.size inb_S1x8x16_S1x1x1_0_3_3).toLoadRect (harg2.unread x0) (Shape.Idx.first (numel1_S1x1x1.symm ▸ Nat.one_pos)))) (k0_hw53 : k0_chk53 i (arg2.view.readAt (Elt F) (Rect.unit (s := S1x8x16) ![0, 3, 4] S1x1x1.size inb_S1x8x16_S1x1x1_0_3_4).toLoadRect (harg2.unread x0) (Shape.Idx.first (numel1_S1x1x1.symm ▸ Nat.one_pos)))) (k0_hw54 : k0_chk54 i (arg2.view.readAt (Elt F) (Rect.unit (s := S1x8x16) ![0, 3, 5] S1x1x1.size inb_S1x8x16_S1x1x1_0_3_5).toLoadRect (harg2.unread x0) (Shape.Idx.first (numel1_S1x1x1.symm ▸ Nat.one_pos)))) (k0_hw55 : k0_chk55 i (arg2.view.readAt (Elt F) (Rect.unit (s := S1x8x16) ![0, 3, 6] S1x1x1.size inb_S1x8x16_S1x1x1_0_3_6).toLoadRect (harg2.unread x0) (Shape.Idx.first (numel1_S1x1x1.symm ▸ Nat.one_pos)))) (k0_hw56 : k0_chk56 i (arg2.view.readAt (Elt F) (Rect.unit (s := S1x8x16) ![0, 3, 7] S1x1x1.size inb_S1x8x16_S1x1x1_0_3_7).toLoadRect (harg2.unread x0) (Shape.Idx.first (numel1_S1x1x1.symm ▸ Nat.one_pos)))) (k0_hw57 : k0_chk57 i (arg2.view.readAt (Elt F) (Rect.unit (s := S1x8x16) ![0, 3, 8] S1x1x1.size inb_S1x8x16_S1x1x1_0_3_8).toLoadRect (harg2.unread x0) (Shape.Idx.first (numel1_S1x1x1.symm ▸ Nat.one_pos)))) (k0_hw58 : k0_chk58 i (arg2.view.readAt (Elt F) (Rect.unit (s := S1x8x16) ![0, 3, 9] S1x1x1.size inb_S1x8x16_S1x1x1_0_3_9).toLoadRect (harg2.unread x0) (Shape.Idx.first (numel1_S1x1x1.symm ▸ Nat.one_pos)))) (k0_hw59 : k0_chk59 i (arg2.view.readAt (Elt F) (Rect.unit (s := S1x8x16) ![0, 3, 10] S1x1x1.size inb_S1x8x16_S1x1x1_0_3_10).toLoadRect (harg2.unread x0) (Shape.Idx.first (numel1_S1x1x1.symm ▸ Nat.one_pos)))) (k0_hw60 : k0_chk60 i (arg2.view.readAt (Elt F) (Rect.unit (s := S1x8x16) ![0, 3, 11] S1x1x1.size inb_S1x8x16_S1x1x1_0_3_11).toLoadRect (harg2.unread x0) (Shape.Idx.first (numel1_S1x1x1.symm ▸ Nat.one_pos)))) (k0_hw61 : k0_chk61 i (arg2.view.readAt (Elt F) (Rect.unit (s := S1x8x16) ![0, 3, 12] S1x1x1.size inb_S1x8x16_S1x1x1_0_3_12).toLoadRect (harg2.unread x0) (Shape.Idx.first (numel1_S1x1x1.symm ▸ Nat.one_pos)))) (k0_hw62 : k0_chk62 i (arg2.view.readAt (Elt F) (Rect.unit (s := S1x8x16) ![0, 3, 13] S1x1x1.size inb_S1x8x16_S1x1x1_0_3_13).toLoadRect (harg2.unread x0) (Shape.Idx.first (numel1_S1x1x1.symm ▸ Nat.one_pos)))) (k0_hw63 : k0_chk63 i (arg2.view.readAt (Elt F) (Rect.unit (s := S1x8x16) ![0, 3, 14] S1x1x1.size inb_S1x8x16_S1x1x1_0_3_14).toLoadRect (harg2.unread x0) (Shape.Idx.first (numel1_S1x1x1.symm ▸ Nat.one_pos)))) (k0_hw64 : k0_chk64 i (arg2.view.readAt (Elt F) (Rect.unit (s := S1x8x16) ![0, 3, 15] S1x1x1.size inb_S1x8x16_S1x1x1_0_3_15).toLoadRect (harg2.unread x0) (Shape.Idx.first (numel1_S1x1x1.symm ▸ Nat.one_pos)))) (k0_hw65 : k0_chk65 i (arg2.view.readAt (Elt F) (Rect.unit (s := S1x8x16) ![0, 4, 0] S1x1x1.size inb_S1x8x16_S1x1x1_0_4_0).toLoadRect (harg2.unread x0) (Shape.Idx.first (numel1_S1x1x1.symm ▸ Nat.one_pos)))) (k0_hw66 : k0_chk66 i (arg2.view.readAt (Elt F) (Rect.unit (s := S1x8x16) ![0, 4, 1] S1x1x1.size inb_S1x8x16_S1x1x1_0_4_1).toLoadRect (harg2.unread x0) (Shape.Idx.first (numel1_S1x1x1.symm ▸ Nat.one_pos)))) (k0_hw67 : k0_chk67 i (arg2.view.readAt (Elt F) (Rect.unit (s := S1x8x16) ![0, 4, 2] S1x1x1.size inb_S1x8x16_S1x1x1_0_4_2).toLoadRect (harg2.unread x0) (Shape.Idx.first (numel1_S1x1x1.symm ▸ Nat.one_pos)))) (k0_hw68 : k0_chk68 i (arg2.view.readAt (Elt F) (Rect.unit (s := S1x8x16) ![0, 4, 3] S1x1x1.size inb_S1x8x16_S1x1x1_0_4_3).toLoadRect (harg2.unread x0) (Shape.Idx.first (numel1_S1x1x1.symm ▸ Nat.one_pos)))) (k0_hw69 : k0_chk69 i (arg2.view.readAt (Elt F) (Rect.unit (s := S1x8x16) ![0, 4, 4] S1x1x1.size inb_S1x8x16_S1x1x1_0_4_4).toLoadRect (harg2.unread x0) (Shape.Idx.first (numel1_S1x1x1.symm ▸ Nat.one_pos)))) (k0_hw70 : k0_chk70 i (arg2.view.readAt (Elt F) (Rect.unit (s := S1x8x16) ![0, 4, 5] S1x1x1.size inb_S1x8x16_S1x1x1_0_4_5).toLoadRect (harg2.unread x0) (Shape.Idx.first (numel1_S1x1x1.symm ▸ Nat.one_pos)))) (k0_hw71 : k0_chk71 i (arg2.view.readAt (Elt F) (Rect.unit (s := S1x8x16) ![0, 4, 6] S1x1x1.size inb_S1x8x16_S1x1x1_0_4_6).toLoadRect (harg2.unread x0) (Shape.Idx.first (numel1_S1x1x1.symm ▸ Nat.one_pos)))) (k0_hw72 : k0_chk72 i (arg2.view.readAt (Elt F) (Rect.unit (s := S1x8x16) ![0, 4, 7] S1x1x1.size inb_S1x8x16_S1x1x1_0_4_7).toLoadRect (harg2.unread x0) (Shape.Idx.first (numel1_S1x1x1.symm ▸ Nat.one_pos)))) (k0_hw73 : k0_chk73 i (arg2.view.readAt (Elt F) (Rect.unit (s := S1x8x16) ![0, 4, 8] S1x1x1.size inb_S1x8x16_S1x1x1_0_4_8).toLoadRect (harg2.unread x0) (Shape.Idx.first (numel1_S1x1x1.symm ▸ Nat.one_pos)))) (k0_hw74 : k0_chk74 i (arg2.view.readAt (Elt F) (Rect.unit (s := S1x8x16) ![0, 4, 9] S1x1x1.size inb_S1x8x16_S1x1x1_0_4_9).toLoadRect (harg2.unread x0) (Shape.Idx.first (numel1_S1x1x1.symm ▸ Nat.one_pos)))) (k0_hw75 : k0_chk75 i (arg2.view.readAt (Elt F) (Rect.unit (s := S1x8x16) ![0, 4, 10] S1x1x1.size inb_S1x8x16_S1x1x1_0_4_10).toLoadRect (harg2.unread x0) (Shape.Idx.first (numel1_S1x1x1.symm ▸ Nat.one_pos)))) (k0_hw76 : k0_chk76 i (arg2.view.readAt (Elt F) (Rect.unit (s := S1x8x16) ![0, 4, 11] S1x1x1.size inb_S1x8x16_S1x1x1_0_4_11).toLoadRect (harg2.unread x0) (Shape.Idx.first (numel1_S1x1x1.symm ▸ Nat.one_pos)))) (k0_hw77 : k0_chk77 i (arg2.view.readAt (Elt F) (Rect.unit (s := S1x8x16) ![0, 4, 12] S1x1x1.size inb_S1x8x16_S1x1x1_0_4_12).toLoadRect (harg2.unread x0) (Shape.Idx.first (numel1_S1x1x1.symm ▸ Nat.one_pos)))) (k0_hw78 : k0_chk78 i (arg2.view.readAt (Elt F) (Rect.unit (s := S1x8x16) ![0, 4, 13] S1x1x1.size inb_S1x8x16_S1x1x1_0_4_13).toLoadRect (harg2.unread x0) (Shape.Idx.first (numel1_S1x1x1.symm ▸ Nat.one_pos)))) (k0_hw79 : k0_chk79 i (arg2.view.readAt (Elt F) (Rect.unit (s := S1x8x16) ![0, 4, 14] S1x1x1.size inb_S1x8x16_S1x1x1_0_4_14).toLoadRect (harg2.unread x0) (Shape.Idx.first (numel1_S1x1x1.symm ▸ Nat.one_pos)))) (k0_hw80 : k0_chk80 i (arg2.view.readAt (Elt F) (Rect.unit (s := S1x8x16) ![0, 4, 15] S1x1x1.size inb_S1x8x16_S1x1x1_0_4_15).toLoadRect (harg2.unread x0) (Shape.Idx.first (numel1_S1x1x1.symm ▸ Nat.one_pos)))) (k0_hw81 : k0_chk81 i (arg2.view.readAt (Elt F) (Rect.unit (s := S1x8x16) ![0, 5, 0] S1x1x1.size inb_S1x8x16_S1x1x1_0_5_0).toLoadRect (harg2.unread x0) (Shape.Idx.first (numel1_S1x1x1.symm ▸ Nat.one_pos)))) (k0_hw82 : k0_chk82 i (arg2.view.readAt (Elt F) (Rect.unit (s := S1x8x16) ![0, 5, 1] S1x1x1.size inb_S1x8x16_S1x1x1_0_5_1).toLoadRect (harg2.unread x0) (Shape.Idx.first (numel1_S1x1x1.symm ▸ Nat.one_pos)))) (k0_hw83 : k0_chk83 i (arg2.view.readAt (Elt F) (Rect.unit (s := S1x8x16) ![0, 5, 2] S1x1x1.size inb_S1x8x16_S1x1x1_0_5_2).toLoadRect (harg2.unread x0) (Shape.Idx.first (numel1_S1x1x1.symm ▸ Nat.one_pos)))) (k0_hw84 : k0_chk84 i (arg2.view.readAt (Elt F) (Rect.unit (s := S1x8x16) ![0, 5, 3] S1x1x1.size inb_S1x8x16_S1x1x1_0_5_3).toLoadRect (harg2.unread x0) (Shape.Idx.first (numel1_S1x1x1.symm ▸ Nat.one_pos)))) (k0_hw85 : k0_chk85 i (arg2.view.readAt (Elt F) (Rect.unit (s := S1x8x16) ![0, 5, 4] S1x1x1.size inb_S1x8x16_S1x1x1_0_5_4).toLoadRect (harg2.unread x0) (Shape.Idx.first (numel1_S1x1x1.symm ▸ Nat.one_pos)))) (k0_hw86 : k0_chk86 i (arg2.view.readAt (Elt F) (Rect.unit (s := S1x8x16) ![0, 5, 5] S1x1x1.size inb_S1x8x16_S1x1x1_0_5_5).toLoadRect (harg2.unread x0) (Shape.Idx.first (numel1_S1x1x1.symm ▸ Nat.one_pos)))) (k0_hw87 : k0_chk87 i (arg2.view.readAt (Elt F) (Rect.unit (s := S1x8x16) ![0, 5, 6] S1x1x1.size inb_S1x8x16_S1x1x1_0_5_6).toLoadRect (harg2.unread x0) (Shape.Idx.first (numel1_S1x1x1.symm ▸ Nat.one_pos)))) (k0_hw88 : k0_chk88 i (arg2.view.readAt (Elt F) (Rect.unit (s := S1x8x16) ![0, 5, 7] S1x1x1.size inb_S1x8x16_S1x1x1_0_5_7).toLoadRect (harg2.unread x0) (Shape.Idx.first (numel1_S1x1x1.symm ▸ Nat.one_pos)))) (k0_hw89 : k0_chk89 i (arg2.view.readAt (Elt F) (Rect.unit (s := S1x8x16) ![0, 5, 8] S1x1x1.size inb_S1x8x16_S1x1x1_0_5_8).toLoadRect (harg2.unread x0) (Shape.Idx.first (numel1_S1x1x1.symm ▸ Nat.one_pos)))) (k0_hw90 : k0_chk90 i (arg2.view.readAt (Elt F) (Rect.unit (s := S1x8x16) ![0, 5, 9] S1x1x1.size inb_S1x8x16_S1x1x1_0_5_9).toLoadRect (harg2.unread x0) (Shape.Idx.first (numel1_S1x1x1.symm ▸ Nat.one_pos)))) (k0_hw91 : k0_chk91 i (arg2.view.readAt (Elt F) (Rect.unit (s := S1x8x16) ![0, 5, 10] S1x1x1.size inb_S1x8x16_S1x1x1_0_5_10).toLoadRect (harg2.unread x0) (Shape.Idx.first (numel1_S1x1x1.symm ▸ Nat.one_pos)))) (k0_hw92 : k0_chk92 i (arg2.view.readAt (Elt F) (Rect.unit (s := S1x8x16) ![0, 5, 11] S1x1x1.size inb_S1x8x16_S1x1x1_0_5_11).toLoadRect (harg2.unread x0) (Shape.Idx.first (numel1_S1x1x1.symm ▸ Nat.one_pos)))) (k0_hw93 : k0_chk93 i (arg2.view.readAt (Elt F) (Rect.unit (s := S1x8x16) ![0, 5, 12] S1x1x1.size inb_S1x8x16_S1x1x1_0_5_12).toLoadRect (harg2.unread x0) (Shape.Idx.first (numel1_S1x1x1.symm ▸ Nat.one_pos)))) (k0_hw94 : k0_chk94 i (arg2.view.readAt (Elt F) (Rect.unit (s := S1x8x16) ![0, 5, 13] S1x1x1.size inb_S1x8x16_S1x1x1_0_5_13).toLoadRect (harg2.unread x0) (Shape.Idx.first (numel1_S1x1x1.symm ▸ Nat.one_pos)))) (k0_hw95 : k0_chk95 i (arg2.view.readAt (Elt F) (Rect.unit (s := S1x8x16) ![0, 5, 14] S1x1x1.size inb_S1x8x16_S1x1x1_0_5_14).toLoadRect (harg2.unread x0) (Shape.Idx.first (numel1_S1x1x1.symm ▸ Nat.one_pos)))) (k0_hw96 : k0_chk96 i (arg2.view.readAt (Elt F) (Rect.unit (s := S1x8x16) ![0, 5, 15] S1x1x1.size inb_S1x8x16_S1x1x1_0_5_15).toLoadRect (harg2.unread x0) (Shape.Idx.first (numel1_S1x1x1.symm ▸ Nat.one_pos)))) (k0_hw97 : k0_chk97 i (arg2.view.readAt (Elt F) (Rect.unit (s := S1x8x16) ![0, 6, 0] S1x1x1.size inb_S1x8x16_S1x1x1_0_6_0).toLoadRect (harg2.unread x0) (Shape.Idx.first (numel1_S1x1x1.symm ▸ Nat.one_pos)))) (k0_hw98 : k0_chk98 i (arg2.view.readAt (Elt F) (Rect.unit (s := S1x8x16) ![0, 6, 1] S1x1x1.size inb_S1x8x16_S1x1x1_0_6_1).toLoadRect (harg2.unread x0) (Shape.Idx.first (numel1_S1x1x1.symm ▸ Nat.one_pos)))) (k0_hw99 : k0_chk99 i (arg2.view.readAt (Elt F) (Rect.unit (s := S1x8x16) ![0, 6, 2] S1x1x1.size inb_S1x8x16_S1x1x1_0_6_2).toLoadRect (harg2.unread x0) (Shape.Idx.first (numel1_S1x1x1.symm ▸ Nat.one_pos)))) (k0_hw100 : k0_chk100 i (arg2.view.readAt (Elt F) (Rect.unit (s := S1x8x16) ![0, 6, 3] S1x1x1.size inb_S1x8x16_S1x1x1_0_6_3).toLoadRect (harg2.unread x0) (Shape.Idx.first (numel1_S1x1x1.symm ▸ Nat.one_pos)))) (k0_hw101 : k0_chk101 i (arg2.view.readAt (Elt F) (Rect.unit (s := S1x8x16) ![0, 6, 4] S1x1x1.size inb_S1x8x16_S1x1x1_0_6_4).toLoadRect (harg2.unread x0) (Shape.Idx.first (numel1_S1x1x1.symm ▸ Nat.one_pos)))) (k0_hw102 : k0_chk102 i (arg2.view.readAt (Elt F) (Rect.unit (s := S1x8x16) ![0, 6, 5] S1x1x1.size inb_S1x8x16_S1x1x1_0_6_5).toLoadRect (harg2.unread x0) (Shape.Idx.first (numel1_S1x1x1.symm ▸ Nat.one_pos)))) (k0_hw103 : k0_chk103 i (arg2.view.readAt (Elt F) (Rect.unit (s := S1x8x16) ![0, 6, 6] S1x1x1.size inb_S1x8x16_S1x1x1_0_6_6).toLoadRect (harg2.unread x0) (Shape.Idx.first (numel1_S1x1x1.symm ▸ Nat.one_pos)))) (k0_hw104 : k0_chk104 i (arg2.view.readAt (Elt F) (Rect.unit (s := S1x8x16) ![0, 6, 7] S1x1x1.size inb_S1x8x16_S1x1x1_0_6_7).toLoadRect (harg2.unread x0) (Shape.Idx.first (numel1_S1x1x1.symm ▸ Nat.one_pos)))) (k0_hw105 : k0_chk105 i (arg2.view.readAt (Elt F) (Rect.unit (s := S1x8x16) ![0, 6, 8] S1x1x1.size inb_S1x8x16_S1x1x1_0_6_8).toLoadRect (harg2.unread x0) (Shape.Idx.first (numel1_S1x1x1.symm ▸ Nat.one_pos)))) (k0_hw106 : k0_chk106 i (arg2.view.readAt (Elt F) (Rect.unit (s := S1x8x16) ![0, 6, 9] S1x1x1.size inb_S1x8x16_S1x1x1_0_6_9).toLoadRect (harg2.unread x0) (Shape.Idx.first (numel1_S1x1x1.symm ▸ Nat.one_pos)))) (k0_hw107 : k0_chk107 i (arg2.view.readAt (Elt F) (Rect.unit (s := S1x8x16) ![0, 6, 10] S1x1x1.size inb_S1x8x16_S1x1x1_0_6_10).toLoadRect (harg2.unread x0) (Shape.Idx.first (numel1_S1x1x1.symm ▸ Nat.one_pos)))) (k0_hw108 : k0_chk108 i (arg2.view.readAt (Elt F) (Rect.unit (s := S1x8x16) ![0, 6, 11] S1x1x1.size inb_S1x8x16_S1x1x1_0_6_11).toLoadRect (harg2.unread x0) (Shape.Idx.first (numel1_S1x1x1.symm ▸ Nat.one_pos)))) (k0_hw109 : k0_chk109 i (arg2.view.readAt (Elt F) (Rect.unit (s := S1x8x16) ![0, 6, 12] S1x1x1.size inb_S1x8x16_S1x1x1_0_6_12).toLoadRect (harg2.unread x0) (Shape.Idx.first (numel1_S1x1x1.symm ▸ Nat.one_pos)))) (k0_hw110 : k0_chk110 i (arg2.view.readAt (Elt F) (Rect.unit (s := S1x8x16) ![0, 6, 13] S1x1x1.size inb_S1x8x16_S1x1x1_0_6_13).toLoadRect (harg2.unread x0) (Shape.Idx.first (numel1_S1x1x1.symm ▸ Nat.one_pos)))) (k0_hw111 : k0_chk111 i (arg2.view.readAt (Elt F) (Rect.unit (s := S1x8x16) ![0, 6, 14] S1x1x1.size inb_S1x8x16_S1x1x1_0_6_14).toLoadRect (harg2.unread x0) (Shape.Idx.first (numel1_S1x1x1.symm ▸ Nat.one_pos)))) (k0_hw112 : k0_chk112 i (arg2.view.readAt (Elt F) (Rect.unit (s := S1x8x16) ![0, 6, 15] S1x1x1.size inb_S1x8x16_S1x1x1_0_6_15).toLoadRect (harg2.unread x0) (Shape.Idx.first (numel1_S1x1x1.symm ▸ Nat.one_pos)))) (k0_hw113 : k0_chk113 i (arg2.view.readAt (Elt F) (Rect.unit (s := S1x8x16) ![0, 7, 0] S1x1x1.size inb_S1x8x16_S1x1x1_0_7_0).toLoadRect (harg2.unread x0) (Shape.Idx.first (numel1_S1x1x1.symm ▸ Nat.one_pos)))) (k0_hw114 : k0_chk114 i (arg2.view.readAt (Elt F) (Rect.unit (s := S1x8x16) ![0, 7, 1] S1x1x1.size inb_S1x8x16_S1x1x1_0_7_1).toLoadRect (harg2.unread x0) (Shape.Idx.first (numel1_S1x1x1.symm ▸ Nat.one_pos)))) (k0_hw115 : k0_chk115 i (arg2.view.readAt (Elt F) (Rect.unit (s := S1x8x16) ![0, 7, 2] S1x1x1.size inb_S1x8x16_S1x1x1_0_7_2).toLoadRect (harg2.unread x0) (Shape.Idx.first (numel1_S1x1x1.symm ▸ Nat.one_pos)))) (k0_hw116 : k0_chk116 i (arg2.view.readAt (Elt F) (Rect.unit (s := S1x8x16) ![0, 7, 3] S1x1x1.size inb_S1x8x16_S1x1x1_0_7_3).toLoadRect (harg2.unread x0) (Shape.Idx.first (numel1_S1x1x1.symm ▸ Nat.one_pos)))) (k0_hw117 : k0_chk117 i (arg2.view.readAt (Elt F) (Rect.unit (s := S1x8x16) ![0, 7, 4] S1x1x1.size inb_S1x8x16_S1x1x1_0_7_4).toLoadRect (harg2.unread x0) (Shape.Idx.first (numel1_S1x1x1.symm ▸ Nat.one_pos)))) (k0_hw118 : k0_chk118 i (arg2.view.readAt (Elt F) (Rect.unit (s := S1x8x16) ![0, 7, 5] S1x1x1.size inb_S1x8x16_S1x1x1_0_7_5).toLoadRect (harg2.unread x0) (Shape.Idx.first (numel1_S1x1x1.symm ▸ Nat.one_pos)))) (k0_hw119 : k0_chk119 i (arg2.view.readAt (Elt F) (Rect.unit (s := S1x8x16) ![0, 7, 6] S1x1x1.size inb_S1x8x16_S1x1x1_0_7_6).toLoadRect (harg2.unread x0) (Shape.Idx.first (numel1_S1x1x1.symm ▸ Nat.one_pos)))) (k0_hw120 : k0_chk120 i (arg2.view.readAt (Elt F) (Rect.unit (s := S1x8x16) ![0, 7, 7] S1x1x1.size inb_S1x8x16_S1x1x1_0_7_7).toLoadRect (harg2.unread x0) (Shape.Idx.first (numel1_S1x1x1.symm ▸ Nat.one_pos)))) (k0_hw121 : k0_chk121 i (arg2.view.readAt (Elt F) (Rect.unit (s := S1x8x16) ![0, 7, 8] S1x1x1.size inb_S1x8x16_S1x1x1_0_7_8).toLoadRect (harg2.unread x0) (Shape.Idx.first (numel1_S1x1x1.symm ▸ Nat.one_pos)))) (k0_hw122 : k0_chk122 i (arg2.view.readAt (Elt F) (Rect.unit (s := S1x8x16) ![0, 7, 9] S1x1x1.size inb_S1x8x16_S1x1x1_0_7_9).toLoadRect (harg2.unread x0) (Shape.Idx.first (numel1_S1x1x1.symm ▸ Nat.one_pos)))) (k0_hw123 : k0_chk123 i (arg2.view.readAt (Elt F) (Rect.unit (s := S1x8x16) ![0, 7, 10] S1x1x1.size inb_S1x8x16_S1x1x1_0_7_10).toLoadRect (harg2.unread x0) (Shape.Idx.first (numel1_S1x1x1.symm ▸ Nat.one_pos)))) (k0_hw124 : k0_chk124 i (arg2.view.readAt (Elt F) (Rect.unit (s := S1x8x16) ![0, 7, 11] S1x1x1.size inb_S1x8x16_S1x1x1_0_7_11).toLoadRect (harg2.unread x0) (Shape.Idx.first (numel1_S1x1x1.symm ▸ Nat.one_pos)))) (k0_hw125 : k0_chk125 i (arg2.view.readAt (Elt F) (Rect.unit (s := S1x8x16) ![0, 7, 12] S1x1x1.size inb_S1x8x16_S1x1x1_0_7_12).toLoadRect (harg2.unread x0) (Shape.Idx.first (numel1_S1x1x1.symm ▸ Nat.one_pos)))) (k0_hw126 : k0_chk126 i (arg2.view.readAt (Elt F) (Rect.unit (s := S1x8x16) ![0, 7, 13] S1x1x1.size inb_S1x8x16_S1x1x1_0_7_13).toLoadRect (harg2.unread x0) (Shape.Idx.first (numel1_S1x1x1.symm ▸ Nat.one_pos)))) (k0_hw127 : k0_chk127 i (arg2.view.readAt (Elt F) (Rect.unit (s := S1x8x16) ![0, 7, 14] S1x1x1.size inb_S1x8x16_S1x1x1_0_7_14).toLoadRect (harg2.unread x0) (Shape.Idx.first (numel1_S1x1x1.symm ▸ Nat.one_pos)))) (k0_hw128 : k0_chk128 i (arg2.view.readAt (Elt F) (Rect.unit (s := S1x8x16) ![0, 7, 15] S1x1x1.size inb_S1x8x16_S1x1x1_0_7_15).toLoadRect (harg2.unread x0) (Shape.Idx.first (numel1_S1x1x1.symm ▸ Nat.one_pos))))
    (fs1 : BufTy.Contents (Elt F) arg6.view.ty) :
    k0_pay2 (kernelRunRaw0_A.sl.v2820 c i arg2 harg2 arg5 arg6 x0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64 k0_hw65 k0_hw66 k0_hw67 k0_hw68 k0_hw69 k0_hw70 k0_hw71 k0_hw72 k0_hw73 k0_hw74 k0_hw75 k0_hw76 k0_hw77 k0_hw78 k0_hw79 k0_hw80 k0_hw81 k0_hw82 k0_hw83 k0_hw84 k0_hw85 k0_hw86 k0_hw87 k0_hw88 k0_hw89 k0_hw90 k0_hw91 k0_hw92 k0_hw93 k0_hw94 k0_hw95 k0_hw96 k0_hw97 k0_hw98 k0_hw99 k0_hw100 k0_hw101 k0_hw102 k0_hw103 k0_hw104 k0_hw105 k0_hw106 k0_hw107 k0_hw108 k0_hw109 k0_hw110 k0_hw111 k0_hw112 k0_hw113 k0_hw114 k0_hw115 k0_hw116 k0_hw117 k0_hw118 k0_hw119 k0_hw120 k0_hw121 k0_hw122 k0_hw123 k0_hw124 k0_hw125 k0_hw126 k0_hw127 k0_hw128 fs1) = outBlock c i x0 fh0 := by
  rw [acc_final]
  funext y
  obtain ⟨z, r, d, rfl⟩ : ∃ (z : Fin 1) (r : Fin 8) (d : Fin 128), y = ix3 z r d := ⟨y 0, y 1, y 2, eq_ix3 y⟩
  obtain rfl : z = 0 := Subsingleton.elim _ _
  unfold k0_pay2
  refine (shapeCast_apply _ _ (ix3 (0 : Fin 1) r d) (ix2 r d) ?_).trans rfl
  rw [Shape.rowMajor_val_two, Shape.rowMajor_val_three]
  show r.val * 128 + d.val = (0 * 8 + r.val) * 128 + d.val
  omega

end Cert.KernelIdeal.Gen

end
-- ==== Proof.KernelRunKI.lean ====
/-
  The body's triple with a list of pieces that does not mention what the buffers held before.

  The run (RunRawKI) proves the body's triple for any initial contents of the output's staging buffer and of the
  two scratch buffers, with a list of pieces spelled over the landing buffer's contents; BodyValueKI shows that the
  one piece's payload is `outBlock`, a function of the point's neighbour block and of the feature array alone.  So the
  triple holds with that closed list, whatever the three buffers hold — which is the form the frame takes it in.
-/
import proofs.«412756_j23708219474789_1_alg».proof.Proof.BodyValueKI

set_option maxRecDepth 100000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal.BodyFacts Cert.Pool.Peel

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 40000000 in
/-- The list of pieces the run finds is the one whole-block piece with payload `outBlock`. -/
theorem raw_val (c : Dev nD) (i : grid0.Coords) (arg2 : Memref sig .tc .smem S1x8x16 .i32) (harg2 : arg2.IsWhole) (arg4 : Memref sig .tc .vmem S1x8x128 .f32) (harg4 : arg4.IsWhole) (arg5 : Memref sig .tc .vmem S8x128 .f32) (harg5 : arg5.IsWhole) (arg6 : Memref sig .tc .vmem S2x1x128 .f32) (harg6 : arg6.IsWhole)
    (x0 : Vec F S1x8x16 .i32) (fh0 : HbBuf0 (F := F) c hbM0_0) (k0_hw1 : k0_chk1 i (arg2.view.readAt (Elt F) (Rect.unit (s := S1x8x16) ![0, 0, 0] S1x1x1.size inb_S1x8x16_S1x1x1_0_0_0).toLoadRect (harg2.unread x0) (Shape.Idx.first (numel1_S1x1x1.symm ▸ Nat.one_pos)))) (k0_hw2 : k0_chk2 i (arg2.view.readAt (Elt F) (Rect.unit (s := S1x8x16) ![0, 0, 1] S1x1x1.size inb_S1x8x16_S1x1x1_0_0_1).toLoadRect (harg2.unread x0) (Shape.Idx.first (numel1_S1x1x1.symm ▸ Nat.one_pos)))) (k0_hw3 : k0_chk3 i (arg2.view.readAt (Elt F) (Rect.unit (s := S1x8x16) ![0, 0, 2] S1x1x1.size inb_S1x8x16_S1x1x1_0_0_2).toLoadRect (harg2.unread x0) (Shape.Idx.first (numel1_S1x1x1.symm ▸ Nat.one_pos)))) (k0_hw4 : k0_chk4 i (arg2.view.readAt (Elt F) (Rect.unit (s := S1x8x16) ![0, 0, 3] S1x1x1.size inb_S1x8x16_S1x1x1_0_0_3).toLoadRect (harg2.unread x0) (Shape.Idx.first (numel1_S1x1x1.symm ▸ Nat.one_pos)))) (k0_hw5 : k0_chk5 i (arg2.view.readAt (Elt F) (Rect.unit (s := S1x8x16) ![0, 0, 4] S1x1x1.size inb_S1x8x16_S1x1x1_0_0_4).toLoadRect (harg2.unread x0) (Shape.Idx.first (numel1_S1x1x1.symm ▸ Nat.one_pos)))) (k0_hw6 : k0_chk6 i (arg2.view.readAt (Elt F) (Rect.unit (s := S1x8x16) ![0, 0, 5] S1x1x1.size inb_S1x8x16_S1x1x1_0_0_5).toLoadRect (harg2.unread x0) (Shape.Idx.first (numel1_S1x1x1.symm ▸ Nat.one_pos)))) (k0_hw7 : k0_chk7 i (arg2.view.readAt (Elt F) (Rect.unit (s := S1x8x16) ![0, 0, 6] S1x1x1.size inb_S1x8x16_S1x1x1_0_0_6).toLoadRect (harg2.unread x0) (Shape.Idx.first (numel1_S1x1x1.symm ▸ Nat.one_pos)))) (k0_hw8 : k0_chk8 i (arg2.view.readAt (Elt F) (Rect.unit (s := S1x8x16) ![0, 0, 7] S1x1x1.size inb_S1x8x16_S1x1x1_0_0_7).toLoadRect (harg2.unread x0) (Shape.Idx.first (numel1_S1x1x1.symm ▸ Nat.one_pos)))) (k0_hw9 : k0_chk9 i (arg2.view.readAt (Elt F) (Rect.unit (s := S1x8x16) ![0, 0, 8] S1x1x1.size inb_S1x8x16_S1x1x1_0_0_8).toLoadRect (harg2.unread x0) (Shape.Idx.first (numel1_S1x1x1.symm ▸ Nat.one_pos)))) (k0_hw10 : k0_chk10 i (arg2.view.readAt (Elt F) (Rect.unit (s := S1x8x16) ![0, 0, 9] S1x1x1.size inb_S1x8x16_S1x1x1_0_0_9).toLoadRect (harg2.unread x0) (Shape.Idx.first (numel1_S1x1x1.symm ▸ Nat.one_pos)))) (k0_hw11 : k0_chk11 i (arg2.view.readAt (Elt F) (Rect.unit (s := S1x8x16) ![0, 0, 10] S1x1x1.size inb_S1x8x16_S1x1x1_0_0_10).toLoadRect (harg2.unread x0) (Shape.Idx.first (numel1_S1x1x1.symm ▸ Nat.one_pos)))) (k0_hw12 : k0_chk12 i (arg2.view.readAt (Elt F) (Rect.unit (s := S1x8x16) ![0, 0, 11] S1x1x1.size inb_S1x8x16_S1x1x1_0_0_11).toLoadRect (harg2.unread x0) (Shape.Idx.first (numel1_S1x1x1.symm ▸ Nat.one_pos)))) (k0_hw13 : k0_chk13 i (arg2.view.readAt (Elt F) (Rect.unit (s := S1x8x16) ![0, 0, 12] S1x1x1.size inb_S1x8x16_S1x1x1_0_0_12).toLoadRect (harg2.unread x0) (Shape.Idx.first (numel1_S1x1x1.symm ▸ Nat.one_pos)))) (k0_hw14 : k0_chk14 i (arg2.view.readAt (Elt F) (Rect.unit (s := S1x8x16) ![0, 0, 13] S1x1x1.size inb_S1x8x16_S1x1x1_0_0_13).toLoadRect (harg2.unread x0) (Shape.Idx.first (numel1_S1x1x1.symm ▸ Nat.one_pos)))) (k0_hw15 : k0_chk15 i (arg2.view.readAt (Elt F) (Rect.unit (s := S1x8x16) ![0, 0, 14] S1x1x1.size inb_S1x8x16_S1x1x1_0_0_14).toLoadRect (harg2.unread x0) (Shape.Idx.first (numel1_S1x1x1.symm ▸ Nat.one_pos)))) (k0_hw16 : k0_chk16 i (arg2.view.readAt (Elt F) (Rect.unit (s := S1x8x16) ![0, 0, 15] S1x1x1.size inb_S1x8x16_S1x1x1_0_0_15).toLoadRect (harg2.unread x0) (Shape.Idx.first (numel1_S1x1x1.symm ▸ Nat.one_pos)))) (k0_hw17 : k0_chk17 i (arg2.view.readAt (Elt F) (Rect.unit (s := S1x8x16) ![0, 1, 0] S1x1x1.size inb_S1x8x16_S1x1x1_0_1_0).toLoadRect (harg2.unread x0) (Shape.Idx.first (numel1_S1x1x1.symm ▸ Nat.one_pos)))) (k0_hw18 : k0_chk18 i (arg2.view.readAt (Elt F) (Rect.unit (s := S1x8x16) ![0, 1, 1] S1x1x1.size inb_S1x8x16_S1x1x1_0_1_1).toLoadRect (harg2.unread x0) (Shape.Idx.first (numel1_S1x1x1.symm ▸ Nat.one_pos)))) (k0_hw19 : k0_chk19 i (arg2.view.readAt (Elt F) (Rect.unit (s := S1x8x16) ![0, 1, 2] S1x1x1.size inb_S1x8x16_S1x1x1_0_1_2).toLoadRect (harg2.unread x0) (Shape.Idx.first (numel1_S1x1x1.symm ▸ Nat.one_pos)))) (k0_hw20 : k0_chk20 i (arg2.view.readAt (Elt F) (Rect.unit (s := S1x8x16) ![0, 1, 3] S1x1x1.size inb_S1x8x16_S1x1x1_0_1_3).toLoadRect (harg2.unread x0) (Shape.Idx.first (numel1_S1x1x1.symm ▸ Nat.one_pos)))) (k0_hw21 : k0_chk21 i (arg2.view.readAt (Elt F) (Rect.unit (s := S1x8x16) ![0, 1, 4] S1x1x1.size inb_S1x8x16_S1x1x1_0_1_4).toLoadRect (harg2.unread x0) (Shape.Idx.first (numel1_S1x1x1.symm ▸ Nat.one_pos)))) (k0_hw22 : k0_chk22 i (arg2.view.readAt (Elt F) (Rect.unit (s := S1x8x16) ![0, 1, 5] S1x1x1.size inb_S1x8x16_S1x1x1_0_1_5).toLoadRect (harg2.unread x0) (Shape.Idx.first (numel1_S1x1x1.symm ▸ Nat.one_pos)))) (k0_hw23 : k0_chk23 i (arg2.view.readAt (Elt F) (Rect.unit (s := S1x8x16) ![0, 1, 6] S1x1x1.size inb_S1x8x16_S1x1x1_0_1_6).toLoadRect (harg2.unread x0) (Shape.Idx.first (numel1_S1x1x1.symm ▸ Nat.one_pos)))) (k0_hw24 : k0_chk24 i (arg2.view.readAt (Elt F) (Rect.unit (s := S1x8x16) ![0, 1, 7] S1x1x1.size inb_S1x8x16_S1x1x1_0_1_7).toLoadRect (harg2.unread x0) (Shape.Idx.first (numel1_S1x1x1.symm ▸ Nat.one_pos)))) (k0_hw25 : k0_chk25 i (arg2.view.readAt (Elt F) (Rect.unit (s := S1x8x16) ![0, 1, 8] S1x1x1.size inb_S1x8x16_S1x1x1_0_1_8).toLoadRect (harg2.unread x0) (Shape.Idx.first (numel1_S1x1x1.symm ▸ Nat.one_pos)))) (k0_hw26 : k0_chk26 i (arg2.view.readAt (Elt F) (Rect.unit (s := S1x8x16) ![0, 1, 9] S1x1x1.size inb_S1x8x16_S1x1x1_0_1_9).toLoadRect (harg2.unread x0) (Shape.Idx.first (numel1_S1x1x1.symm ▸ Nat.one_pos)))) (k0_hw27 : k0_chk27 i (arg2.view.readAt (Elt F) (Rect.unit (s := S1x8x16) ![0, 1, 10] S1x1x1.size inb_S1x8x16_S1x1x1_0_1_10).toLoadRect (harg2.unread x0) (Shape.Idx.first (numel1_S1x1x1.symm ▸ Nat.one_pos)))) (k0_hw28 : k0_chk28 i (arg2.view.readAt (Elt F) (Rect.unit (s := S1x8x16) ![0, 1, 11] S1x1x1.size inb_S1x8x16_S1x1x1_0_1_11).toLoadRect (harg2.unread x0) (Shape.Idx.first (numel1_S1x1x1.symm ▸ Nat.one_pos)))) (k0_hw29 : k0_chk29 i (arg2.view.readAt (Elt F) (Rect.unit (s := S1x8x16) ![0, 1, 12] S1x1x1.size inb_S1x8x16_S1x1x1_0_1_12).toLoadRect (harg2.unread x0) (Shape.Idx.first (numel1_S1x1x1.symm ▸ Nat.one_pos)))) (k0_hw30 : k0_chk30 i (arg2.view.readAt (Elt F) (Rect.unit (s := S1x8x16) ![0, 1, 13] S1x1x1.size inb_S1x8x16_S1x1x1_0_1_13).toLoadRect (harg2.unread x0) (Shape.Idx.first (numel1_S1x1x1.symm ▸ Nat.one_pos)))) (k0_hw31 : k0_chk31 i (arg2.view.readAt (Elt F) (Rect.unit (s := S1x8x16) ![0, 1, 14] S1x1x1.size inb_S1x8x16_S1x1x1_0_1_14).toLoadRect (harg2.unread x0) (Shape.Idx.first (numel1_S1x1x1.symm ▸ Nat.one_pos)))) (k0_hw32 : k0_chk32 i (arg2.view.readAt (Elt F) (Rect.unit (s := S1x8x16) ![0, 1, 15] S1x1x1.size inb_S1x8x16_S1x1x1_0_1_15).toLoadRect (harg2.unread x0) (Shape.Idx.first (numel1_S1x1x1.symm ▸ Nat.one_pos)))) (k0_hw33 : k0_chk33 i (arg2.view.readAt (Elt F) (Rect.unit (s := S1x8x16) ![0, 2, 0] S1x1x1.size inb_S1x8x16_S1x1x1_0_2_0).toLoadRect (harg2.unread x0) (Shape.Idx.first (numel1_S1x1x1.symm ▸ Nat.one_pos)))) (k0_hw34 : k0_chk34 i (arg2.view.readAt (Elt F) (Rect.unit (s := S1x8x16) ![0, 2, 1] S1x1x1.size inb_S1x8x16_S1x1x1_0_2_1).toLoadRect (harg2.unread x0) (Shape.Idx.first (numel1_S1x1x1.symm ▸ Nat.one_pos)))) (k0_hw35 : k0_chk35 i (arg2.view.readAt (Elt F) (Rect.unit (s := S1x8x16) ![0, 2, 2] S1x1x1.size inb_S1x8x16_S1x1x1_0_2_2).toLoadRect (harg2.unread x0) (Shape.Idx.first (numel1_S1x1x1.symm ▸ Nat.one_pos)))) (k0_hw36 : k0_chk36 i (arg2.view.readAt (Elt F) (Rect.unit (s := S1x8x16) ![0, 2, 3] S1x1x1.size inb_S1x8x16_S1x1x1_0_2_3).toLoadRect (harg2.unread x0) (Shape.Idx.first (numel1_S1x1x1.symm ▸ Nat.one_pos)))) (k0_hw37 : k0_chk37 i (arg2.view.readAt (Elt F) (Rect.unit (s := S1x8x16) ![0, 2, 4] S1x1x1.size inb_S1x8x16_S1x1x1_0_2_4).toLoadRect (harg2.unread x0) (Shape.Idx.first (numel1_S1x1x1.symm ▸ Nat.one_pos)))) (k0_hw38 : k0_chk38 i (arg2.view.readAt (Elt F) (Rect.unit (s := S1x8x16) ![0, 2, 5] S1x1x1.size inb_S1x8x16_S1x1x1_0_2_5).toLoadRect (harg2.unread x0) (Shape.Idx.first (numel1_S1x1x1.symm ▸ Nat.one_pos)))) (k0_hw39 : k0_chk39 i (arg2.view.readAt (Elt F) (Rect.unit (s := S1x8x16) ![0, 2, 6] S1x1x1.size inb_S1x8x16_S1x1x1_0_2_6).toLoadRect (harg2.unread x0) (Shape.Idx.first (numel1_S1x1x1.symm ▸ Nat.one_pos)))) (k0_hw40 : k0_chk40 i (arg2.view.readAt (Elt F) (Rect.unit (s := S1x8x16) ![0, 2, 7] S1x1x1.size inb_S1x8x16_S1x1x1_0_2_7).toLoadRect (harg2.unread x0) (Shape.Idx.first (numel1_S1x1x1.symm ▸ Nat.one_pos)))) (k0_hw41 : k0_chk41 i (arg2.view.readAt (Elt F) (Rect.unit (s := S1x8x16) ![0, 2, 8] S1x1x1.size inb_S1x8x16_S1x1x1_0_2_8).toLoadRect (harg2.unread x0) (Shape.Idx.first (numel1_S1x1x1.symm ▸ Nat.one_pos)))) (k0_hw42 : k0_chk42 i (arg2.view.readAt (Elt F) (Rect.unit (s := S1x8x16) ![0, 2, 9] S1x1x1.size inb_S1x8x16_S1x1x1_0_2_9).toLoadRect (harg2.unread x0) (Shape.Idx.first (numel1_S1x1x1.symm ▸ Nat.one_pos)))) (k0_hw43 : k0_chk43 i (arg2.view.readAt (Elt F) (Rect.unit (s := S1x8x16) ![0, 2, 10] S1x1x1.size inb_S1x8x16_S1x1x1_0_2_10).toLoadRect (harg2.unread x0) (Shape.Idx.first (numel1_S1x1x1.symm ▸ Nat.one_pos)))) (k0_hw44 : k0_chk44 i (arg2.view.readAt (Elt F) (Rect.unit (s := S1x8x16) ![0, 2, 11] S1x1x1.size inb_S1x8x16_S1x1x1_0_2_11).toLoadRect (harg2.unread x0) (Shape.Idx.first (numel1_S1x1x1.symm ▸ Nat.one_pos)))) (k0_hw45 : k0_chk45 i (arg2.view.readAt (Elt F) (Rect.unit (s := S1x8x16) ![0, 2, 12] S1x1x1.size inb_S1x8x16_S1x1x1_0_2_12).toLoadRect (harg2.unread x0) (Shape.Idx.first (numel1_S1x1x1.symm ▸ Nat.one_pos)))) (k0_hw46 : k0_chk46 i (arg2.view.readAt (Elt F) (Rect.unit (s := S1x8x16) ![0, 2, 13] S1x1x1.size inb_S1x8x16_S1x1x1_0_2_13).toLoadRect (harg2.unread x0) (Shape.Idx.first (numel1_S1x1x1.symm ▸ Nat.one_pos)))) (k0_hw47 : k0_chk47 i (arg2.view.readAt (Elt F) (Rect.unit (s := S1x8x16) ![0, 2, 14] S1x1x1.size inb_S1x8x16_S1x1x1_0_2_14).toLoadRect (harg2.unread x0) (Shape.Idx.first (numel1_S1x1x1.symm ▸ Nat.one_pos)))) (k0_hw48 : k0_chk48 i (arg2.view.readAt (Elt F) (Rect.unit (s := S1x8x16) ![0, 2, 15] S1x1x1.size inb_S1x8x16_S1x1x1_0_2_15).toLoadRect (harg2.unread x0) (Shape.Idx.first (numel1_S1x1x1.symm ▸ Nat.one_pos)))) (k0_hw49 : k0_chk49 i (arg2.view.readAt (Elt F) (Rect.unit (s := S1x8x16) ![0, 3, 0] S1x1x1.size inb_S1x8x16_S1x1x1_0_3_0).toLoadRect (harg2.unread x0) (Shape.Idx.first (numel1_S1x1x1.symm ▸ Nat.one_pos)))) (k0_hw50 : k0_chk50 i (arg2.view.readAt (Elt F) (Rect.unit (s := S1x8x16) ![0, 3, 1] S1x1x1.size inb_S1x8x16_S1x1x1_0_3_1).toLoadRect (harg2.unread x0) (Shape.Idx.first (numel1_S1x1x1.symm ▸ Nat.one_pos)))) (k0_hw51 : k0_chk51 i (arg2.view.readAt (Elt F) (Rect.unit (s := S1x8x16) ![0, 3, 2] S1x1x1.size inb_S1x8x16_S1x1x1_0_3_2).toLoadRect (harg2.unread x0) (Shape.Idx.first (numel1_S1x1x1.symm ▸ Nat.one_pos)))) (k0_hw52 : k0_chk52 i (arg2.view.readAt (Elt F) (Rect.unit (s := S1x8x16) ![0, 3, 3] S1x1x1.size inb_S1x8x16_S1x1x1_0_3_3).toLoadRect (harg2.unread x0) (Shape.Idx.first (numel1_S1x1x1.symm ▸ Nat.one_pos)))) (k0_hw53 : k0_chk53 i (arg2.view.readAt (Elt F) (Rect.unit (s := S1x8x16) ![0, 3, 4] S1x1x1.size inb_S1x8x16_S1x1x1_0_3_4).toLoadRect (harg2.unread x0) (Shape.Idx.first (numel1_S1x1x1.symm ▸ Nat.one_pos)))) (k0_hw54 : k0_chk54 i (arg2.view.readAt (Elt F) (Rect.unit (s := S1x8x16) ![0, 3, 5] S1x1x1.size inb_S1x8x16_S1x1x1_0_3_5).toLoadRect (harg2.unread x0) (Shape.Idx.first (numel1_S1x1x1.symm ▸ Nat.one_pos)))) (k0_hw55 : k0_chk55 i (arg2.view.readAt (Elt F) (Rect.unit (s := S1x8x16) ![0, 3, 6] S1x1x1.size inb_S1x8x16_S1x1x1_0_3_6).toLoadRect (harg2.unread x0) (Shape.Idx.first (numel1_S1x1x1.symm ▸ Nat.one_pos)))) (k0_hw56 : k0_chk56 i (arg2.view.readAt (Elt F) (Rect.unit (s := S1x8x16) ![0, 3, 7] S1x1x1.size inb_S1x8x16_S1x1x1_0_3_7).toLoadRect (harg2.unread x0) (Shape.Idx.first (numel1_S1x1x1.symm ▸ Nat.one_pos)))) (k0_hw57 : k0_chk57 i (arg2.view.readAt (Elt F) (Rect.unit (s := S1x8x16) ![0, 3, 8] S1x1x1.size inb_S1x8x16_S1x1x1_0_3_8).toLoadRect (harg2.unread x0) (Shape.Idx.first (numel1_S1x1x1.symm ▸ Nat.one_pos)))) (k0_hw58 : k0_chk58 i (arg2.view.readAt (Elt F) (Rect.unit (s := S1x8x16) ![0, 3, 9] S1x1x1.size inb_S1x8x16_S1x1x1_0_3_9).toLoadRect (harg2.unread x0) (Shape.Idx.first (numel1_S1x1x1.symm ▸ Nat.one_pos)))) (k0_hw59 : k0_chk59 i (arg2.view.readAt (Elt F) (Rect.unit (s := S1x8x16) ![0, 3, 10] S1x1x1.size inb_S1x8x16_S1x1x1_0_3_10).toLoadRect (harg2.unread x0) (Shape.Idx.first (numel1_S1x1x1.symm ▸ Nat.one_pos)))) (k0_hw60 : k0_chk60 i (arg2.view.readAt (Elt F) (Rect.unit (s := S1x8x16) ![0, 3, 11] S1x1x1.size inb_S1x8x16_S1x1x1_0_3_11).toLoadRect (harg2.unread x0) (Shape.Idx.first (numel1_S1x1x1.symm ▸ Nat.one_pos)))) (k0_hw61 : k0_chk61 i (arg2.view.readAt (Elt F) (Rect.unit (s := S1x8x16) ![0, 3, 12] S1x1x1.size inb_S1x8x16_S1x1x1_0_3_12).toLoadRect (harg2.unread x0) (Shape.Idx.first (numel1_S1x1x1.symm ▸ Nat.one_pos)))) (k0_hw62 : k0_chk62 i (arg2.view.readAt (Elt F) (Rect.unit (s := S1x8x16) ![0, 3, 13] S1x1x1.size inb_S1x8x16_S1x1x1_0_3_13).toLoadRect (harg2.unread x0) (Shape.Idx.first (numel1_S1x1x1.symm ▸ Nat.one_pos)))) (k0_hw63 : k0_chk63 i (arg2.view.readAt (Elt F) (Rect.unit (s := S1x8x16) ![0, 3, 14] S1x1x1.size inb_S1x8x16_S1x1x1_0_3_14).toLoadRect (harg2.unread x0) (Shape.Idx.first (numel1_S1x1x1.symm ▸ Nat.one_pos)))) (k0_hw64 : k0_chk64 i (arg2.view.readAt (Elt F) (Rect.unit (s := S1x8x16) ![0, 3, 15] S1x1x1.size inb_S1x8x16_S1x1x1_0_3_15).toLoadRect (harg2.unread x0) (Shape.Idx.first (numel1_S1x1x1.symm ▸ Nat.one_pos)))) (k0_hw65 : k0_chk65 i (arg2.view.readAt (Elt F) (Rect.unit (s := S1x8x16) ![0, 4, 0] S1x1x1.size inb_S1x8x16_S1x1x1_0_4_0).toLoadRect (harg2.unread x0) (Shape.Idx.first (numel1_S1x1x1.symm ▸ Nat.one_pos)))) (k0_hw66 : k0_chk66 i (arg2.view.readAt (Elt F) (Rect.unit (s := S1x8x16) ![0, 4, 1] S1x1x1.size inb_S1x8x16_S1x1x1_0_4_1).toLoadRect (harg2.unread x0) (Shape.Idx.first (numel1_S1x1x1.symm ▸ Nat.one_pos)))) (k0_hw67 : k0_chk67 i (arg2.view.readAt (Elt F) (Rect.unit (s := S1x8x16) ![0, 4, 2] S1x1x1.size inb_S1x8x16_S1x1x1_0_4_2).toLoadRect (harg2.unread x0) (Shape.Idx.first (numel1_S1x1x1.symm ▸ Nat.one_pos)))) (k0_hw68 : k0_chk68 i (arg2.view.readAt (Elt F) (Rect.unit (s := S1x8x16) ![0, 4, 3] S1x1x1.size inb_S1x8x16_S1x1x1_0_4_3).toLoadRect (harg2.unread x0) (Shape.Idx.first (numel1_S1x1x1.symm ▸ Nat.one_pos)))) (k0_hw69 : k0_chk69 i (arg2.view.readAt (Elt F) (Rect.unit (s := S1x8x16) ![0, 4, 4] S1x1x1.size inb_S1x8x16_S1x1x1_0_4_4).toLoadRect (harg2.unread x0) (Shape.Idx.first (numel1_S1x1x1.symm ▸ Nat.one_pos)))) (k0_hw70 : k0_chk70 i (arg2.view.readAt (Elt F) (Rect.unit (s := S1x8x16) ![0, 4, 5] S1x1x1.size inb_S1x8x16_S1x1x1_0_4_5).toLoadRect (harg2.unread x0) (Shape.Idx.first (numel1_S1x1x1.symm ▸ Nat.one_pos)))) (k0_hw71 : k0_chk71 i (arg2.view.readAt (Elt F) (Rect.unit (s := S1x8x16) ![0, 4, 6] S1x1x1.size inb_S1x8x16_S1x1x1_0_4_6).toLoadRect (harg2.unread x0) (Shape.Idx.first (numel1_S1x1x1.symm ▸ Nat.one_pos)))) (k0_hw72 : k0_chk72 i (arg2.view.readAt (Elt F) (Rect.unit (s := S1x8x16) ![0, 4, 7] S1x1x1.size inb_S1x8x16_S1x1x1_0_4_7).toLoadRect (harg2.unread x0) (Shape.Idx.first (numel1_S1x1x1.symm ▸ Nat.one_pos)))) (k0_hw73 : k0_chk73 i (arg2.view.readAt (Elt F) (Rect.unit (s := S1x8x16) ![0, 4, 8] S1x1x1.size inb_S1x8x16_S1x1x1_0_4_8).toLoadRect (harg2.unread x0) (Shape.Idx.first (numel1_S1x1x1.symm ▸ Nat.one_pos)))) (k0_hw74 : k0_chk74 i (arg2.view.readAt (Elt F) (Rect.unit (s := S1x8x16) ![0, 4, 9] S1x1x1.size inb_S1x8x16_S1x1x1_0_4_9).toLoadRect (harg2.unread x0) (Shape.Idx.first (numel1_S1x1x1.symm ▸ Nat.one_pos)))) (k0_hw75 : k0_chk75 i (arg2.view.readAt (Elt F) (Rect.unit (s := S1x8x16) ![0, 4, 10] S1x1x1.size inb_S1x8x16_S1x1x1_0_4_10).toLoadRect (harg2.unread x0) (Shape.Idx.first (numel1_S1x1x1.symm ▸ Nat.one_pos)))) (k0_hw76 : k0_chk76 i (arg2.view.readAt (Elt F) (Rect.unit (s := S1x8x16) ![0, 4, 11] S1x1x1.size inb_S1x8x16_S1x1x1_0_4_11).toLoadRect (harg2.unread x0) (Shape.Idx.first (numel1_S1x1x1.symm ▸ Nat.one_pos)))) (k0_hw77 : k0_chk77 i (arg2.view.readAt (Elt F) (Rect.unit (s := S1x8x16) ![0, 4, 12] S1x1x1.size inb_S1x8x16_S1x1x1_0_4_12).toLoadRect (harg2.unread x0) (Shape.Idx.first (numel1_S1x1x1.symm ▸ Nat.one_pos)))) (k0_hw78 : k0_chk78 i (arg2.view.readAt (Elt F) (Rect.unit (s := S1x8x16) ![0, 4, 13] S1x1x1.size inb_S1x8x16_S1x1x1_0_4_13).toLoadRect (harg2.unread x0) (Shape.Idx.first (numel1_S1x1x1.symm ▸ Nat.one_pos)))) (k0_hw79 : k0_chk79 i (arg2.view.readAt (Elt F) (Rect.unit (s := S1x8x16) ![0, 4, 14] S1x1x1.size inb_S1x8x16_S1x1x1_0_4_14).toLoadRect (harg2.unread x0) (Shape.Idx.first (numel1_S1x1x1.symm ▸ Nat.one_pos)))) (k0_hw80 : k0_chk80 i (arg2.view.readAt (Elt F) (Rect.unit (s := S1x8x16) ![0, 4, 15] S1x1x1.size inb_S1x8x16_S1x1x1_0_4_15).toLoadRect (harg2.unread x0) (Shape.Idx.first (numel1_S1x1x1.symm ▸ Nat.one_pos)))) (k0_hw81 : k0_chk81 i (arg2.view.readAt (Elt F) (Rect.unit (s := S1x8x16) ![0, 5, 0] S1x1x1.size inb_S1x8x16_S1x1x1_0_5_0).toLoadRect (harg2.unread x0) (Shape.Idx.first (numel1_S1x1x1.symm ▸ Nat.one_pos)))) (k0_hw82 : k0_chk82 i (arg2.view.readAt (Elt F) (Rect.unit (s := S1x8x16) ![0, 5, 1] S1x1x1.size inb_S1x8x16_S1x1x1_0_5_1).toLoadRect (harg2.unread x0) (Shape.Idx.first (numel1_S1x1x1.symm ▸ Nat.one_pos)))) (k0_hw83 : k0_chk83 i (arg2.view.readAt (Elt F) (Rect.unit (s := S1x8x16) ![0, 5, 2] S1x1x1.size inb_S1x8x16_S1x1x1_0_5_2).toLoadRect (harg2.unread x0) (Shape.Idx.first (numel1_S1x1x1.symm ▸ Nat.one_pos)))) (k0_hw84 : k0_chk84 i (arg2.view.readAt (Elt F) (Rect.unit (s := S1x8x16) ![0, 5, 3] S1x1x1.size inb_S1x8x16_S1x1x1_0_5_3).toLoadRect (harg2.unread x0) (Shape.Idx.first (numel1_S1x1x1.symm ▸ Nat.one_pos)))) (k0_hw85 : k0_chk85 i (arg2.view.readAt (Elt F) (Rect.unit (s := S1x8x16) ![0, 5, 4] S1x1x1.size inb_S1x8x16_S1x1x1_0_5_4).toLoadRect (harg2.unread x0) (Shape.Idx.first (numel1_S1x1x1.symm ▸ Nat.one_pos)))) (k0_hw86 : k0_chk86 i (arg2.view.readAt (Elt F) (Rect.unit (s := S1x8x16) ![0, 5, 5] S1x1x1.size inb_S1x8x16_S1x1x1_0_5_5).toLoadRect (harg2.unread x0) (Shape.Idx.first (numel1_S1x1x1.symm ▸ Nat.one_pos)))) (k0_hw87 : k0_chk87 i (arg2.view.readAt (Elt F) (Rect.unit (s := S1x8x16) ![0, 5, 6] S1x1x1.size inb_S1x8x16_S1x1x1_0_5_6).toLoadRect (harg2.unread x0) (Shape.Idx.first (numel1_S1x1x1.symm ▸ Nat.one_pos)))) (k0_hw88 : k0_chk88 i (arg2.view.readAt (Elt F) (Rect.unit (s := S1x8x16) ![0, 5, 7] S1x1x1.size inb_S1x8x16_S1x1x1_0_5_7).toLoadRect (harg2.unread x0) (Shape.Idx.first (numel1_S1x1x1.symm ▸ Nat.one_pos)))) (k0_hw89 : k0_chk89 i (arg2.view.readAt (Elt F) (Rect.unit (s := S1x8x16) ![0, 5, 8] S1x1x1.size inb_S1x8x16_S1x1x1_0_5_8).toLoadRect (harg2.unread x0) (Shape.Idx.first (numel1_S1x1x1.symm ▸ Nat.one_pos)))) (k0_hw90 : k0_chk90 i (arg2.view.readAt (Elt F) (Rect.unit (s := S1x8x16) ![0, 5, 9] S1x1x1.size inb_S1x8x16_S1x1x1_0_5_9).toLoadRect (harg2.unread x0) (Shape.Idx.first (numel1_S1x1x1.symm ▸ Nat.one_pos)))) (k0_hw91 : k0_chk91 i (arg2.view.readAt (Elt F) (Rect.unit (s := S1x8x16) ![0, 5, 10] S1x1x1.size inb_S1x8x16_S1x1x1_0_5_10).toLoadRect (harg2.unread x0) (Shape.Idx.first (numel1_S1x1x1.symm ▸ Nat.one_pos)))) (k0_hw92 : k0_chk92 i (arg2.view.readAt (Elt F) (Rect.unit (s := S1x8x16) ![0, 5, 11] S1x1x1.size inb_S1x8x16_S1x1x1_0_5_11).toLoadRect (harg2.unread x0) (Shape.Idx.first (numel1_S1x1x1.symm ▸ Nat.one_pos)))) (k0_hw93 : k0_chk93 i (arg2.view.readAt (Elt F) (Rect.unit (s := S1x8x16) ![0, 5, 12] S1x1x1.size inb_S1x8x16_S1x1x1_0_5_12).toLoadRect (harg2.unread x0) (Shape.Idx.first (numel1_S1x1x1.symm ▸ Nat.one_pos)))) (k0_hw94 : k0_chk94 i (arg2.view.readAt (Elt F) (Rect.unit (s := S1x8x16) ![0, 5, 13] S1x1x1.size inb_S1x8x16_S1x1x1_0_5_13).toLoadRect (harg2.unread x0) (Shape.Idx.first (numel1_S1x1x1.symm ▸ Nat.one_pos)))) (k0_hw95 : k0_chk95 i (arg2.view.readAt (Elt F) (Rect.unit (s := S1x8x16) ![0, 5, 14] S1x1x1.size inb_S1x8x16_S1x1x1_0_5_14).toLoadRect (harg2.unread x0) (Shape.Idx.first (numel1_S1x1x1.symm ▸ Nat.one_pos)))) (k0_hw96 : k0_chk96 i (arg2.view.readAt (Elt F) (Rect.unit (s := S1x8x16) ![0, 5, 15] S1x1x1.size inb_S1x8x16_S1x1x1_0_5_15).toLoadRect (harg2.unread x0) (Shape.Idx.first (numel1_S1x1x1.symm ▸ Nat.one_pos)))) (k0_hw97 : k0_chk97 i (arg2.view.readAt (Elt F) (Rect.unit (s := S1x8x16) ![0, 6, 0] S1x1x1.size inb_S1x8x16_S1x1x1_0_6_0).toLoadRect (harg2.unread x0) (Shape.Idx.first (numel1_S1x1x1.symm ▸ Nat.one_pos)))) (k0_hw98 : k0_chk98 i (arg2.view.readAt (Elt F) (Rect.unit (s := S1x8x16) ![0, 6, 1] S1x1x1.size inb_S1x8x16_S1x1x1_0_6_1).toLoadRect (harg2.unread x0) (Shape.Idx.first (numel1_S1x1x1.symm ▸ Nat.one_pos)))) (k0_hw99 : k0_chk99 i (arg2.view.readAt (Elt F) (Rect.unit (s := S1x8x16) ![0, 6, 2] S1x1x1.size inb_S1x8x16_S1x1x1_0_6_2).toLoadRect (harg2.unread x0) (Shape.Idx.first (numel1_S1x1x1.symm ▸ Nat.one_pos)))) (k0_hw100 : k0_chk100 i (arg2.view.readAt (Elt F) (Rect.unit (s := S1x8x16) ![0, 6, 3] S1x1x1.size inb_S1x8x16_S1x1x1_0_6_3).toLoadRect (harg2.unread x0) (Shape.Idx.first (numel1_S1x1x1.symm ▸ Nat.one_pos)))) (k0_hw101 : k0_chk101 i (arg2.view.readAt (Elt F) (Rect.unit (s := S1x8x16) ![0, 6, 4] S1x1x1.size inb_S1x8x16_S1x1x1_0_6_4).toLoadRect (harg2.unread x0) (Shape.Idx.first (numel1_S1x1x1.symm ▸ Nat.one_pos)))) (k0_hw102 : k0_chk102 i (arg2.view.readAt (Elt F) (Rect.unit (s := S1x8x16) ![0, 6, 5] S1x1x1.size inb_S1x8x16_S1x1x1_0_6_5).toLoadRect (harg2.unread x0) (Shape.Idx.first (numel1_S1x1x1.symm ▸ Nat.one_pos)))) (k0_hw103 : k0_chk103 i (arg2.view.readAt (Elt F) (Rect.unit (s := S1x8x16) ![0, 6, 6] S1x1x1.size inb_S1x8x16_S1x1x1_0_6_6).toLoadRect (harg2.unread x0) (Shape.Idx.first (numel1_S1x1x1.symm ▸ Nat.one_pos)))) (k0_hw104 : k0_chk104 i (arg2.view.readAt (Elt F) (Rect.unit (s := S1x8x16) ![0, 6, 7] S1x1x1.size inb_S1x8x16_S1x1x1_0_6_7).toLoadRect (harg2.unread x0) (Shape.Idx.first (numel1_S1x1x1.symm ▸ Nat.one_pos)))) (k0_hw105 : k0_chk105 i (arg2.view.readAt (Elt F) (Rect.unit (s := S1x8x16) ![0, 6, 8] S1x1x1.size inb_S1x8x16_S1x1x1_0_6_8).toLoadRect (harg2.unread x0) (Shape.Idx.first (numel1_S1x1x1.symm ▸ Nat.one_pos)))) (k0_hw106 : k0_chk106 i (arg2.view.readAt (Elt F) (Rect.unit (s := S1x8x16) ![0, 6, 9] S1x1x1.size inb_S1x8x16_S1x1x1_0_6_9).toLoadRect (harg2.unread x0) (Shape.Idx.first (numel1_S1x1x1.symm ▸ Nat.one_pos)))) (k0_hw107 : k0_chk107 i (arg2.view.readAt (Elt F) (Rect.unit (s := S1x8x16) ![0, 6, 10] S1x1x1.size inb_S1x8x16_S1x1x1_0_6_10).toLoadRect (harg2.unread x0) (Shape.Idx.first (numel1_S1x1x1.symm ▸ Nat.one_pos)))) (k0_hw108 : k0_chk108 i (arg2.view.readAt (Elt F) (Rect.unit (s := S1x8x16) ![0, 6, 11] S1x1x1.size inb_S1x8x16_S1x1x1_0_6_11).toLoadRect (harg2.unread x0) (Shape.Idx.first (numel1_S1x1x1.symm ▸ Nat.one_pos)))) (k0_hw109 : k0_chk109 i (arg2.view.readAt (Elt F) (Rect.unit (s := S1x8x16) ![0, 6, 12] S1x1x1.size inb_S1x8x16_S1x1x1_0_6_12).toLoadRect (harg2.unread x0) (Shape.Idx.first (numel1_S1x1x1.symm ▸ Nat.one_pos)))) (k0_hw110 : k0_chk110 i (arg2.view.readAt (Elt F) (Rect.unit (s := S1x8x16) ![0, 6, 13] S1x1x1.size inb_S1x8x16_S1x1x1_0_6_13).toLoadRect (harg2.unread x0) (Shape.Idx.first (numel1_S1x1x1.symm ▸ Nat.one_pos)))) (k0_hw111 : k0_chk111 i (arg2.view.readAt (Elt F) (Rect.unit (s := S1x8x16) ![0, 6, 14] S1x1x1.size inb_S1x8x16_S1x1x1_0_6_14).toLoadRect (harg2.unread x0) (Shape.Idx.first (numel1_S1x1x1.symm ▸ Nat.one_pos)))) (k0_hw112 : k0_chk112 i (arg2.view.readAt (Elt F) (Rect.unit (s := S1x8x16) ![0, 6, 15] S1x1x1.size inb_S1x8x16_S1x1x1_0_6_15).toLoadRect (harg2.unread x0) (Shape.Idx.first (numel1_S1x1x1.symm ▸ Nat.one_pos)))) (k0_hw113 : k0_chk113 i (arg2.view.readAt (Elt F) (Rect.unit (s := S1x8x16) ![0, 7, 0] S1x1x1.size inb_S1x8x16_S1x1x1_0_7_0).toLoadRect (harg2.unread x0) (Shape.Idx.first (numel1_S1x1x1.symm ▸ Nat.one_pos)))) (k0_hw114 : k0_chk114 i (arg2.view.readAt (Elt F) (Rect.unit (s := S1x8x16) ![0, 7, 1] S1x1x1.size inb_S1x8x16_S1x1x1_0_7_1).toLoadRect (harg2.unread x0) (Shape.Idx.first (numel1_S1x1x1.symm ▸ Nat.one_pos)))) (k0_hw115 : k0_chk115 i (arg2.view.readAt (Elt F) (Rect.unit (s := S1x8x16) ![0, 7, 2] S1x1x1.size inb_S1x8x16_S1x1x1_0_7_2).toLoadRect (harg2.unread x0) (Shape.Idx.first (numel1_S1x1x1.symm ▸ Nat.one_pos)))) (k0_hw116 : k0_chk116 i (arg2.view.readAt (Elt F) (Rect.unit (s := S1x8x16) ![0, 7, 3] S1x1x1.size inb_S1x8x16_S1x1x1_0_7_3).toLoadRect (harg2.unread x0) (Shape.Idx.first (numel1_S1x1x1.symm ▸ Nat.one_pos)))) (k0_hw117 : k0_chk117 i (arg2.view.readAt (Elt F) (Rect.unit (s := S1x8x16) ![0, 7, 4] S1x1x1.size inb_S1x8x16_S1x1x1_0_7_4).toLoadRect (harg2.unread x0) (Shape.Idx.first (numel1_S1x1x1.symm ▸ Nat.one_pos)))) (k0_hw118 : k0_chk118 i (arg2.view.readAt (Elt F) (Rect.unit (s := S1x8x16) ![0, 7, 5] S1x1x1.size inb_S1x8x16_S1x1x1_0_7_5).toLoadRect (harg2.unread x0) (Shape.Idx.first (numel1_S1x1x1.symm ▸ Nat.one_pos)))) (k0_hw119 : k0_chk119 i (arg2.view.readAt (Elt F) (Rect.unit (s := S1x8x16) ![0, 7, 6] S1x1x1.size inb_S1x8x16_S1x1x1_0_7_6).toLoadRect (harg2.unread x0) (Shape.Idx.first (numel1_S1x1x1.symm ▸ Nat.one_pos)))) (k0_hw120 : k0_chk120 i (arg2.view.readAt (Elt F) (Rect.unit (s := S1x8x16) ![0, 7, 7] S1x1x1.size inb_S1x8x16_S1x1x1_0_7_7).toLoadRect (harg2.unread x0) (Shape.Idx.first (numel1_S1x1x1.symm ▸ Nat.one_pos)))) (k0_hw121 : k0_chk121 i (arg2.view.readAt (Elt F) (Rect.unit (s := S1x8x16) ![0, 7, 8] S1x1x1.size inb_S1x8x16_S1x1x1_0_7_8).toLoadRect (harg2.unread x0) (Shape.Idx.first (numel1_S1x1x1.symm ▸ Nat.one_pos)))) (k0_hw122 : k0_chk122 i (arg2.view.readAt (Elt F) (Rect.unit (s := S1x8x16) ![0, 7, 9] S1x1x1.size inb_S1x8x16_S1x1x1_0_7_9).toLoadRect (harg2.unread x0) (Shape.Idx.first (numel1_S1x1x1.symm ▸ Nat.one_pos)))) (k0_hw123 : k0_chk123 i (arg2.view.readAt (Elt F) (Rect.unit (s := S1x8x16) ![0, 7, 10] S1x1x1.size inb_S1x8x16_S1x1x1_0_7_10).toLoadRect (harg2.unread x0) (Shape.Idx.first (numel1_S1x1x1.symm ▸ Nat.one_pos)))) (k0_hw124 : k0_chk124 i (arg2.view.readAt (Elt F) (Rect.unit (s := S1x8x16) ![0, 7, 11] S1x1x1.size inb_S1x8x16_S1x1x1_0_7_11).toLoadRect (harg2.unread x0) (Shape.Idx.first (numel1_S1x1x1.symm ▸ Nat.one_pos)))) (k0_hw125 : k0_chk125 i (arg2.view.readAt (Elt F) (Rect.unit (s := S1x8x16) ![0, 7, 12] S1x1x1.size inb_S1x8x16_S1x1x1_0_7_12).toLoadRect (harg2.unread x0) (Shape.Idx.first (numel1_S1x1x1.symm ▸ Nat.one_pos)))) (k0_hw126 : k0_chk126 i (arg2.view.readAt (Elt F) (Rect.unit (s := S1x8x16) ![0, 7, 13] S1x1x1.size inb_S1x8x16_S1x1x1_0_7_13).toLoadRect (harg2.unread x0) (Shape.Idx.first (numel1_S1x1x1.symm ▸ Nat.one_pos)))) (k0_hw127 : k0_chk127 i (arg2.view.readAt (Elt F) (Rect.unit (s := S1x8x16) ![0, 7, 14] S1x1x1.size inb_S1x8x16_S1x1x1_0_7_14).toLoadRect (harg2.unread x0) (Shape.Idx.first (numel1_S1x1x1.symm ▸ Nat.one_pos)))) (k0_hw128 : k0_chk128 i (arg2.view.readAt (Elt F) (Rect.unit (s := S1x8x16) ![0, 7, 15] S1x1x1.size inb_S1x8x16_S1x1x1_0_7_15).toLoadRect (harg2.unread x0) (Shape.Idx.first (numel1_S1x1x1.symm ▸ Nat.one_pos))))
    (f1 : BufTy.Contents (Elt F) arg4.view.ty) (fs0 : BufTy.Contents (Elt F) arg5.view.ty) (fs1 : BufTy.Contents (Elt F) arg6.view.ty) :
    (kernelRunRaw0_A c i arg2 harg2 arg4 harg4 arg5 harg5 arg6 harg6 x0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64 k0_hw65 k0_hw66 k0_hw67 k0_hw68 k0_hw69 k0_hw70 k0_hw71 k0_hw72 k0_hw73 k0_hw74 k0_hw75 k0_hw76 k0_hw77 k0_hw78 k0_hw79 k0_hw80 k0_hw81 k0_hw82 k0_hw83 k0_hw84 k0_hw85 k0_hw86 k0_hw87 k0_hw88 k0_hw89 k0_hw90 k0_hw91 k0_hw92 k0_hw93 k0_hw94 k0_hw95 k0_hw96 k0_hw97 k0_hw98 k0_hw99 k0_hw100 k0_hw101 k0_hw102 k0_hw103 k0_hw104 k0_hw105 k0_hw106 k0_hw107 k0_hw108 k0_hw109 k0_hw110 k0_hw111 k0_hw112 k0_hw113 k0_hw114 k0_hw115 k0_hw116 k0_hw117 k0_hw118 k0_hw119 k0_hw120 k0_hw121 k0_hw122 k0_hw123 k0_hw124 k0_hw125 k0_hw126 k0_hw127 k0_hw128 f1 fs0 fs1).val
      = [(⟨Rect.unit (s := S1x8x128) ![0, 0, 0] ![1, 8, 128] inb_S1x8x128_S1x8x128_0_0_0, outBlock c i x0 fh0⟩ : View.Piece (Elt F) S1x8x128 .f32)] := by
  unfold kernelRunRaw0_A
  dsimp only
  rw [out_eq c i arg2 harg2 arg5 arg6 x0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64 k0_hw65 k0_hw66 k0_hw67 k0_hw68 k0_hw69 k0_hw70 k0_hw71 k0_hw72 k0_hw73 k0_hw74 k0_hw75 k0_hw76 k0_hw77 k0_hw78 k0_hw79 k0_hw80 k0_hw81 k0_hw82 k0_hw83 k0_hw84 k0_hw85 k0_hw86 k0_hw87 k0_hw88 k0_hw89 k0_hw90 k0_hw91 k0_hw92 k0_hw93 k0_hw94 k0_hw95 k0_hw96 k0_hw97 k0_hw98 k0_hw99 k0_hw100 k0_hw101 k0_hw102 k0_hw103 k0_hw104 k0_hw105 k0_hw106 k0_hw107 k0_hw108 k0_hw109 k0_hw110 k0_hw111 k0_hw112 k0_hw113 k0_hw114 k0_hw115 k0_hw116 k0_hw117 k0_hw118 k0_hw119 k0_hw120 k0_hw121 k0_hw122 k0_hw123 k0_hw124 k0_hw125 k0_hw126 k0_hw127 k0_hw128 fs1]

set_option maxHeartbeats 40000000 in
/-- The body's triple, as the frame takes it: the output's staging buffer and the two scratch buffers at any
    contents, the pieces written a closed list. -/
noncomputable def kernelRun0_A (c : Dev nD) (i : grid0.Coords) (arg2 : Memref sig .tc .smem S1x8x16 .i32) (harg2 : arg2.IsWhole) (arg4 : Memref sig .tc .vmem S1x8x128 .f32) (harg4 : arg4.IsWhole) (arg5 : Memref sig .tc .vmem S8x128 .f32) (harg5 : arg5.IsWhole) (arg6 : Memref sig .tc .vmem S2x1x128 .f32) (harg6 : arg6.IsWhole)
    (x0 : Vec F S1x8x16 .i32) (fh0 : HbBuf0 (F := F) c hbM0_0) (k0_hw1 : k0_chk1 i (arg2.view.readAt (Elt F) (Rect.unit (s := S1x8x16) ![0, 0, 0] S1x1x1.size inb_S1x8x16_S1x1x1_0_0_0).toLoadRect (harg2.unread x0) (Shape.Idx.first (numel1_S1x1x1.symm ▸ Nat.one_pos)))) (k0_hw2 : k0_chk2 i (arg2.view.readAt (Elt F) (Rect.unit (s := S1x8x16) ![0, 0, 1] S1x1x1.size inb_S1x8x16_S1x1x1_0_0_1).toLoadRect (harg2.unread x0) (Shape.Idx.first (numel1_S1x1x1.symm ▸ Nat.one_pos)))) (k0_hw3 : k0_chk3 i (arg2.view.readAt (Elt F) (Rect.unit (s := S1x8x16) ![0, 0, 2] S1x1x1.size inb_S1x8x16_S1x1x1_0_0_2).toLoadRect (harg2.unread x0) (Shape.Idx.first (numel1_S1x1x1.symm ▸ Nat.one_pos)))) (k0_hw4 : k0_chk4 i (arg2.view.readAt (Elt F) (Rect.unit (s := S1x8x16) ![0, 0, 3] S1x1x1.size inb_S1x8x16_S1x1x1_0_0_3).toLoadRect (harg2.unread x0) (Shape.Idx.first (numel1_S1x1x1.symm ▸ Nat.one_pos)))) (k0_hw5 : k0_chk5 i (arg2.view.readAt (Elt F) (Rect.unit (s := S1x8x16) ![0, 0, 4] S1x1x1.size inb_S1x8x16_S1x1x1_0_0_4).toLoadRect (harg2.unread x0) (Shape.Idx.first (numel1_S1x1x1.symm ▸ Nat.one_pos)))) (k0_hw6 : k0_chk6 i (arg2.view.readAt (Elt F) (Rect.unit (s := S1x8x16) ![0, 0, 5] S1x1x1.size inb_S1x8x16_S1x1x1_0_0_5).toLoadRect (harg2.unread x0) (Shape.Idx.first (numel1_S1x1x1.symm ▸ Nat.one_pos)))) (k0_hw7 : k0_chk7 i (arg2.view.readAt (Elt F) (Rect.unit (s := S1x8x16) ![0, 0, 6] S1x1x1.size inb_S1x8x16_S1x1x1_0_0_6).toLoadRect (harg2.unread x0) (Shape.Idx.first (numel1_S1x1x1.symm ▸ Nat.one_pos)))) (k0_hw8 : k0_chk8 i (arg2.view.readAt (Elt F) (Rect.unit (s := S1x8x16) ![0, 0, 7] S1x1x1.size inb_S1x8x16_S1x1x1_0_0_7).toLoadRect (harg2.unread x0) (Shape.Idx.first (numel1_S1x1x1.symm ▸ Nat.one_pos)))) (k0_hw9 : k0_chk9 i (arg2.view.readAt (Elt F) (Rect.unit (s := S1x8x16) ![0, 0, 8] S1x1x1.size inb_S1x8x16_S1x1x1_0_0_8).toLoadRect (harg2.unread x0) (Shape.Idx.first (numel1_S1x1x1.symm ▸ Nat.one_pos)))) (k0_hw10 : k0_chk10 i (arg2.view.readAt (Elt F) (Rect.unit (s := S1x8x16) ![0, 0, 9] S1x1x1.size inb_S1x8x16_S1x1x1_0_0_9).toLoadRect (harg2.unread x0) (Shape.Idx.first (numel1_S1x1x1.symm ▸ Nat.one_pos)))) (k0_hw11 : k0_chk11 i (arg2.view.readAt (Elt F) (Rect.unit (s := S1x8x16) ![0, 0, 10] S1x1x1.size inb_S1x8x16_S1x1x1_0_0_10).toLoadRect (harg2.unread x0) (Shape.Idx.first (numel1_S1x1x1.symm ▸ Nat.one_pos)))) (k0_hw12 : k0_chk12 i (arg2.view.readAt (Elt F) (Rect.unit (s := S1x8x16) ![0, 0, 11] S1x1x1.size inb_S1x8x16_S1x1x1_0_0_11).toLoadRect (harg2.unread x0) (Shape.Idx.first (numel1_S1x1x1.symm ▸ Nat.one_pos)))) (k0_hw13 : k0_chk13 i (arg2.view.readAt (Elt F) (Rect.unit (s := S1x8x16) ![0, 0, 12] S1x1x1.size inb_S1x8x16_S1x1x1_0_0_12).toLoadRect (harg2.unread x0) (Shape.Idx.first (numel1_S1x1x1.symm ▸ Nat.one_pos)))) (k0_hw14 : k0_chk14 i (arg2.view.readAt (Elt F) (Rect.unit (s := S1x8x16) ![0, 0, 13] S1x1x1.size inb_S1x8x16_S1x1x1_0_0_13).toLoadRect (harg2.unread x0) (Shape.Idx.first (numel1_S1x1x1.symm ▸ Nat.one_pos)))) (k0_hw15 : k0_chk15 i (arg2.view.readAt (Elt F) (Rect.unit (s := S1x8x16) ![0, 0, 14] S1x1x1.size inb_S1x8x16_S1x1x1_0_0_14).toLoadRect (harg2.unread x0) (Shape.Idx.first (numel1_S1x1x1.symm ▸ Nat.one_pos)))) (k0_hw16 : k0_chk16 i (arg2.view.readAt (Elt F) (Rect.unit (s := S1x8x16) ![0, 0, 15] S1x1x1.size inb_S1x8x16_S1x1x1_0_0_15).toLoadRect (harg2.unread x0) (Shape.Idx.first (numel1_S1x1x1.symm ▸ Nat.one_pos)))) (k0_hw17 : k0_chk17 i (arg2.view.readAt (Elt F) (Rect.unit (s := S1x8x16) ![0, 1, 0] S1x1x1.size inb_S1x8x16_S1x1x1_0_1_0).toLoadRect (harg2.unread x0) (Shape.Idx.first (numel1_S1x1x1.symm ▸ Nat.one_pos)))) (k0_hw18 : k0_chk18 i (arg2.view.readAt (Elt F) (Rect.unit (s := S1x8x16) ![0, 1, 1] S1x1x1.size inb_S1x8x16_S1x1x1_0_1_1).toLoadRect (harg2.unread x0) (Shape.Idx.first (numel1_S1x1x1.symm ▸ Nat.one_pos)))) (k0_hw19 : k0_chk19 i (arg2.view.readAt (Elt F) (Rect.unit (s := S1x8x16) ![0, 1, 2] S1x1x1.size inb_S1x8x16_S1x1x1_0_1_2).toLoadRect (harg2.unread x0) (Shape.Idx.first (numel1_S1x1x1.symm ▸ Nat.one_pos)))) (k0_hw20 : k0_chk20 i (arg2.view.readAt (Elt F) (Rect.unit (s := S1x8x16) ![0, 1, 3] S1x1x1.size inb_S1x8x16_S1x1x1_0_1_3).toLoadRect (harg2.unread x0) (Shape.Idx.first (numel1_S1x1x1.symm ▸ Nat.one_pos)))) (k0_hw21 : k0_chk21 i (arg2.view.readAt (Elt F) (Rect.unit (s := S1x8x16) ![0, 1, 4] S1x1x1.size inb_S1x8x16_S1x1x1_0_1_4).toLoadRect (harg2.unread x0) (Shape.Idx.first (numel1_S1x1x1.symm ▸ Nat.one_pos)))) (k0_hw22 : k0_chk22 i (arg2.view.readAt (Elt F) (Rect.unit (s := S1x8x16) ![0, 1, 5] S1x1x1.size inb_S1x8x16_S1x1x1_0_1_5).toLoadRect (harg2.unread x0) (Shape.Idx.first (numel1_S1x1x1.symm ▸ Nat.one_pos)))) (k0_hw23 : k0_chk23 i (arg2.view.readAt (Elt F) (Rect.unit (s := S1x8x16) ![0, 1, 6] S1x1x1.size inb_S1x8x16_S1x1x1_0_1_6).toLoadRect (harg2.unread x0) (Shape.Idx.first (numel1_S1x1x1.symm ▸ Nat.one_pos)))) (k0_hw24 : k0_chk24 i (arg2.view.readAt (Elt F) (Rect.unit (s := S1x8x16) ![0, 1, 7] S1x1x1.size inb_S1x8x16_S1x1x1_0_1_7).toLoadRect (harg2.unread x0) (Shape.Idx.first (numel1_S1x1x1.symm ▸ Nat.one_pos)))) (k0_hw25 : k0_chk25 i (arg2.view.readAt (Elt F) (Rect.unit (s := S1x8x16) ![0, 1, 8] S1x1x1.size inb_S1x8x16_S1x1x1_0_1_8).toLoadRect (harg2.unread x0) (Shape.Idx.first (numel1_S1x1x1.symm ▸ Nat.one_pos)))) (k0_hw26 : k0_chk26 i (arg2.view.readAt (Elt F) (Rect.unit (s := S1x8x16) ![0, 1, 9] S1x1x1.size inb_S1x8x16_S1x1x1_0_1_9).toLoadRect (harg2.unread x0) (Shape.Idx.first (numel1_S1x1x1.symm ▸ Nat.one_pos)))) (k0_hw27 : k0_chk27 i (arg2.view.readAt (Elt F) (Rect.unit (s := S1x8x16) ![0, 1, 10] S1x1x1.size inb_S1x8x16_S1x1x1_0_1_10).toLoadRect (harg2.unread x0) (Shape.Idx.first (numel1_S1x1x1.symm ▸ Nat.one_pos)))) (k0_hw28 : k0_chk28 i (arg2.view.readAt (Elt F) (Rect.unit (s := S1x8x16) ![0, 1, 11] S1x1x1.size inb_S1x8x16_S1x1x1_0_1_11).toLoadRect (harg2.unread x0) (Shape.Idx.first (numel1_S1x1x1.symm ▸ Nat.one_pos)))) (k0_hw29 : k0_chk29 i (arg2.view.readAt (Elt F) (Rect.unit (s := S1x8x16) ![0, 1, 12] S1x1x1.size inb_S1x8x16_S1x1x1_0_1_12).toLoadRect (harg2.unread x0) (Shape.Idx.first (numel1_S1x1x1.symm ▸ Nat.one_pos)))) (k0_hw30 : k0_chk30 i (arg2.view.readAt (Elt F) (Rect.unit (s := S1x8x16) ![0, 1, 13] S1x1x1.size inb_S1x8x16_S1x1x1_0_1_13).toLoadRect (harg2.unread x0) (Shape.Idx.first (numel1_S1x1x1.symm ▸ Nat.one_pos)))) (k0_hw31 : k0_chk31 i (arg2.view.readAt (Elt F) (Rect.unit (s := S1x8x16) ![0, 1, 14] S1x1x1.size inb_S1x8x16_S1x1x1_0_1_14).toLoadRect (harg2.unread x0) (Shape.Idx.first (numel1_S1x1x1.symm ▸ Nat.one_pos)))) (k0_hw32 : k0_chk32 i (arg2.view.readAt (Elt F) (Rect.unit (s := S1x8x16) ![0, 1, 15] S1x1x1.size inb_S1x8x16_S1x1x1_0_1_15).toLoadRect (harg2.unread x0) (Shape.Idx.first (numel1_S1x1x1.symm ▸ Nat.one_pos)))) (k0_hw33 : k0_chk33 i (arg2.view.readAt (Elt F) (Rect.unit (s := S1x8x16) ![0, 2, 0] S1x1x1.size inb_S1x8x16_S1x1x1_0_2_0).toLoadRect (harg2.unread x0) (Shape.Idx.first (numel1_S1x1x1.symm ▸ Nat.one_pos)))) (k0_hw34 : k0_chk34 i (arg2.view.readAt (Elt F) (Rect.unit (s := S1x8x16) ![0, 2, 1] S1x1x1.size inb_S1x8x16_S1x1x1_0_2_1).toLoadRect (harg2.unread x0) (Shape.Idx.first (numel1_S1x1x1.symm ▸ Nat.one_pos)))) (k0_hw35 : k0_chk35 i (arg2.view.readAt (Elt F) (Rect.unit (s := S1x8x16) ![0, 2, 2] S1x1x1.size inb_S1x8x16_S1x1x1_0_2_2).toLoadRect (harg2.unread x0) (Shape.Idx.first (numel1_S1x1x1.symm ▸ Nat.one_pos)))) (k0_hw36 : k0_chk36 i (arg2.view.readAt (Elt F) (Rect.unit (s := S1x8x16) ![0, 2, 3] S1x1x1.size inb_S1x8x16_S1x1x1_0_2_3).toLoadRect (harg2.unread x0) (Shape.Idx.first (numel1_S1x1x1.symm ▸ Nat.one_pos)))) (k0_hw37 : k0_chk37 i (arg2.view.readAt (Elt F) (Rect.unit (s := S1x8x16) ![0, 2, 4] S1x1x1.size inb_S1x8x16_S1x1x1_0_2_4).toLoadRect (harg2.unread x0) (Shape.Idx.first (numel1_S1x1x1.symm ▸ Nat.one_pos)))) (k0_hw38 : k0_chk38 i (arg2.view.readAt (Elt F) (Rect.unit (s := S1x8x16) ![0, 2, 5] S1x1x1.size inb_S1x8x16_S1x1x1_0_2_5).toLoadRect (harg2.unread x0) (Shape.Idx.first (numel1_S1x1x1.symm ▸ Nat.one_pos)))) (k0_hw39 : k0_chk39 i (arg2.view.readAt (Elt F) (Rect.unit (s := S1x8x16) ![0, 2, 6] S1x1x1.size inb_S1x8x16_S1x1x1_0_2_6).toLoadRect (harg2.unread x0) (Shape.Idx.first (numel1_S1x1x1.symm ▸ Nat.one_pos)))) (k0_hw40 : k0_chk40 i (arg2.view.readAt (Elt F) (Rect.unit (s := S1x8x16) ![0, 2, 7] S1x1x1.size inb_S1x8x16_S1x1x1_0_2_7).toLoadRect (harg2.unread x0) (Shape.Idx.first (numel1_S1x1x1.symm ▸ Nat.one_pos)))) (k0_hw41 : k0_chk41 i (arg2.view.readAt (Elt F) (Rect.unit (s := S1x8x16) ![0, 2, 8] S1x1x1.size inb_S1x8x16_S1x1x1_0_2_8).toLoadRect (harg2.unread x0) (Shape.Idx.first (numel1_S1x1x1.symm ▸ Nat.one_pos)))) (k0_hw42 : k0_chk42 i (arg2.view.readAt (Elt F) (Rect.unit (s := S1x8x16) ![0, 2, 9] S1x1x1.size inb_S1x8x16_S1x1x1_0_2_9).toLoadRect (harg2.unread x0) (Shape.Idx.first (numel1_S1x1x1.symm ▸ Nat.one_pos)))) (k0_hw43 : k0_chk43 i (arg2.view.readAt (Elt F) (Rect.unit (s := S1x8x16) ![0, 2, 10] S1x1x1.size inb_S1x8x16_S1x1x1_0_2_10).toLoadRect (harg2.unread x0) (Shape.Idx.first (numel1_S1x1x1.symm ▸ Nat.one_pos)))) (k0_hw44 : k0_chk44 i (arg2.view.readAt (Elt F) (Rect.unit (s := S1x8x16) ![0, 2, 11] S1x1x1.size inb_S1x8x16_S1x1x1_0_2_11).toLoadRect (harg2.unread x0) (Shape.Idx.first (numel1_S1x1x1.symm ▸ Nat.one_pos)))) (k0_hw45 : k0_chk45 i (arg2.view.readAt (Elt F) (Rect.unit (s := S1x8x16) ![0, 2, 12] S1x1x1.size inb_S1x8x16_S1x1x1_0_2_12).toLoadRect (harg2.unread x0) (Shape.Idx.first (numel1_S1x1x1.symm ▸ Nat.one_pos)))) (k0_hw46 : k0_chk46 i (arg2.view.readAt (Elt F) (Rect.unit (s := S1x8x16) ![0, 2, 13] S1x1x1.size inb_S1x8x16_S1x1x1_0_2_13).toLoadRect (harg2.unread x0) (Shape.Idx.first (numel1_S1x1x1.symm ▸ Nat.one_pos)))) (k0_hw47 : k0_chk47 i (arg2.view.readAt (Elt F) (Rect.unit (s := S1x8x16) ![0, 2, 14] S1x1x1.size inb_S1x8x16_S1x1x1_0_2_14).toLoadRect (harg2.unread x0) (Shape.Idx.first (numel1_S1x1x1.symm ▸ Nat.one_pos)))) (k0_hw48 : k0_chk48 i (arg2.view.readAt (Elt F) (Rect.unit (s := S1x8x16) ![0, 2, 15] S1x1x1.size inb_S1x8x16_S1x1x1_0_2_15).toLoadRect (harg2.unread x0) (Shape.Idx.first (numel1_S1x1x1.symm ▸ Nat.one_pos)))) (k0_hw49 : k0_chk49 i (arg2.view.readAt (Elt F) (Rect.unit (s := S1x8x16) ![0, 3, 0] S1x1x1.size inb_S1x8x16_S1x1x1_0_3_0).toLoadRect (harg2.unread x0) (Shape.Idx.first (numel1_S1x1x1.symm ▸ Nat.one_pos)))) (k0_hw50 : k0_chk50 i (arg2.view.readAt (Elt F) (Rect.unit (s := S1x8x16) ![0, 3, 1] S1x1x1.size inb_S1x8x16_S1x1x1_0_3_1).toLoadRect (harg2.unread x0) (Shape.Idx.first (numel1_S1x1x1.symm ▸ Nat.one_pos)))) (k0_hw51 : k0_chk51 i (arg2.view.readAt (Elt F) (Rect.unit (s := S1x8x16) ![0, 3, 2] S1x1x1.size inb_S1x8x16_S1x1x1_0_3_2).toLoadRect (harg2.unread x0) (Shape.Idx.first (numel1_S1x1x1.symm ▸ Nat.one_pos)))) (k0_hw52 : k0_chk52 i (arg2.view.readAt (Elt F) (Rect.unit (s := S1x8x16) ![0, 3, 3] S1x1x1.size inb_S1x8x16_S1x1x1_0_3_3).toLoadRect (harg2.unread x0) (Shape.Idx.first (numel1_S1x1x1.symm ▸ Nat.one_pos)))) (k0_hw53 : k0_chk53 i (arg2.view.readAt (Elt F) (Rect.unit (s := S1x8x16) ![0, 3, 4] S1x1x1.size inb_S1x8x16_S1x1x1_0_3_4).toLoadRect (harg2.unread x0) (Shape.Idx.first (numel1_S1x1x1.symm ▸ Nat.one_pos)))) (k0_hw54 : k0_chk54 i (arg2.view.readAt (Elt F) (Rect.unit (s := S1x8x16) ![0, 3, 5] S1x1x1.size inb_S1x8x16_S1x1x1_0_3_5).toLoadRect (harg2.unread x0) (Shape.Idx.first (numel1_S1x1x1.symm ▸ Nat.one_pos)))) (k0_hw55 : k0_chk55 i (arg2.view.readAt (Elt F) (Rect.unit (s := S1x8x16) ![0, 3, 6] S1x1x1.size inb_S1x8x16_S1x1x1_0_3_6).toLoadRect (harg2.unread x0) (Shape.Idx.first (numel1_S1x1x1.symm ▸ Nat.one_pos)))) (k0_hw56 : k0_chk56 i (arg2.view.readAt (Elt F) (Rect.unit (s := S1x8x16) ![0, 3, 7] S1x1x1.size inb_S1x8x16_S1x1x1_0_3_7).toLoadRect (harg2.unread x0) (Shape.Idx.first (numel1_S1x1x1.symm ▸ Nat.one_pos)))) (k0_hw57 : k0_chk57 i (arg2.view.readAt (Elt F) (Rect.unit (s := S1x8x16) ![0, 3, 8] S1x1x1.size inb_S1x8x16_S1x1x1_0_3_8).toLoadRect (harg2.unread x0) (Shape.Idx.first (numel1_S1x1x1.symm ▸ Nat.one_pos)))) (k0_hw58 : k0_chk58 i (arg2.view.readAt (Elt F) (Rect.unit (s := S1x8x16) ![0, 3, 9] S1x1x1.size inb_S1x8x16_S1x1x1_0_3_9).toLoadRect (harg2.unread x0) (Shape.Idx.first (numel1_S1x1x1.symm ▸ Nat.one_pos)))) (k0_hw59 : k0_chk59 i (arg2.view.readAt (Elt F) (Rect.unit (s := S1x8x16) ![0, 3, 10] S1x1x1.size inb_S1x8x16_S1x1x1_0_3_10).toLoadRect (harg2.unread x0) (Shape.Idx.first (numel1_S1x1x1.symm ▸ Nat.one_pos)))) (k0_hw60 : k0_chk60 i (arg2.view.readAt (Elt F) (Rect.unit (s := S1x8x16) ![0, 3, 11] S1x1x1.size inb_S1x8x16_S1x1x1_0_3_11).toLoadRect (harg2.unread x0) (Shape.Idx.first (numel1_S1x1x1.symm ▸ Nat.one_pos)))) (k0_hw61 : k0_chk61 i (arg2.view.readAt (Elt F) (Rect.unit (s := S1x8x16) ![0, 3, 12] S1x1x1.size inb_S1x8x16_S1x1x1_0_3_12).toLoadRect (harg2.unread x0) (Shape.Idx.first (numel1_S1x1x1.symm ▸ Nat.one_pos)))) (k0_hw62 : k0_chk62 i (arg2.view.readAt (Elt F) (Rect.unit (s := S1x8x16) ![0, 3, 13] S1x1x1.size inb_S1x8x16_S1x1x1_0_3_13).toLoadRect (harg2.unread x0) (Shape.Idx.first (numel1_S1x1x1.symm ▸ Nat.one_pos)))) (k0_hw63 : k0_chk63 i (arg2.view.readAt (Elt F) (Rect.unit (s := S1x8x16) ![0, 3, 14] S1x1x1.size inb_S1x8x16_S1x1x1_0_3_14).toLoadRect (harg2.unread x0) (Shape.Idx.first (numel1_S1x1x1.symm ▸ Nat.one_pos)))) (k0_hw64 : k0_chk64 i (arg2.view.readAt (Elt F) (Rect.unit (s := S1x8x16) ![0, 3, 15] S1x1x1.size inb_S1x8x16_S1x1x1_0_3_15).toLoadRect (harg2.unread x0) (Shape.Idx.first (numel1_S1x1x1.symm ▸ Nat.one_pos)))) (k0_hw65 : k0_chk65 i (arg2.view.readAt (Elt F) (Rect.unit (s := S1x8x16) ![0, 4, 0] S1x1x1.size inb_S1x8x16_S1x1x1_0_4_0).toLoadRect (harg2.unread x0) (Shape.Idx.first (numel1_S1x1x1.symm ▸ Nat.one_pos)))) (k0_hw66 : k0_chk66 i (arg2.view.readAt (Elt F) (Rect.unit (s := S1x8x16) ![0, 4, 1] S1x1x1.size inb_S1x8x16_S1x1x1_0_4_1).toLoadRect (harg2.unread x0) (Shape.Idx.first (numel1_S1x1x1.symm ▸ Nat.one_pos)))) (k0_hw67 : k0_chk67 i (arg2.view.readAt (Elt F) (Rect.unit (s := S1x8x16) ![0, 4, 2] S1x1x1.size inb_S1x8x16_S1x1x1_0_4_2).toLoadRect (harg2.unread x0) (Shape.Idx.first (numel1_S1x1x1.symm ▸ Nat.one_pos)))) (k0_hw68 : k0_chk68 i (arg2.view.readAt (Elt F) (Rect.unit (s := S1x8x16) ![0, 4, 3] S1x1x1.size inb_S1x8x16_S1x1x1_0_4_3).toLoadRect (harg2.unread x0) (Shape.Idx.first (numel1_S1x1x1.symm ▸ Nat.one_pos)))) (k0_hw69 : k0_chk69 i (arg2.view.readAt (Elt F) (Rect.unit (s := S1x8x16) ![0, 4, 4] S1x1x1.size inb_S1x8x16_S1x1x1_0_4_4).toLoadRect (harg2.unread x0) (Shape.Idx.first (numel1_S1x1x1.symm ▸ Nat.one_pos)))) (k0_hw70 : k0_chk70 i (arg2.view.readAt (Elt F) (Rect.unit (s := S1x8x16) ![0, 4, 5] S1x1x1.size inb_S1x8x16_S1x1x1_0_4_5).toLoadRect (harg2.unread x0) (Shape.Idx.first (numel1_S1x1x1.symm ▸ Nat.one_pos)))) (k0_hw71 : k0_chk71 i (arg2.view.readAt (Elt F) (Rect.unit (s := S1x8x16) ![0, 4, 6] S1x1x1.size inb_S1x8x16_S1x1x1_0_4_6).toLoadRect (harg2.unread x0) (Shape.Idx.first (numel1_S1x1x1.symm ▸ Nat.one_pos)))) (k0_hw72 : k0_chk72 i (arg2.view.readAt (Elt F) (Rect.unit (s := S1x8x16) ![0, 4, 7] S1x1x1.size inb_S1x8x16_S1x1x1_0_4_7).toLoadRect (harg2.unread x0) (Shape.Idx.first (numel1_S1x1x1.symm ▸ Nat.one_pos)))) (k0_hw73 : k0_chk73 i (arg2.view.readAt (Elt F) (Rect.unit (s := S1x8x16) ![0, 4, 8] S1x1x1.size inb_S1x8x16_S1x1x1_0_4_8).toLoadRect (harg2.unread x0) (Shape.Idx.first (numel1_S1x1x1.symm ▸ Nat.one_pos)))) (k0_hw74 : k0_chk74 i (arg2.view.readAt (Elt F) (Rect.unit (s := S1x8x16) ![0, 4, 9] S1x1x1.size inb_S1x8x16_S1x1x1_0_4_9).toLoadRect (harg2.unread x0) (Shape.Idx.first (numel1_S1x1x1.symm ▸ Nat.one_pos)))) (k0_hw75 : k0_chk75 i (arg2.view.readAt (Elt F) (Rect.unit (s := S1x8x16) ![0, 4, 10] S1x1x1.size inb_S1x8x16_S1x1x1_0_4_10).toLoadRect (harg2.unread x0) (Shape.Idx.first (numel1_S1x1x1.symm ▸ Nat.one_pos)))) (k0_hw76 : k0_chk76 i (arg2.view.readAt (Elt F) (Rect.unit (s := S1x8x16) ![0, 4, 11] S1x1x1.size inb_S1x8x16_S1x1x1_0_4_11).toLoadRect (harg2.unread x0) (Shape.Idx.first (numel1_S1x1x1.symm ▸ Nat.one_pos)))) (k0_hw77 : k0_chk77 i (arg2.view.readAt (Elt F) (Rect.unit (s := S1x8x16) ![0, 4, 12] S1x1x1.size inb_S1x8x16_S1x1x1_0_4_12).toLoadRect (harg2.unread x0) (Shape.Idx.first (numel1_S1x1x1.symm ▸ Nat.one_pos)))) (k0_hw78 : k0_chk78 i (arg2.view.readAt (Elt F) (Rect.unit (s := S1x8x16) ![0, 4, 13] S1x1x1.size inb_S1x8x16_S1x1x1_0_4_13).toLoadRect (harg2.unread x0) (Shape.Idx.first (numel1_S1x1x1.symm ▸ Nat.one_pos)))) (k0_hw79 : k0_chk79 i (arg2.view.readAt (Elt F) (Rect.unit (s := S1x8x16) ![0, 4, 14] S1x1x1.size inb_S1x8x16_S1x1x1_0_4_14).toLoadRect (harg2.unread x0) (Shape.Idx.first (numel1_S1x1x1.symm ▸ Nat.one_pos)))) (k0_hw80 : k0_chk80 i (arg2.view.readAt (Elt F) (Rect.unit (s := S1x8x16) ![0, 4, 15] S1x1x1.size inb_S1x8x16_S1x1x1_0_4_15).toLoadRect (harg2.unread x0) (Shape.Idx.first (numel1_S1x1x1.symm ▸ Nat.one_pos)))) (k0_hw81 : k0_chk81 i (arg2.view.readAt (Elt F) (Rect.unit (s := S1x8x16) ![0, 5, 0] S1x1x1.size inb_S1x8x16_S1x1x1_0_5_0).toLoadRect (harg2.unread x0) (Shape.Idx.first (numel1_S1x1x1.symm ▸ Nat.one_pos)))) (k0_hw82 : k0_chk82 i (arg2.view.readAt (Elt F) (Rect.unit (s := S1x8x16) ![0, 5, 1] S1x1x1.size inb_S1x8x16_S1x1x1_0_5_1).toLoadRect (harg2.unread x0) (Shape.Idx.first (numel1_S1x1x1.symm ▸ Nat.one_pos)))) (k0_hw83 : k0_chk83 i (arg2.view.readAt (Elt F) (Rect.unit (s := S1x8x16) ![0, 5, 2] S1x1x1.size inb_S1x8x16_S1x1x1_0_5_2).toLoadRect (harg2.unread x0) (Shape.Idx.first (numel1_S1x1x1.symm ▸ Nat.one_pos)))) (k0_hw84 : k0_chk84 i (arg2.view.readAt (Elt F) (Rect.unit (s := S1x8x16) ![0, 5, 3] S1x1x1.size inb_S1x8x16_S1x1x1_0_5_3).toLoadRect (harg2.unread x0) (Shape.Idx.first (numel1_S1x1x1.symm ▸ Nat.one_pos)))) (k0_hw85 : k0_chk85 i (arg2.view.readAt (Elt F) (Rect.unit (s := S1x8x16) ![0, 5, 4] S1x1x1.size inb_S1x8x16_S1x1x1_0_5_4).toLoadRect (harg2.unread x0) (Shape.Idx.first (numel1_S1x1x1.symm ▸ Nat.one_pos)))) (k0_hw86 : k0_chk86 i (arg2.view.readAt (Elt F) (Rect.unit (s := S1x8x16) ![0, 5, 5] S1x1x1.size inb_S1x8x16_S1x1x1_0_5_5).toLoadRect (harg2.unread x0) (Shape.Idx.first (numel1_S1x1x1.symm ▸ Nat.one_pos)))) (k0_hw87 : k0_chk87 i (arg2.view.readAt (Elt F) (Rect.unit (s := S1x8x16) ![0, 5, 6] S1x1x1.size inb_S1x8x16_S1x1x1_0_5_6).toLoadRect (harg2.unread x0) (Shape.Idx.first (numel1_S1x1x1.symm ▸ Nat.one_pos)))) (k0_hw88 : k0_chk88 i (arg2.view.readAt (Elt F) (Rect.unit (s := S1x8x16) ![0, 5, 7] S1x1x1.size inb_S1x8x16_S1x1x1_0_5_7).toLoadRect (harg2.unread x0) (Shape.Idx.first (numel1_S1x1x1.symm ▸ Nat.one_pos)))) (k0_hw89 : k0_chk89 i (arg2.view.readAt (Elt F) (Rect.unit (s := S1x8x16) ![0, 5, 8] S1x1x1.size inb_S1x8x16_S1x1x1_0_5_8).toLoadRect (harg2.unread x0) (Shape.Idx.first (numel1_S1x1x1.symm ▸ Nat.one_pos)))) (k0_hw90 : k0_chk90 i (arg2.view.readAt (Elt F) (Rect.unit (s := S1x8x16) ![0, 5, 9] S1x1x1.size inb_S1x8x16_S1x1x1_0_5_9).toLoadRect (harg2.unread x0) (Shape.Idx.first (numel1_S1x1x1.symm ▸ Nat.one_pos)))) (k0_hw91 : k0_chk91 i (arg2.view.readAt (Elt F) (Rect.unit (s := S1x8x16) ![0, 5, 10] S1x1x1.size inb_S1x8x16_S1x1x1_0_5_10).toLoadRect (harg2.unread x0) (Shape.Idx.first (numel1_S1x1x1.symm ▸ Nat.one_pos)))) (k0_hw92 : k0_chk92 i (arg2.view.readAt (Elt F) (Rect.unit (s := S1x8x16) ![0, 5, 11] S1x1x1.size inb_S1x8x16_S1x1x1_0_5_11).toLoadRect (harg2.unread x0) (Shape.Idx.first (numel1_S1x1x1.symm ▸ Nat.one_pos)))) (k0_hw93 : k0_chk93 i (arg2.view.readAt (Elt F) (Rect.unit (s := S1x8x16) ![0, 5, 12] S1x1x1.size inb_S1x8x16_S1x1x1_0_5_12).toLoadRect (harg2.unread x0) (Shape.Idx.first (numel1_S1x1x1.symm ▸ Nat.one_pos)))) (k0_hw94 : k0_chk94 i (arg2.view.readAt (Elt F) (Rect.unit (s := S1x8x16) ![0, 5, 13] S1x1x1.size inb_S1x8x16_S1x1x1_0_5_13).toLoadRect (harg2.unread x0) (Shape.Idx.first (numel1_S1x1x1.symm ▸ Nat.one_pos)))) (k0_hw95 : k0_chk95 i (arg2.view.readAt (Elt F) (Rect.unit (s := S1x8x16) ![0, 5, 14] S1x1x1.size inb_S1x8x16_S1x1x1_0_5_14).toLoadRect (harg2.unread x0) (Shape.Idx.first (numel1_S1x1x1.symm ▸ Nat.one_pos)))) (k0_hw96 : k0_chk96 i (arg2.view.readAt (Elt F) (Rect.unit (s := S1x8x16) ![0, 5, 15] S1x1x1.size inb_S1x8x16_S1x1x1_0_5_15).toLoadRect (harg2.unread x0) (Shape.Idx.first (numel1_S1x1x1.symm ▸ Nat.one_pos)))) (k0_hw97 : k0_chk97 i (arg2.view.readAt (Elt F) (Rect.unit (s := S1x8x16) ![0, 6, 0] S1x1x1.size inb_S1x8x16_S1x1x1_0_6_0).toLoadRect (harg2.unread x0) (Shape.Idx.first (numel1_S1x1x1.symm ▸ Nat.one_pos)))) (k0_hw98 : k0_chk98 i (arg2.view.readAt (Elt F) (Rect.unit (s := S1x8x16) ![0, 6, 1] S1x1x1.size inb_S1x8x16_S1x1x1_0_6_1).toLoadRect (harg2.unread x0) (Shape.Idx.first (numel1_S1x1x1.symm ▸ Nat.one_pos)))) (k0_hw99 : k0_chk99 i (arg2.view.readAt (Elt F) (Rect.unit (s := S1x8x16) ![0, 6, 2] S1x1x1.size inb_S1x8x16_S1x1x1_0_6_2).toLoadRect (harg2.unread x0) (Shape.Idx.first (numel1_S1x1x1.symm ▸ Nat.one_pos)))) (k0_hw100 : k0_chk100 i (arg2.view.readAt (Elt F) (Rect.unit (s := S1x8x16) ![0, 6, 3] S1x1x1.size inb_S1x8x16_S1x1x1_0_6_3).toLoadRect (harg2.unread x0) (Shape.Idx.first (numel1_S1x1x1.symm ▸ Nat.one_pos)))) (k0_hw101 : k0_chk101 i (arg2.view.readAt (Elt F) (Rect.unit (s := S1x8x16) ![0, 6, 4] S1x1x1.size inb_S1x8x16_S1x1x1_0_6_4).toLoadRect (harg2.unread x0) (Shape.Idx.first (numel1_S1x1x1.symm ▸ Nat.one_pos)))) (k0_hw102 : k0_chk102 i (arg2.view.readAt (Elt F) (Rect.unit (s := S1x8x16) ![0, 6, 5] S1x1x1.size inb_S1x8x16_S1x1x1_0_6_5).toLoadRect (harg2.unread x0) (Shape.Idx.first (numel1_S1x1x1.symm ▸ Nat.one_pos)))) (k0_hw103 : k0_chk103 i (arg2.view.readAt (Elt F) (Rect.unit (s := S1x8x16) ![0, 6, 6] S1x1x1.size inb_S1x8x16_S1x1x1_0_6_6).toLoadRect (harg2.unread x0) (Shape.Idx.first (numel1_S1x1x1.symm ▸ Nat.one_pos)))) (k0_hw104 : k0_chk104 i (arg2.view.readAt (Elt F) (Rect.unit (s := S1x8x16) ![0, 6, 7] S1x1x1.size inb_S1x8x16_S1x1x1_0_6_7).toLoadRect (harg2.unread x0) (Shape.Idx.first (numel1_S1x1x1.symm ▸ Nat.one_pos)))) (k0_hw105 : k0_chk105 i (arg2.view.readAt (Elt F) (Rect.unit (s := S1x8x16) ![0, 6, 8] S1x1x1.size inb_S1x8x16_S1x1x1_0_6_8).toLoadRect (harg2.unread x0) (Shape.Idx.first (numel1_S1x1x1.symm ▸ Nat.one_pos)))) (k0_hw106 : k0_chk106 i (arg2.view.readAt (Elt F) (Rect.unit (s := S1x8x16) ![0, 6, 9] S1x1x1.size inb_S1x8x16_S1x1x1_0_6_9).toLoadRect (harg2.unread x0) (Shape.Idx.first (numel1_S1x1x1.symm ▸ Nat.one_pos)))) (k0_hw107 : k0_chk107 i (arg2.view.readAt (Elt F) (Rect.unit (s := S1x8x16) ![0, 6, 10] S1x1x1.size inb_S1x8x16_S1x1x1_0_6_10).toLoadRect (harg2.unread x0) (Shape.Idx.first (numel1_S1x1x1.symm ▸ Nat.one_pos)))) (k0_hw108 : k0_chk108 i (arg2.view.readAt (Elt F) (Rect.unit (s := S1x8x16) ![0, 6, 11] S1x1x1.size inb_S1x8x16_S1x1x1_0_6_11).toLoadRect (harg2.unread x0) (Shape.Idx.first (numel1_S1x1x1.symm ▸ Nat.one_pos)))) (k0_hw109 : k0_chk109 i (arg2.view.readAt (Elt F) (Rect.unit (s := S1x8x16) ![0, 6, 12] S1x1x1.size inb_S1x8x16_S1x1x1_0_6_12).toLoadRect (harg2.unread x0) (Shape.Idx.first (numel1_S1x1x1.symm ▸ Nat.one_pos)))) (k0_hw110 : k0_chk110 i (arg2.view.readAt (Elt F) (Rect.unit (s := S1x8x16) ![0, 6, 13] S1x1x1.size inb_S1x8x16_S1x1x1_0_6_13).toLoadRect (harg2.unread x0) (Shape.Idx.first (numel1_S1x1x1.symm ▸ Nat.one_pos)))) (k0_hw111 : k0_chk111 i (arg2.view.readAt (Elt F) (Rect.unit (s := S1x8x16) ![0, 6, 14] S1x1x1.size inb_S1x8x16_S1x1x1_0_6_14).toLoadRect (harg2.unread x0) (Shape.Idx.first (numel1_S1x1x1.symm ▸ Nat.one_pos)))) (k0_hw112 : k0_chk112 i (arg2.view.readAt (Elt F) (Rect.unit (s := S1x8x16) ![0, 6, 15] S1x1x1.size inb_S1x8x16_S1x1x1_0_6_15).toLoadRect (harg2.unread x0) (Shape.Idx.first (numel1_S1x1x1.symm ▸ Nat.one_pos)))) (k0_hw113 : k0_chk113 i (arg2.view.readAt (Elt F) (Rect.unit (s := S1x8x16) ![0, 7, 0] S1x1x1.size inb_S1x8x16_S1x1x1_0_7_0).toLoadRect (harg2.unread x0) (Shape.Idx.first (numel1_S1x1x1.symm ▸ Nat.one_pos)))) (k0_hw114 : k0_chk114 i (arg2.view.readAt (Elt F) (Rect.unit (s := S1x8x16) ![0, 7, 1] S1x1x1.size inb_S1x8x16_S1x1x1_0_7_1).toLoadRect (harg2.unread x0) (Shape.Idx.first (numel1_S1x1x1.symm ▸ Nat.one_pos)))) (k0_hw115 : k0_chk115 i (arg2.view.readAt (Elt F) (Rect.unit (s := S1x8x16) ![0, 7, 2] S1x1x1.size inb_S1x8x16_S1x1x1_0_7_2).toLoadRect (harg2.unread x0) (Shape.Idx.first (numel1_S1x1x1.symm ▸ Nat.one_pos)))) (k0_hw116 : k0_chk116 i (arg2.view.readAt (Elt F) (Rect.unit (s := S1x8x16) ![0, 7, 3] S1x1x1.size inb_S1x8x16_S1x1x1_0_7_3).toLoadRect (harg2.unread x0) (Shape.Idx.first (numel1_S1x1x1.symm ▸ Nat.one_pos)))) (k0_hw117 : k0_chk117 i (arg2.view.readAt (Elt F) (Rect.unit (s := S1x8x16) ![0, 7, 4] S1x1x1.size inb_S1x8x16_S1x1x1_0_7_4).toLoadRect (harg2.unread x0) (Shape.Idx.first (numel1_S1x1x1.symm ▸ Nat.one_pos)))) (k0_hw118 : k0_chk118 i (arg2.view.readAt (Elt F) (Rect.unit (s := S1x8x16) ![0, 7, 5] S1x1x1.size inb_S1x8x16_S1x1x1_0_7_5).toLoadRect (harg2.unread x0) (Shape.Idx.first (numel1_S1x1x1.symm ▸ Nat.one_pos)))) (k0_hw119 : k0_chk119 i (arg2.view.readAt (Elt F) (Rect.unit (s := S1x8x16) ![0, 7, 6] S1x1x1.size inb_S1x8x16_S1x1x1_0_7_6).toLoadRect (harg2.unread x0) (Shape.Idx.first (numel1_S1x1x1.symm ▸ Nat.one_pos)))) (k0_hw120 : k0_chk120 i (arg2.view.readAt (Elt F) (Rect.unit (s := S1x8x16) ![0, 7, 7] S1x1x1.size inb_S1x8x16_S1x1x1_0_7_7).toLoadRect (harg2.unread x0) (Shape.Idx.first (numel1_S1x1x1.symm ▸ Nat.one_pos)))) (k0_hw121 : k0_chk121 i (arg2.view.readAt (Elt F) (Rect.unit (s := S1x8x16) ![0, 7, 8] S1x1x1.size inb_S1x8x16_S1x1x1_0_7_8).toLoadRect (harg2.unread x0) (Shape.Idx.first (numel1_S1x1x1.symm ▸ Nat.one_pos)))) (k0_hw122 : k0_chk122 i (arg2.view.readAt (Elt F) (Rect.unit (s := S1x8x16) ![0, 7, 9] S1x1x1.size inb_S1x8x16_S1x1x1_0_7_9).toLoadRect (harg2.unread x0) (Shape.Idx.first (numel1_S1x1x1.symm ▸ Nat.one_pos)))) (k0_hw123 : k0_chk123 i (arg2.view.readAt (Elt F) (Rect.unit (s := S1x8x16) ![0, 7, 10] S1x1x1.size inb_S1x8x16_S1x1x1_0_7_10).toLoadRect (harg2.unread x0) (Shape.Idx.first (numel1_S1x1x1.symm ▸ Nat.one_pos)))) (k0_hw124 : k0_chk124 i (arg2.view.readAt (Elt F) (Rect.unit (s := S1x8x16) ![0, 7, 11] S1x1x1.size inb_S1x8x16_S1x1x1_0_7_11).toLoadRect (harg2.unread x0) (Shape.Idx.first (numel1_S1x1x1.symm ▸ Nat.one_pos)))) (k0_hw125 : k0_chk125 i (arg2.view.readAt (Elt F) (Rect.unit (s := S1x8x16) ![0, 7, 12] S1x1x1.size inb_S1x8x16_S1x1x1_0_7_12).toLoadRect (harg2.unread x0) (Shape.Idx.first (numel1_S1x1x1.symm ▸ Nat.one_pos)))) (k0_hw126 : k0_chk126 i (arg2.view.readAt (Elt F) (Rect.unit (s := S1x8x16) ![0, 7, 13] S1x1x1.size inb_S1x8x16_S1x1x1_0_7_13).toLoadRect (harg2.unread x0) (Shape.Idx.first (numel1_S1x1x1.symm ▸ Nat.one_pos)))) (k0_hw127 : k0_chk127 i (arg2.view.readAt (Elt F) (Rect.unit (s := S1x8x16) ![0, 7, 14] S1x1x1.size inb_S1x8x16_S1x1x1_0_7_14).toLoadRect (harg2.unread x0) (Shape.Idx.first (numel1_S1x1x1.symm ▸ Nat.one_pos)))) (k0_hw128 : k0_chk128 i (arg2.view.readAt (Elt F) (Rect.unit (s := S1x8x16) ![0, 7, 15] S1x1x1.size inb_S1x8x16_S1x1x1_0_7_15).toLoadRect (harg2.unread x0) (Shape.Idx.first (numel1_S1x1x1.symm ▸ Nat.one_pos)))) :
    { L1 : List (View.Piece (Elt F) S1x8x128 .f32) //
      ∀ (W : Waits sig Unit) (K : PUnit → sProp 𝕄),
        iprop(owns (c : Thread nD τ) arg2 fullShare x0 ∗ (∃ d, owns (c : Thread nD τ) arg4 fullShare d) ∗ (∃ d, owns (c : Thread nD τ) arg5 fullShare d) ∗ (∃ d, owns (c : Thread nD τ) arg6 fullShare d) ∗ semVal ((c : Thread nD τ), SemLoc.dma 4) 0 ∗ semVal ((c : Thread nD τ), SemLoc.dma 5) 0 ∗ hbPt0 c hbM0_0 fh0 ∗ owes (c : Thread nD τ) 0 W
            ∗ (iprop(owns (c : Thread nD τ) arg2 fullShare x0 ∗ (∃ f, arg4.view.loc (c : Thread nD τ) ↦[arg4.view.set]{fullShare} arg4.view.writes (Elt F) f L1) ∗ (∃ d, owns (c : Thread nD τ) arg5 fullShare d) ∗ (∃ d, owns (c : Thread nD τ) arg6 fullShare d) ∗ semVal ((c : Thread nD τ), SemLoc.dma 4) 0 ∗ semVal ((c : Thread nD τ), SemLoc.dma 5) 0 ∗ hbPt0 c hbM0_0 fh0 ∗ (∃ W', owes (c : Thread nD τ) 0 W')) -∗ K ⟨⟩))
          ⊢ wp frame (wpE (defs₀ (F := F)) Variants.none c none) Set.univ (cc0__gather_max_kernel i arg2 harg2 (Memref.whole main_v1) (Memref.isWhole_whole _) arg4 harg4 arg5 harg5 arg6 harg6 cc0_scratch2) K } :=
  ⟨[(⟨Rect.unit (s := S1x8x128) ![0, 0, 0] ![1, 8, 128] inb_S1x8x128_S1x8x128_0_0_0, outBlock c i x0 fh0⟩ : View.Piece (Elt F) S1x8x128 .f32)],
    fun W K => by
      unfold owns
      iintro ⟨H0, ⟨%d1, %f1, -, H1⟩, ⟨%ds0, %fs0, -, HS0⟩, ⟨%ds1, %fs1, -, HS1⟩, Hq0, Hq1, Hh0, HW, Hk⟩
      have h := (kernelRunRaw0_A c i arg2 harg2 arg4 harg4 arg5 harg5 arg6 harg6 x0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64 k0_hw65 k0_hw66 k0_hw67 k0_hw68 k0_hw69 k0_hw70 k0_hw71 k0_hw72 k0_hw73 k0_hw74 k0_hw75 k0_hw76 k0_hw77 k0_hw78 k0_hw79 k0_hw80 k0_hw81 k0_hw82 k0_hw83 k0_hw84 k0_hw85 k0_hw86 k0_hw87 k0_hw88 k0_hw89 k0_hw90 k0_hw91 k0_hw92 k0_hw93 k0_hw94 k0_hw95 k0_hw96 k0_hw97 k0_hw98 k0_hw99 k0_hw100 k0_hw101 k0_hw102 k0_hw103 k0_hw104 k0_hw105 k0_hw106 k0_hw107 k0_hw108 k0_hw109 k0_hw110 k0_hw111 k0_hw112 k0_hw113 k0_hw114 k0_hw115 k0_hw116 k0_hw117 k0_hw118 k0_hw119 k0_hw120 k0_hw121 k0_hw122 k0_hw123 k0_hw124 k0_hw125 k0_hw126 k0_hw127 k0_hw128 f1 fs0 fs1).property W K
      rw [raw_val c i arg2 harg2 arg4 harg4 arg5 harg5 arg6 harg6 x0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64 k0_hw65 k0_hw66 k0_hw67 k0_hw68 k0_hw69 k0_hw70 k0_hw71 k0_hw72 k0_hw73 k0_hw74 k0_hw75 k0_hw76 k0_hw77 k0_hw78 k0_hw79 k0_hw80 k0_hw81 k0_hw82 k0_hw83 k0_hw84 k0_hw85 k0_hw86 k0_hw87 k0_hw88 k0_hw89 k0_hw90 k0_hw91 k0_hw92 k0_hw93 k0_hw94 k0_hw95 k0_hw96 k0_hw97 k0_hw98 k0_hw99 k0_hw100 k0_hw101 k0_hw102 k0_hw103 k0_hw104 k0_hw105 k0_hw106 k0_hw107 k0_hw108 k0_hw109 k0_hw110 k0_hw111 k0_hw112 k0_hw113 k0_hw114 k0_hw115 k0_hw116 k0_hw117 k0_hw118 k0_hw119 k0_hw120 k0_hw121 k0_hw122 k0_hw123 k0_hw124 k0_hw125 k0_hw126 k0_hw127 k0_hw128 f1 fs0 fs1] at h
      unfold owns at h
      iapply h
      isplitl [H0]; · iexact H0
      isplitl [H1]; · iexact H1
      isplitl [HS0]; · iexact HS0
      isplitl [HS1]; · iexact HS1
      isplitl [Hq0]; · iexact Hq0
      isplitl [Hq1]; · iexact Hq1
      isplitl [Hh0]; · iexact Hh0
      isplitl [HW]; · iexact HW
      iexact Hk⟩

/-- The closed list of pieces, by unfolding. -/
theorem run_val (c : Dev nD) (i : grid0.Coords) (arg2 : Memref sig .tc .smem S1x8x16 .i32) (harg2 : arg2.IsWhole) (arg4 : Memref sig .tc .vmem S1x8x128 .f32) (harg4 : arg4.IsWhole) (arg5 : Memref sig .tc .vmem S8x128 .f32) (harg5 : arg5.IsWhole) (arg6 : Memref sig .tc .vmem S2x1x128 .f32) (harg6 : arg6.IsWhole)
    (x0 : Vec F S1x8x16 .i32) (fh0 : HbBuf0 (F := F) c hbM0_0) (k0_hw1 : k0_chk1 i (arg2.view.readAt (Elt F) (Rect.unit (s := S1x8x16) ![0, 0, 0] S1x1x1.size inb_S1x8x16_S1x1x1_0_0_0).toLoadRect (harg2.unread x0) (Shape.Idx.first (numel1_S1x1x1.symm ▸ Nat.one_pos)))) (k0_hw2 : k0_chk2 i (arg2.view.readAt (Elt F) (Rect.unit (s := S1x8x16) ![0, 0, 1] S1x1x1.size inb_S1x8x16_S1x1x1_0_0_1).toLoadRect (harg2.unread x0) (Shape.Idx.first (numel1_S1x1x1.symm ▸ Nat.one_pos)))) (k0_hw3 : k0_chk3 i (arg2.view.readAt (Elt F) (Rect.unit (s := S1x8x16) ![0, 0, 2] S1x1x1.size inb_S1x8x16_S1x1x1_0_0_2).toLoadRect (harg2.unread x0) (Shape.Idx.first (numel1_S1x1x1.symm ▸ Nat.one_pos)))) (k0_hw4 : k0_chk4 i (arg2.view.readAt (Elt F) (Rect.unit (s := S1x8x16) ![0, 0, 3] S1x1x1.size inb_S1x8x16_S1x1x1_0_0_3).toLoadRect (harg2.unread x0) (Shape.Idx.first (numel1_S1x1x1.symm ▸ Nat.one_pos)))) (k0_hw5 : k0_chk5 i (arg2.view.readAt (Elt F) (Rect.unit (s := S1x8x16) ![0, 0, 4] S1x1x1.size inb_S1x8x16_S1x1x1_0_0_4).toLoadRect (harg2.unread x0) (Shape.Idx.first (numel1_S1x1x1.symm ▸ Nat.one_pos)))) (k0_hw6 : k0_chk6 i (arg2.view.readAt (Elt F) (Rect.unit (s := S1x8x16) ![0, 0, 5] S1x1x1.size inb_S1x8x16_S1x1x1_0_0_5).toLoadRect (harg2.unread x0) (Shape.Idx.first (numel1_S1x1x1.symm ▸ Nat.one_pos)))) (k0_hw7 : k0_chk7 i (arg2.view.readAt (Elt F) (Rect.unit (s := S1x8x16) ![0, 0, 6] S1x1x1.size inb_S1x8x16_S1x1x1_0_0_6).toLoadRect (harg2.unread x0) (Shape.Idx.first (numel1_S1x1x1.symm ▸ Nat.one_pos)))) (k0_hw8 : k0_chk8 i (arg2.view.readAt (Elt F) (Rect.unit (s := S1x8x16) ![0, 0, 7] S1x1x1.size inb_S1x8x16_S1x1x1_0_0_7).toLoadRect (harg2.unread x0) (Shape.Idx.first (numel1_S1x1x1.symm ▸ Nat.one_pos)))) (k0_hw9 : k0_chk9 i (arg2.view.readAt (Elt F) (Rect.unit (s := S1x8x16) ![0, 0, 8] S1x1x1.size inb_S1x8x16_S1x1x1_0_0_8).toLoadRect (harg2.unread x0) (Shape.Idx.first (numel1_S1x1x1.symm ▸ Nat.one_pos)))) (k0_hw10 : k0_chk10 i (arg2.view.readAt (Elt F) (Rect.unit (s := S1x8x16) ![0, 0, 9] S1x1x1.size inb_S1x8x16_S1x1x1_0_0_9).toLoadRect (harg2.unread x0) (Shape.Idx.first (numel1_S1x1x1.symm ▸ Nat.one_pos)))) (k0_hw11 : k0_chk11 i (arg2.view.readAt (Elt F) (Rect.unit (s := S1x8x16) ![0, 0, 10] S1x1x1.size inb_S1x8x16_S1x1x1_0_0_10).toLoadRect (harg2.unread x0) (Shape.Idx.first (numel1_S1x1x1.symm ▸ Nat.one_pos)))) (k0_hw12 : k0_chk12 i (arg2.view.readAt (Elt F) (Rect.unit (s := S1x8x16) ![0, 0, 11] S1x1x1.size inb_S1x8x16_S1x1x1_0_0_11).toLoadRect (harg2.unread x0) (Shape.Idx.first (numel1_S1x1x1.symm ▸ Nat.one_pos)))) (k0_hw13 : k0_chk13 i (arg2.view.readAt (Elt F) (Rect.unit (s := S1x8x16) ![0, 0, 12] S1x1x1.size inb_S1x8x16_S1x1x1_0_0_12).toLoadRect (harg2.unread x0) (Shape.Idx.first (numel1_S1x1x1.symm ▸ Nat.one_pos)))) (k0_hw14 : k0_chk14 i (arg2.view.readAt (Elt F) (Rect.unit (s := S1x8x16) ![0, 0, 13] S1x1x1.size inb_S1x8x16_S1x1x1_0_0_13).toLoadRect (harg2.unread x0) (Shape.Idx.first (numel1_S1x1x1.symm ▸ Nat.one_pos)))) (k0_hw15 : k0_chk15 i (arg2.view.readAt (Elt F) (Rect.unit (s := S1x8x16) ![0, 0, 14] S1x1x1.size inb_S1x8x16_S1x1x1_0_0_14).toLoadRect (harg2.unread x0) (Shape.Idx.first (numel1_S1x1x1.symm ▸ Nat.one_pos)))) (k0_hw16 : k0_chk16 i (arg2.view.readAt (Elt F) (Rect.unit (s := S1x8x16) ![0, 0, 15] S1x1x1.size inb_S1x8x16_S1x1x1_0_0_15).toLoadRect (harg2.unread x0) (Shape.Idx.first (numel1_S1x1x1.symm ▸ Nat.one_pos)))) (k0_hw17 : k0_chk17 i (arg2.view.readAt (Elt F) (Rect.unit (s := S1x8x16) ![0, 1, 0] S1x1x1.size inb_S1x8x16_S1x1x1_0_1_0).toLoadRect (harg2.unread x0) (Shape.Idx.first (numel1_S1x1x1.symm ▸ Nat.one_pos)))) (k0_hw18 : k0_chk18 i (arg2.view.readAt (Elt F) (Rect.unit (s := S1x8x16) ![0, 1, 1] S1x1x1.size inb_S1x8x16_S1x1x1_0_1_1).toLoadRect (harg2.unread x0) (Shape.Idx.first (numel1_S1x1x1.symm ▸ Nat.one_pos)))) (k0_hw19 : k0_chk19 i (arg2.view.readAt (Elt F) (Rect.unit (s := S1x8x16) ![0, 1, 2] S1x1x1.size inb_S1x8x16_S1x1x1_0_1_2).toLoadRect (harg2.unread x0) (Shape.Idx.first (numel1_S1x1x1.symm ▸ Nat.one_pos)))) (k0_hw20 : k0_chk20 i (arg2.view.readAt (Elt F) (Rect.unit (s := S1x8x16) ![0, 1, 3] S1x1x1.size inb_S1x8x16_S1x1x1_0_1_3).toLoadRect (harg2.unread x0) (Shape.Idx.first (numel1_S1x1x1.symm ▸ Nat.one_pos)))) (k0_hw21 : k0_chk21 i (arg2.view.readAt (Elt F) (Rect.unit (s := S1x8x16) ![0, 1, 4] S1x1x1.size inb_S1x8x16_S1x1x1_0_1_4).toLoadRect (harg2.unread x0) (Shape.Idx.first (numel1_S1x1x1.symm ▸ Nat.one_pos)))) (k0_hw22 : k0_chk22 i (arg2.view.readAt (Elt F) (Rect.unit (s := S1x8x16) ![0, 1, 5] S1x1x1.size inb_S1x8x16_S1x1x1_0_1_5).toLoadRect (harg2.unread x0) (Shape.Idx.first (numel1_S1x1x1.symm ▸ Nat.one_pos)))) (k0_hw23 : k0_chk23 i (arg2.view.readAt (Elt F) (Rect.unit (s := S1x8x16) ![0, 1, 6] S1x1x1.size inb_S1x8x16_S1x1x1_0_1_6).toLoadRect (harg2.unread x0) (Shape.Idx.first (numel1_S1x1x1.symm ▸ Nat.one_pos)))) (k0_hw24 : k0_chk24 i (arg2.view.readAt (Elt F) (Rect.unit (s := S1x8x16) ![0, 1, 7] S1x1x1.size inb_S1x8x16_S1x1x1_0_1_7).toLoadRect (harg2.unread x0) (Shape.Idx.first (numel1_S1x1x1.symm ▸ Nat.one_pos)))) (k0_hw25 : k0_chk25 i (arg2.view.readAt (Elt F) (Rect.unit (s := S1x8x16) ![0, 1, 8] S1x1x1.size inb_S1x8x16_S1x1x1_0_1_8).toLoadRect (harg2.unread x0) (Shape.Idx.first (numel1_S1x1x1.symm ▸ Nat.one_pos)))) (k0_hw26 : k0_chk26 i (arg2.view.readAt (Elt F) (Rect.unit (s := S1x8x16) ![0, 1, 9] S1x1x1.size inb_S1x8x16_S1x1x1_0_1_9).toLoadRect (harg2.unread x0) (Shape.Idx.first (numel1_S1x1x1.symm ▸ Nat.one_pos)))) (k0_hw27 : k0_chk27 i (arg2.view.readAt (Elt F) (Rect.unit (s := S1x8x16) ![0, 1, 10] S1x1x1.size inb_S1x8x16_S1x1x1_0_1_10).toLoadRect (harg2.unread x0) (Shape.Idx.first (numel1_S1x1x1.symm ▸ Nat.one_pos)))) (k0_hw28 : k0_chk28 i (arg2.view.readAt (Elt F) (Rect.unit (s := S1x8x16) ![0, 1, 11] S1x1x1.size inb_S1x8x16_S1x1x1_0_1_11).toLoadRect (harg2.unread x0) (Shape.Idx.first (numel1_S1x1x1.symm ▸ Nat.one_pos)))) (k0_hw29 : k0_chk29 i (arg2.view.readAt (Elt F) (Rect.unit (s := S1x8x16) ![0, 1, 12] S1x1x1.size inb_S1x8x16_S1x1x1_0_1_12).toLoadRect (harg2.unread x0) (Shape.Idx.first (numel1_S1x1x1.symm ▸ Nat.one_pos)))) (k0_hw30 : k0_chk30 i (arg2.view.readAt (Elt F) (Rect.unit (s := S1x8x16) ![0, 1, 13] S1x1x1.size inb_S1x8x16_S1x1x1_0_1_13).toLoadRect (harg2.unread x0) (Shape.Idx.first (numel1_S1x1x1.symm ▸ Nat.one_pos)))) (k0_hw31 : k0_chk31 i (arg2.view.readAt (Elt F) (Rect.unit (s := S1x8x16) ![0, 1, 14] S1x1x1.size inb_S1x8x16_S1x1x1_0_1_14).toLoadRect (harg2.unread x0) (Shape.Idx.first (numel1_S1x1x1.symm ▸ Nat.one_pos)))) (k0_hw32 : k0_chk32 i (arg2.view.readAt (Elt F) (Rect.unit (s := S1x8x16) ![0, 1, 15] S1x1x1.size inb_S1x8x16_S1x1x1_0_1_15).toLoadRect (harg2.unread x0) (Shape.Idx.first (numel1_S1x1x1.symm ▸ Nat.one_pos)))) (k0_hw33 : k0_chk33 i (arg2.view.readAt (Elt F) (Rect.unit (s := S1x8x16) ![0, 2, 0] S1x1x1.size inb_S1x8x16_S1x1x1_0_2_0).toLoadRect (harg2.unread x0) (Shape.Idx.first (numel1_S1x1x1.symm ▸ Nat.one_pos)))) (k0_hw34 : k0_chk34 i (arg2.view.readAt (Elt F) (Rect.unit (s := S1x8x16) ![0, 2, 1] S1x1x1.size inb_S1x8x16_S1x1x1_0_2_1).toLoadRect (harg2.unread x0) (Shape.Idx.first (numel1_S1x1x1.symm ▸ Nat.one_pos)))) (k0_hw35 : k0_chk35 i (arg2.view.readAt (Elt F) (Rect.unit (s := S1x8x16) ![0, 2, 2] S1x1x1.size inb_S1x8x16_S1x1x1_0_2_2).toLoadRect (harg2.unread x0) (Shape.Idx.first (numel1_S1x1x1.symm ▸ Nat.one_pos)))) (k0_hw36 : k0_chk36 i (arg2.view.readAt (Elt F) (Rect.unit (s := S1x8x16) ![0, 2, 3] S1x1x1.size inb_S1x8x16_S1x1x1_0_2_3).toLoadRect (harg2.unread x0) (Shape.Idx.first (numel1_S1x1x1.symm ▸ Nat.one_pos)))) (k0_hw37 : k0_chk37 i (arg2.view.readAt (Elt F) (Rect.unit (s := S1x8x16) ![0, 2, 4] S1x1x1.size inb_S1x8x16_S1x1x1_0_2_4).toLoadRect (harg2.unread x0) (Shape.Idx.first (numel1_S1x1x1.symm ▸ Nat.one_pos)))) (k0_hw38 : k0_chk38 i (arg2.view.readAt (Elt F) (Rect.unit (s := S1x8x16) ![0, 2, 5] S1x1x1.size inb_S1x8x16_S1x1x1_0_2_5).toLoadRect (harg2.unread x0) (Shape.Idx.first (numel1_S1x1x1.symm ▸ Nat.one_pos)))) (k0_hw39 : k0_chk39 i (arg2.view.readAt (Elt F) (Rect.unit (s := S1x8x16) ![0, 2, 6] S1x1x1.size inb_S1x8x16_S1x1x1_0_2_6).toLoadRect (harg2.unread x0) (Shape.Idx.first (numel1_S1x1x1.symm ▸ Nat.one_pos)))) (k0_hw40 : k0_chk40 i (arg2.view.readAt (Elt F) (Rect.unit (s := S1x8x16) ![0, 2, 7] S1x1x1.size inb_S1x8x16_S1x1x1_0_2_7).toLoadRect (harg2.unread x0) (Shape.Idx.first (numel1_S1x1x1.symm ▸ Nat.one_pos)))) (k0_hw41 : k0_chk41 i (arg2.view.readAt (Elt F) (Rect.unit (s := S1x8x16) ![0, 2, 8] S1x1x1.size inb_S1x8x16_S1x1x1_0_2_8).toLoadRect (harg2.unread x0) (Shape.Idx.first (numel1_S1x1x1.symm ▸ Nat.one_pos)))) (k0_hw42 : k0_chk42 i (arg2.view.readAt (Elt F) (Rect.unit (s := S1x8x16) ![0, 2, 9] S1x1x1.size inb_S1x8x16_S1x1x1_0_2_9).toLoadRect (harg2.unread x0) (Shape.Idx.first (numel1_S1x1x1.symm ▸ Nat.one_pos)))) (k0_hw43 : k0_chk43 i (arg2.view.readAt (Elt F) (Rect.unit (s := S1x8x16) ![0, 2, 10] S1x1x1.size inb_S1x8x16_S1x1x1_0_2_10).toLoadRect (harg2.unread x0) (Shape.Idx.first (numel1_S1x1x1.symm ▸ Nat.one_pos)))) (k0_hw44 : k0_chk44 i (arg2.view.readAt (Elt F) (Rect.unit (s := S1x8x16) ![0, 2, 11] S1x1x1.size inb_S1x8x16_S1x1x1_0_2_11).toLoadRect (harg2.unread x0) (Shape.Idx.first (numel1_S1x1x1.symm ▸ Nat.one_pos)))) (k0_hw45 : k0_chk45 i (arg2.view.readAt (Elt F) (Rect.unit (s := S1x8x16) ![0, 2, 12] S1x1x1.size inb_S1x8x16_S1x1x1_0_2_12).toLoadRect (harg2.unread x0) (Shape.Idx.first (numel1_S1x1x1.symm ▸ Nat.one_pos)))) (k0_hw46 : k0_chk46 i (arg2.view.readAt (Elt F) (Rect.unit (s := S1x8x16) ![0, 2, 13] S1x1x1.size inb_S1x8x16_S1x1x1_0_2_13).toLoadRect (harg2.unread x0) (Shape.Idx.first (numel1_S1x1x1.symm ▸ Nat.one_pos)))) (k0_hw47 : k0_chk47 i (arg2.view.readAt (Elt F) (Rect.unit (s := S1x8x16) ![0, 2, 14] S1x1x1.size inb_S1x8x16_S1x1x1_0_2_14).toLoadRect (harg2.unread x0) (Shape.Idx.first (numel1_S1x1x1.symm ▸ Nat.one_pos)))) (k0_hw48 : k0_chk48 i (arg2.view.readAt (Elt F) (Rect.unit (s := S1x8x16) ![0, 2, 15] S1x1x1.size inb_S1x8x16_S1x1x1_0_2_15).toLoadRect (harg2.unread x0) (Shape.Idx.first (numel1_S1x1x1.symm ▸ Nat.one_pos)))) (k0_hw49 : k0_chk49 i (arg2.view.readAt (Elt F) (Rect.unit (s := S1x8x16) ![0, 3, 0] S1x1x1.size inb_S1x8x16_S1x1x1_0_3_0).toLoadRect (harg2.unread x0) (Shape.Idx.first (numel1_S1x1x1.symm ▸ Nat.one_pos)))) (k0_hw50 : k0_chk50 i (arg2.view.readAt (Elt F) (Rect.unit (s := S1x8x16) ![0, 3, 1] S1x1x1.size inb_S1x8x16_S1x1x1_0_3_1).toLoadRect (harg2.unread x0) (Shape.Idx.first (numel1_S1x1x1.symm ▸ Nat.one_pos)))) (k0_hw51 : k0_chk51 i (arg2.view.readAt (Elt F) (Rect.unit (s := S1x8x16) ![0, 3, 2] S1x1x1.size inb_S1x8x16_S1x1x1_0_3_2).toLoadRect (harg2.unread x0) (Shape.Idx.first (numel1_S1x1x1.symm ▸ Nat.one_pos)))) (k0_hw52 : k0_chk52 i (arg2.view.readAt (Elt F) (Rect.unit (s := S1x8x16) ![0, 3, 3] S1x1x1.size inb_S1x8x16_S1x1x1_0_3_3).toLoadRect (harg2.unread x0) (Shape.Idx.first (numel1_S1x1x1.symm ▸ Nat.one_pos)))) (k0_hw53 : k0_chk53 i (arg2.view.readAt (Elt F) (Rect.unit (s := S1x8x16) ![0, 3, 4] S1x1x1.size inb_S1x8x16_S1x1x1_0_3_4).toLoadRect (harg2.unread x0) (Shape.Idx.first (numel1_S1x1x1.symm ▸ Nat.one_pos)))) (k0_hw54 : k0_chk54 i (arg2.view.readAt (Elt F) (Rect.unit (s := S1x8x16) ![0, 3, 5] S1x1x1.size inb_S1x8x16_S1x1x1_0_3_5).toLoadRect (harg2.unread x0) (Shape.Idx.first (numel1_S1x1x1.symm ▸ Nat.one_pos)))) (k0_hw55 : k0_chk55 i (arg2.view.readAt (Elt F) (Rect.unit (s := S1x8x16) ![0, 3, 6] S1x1x1.size inb_S1x8x16_S1x1x1_0_3_6).toLoadRect (harg2.unread x0) (Shape.Idx.first (numel1_S1x1x1.symm ▸ Nat.one_pos)))) (k0_hw56 : k0_chk56 i (arg2.view.readAt (Elt F) (Rect.unit (s := S1x8x16) ![0, 3, 7] S1x1x1.size inb_S1x8x16_S1x1x1_0_3_7).toLoadRect (harg2.unread x0) (Shape.Idx.first (numel1_S1x1x1.symm ▸ Nat.one_pos)))) (k0_hw57 : k0_chk57 i (arg2.view.readAt (Elt F) (Rect.unit (s := S1x8x16) ![0, 3, 8] S1x1x1.size inb_S1x8x16_S1x1x1_0_3_8).toLoadRect (harg2.unread x0) (Shape.Idx.first (numel1_S1x1x1.symm ▸ Nat.one_pos)))) (k0_hw58 : k0_chk58 i (arg2.view.readAt (Elt F) (Rect.unit (s := S1x8x16) ![0, 3, 9] S1x1x1.size inb_S1x8x16_S1x1x1_0_3_9).toLoadRect (harg2.unread x0) (Shape.Idx.first (numel1_S1x1x1.symm ▸ Nat.one_pos)))) (k0_hw59 : k0_chk59 i (arg2.view.readAt (Elt F) (Rect.unit (s := S1x8x16) ![0, 3, 10] S1x1x1.size inb_S1x8x16_S1x1x1_0_3_10).toLoadRect (harg2.unread x0) (Shape.Idx.first (numel1_S1x1x1.symm ▸ Nat.one_pos)))) (k0_hw60 : k0_chk60 i (arg2.view.readAt (Elt F) (Rect.unit (s := S1x8x16) ![0, 3, 11] S1x1x1.size inb_S1x8x16_S1x1x1_0_3_11).toLoadRect (harg2.unread x0) (Shape.Idx.first (numel1_S1x1x1.symm ▸ Nat.one_pos)))) (k0_hw61 : k0_chk61 i (arg2.view.readAt (Elt F) (Rect.unit (s := S1x8x16) ![0, 3, 12] S1x1x1.size inb_S1x8x16_S1x1x1_0_3_12).toLoadRect (harg2.unread x0) (Shape.Idx.first (numel1_S1x1x1.symm ▸ Nat.one_pos)))) (k0_hw62 : k0_chk62 i (arg2.view.readAt (Elt F) (Rect.unit (s := S1x8x16) ![0, 3, 13] S1x1x1.size inb_S1x8x16_S1x1x1_0_3_13).toLoadRect (harg2.unread x0) (Shape.Idx.first (numel1_S1x1x1.symm ▸ Nat.one_pos)))) (k0_hw63 : k0_chk63 i (arg2.view.readAt (Elt F) (Rect.unit (s := S1x8x16) ![0, 3, 14] S1x1x1.size inb_S1x8x16_S1x1x1_0_3_14).toLoadRect (harg2.unread x0) (Shape.Idx.first (numel1_S1x1x1.symm ▸ Nat.one_pos)))) (k0_hw64 : k0_chk64 i (arg2.view.readAt (Elt F) (Rect.unit (s := S1x8x16) ![0, 3, 15] S1x1x1.size inb_S1x8x16_S1x1x1_0_3_15).toLoadRect (harg2.unread x0) (Shape.Idx.first (numel1_S1x1x1.symm ▸ Nat.one_pos)))) (k0_hw65 : k0_chk65 i (arg2.view.readAt (Elt F) (Rect.unit (s := S1x8x16) ![0, 4, 0] S1x1x1.size inb_S1x8x16_S1x1x1_0_4_0).toLoadRect (harg2.unread x0) (Shape.Idx.first (numel1_S1x1x1.symm ▸ Nat.one_pos)))) (k0_hw66 : k0_chk66 i (arg2.view.readAt (Elt F) (Rect.unit (s := S1x8x16) ![0, 4, 1] S1x1x1.size inb_S1x8x16_S1x1x1_0_4_1).toLoadRect (harg2.unread x0) (Shape.Idx.first (numel1_S1x1x1.symm ▸ Nat.one_pos)))) (k0_hw67 : k0_chk67 i (arg2.view.readAt (Elt F) (Rect.unit (s := S1x8x16) ![0, 4, 2] S1x1x1.size inb_S1x8x16_S1x1x1_0_4_2).toLoadRect (harg2.unread x0) (Shape.Idx.first (numel1_S1x1x1.symm ▸ Nat.one_pos)))) (k0_hw68 : k0_chk68 i (arg2.view.readAt (Elt F) (Rect.unit (s := S1x8x16) ![0, 4, 3] S1x1x1.size inb_S1x8x16_S1x1x1_0_4_3).toLoadRect (harg2.unread x0) (Shape.Idx.first (numel1_S1x1x1.symm ▸ Nat.one_pos)))) (k0_hw69 : k0_chk69 i (arg2.view.readAt (Elt F) (Rect.unit (s := S1x8x16) ![0, 4, 4] S1x1x1.size inb_S1x8x16_S1x1x1_0_4_4).toLoadRect (harg2.unread x0) (Shape.Idx.first (numel1_S1x1x1.symm ▸ Nat.one_pos)))) (k0_hw70 : k0_chk70 i (arg2.view.readAt (Elt F) (Rect.unit (s := S1x8x16) ![0, 4, 5] S1x1x1.size inb_S1x8x16_S1x1x1_0_4_5).toLoadRect (harg2.unread x0) (Shape.Idx.first (numel1_S1x1x1.symm ▸ Nat.one_pos)))) (k0_hw71 : k0_chk71 i (arg2.view.readAt (Elt F) (Rect.unit (s := S1x8x16) ![0, 4, 6] S1x1x1.size inb_S1x8x16_S1x1x1_0_4_6).toLoadRect (harg2.unread x0) (Shape.Idx.first (numel1_S1x1x1.symm ▸ Nat.one_pos)))) (k0_hw72 : k0_chk72 i (arg2.view.readAt (Elt F) (Rect.unit (s := S1x8x16) ![0, 4, 7] S1x1x1.size inb_S1x8x16_S1x1x1_0_4_7).toLoadRect (harg2.unread x0) (Shape.Idx.first (numel1_S1x1x1.symm ▸ Nat.one_pos)))) (k0_hw73 : k0_chk73 i (arg2.view.readAt (Elt F) (Rect.unit (s := S1x8x16) ![0, 4, 8] S1x1x1.size inb_S1x8x16_S1x1x1_0_4_8).toLoadRect (harg2.unread x0) (Shape.Idx.first (numel1_S1x1x1.symm ▸ Nat.one_pos)))) (k0_hw74 : k0_chk74 i (arg2.view.readAt (Elt F) (Rect.unit (s := S1x8x16) ![0, 4, 9] S1x1x1.size inb_S1x8x16_S1x1x1_0_4_9).toLoadRect (harg2.unread x0) (Shape.Idx.first (numel1_S1x1x1.symm ▸ Nat.one_pos)))) (k0_hw75 : k0_chk75 i (arg2.view.readAt (Elt F) (Rect.unit (s := S1x8x16) ![0, 4, 10] S1x1x1.size inb_S1x8x16_S1x1x1_0_4_10).toLoadRect (harg2.unread x0) (Shape.Idx.first (numel1_S1x1x1.symm ▸ Nat.one_pos)))) (k0_hw76 : k0_chk76 i (arg2.view.readAt (Elt F) (Rect.unit (s := S1x8x16) ![0, 4, 11] S1x1x1.size inb_S1x8x16_S1x1x1_0_4_11).toLoadRect (harg2.unread x0) (Shape.Idx.first (numel1_S1x1x1.symm ▸ Nat.one_pos)))) (k0_hw77 : k0_chk77 i (arg2.view.readAt (Elt F) (Rect.unit (s := S1x8x16) ![0, 4, 12] S1x1x1.size inb_S1x8x16_S1x1x1_0_4_12).toLoadRect (harg2.unread x0) (Shape.Idx.first (numel1_S1x1x1.symm ▸ Nat.one_pos)))) (k0_hw78 : k0_chk78 i (arg2.view.readAt (Elt F) (Rect.unit (s := S1x8x16) ![0, 4, 13] S1x1x1.size inb_S1x8x16_S1x1x1_0_4_13).toLoadRect (harg2.unread x0) (Shape.Idx.first (numel1_S1x1x1.symm ▸ Nat.one_pos)))) (k0_hw79 : k0_chk79 i (arg2.view.readAt (Elt F) (Rect.unit (s := S1x8x16) ![0, 4, 14] S1x1x1.size inb_S1x8x16_S1x1x1_0_4_14).toLoadRect (harg2.unread x0) (Shape.Idx.first (numel1_S1x1x1.symm ▸ Nat.one_pos)))) (k0_hw80 : k0_chk80 i (arg2.view.readAt (Elt F) (Rect.unit (s := S1x8x16) ![0, 4, 15] S1x1x1.size inb_S1x8x16_S1x1x1_0_4_15).toLoadRect (harg2.unread x0) (Shape.Idx.first (numel1_S1x1x1.symm ▸ Nat.one_pos)))) (k0_hw81 : k0_chk81 i (arg2.view.readAt (Elt F) (Rect.unit (s := S1x8x16) ![0, 5, 0] S1x1x1.size inb_S1x8x16_S1x1x1_0_5_0).toLoadRect (harg2.unread x0) (Shape.Idx.first (numel1_S1x1x1.symm ▸ Nat.one_pos)))) (k0_hw82 : k0_chk82 i (arg2.view.readAt (Elt F) (Rect.unit (s := S1x8x16) ![0, 5, 1] S1x1x1.size inb_S1x8x16_S1x1x1_0_5_1).toLoadRect (harg2.unread x0) (Shape.Idx.first (numel1_S1x1x1.symm ▸ Nat.one_pos)))) (k0_hw83 : k0_chk83 i (arg2.view.readAt (Elt F) (Rect.unit (s := S1x8x16) ![0, 5, 2] S1x1x1.size inb_S1x8x16_S1x1x1_0_5_2).toLoadRect (harg2.unread x0) (Shape.Idx.first (numel1_S1x1x1.symm ▸ Nat.one_pos)))) (k0_hw84 : k0_chk84 i (arg2.view.readAt (Elt F) (Rect.unit (s := S1x8x16) ![0, 5, 3] S1x1x1.size inb_S1x8x16_S1x1x1_0_5_3).toLoadRect (harg2.unread x0) (Shape.Idx.first (numel1_S1x1x1.symm ▸ Nat.one_pos)))) (k0_hw85 : k0_chk85 i (arg2.view.readAt (Elt F) (Rect.unit (s := S1x8x16) ![0, 5, 4] S1x1x1.size inb_S1x8x16_S1x1x1_0_5_4).toLoadRect (harg2.unread x0) (Shape.Idx.first (numel1_S1x1x1.symm ▸ Nat.one_pos)))) (k0_hw86 : k0_chk86 i (arg2.view.readAt (Elt F) (Rect.unit (s := S1x8x16) ![0, 5, 5] S1x1x1.size inb_S1x8x16_S1x1x1_0_5_5).toLoadRect (harg2.unread x0) (Shape.Idx.first (numel1_S1x1x1.symm ▸ Nat.one_pos)))) (k0_hw87 : k0_chk87 i (arg2.view.readAt (Elt F) (Rect.unit (s := S1x8x16) ![0, 5, 6] S1x1x1.size inb_S1x8x16_S1x1x1_0_5_6).toLoadRect (harg2.unread x0) (Shape.Idx.first (numel1_S1x1x1.symm ▸ Nat.one_pos)))) (k0_hw88 : k0_chk88 i (arg2.view.readAt (Elt F) (Rect.unit (s := S1x8x16) ![0, 5, 7] S1x1x1.size inb_S1x8x16_S1x1x1_0_5_7).toLoadRect (harg2.unread x0) (Shape.Idx.first (numel1_S1x1x1.symm ▸ Nat.one_pos)))) (k0_hw89 : k0_chk89 i (arg2.view.readAt (Elt F) (Rect.unit (s := S1x8x16) ![0, 5, 8] S1x1x1.size inb_S1x8x16_S1x1x1_0_5_8).toLoadRect (harg2.unread x0) (Shape.Idx.first (numel1_S1x1x1.symm ▸ Nat.one_pos)))) (k0_hw90 : k0_chk90 i (arg2.view.readAt (Elt F) (Rect.unit (s := S1x8x16) ![0, 5, 9] S1x1x1.size inb_S1x8x16_S1x1x1_0_5_9).toLoadRect (harg2.unread x0) (Shape.Idx.first (numel1_S1x1x1.symm ▸ Nat.one_pos)))) (k0_hw91 : k0_chk91 i (arg2.view.readAt (Elt F) (Rect.unit (s := S1x8x16) ![0, 5, 10] S1x1x1.size inb_S1x8x16_S1x1x1_0_5_10).toLoadRect (harg2.unread x0) (Shape.Idx.first (numel1_S1x1x1.symm ▸ Nat.one_pos)))) (k0_hw92 : k0_chk92 i (arg2.view.readAt (Elt F) (Rect.unit (s := S1x8x16) ![0, 5, 11] S1x1x1.size inb_S1x8x16_S1x1x1_0_5_11).toLoadRect (harg2.unread x0) (Shape.Idx.first (numel1_S1x1x1.symm ▸ Nat.one_pos)))) (k0_hw93 : k0_chk93 i (arg2.view.readAt (Elt F) (Rect.unit (s := S1x8x16) ![0, 5, 12] S1x1x1.size inb_S1x8x16_S1x1x1_0_5_12).toLoadRect (harg2.unread x0) (Shape.Idx.first (numel1_S1x1x1.symm ▸ Nat.one_pos)))) (k0_hw94 : k0_chk94 i (arg2.view.readAt (Elt F) (Rect.unit (s := S1x8x16) ![0, 5, 13] S1x1x1.size inb_S1x8x16_S1x1x1_0_5_13).toLoadRect (harg2.unread x0) (Shape.Idx.first (numel1_S1x1x1.symm ▸ Nat.one_pos)))) (k0_hw95 : k0_chk95 i (arg2.view.readAt (Elt F) (Rect.unit (s := S1x8x16) ![0, 5, 14] S1x1x1.size inb_S1x8x16_S1x1x1_0_5_14).toLoadRect (harg2.unread x0) (Shape.Idx.first (numel1_S1x1x1.symm ▸ Nat.one_pos)))) (k0_hw96 : k0_chk96 i (arg2.view.readAt (Elt F) (Rect.unit (s := S1x8x16) ![0, 5, 15] S1x1x1.size inb_S1x8x16_S1x1x1_0_5_15).toLoadRect (harg2.unread x0) (Shape.Idx.first (numel1_S1x1x1.symm ▸ Nat.one_pos)))) (k0_hw97 : k0_chk97 i (arg2.view.readAt (Elt F) (Rect.unit (s := S1x8x16) ![0, 6, 0] S1x1x1.size inb_S1x8x16_S1x1x1_0_6_0).toLoadRect (harg2.unread x0) (Shape.Idx.first (numel1_S1x1x1.symm ▸ Nat.one_pos)))) (k0_hw98 : k0_chk98 i (arg2.view.readAt (Elt F) (Rect.unit (s := S1x8x16) ![0, 6, 1] S1x1x1.size inb_S1x8x16_S1x1x1_0_6_1).toLoadRect (harg2.unread x0) (Shape.Idx.first (numel1_S1x1x1.symm ▸ Nat.one_pos)))) (k0_hw99 : k0_chk99 i (arg2.view.readAt (Elt F) (Rect.unit (s := S1x8x16) ![0, 6, 2] S1x1x1.size inb_S1x8x16_S1x1x1_0_6_2).toLoadRect (harg2.unread x0) (Shape.Idx.first (numel1_S1x1x1.symm ▸ Nat.one_pos)))) (k0_hw100 : k0_chk100 i (arg2.view.readAt (Elt F) (Rect.unit (s := S1x8x16) ![0, 6, 3] S1x1x1.size inb_S1x8x16_S1x1x1_0_6_3).toLoadRect (harg2.unread x0) (Shape.Idx.first (numel1_S1x1x1.symm ▸ Nat.one_pos)))) (k0_hw101 : k0_chk101 i (arg2.view.readAt (Elt F) (Rect.unit (s := S1x8x16) ![0, 6, 4] S1x1x1.size inb_S1x8x16_S1x1x1_0_6_4).toLoadRect (harg2.unread x0) (Shape.Idx.first (numel1_S1x1x1.symm ▸ Nat.one_pos)))) (k0_hw102 : k0_chk102 i (arg2.view.readAt (Elt F) (Rect.unit (s := S1x8x16) ![0, 6, 5] S1x1x1.size inb_S1x8x16_S1x1x1_0_6_5).toLoadRect (harg2.unread x0) (Shape.Idx.first (numel1_S1x1x1.symm ▸ Nat.one_pos)))) (k0_hw103 : k0_chk103 i (arg2.view.readAt (Elt F) (Rect.unit (s := S1x8x16) ![0, 6, 6] S1x1x1.size inb_S1x8x16_S1x1x1_0_6_6).toLoadRect (harg2.unread x0) (Shape.Idx.first (numel1_S1x1x1.symm ▸ Nat.one_pos)))) (k0_hw104 : k0_chk104 i (arg2.view.readAt (Elt F) (Rect.unit (s := S1x8x16) ![0, 6, 7] S1x1x1.size inb_S1x8x16_S1x1x1_0_6_7).toLoadRect (harg2.unread x0) (Shape.Idx.first (numel1_S1x1x1.symm ▸ Nat.one_pos)))) (k0_hw105 : k0_chk105 i (arg2.view.readAt (Elt F) (Rect.unit (s := S1x8x16) ![0, 6, 8] S1x1x1.size inb_S1x8x16_S1x1x1_0_6_8).toLoadRect (harg2.unread x0) (Shape.Idx.first (numel1_S1x1x1.symm ▸ Nat.one_pos)))) (k0_hw106 : k0_chk106 i (arg2.view.readAt (Elt F) (Rect.unit (s := S1x8x16) ![0, 6, 9] S1x1x1.size inb_S1x8x16_S1x1x1_0_6_9).toLoadRect (harg2.unread x0) (Shape.Idx.first (numel1_S1x1x1.symm ▸ Nat.one_pos)))) (k0_hw107 : k0_chk107 i (arg2.view.readAt (Elt F) (Rect.unit (s := S1x8x16) ![0, 6, 10] S1x1x1.size inb_S1x8x16_S1x1x1_0_6_10).toLoadRect (harg2.unread x0) (Shape.Idx.first (numel1_S1x1x1.symm ▸ Nat.one_pos)))) (k0_hw108 : k0_chk108 i (arg2.view.readAt (Elt F) (Rect.unit (s := S1x8x16) ![0, 6, 11] S1x1x1.size inb_S1x8x16_S1x1x1_0_6_11).toLoadRect (harg2.unread x0) (Shape.Idx.first (numel1_S1x1x1.symm ▸ Nat.one_pos)))) (k0_hw109 : k0_chk109 i (arg2.view.readAt (Elt F) (Rect.unit (s := S1x8x16) ![0, 6, 12] S1x1x1.size inb_S1x8x16_S1x1x1_0_6_12).toLoadRect (harg2.unread x0) (Shape.Idx.first (numel1_S1x1x1.symm ▸ Nat.one_pos)))) (k0_hw110 : k0_chk110 i (arg2.view.readAt (Elt F) (Rect.unit (s := S1x8x16) ![0, 6, 13] S1x1x1.size inb_S1x8x16_S1x1x1_0_6_13).toLoadRect (harg2.unread x0) (Shape.Idx.first (numel1_S1x1x1.symm ▸ Nat.one_pos)))) (k0_hw111 : k0_chk111 i (arg2.view.readAt (Elt F) (Rect.unit (s := S1x8x16) ![0, 6, 14] S1x1x1.size inb_S1x8x16_S1x1x1_0_6_14).toLoadRect (harg2.unread x0) (Shape.Idx.first (numel1_S1x1x1.symm ▸ Nat.one_pos)))) (k0_hw112 : k0_chk112 i (arg2.view.readAt (Elt F) (Rect.unit (s := S1x8x16) ![0, 6, 15] S1x1x1.size inb_S1x8x16_S1x1x1_0_6_15).toLoadRect (harg2.unread x0) (Shape.Idx.first (numel1_S1x1x1.symm ▸ Nat.one_pos)))) (k0_hw113 : k0_chk113 i (arg2.view.readAt (Elt F) (Rect.unit (s := S1x8x16) ![0, 7, 0] S1x1x1.size inb_S1x8x16_S1x1x1_0_7_0).toLoadRect (harg2.unread x0) (Shape.Idx.first (numel1_S1x1x1.symm ▸ Nat.one_pos)))) (k0_hw114 : k0_chk114 i (arg2.view.readAt (Elt F) (Rect.unit (s := S1x8x16) ![0, 7, 1] S1x1x1.size inb_S1x8x16_S1x1x1_0_7_1).toLoadRect (harg2.unread x0) (Shape.Idx.first (numel1_S1x1x1.symm ▸ Nat.one_pos)))) (k0_hw115 : k0_chk115 i (arg2.view.readAt (Elt F) (Rect.unit (s := S1x8x16) ![0, 7, 2] S1x1x1.size inb_S1x8x16_S1x1x1_0_7_2).toLoadRect (harg2.unread x0) (Shape.Idx.first (numel1_S1x1x1.symm ▸ Nat.one_pos)))) (k0_hw116 : k0_chk116 i (arg2.view.readAt (Elt F) (Rect.unit (s := S1x8x16) ![0, 7, 3] S1x1x1.size inb_S1x8x16_S1x1x1_0_7_3).toLoadRect (harg2.unread x0) (Shape.Idx.first (numel1_S1x1x1.symm ▸ Nat.one_pos)))) (k0_hw117 : k0_chk117 i (arg2.view.readAt (Elt F) (Rect.unit (s := S1x8x16) ![0, 7, 4] S1x1x1.size inb_S1x8x16_S1x1x1_0_7_4).toLoadRect (harg2.unread x0) (Shape.Idx.first (numel1_S1x1x1.symm ▸ Nat.one_pos)))) (k0_hw118 : k0_chk118 i (arg2.view.readAt (Elt F) (Rect.unit (s := S1x8x16) ![0, 7, 5] S1x1x1.size inb_S1x8x16_S1x1x1_0_7_5).toLoadRect (harg2.unread x0) (Shape.Idx.first (numel1_S1x1x1.symm ▸ Nat.one_pos)))) (k0_hw119 : k0_chk119 i (arg2.view.readAt (Elt F) (Rect.unit (s := S1x8x16) ![0, 7, 6] S1x1x1.size inb_S1x8x16_S1x1x1_0_7_6).toLoadRect (harg2.unread x0) (Shape.Idx.first (numel1_S1x1x1.symm ▸ Nat.one_pos)))) (k0_hw120 : k0_chk120 i (arg2.view.readAt (Elt F) (Rect.unit (s := S1x8x16) ![0, 7, 7] S1x1x1.size inb_S1x8x16_S1x1x1_0_7_7).toLoadRect (harg2.unread x0) (Shape.Idx.first (numel1_S1x1x1.symm ▸ Nat.one_pos)))) (k0_hw121 : k0_chk121 i (arg2.view.readAt (Elt F) (Rect.unit (s := S1x8x16) ![0, 7, 8] S1x1x1.size inb_S1x8x16_S1x1x1_0_7_8).toLoadRect (harg2.unread x0) (Shape.Idx.first (numel1_S1x1x1.symm ▸ Nat.one_pos)))) (k0_hw122 : k0_chk122 i (arg2.view.readAt (Elt F) (Rect.unit (s := S1x8x16) ![0, 7, 9] S1x1x1.size inb_S1x8x16_S1x1x1_0_7_9).toLoadRect (harg2.unread x0) (Shape.Idx.first (numel1_S1x1x1.symm ▸ Nat.one_pos)))) (k0_hw123 : k0_chk123 i (arg2.view.readAt (Elt F) (Rect.unit (s := S1x8x16) ![0, 7, 10] S1x1x1.size inb_S1x8x16_S1x1x1_0_7_10).toLoadRect (harg2.unread x0) (Shape.Idx.first (numel1_S1x1x1.symm ▸ Nat.one_pos)))) (k0_hw124 : k0_chk124 i (arg2.view.readAt (Elt F) (Rect.unit (s := S1x8x16) ![0, 7, 11] S1x1x1.size inb_S1x8x16_S1x1x1_0_7_11).toLoadRect (harg2.unread x0) (Shape.Idx.first (numel1_S1x1x1.symm ▸ Nat.one_pos)))) (k0_hw125 : k0_chk125 i (arg2.view.readAt (Elt F) (Rect.unit (s := S1x8x16) ![0, 7, 12] S1x1x1.size inb_S1x8x16_S1x1x1_0_7_12).toLoadRect (harg2.unread x0) (Shape.Idx.first (numel1_S1x1x1.symm ▸ Nat.one_pos)))) (k0_hw126 : k0_chk126 i (arg2.view.readAt (Elt F) (Rect.unit (s := S1x8x16) ![0, 7, 13] S1x1x1.size inb_S1x8x16_S1x1x1_0_7_13).toLoadRect (harg2.unread x0) (Shape.Idx.first (numel1_S1x1x1.symm ▸ Nat.one_pos)))) (k0_hw127 : k0_chk127 i (arg2.view.readAt (Elt F) (Rect.unit (s := S1x8x16) ![0, 7, 14] S1x1x1.size inb_S1x8x16_S1x1x1_0_7_14).toLoadRect (harg2.unread x0) (Shape.Idx.first (numel1_S1x1x1.symm ▸ Nat.one_pos)))) (k0_hw128 : k0_chk128 i (arg2.view.readAt (Elt F) (Rect.unit (s := S1x8x16) ![0, 7, 15] S1x1x1.size inb_S1x8x16_S1x1x1_0_7_15).toLoadRect (harg2.unread x0) (Shape.Idx.first (numel1_S1x1x1.symm ▸ Nat.one_pos)))) :
    (kernelRun0_A c i arg2 harg2 arg4 harg4 arg5 harg5 arg6 harg6 x0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64 k0_hw65 k0_hw66 k0_hw67 k0_hw68 k0_hw69 k0_hw70 k0_hw71 k0_hw72 k0_hw73 k0_hw74 k0_hw75 k0_hw76 k0_hw77 k0_hw78 k0_hw79 k0_hw80 k0_hw81 k0_hw82 k0_hw83 k0_hw84 k0_hw85 k0_hw86 k0_hw87 k0_hw88 k0_hw89 k0_hw90 k0_hw91 k0_hw92 k0_hw93 k0_hw94 k0_hw95 k0_hw96 k0_hw97 k0_hw98 k0_hw99 k0_hw100 k0_hw101 k0_hw102 k0_hw103 k0_hw104 k0_hw105 k0_hw106 k0_hw107 k0_hw108 k0_hw109 k0_hw110 k0_hw111 k0_hw112 k0_hw113 k0_hw114 k0_hw115 k0_hw116 k0_hw117 k0_hw118 k0_hw119 k0_hw120 k0_hw121 k0_hw122 k0_hw123 k0_hw124 k0_hw125 k0_hw126 k0_hw127 k0_hw128).val
      = [(⟨Rect.unit (s := S1x8x128) ![0, 0, 0] ![1, 8, 128] inb_S1x8x128_S1x8x128_0_0_0, outBlock c i x0 fh0⟩ : View.Piece (Elt F) S1x8x128 .f32)] := rfl

end Cert.KernelIdeal.Gen

end
-- ==== Proof.PreRange.lean ====
/-
  What the precondition says of the neighbour table: every word names a position of the pooled axis.

  The precondition is a conjunction of two "all entries" tests.  The second one, read back entry by entry,
  says of each neighbour word w that 0 ≤ w and w < 32768 as signed numbers; a word in that range is below
  32768 read unsigned as well.  Nothing here depends on the float instance: the statement is about words.
-/
import proofs.«412756_j23708219474789_1_alg».proof.Proof.Gen.Pre_finite_inputs
import Idealize.ShloMosaic.Lib.ReduceAll
import Idealize.ShloMosaic.Lib.ValueIdx

noncomputable section

namespace Cert.Pool.PreRange

open Idealize.ShloMosaic

/-- The scalar shape has one index. -/
instance : Subsingleton Cert.Pre_finite_inputs.S_.Idx := ⟨fun a b => funext fun d => d.elim0⟩

/-- A word that is nonnegative and below 32768 as a signed number is below 32768 as an unsigned one. -/
theorem toNat_lt_of_signed (w : BitVec 32) (h0 : (0#32 : BitVec 32).toInt ≤ w.toInt)
    (h1 : w.toInt < (32768#32 : BitVec 32).toInt) : w.toNat < 32768 := by
  have e0 : (0#32 : BitVec 32).toInt = 0 := by decide
  have e1 : (32768#32 : BitVec 32).toInt = 32768 := by decide
  rw [e0] at h0
  rw [e1] at h1
  have hw := w.isLt
  rw [BitVec.toInt_eq_toNat_cond] at h0 h1
  split at h0 <;> omega

variable {F : FTy → Type} [FloatOps F]

/-- Under the precondition every neighbour word is a position of the pooled axis. -/
theorem nbr_lt (x : FVec F Cert.Pre_finite_inputs.S4x128x32768 .f32) (nbr : IVec Cert.Pre_finite_inputs.S4x16x32768 32)
    (h : Cert.Pre_finite_inputs.fn (F := F) x nbr = fun _ => 1#1) (i : Cert.Pre_finite_inputs.S4x16x32768.Idx) :
    (nbr i).toNat < 32768 := by
  have e := congrFun h ValueIdx.ix0
  dsimp only [Cert.Pre_finite_inputs.fn] at e
  obtain ⟨-, e2⟩ := IntOp.andi_eq_one.1 e
  have e3 := Host.reduce_andi_all _ _ _ _ _ e2 i
  obtain ⟨h0, h1⟩ := IntOp.andi_eq_one.1 e3
  exact toNat_lt_of_signed _ (IntOp.cmpi_sge.1 h0) (IntOp.cmpi_slt.1 h1)

end Cert.Pool.PreRange

end
-- ==== Proof.HypsK.lean ====
/-
  The body's side conditions follow from the precondition.

  At every grid point the body reads 128 words of its block of the neighbour table and, for each word w,
  assumes that row w of batch b of the transposed feature array [4, 32768, 1, 128] exists: w < 32768 read
  unsigned.  The block is a rectangle of the table as the region finds it, which is the argument table with
  its last two axes exchanged; so every word of every block is a word of the argument table, and the
  precondition says each of those is in [0, 32768).  Which of the block's words a conjunct speaks of does not
  matter.
-/
import proofs.«412756_j23708219474789_1_alg».proof.Proof.Gen.Kernel.Frame.Runs

set_option maxRecDepth 16384

noncomputable section

namespace Cert.Kernel.HypsOfPre

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The neighbour table as the region finds it: the argument with its last two axes exchanged. -/
theorem nbrT_eq (c : Dev nD) :
    (V m c main_v2 : S4x32768x16.Idx → BitVec 32)
      = transpose S4x32768x16 [0, 2, 1] (m ((c : Thread nD τ).loc main_arg1)) transposes_S4x16x32768_S4x32768x16_0_2_1 := by
  show StableHlo.after hostOps0 (fun b => m (c, b)) (Proc.devRef .tc main_v2) = _
  after_results

/-- Every word of the transposed table is a word of the argument. -/
theorem nbrT_lt (h : ∀ (c : Dev nD) i, ((m ((c : Thread nD τ).loc main_arg1) : S4x16x32768.Idx → BitVec 32) i).toNat < 32768)
    (c : Dev nD) (i : S4x32768x16.Idx) : ((V m c main_v2 : S4x32768x16.Idx → BitVec 32) i).toNat < 32768 := by
  rw [nbrT_eq]
  exact h c _

/-- Every word of a point's block is a word of the transposed table. -/
theorem blk_lt (h : ∀ (c : Dev nD) i, ((m ((c : Thread nD τ).loc main_arg1) : S4x16x32768.Idx → BitVec 32) i).toNat < 32768)
    (c : Dev nD) (t : Fin cfg0.N) (y : S1x8x16.Idx) : ((iblk m c 0 t : S1x8x16.Idx → BitVec 32) y).toNat < 32768 := by
  show ((V m c main_v2 : S4x32768x16.Idx → BitVec 32) (((cfg0.win 0).blk t).view.emb y)).toNat < 32768
  exact nbrT_lt m h c _

/-- A word the body loads from its block, as the frame spells the load. -/
theorem word_lt (h : ∀ (c : Dev nD) i, ((m ((c : Thread nD τ).loc main_arg1) : S4x16x32768.Idx → BitVec 32) i).toNat < 32768)
    (c : Dev nD) (t : Fin cfg0.N) (R : LoadRect S1x8x16) (x : R.shape.Idx) :
    (((ms0_0 t).view.readAt (Elt F) R ((hs0_0 t).unread (iblk m c 0 t)) x : BitVec 32)).toNat < 32768 := by
  rw [View.readAt_apply, Memref.IsWhole.read_unread]
  exact blk_lt m h c t _

/-- Row w of batch b exists when w < 32768: the one-row slice at (b, w, 0, 0) lies inside [4, 32768, 1, 128]. -/
theorem row_inb (i : grid0.Coords) (w : BitVec 32) (hw : w.toNat < 32768) :
    ∀ a, (![(BitVec.ofNat 32 (i 0).val).toNat, w.toNat, 0, 0] : Fin 4 → Nat) a + S1x1x1x128.size a ≤ S4x32768x1x128.size a := by
  intro a
  have hi : (i 0).val < 4 := (i 0).isLt
  have hb : (BitVec.ofNat 32 (i 0).val).toNat = (i 0).val := by
    rw [BitVec.toNat_ofNat]; exact Nat.mod_eq_of_lt (by omega)
  match a with
  | ⟨0, _⟩ => show (BitVec.ofNat 32 (i 0).val).toNat + 1 ≤ 4; omega
  | ⟨1, _⟩ => show w.toNat + 1 ≤ 32768; omega
  | ⟨2, _⟩ => show 0 + 1 ≤ 1; omega
  | ⟨3, _⟩ => show 0 + 128 ≤ 128; omega

/-- The frame's hypothesis from "every neighbour word is in range". -/
theorem hyps_of_range (h : ∀ (c : Dev nD) i, ((m ((c : Thread nD τ).loc main_arg1) : S4x16x32768.Idx → BitVec 32) i).toNat < 32768) :
    Hyps m := by
  intro c t
  and_intros
  all_goals exact row_inb _ _ (word_lt m h c t _ _)

end Cert.Kernel.HypsOfPre

end
-- ==== Proof.HypsKI.lean ====
/-
  The body's side conditions follow from the precondition.

  At every grid point the body reads 128 words of its block of the neighbour table and, for each word w,
  assumes that row w of batch b of the transposed feature array [4, 32768, 1, 128] exists: w < 32768 read
  unsigned.  The block is a rectangle of the table as the region finds it, which is the argument table with
  its last two axes exchanged; so every word of every block is a word of the argument table, and the
  precondition says each of those is in [0, 32768).  Which of the block's words a conjunct speaks of does not
  matter.
-/
import proofs.«412756_j23708219474789_1_alg».proof.Proof.Gen.KernelIdeal.Frame.Runs

set_option maxRecDepth 16384

noncomputable section

namespace Cert.KernelIdeal.HypsOfPre

open Cert.KernelIdeal Cert.KernelIdeal.Gen
open Idealize.ShloMosaic Idealize.ShloMosaic.TcCoe Idealize.SL.Sem

variable {F : FTy → Type} [FloatOps F] [Named F]
variable (m : (ℓ : Loc nD τ sig) → Buf (Elt F) ℓ)

/-- The neighbour table as the region finds it: the argument with its last two axes exchanged. -/
theorem nbrT_eq (c : Dev nD) :
    (V m c main_v2 : S4x32768x16.Idx → BitVec 32)
      = transpose S4x32768x16 [0, 2, 1] (m ((c : Thread nD τ).loc main_arg1)) transposes_S4x16x32768_S4x32768x16_0_2_1 := by
  show StableHlo.after hostOps0 (fun b => m (c, b)) (Proc.devRef .tc main_v2) = _
  after_results

/-- Every word of the transposed table is a word of the argument. -/
theorem nbrT_lt (h : ∀ (c : Dev nD) i, ((m ((c : Thread nD τ).loc main_arg1) : S4x16x32768.Idx → BitVec 32) i).toNat < 32768)
    (c : Dev nD) (i : S4x32768x16.Idx) : ((V m c main_v2 : S4x32768x16.Idx → BitVec 32) i).toNat < 32768 := by
  rw [nbrT_eq]
  exact h c _

/-- Every word of a point's block is a word of the transposed table. -/
theorem blk_lt (h : ∀ (c : Dev nD) i, ((m ((c : Thread nD τ).loc main_arg1) : S4x16x32768.Idx → BitVec 32) i).toNat < 32768)
    (c : Dev nD) (t : Fin cfg0.N) (y : S1x8x16.Idx) : ((iblk m c 0 t : S1x8x16.Idx → BitVec 32) y).toNat < 32768 := by
  show ((V m c main_v2 : S4x32768x16.Idx → BitVec 32) (((cfg0.win 0).blk t).view.emb y)).toNat < 32768
  exact nbrT_lt m h c _

/-- A word the body loads from its block, as the frame spells the load. -/
theorem word_lt (h : ∀ (c : Dev nD) i, ((m ((c : Thread nD τ).loc main_arg1) : S4x16x32768.Idx → BitVec 32) i).toNat < 32768)
    (c : Dev nD) (t : Fin cfg0.N) (R : LoadRect S1x8x16) (x : R.shape.Idx) :
    (((ms0_0 t).view.readAt (Elt F) R ((hs0_0 t).unread (iblk m c 0 t)) x : BitVec 32)).toNat < 32768 := by
  rw [View.readAt_apply, Memref.IsWhole.read_unread]
  exact blk_lt m h c t _

/-- Row w of batch b exists when w < 32768: the one-row slice at (b, w, 0, 0) lies inside [4, 32768, 1, 128]. -/
theorem row_inb (i : grid0.Coords) (w : BitVec 32) (hw : w.toNat < 32768) :
    ∀ a, (![(BitVec.ofNat 32 (i 0).val).toNat, w.toNat, 0, 0] : Fin 4 → Nat) a + S1x1x1x128.size a ≤ S4x32768x1x128.size a := by
  intro a
  have hi : (i 0).val < 4 := (i 0).isLt
  have hb : (BitVec.ofNat 32 (i 0).val).toNat = (i 0).val := by
    rw [BitVec.toNat_ofNat]; exact Nat.mod_eq_of_lt (by omega)
  match a with
  | ⟨0, _⟩ => show (BitVec.ofNat 32 (i 0).val).toNat + 1 ≤ 4; omega
  | ⟨1, _⟩ => show w.toNat + 1 ≤ 32768; omega
  | ⟨2, _⟩ => show 0 + 1 ≤ 1; omega
  | ⟨3, _⟩ => show 0 + 128 ≤ 128; omega

/-- The frame's hypothesis from "every neighbour word is in range". -/
theorem hyps_of_range (h : ∀ (c : Dev nD) i, ((m ((c : Thread nD τ).loc main_arg1) : S4x16x32768.Idx → BitVec 32) i).toNat < 32768) :
    Hyps m := by
  intro c t
  and_intros
  all_goals exact row_inb _ _ (word_lt m h c t _ _)

end Cert.KernelIdeal.HypsOfPre

end
-- ==== Proof.HostArrays.lean ====
/-
  The two arrays the region works on, read at an index of the arguments.

  Before the region @main lays the arguments out for it:
    * the features [4, 128, 32768] with their last two axes exchanged and a unit axis inserted,
      [4, 32768, 1, 128]:   featT (b, n, 0, d) = features (b, d, n);
    * the neighbour table [4, 16, 32768] with its last two axes exchanged, [4, 32768, 16]:
      nbrT (b, n, k) = neighbours (b, k, n).
  The body's input block at grid point (b, q) is rows 8 q, …, 8 q + 7 of batch b of nbrT, and its output block
  is the same rows of batch b of the [4, 32768, 128] result.
-/
import proofs.«412756_j23708219474789_1_alg».proof.Proof.Gen.KernelIdeal.Frame.Runs
import Idealize.ShloMosaic.Lib.ValueIdx
import Idealize.ShloMosaic.Lib.Pipeline.Value

set_option maxRecDepth 16384

noncomputable section

namespace Cert.KernelIdeal.HostArrays

open Cert.KernelIdeal Cert.KernelIdeal.Gen
open Idealize.ShloMosaic Idealize.ShloMosaic.TcCoe Idealize.SL.Sem Idealize.ShloMosaic.ValueIdx

variable {F : FTy → Type} [FloatOps F] [Named F]
variable (m : (ℓ : Loc nD τ sig) → Buf (Elt F) ℓ)

/-- The feature array as the region finds it: the argument transposed, then given a unit axis. -/
theorem featT_eq (c : Dev nD) :
    (V m c main_v1 : S4x32768x1x128.Idx → Elt F .f32)
      = shapeCast S4x32768x1x128 (transpose S4x32768x128 [0, 2, 1] (m ((c : Thread nD τ).loc main_arg0))
          transposes_S4x128x32768_S4x32768x128_0_2_1) shapeCasts_S4x32768x128_S4x32768x1x128 := by
  show StableHlo.after hostOps0 (fun b => m (c, b)) (Proc.devRef .tc main_v1) = _
  after_results
  rfl

/-- featT (b, n, 0, d) = features (b, d, n). -/
theorem featT_apply (c : Dev nD) (b : Fin 4) (n : Fin 32768) (d : Fin 128) :
    (V m c main_v1 : S4x32768x1x128.Idx → Elt F .f32) (ix4 b n (0 : Fin 1) d)
      = (m ((c : Thread nD τ).loc main_arg0) : S4x128x32768.Idx → Elt F .f32) (ix3 b d n) := by
  rw [featT_eq]
  refine (shapeCast_apply _ _ (ix4 b n (0 : Fin 1) d) (ix3 b n d) ?_).trans ?_
  · rw [Shape.rowMajor_val_three, Shape.rowMajor_val_four]
    show (b.val * 32768 + n.val) * 128 + d.val = ((b.val * 32768 + n.val) * 1 + 0) * 128 + d.val
    omega
  · exact transpose_apply _ _ _ (ix3 b n d) (ix3 b d n) (fun a => match a with | ⟨0, _⟩ => rfl | ⟨1, _⟩ => rfl | ⟨2, _⟩ => rfl)

/-- The neighbour table as the region finds it: the argument with its last two axes exchanged. -/
theorem nbrT_eq (c : Dev nD) :
    (V m c main_v2 : S4x32768x16.Idx → BitVec 32)
      = transpose S4x32768x16 [0, 2, 1] (m ((c : Thread nD τ).loc main_arg1)) transposes_S4x16x32768_S4x32768x16_0_2_1 := by
  show StableHlo.after hostOps0 (fun b => m (c, b)) (Proc.devRef .tc main_v2) = _
  after_results

/-- nbrT (b, n, k) = neighbours (b, k, n). -/
theorem nbrT_apply (c : Dev nD) (b : Fin 4) (n : Fin 32768) (k : Fin 16) :
    (V m c main_v2 : S4x32768x16.Idx → BitVec 32) (ix3 b n k)
      = (m ((c : Thread nD τ).loc main_arg1) : S4x16x32768.Idx → BitVec 32) (ix3 b k n) := by
  rw [nbrT_eq]
  exact transpose_apply _ _ _ (ix3 b n k) (ix3 b k n) (fun a => match a with | ⟨0, _⟩ => rfl | ⟨1, _⟩ => rfl | ⟨2, _⟩ => rfl)

/-! ## The blocks of a grid point -/

/-- The batch and the row-block of grid point `t`. -/
def batchOf (t : Fin cfg0.N) : Fin 4 := (grid0.coords t) 0
def rowBlockOf (t : Fin cfg0.N) : Fin 4096 := (grid0.coords t) 1

/-- Row r of the row-block of point `t`, as a row of the [4, 32768, ·] arrays. -/
def rowOf (t : Fin cfg0.N) (r : Fin 8) : Fin 32768 := ⟨8 * (rowBlockOf t).val + r.val, by have := (rowBlockOf t).isLt; have := r.isLt; omega⟩

/-- A grid coordinate as a 32-bit word and back. -/
theorem coord_word (x : Nat) (hx : x < 4096) : (BitVec.ofNat 32 x).toNat = x := by
  rw [BitVec.toNat_ofNat]; exact Nat.mod_eq_of_lt (by omega)

/-- Both windows sit at block (b, q, 0) at grid point (b, q). -/
theorem index0 (t : Fin cfg0.N) : win0_0.index t = ![(batchOf t).val, (rowBlockOf t).val, 0] := by
  show cc0_transform_0 (grid0.coords t) = _
  unfold cc0_transform_0
  have h0 : (BitVec.ofNat 32 ((grid0.coords t) 0).val).toNat = ((grid0.coords t) 0).val :=
    coord_word _ (by have : ((grid0.coords t) 0).val < 4 := ((grid0.coords t) 0).isLt; omega)
  have h1 : (BitVec.ofNat 32 ((grid0.coords t) 1).val).toNat = ((grid0.coords t) 1).val :=
    coord_word _ ((grid0.coords t) 1).isLt
  simp only [h0, h1]
  rfl

theorem index1 (t : Fin cfg0.N) : win0_1.index t = ![(batchOf t).val, (rowBlockOf t).val, 0] := by
  show cc0_transform_2 (grid0.coords t) = _
  unfold cc0_transform_2
  have h0 : (BitVec.ofNat 32 ((grid0.coords t) 0).val).toNat = ((grid0.coords t) 0).val :=
    coord_word _ (by have : ((grid0.coords t) 0).val < 4 := ((grid0.coords t) 0).isLt; omega)
  have h1 : (BitVec.ofNat 32 ((grid0.coords t) 1).val).toNat = ((grid0.coords t) 1).val :=
    coord_word _ ((grid0.coords t) 1).isLt
  simp only [h0, h1]
  rfl

/-- Word (r, k) of the point's neighbour block is nbrT (b, 8 q + r, k). -/
theorem nblk_apply (c : Dev nD) (t : Fin cfg0.N) (r : Fin 8) (k : Fin 16) :
    (iblk m c 0 t : S1x8x16.Idx → BitVec 32) (ix3 (0 : Fin 1) r k)
      = (V m c main_v2 : S4x32768x16.Idx → BitVec 32) (ix3 (batchOf t) (rowOf t r) k) := by
  show (V m c main_v2 : S4x32768x16.Idx → BitVec 32) (((cfg0.win 0).blk t).view.emb (ix3 (0 : Fin 1) r k)) = _
  congr 1
  funext a
  apply Fin.ext
  have e := index0 t
  match a with
  | ⟨0, _⟩ =>
    show win0_0.index t (0 : Fin 3) * 1 + 1 * 0 = (batchOf t).val
    rw [e]; show (batchOf t).val * 1 + 1 * 0 = _; omega
  | ⟨1, _⟩ =>
    show win0_0.index t (1 : Fin 3) * 8 + 1 * r.val = 8 * (rowBlockOf t).val + r.val
    rw [e]; show (rowBlockOf t).val * 8 + 1 * r.val = _; omega
  | ⟨2, _⟩ =>
    show win0_0.index t (2 : Fin 3) * 16 + 1 * k.val = k.val
    rw [e]; show 0 * 16 + 1 * k.val = _; omega

end Cert.KernelIdeal.HostArrays

end
-- ==== Proof.PointValue.lean ====
/-
  What the body leaves in its output block at one grid point.

  At grid point (b, q) the body reads the 8 × 16 words of its neighbour block and, for row r and lane d of its
  [1, 8, 128] output block, ends with the maximum over k < 16 of featT (b, w r k, 0, d), where w r k is word
  (r, k) of the block: the block is the accumulator after the 128 steps (BodyValueKI), the accumulator starts at
  the constant named "neg_big", which denotes the bottom element, and the sixteen steps of row r are steps
  16 r, …, 16 r + 15 (PoolSteps).
-/
import proofs.«412756_j23708219474789_1_alg».proof.Proof.FrameKI
import proofs.«412756_j23708219474789_1_alg».proof.Proof.HostArrays
import proofs.«412756_j23708219474789_1_alg».proof.Proof.PoolSteps
import Idealize.ShloMosaic.PureOps.IdealRules

set_option maxRecDepth 100000

noncomputable section

namespace Cert.KernelIdeal.PointValue

open Cert.KernelIdeal Cert.KernelIdeal.Gen Cert.KernelIdeal.HostArrays Cert.KernelIdeal.BodyFacts
open Idealize.ShloMosaic Idealize.ShloMosaic.TcCoe Idealize.SL.Sem Idealize.ShloMosaic.ValueIdx

section AnyInstance
variable {F : FTy → Type} [FloatOps F] [Named F]

theorem hz3 : (![0, 0, 0] : Fin 3 → Nat) = fun _ => 0 := funext fun a => by fin_cases a <;> rfl

set_option maxHeartbeats 1000000 in
/-- What the body's one store leaves in the output's staging buffer is `outBlock`. -/
theorem out0_eq (c : Dev nD) (i : grid0.Coords) (arg2 : Memref sig .tc .smem S1x8x16 .i32) (harg2 : arg2.IsWhole) (arg4 : Memref sig .tc .vmem S1x8x128 .f32) (harg4 : arg4.IsWhole) (arg5 : Memref sig .tc .vmem S8x128 .f32) (harg5 : arg5.IsWhole) (arg6 : Memref sig .tc .vmem S2x1x128 .f32) (harg6 : arg6.IsWhole)
    (x0 : Vec F S1x8x16 .i32) (fh0 : HbBuf0 (F := F) c hbM0_0) (k0_hw1 : k0_chk1 i (arg2.view.readAt (Elt F) (Rect.unit (s := S1x8x16) ![0, 0, 0] S1x1x1.size inb_S1x8x16_S1x1x1_0_0_0).toLoadRect (harg2.unread x0) (Shape.Idx.first (numel1_S1x1x1.symm ▸ Nat.one_pos)))) (k0_hw2 : k0_chk2 i (arg2.view.readAt (Elt F) (Rect.unit (s := S1x8x16) ![0, 0, 1] S1x1x1.size inb_S1x8x16_S1x1x1_0_0_1).toLoadRect (harg2.unread x0) (Shape.Idx.first (numel1_S1x1x1.symm ▸ Nat.one_pos)))) (k0_hw3 : k0_chk3 i (arg2.view.readAt (Elt F) (Rect.unit (s := S1x8x16) ![0, 0, 2] S1x1x1.size inb_S1x8x16_S1x1x1_0_0_2).toLoadRect (harg2.unread x0) (Shape.Idx.first (numel1_S1x1x1.symm ▸ Nat.one_pos)))) (k0_hw4 : k0_chk4 i (arg2.view.readAt (Elt F) (Rect.unit (s := S1x8x16) ![0, 0, 3] S1x1x1.size inb_S1x8x16_S1x1x1_0_0_3).toLoadRect (harg2.unread x0) (Shape.Idx.first (numel1_S1x1x1.symm ▸ Nat.one_pos)))) (k0_hw5 : k0_chk5 i (arg2.view.readAt (Elt F) (Rect.unit (s := S1x8x16) ![0, 0, 4] S1x1x1.size inb_S1x8x16_S1x1x1_0_0_4).toLoadRect (harg2.unread x0) (Shape.Idx.first (numel1_S1x1x1.symm ▸ Nat.one_pos)))) (k0_hw6 : k0_chk6 i (arg2.view.readAt (Elt F) (Rect.unit (s := S1x8x16) ![0, 0, 5] S1x1x1.size inb_S1x8x16_S1x1x1_0_0_5).toLoadRect (harg2.unread x0) (Shape.Idx.first (numel1_S1x1x1.symm ▸ Nat.one_pos)))) (k0_hw7 : k0_chk7 i (arg2.view.readAt (Elt F) (Rect.unit (s := S1x8x16) ![0, 0, 6] S1x1x1.size inb_S1x8x16_S1x1x1_0_0_6).toLoadRect (harg2.unread x0) (Shape.Idx.first (numel1_S1x1x1.symm ▸ Nat.one_pos)))) (k0_hw8 : k0_chk8 i (arg2.view.readAt (Elt F) (Rect.unit (s := S1x8x16) ![0, 0, 7] S1x1x1.size inb_S1x8x16_S1x1x1_0_0_7).toLoadRect (harg2.unread x0) (Shape.Idx.first (numel1_S1x1x1.symm ▸ Nat.one_pos)))) (k0_hw9 : k0_chk9 i (arg2.view.readAt (Elt F) (Rect.unit (s := S1x8x16) ![0, 0, 8] S1x1x1.size inb_S1x8x16_S1x1x1_0_0_8).toLoadRect (harg2.unread x0) (Shape.Idx.first (numel1_S1x1x1.symm ▸ Nat.one_pos)))) (k0_hw10 : k0_chk10 i (arg2.view.readAt (Elt F) (Rect.unit (s := S1x8x16) ![0, 0, 9] S1x1x1.size inb_S1x8x16_S1x1x1_0_0_9).toLoadRect (harg2.unread x0) (Shape.Idx.first (numel1_S1x1x1.symm ▸ Nat.one_pos)))) (k0_hw11 : k0_chk11 i (arg2.view.readAt (Elt F) (Rect.unit (s := S1x8x16) ![0, 0, 10] S1x1x1.size inb_S1x8x16_S1x1x1_0_0_10).toLoadRect (harg2.unread x0) (Shape.Idx.first (numel1_S1x1x1.symm ▸ Nat.one_pos)))) (k0_hw12 : k0_chk12 i (arg2.view.readAt (Elt F) (Rect.unit (s := S1x8x16) ![0, 0, 11] S1x1x1.size inb_S1x8x16_S1x1x1_0_0_11).toLoadRect (harg2.unread x0) (Shape.Idx.first (numel1_S1x1x1.symm ▸ Nat.one_pos)))) (k0_hw13 : k0_chk13 i (arg2.view.readAt (Elt F) (Rect.unit (s := S1x8x16) ![0, 0, 12] S1x1x1.size inb_S1x8x16_S1x1x1_0_0_12).toLoadRect (harg2.unread x0) (Shape.Idx.first (numel1_S1x1x1.symm ▸ Nat.one_pos)))) (k0_hw14 : k0_chk14 i (arg2.view.readAt (Elt F) (Rect.unit (s := S1x8x16) ![0, 0, 13] S1x1x1.size inb_S1x8x16_S1x1x1_0_0_13).toLoadRect (harg2.unread x0) (Shape.Idx.first (numel1_S1x1x1.symm ▸ Nat.one_pos)))) (k0_hw15 : k0_chk15 i (arg2.view.readAt (Elt F) (Rect.unit (s := S1x8x16) ![0, 0, 14] S1x1x1.size inb_S1x8x16_S1x1x1_0_0_14).toLoadRect (harg2.unread x0) (Shape.Idx.first (numel1_S1x1x1.symm ▸ Nat.one_pos)))) (k0_hw16 : k0_chk16 i (arg2.view.readAt (Elt F) (Rect.unit (s := S1x8x16) ![0, 0, 15] S1x1x1.size inb_S1x8x16_S1x1x1_0_0_15).toLoadRect (harg2.unread x0) (Shape.Idx.first (numel1_S1x1x1.symm ▸ Nat.one_pos)))) (k0_hw17 : k0_chk17 i (arg2.view.readAt (Elt F) (Rect.unit (s := S1x8x16) ![0, 1, 0] S1x1x1.size inb_S1x8x16_S1x1x1_0_1_0).toLoadRect (harg2.unread x0) (Shape.Idx.first (numel1_S1x1x1.symm ▸ Nat.one_pos)))) (k0_hw18 : k0_chk18 i (arg2.view.readAt (Elt F) (Rect.unit (s := S1x8x16) ![0, 1, 1] S1x1x1.size inb_S1x8x16_S1x1x1_0_1_1).toLoadRect (harg2.unread x0) (Shape.Idx.first (numel1_S1x1x1.symm ▸ Nat.one_pos)))) (k0_hw19 : k0_chk19 i (arg2.view.readAt (Elt F) (Rect.unit (s := S1x8x16) ![0, 1, 2] S1x1x1.size inb_S1x8x16_S1x1x1_0_1_2).toLoadRect (harg2.unread x0) (Shape.Idx.first (numel1_S1x1x1.symm ▸ Nat.one_pos)))) (k0_hw20 : k0_chk20 i (arg2.view.readAt (Elt F) (Rect.unit (s := S1x8x16) ![0, 1, 3] S1x1x1.size inb_S1x8x16_S1x1x1_0_1_3).toLoadRect (harg2.unread x0) (Shape.Idx.first (numel1_S1x1x1.symm ▸ Nat.one_pos)))) (k0_hw21 : k0_chk21 i (arg2.view.readAt (Elt F) (Rect.unit (s := S1x8x16) ![0, 1, 4] S1x1x1.size inb_S1x8x16_S1x1x1_0_1_4).toLoadRect (harg2.unread x0) (Shape.Idx.first (numel1_S1x1x1.symm ▸ Nat.one_pos)))) (k0_hw22 : k0_chk22 i (arg2.view.readAt (Elt F) (Rect.unit (s := S1x8x16) ![0, 1, 5] S1x1x1.size inb_S1x8x16_S1x1x1_0_1_5).toLoadRect (harg2.unread x0) (Shape.Idx.first (numel1_S1x1x1.symm ▸ Nat.one_pos)))) (k0_hw23 : k0_chk23 i (arg2.view.readAt (Elt F) (Rect.unit (s := S1x8x16) ![0, 1, 6] S1x1x1.size inb_S1x8x16_S1x1x1_0_1_6).toLoadRect (harg2.unread x0) (Shape.Idx.first (numel1_S1x1x1.symm ▸ Nat.one_pos)))) (k0_hw24 : k0_chk24 i (arg2.view.readAt (Elt F) (Rect.unit (s := S1x8x16) ![0, 1, 7] S1x1x1.size inb_S1x8x16_S1x1x1_0_1_7).toLoadRect (harg2.unread x0) (Shape.Idx.first (numel1_S1x1x1.symm ▸ Nat.one_pos)))) (k0_hw25 : k0_chk25 i (arg2.view.readAt (Elt F) (Rect.unit (s := S1x8x16) ![0, 1, 8] S1x1x1.size inb_S1x8x16_S1x1x1_0_1_8).toLoadRect (harg2.unread x0) (Shape.Idx.first (numel1_S1x1x1.symm ▸ Nat.one_pos)))) (k0_hw26 : k0_chk26 i (arg2.view.readAt (Elt F) (Rect.unit (s := S1x8x16) ![0, 1, 9] S1x1x1.size inb_S1x8x16_S1x1x1_0_1_9).toLoadRect (harg2.unread x0) (Shape.Idx.first (numel1_S1x1x1.symm ▸ Nat.one_pos)))) (k0_hw27 : k0_chk27 i (arg2.view.readAt (Elt F) (Rect.unit (s := S1x8x16) ![0, 1, 10] S1x1x1.size inb_S1x8x16_S1x1x1_0_1_10).toLoadRect (harg2.unread x0) (Shape.Idx.first (numel1_S1x1x1.symm ▸ Nat.one_pos)))) (k0_hw28 : k0_chk28 i (arg2.view.readAt (Elt F) (Rect.unit (s := S1x8x16) ![0, 1, 11] S1x1x1.size inb_S1x8x16_S1x1x1_0_1_11).toLoadRect (harg2.unread x0) (Shape.Idx.first (numel1_S1x1x1.symm ▸ Nat.one_pos)))) (k0_hw29 : k0_chk29 i (arg2.view.readAt (Elt F) (Rect.unit (s := S1x8x16) ![0, 1, 12] S1x1x1.size inb_S1x8x16_S1x1x1_0_1_12).toLoadRect (harg2.unread x0) (Shape.Idx.first (numel1_S1x1x1.symm ▸ Nat.one_pos)))) (k0_hw30 : k0_chk30 i (arg2.view.readAt (Elt F) (Rect.unit (s := S1x8x16) ![0, 1, 13] S1x1x1.size inb_S1x8x16_S1x1x1_0_1_13).toLoadRect (harg2.unread x0) (Shape.Idx.first (numel1_S1x1x1.symm ▸ Nat.one_pos)))) (k0_hw31 : k0_chk31 i (arg2.view.readAt (Elt F) (Rect.unit (s := S1x8x16) ![0, 1, 14] S1x1x1.size inb_S1x8x16_S1x1x1_0_1_14).toLoadRect (harg2.unread x0) (Shape.Idx.first (numel1_S1x1x1.symm ▸ Nat.one_pos)))) (k0_hw32 : k0_chk32 i (arg2.view.readAt (Elt F) (Rect.unit (s := S1x8x16) ![0, 1, 15] S1x1x1.size inb_S1x8x16_S1x1x1_0_1_15).toLoadRect (harg2.unread x0) (Shape.Idx.first (numel1_S1x1x1.symm ▸ Nat.one_pos)))) (k0_hw33 : k0_chk33 i (arg2.view.readAt (Elt F) (Rect.unit (s := S1x8x16) ![0, 2, 0] S1x1x1.size inb_S1x8x16_S1x1x1_0_2_0).toLoadRect (harg2.unread x0) (Shape.Idx.first (numel1_S1x1x1.symm ▸ Nat.one_pos)))) (k0_hw34 : k0_chk34 i (arg2.view.readAt (Elt F) (Rect.unit (s := S1x8x16) ![0, 2, 1] S1x1x1.size inb_S1x8x16_S1x1x1_0_2_1).toLoadRect (harg2.unread x0) (Shape.Idx.first (numel1_S1x1x1.symm ▸ Nat.one_pos)))) (k0_hw35 : k0_chk35 i (arg2.view.readAt (Elt F) (Rect.unit (s := S1x8x16) ![0, 2, 2] S1x1x1.size inb_S1x8x16_S1x1x1_0_2_2).toLoadRect (harg2.unread x0) (Shape.Idx.first (numel1_S1x1x1.symm ▸ Nat.one_pos)))) (k0_hw36 : k0_chk36 i (arg2.view.readAt (Elt F) (Rect.unit (s := S1x8x16) ![0, 2, 3] S1x1x1.size inb_S1x8x16_S1x1x1_0_2_3).toLoadRect (harg2.unread x0) (Shape.Idx.first (numel1_S1x1x1.symm ▸ Nat.one_pos)))) (k0_hw37 : k0_chk37 i (arg2.view.readAt (Elt F) (Rect.unit (s := S1x8x16) ![0, 2, 4] S1x1x1.size inb_S1x8x16_S1x1x1_0_2_4).toLoadRect (harg2.unread x0) (Shape.Idx.first (numel1_S1x1x1.symm ▸ Nat.one_pos)))) (k0_hw38 : k0_chk38 i (arg2.view.readAt (Elt F) (Rect.unit (s := S1x8x16) ![0, 2, 5] S1x1x1.size inb_S1x8x16_S1x1x1_0_2_5).toLoadRect (harg2.unread x0) (Shape.Idx.first (numel1_S1x1x1.symm ▸ Nat.one_pos)))) (k0_hw39 : k0_chk39 i (arg2.view.readAt (Elt F) (Rect.unit (s := S1x8x16) ![0, 2, 6] S1x1x1.size inb_S1x8x16_S1x1x1_0_2_6).toLoadRect (harg2.unread x0) (Shape.Idx.first (numel1_S1x1x1.symm ▸ Nat.one_pos)))) (k0_hw40 : k0_chk40 i (arg2.view.readAt (Elt F) (Rect.unit (s := S1x8x16) ![0, 2, 7] S1x1x1.size inb_S1x8x16_S1x1x1_0_2_7).toLoadRect (harg2.unread x0) (Shape.Idx.first (numel1_S1x1x1.symm ▸ Nat.one_pos)))) (k0_hw41 : k0_chk41 i (arg2.view.readAt (Elt F) (Rect.unit (s := S1x8x16) ![0, 2, 8] S1x1x1.size inb_S1x8x16_S1x1x1_0_2_8).toLoadRect (harg2.unread x0) (Shape.Idx.first (numel1_S1x1x1.symm ▸ Nat.one_pos)))) (k0_hw42 : k0_chk42 i (arg2.view.readAt (Elt F) (Rect.unit (s := S1x8x16) ![0, 2, 9] S1x1x1.size inb_S1x8x16_S1x1x1_0_2_9).toLoadRect (harg2.unread x0) (Shape.Idx.first (numel1_S1x1x1.symm ▸ Nat.one_pos)))) (k0_hw43 : k0_chk43 i (arg2.view.readAt (Elt F) (Rect.unit (s := S1x8x16) ![0, 2, 10] S1x1x1.size inb_S1x8x16_S1x1x1_0_2_10).toLoadRect (harg2.unread x0) (Shape.Idx.first (numel1_S1x1x1.symm ▸ Nat.one_pos)))) (k0_hw44 : k0_chk44 i (arg2.view.readAt (Elt F) (Rect.unit (s := S1x8x16) ![0, 2, 11] S1x1x1.size inb_S1x8x16_S1x1x1_0_2_11).toLoadRect (harg2.unread x0) (Shape.Idx.first (numel1_S1x1x1.symm ▸ Nat.one_pos)))) (k0_hw45 : k0_chk45 i (arg2.view.readAt (Elt F) (Rect.unit (s := S1x8x16) ![0, 2, 12] S1x1x1.size inb_S1x8x16_S1x1x1_0_2_12).toLoadRect (harg2.unread x0) (Shape.Idx.first (numel1_S1x1x1.symm ▸ Nat.one_pos)))) (k0_hw46 : k0_chk46 i (arg2.view.readAt (Elt F) (Rect.unit (s := S1x8x16) ![0, 2, 13] S1x1x1.size inb_S1x8x16_S1x1x1_0_2_13).toLoadRect (harg2.unread x0) (Shape.Idx.first (numel1_S1x1x1.symm ▸ Nat.one_pos)))) (k0_hw47 : k0_chk47 i (arg2.view.readAt (Elt F) (Rect.unit (s := S1x8x16) ![0, 2, 14] S1x1x1.size inb_S1x8x16_S1x1x1_0_2_14).toLoadRect (harg2.unread x0) (Shape.Idx.first (numel1_S1x1x1.symm ▸ Nat.one_pos)))) (k0_hw48 : k0_chk48 i (arg2.view.readAt (Elt F) (Rect.unit (s := S1x8x16) ![0, 2, 15] S1x1x1.size inb_S1x8x16_S1x1x1_0_2_15).toLoadRect (harg2.unread x0) (Shape.Idx.first (numel1_S1x1x1.symm ▸ Nat.one_pos)))) (k0_hw49 : k0_chk49 i (arg2.view.readAt (Elt F) (Rect.unit (s := S1x8x16) ![0, 3, 0] S1x1x1.size inb_S1x8x16_S1x1x1_0_3_0).toLoadRect (harg2.unread x0) (Shape.Idx.first (numel1_S1x1x1.symm ▸ Nat.one_pos)))) (k0_hw50 : k0_chk50 i (arg2.view.readAt (Elt F) (Rect.unit (s := S1x8x16) ![0, 3, 1] S1x1x1.size inb_S1x8x16_S1x1x1_0_3_1).toLoadRect (harg2.unread x0) (Shape.Idx.first (numel1_S1x1x1.symm ▸ Nat.one_pos)))) (k0_hw51 : k0_chk51 i (arg2.view.readAt (Elt F) (Rect.unit (s := S1x8x16) ![0, 3, 2] S1x1x1.size inb_S1x8x16_S1x1x1_0_3_2).toLoadRect (harg2.unread x0) (Shape.Idx.first (numel1_S1x1x1.symm ▸ Nat.one_pos)))) (k0_hw52 : k0_chk52 i (arg2.view.readAt (Elt F) (Rect.unit (s := S1x8x16) ![0, 3, 3] S1x1x1.size inb_S1x8x16_S1x1x1_0_3_3).toLoadRect (harg2.unread x0) (Shape.Idx.first (numel1_S1x1x1.symm ▸ Nat.one_pos)))) (k0_hw53 : k0_chk53 i (arg2.view.readAt (Elt F) (Rect.unit (s := S1x8x16) ![0, 3, 4] S1x1x1.size inb_S1x8x16_S1x1x1_0_3_4).toLoadRect (harg2.unread x0) (Shape.Idx.first (numel1_S1x1x1.symm ▸ Nat.one_pos)))) (k0_hw54 : k0_chk54 i (arg2.view.readAt (Elt F) (Rect.unit (s := S1x8x16) ![0, 3, 5] S1x1x1.size inb_S1x8x16_S1x1x1_0_3_5).toLoadRect (harg2.unread x0) (Shape.Idx.first (numel1_S1x1x1.symm ▸ Nat.one_pos)))) (k0_hw55 : k0_chk55 i (arg2.view.readAt (Elt F) (Rect.unit (s := S1x8x16) ![0, 3, 6] S1x1x1.size inb_S1x8x16_S1x1x1_0_3_6).toLoadRect (harg2.unread x0) (Shape.Idx.first (numel1_S1x1x1.symm ▸ Nat.one_pos)))) (k0_hw56 : k0_chk56 i (arg2.view.readAt (Elt F) (Rect.unit (s := S1x8x16) ![0, 3, 7] S1x1x1.size inb_S1x8x16_S1x1x1_0_3_7).toLoadRect (harg2.unread x0) (Shape.Idx.first (numel1_S1x1x1.symm ▸ Nat.one_pos)))) (k0_hw57 : k0_chk57 i (arg2.view.readAt (Elt F) (Rect.unit (s := S1x8x16) ![0, 3, 8] S1x1x1.size inb_S1x8x16_S1x1x1_0_3_8).toLoadRect (harg2.unread x0) (Shape.Idx.first (numel1_S1x1x1.symm ▸ Nat.one_pos)))) (k0_hw58 : k0_chk58 i (arg2.view.readAt (Elt F) (Rect.unit (s := S1x8x16) ![0, 3, 9] S1x1x1.size inb_S1x8x16_S1x1x1_0_3_9).toLoadRect (harg2.unread x0) (Shape.Idx.first (numel1_S1x1x1.symm ▸ Nat.one_pos)))) (k0_hw59 : k0_chk59 i (arg2.view.readAt (Elt F) (Rect.unit (s := S1x8x16) ![0, 3, 10] S1x1x1.size inb_S1x8x16_S1x1x1_0_3_10).toLoadRect (harg2.unread x0) (Shape.Idx.first (numel1_S1x1x1.symm ▸ Nat.one_pos)))) (k0_hw60 : k0_chk60 i (arg2.view.readAt (Elt F) (Rect.unit (s := S1x8x16) ![0, 3, 11] S1x1x1.size inb_S1x8x16_S1x1x1_0_3_11).toLoadRect (harg2.unread x0) (Shape.Idx.first (numel1_S1x1x1.symm ▸ Nat.one_pos)))) (k0_hw61 : k0_chk61 i (arg2.view.readAt (Elt F) (Rect.unit (s := S1x8x16) ![0, 3, 12] S1x1x1.size inb_S1x8x16_S1x1x1_0_3_12).toLoadRect (harg2.unread x0) (Shape.Idx.first (numel1_S1x1x1.symm ▸ Nat.one_pos)))) (k0_hw62 : k0_chk62 i (arg2.view.readAt (Elt F) (Rect.unit (s := S1x8x16) ![0, 3, 13] S1x1x1.size inb_S1x8x16_S1x1x1_0_3_13).toLoadRect (harg2.unread x0) (Shape.Idx.first (numel1_S1x1x1.symm ▸ Nat.one_pos)))) (k0_hw63 : k0_chk63 i (arg2.view.readAt (Elt F) (Rect.unit (s := S1x8x16) ![0, 3, 14] S1x1x1.size inb_S1x8x16_S1x1x1_0_3_14).toLoadRect (harg2.unread x0) (Shape.Idx.first (numel1_S1x1x1.symm ▸ Nat.one_pos)))) (k0_hw64 : k0_chk64 i (arg2.view.readAt (Elt F) (Rect.unit (s := S1x8x16) ![0, 3, 15] S1x1x1.size inb_S1x8x16_S1x1x1_0_3_15).toLoadRect (harg2.unread x0) (Shape.Idx.first (numel1_S1x1x1.symm ▸ Nat.one_pos)))) (k0_hw65 : k0_chk65 i (arg2.view.readAt (Elt F) (Rect.unit (s := S1x8x16) ![0, 4, 0] S1x1x1.size inb_S1x8x16_S1x1x1_0_4_0).toLoadRect (harg2.unread x0) (Shape.Idx.first (numel1_S1x1x1.symm ▸ Nat.one_pos)))) (k0_hw66 : k0_chk66 i (arg2.view.readAt (Elt F) (Rect.unit (s := S1x8x16) ![0, 4, 1] S1x1x1.size inb_S1x8x16_S1x1x1_0_4_1).toLoadRect (harg2.unread x0) (Shape.Idx.first (numel1_S1x1x1.symm ▸ Nat.one_pos)))) (k0_hw67 : k0_chk67 i (arg2.view.readAt (Elt F) (Rect.unit (s := S1x8x16) ![0, 4, 2] S1x1x1.size inb_S1x8x16_S1x1x1_0_4_2).toLoadRect (harg2.unread x0) (Shape.Idx.first (numel1_S1x1x1.symm ▸ Nat.one_pos)))) (k0_hw68 : k0_chk68 i (arg2.view.readAt (Elt F) (Rect.unit (s := S1x8x16) ![0, 4, 3] S1x1x1.size inb_S1x8x16_S1x1x1_0_4_3).toLoadRect (harg2.unread x0) (Shape.Idx.first (numel1_S1x1x1.symm ▸ Nat.one_pos)))) (k0_hw69 : k0_chk69 i (arg2.view.readAt (Elt F) (Rect.unit (s := S1x8x16) ![0, 4, 4] S1x1x1.size inb_S1x8x16_S1x1x1_0_4_4).toLoadRect (harg2.unread x0) (Shape.Idx.first (numel1_S1x1x1.symm ▸ Nat.one_pos)))) (k0_hw70 : k0_chk70 i (arg2.view.readAt (Elt F) (Rect.unit (s := S1x8x16) ![0, 4, 5] S1x1x1.size inb_S1x8x16_S1x1x1_0_4_5).toLoadRect (harg2.unread x0) (Shape.Idx.first (numel1_S1x1x1.symm ▸ Nat.one_pos)))) (k0_hw71 : k0_chk71 i (arg2.view.readAt (Elt F) (Rect.unit (s := S1x8x16) ![0, 4, 6] S1x1x1.size inb_S1x8x16_S1x1x1_0_4_6).toLoadRect (harg2.unread x0) (Shape.Idx.first (numel1_S1x1x1.symm ▸ Nat.one_pos)))) (k0_hw72 : k0_chk72 i (arg2.view.readAt (Elt F) (Rect.unit (s := S1x8x16) ![0, 4, 7] S1x1x1.size inb_S1x8x16_S1x1x1_0_4_7).toLoadRect (harg2.unread x0) (Shape.Idx.first (numel1_S1x1x1.symm ▸ Nat.one_pos)))) (k0_hw73 : k0_chk73 i (arg2.view.readAt (Elt F) (Rect.unit (s := S1x8x16) ![0, 4, 8] S1x1x1.size inb_S1x8x16_S1x1x1_0_4_8).toLoadRect (harg2.unread x0) (Shape.Idx.first (numel1_S1x1x1.symm ▸ Nat.one_pos)))) (k0_hw74 : k0_chk74 i (arg2.view.readAt (Elt F) (Rect.unit (s := S1x8x16) ![0, 4, 9] S1x1x1.size inb_S1x8x16_S1x1x1_0_4_9).toLoadRect (harg2.unread x0) (Shape.Idx.first (numel1_S1x1x1.symm ▸ Nat.one_pos)))) (k0_hw75 : k0_chk75 i (arg2.view.readAt (Elt F) (Rect.unit (s := S1x8x16) ![0, 4, 10] S1x1x1.size inb_S1x8x16_S1x1x1_0_4_10).toLoadRect (harg2.unread x0) (Shape.Idx.first (numel1_S1x1x1.symm ▸ Nat.one_pos)))) (k0_hw76 : k0_chk76 i (arg2.view.readAt (Elt F) (Rect.unit (s := S1x8x16) ![0, 4, 11] S1x1x1.size inb_S1x8x16_S1x1x1_0_4_11).toLoadRect (harg2.unread x0) (Shape.Idx.first (numel1_S1x1x1.symm ▸ Nat.one_pos)))) (k0_hw77 : k0_chk77 i (arg2.view.readAt (Elt F) (Rect.unit (s := S1x8x16) ![0, 4, 12] S1x1x1.size inb_S1x8x16_S1x1x1_0_4_12).toLoadRect (harg2.unread x0) (Shape.Idx.first (numel1_S1x1x1.symm ▸ Nat.one_pos)))) (k0_hw78 : k0_chk78 i (arg2.view.readAt (Elt F) (Rect.unit (s := S1x8x16) ![0, 4, 13] S1x1x1.size inb_S1x8x16_S1x1x1_0_4_13).toLoadRect (harg2.unread x0) (Shape.Idx.first (numel1_S1x1x1.symm ▸ Nat.one_pos)))) (k0_hw79 : k0_chk79 i (arg2.view.readAt (Elt F) (Rect.unit (s := S1x8x16) ![0, 4, 14] S1x1x1.size inb_S1x8x16_S1x1x1_0_4_14).toLoadRect (harg2.unread x0) (Shape.Idx.first (numel1_S1x1x1.symm ▸ Nat.one_pos)))) (k0_hw80 : k0_chk80 i (arg2.view.readAt (Elt F) (Rect.unit (s := S1x8x16) ![0, 4, 15] S1x1x1.size inb_S1x8x16_S1x1x1_0_4_15).toLoadRect (harg2.unread x0) (Shape.Idx.first (numel1_S1x1x1.symm ▸ Nat.one_pos)))) (k0_hw81 : k0_chk81 i (arg2.view.readAt (Elt F) (Rect.unit (s := S1x8x16) ![0, 5, 0] S1x1x1.size inb_S1x8x16_S1x1x1_0_5_0).toLoadRect (harg2.unread x0) (Shape.Idx.first (numel1_S1x1x1.symm ▸ Nat.one_pos)))) (k0_hw82 : k0_chk82 i (arg2.view.readAt (Elt F) (Rect.unit (s := S1x8x16) ![0, 5, 1] S1x1x1.size inb_S1x8x16_S1x1x1_0_5_1).toLoadRect (harg2.unread x0) (Shape.Idx.first (numel1_S1x1x1.symm ▸ Nat.one_pos)))) (k0_hw83 : k0_chk83 i (arg2.view.readAt (Elt F) (Rect.unit (s := S1x8x16) ![0, 5, 2] S1x1x1.size inb_S1x8x16_S1x1x1_0_5_2).toLoadRect (harg2.unread x0) (Shape.Idx.first (numel1_S1x1x1.symm ▸ Nat.one_pos)))) (k0_hw84 : k0_chk84 i (arg2.view.readAt (Elt F) (Rect.unit (s := S1x8x16) ![0, 5, 3] S1x1x1.size inb_S1x8x16_S1x1x1_0_5_3).toLoadRect (harg2.unread x0) (Shape.Idx.first (numel1_S1x1x1.symm ▸ Nat.one_pos)))) (k0_hw85 : k0_chk85 i (arg2.view.readAt (Elt F) (Rect.unit (s := S1x8x16) ![0, 5, 4] S1x1x1.size inb_S1x8x16_S1x1x1_0_5_4).toLoadRect (harg2.unread x0) (Shape.Idx.first (numel1_S1x1x1.symm ▸ Nat.one_pos)))) (k0_hw86 : k0_chk86 i (arg2.view.readAt (Elt F) (Rect.unit (s := S1x8x16) ![0, 5, 5] S1x1x1.size inb_S1x8x16_S1x1x1_0_5_5).toLoadRect (harg2.unread x0) (Shape.Idx.first (numel1_S1x1x1.symm ▸ Nat.one_pos)))) (k0_hw87 : k0_chk87 i (arg2.view.readAt (Elt F) (Rect.unit (s := S1x8x16) ![0, 5, 6] S1x1x1.size inb_S1x8x16_S1x1x1_0_5_6).toLoadRect (harg2.unread x0) (Shape.Idx.first (numel1_S1x1x1.symm ▸ Nat.one_pos)))) (k0_hw88 : k0_chk88 i (arg2.view.readAt (Elt F) (Rect.unit (s := S1x8x16) ![0, 5, 7] S1x1x1.size inb_S1x8x16_S1x1x1_0_5_7).toLoadRect (harg2.unread x0) (Shape.Idx.first (numel1_S1x1x1.symm ▸ Nat.one_pos)))) (k0_hw89 : k0_chk89 i (arg2.view.readAt (Elt F) (Rect.unit (s := S1x8x16) ![0, 5, 8] S1x1x1.size inb_S1x8x16_S1x1x1_0_5_8).toLoadRect (harg2.unread x0) (Shape.Idx.first (numel1_S1x1x1.symm ▸ Nat.one_pos)))) (k0_hw90 : k0_chk90 i (arg2.view.readAt (Elt F) (Rect.unit (s := S1x8x16) ![0, 5, 9] S1x1x1.size inb_S1x8x16_S1x1x1_0_5_9).toLoadRect (harg2.unread x0) (Shape.Idx.first (numel1_S1x1x1.symm ▸ Nat.one_pos)))) (k0_hw91 : k0_chk91 i (arg2.view.readAt (Elt F) (Rect.unit (s := S1x8x16) ![0, 5, 10] S1x1x1.size inb_S1x8x16_S1x1x1_0_5_10).toLoadRect (harg2.unread x0) (Shape.Idx.first (numel1_S1x1x1.symm ▸ Nat.one_pos)))) (k0_hw92 : k0_chk92 i (arg2.view.readAt (Elt F) (Rect.unit (s := S1x8x16) ![0, 5, 11] S1x1x1.size inb_S1x8x16_S1x1x1_0_5_11).toLoadRect (harg2.unread x0) (Shape.Idx.first (numel1_S1x1x1.symm ▸ Nat.one_pos)))) (k0_hw93 : k0_chk93 i (arg2.view.readAt (Elt F) (Rect.unit (s := S1x8x16) ![0, 5, 12] S1x1x1.size inb_S1x8x16_S1x1x1_0_5_12).toLoadRect (harg2.unread x0) (Shape.Idx.first (numel1_S1x1x1.symm ▸ Nat.one_pos)))) (k0_hw94 : k0_chk94 i (arg2.view.readAt (Elt F) (Rect.unit (s := S1x8x16) ![0, 5, 13] S1x1x1.size inb_S1x8x16_S1x1x1_0_5_13).toLoadRect (harg2.unread x0) (Shape.Idx.first (numel1_S1x1x1.symm ▸ Nat.one_pos)))) (k0_hw95 : k0_chk95 i (arg2.view.readAt (Elt F) (Rect.unit (s := S1x8x16) ![0, 5, 14] S1x1x1.size inb_S1x8x16_S1x1x1_0_5_14).toLoadRect (harg2.unread x0) (Shape.Idx.first (numel1_S1x1x1.symm ▸ Nat.one_pos)))) (k0_hw96 : k0_chk96 i (arg2.view.readAt (Elt F) (Rect.unit (s := S1x8x16) ![0, 5, 15] S1x1x1.size inb_S1x8x16_S1x1x1_0_5_15).toLoadRect (harg2.unread x0) (Shape.Idx.first (numel1_S1x1x1.symm ▸ Nat.one_pos)))) (k0_hw97 : k0_chk97 i (arg2.view.readAt (Elt F) (Rect.unit (s := S1x8x16) ![0, 6, 0] S1x1x1.size inb_S1x8x16_S1x1x1_0_6_0).toLoadRect (harg2.unread x0) (Shape.Idx.first (numel1_S1x1x1.symm ▸ Nat.one_pos)))) (k0_hw98 : k0_chk98 i (arg2.view.readAt (Elt F) (Rect.unit (s := S1x8x16) ![0, 6, 1] S1x1x1.size inb_S1x8x16_S1x1x1_0_6_1).toLoadRect (harg2.unread x0) (Shape.Idx.first (numel1_S1x1x1.symm ▸ Nat.one_pos)))) (k0_hw99 : k0_chk99 i (arg2.view.readAt (Elt F) (Rect.unit (s := S1x8x16) ![0, 6, 2] S1x1x1.size inb_S1x8x16_S1x1x1_0_6_2).toLoadRect (harg2.unread x0) (Shape.Idx.first (numel1_S1x1x1.symm ▸ Nat.one_pos)))) (k0_hw100 : k0_chk100 i (arg2.view.readAt (Elt F) (Rect.unit (s := S1x8x16) ![0, 6, 3] S1x1x1.size inb_S1x8x16_S1x1x1_0_6_3).toLoadRect (harg2.unread x0) (Shape.Idx.first (numel1_S1x1x1.symm ▸ Nat.one_pos)))) (k0_hw101 : k0_chk101 i (arg2.view.readAt (Elt F) (Rect.unit (s := S1x8x16) ![0, 6, 4] S1x1x1.size inb_S1x8x16_S1x1x1_0_6_4).toLoadRect (harg2.unread x0) (Shape.Idx.first (numel1_S1x1x1.symm ▸ Nat.one_pos)))) (k0_hw102 : k0_chk102 i (arg2.view.readAt (Elt F) (Rect.unit (s := S1x8x16) ![0, 6, 5] S1x1x1.size inb_S1x8x16_S1x1x1_0_6_5).toLoadRect (harg2.unread x0) (Shape.Idx.first (numel1_S1x1x1.symm ▸ Nat.one_pos)))) (k0_hw103 : k0_chk103 i (arg2.view.readAt (Elt F) (Rect.unit (s := S1x8x16) ![0, 6, 6] S1x1x1.size inb_S1x8x16_S1x1x1_0_6_6).toLoadRect (harg2.unread x0) (Shape.Idx.first (numel1_S1x1x1.symm ▸ Nat.one_pos)))) (k0_hw104 : k0_chk104 i (arg2.view.readAt (Elt F) (Rect.unit (s := S1x8x16) ![0, 6, 7] S1x1x1.size inb_S1x8x16_S1x1x1_0_6_7).toLoadRect (harg2.unread x0) (Shape.Idx.first (numel1_S1x1x1.symm ▸ Nat.one_pos)))) (k0_hw105 : k0_chk105 i (arg2.view.readAt (Elt F) (Rect.unit (s := S1x8x16) ![0, 6, 8] S1x1x1.size inb_S1x8x16_S1x1x1_0_6_8).toLoadRect (harg2.unread x0) (Shape.Idx.first (numel1_S1x1x1.symm ▸ Nat.one_pos)))) (k0_hw106 : k0_chk106 i (arg2.view.readAt (Elt F) (Rect.unit (s := S1x8x16) ![0, 6, 9] S1x1x1.size inb_S1x8x16_S1x1x1_0_6_9).toLoadRect (harg2.unread x0) (Shape.Idx.first (numel1_S1x1x1.symm ▸ Nat.one_pos)))) (k0_hw107 : k0_chk107 i (arg2.view.readAt (Elt F) (Rect.unit (s := S1x8x16) ![0, 6, 10] S1x1x1.size inb_S1x8x16_S1x1x1_0_6_10).toLoadRect (harg2.unread x0) (Shape.Idx.first (numel1_S1x1x1.symm ▸ Nat.one_pos)))) (k0_hw108 : k0_chk108 i (arg2.view.readAt (Elt F) (Rect.unit (s := S1x8x16) ![0, 6, 11] S1x1x1.size inb_S1x8x16_S1x1x1_0_6_11).toLoadRect (harg2.unread x0) (Shape.Idx.first (numel1_S1x1x1.symm ▸ Nat.one_pos)))) (k0_hw109 : k0_chk109 i (arg2.view.readAt (Elt F) (Rect.unit (s := S1x8x16) ![0, 6, 12] S1x1x1.size inb_S1x8x16_S1x1x1_0_6_12).toLoadRect (harg2.unread x0) (Shape.Idx.first (numel1_S1x1x1.symm ▸ Nat.one_pos)))) (k0_hw110 : k0_chk110 i (arg2.view.readAt (Elt F) (Rect.unit (s := S1x8x16) ![0, 6, 13] S1x1x1.size inb_S1x8x16_S1x1x1_0_6_13).toLoadRect (harg2.unread x0) (Shape.Idx.first (numel1_S1x1x1.symm ▸ Nat.one_pos)))) (k0_hw111 : k0_chk111 i (arg2.view.readAt (Elt F) (Rect.unit (s := S1x8x16) ![0, 6, 14] S1x1x1.size inb_S1x8x16_S1x1x1_0_6_14).toLoadRect (harg2.unread x0) (Shape.Idx.first (numel1_S1x1x1.symm ▸ Nat.one_pos)))) (k0_hw112 : k0_chk112 i (arg2.view.readAt (Elt F) (Rect.unit (s := S1x8x16) ![0, 6, 15] S1x1x1.size inb_S1x8x16_S1x1x1_0_6_15).toLoadRect (harg2.unread x0) (Shape.Idx.first (numel1_S1x1x1.symm ▸ Nat.one_pos)))) (k0_hw113 : k0_chk113 i (arg2.view.readAt (Elt F) (Rect.unit (s := S1x8x16) ![0, 7, 0] S1x1x1.size inb_S1x8x16_S1x1x1_0_7_0).toLoadRect (harg2.unread x0) (Shape.Idx.first (numel1_S1x1x1.symm ▸ Nat.one_pos)))) (k0_hw114 : k0_chk114 i (arg2.view.readAt (Elt F) (Rect.unit (s := S1x8x16) ![0, 7, 1] S1x1x1.size inb_S1x8x16_S1x1x1_0_7_1).toLoadRect (harg2.unread x0) (Shape.Idx.first (numel1_S1x1x1.symm ▸ Nat.one_pos)))) (k0_hw115 : k0_chk115 i (arg2.view.readAt (Elt F) (Rect.unit (s := S1x8x16) ![0, 7, 2] S1x1x1.size inb_S1x8x16_S1x1x1_0_7_2).toLoadRect (harg2.unread x0) (Shape.Idx.first (numel1_S1x1x1.symm ▸ Nat.one_pos)))) (k0_hw116 : k0_chk116 i (arg2.view.readAt (Elt F) (Rect.unit (s := S1x8x16) ![0, 7, 3] S1x1x1.size inb_S1x8x16_S1x1x1_0_7_3).toLoadRect (harg2.unread x0) (Shape.Idx.first (numel1_S1x1x1.symm ▸ Nat.one_pos)))) (k0_hw117 : k0_chk117 i (arg2.view.readAt (Elt F) (Rect.unit (s := S1x8x16) ![0, 7, 4] S1x1x1.size inb_S1x8x16_S1x1x1_0_7_4).toLoadRect (harg2.unread x0) (Shape.Idx.first (numel1_S1x1x1.symm ▸ Nat.one_pos)))) (k0_hw118 : k0_chk118 i (arg2.view.readAt (Elt F) (Rect.unit (s := S1x8x16) ![0, 7, 5] S1x1x1.size inb_S1x8x16_S1x1x1_0_7_5).toLoadRect (harg2.unread x0) (Shape.Idx.first (numel1_S1x1x1.symm ▸ Nat.one_pos)))) (k0_hw119 : k0_chk119 i (arg2.view.readAt (Elt F) (Rect.unit (s := S1x8x16) ![0, 7, 6] S1x1x1.size inb_S1x8x16_S1x1x1_0_7_6).toLoadRect (harg2.unread x0) (Shape.Idx.first (numel1_S1x1x1.symm ▸ Nat.one_pos)))) (k0_hw120 : k0_chk120 i (arg2.view.readAt (Elt F) (Rect.unit (s := S1x8x16) ![0, 7, 7] S1x1x1.size inb_S1x8x16_S1x1x1_0_7_7).toLoadRect (harg2.unread x0) (Shape.Idx.first (numel1_S1x1x1.symm ▸ Nat.one_pos)))) (k0_hw121 : k0_chk121 i (arg2.view.readAt (Elt F) (Rect.unit (s := S1x8x16) ![0, 7, 8] S1x1x1.size inb_S1x8x16_S1x1x1_0_7_8).toLoadRect (harg2.unread x0) (Shape.Idx.first (numel1_S1x1x1.symm ▸ Nat.one_pos)))) (k0_hw122 : k0_chk122 i (arg2.view.readAt (Elt F) (Rect.unit (s := S1x8x16) ![0, 7, 9] S1x1x1.size inb_S1x8x16_S1x1x1_0_7_9).toLoadRect (harg2.unread x0) (Shape.Idx.first (numel1_S1x1x1.symm ▸ Nat.one_pos)))) (k0_hw123 : k0_chk123 i (arg2.view.readAt (Elt F) (Rect.unit (s := S1x8x16) ![0, 7, 10] S1x1x1.size inb_S1x8x16_S1x1x1_0_7_10).toLoadRect (harg2.unread x0) (Shape.Idx.first (numel1_S1x1x1.symm ▸ Nat.one_pos)))) (k0_hw124 : k0_chk124 i (arg2.view.readAt (Elt F) (Rect.unit (s := S1x8x16) ![0, 7, 11] S1x1x1.size inb_S1x8x16_S1x1x1_0_7_11).toLoadRect (harg2.unread x0) (Shape.Idx.first (numel1_S1x1x1.symm ▸ Nat.one_pos)))) (k0_hw125 : k0_chk125 i (arg2.view.readAt (Elt F) (Rect.unit (s := S1x8x16) ![0, 7, 12] S1x1x1.size inb_S1x8x16_S1x1x1_0_7_12).toLoadRect (harg2.unread x0) (Shape.Idx.first (numel1_S1x1x1.symm ▸ Nat.one_pos)))) (k0_hw126 : k0_chk126 i (arg2.view.readAt (Elt F) (Rect.unit (s := S1x8x16) ![0, 7, 13] S1x1x1.size inb_S1x8x16_S1x1x1_0_7_13).toLoadRect (harg2.unread x0) (Shape.Idx.first (numel1_S1x1x1.symm ▸ Nat.one_pos)))) (k0_hw127 : k0_chk127 i (arg2.view.readAt (Elt F) (Rect.unit (s := S1x8x16) ![0, 7, 14] S1x1x1.size inb_S1x8x16_S1x1x1_0_7_14).toLoadRect (harg2.unread x0) (Shape.Idx.first (numel1_S1x1x1.symm ▸ Nat.one_pos)))) (k0_hw128 : k0_chk128 i (arg2.view.readAt (Elt F) (Rect.unit (s := S1x8x16) ![0, 7, 15] S1x1x1.size inb_S1x8x16_S1x1x1_0_7_15).toLoadRect (harg2.unread x0) (Shape.Idx.first (numel1_S1x1x1.symm ▸ Nat.one_pos)))) :
    (out0_A_1 c i arg2 harg2 arg4 harg4 arg5 harg5 arg6 harg6 x0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64 k0_hw65 k0_hw66 k0_hw67 k0_hw68 k0_hw69 k0_hw70 k0_hw71 k0_hw72 k0_hw73 k0_hw74 k0_hw75 k0_hw76 k0_hw77 k0_hw78 k0_hw79 k0_hw80 k0_hw81 k0_hw82 k0_hw83 k0_hw84 k0_hw85 k0_hw86 k0_hw87 k0_hw88 k0_hw89 k0_hw90 k0_hw91 k0_hw92 k0_hw93 k0_hw94 k0_hw95 k0_hw96 k0_hw97 k0_hw98 k0_hw99 k0_hw100 k0_hw101 k0_hw102 k0_hw103 k0_hw104 k0_hw105 k0_hw106 k0_hw107 k0_hw108 k0_hw109 k0_hw110 k0_hw111 k0_hw112 k0_hw113 k0_hw114 k0_hw115 k0_hw116 k0_hw117 k0_hw118 k0_hw119 k0_hw120 k0_hw121 k0_hw122 k0_hw123 k0_hw124 k0_hw125 k0_hw126 k0_hw127 k0_hw128 : S1x8x128.Idx → Elt F .f32) = outBlock c i x0 fh0 := by
  unfold out0_A_1
  rw [View.read_writes_junk_eq_canon, run_val, View.canon_unit_zero (S := S1x8x128) hz3]

/-- Entry (0, r, d) of the block is entry (r, d) of the accumulator after all steps. -/
theorem outBlock_apply (c : Dev nD) (i : grid0.Coords) (x0 : Vec F S1x8x16 .i32) (f : HbBuf0 (F := F) c hbM0_0)
    (z : Fin 1) (r : Fin 8) (d : Fin 128) :
    outBlock c i x0 f (ix3 z r d) = Cert.Pool.Peel.accAfter (startVal (F := F)) (landedRow c i x0 f) 128 (ix2 r d) := rfl

/-- The row step 16 r + k folds in is the feature row named by word (r, k) of the block. -/
theorem landedRow_row (c : Dev nD) (i : grid0.Coords) (x0 : Vec F S1x8x16 .i32) (f : HbBuf0 (F := F) c hbM0_0)
    (r : Fin 8) (k : Fin 16) (d : Fin 128) :
    landedRow c i x0 f (16 * r.val + k.val) d
      = (f : S4x32768x1x128.Idx → Elt F .f32)
          (ix4 (⟨(i 0).val, (i 0).isLt⟩ : Fin 4) (Cert.Pool.pos ((x0 : S1x8x16.Idx → BitVec 32) (ix3 (0 : Fin 1) r k))) (0 : Fin 1) d) := by
  have hr : (16 * r.val + k.val) / 16 % 8 = r.val := by have := r.isLt; have := k.isLt; omega
  have hk : (16 * r.val + k.val) % 16 = k.val := by have := k.isLt; omega
  unfold landedRow
  have e1 : (⟨(16 * r.val + k.val) / 16 % 8, Nat.mod_lt _ (by decide)⟩ : Fin 8) = r := Fin.ext hr
  have e2 : (⟨(16 * r.val + k.val) % 16, Nat.mod_lt _ (by decide)⟩ : Fin 16) = k := Fin.ext hk
  rw [e1, e2]

end AnyInstance

variable (m : (ℓ : Loc nD τ sig) → Buf (Elt Ideal) ℓ)

/-- The feature array as the region finds it, and a point's neighbour block, at their literal types. -/
abbrev featT (c : Dev nD) : S4x32768x1x128.Idx → EReal := V m c main_v1
abbrev nblk (c : Dev nD) (t : Fin cfg0.N) : S1x8x16.Idx → BitVec 32 := iblk m c 0 t

/-- The running maximum's start value denotes the bottom element. -/
theorem startVal_ideal : startVal (F := Ideal) = (⊥ : EReal) :=
  IdealRules.named_const.ideal_named_scalar κ "neg_big" (φ := .f32) 0xF149F2CA#32 ⊥ rfl

set_option maxHeartbeats 1500000 in
/-- Entry (0, r, d) of the block point `t` leaves: the maximum over the sixteen neighbours of row r. -/
theorem point_value (hH : Hyps m) (c : Dev nD) (t : Fin cfg0.N) (r : Fin 8) (d : Fin 128) :
    (outsAt0 m hH c t : S1x8x128.Idx → EReal) (ix3 (0 : Fin 1) r d)
      = (Finset.univ : Finset (Fin 16)).fold (max : EReal → EReal → EReal) (⊥ : EReal) fun k =>
          featT m c (ix4 (batchOf t) (Cert.Pool.pos (nblk m c t (ix3 (0 : Fin 1) r k))) (0 : Fin 1) d) := by
  unfold outsAt0
  rw [out0_eq, outBlock_apply, startVal_ideal, Cert.Pool.Peel.accAfter_ideal, Cert.Pool.accAfter_all]
  refine congrArg (fun f : Fin 16 → EReal => Finset.fold (max : EReal → EReal → EReal) (⊥ : EReal) f Finset.univ) (funext fun k => ?_)
  rw [landedRow_row]
  unfold batchOf
  rfl

end Cert.KernelIdeal.PointValue

end
-- ==== Proof.KernelValue.lean ====
/-
  The idealized kernel's result, as one function of its arguments.

  Point (b, q) of the grid writes rows 8 q, …, 8 q + 7 of batch b of the region's [4, 32768, 128] result, and
  what it writes at (b, n, d) is the pooled value of (b, d, n): the body's maximum over the sixteen neighbours
  (PointValue), read through the two layouts @main prepared (HostArrays).  The 4 × 4096 points' blocks tile the
  result, so the region ends with the pooled array, rows and lanes exchanged; the transpose after the region
  puts them back.
-/
import proofs.«412756_j23708219474789_1_alg».proof.Proof.FrameKI
import proofs.«412756_j23708219474789_1_alg».proof.Proof.HostArrays
import proofs.«412756_j23708219474789_1_alg».proof.Proof.PointValue
import proofs.«412756_j23708219474789_1_alg».proof.Proof.PoolSpec
import Idealize.ShloMosaic.Lib.Pipeline.Value
import Idealize.ShloMosaic.Lib.StableHlo.Run

set_option maxRecDepth 16384

noncomputable section

namespace Cert.KernelIdeal.KernelValue

open Cert.KernelIdeal Cert.KernelIdeal.Gen Cert.KernelIdeal.HostArrays Cert.Pool
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The argument arrays on core `c`. -/
abbrev feat (c : Dev nD) : SF.Idx → EReal := m ((c : Thread nD τ).loc main_arg0)
abbrev nbr (c : Dev nD) : SN.Idx → BitVec 32 := m ((c : Thread nD τ).loc main_arg1)

/-- The region's result: the pooled array with rows and lanes exchanged. -/
def pooledT (c : Dev nD) : S4x32768x128.Idx → EReal :=
  fun j => pooledAt (feat m c) (nbr m c) (j 0) (j 2) (j 1)

/-- What point `t` leaves at (0, r, d) is the pooled value of (b, d, 8 q + r). -/
theorem block_value (hH : Hyps m) (c : Dev nD) (t : Fin cfg0.N) (r : Fin 8) (d : Fin 128) :
    (outsAt0 m hH c t : S1x8x128.Idx → EReal) (ix3 (0 : Fin 1) r d)
      = pooledAt (feat m c) (nbr m c) (batchOf t) d (rowOf t r) := by
  rw [PointValue.point_value]
  unfold pooledAt
  refine congrArg (fun f : Fin 16 → EReal => Finset.fold (max : EReal → EReal → EReal) (⊥ : EReal) f Finset.univ) (funext fun k => ?_)
  unfold nbrVal
  show (V m c main_v1 : S4x32768x1x128.Idx → EReal) (ix4 (batchOf t)
      (pos ((iblk m c 0 t : S1x8x16.Idx → BitVec 32) (ix3 (0 : Fin 1) r k))) (0 : Fin 1) d) = _
  rw [featT_apply, nblk_apply, nbrT_apply]

/-- Entry (0, r, d) of point `t`'s output block is entry (b, 8 q + r, d) of the result. -/
theorem out_emb (t : Fin cfg0.N) (r : Fin 8) (d : Fin 128) :
    ((cfg0.win 1).blk t).view.emb (ix3 (0 : Fin 1) r d) = (ix3 (batchOf t) (rowOf t r) d : S4x32768x128.Idx) := by
  funext a
  apply Fin.ext
  have e := index1 t
  match a with
  | ⟨0, _⟩ =>
    show win0_1.index t (0 : Fin 3) * 1 + 1 * 0 = (batchOf t).val
    rw [e]; show (batchOf t).val * 1 + 1 * 0 = _; omega
  | ⟨1, _⟩ =>
    show win0_1.index t (1 : Fin 3) * 8 + 1 * r.val = 8 * (rowBlockOf t).val + r.val
    rw [e]; show (rowBlockOf t).val * 8 + 1 * r.val = _; omega
  | ⟨2, _⟩ =>
    show win0_1.index t (2 : Fin 3) * 128 + 1 * d.val = d.val
    rw [e]; show 0 * 128 + 1 * d.val = _; omega

/-- What point `t` writes back is its block of the pooled array. -/
theorem flushed_eq (hH : Hyps m) (c : Dev nD) (t : Fin cfg0.N) :
    (dats m hH 0 c).flushed 1 t = ((cfg0.win 1).blk t).view.read (Elt Ideal) (pooledT m c) := by
  show (cfg0.win 1).cut (grid0.coords t) ((dats m hH 0 c).after 1 t) = _
  rw [after0_1]
  funext j
  obtain ⟨z, r, d, rfl⟩ : ∃ (z : Fin 1) (r : Fin 8) (d : Fin 128), j = ix3 z r d := ⟨j 0, j 1, j 2, eq_ix3 j⟩
  obtain rfl : z = 0 := Subsingleton.elim _ _
  show (outsAt0 m hH c t : S1x8x128.Idx → EReal) (ix3 (0 : Fin 1) r d)
    = pooledT m c (((cfg0.win 1).blk t).view.emb (ix3 (0 : Fin 1) r d))
  rw [block_value, out_emb]
  rfl

/-- The grid point with batch b and row-block q. -/
theorem point_of (b : Fin 4) (q : Fin 4096) : ∃ t : Fin cfg0.N, batchOf t = b ∧ rowBlockOf t = q := by
  have hN : cfg0.N = 16384 := N_0
  have hs0 : grid0.stride 0 = 4096 := by decide
  have hs1 : grid0.stride 1 = 1 := by decide
  refine ⟨⟨b.val * 4096 + q.val, by rw [hN]; have := b.isLt; have := q.isLt; omega⟩, Fin.ext ?_, Fin.ext ?_⟩
  · show (b.val * 4096 + q.val) / grid0.stride 0 % 4 = b.val
    rw [hs0]; have := b.isLt; have := q.isLt; omega
  · show (b.val * 4096 + q.val) / grid0.stride 1 % 4096 = q.val
    rw [hs1]; have := b.isLt; have := q.isLt; omega

/-- An index of the result is in point `t`'s block iff each coordinate is in the block's range. -/
theorem mem_blk (t : Fin cfg0.N) (i : S4x32768x128.Idx) :
    i ∈ ((cfg0.win 1).blk t).view.set ↔ ∀ a : Fin 3, win0_1.index t a * S1x8x128.size a ≤ (i a).val
      ∧ (i a).val < win0_1.index t a * S1x8x128.size a + S1x8x128.size a := by
  show i ∈ ((View.whole main_v3).slice (win0_1.rect t)).set ↔ _
  rw [View.set_slice_whole, Rect.mem_set_unit]
  exact Iff.rfl

/-- The blocks tile the result. -/
theorem cover (i : S4x32768x128.Idx) :
    ∃ t : Fin cfg0.N, (cfg0.win 1).flush t = true ∧ i ∈ ((cfg0.win 1).blk t).view.set := by
  have h0 : (i 0).val < 4 := (i 0).isLt
  have h1 : (i 1).val < 32768 := (i 1).isLt
  have h2 : (i 2).val < 128 := (i 2).isLt
  obtain ⟨t, hb, hq⟩ := point_of ⟨(i 0).val, h0⟩ ⟨(i 1).val / 8, by omega⟩
  refine ⟨t, flush0_1 t, ?_⟩
  rw [mem_blk]
  have e := index1 t
  have hb' : (batchOf t).val = (i 0).val := congrArg Fin.val hb
  have hq' : (rowBlockOf t).val = (i 1).val / 8 := congrArg Fin.val hq
  intro a
  match a with
  | ⟨0, _⟩ =>
    show win0_1.index t (0 : Fin 3) * 1 ≤ (i 0).val ∧ (i 0).val < win0_1.index t (0 : Fin 3) * 1 + 1
    rw [e]; show (batchOf t).val * 1 ≤ (i 0).val ∧ (i 0).val < (batchOf t).val * 1 + 1; omega
  | ⟨1, _⟩ =>
    show win0_1.index t (1 : Fin 3) * 8 ≤ (i 1).val ∧ (i 1).val < win0_1.index t (1 : Fin 3) * 8 + 8
    rw [e]; show (rowBlockOf t).val * 8 ≤ (i 1).val ∧ (i 1).val < (rowBlockOf t).val * 8 + 8; omega
  | ⟨2, _⟩ =>
    show win0_1.index t (2 : Fin 3) * 128 ≤ (i 2).val ∧ (i 2).val < win0_1.index t (2 : Fin 3) * 128 + 128
    rw [e]; show 0 * 128 ≤ (i 2).val ∧ (i 2).val < 0 * 128 + 128; omega

/-- The region's result array after the run. -/
theorem final (hH : Hyps m) (c : Dev nD) : (dats m hH 0 c).arrAt 1 cfg0.N = pooledT m c :=
  (dats m hH 0 c).arrAt_eq_of_cover 1 (pooledT m c) (fun t _ => flushed_eq m hH c t) cover

/-- The transpose after the region, at an index. -/
theorem result_eq (hH : Hyps m) (c : Dev nD) :
    Pipeline.afterTail₀ cfgs (dats m hH) 0 (V0 m) [hostOps1] c main_v4 = pooled (feat m c) (nbr m c) := by
  unfold Pipeline.afterTail₀
  show StableHlo.after hostOps1 _ (Proc.devRef .tc main_v4) = _
  after_results
  rw [(Pipeline.withArrays_arr spec0 launch0.win.arr_inj c _ _ 1).trans (final m hH c)]
  funext j
  obtain ⟨b, d, n, rfl⟩ : ∃ (b : Fin 4) (d : Fin 128) (n : Fin 32768), j = ix3 b d n := ⟨j 0, j 1, j 2, eq_ix3 j⟩
  exact transpose_apply _ _ _ (ix3 b d n) (ix3 b n d) (fun a => match a with | ⟨0, _⟩ => rfl | ⟨1, _⟩ => rfl | ⟨2, _⟩ => rfl)

/-- The idealized kernel's run: it ends with the pooled array as its result and its arguments unchanged. -/
theorem run (hH : Hyps m) : θ_run defs (onTc (τ := τ) (main (F := Ideal))) ⟨m, fun _ => 0, ρ⟩ (fun r => ∀ c : Dev nD,
      r.2.mem ((c.tc : Thread nD τ).loc main_v4) = pooled (feat m c) (nbr m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v4 (Pipeline.mem_restRefs_of main_v4 (by decide) (by decide))).trans (result_eq m hH c),
      ((h c).2 main_arg0 (Pipeline.mem_restRefs_of main_arg0 (by decide) (by decide))).trans (W_main_arg0 m (dats m hH) c),
      ((h c).2 main_arg1 (Pipeline.mem_restRefs_of main_arg1 (by decide) (by decide))).trans (W_main_arg1 m (dats m hH) c)⟩)
    (run_main m ρ hH)

end Cert.KernelIdeal.KernelValue

end
-- ==== Proof.RefGather.lean ====
/-
  The reference's gather, read at one result index.

  The operand is the feature array [4, 128, 32768]; the start indices are the neighbour table with a unit axis
  appended, [4, 16, 32768, 1].  Axis 0 of both is a batching axis, the operand's axis 2 is the one the start
  index addresses (and is collapsed), and the operand's axis 1 is carried over whole.  So result entry
  (b, d, k, n) is the operand's entry (b, d, p), where p is the start index at (b, k, n, 0) read as a signed
  number and held inside [0, 32767].
-/
import proofs.«412756_j23708219474789_1_alg».proof.ReferenceIdeal
import Idealize.ShloMosaic.Lib.ValueIdx

noncomputable section

namespace Cert.ReferenceIdeal.RefGather

open Idealize.ShloMosaic Idealize.ShloMosaic.ValueIdx Cert.ReferenceIdeal

variable [Facts₀]

/-- The printed record of the gather's dimension numbers, under a short name. -/
abbrev gdims : GatherDims S4x128x32768 S4x16x32768x1 S4x128x16x32768 :=
  gather_S4x128x32768_S4x16x32768x1_S4x128x16x32768_1_2_0_0_2_3_11281

variable {w : Nat} (idx : IVec S4x16x32768x1 w) (b : Fin 4) (d : Fin 128) (k : Fin 16) (n : Fin 32768)

/-- The start-index entry that result entry (b, ·, k, n) reads. -/
theorem siIdx_eq (c : Fin gdims.startIndexMap.length) :
    gdims.siIdx (ix4 b d k n : S4x128x16x32768.Idx) c = (ix4 b k n (0 : Fin 1) : S4x16x32768x1.Idx) := by
  funext a
  refine Fin.ext ?_
  have hc : c.val = 0 := by
    have := c.isLt
    have hl : gdims.startIndexMap.length = 1 := rfl
    omega
  match a with
  | ⟨0, _⟩ => rfl
  | ⟨1, _⟩ => rfl
  | ⟨2, _⟩ => rfl
  | ⟨3, _⟩ => exact hc

/-! The three summands of the operand index, axis by axis: the clamped start (only the addressed axis 2 has
    one), the batch coordinate (only axis 0), the offset inside the slice (only axis 1). -/

theorem start0 : gdims.start (ix4 b d k n : S4x128x16x32768.Idx) idx (0 : Fin 3) = 0 := by with_unfolding_all rfl
theorem start1 : gdims.start (ix4 b d k n : S4x128x16x32768.Idx) idx (1 : Fin 3) = 0 := by with_unfolding_all rfl
theorem start2 : gdims.start (ix4 b d k n : S4x128x16x32768.Idx) idx (2 : Fin 3)
    = min (idx (ix4 b k n (0 : Fin 1))).toInt.toNat 32767 := by
  unfold GatherDims.start
  rw [dif_pos (show (2 : Fin 3) ∈ gdims.startIndexMap from List.mem_singleton.mpr rfl), siIdx_eq]
  rfl
theorem batch0 : gdims.batchCoord (ix4 b d k n : S4x128x16x32768.Idx) (0 : Fin 3) = b.val := by with_unfolding_all rfl
theorem batch1 : gdims.batchCoord (ix4 b d k n : S4x128x16x32768.Idx) (1 : Fin 3) = 0 := by with_unfolding_all rfl
theorem batch2 : gdims.batchCoord (ix4 b d k n : S4x128x16x32768.Idx) (2 : Fin 3) = 0 := by with_unfolding_all rfl
theorem off0 : gdims.offCoord (ix4 b d k n : S4x128x16x32768.Idx) (0 : Fin 3) = 0 := by with_unfolding_all rfl
theorem off1 : gdims.offCoord (ix4 b d k n : S4x128x16x32768.Idx) (1 : Fin 3) = d.val := by with_unfolding_all rfl
theorem off2 : gdims.offCoord (ix4 b d k n : S4x128x16x32768.Idx) (2 : Fin 3) = 0 := by with_unfolding_all rfl

/-- The gather at (b, d, k, n): the operand at (b, d, p), p the start index read signed and clamped. -/
theorem gather_apply {α : Type} (x : S4x128x32768.Idx → α) :
    Host.gather gdims x idx (ix4 b d k n)
      = x (ix3 b d ⟨min (idx (ix4 b k n (0 : Fin 1))).toInt.toNat 32767, by omega⟩) := by
  unfold Host.gather
  congr 1
  funext a
  refine Fin.ext ?_
  match a with
  | ⟨0, _⟩ =>
    show gdims.start (ix4 b d k n) idx (0 : Fin 3) + gdims.batchCoord (ix4 b d k n) (0 : Fin 3)
      + gdims.offCoord (ix4 b d k n) (0 : Fin 3) = b.val
    rw [start0, batch0, off0]; omega
  | ⟨1, _⟩ =>
    show gdims.start (ix4 b d k n) idx (1 : Fin 3) + gdims.batchCoord (ix4 b d k n) (1 : Fin 3)
      + gdims.offCoord (ix4 b d k n) (1 : Fin 3) = d.val
    rw [start1, batch1, off1]; omega
  | ⟨2, _⟩ =>
    show gdims.start (ix4 b d k n) idx (2 : Fin 3) + gdims.batchCoord (ix4 b d k n) (2 : Fin 3)
      + gdims.offCoord (ix4 b d k n) (2 : Fin 3) = min (idx (ix4 b k n (0 : Fin 1))).toInt.toNat 32767
    rw [start2, batch2, off2]; omega

end Cert.ReferenceIdeal.RefGather

end
-- ==== Proof.RefValue.lean ====
/-
  The reference's result is the pooled array.

  The reference wraps a negative neighbour word by +32768, gathers feature entry (b, d, p) for result entry
  (b, d, k, n) with p the word read signed and clamped into [0, 32767], and takes the maximum over k from −∞.
  On a neighbour table whose words all lie in [0, 32768) the wrap and the clamp do nothing, and −∞ is the bottom
  element, so the result at (b, d, n) is the maximum over k of features (b, d, neighbours (b, k, n)).
-/
import proofs.«412756_j23708219474789_1_alg».proof.Proof.RefGather
import proofs.«412756_j23708219474789_1_alg».proof.Proof.PoolSpec
import proofs.«412756_j23708219474789_1_alg».proof.Proof.Gen.ReferenceIdeal.Run
import Idealize.ShloMosaic.Lib.Affine
import Idealize.ShloMosaic.PureOps.Reduce
import Idealize.ShloMosaic.PureOps.Ideal.Laws
import Idealize.ShloMosaic.Lib.Pipeline.Value

noncomputable section

namespace Cert.ReferenceIdeal.RefValue

open Idealize.ShloMosaic Idealize.ShloMosaic.ValueIdx Cert.ReferenceIdeal Cert.ReferenceIdeal.RefGather

variable [Facts₀]
open Facts₀

/-! ## The reference's index arithmetic on a word in range -/

/-- A neighbour word in [0, 32768) passes the reference's index arithmetic unchanged: it is not negative, so it
    is not wrapped by +32768, and read signed it is already inside [0, 32767], so the clamp leaves it. -/
theorem ref_index (w : BitVec 32) (hw : w.toNat < 32768) :
    min (Scalar.select (IntOp.cmpi .slt w 0#32) (IntOp.addi w 32768#32) w).toInt.toNat 32767 = w.toNat := by
  have hint : w.toInt = (w.toNat : Int) := by
    rw [BitVec.toInt_eq_toNat_cond]
    split <;> omega
  have hlt : ¬ IntOp.cmpi .slt w 0#32 = 1#1 := by
    rw [IntOp.cmpi_slt, hint]
    have e0 : (0#32 : BitVec 32).toInt = 0 := by decide
    rw [e0]
    omega
  unfold Scalar.select
  rw [if_neg (show ¬ IntOp.cmpi .slt w 0#32 = 1 from hlt), hint]
  omega

/-- The reduced index (b, d, n) with the neighbour coordinate k put back is (b, d, k, n). -/
theorem lift_eq (h : S4x128x16x32768.Reduces [2] S4x128x32768) (b : Fin 4) (d : Fin 128) (n : Fin 32768)
    (k : Fin (S4x128x16x32768.size 2)) :
    h.lift (ix3 b d n) k = (ix4 b d (⟨k.val, k.isLt⟩ : Fin 16) n : S4x128x16x32768.Idx) := by
  funext c
  apply Fin.ext
  fin_cases c <;> rfl

/-- The start-index array the gather is given, at (b, k, n, 0): the neighbour word at (b, k, n), with 32768 added if
    it is negative. -/
theorem idx_apply (nb : IVec S4x16x32768 32) (b : Fin 4) (k : Fin 16) (n : Fin 32768) :
    broadcastInDim S4x16x32768x1 ![0, 1, 2] bcast_S4x16x32768_S4x16x32768x1_0_1_2
        (select (cmpi .slt nb (broadcastInDim S4x16x32768 ![] bcast_S_S4x16x32768 (constantI S_ 32 0#32)))
          (addi nb (broadcastInDim S4x16x32768 ![] bcast_S_S4x16x32768 (constantI S_ 32 32768#32))) nb)
        (ix4 b k n (0 : Fin 1))
      = Scalar.select (IntOp.cmpi .slt (nb (ix3 b k n)) 0#32) (IntOp.addi (nb (ix3 b k n)) 32768#32) (nb (ix3 b k n)) := by
  have hconst : ∀ (c : BitVec 32) (i : S4x16x32768.Idx),
      broadcastInDim S4x16x32768 ![] bcast_S_S4x16x32768 (constantI S_ 32 c) i = c :=
    fun c i => broadcastInDim_apply _ _ _ i ix0 (fun a => a.elim0)
  rw [broadcastInDim_apply _ _ _ (ix4 b k n (0 : Fin 1)) (ix3 b k n)
    (fun a => match a with | ⟨0, _⟩ => rfl | ⟨1, _⟩ => rfl | ⟨2, _⟩ => rfl)]
  show Scalar.select (IntOp.cmpi .slt (nb (ix3 b k n))
        (broadcastInDim S4x16x32768 ![] bcast_S_S4x16x32768 (constantI S_ 32 0#32) (ix3 b k n)))
      (IntOp.addi (nb (ix3 b k n))
        (broadcastInDim S4x16x32768 ![] bcast_S_S4x16x32768 (constantI S_ 32 32768#32) (ix3 b k n)))
      (nb (ix3 b k n)) = _
  rw [hconst, hconst]

/-- THE REFERENCE'S TERM IS THE POOLED ARRAY: the gather through the wrapped and clamped indices followed by
    the maximum over the neighbour axis from −∞, on a neighbour table whose words are all in range. -/
theorem ref_term (x : FVec Ideal S4x128x32768 .f32) (nb : IVec S4x16x32768 32) (hr : ∀ i, (nb i).toNat < 32768) :
    Host.reduce FloatOps.maximumf
      (Host.gather gdims x
        (broadcastInDim S4x16x32768x1 ![0, 1, 2] bcast_S4x16x32768_S4x16x32768x1_0_1_2
          (select (cmpi .slt nb (broadcastInDim S4x16x32768 ![] bcast_S_S4x16x32768 (constantI S_ 32 0#32)))
            (addi nb (broadcastInDim S4x16x32768 ![] bcast_S_S4x16x32768 (constantI S_ 32 32768#32))) nb)))
      (constant (F := Ideal) S_ .f32 0xFF800000#32) reducesTo_S4x128x16x32768_S4x128x32768_d2 h_S_
    = Cert.Pool.pooled x nb := by
  have hred : S4x128x16x32768.Reduces [2] S4x128x32768 := by decide
  funext j
  obtain ⟨b, d, n, rfl⟩ : ∃ (b : Fin 4) (d : Fin 128) (n : Fin 32768), j = ix3 b d n := ⟨j 0, j 1, j 2, eq_ix3 j⟩
  rw [Host.reduce_eq_fold_single (FloatOps.maximumf (F := Ideal) (φ := .f32)) _ _ _ hred h_S_]
  show _ = Cert.Pool.pooledAt x nb b d n
  unfold Cert.Pool.pooledAt
  have hinit : (constant (F := Ideal) S_ .f32 0xFF800000#32) (Shape.Idx.first h_S_) = (⊥ : EReal) := by
    show Ideal.ofBits .f32 0xFF800000#32 = ⊥
    simp [Ideal.ofBits, Ideal.ieee]
  rw [hinit]
  show Finset.fold max ⊥ (Host.gather gdims x _ ∘ hred.lift (ix3 b d n)) Finset.univ
    = Finset.fold max ⊥ (Cert.Pool.nbrVal x nb b d n) Finset.univ
  congr 1
  funext k
  show Host.gather gdims x _ (hred.lift (ix3 b d n) k) = Cert.Pool.nbrVal x nb b d n k
  rw [lift_eq, gather_apply]
  unfold Cert.Pool.nbrVal
  congr 2
  apply Fin.ext
  show min (BitVec.toInt _).toNat 32767 = _
  rw [idx_apply nb b ⟨k.val, k.isLt⟩ n, ref_index _ (hr _)]
  exact (Cert.Pool.pos_val _ (hr _)).symm

end Cert.ReferenceIdeal.RefValue

end
-- ==== Proof.lean ====
/-
  Neighbourhood max-pooling: the kernel against its reference, over the extended reals.

      out (b, d, n) = max over k < 16 of features (b, d, neighbours (b, k, n))

  The kernel transposes both arguments, and at each of 4 × 4096 grid points copies, one at a time, the 128
  feature rows its 8 × 16 block of neighbour words names into a landing buffer, folding each into a row of an
  accumulator that starts at the constant named "neg_big"; the reference gathers all rows and reduces with a
  maximum from −∞.  With "neg_big" read as −∞ — the bottom element, neutral for the maximum — both compute the
  function `Cert.Pool.pooled` of the two arguments (KernelValue, RefValue).

  The precondition asks, beside finite features, that every neighbour word lies in [0, 32768): the body assumes
  of each word it loads that the feature row it names exists, which is that range (HypsK, HypsKI: the frames'
  hypothesis), and in that range the reference's index arithmetic (a wrap of negative indices, a clamp) is the
  identity.
-/
import proofs.«412756_j23708219474789_1_alg».proof.Defs
import proofs.«412756_j23708219474789_1_alg».proof.Proof.Gen.Kernel
import proofs.«412756_j23708219474789_1_alg».proof.Proof.FrameK
import proofs.«412756_j23708219474789_1_alg».proof.Proof.Gen.KernelIdeal
import proofs.«412756_j23708219474789_1_alg».proof.Proof.FrameKI
import proofs.«412756_j23708219474789_1_alg».proof.Proof.Gen.ReferenceIdeal
import proofs.«412756_j23708219474789_1_alg».proof.Proof.Gen.ReferenceIdeal.Run
import proofs.«412756_j23708219474789_1_alg».proof.Proof.Gen.Pre_finite_inputs
import proofs.«412756_j23708219474789_1_alg».proof.Proof.PreRange
import proofs.«412756_j23708219474789_1_alg».proof.Proof.HypsK
import proofs.«412756_j23708219474789_1_alg».proof.Proof.HypsKI
import proofs.«412756_j23708219474789_1_alg».proof.Proof.KernelValue
import proofs.«412756_j23708219474789_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel's frame: under the precondition every word the body loads names a feature row. -/
theorem frame_k : Cert.frame_Kernel := fun m ρ h =>
  Cert.Kernel.Gen.frame m ρ (Cert.Kernel.HypsOfPre.hyps_of_range m fun c i => Cert.Pool.PreRange.nbr_lt _ _ (h c) i)

/-- The idealized kernel's frame, the same way. -/
theorem frame_ki : Cert.frame_KernelIdeal := fun m ρ h =>
  Cert.KernelIdeal.Gen.frame m ρ (Cert.KernelIdeal.HypsOfPre.hyps_of_range m fun c i => Cert.Pool.PreRange.nbr_lt _ _ (h c) i)

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the running maximum's start value "neg_big" denotes −∞. -/
theorem preserves : Cert.preserves_Kernel_KernelIdeal :=
  IdealRules.named_const.statement Cert.KernelIdeal.κ "neg_big" .f32 0xF149F2CA#32 ⊥ rfl

/-- Both idealized programs end with the pooled array of the (agreeing) arguments. -/
theorem algebraic : Cert.algebraic_KernelIdeal_ReferenceIdeal := by
  intro m ρ m' ρ' hpre hagree
  have hr : ∀ (c : Dev Cert.KernelIdeal.nD) i, ((m ((c : Thread Cert.KernelIdeal.nD Cert.KernelIdeal.τ).loc Cert.KernelIdeal.main_arg1)
      : Cert.KernelIdeal.S4x16x32768.Idx → BitVec 32) i).toNat < 32768 := fun c i => Cert.Pool.PreRange.nbr_lt _ _ (hpre c) i
  refine ⟨fun c => Cert.Pool.pooled (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.KernelValue.run m ρ (Cert.KernelIdeal.HypsOfPre.hyps_of_range m hr), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.ref_term _ _ (hr c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
